-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v281) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x6 : Shape := ⟨2, ![32768, 6]⟩
abbrev S524288x2 : Shape := ⟨2, ![524288, 2]⟩
abbrev S524288 : Shape := ⟨1, ![524288]⟩
abbrev S32768 : Shape := ⟨1, ![32768]⟩
abbrev S256x16 : Shape := ⟨2, ![256, 16]⟩
abbrev S256x2 : Shape := ⟨2, ![256, 2]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S82x256 : Shape := ⟨2, ![82, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S32768x6 : S_.BroadcastsInDim S32768x6 (![] : Fin 0 → Fin S32768x6.rank)
  reducesTo_S32768x6_S_d0_1 : S32768x6.ReducesTo [0, 1] S_
  h_S_ : 0 < S_.numel
  bcast_S_S524288x2 : S_.BroadcastsInDim S524288x2 (![] : Fin 0 → Fin S524288x2.rank)
  reducesTo_S524288x2_S_d0_1 : S524288x2.ReducesTo [0, 1] S_
  bcast_S_S256x16 : S_.BroadcastsInDim S256x16 (![] : Fin 0 → Fin S256x16.rank)
  reducesTo_S256x16_S_d0_1 : S256x16.ReducesTo [0, 1] S_
  bcast_S_S256x2 : S_.BroadcastsInDim S256x2 (![] : Fin 0 → Fin S256x2.rank)
  reducesTo_S256x2_S_d0_1 : S256x2.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S82x256 : S_.BroadcastsInDim S82x256 (![] : Fin 0 → Fin S82x256.rank)
  reducesTo_S82x256_S_d0_1 : S82x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg28 : FVec F S256 .f32) (main_arg29 : FVec F S256x1 .f32) (main_arg30 : FVec F S1 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg28
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x1 .f32 := Host.absf main_arg29
  let main_cst_50 : FVec F S_ .f32 := constant S_ .f32 0x7F800000#32
  let main_v130 : FVec F S256x1 .f32 := broadcastInDim S256x1 ![] bcast_S_S256x1 main_cst_50
  let main_v131 : IVec S256x1 1 := cmpf .olt main_v129 main_v130
  let main_c_51 : IVec S_ 1 := constantI S_ 1 1#1
  let main_v132 : IVec S_ 1 := (fun x v => Host.reduce IntOp.andi x v reducesTo_S256x1_S_d0_1 h_S_) main_v131 main_c_51
  let main_v133 : IVec S_ 1 := andi main_v128 main_v132
  let main_v134 : FVec F S1 .f32 := Host.absf main_arg30
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v98 : IVec S_ 1) (main_v101 : IVec S3x64 1) (main_c_39 : IVec S_ 1) : IVec S_ 1 :=
  let main_v102 : IVec S_ 1 := (fun x v => Host.reduce IntOp.andi x v reducesTo_S3x64_S_d0_1 h_S_) main_v101 main_c_39
  let main_v103 : IVec S_ 1 := andi main_v98 main_v102
  let main_v104 : FVec F S3x64 .f32 := Host.absf main_arg24
  let main_cst_40 : FVec F S_ .f32 := constant S_ .f32 0x7F800000#32
  let main_v105 : FVec F S3x64 .f32 := broadcastInDim S3x64 ![] bcast_S_S3x64 main_cst_40
  let main_v106 : IVec S3x64 1 := cmpf .olt main_v104 main_v105
  let main_c_41 : IVec S_ 1 := constantI S_ 1 1#1
  let main_v107 : IVec S_ 1 := (fun x v => Host.reduce IntOp.andi x v reducesTo_S3x64_S_d0_1 h_S_) main_v106 main_c_41
  let main_v108 : IVec S_ 1 := andi main_v103 main_v107
  let main_v109 : FVec F S82x256 .f32 := Host.absf main_arg25
  let main_cst_42 : FVec F S_ .f32 := constant S_ .f32 0x7F800000#32
  let main_v110 : FVec F S82x256 .f32 := broadcastInDim S82x256 ![] bcast_S_S82x256 main_cst_42
  let main_v111 : IVec S82x256 1 := cmpf .olt main_v109 main_v110
  let main_c_43 : IVec S_ 1 := constantI S_ 1 1#1
  let main_v112 : IVec S_ 1 := (fun x v => Host.reduce IntOp.andi x v reducesTo_S82x256_S_d0_1 h_S_) main_v111 main_c_43
  let main_v113 : IVec S_ 1 := andi main_v108 main_v112
  let main_v114 : FVec F S256 .f32 := Host.absf main_arg26
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg27
  fn_part7 (F := F) main_arg28 main_arg29 main_arg30 main_v118 main_v119

def fn_part5 {F : FTy → Type} [FloatOps F] (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg21
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S3x64 .f32 := Host.absf main_arg22
  let main_cst_36 : FVec F S_ .f32 := constant S_ .f32 0x7F800000#32
  let main_v95 : FVec F S3x64 .f32 := broadcastInDim S3x64 ![] bcast_S_S3x64 main_cst_36
  let main_v96 : IVec S3x64 1 := cmpf .olt main_v94 main_v95
  let main_c_37 : IVec S_ 1 := constantI S_ 1 1#1
  let main_v97 : IVec S_ 1 := (fun x v => Host.reduce IntOp.andi x v reducesTo_S3x64_S_d0_1 h_S_) main_v96 main_c_37
  let main_v98 : IVec S_ 1 := andi main_v93 main_v97
  let main_v99 : FVec F S3x64 .f32 := Host.absf main_arg23
  let main_cst_38 : FVec F S_ .f32 := constant S_ .f32 0x7F800000#32
  let main_v100 : FVec F S3x64 .f32 := broadcastInDim S3x64 ![] bcast_S_S3x64 main_cst_38
  let main_v101 : IVec S3x64 1 := cmpf .olt main_v99 main_v100
  let main_c_39 : IVec S_ 1 := constantI S_ 1 1#1
  fn_part6 (F := F) main_arg24 main_arg25 main_arg26 main_arg27 main_arg28 main_arg29 main_arg30 main_v98 main_v101 main_c_39

def fn_part4 {F : FTy → Type} [FloatOps F] (main_arg17 : FVec F S3x64x64 .f32) (main_arg18 : FVec F S3x64 .f32) (main_arg19 : FVec F S3x64x64 .f32) (main_arg20 : FVec F S3x64 .f32) (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v63 : IVec S_ 1) (main_v67 : IVec S_ 1) : IVec S_ 1 :=
  let main_v68 : IVec S_ 1 := andi main_v63 main_v67
  let main_v69 : FVec F S3x64x64 .f32 := Host.absf main_arg17
  let main_cst_26 : FVec F S_ .f32 := constant S_ .f32 0x7F800000#32
  let main_v70 : FVec F S3x64x64 .f32 := broadcastInDim S3x64x64 ![] bcast_S_S3x64x64 main_cst_26
  let main_v71 : IVec S3x64x64 1 := cmpf .olt main_v69 main_v70
  let main_c_27 : IVec S_ 1 := constantI S_ 1 1#1
  let main_v72 : IVec S_ 1 := (fun x v => Host.reduce IntOp.andi x v reducesTo_S3x64x64_S_d0_1_2 h_S_) main_v71 main_c_27
  let main_v73 : IVec S_ 1 := andi main_v68 main_v72
  let main_v74 : FVec F S3x64 .f32 := Host.absf main_arg18
  let main_cst_28 : FVec F S_ .f32 := constant S_ .f32 0x7F800000#32
  let main_v75 : FVec F S3x64 .f32 := broadcastInDim S3x64 ![] bcast_S_S3x64 main_cst_28
  let main_v76 : IVec S3x64 1 := cmpf .olt main_v74 main_v75
  let main_c_29 : IVec S_ 1 := constantI S_ 1 1#1
  let main_v77 : IVec S_ 1 := (fun x v => Host.reduce IntOp.andi x v reducesTo_S3x64_S_d0_1 h_S_) main_v76 main_c_29
  let main_v78 : IVec S_ 1 := andi main_v73 main_v77
  let main_v79 : FVec F S3x64x64 .f32 := Host.absf main_arg19
  let main_cst_30 : FVec F S_ .f32 := constant S_ .f32 0x7F800000#32
  let main_v80 : FVec F S3x64x64 .f32 := broadcastInDim S3x64x64 ![] bcast_S_S3x64x64 main_cst_30
  let main_v81 : IVec S3x64x64 1 := cmpf .olt main_v79 main_v80
  let main_c_31 : IVec S_ 1 := constantI S_ 1 1#1
  let main_v82 : IVec S_ 1 := (fun x v => Host.reduce IntOp.andi x v reducesTo_S3x64x64_S_d0_1_2 h_S_) main_v81 main_c_31
  let main_v83 : IVec S_ 1 := andi main_v78 main_v82
  let main_v84 : FVec F S3x64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_v83 main_v84 main_cst_32

def fn_part3 {F : FTy → Type} [FloatOps F] (main_arg14 : FVec F S3x64 .f32) (main_arg15 : FVec F S3x64x64 .f32) (main_arg16 : FVec F S3x64 .f32) (main_arg17 : FVec F S3x64x64 .f32) (main_arg18 : FVec F S3x64 .f32) (main_arg19 : FVec F S3x64x64 .f32) (main_arg20 : FVec F S3x64 .f32) (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg14
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg15
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg16
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg17 main_arg18 main_arg19 main_arg20 main_arg21 main_arg22 main_arg23 main_arg24 main_arg25 main_arg26 main_arg27 main_arg28 main_arg29 main_arg30 main_v63 main_v67

def fn_part2 {F : FTy → Type} [FloatOps F] (main_arg10 : FVec F S64 .f32) (main_arg11 : FVec F S3x64x64 .f32) (main_arg12 : FVec F S3x64 .f32) (main_arg13 : FVec F S3x64x64 .f32) (main_arg14 : FVec F S3x64 .f32) (main_arg15 : FVec F S3x64x64 .f32) (main_arg16 : FVec F S3x64 .f32) (main_arg17 : FVec F S3x64x64 .f32) (main_arg18 : FVec F S3x64 .f32) (main_arg19 : FVec F S3x64x64 .f32) (main_arg20 : FVec F S3x64 .f32) (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x64 .f32 := Host.absf main_arg11
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg12
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg13
  let main_cst_18 : FVec F S_ .f32 := constant S_ .f32 0x7F800000#32
  let main_v50 : FVec F S3x64x64 .f32 := broadcastInDim S3x64x64 ![] bcast_S_S3x64x64 main_cst_18
  fn_part3 (F := F) main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg7 : FVec F S6x64 .f32) (main_arg8 : FVec F S64 .f32) (main_arg9 : FVec F S2x64 .f32) (main_arg10 : FVec F S64 .f32) (main_arg11 : FVec F S3x64x64 .f32) (main_arg12 : FVec F S3x64 .f32) (main_arg13 : FVec F S3x64x64 .f32) (main_arg14 : FVec F S3x64 .f32) (main_arg15 : FVec F S3x64x64 .f32) (main_arg16 : FVec F S3x64 .f32) (main_arg17 : FVec F S3x64x64 .f32) (main_arg18 : FVec F S3x64 .f32) (main_arg19 : FVec F S3x64x64 .f32) (main_arg20 : FVec F S3x64 .f32) (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S6x64 .f32 := Host.absf main_arg7
  let main_cst_6 : FVec F S_ .f32 := constant S_ .f32 0x7F800000#32
  let main_v20 : FVec F S6x64 .f32 := broadcastInDim S6x64 ![] bcast_S_S6x64 main_cst_6
  let main_v21 : IVec S6x64 1 := cmpf .olt main_v19 main_v20
  let main_c_7 : IVec S_ 1 := constantI S_ 1 1#1
  let main_v22 : IVec S_ 1 := (fun x v => Host.reduce IntOp.andi x v reducesTo_S6x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg9
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S32768x6 .f32) (main_arg1 : FVec F S524288x2 .f32) (main_arg2 : IVec S524288 32) (main_arg3 : IVec S524288 32) (main_arg4 : IVec S32768 32) (main_arg5 : FVec F S256x16 .f32) (main_arg6 : FVec F S256x2 .f32) (main_arg7 : FVec F S6x64 .f32) (main_arg8 : FVec F S64 .f32) (main_arg9 : FVec F S2x64 .f32) (main_arg10 : FVec F S64 .f32) (main_arg11 : FVec F S3x64x64 .f32) (main_arg12 : FVec F S3x64 .f32) (main_arg13 : FVec F S3x64x64 .f32) (main_arg14 : FVec F S3x64 .f32) (main_arg15 : FVec F S3x64x64 .f32) (main_arg16 : FVec F S3x64 .f32) (main_arg17 : FVec F S3x64x64 .f32) (main_arg18 : FVec F S3x64 .f32) (main_arg19 : FVec F S3x64x64 .f32) (main_arg20 : FVec F S3x64 .f32) (main_arg21 : FVec F S3x64 .f32) (main_arg22 : FVec F S3x64 .f32) (main_arg23 : FVec F S3x64 .f32) (main_arg24 : FVec F S3x64 .f32) (main_arg25 : FVec F S82x256 .f32) (main_arg26 : FVec F S256 .f32) (main_arg27 : FVec F S256x256 .f32) (main_arg28 : FVec F S256 .f32) (main_arg29 : FVec F S256x1 .f32) (main_arg30 : FVec F S1 .f32) : IVec S_ 1 :=
  let main_v0 : FVec F S32768x6 .f32 := Host.absf main_arg0
  let main_cst : FVec F S_ .f32 := constant S_ .f32 0x7F800000#32
  let main_v1 : FVec F S32768x6 .f32 := broadcastInDim S32768x6 ![] bcast_S_S32768x6 main_cst
  let main_v2 : IVec S32768x6 1 := cmpf .olt main_v0 main_v1
  let main_c : IVec S_ 1 := constantI S_ 1 1#1
  let main_v3 : IVec S_ 1 := (fun x v => Host.reduce IntOp.andi x v reducesTo_S32768x6_S_d0_1 h_S_) main_v2 main_c
  let main_v4 : FVec F S524288x2 .f32 := Host.absf main_arg1
  let main_cst_0 : FVec F S_ .f32 := constant S_ .f32 0x7F800000#32
  let main_v5 : FVec F S524288x2 .f32 := broadcastInDim S524288x2 ![] bcast_S_S524288x2 main_cst_0
  let main_v6 : IVec S524288x2 1 := cmpf .olt main_v4 main_v5
  let main_c_1 : IVec S_ 1 := constantI S_ 1 1#1
  let main_v7 : IVec S_ 1 := (fun x v => Host.reduce IntOp.andi x v reducesTo_S524288x2_S_d0_1 h_S_) main_v6 main_c_1
  let main_v8 : IVec S_ 1 := andi main_v3 main_v7
  let main_v9 : FVec F S256x16 .f32 := Host.absf main_arg5
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S256x2 .f32 := Host.absf main_arg6
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S32768x6 : Shape := ⟨2, ![32768, 6]⟩
abbrev S524288x2 : Shape := ⟨2, ![524288, 2]⟩
abbrev S524288 : Shape := ⟨1, ![524288]⟩
abbrev S32768 : Shape := ⟨1, ![32768]⟩
abbrev S256x16 : Shape := ⟨2, ![256, 16]⟩
abbrev S256x2 : Shape := ⟨2, ![256, 2]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S82x256 : Shape := ⟨2, ![82, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x64 : Shape := ⟨2, ![1, 64]⟩
abbrev S32768x64 : Shape := ⟨2, ![32768, 64]⟩
abbrev S4096x6 : Shape := ⟨2, ![4096, 6]⟩
abbrev S4096x64 : Shape := ⟨2, ![4096, 64]⟩
abbrev S524288x64 : Shape := ⟨2, ![524288, 64]⟩
abbrev S4096x2 : Shape := ⟨2, ![4096, 2]⟩
abbrev S1x64x64 : Shape := ⟨3, ![1, 64, 64]⟩
abbrev S64x64 : Shape := ⟨2, ![64, 64]⟩
abbrev S64x256 : Shape := ⟨2, ![64, 256]⟩
abbrev S1x256 : Shape := ⟨2, ![1, 256]⟩
abbrev S32768x256 : Shape := ⟨2, ![32768, 256]⟩
abbrev S4096x256 : Shape := ⟨2, ![4096, 256]⟩
abbrev S_ : Shape := ⟨0, ![]⟩
abbrev S524288x1 : Shape := ⟨2, ![524288, 1]⟩
abbrev S8192x64 : Shape := ⟨2, ![8192, 64]⟩
abbrev S32768x1 : Shape := ⟨2, ![32768, 1]⟩
abbrev S256x64 : Shape := ⟨2, ![256, 64]⟩
abbrev S256x82 : Shape := ⟨2, ![256, 82]⟩
abbrev S1x1 : Shape := ⟨2, ![1, 1]⟩

abbrev nBuf : Space → Nat
  | .hbm => 494
  | .vmem => 146
  | .smem => 0
  | _ => 0

abbrev hbmTy0_0 (i : Nat) : BufTy := match i % 128 with
  | 0 => ⟨S32768x6, .f32⟩
  | 1 => ⟨S524288x2, .f32⟩
  | 2 => ⟨S524288, .i32⟩
  | 3 => ⟨S524288, .i32⟩
  | 4 => ⟨S32768, .i32⟩
  | 5 => ⟨S256x16, .f32⟩
  | 6 => ⟨S256x2, .f32⟩
  | 7 => ⟨S6x64, .f32⟩
  | 8 => ⟨S64, .f32⟩
  | 9 => ⟨S2x64, .f32⟩
  | 10 => ⟨S64, .f32⟩
  | 11 => ⟨S3x64x64, .f32⟩
  | 12 => ⟨S3x64, .f32⟩
  | 13 => ⟨S3x64x64, .f32⟩
  | 14 => ⟨S3x64, .f32⟩
  | 15 => ⟨S3x64x64, .f32⟩
  | 16 => ⟨S3x64, .f32⟩
  | 17 => ⟨S3x64x64, .f32⟩
  | 18 => ⟨S3x64, .f32⟩
  | 19 => ⟨S3x64x64, .f32⟩
  | 20 => ⟨S3x64, .f32⟩
  | 21 => ⟨S3x64, .f32⟩
  | 22 => ⟨S3x64, .f32⟩
  | 23 => ⟨S3x64, .f32⟩
  | 24 => ⟨S3x64, .f32⟩
  | 25 => ⟨S82x256, .f32⟩
  | 26 => ⟨S256, .f32⟩
  | 27 => ⟨S256x256, .f32⟩
  | 28 => ⟨S256, .f32⟩
  | 29 => ⟨S256x1, .f32⟩
  | 30 => ⟨S1, .f32⟩
  | 31 => ⟨S1x64, .f32⟩
  | 32 => ⟨S32768x64, .f32⟩
  | 33 => ⟨S1x64, .f32⟩
  | 34 => ⟨S524288x64, .f32⟩
  | 35 => ⟨S1x64x64, .f32⟩
  | 36 => ⟨S64x64, .f32⟩
  | 37 => ⟨S1x64x64, .f32⟩
  | 38 => ⟨S64x64, .f32⟩
  | 39 => ⟨S1x64x64, .f32⟩
  | 40 => ⟨S64x64, .f32⟩
  | 41 => ⟨S1x64x64, .f32⟩
  | 42 => ⟨S64x64, .f32⟩
  | 43 => ⟨S64x256, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S256, .f32⟩
  | 53 => ⟨S1x256, .f32⟩
  | 54 => ⟨S32768x256, .f32⟩
  | 55 => ⟨S32768x64, .f32⟩
  | 56 => ⟨S32768x64, .f32⟩
  | 57 => ⟨S32768x64, .f32⟩
  | 58 => ⟨S32768x64, .f32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S524288x1, .i32⟩
  | 67 => ⟨S524288x64, .f32⟩
  | 68 => ⟨S_, .i32⟩
  | 69 => ⟨S524288, .i32⟩
  | 70 => ⟨S524288, .i1⟩
  | 71 => ⟨S_, .i32⟩
  | 72 => ⟨S524288, .i32⟩
  | 73 => ⟨S524288, .i32⟩
  | 74 => ⟨S524288, .i32⟩
  | 75 => ⟨S524288x1, .i32⟩
  | 76 => ⟨S524288x64, .f32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S524288x1, .i32⟩
  | 85 => ⟨S524288x64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S524288x64, .f32⟩
  | 92 => ⟨S524288x64, .f32⟩
  | 93 => ⟨S524288x64, .f32⟩
  | 94 => ⟨S_, .f32⟩
  | 95 => ⟨S32768x64, .f32⟩
  | 96 => ⟨S524288x1, .i32⟩
  | 97 => ⟨S32768x64, .f32⟩
  | 98 => ⟨S_, .f32⟩
  | 99 => ⟨S32768x64, .f32⟩
  | 100 => ⟨S524288x1, .i32⟩
  | 101 => ⟨S32768x64, .f32⟩
  | 102 => ⟨S_, .f32⟩
  | 103 => ⟨S32768x64, .f32⟩
  | 104 => ⟨S32768x64, .f32⟩
  | 105 => ⟨S32768x64, .f32⟩
  | 106 => ⟨S32768x64, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S32768x64, .f32⟩
  | 120 => ⟨S32768x64, .f32⟩
  | 121 => ⟨S32768x64, .f32⟩
  | 122 => ⟨S_, .f32⟩
  | 123 => ⟨S_, .f32⟩
  | 124 => ⟨S_, .f32⟩
  | 125 => ⟨S_, .f32⟩
  | 126 => ⟨S64, .f32⟩
  | 127 => ⟨S64, .f32⟩
  | _ => ⟨S32768x6, .f32⟩

abbrev hbmTy0_1 (i : Nat) : BufTy := match i % 128 with
  | 0 => ⟨S64, .f32⟩
  | 1 => ⟨S_, .f32⟩
  | 2 => ⟨S_, .i1⟩
  | 3 => ⟨S_, .f32⟩
  | 4 => ⟨S_, .f32⟩
  | 5 => ⟨S64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S1x64, .f32⟩
  | 13 => ⟨S1x64, .f32⟩
  | 14 => ⟨S1x64, .f32⟩
  | 15 => ⟨S32768x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S524288x64, .f32⟩
  | 29 => ⟨S524288x64, .f32⟩
  | 30 => ⟨S524288x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S1x64, .f32⟩
  | 50 => ⟨S1x64, .f32⟩
  | 51 => ⟨S1x64, .f32⟩
  | 52 => ⟨S524288x64, .f32⟩
  | 53 => ⟨S1x64x64, .f32⟩
  | 54 => ⟨S64x64, .f32⟩
  | 55 => ⟨S1x64x64, .f32⟩
  | 56 => ⟨S64x64, .f32⟩
  | 57 => ⟨S1x64x64, .f32⟩
  | 58 => ⟨S64x64, .f32⟩
  | 59 => ⟨S1x64x64, .f32⟩
  | 60 => ⟨S64x64, .f32⟩
  | 61 => ⟨S64x256, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S256, .f32⟩
  | 71 => ⟨S1x256, .f32⟩
  | 72 => ⟨S32768x256, .f32⟩
  | 73 => ⟨S32768x64, .f32⟩
  | 74 => ⟨S32768x64, .f32⟩
  | 75 => ⟨S32768x64, .f32⟩
  | 76 => ⟨S32768x64, .f32⟩
  | 77 => ⟨S_, .i32⟩
  | 78 => ⟨S524288, .i32⟩
  | 79 => ⟨S524288, .i1⟩
  | 80 => ⟨S_, .i32⟩
  | 81 => ⟨S524288, .i32⟩
  | 82 => ⟨S524288, .i32⟩
  | 83 => ⟨S524288, .i32⟩
  | 84 => ⟨S524288x1, .i32⟩
  | 85 => ⟨S524288x64, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x64, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x64, .f32⟩
  | 104 => ⟨S1x64x64, .f32⟩
  | 105 => ⟨S64x64, .f32⟩
  | 106 => ⟨S1x64, .f32⟩
  | 107 => ⟨S64, .f32⟩
  | 108 => ⟨S1x64, .f32⟩
  | 109 => ⟨S524288x64, .f32⟩
  | 110 => ⟨S524288x64, .f32⟩
  | 111 => ⟨S524288x64, .f32⟩
  | 112 => ⟨S_, .f32⟩
  | 113 => ⟨S32768x64, .f32⟩
  | 114 => ⟨S524288x1, .i32⟩
  | 115 => ⟨S32768x64, .f32⟩
  | 116 => ⟨S_, .f32⟩
  | 117 => ⟨S32768x64, .f32⟩
  | 118 => ⟨S524288x1, .i32⟩
  | 119 => ⟨S32768x64, .f32⟩
  | 120 => ⟨S_, .f32⟩
  | 121 => ⟨S32768x64, .f32⟩
  | 122 => ⟨S32768x64, .f32⟩
  | 123 => ⟨S32768x64, .f32⟩
  | 124 => ⟨S32768x64, .f32⟩
  | 125 => ⟨S_, .f32⟩
  | 126 => ⟨S64, .f32⟩
  | 127 => ⟨S_, .f32⟩
  | _ => ⟨S32768x6, .f32⟩

abbrev hbmTy0_2 (i : Nat) : BufTy := match i % 128 with
  | 0 => ⟨S64, .f32⟩
  | 1 => ⟨S64, .f32⟩
  | 2 => ⟨S_, .i32⟩
  | 3 => ⟨S_, .f32⟩
  | 4 => ⟨S64, .f32⟩
  | 5 => ⟨S1x64, .f32⟩
  | 6 => ⟨S_, .f32⟩
  | 7 => ⟨S1x64, .f32⟩
  | 8 => ⟨S1x64, .f32⟩
  | 9 => ⟨S32768x64, .f32⟩
  | 10 => ⟨S32768x64, .f32⟩
  | 11 => ⟨S32768x64, .f32⟩
  | 12 => ⟨S_, .f32⟩
  | 13 => ⟨S_, .f32⟩
  | 14 => ⟨S_, .f32⟩
  | 15 => ⟨S_, .f32⟩
  | 16 => ⟨S64, .f32⟩
  | 17 => ⟨S64, .f32⟩
  | 18 => ⟨S64, .f32⟩
  | 19 => ⟨S_, .f32⟩
  | 20 => ⟨S_, .i1⟩
  | 21 => ⟨S_, .f32⟩
  | 22 => ⟨S_, .f32⟩
  | 23 => ⟨S64, .f32⟩
  | 24 => ⟨S64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S1x64, .f32⟩
  | 31 => ⟨S1x64, .f32⟩
  | 32 => ⟨S1x64, .f32⟩
  | 33 => ⟨S32768x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S524288x64, .f32⟩
  | 47 => ⟨S524288x64, .f32⟩
  | 48 => ⟨S524288x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S1x64, .f32⟩
  | 68 => ⟨S1x64, .f32⟩
  | 69 => ⟨S1x64, .f32⟩
  | 70 => ⟨S524288x64, .f32⟩
  | 71 => ⟨S1x64x64, .f32⟩
  | 72 => ⟨S64x64, .f32⟩
  | 73 => ⟨S1x64x64, .f32⟩
  | 74 => ⟨S64x64, .f32⟩
  | 75 => ⟨S1x64x64, .f32⟩
  | 76 => ⟨S64x64, .f32⟩
  | 77 => ⟨S1x64x64, .f32⟩
  | 78 => ⟨S64x64, .f32⟩
  | 79 => ⟨S64x256, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S256, .f32⟩
  | 89 => ⟨S1x256, .f32⟩
  | 90 => ⟨S32768x256, .f32⟩
  | 91 => ⟨S32768x64, .f32⟩
  | 92 => ⟨S32768x64, .f32⟩
  | 93 => ⟨S32768x64, .f32⟩
  | 94 => ⟨S32768x64, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x64, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x64, .f32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x64, .f32⟩
  | 122 => ⟨S1x64x64, .f32⟩
  | 123 => ⟨S64x64, .f32⟩
  | 124 => ⟨S1x64, .f32⟩
  | 125 => ⟨S64, .f32⟩
  | 126 => ⟨S1x64, .f32⟩
  | 127 => ⟨S524288x64, .f32⟩
  | _ => ⟨S32768x6, .f32⟩

abbrev hbmTy0_3 (i : Nat) : BufTy := match i % 128 with
  | 0 => ⟨S524288x64, .f32⟩
  | 1 => ⟨S524288x64, .f32⟩
  | 2 => ⟨S_, .f32⟩
  | 3 => ⟨S32768x64, .f32⟩
  | 4 => ⟨S524288x1, .i32⟩
  | 5 => ⟨S32768x64, .f32⟩
  | 6 => ⟨S_, .f32⟩
  | 7 => ⟨S32768x64, .f32⟩
  | 8 => ⟨S524288x1, .i32⟩
  | 9 => ⟨S32768x64, .f32⟩
  | 10 => ⟨S_, .f32⟩
  | 11 => ⟨S32768x64, .f32⟩
  | 12 => ⟨S32768x64, .f32⟩
  | 13 => ⟨S32768x64, .f32⟩
  | 14 => ⟨S32768x64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S32768x64, .f32⟩
  | 28 => ⟨S32768x64, .f32⟩
  | 29 => ⟨S32768x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S1x64, .f32⟩
  | 49 => ⟨S1x64, .f32⟩
  | 50 => ⟨S1x64, .f32⟩
  | 51 => ⟨S32768x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S524288x64, .f32⟩
  | 65 => ⟨S524288x64, .f32⟩
  | 66 => ⟨S524288x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S1x64, .f32⟩
  | 86 => ⟨S1x64, .f32⟩
  | 87 => ⟨S1x64, .f32⟩
  | 88 => ⟨S524288x64, .f32⟩
  | 89 => ⟨S_, .f32⟩
  | 90 => ⟨S32768, .f32⟩
  | 91 => ⟨S_, .f32⟩
  | 92 => ⟨S256, .f32⟩
  | 93 => ⟨S32768x1, .i32⟩
  | 94 => ⟨S256, .f32⟩
  | 95 => ⟨S_, .f32⟩
  | 96 => ⟨S256x64, .f32⟩
  | 97 => ⟨S32768x1, .i32⟩
  | 98 => ⟨S256x64, .f32⟩
  | 99 => ⟨S_, .f32⟩
  | 100 => ⟨S256, .f32⟩
  | 101 => ⟨S256, .f32⟩
  | 102 => ⟨S256x1, .f32⟩
  | 103 => ⟨S256x64, .f32⟩
  | 104 => ⟨S256x64, .f32⟩
  | 105 => ⟨S256x82, .f32⟩
  | 106 => ⟨S1x256, .f32⟩
  | 107 => ⟨S1x256, .f32⟩
  | 108 => ⟨S1x1, .f32⟩
  | 109 => ⟨S256x1, .f32⟩
  | _ => ⟨S32768x6, .f32⟩

abbrev hbmTy (i : Nat) : BufTy := match i / 128 with
  | 0 => hbmTy0_0 i
  | 1 => hbmTy0_1 i
  | 2 => hbmTy0_2 i
  | 3 => hbmTy0_3 i
  | _ => ⟨S32768x6, .f32⟩

abbrev vmemTy0_0 (i : Nat) : BufTy := match i % 128 with
  | 0 => ⟨S4096x6, .f32⟩
  | 1 => ⟨S4096x6, .f32⟩
  | 2 => ⟨S6x64, .f32⟩
  | 3 => ⟨S1x64, .f32⟩
  | 4 => ⟨S4096x64, .f32⟩
  | 5 => ⟨S4096x64, .f32⟩
  | 6 => ⟨S4096x2, .f32⟩
  | 7 => ⟨S4096x2, .f32⟩
  | 8 => ⟨S2x64, .f32⟩
  | 9 => ⟨S1x64, .f32⟩
  | 10 => ⟨S4096x64, .f32⟩
  | 11 => ⟨S4096x64, .f32⟩
  | 12 => ⟨S4096x64, .f32⟩
  | 13 => ⟨S4096x64, .f32⟩
  | 14 => ⟨S64x256, .f32⟩
  | 15 => ⟨S1x256, .f32⟩
  | 16 => ⟨S4096x256, .f32⟩
  | 17 => ⟨S4096x256, .f32⟩
  | 18 => ⟨S4096x64, .f32⟩
  | 19 => ⟨S4096x64, .f32⟩
  | 20 => ⟨S64x64, .f32⟩
  | 21 => ⟨S1x64, .f32⟩
  | 22 => ⟨S4096x64, .f32⟩
  | 23 => ⟨S4096x64, .f32⟩
  | 24 => ⟨S4096x64, .f32⟩
  | 25 => ⟨S4096x64, .f32⟩
  | 26 => ⟨S4096x64, .f32⟩
  | 27 => ⟨S4096x64, .f32⟩
  | 28 => ⟨S4096x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S8192x64, .f32⟩
  | 35 => ⟨S8192x64, .f32⟩
  | 36 => ⟨S1x64, .f32⟩
  | 37 => ⟨S1x64, .f32⟩
  | 38 => ⟨S1x64, .f32⟩
  | 39 => ⟨S1x64, .f32⟩
  | 40 => ⟨S8192x64, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S1x64, .f32⟩
  | 47 => ⟨S1x64, .f32⟩
  | 48 => ⟨S1x64, .f32⟩
  | 49 => ⟨S1x64, .f32⟩
  | 50 => ⟨S8192x64, .f32⟩
  | 51 => ⟨S8192x64, .f32⟩
  | 52 => ⟨S8192x64, .f32⟩
  | 53 => ⟨S8192x64, .f32⟩
  | 54 => ⟨S4096x64, .f32⟩
  | 55 => ⟨S4096x64, .f32⟩
  | 56 => ⟨S64x256, .f32⟩
  | 57 => ⟨S1x256, .f32⟩
  | 58 => ⟨S4096x256, .f32⟩
  | 59 => ⟨S4096x256, .f32⟩
  | 60 => ⟨S4096x64, .f32⟩
  | 61 => ⟨S4096x64, .f32⟩
  | 62 => ⟨S64x64, .f32⟩
  | 63 => ⟨S1x64, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S4096x64, .f32⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S8192x64, .f32⟩
  | 77 => ⟨S8192x64, .f32⟩
  | 78 => ⟨S1x64, .f32⟩
  | 79 => ⟨S1x64, .f32⟩
  | 80 => ⟨S1x64, .f32⟩
  | 81 => ⟨S1x64, .f32⟩
  | 82 => ⟨S8192x64, .f32⟩
  | 83 => ⟨S8192x64, .f32⟩
  | 84 => ⟨S8192x64, .f32⟩
  | 85 => ⟨S8192x64, .f32⟩
  | 86 => ⟨S8192x64, .f32⟩
  | 87 => ⟨S8192x64, .f32⟩
  | 88 => ⟨S1x64, .f32⟩
  | 89 => ⟨S1x64, .f32⟩
  | 90 => ⟨S1x64, .f32⟩
  | 91 => ⟨S1x64, .f32⟩
  | 92 => ⟨S8192x64, .f32⟩
  | 93 => ⟨S8192x64, .f32⟩
  | 94 => ⟨S8192x64, .f32⟩
  | 95 => ⟨S8192x64, .f32⟩
  | 96 => ⟨S4096x64, .f32⟩
  | 97 => ⟨S4096x64, .f32⟩
  | 98 => ⟨S64x256, .f32⟩
  | 99 => ⟨S1x256, .f32⟩
  | 100 => ⟨S4096x256, .f32⟩
  | 101 => ⟨S4096x256, .f32⟩
  | 102 => ⟨S4096x64, .f32⟩
  | 103 => ⟨S4096x64, .f32⟩
  | 104 => ⟨S64x64, .f32⟩
  | 105 => ⟨S1x64, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S4096x64, .f32⟩
  | 114 => ⟨S4096x64, .f32⟩
  | 115 => ⟨S4096x64, .f32⟩
  | 116 => ⟨S4096x64, .f32⟩
  | 117 => ⟨S4096x64, .f32⟩
  | 118 => ⟨S8192x64, .f32⟩
  | 119 => ⟨S8192x64, .f32⟩
  | 120 => ⟨S1x64, .f32⟩
  | 121 => ⟨S1x64, .f32⟩
  | 122 => ⟨S1x64, .f32⟩
  | 123 => ⟨S1x64, .f32⟩
  | 124 => ⟨S8192x64, .f32⟩
  | 125 => ⟨S8192x64, .f32⟩
  | 126 => ⟨S8192x64, .f32⟩
  | 127 => ⟨S8192x64, .f32⟩
  | _ => ⟨S32768x6, .f32⟩

abbrev vmemTy0_1 (i : Nat) : BufTy := match i % 128 with
  | 0 => ⟨S8192x64, .f32⟩
  | 1 => ⟨S8192x64, .f32⟩
  | 2 => ⟨S1x64, .f32⟩
  | 3 => ⟨S1x64, .f32⟩
  | 4 => ⟨S1x64, .f32⟩
  | 5 => ⟨S1x64, .f32⟩
  | 6 => ⟨S8192x64, .f32⟩
  | 7 => ⟨S8192x64, .f32⟩
  | 8 => ⟨S8192x64, .f32⟩
  | 9 => ⟨S8192x64, .f32⟩
  | 10 => ⟨S256x82, .f32⟩
  | 11 => ⟨S82x256, .f32⟩
  | 12 => ⟨S1x256, .f32⟩
  | 13 => ⟨S256x256, .f32⟩
  | 14 => ⟨S1x256, .f32⟩
  | 15 => ⟨S256x1, .f32⟩
  | 16 => ⟨S1x1, .f32⟩
  | 17 => ⟨S256x1, .f32⟩
  | _ => ⟨S32768x6, .f32⟩

abbrev vmemTy (i : Nat) : BufTy := match i / 128 with
  | 0 => vmemTy0_0 i
  | 1 => vmemTy0_1 i
  | _ => ⟨S32768x6, .f32⟩

abbrev bufTy : (tb : Table) → Fin (tcTables nBuf tb) → BufTy
  | .hbm, ⟨i, _⟩ => hbmTy i
  | .local _ .vmem, ⟨i, _⟩ => vmemTy i
  | _, _ => ⟨S32768x6, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 146 → Bool
  | ⟨i, _⟩ => dmaSemScopedAt i

abbrev sig : RefSig :=
  ofTc nBuf bufTy 0 146 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c : Ref sig .tc := ⟨.hbm, 59, rfl⟩
abbrev main_v28 : Ref sig .tc := ⟨.hbm, 60, rfl⟩
abbrev main_v29 : Ref sig .tc := ⟨.hbm, 61, rfl⟩
abbrev main_c_0 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_1 : Ref sig .tc := ⟨.hbm, 68, rfl⟩
abbrev main_v35 : Ref sig .tc := ⟨.hbm, 69, rfl⟩
abbrev main_v36 : Ref sig .tc := ⟨.hbm, 70, rfl⟩
abbrev main_c_2 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_3 : Ref sig .tc := ⟨.hbm, 77, rfl⟩
abbrev main_v42 : Ref sig .tc := ⟨.hbm, 78, rfl⟩
abbrev main_v43 : Ref sig .tc := ⟨.hbm, 79, rfl⟩
abbrev main_c_4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_cst : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_5 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_6 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_7 : Ref sig .tc := ⟨.hbm, 107, rfl⟩
abbrev main_v65 : Ref sig .tc := ⟨.hbm, 108, rfl⟩
abbrev main_cst_8 : Ref sig .tc := ⟨.hbm, 109, rfl⟩
abbrev main_v66 : Ref sig .tc := ⟨.hbm, 110, rfl⟩
abbrev main_v67 : Ref sig .tc := ⟨.hbm, 111, rfl⟩
abbrev main_c_9 : Ref sig .tc := ⟨.hbm, 112, rfl⟩
abbrev main_call0_cst : Ref sig .tc := ⟨.hbm, 113, rfl⟩
abbrev main_call0_v0 : Ref sig .tc := ⟨.hbm, 114, rfl⟩
abbrev main_call0_v1 : Ref sig .tc := ⟨.hbm, 115, rfl⟩
abbrev main_call0_cst_0 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_v7 : Ref sig .tc := ⟨.hbm, 122, rfl⟩
abbrev main_call0_cst_1 : Ref sig .tc := ⟨.hbm, 123, rfl⟩
abbrev main_call0_v8 : Ref sig .tc := ⟨.hbm, 124, rfl⟩
abbrev main_call0_cst_2 : Ref sig .tc := ⟨.hbm, 125, rfl⟩
abbrev main_call0_v9 : Ref sig .tc := ⟨.hbm, 126, rfl⟩
abbrev main_call0_v10 : Ref sig .tc := ⟨.hbm, 127, rfl⟩
abbrev main_call0_v11 : Ref sig .tc := ⟨.hbm, 128, rfl⟩
abbrev main_call0_cst_3 : Ref sig .tc := ⟨.hbm, 129, rfl⟩
abbrev main_call0_v12 : Ref sig .tc := ⟨.hbm, 130, rfl⟩
abbrev main_call0_cst_4 : Ref sig .tc := ⟨.hbm, 131, rfl⟩
abbrev main_call0_call0_v0 : Ref sig .tc := ⟨.hbm, 132, rfl⟩
abbrev main_call0_call0_v1 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_10 : Ref sig .tc := ⟨.hbm, 144, rfl⟩
abbrev main_v78 : Ref sig .tc := ⟨.hbm, 145, rfl⟩
abbrev main_cst_11 : Ref sig .tc := ⟨.hbm, 146, rfl⟩
abbrev main_v79 : Ref sig .tc := ⟨.hbm, 147, rfl⟩
abbrev main_v80 : Ref sig .tc := ⟨.hbm, 148, rfl⟩
abbrev main_c_12 : Ref sig .tc := ⟨.hbm, 149, rfl⟩
abbrev main_call1_cst : Ref sig .tc := ⟨.hbm, 150, rfl⟩
abbrev main_call1_v0 : Ref sig .tc := ⟨.hbm, 151, rfl⟩
abbrev main_call1_v1 : Ref sig .tc := ⟨.hbm, 152, rfl⟩
abbrev main_call1_cst_0 : Ref sig .tc := ⟨.hbm, 153, rfl⟩
abbrev main_call1_v2 : Ref sig .tc := ⟨.hbm, 154, rfl⟩
abbrev main_call1_v3 : Ref sig .tc := ⟨.hbm, 155, rfl⟩
abbrev main_call1_v4 : Ref sig .tc := ⟨.hbm, 156, rfl⟩
abbrev main_call1_v5 : Ref sig .tc := ⟨.hbm, 157, rfl⟩
abbrev main_call1_v6 : Ref sig .tc := ⟨.hbm, 158, rfl⟩
abbrev main_call1_v7 : Ref sig .tc := ⟨.hbm, 159, rfl⟩
abbrev main_call1_cst_1 : Ref sig .tc := ⟨.hbm, 160, rfl⟩
abbrev main_call1_v8 : Ref sig .tc := ⟨.hbm, 161, rfl⟩
abbrev main_call1_cst_2 : Ref sig .tc := ⟨.hbm, 162, rfl⟩
abbrev main_call1_v9 : Ref sig .tc := ⟨.hbm, 163, rfl⟩
abbrev main_call1_v10 : Ref sig .tc := ⟨.hbm, 164, rfl⟩
abbrev main_call1_v11 : Ref sig .tc := ⟨.hbm, 165, rfl⟩
abbrev main_call1_cst_3 : Ref sig .tc := ⟨.hbm, 166, rfl⟩
abbrev main_call1_v12 : Ref sig .tc := ⟨.hbm, 167, rfl⟩
abbrev main_call1_cst_4 : Ref sig .tc := ⟨.hbm, 168, rfl⟩
abbrev main_call1_call0_v0 : Ref sig .tc := ⟨.hbm, 169, rfl⟩
abbrev main_call1_call0_v1 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_c_13 : Ref sig .tc := ⟨.hbm, 205, rfl⟩
abbrev main_v115 : Ref sig .tc := ⟨.hbm, 206, rfl⟩
abbrev main_v116 : Ref sig .tc := ⟨.hbm, 207, rfl⟩
abbrev main_c_14 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_c_15 : Ref sig .tc := ⟨.hbm, 214, rfl⟩
abbrev main_v122 : Ref sig .tc := ⟨.hbm, 215, rfl⟩
abbrev main_v123 : Ref sig .tc := ⟨.hbm, 216, rfl⟩
abbrev main_c_16 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_c_17 : Ref sig .tc := ⟨.hbm, 223, rfl⟩
abbrev main_v129 : Ref sig .tc := ⟨.hbm, 224, rfl⟩
abbrev main_v130 : Ref sig .tc := ⟨.hbm, 225, rfl⟩
abbrev main_c_18 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141_0 : Ref sig .tc := ⟨.hbm, 237, rfl⟩
abbrev main_v141_1 : Ref sig .tc := ⟨.hbm, 238, rfl⟩
abbrev main_v141_2 : Ref sig .tc := ⟨.hbm, 239, rfl⟩
abbrev main_cst_19 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_cst_20 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_cst_21 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_22 : Ref sig .tc := ⟨.hbm, 253, rfl⟩
abbrev main_v152 : Ref sig .tc := ⟨.hbm, 254, rfl⟩
abbrev main_cst_23 : Ref sig .tc := ⟨.hbm, 255, rfl⟩
abbrev main_v153 : Ref sig .tc := ⟨.hbm, 256, rfl⟩
abbrev main_v154 : Ref sig .tc := ⟨.hbm, 257, rfl⟩
abbrev main_c_24 : Ref sig .tc := ⟨.hbm, 258, rfl⟩
abbrev main_call2_cst : Ref sig .tc := ⟨.hbm, 259, rfl⟩
abbrev main_call2_v0 : Ref sig .tc := ⟨.hbm, 260, rfl⟩
abbrev main_call2_v1 : Ref sig .tc := ⟨.hbm, 261, rfl⟩
abbrev main_call2_cst_0 : Ref sig .tc := ⟨.hbm, 262, rfl⟩
abbrev main_call2_v2 : Ref sig .tc := ⟨.hbm, 263, rfl⟩
abbrev main_call2_v3 : Ref sig .tc := ⟨.hbm, 264, rfl⟩
abbrev main_call2_v4 : Ref sig .tc := ⟨.hbm, 265, rfl⟩
abbrev main_call2_v5 : Ref sig .tc := ⟨.hbm, 266, rfl⟩
abbrev main_call2_v6 : Ref sig .tc := ⟨.hbm, 267, rfl⟩
abbrev main_call2_v7 : Ref sig .tc := ⟨.hbm, 268, rfl⟩
abbrev main_call2_cst_1 : Ref sig .tc := ⟨.hbm, 269, rfl⟩
abbrev main_call2_v8 : Ref sig .tc := ⟨.hbm, 270, rfl⟩
abbrev main_call2_cst_2 : Ref sig .tc := ⟨.hbm, 271, rfl⟩
abbrev main_call2_v9 : Ref sig .tc := ⟨.hbm, 272, rfl⟩
abbrev main_call2_v10 : Ref sig .tc := ⟨.hbm, 273, rfl⟩
abbrev main_call2_v11 : Ref sig .tc := ⟨.hbm, 274, rfl⟩
abbrev main_call2_cst_3 : Ref sig .tc := ⟨.hbm, 275, rfl⟩
abbrev main_call2_v12 : Ref sig .tc := ⟨.hbm, 276, rfl⟩
abbrev main_call2_cst_4 : Ref sig .tc := ⟨.hbm, 277, rfl⟩
abbrev main_call2_call0_v0 : Ref sig .tc := ⟨.hbm, 278, rfl⟩
abbrev main_call2_call0_v1 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_cst_25 : Ref sig .tc := ⟨.hbm, 290, rfl⟩
abbrev main_v165 : Ref sig .tc := ⟨.hbm, 291, rfl⟩
abbrev main_cst_26 : Ref sig .tc := ⟨.hbm, 292, rfl⟩
abbrev main_v166 : Ref sig .tc := ⟨.hbm, 293, rfl⟩
abbrev main_v167 : Ref sig .tc := ⟨.hbm, 294, rfl⟩
abbrev main_c_27 : Ref sig .tc := ⟨.hbm, 295, rfl⟩
abbrev main_call3_cst : Ref sig .tc := ⟨.hbm, 296, rfl⟩
abbrev main_call3_v0 : Ref sig .tc := ⟨.hbm, 297, rfl⟩
abbrev main_call3_v1 : Ref sig .tc := ⟨.hbm, 298, rfl⟩
abbrev main_call3_cst_0 : Ref sig .tc := ⟨.hbm, 299, rfl⟩
abbrev main_call3_v2 : Ref sig .tc := ⟨.hbm, 300, rfl⟩
abbrev main_call3_v3 : Ref sig .tc := ⟨.hbm, 301, rfl⟩
abbrev main_call3_v4 : Ref sig .tc := ⟨.hbm, 302, rfl⟩
abbrev main_call3_v5 : Ref sig .tc := ⟨.hbm, 303, rfl⟩
abbrev main_call3_v6 : Ref sig .tc := ⟨.hbm, 304, rfl⟩
abbrev main_call3_v7 : Ref sig .tc := ⟨.hbm, 305, rfl⟩
abbrev main_call3_cst_1 : Ref sig .tc := ⟨.hbm, 306, rfl⟩
abbrev main_call3_v8 : Ref sig .tc := ⟨.hbm, 307, rfl⟩
abbrev main_call3_cst_2 : Ref sig .tc := ⟨.hbm, 308, rfl⟩
abbrev main_call3_v9 : Ref sig .tc := ⟨.hbm, 309, rfl⟩
abbrev main_call3_v10 : Ref sig .tc := ⟨.hbm, 310, rfl⟩
abbrev main_call3_v11 : Ref sig .tc := ⟨.hbm, 311, rfl⟩
abbrev main_call3_cst_3 : Ref sig .tc := ⟨.hbm, 312, rfl⟩
abbrev main_call3_v12 : Ref sig .tc := ⟨.hbm, 313, rfl⟩
abbrev main_call3_cst_4 : Ref sig .tc := ⟨.hbm, 314, rfl⟩
abbrev main_call3_call0_v0 : Ref sig .tc := ⟨.hbm, 315, rfl⟩
abbrev main_call3_call0_v1 : Ref sig .tc := ⟨.hbm, 316, rfl⟩
abbrev main_v168 : Ref sig .tc := ⟨.hbm, 317, rfl⟩
abbrev main_v169 : Ref sig .tc := ⟨.hbm, 318, rfl⟩
abbrev main_v170 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_v176 : Ref sig .tc := ⟨.hbm, 325, rfl⟩
abbrev main_v177 : Ref sig .tc := ⟨.hbm, 326, rfl⟩
abbrev main_v178 : Ref sig .tc := ⟨.hbm, 327, rfl⟩
abbrev main_v179 : Ref sig .tc := ⟨.hbm, 328, rfl⟩
abbrev main_v180 : Ref sig .tc := ⟨.hbm, 329, rfl⟩
abbrev main_v181 : Ref sig .tc := ⟨.hbm, 330, rfl⟩
abbrev main_v182 : Ref sig .tc := ⟨.hbm, 331, rfl⟩
abbrev main_v183 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_v188 : Ref sig .tc := ⟨.hbm, 337, rfl⟩
abbrev main_v189 : Ref sig .tc := ⟨.hbm, 338, rfl⟩
abbrev main_v190 : Ref sig .tc := ⟨.hbm, 339, rfl⟩
abbrev main_v191 : Ref sig .tc := ⟨.hbm, 340, rfl⟩
abbrev main_v192 : Ref sig .tc := ⟨.hbm, 341, rfl⟩
abbrev main_v193 : Ref sig .tc := ⟨.hbm, 342, rfl⟩
abbrev main_v194 : Ref sig .tc := ⟨.hbm, 343, rfl⟩
abbrev main_v195 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_v199 : Ref sig .tc := ⟨.hbm, 348, rfl⟩
abbrev main_v200 : Ref sig .tc := ⟨.hbm, 349, rfl⟩
abbrev main_v201 : Ref sig .tc := ⟨.hbm, 350, rfl⟩
abbrev main_c_28 : Ref sig .tc := ⟨.hbm, 351, rfl⟩
abbrev main_v202 : Ref sig .tc := ⟨.hbm, 352, rfl⟩
abbrev main_v203 : Ref sig .tc := ⟨.hbm, 353, rfl⟩
abbrev main_c_29 : Ref sig .tc := ⟨.hbm, 354, rfl⟩
abbrev main_v204 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩
abbrev main_v208 : Ref sig .tc := ⟨.hbm, 359, rfl⟩
abbrev main_c_30 : Ref sig .tc := ⟨.hbm, 360, rfl⟩
abbrev main_v209 : Ref sig .tc := ⟨.hbm, 361, rfl⟩
abbrev main_v210 : Ref sig .tc := ⟨.hbm, 362, rfl⟩
abbrev main_c_31 : Ref sig .tc := ⟨.hbm, 363, rfl⟩
abbrev main_v211 : Ref sig .tc := ⟨.hbm, 364, rfl⟩
abbrev main_v212 : Ref sig .tc := ⟨.hbm, 365, rfl⟩
abbrev main_v213 : Ref sig .tc := ⟨.hbm, 366, rfl⟩
abbrev main_v214 : Ref sig .tc := ⟨.hbm, 367, rfl⟩
abbrev main_v215 : Ref sig .tc := ⟨.hbm, 368, rfl⟩
abbrev main_c_32 : Ref sig .tc := ⟨.hbm, 369, rfl⟩
abbrev main_v216 : Ref sig .tc := ⟨.hbm, 370, rfl⟩
abbrev main_v217 : Ref sig .tc := ⟨.hbm, 371, rfl⟩
abbrev main_c_33 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228_0 : Ref sig .tc := ⟨.hbm, 383, rfl⟩
abbrev main_v228_1 : Ref sig .tc := ⟨.hbm, 384, rfl⟩
abbrev main_v228_2 : Ref sig .tc := ⟨.hbm, 385, rfl⟩
abbrev main_cst_34 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_cst_35 : Ref sig .tc := ⟨.hbm, 390, rfl⟩
abbrev main_v232 : Ref sig .tc := ⟨.hbm, 391, rfl⟩
abbrev main_v233 : Ref sig .tc := ⟨.hbm, 392, rfl⟩
abbrev main_v234 : Ref sig .tc := ⟨.hbm, 393, rfl⟩
abbrev main_cst_36 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_cst_37 : Ref sig .tc := ⟨.hbm, 399, rfl⟩
abbrev main_v239 : Ref sig .tc := ⟨.hbm, 400, rfl⟩
abbrev main_cst_38 : Ref sig .tc := ⟨.hbm, 401, rfl⟩
abbrev main_v240 : Ref sig .tc := ⟨.hbm, 402, rfl⟩
abbrev main_v241 : Ref sig .tc := ⟨.hbm, 403, rfl⟩
abbrev main_c_39 : Ref sig .tc := ⟨.hbm, 404, rfl⟩
abbrev main_call4_cst : Ref sig .tc := ⟨.hbm, 405, rfl⟩
abbrev main_call4_v0 : Ref sig .tc := ⟨.hbm, 406, rfl⟩
abbrev main_call4_v1 : Ref sig .tc := ⟨.hbm, 407, rfl⟩
abbrev main_call4_cst_0 : Ref sig .tc := ⟨.hbm, 408, rfl⟩
abbrev main_call4_v2 : Ref sig .tc := ⟨.hbm, 409, rfl⟩
abbrev main_call4_v3 : Ref sig .tc := ⟨.hbm, 410, rfl⟩
abbrev main_call4_v4 : Ref sig .tc := ⟨.hbm, 411, rfl⟩
abbrev main_call4_v5 : Ref sig .tc := ⟨.hbm, 412, rfl⟩
abbrev main_call4_v6 : Ref sig .tc := ⟨.hbm, 413, rfl⟩
abbrev main_call4_v7 : Ref sig .tc := ⟨.hbm, 414, rfl⟩
abbrev main_call4_cst_1 : Ref sig .tc := ⟨.hbm, 415, rfl⟩
abbrev main_call4_v8 : Ref sig .tc := ⟨.hbm, 416, rfl⟩
abbrev main_call4_cst_2 : Ref sig .tc := ⟨.hbm, 417, rfl⟩
abbrev main_call4_v9 : Ref sig .tc := ⟨.hbm, 418, rfl⟩
abbrev main_call4_v10 : Ref sig .tc := ⟨.hbm, 419, rfl⟩
abbrev main_call4_v11 : Ref sig .tc := ⟨.hbm, 420, rfl⟩
abbrev main_call4_cst_3 : Ref sig .tc := ⟨.hbm, 421, rfl⟩
abbrev main_call4_v12 : Ref sig .tc := ⟨.hbm, 422, rfl⟩
abbrev main_call4_cst_4 : Ref sig .tc := ⟨.hbm, 423, rfl⟩
abbrev main_call4_call0_v0 : Ref sig .tc := ⟨.hbm, 424, rfl⟩
abbrev main_call4_call0_v1 : Ref sig .tc := ⟨.hbm, 425, rfl⟩
abbrev main_v242 : Ref sig .tc := ⟨.hbm, 426, rfl⟩
abbrev main_v243 : Ref sig .tc := ⟨.hbm, 427, rfl⟩
abbrev main_v244 : Ref sig .tc := ⟨.hbm, 428, rfl⟩
abbrev main_v245 : Ref sig .tc := ⟨.hbm, 429, rfl⟩
abbrev main_v246 : Ref sig .tc := ⟨.hbm, 430, rfl⟩
abbrev main_v247 : Ref sig .tc := ⟨.hbm, 431, rfl⟩
abbrev main_v248 : Ref sig .tc := ⟨.hbm, 432, rfl⟩
abbrev main_v249 : Ref sig .tc := ⟨.hbm, 433, rfl⟩
abbrev main_v250 : Ref sig .tc := ⟨.hbm, 434, rfl⟩
abbrev main_v251 : Ref sig .tc := ⟨.hbm, 435, rfl⟩
abbrev main_cst_40 : Ref sig .tc := ⟨.hbm, 436, rfl⟩
abbrev main_v252 : Ref sig .tc := ⟨.hbm, 437, rfl⟩
abbrev main_cst_41 : Ref sig .tc := ⟨.hbm, 438, rfl⟩
abbrev main_v253 : Ref sig .tc := ⟨.hbm, 439, rfl⟩
abbrev main_v254 : Ref sig .tc := ⟨.hbm, 440, rfl⟩
abbrev main_c_42 : Ref sig .tc := ⟨.hbm, 441, rfl⟩
abbrev main_call5_cst : Ref sig .tc := ⟨.hbm, 442, rfl⟩
abbrev main_call5_v0 : Ref sig .tc := ⟨.hbm, 443, rfl⟩
abbrev main_call5_v1 : Ref sig .tc := ⟨.hbm, 444, rfl⟩
abbrev main_call5_cst_0 : Ref sig .tc := ⟨.hbm, 445, rfl⟩
abbrev main_call5_v2 : Ref sig .tc := ⟨.hbm, 446, rfl⟩
abbrev main_call5_v3 : Ref sig .tc := ⟨.hbm, 447, rfl⟩
abbrev main_call5_v4 : Ref sig .tc := ⟨.hbm, 448, rfl⟩
abbrev main_call5_v5 : Ref sig .tc := ⟨.hbm, 449, rfl⟩
abbrev main_call5_v6 : Ref sig .tc := ⟨.hbm, 450, rfl⟩
abbrev main_call5_v7 : Ref sig .tc := ⟨.hbm, 451, rfl⟩
abbrev main_call5_cst_1 : Ref sig .tc := ⟨.hbm, 452, rfl⟩
abbrev main_call5_v8 : Ref sig .tc := ⟨.hbm, 453, rfl⟩
abbrev main_call5_cst_2 : Ref sig .tc := ⟨.hbm, 454, rfl⟩
abbrev main_call5_v9 : Ref sig .tc := ⟨.hbm, 455, rfl⟩
abbrev main_call5_v10 : Ref sig .tc := ⟨.hbm, 456, rfl⟩
abbrev main_call5_v11 : Ref sig .tc := ⟨.hbm, 457, rfl⟩
abbrev main_call5_cst_3 : Ref sig .tc := ⟨.hbm, 458, rfl⟩
abbrev main_call5_v12 : Ref sig .tc := ⟨.hbm, 459, rfl⟩
abbrev main_call5_cst_4 : Ref sig .tc := ⟨.hbm, 460, rfl⟩
abbrev main_call5_call0_v0 : Ref sig .tc := ⟨.hbm, 461, rfl⟩
abbrev main_call5_call0_v1 : Ref sig .tc := ⟨.hbm, 462, rfl⟩
abbrev main_v255 : Ref sig .tc := ⟨.hbm, 463, rfl⟩
abbrev main_v256 : Ref sig .tc := ⟨.hbm, 464, rfl⟩
abbrev main_v257 : Ref sig .tc := ⟨.hbm, 465, rfl⟩
abbrev main_v258 : Ref sig .tc := ⟨.hbm, 466, rfl⟩
abbrev main_v259 : Ref sig .tc := ⟨.hbm, 467, rfl⟩
abbrev main_v260 : Ref sig .tc := ⟨.hbm, 468, rfl⟩
abbrev main_v261 : Ref sig .tc := ⟨.hbm, 469, rfl⟩
abbrev main_v262 : Ref sig .tc := ⟨.hbm, 470, rfl⟩
abbrev main_v263 : Ref sig .tc := ⟨.hbm, 471, rfl⟩
abbrev main_v264 : Ref sig .tc := ⟨.hbm, 472, rfl⟩
abbrev main_cst_43 : Ref sig .tc := ⟨.hbm, 473, rfl⟩
abbrev main_v265 : Ref sig .tc := ⟨.hbm, 474, rfl⟩
abbrev main_cst_44 : Ref sig .tc := ⟨.hbm, 475, rfl⟩
abbrev main_v266 : Ref sig .tc := ⟨.hbm, 476, rfl⟩
abbrev main_v267 : Ref sig .tc := ⟨.hbm, 477, rfl⟩
abbrev main_v268 : Ref sig .tc := ⟨.hbm, 478, rfl⟩
abbrev main_cst_45 : Ref sig .tc := ⟨.hbm, 479, rfl⟩
abbrev main_v269 : Ref sig .tc := ⟨.hbm, 480, rfl⟩
abbrev main_v270 : Ref sig .tc := ⟨.hbm, 481, rfl⟩
abbrev main_v271 : Ref sig .tc := ⟨.hbm, 482, rfl⟩
abbrev main_cst_46 : Ref sig .tc := ⟨.hbm, 483, rfl⟩
abbrev main_v272 : Ref sig .tc := ⟨.hbm, 484, rfl⟩
abbrev main_v273 : Ref sig .tc := ⟨.hbm, 485, rfl⟩
abbrev main_v274 : Ref sig .tc := ⟨.hbm, 486, rfl⟩
abbrev main_v275 : Ref sig .tc := ⟨.hbm, 487, rfl⟩
abbrev main_v276 : Ref sig .tc := ⟨.hbm, 488, rfl⟩
abbrev main_v277 : Ref sig .tc := ⟨.hbm, 489, rfl⟩
abbrev main_v278 : Ref sig .tc := ⟨.hbm, 490, rfl⟩
abbrev main_v279 : Ref sig .tc := ⟨.hbm, 491, rfl⟩
abbrev main_v280 : Ref sig .tc := ⟨.hbm, 492, rfl⟩
abbrev main_v281 : Ref sig .tc := ⟨.hbm, 493, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg5_1 : Ref sig .tc := ⟨.vmem, 69, rfl⟩
abbrev cc7_stg6_0 : Ref sig .tc := ⟨.vmem, 70, rfl⟩
abbrev cc7_stg6_1 : Ref sig .tc := ⟨.vmem, 71, rfl⟩
abbrev cc7_stg7_0 : Ref sig .tc := ⟨.vmem, 72, rfl⟩
abbrev cc7_stg7_1 : Ref sig .tc := ⟨.vmem, 73, rfl⟩
abbrev cc7_stg8_0 : Ref sig .tc := ⟨.vmem, 74, rfl⟩
abbrev cc7_stg8_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc8_stg6_0 : Ref sig .tc := ⟨.vmem, 84, rfl⟩
abbrev cc8_stg6_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg5_1 : Ref sig .tc := ⟨.vmem, 93, rfl⟩
abbrev cc9_stg6_0 : Ref sig .tc := ⟨.vmem, 94, rfl⟩
abbrev cc9_stg6_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg3_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg3_1 : Ref sig .tc := ⟨.vmem, 107, rfl⟩
abbrev cc11_stg4_0 : Ref sig .tc := ⟨.vmem, 108, rfl⟩
abbrev cc11_stg4_1 : Ref sig .tc := ⟨.vmem, 109, rfl⟩
abbrev cc11_stg5_0 : Ref sig .tc := ⟨.vmem, 110, rfl⟩
abbrev cc11_stg5_1 : Ref sig .tc := ⟨.vmem, 111, rfl⟩
abbrev cc11_stg6_0 : Ref sig .tc := ⟨.vmem, 112, rfl⟩
abbrev cc11_stg6_1 : Ref sig .tc := ⟨.vmem, 113, rfl⟩
abbrev cc11_stg7_0 : Ref sig .tc := ⟨.vmem, 114, rfl⟩
abbrev cc11_stg7_1 : Ref sig .tc := ⟨.vmem, 115, rfl⟩
abbrev cc11_stg8_0 : Ref sig .tc := ⟨.vmem, 116, rfl⟩
abbrev cc11_stg8_1 : Ref sig .tc := ⟨.vmem, 117, rfl⟩
abbrev cc12_stg0_0 : Ref sig .tc := ⟨.vmem, 118, rfl⟩
abbrev cc12_stg0_1 : Ref sig .tc := ⟨.vmem, 119, rfl⟩
abbrev cc12_stg1_0 : Ref sig .tc := ⟨.vmem, 120, rfl⟩
abbrev cc12_stg2_0 : Ref sig .tc := ⟨.vmem, 121, rfl⟩
abbrev cc12_stg3_0 : Ref sig .tc := ⟨.vmem, 122, rfl⟩
abbrev cc12_stg4_0 : Ref sig .tc := ⟨.vmem, 123, rfl⟩
abbrev cc12_stg5_0 : Ref sig .tc := ⟨.vmem, 124, rfl⟩
abbrev cc12_stg5_1 : Ref sig .tc := ⟨.vmem, 125, rfl⟩
abbrev cc12_stg6_0 : Ref sig .tc := ⟨.vmem, 126, rfl⟩
abbrev cc12_stg6_1 : Ref sig .tc := ⟨.vmem, 127, rfl⟩
abbrev cc13_stg0_0 : Ref sig .tc := ⟨.vmem, 128, rfl⟩
abbrev cc13_stg0_1 : Ref sig .tc := ⟨.vmem, 129, rfl⟩
abbrev cc13_stg1_0 : Ref sig .tc := ⟨.vmem, 130, rfl⟩
abbrev cc13_stg2_0 : Ref sig .tc := ⟨.vmem, 131, rfl⟩
abbrev cc13_stg3_0 : Ref sig .tc := ⟨.vmem, 132, rfl⟩
abbrev cc13_stg4_0 : Ref sig .tc := ⟨.vmem, 133, rfl⟩
abbrev cc13_stg5_0 : Ref sig .tc := ⟨.vmem, 134, rfl⟩
abbrev cc13_stg5_1 : Ref sig .tc := ⟨.vmem, 135, rfl⟩
abbrev cc13_stg6_0 : Ref sig .tc := ⟨.vmem, 136, rfl⟩
abbrev cc13_stg6_1 : Ref sig .tc := ⟨.vmem, 137, rfl⟩
abbrev cc14_stg0_0 : Ref sig .tc := ⟨.vmem, 138, rfl⟩
abbrev cc14_stg1_0 : Ref sig .tc := ⟨.vmem, 139, rfl⟩
abbrev cc14_stg2_0 : Ref sig .tc := ⟨.vmem, 140, rfl⟩
abbrev cc14_stg3_0 : Ref sig .tc := ⟨.vmem, 141, rfl⟩
abbrev cc14_stg4_0 : Ref sig .tc := ⟨.vmem, 142, rfl⟩
abbrev cc14_stg5_0 : Ref sig .tc := ⟨.vmem, 143, rfl⟩
abbrev cc14_stg6_0 : Ref sig .tc := ⟨.vmem, 144, rfl⟩
abbrev cc14_stg7_0 : Ref sig .tc := ⟨.vmem, 145, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc3_sem7_0 : DmaSem sig := 30
abbrev cc3_sem7_1 : DmaSem sig := 31
abbrev cc3_sem8_0 : DmaSem sig := 32
abbrev cc3_sem8_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65
abbrev cc7_sem4_0 : DmaSem sig := 66
abbrev cc7_sem4_1 : DmaSem sig := 67
abbrev cc7_sem5_0 : DmaSem sig := 68
abbrev cc7_sem5_1 : DmaSem sig := 69
abbrev cc7_sem6_0 : DmaSem sig := 70
abbrev cc7_sem6_1 : DmaSem sig := 71
abbrev cc7_sem7_0 : DmaSem sig := 72
abbrev cc7_sem7_1 : DmaSem sig := 73
abbrev cc7_sem8_0 : DmaSem sig := 74
abbrev cc7_sem8_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc8_sem6_0 : DmaSem sig := 84
abbrev cc8_sem6_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem5_0 : DmaSem sig := 92
abbrev cc9_sem5_1 : DmaSem sig := 93
abbrev cc9_sem6_0 : DmaSem sig := 94
abbrev cc9_sem6_1 : DmaSem sig := 95
abbrev cc10_sem0_0 : DmaSem sig := 96
abbrev cc10_sem0_1 : DmaSem sig := 97
abbrev cc10_sem1_0 : DmaSem sig := 98
abbrev cc10_sem2_0 : DmaSem sig := 99
abbrev cc10_sem3_0 : DmaSem sig := 100
abbrev cc10_sem3_1 : DmaSem sig := 101
abbrev cc11_sem0_0 : DmaSem sig := 102
abbrev cc11_sem0_1 : DmaSem sig := 103
abbrev cc11_sem1_0 : DmaSem sig := 104
abbrev cc11_sem2_0 : DmaSem sig := 105
abbrev cc11_sem3_0 : DmaSem sig := 106
abbrev cc11_sem3_1 : DmaSem sig := 107
abbrev cc11_sem4_0 : DmaSem sig := 108
abbrev cc11_sem4_1 : DmaSem sig := 109
abbrev cc11_sem5_0 : DmaSem sig := 110
abbrev cc11_sem5_1 : DmaSem sig := 111
abbrev cc11_sem6_0 : DmaSem sig := 112
abbrev cc11_sem6_1 : DmaSem sig := 113
abbrev cc11_sem7_0 : DmaSem sig := 114
abbrev cc11_sem7_1 : DmaSem sig := 115
abbrev cc11_sem8_0 : DmaSem sig := 116
abbrev cc11_sem8_1 : DmaSem sig := 117
abbrev cc12_sem0_0 : DmaSem sig := 118
abbrev cc12_sem0_1 : DmaSem sig := 119
abbrev cc12_sem1_0 : DmaSem sig := 120
abbrev cc12_sem2_0 : DmaSem sig := 121
abbrev cc12_sem3_0 : DmaSem sig := 122
abbrev cc12_sem4_0 : DmaSem sig := 123
abbrev cc12_sem5_0 : DmaSem sig := 124
abbrev cc12_sem5_1 : DmaSem sig := 125
abbrev cc12_sem6_0 : DmaSem sig := 126
abbrev cc12_sem6_1 : DmaSem sig := 127
abbrev cc13_sem0_0 : DmaSem sig := 128
abbrev cc13_sem0_1 : DmaSem sig := 129
abbrev cc13_sem1_0 : DmaSem sig := 130
abbrev cc13_sem2_0 : DmaSem sig := 131
abbrev cc13_sem3_0 : DmaSem sig := 132
abbrev cc13_sem4_0 : DmaSem sig := 133
abbrev cc13_sem5_0 : DmaSem sig := 134
abbrev cc13_sem5_1 : DmaSem sig := 135
abbrev cc13_sem6_0 : DmaSem sig := 136
abbrev cc13_sem6_1 : DmaSem sig := 137
abbrev cc14_sem0_0 : DmaSem sig := 138
abbrev cc14_sem1_0 : DmaSem sig := 139
abbrev cc14_sem2_0 : DmaSem sig := 140
abbrev cc14_sem3_0 : DmaSem sig := 141
abbrev cc14_sem4_0 : DmaSem sig := 142
abbrev cc14_sem5_0 : DmaSem sig := 143
abbrev cc14_sem6_0 : DmaSem sig := 144
abbrev cc14_sem7_0 : DmaSem sig := 145

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4096x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4096x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4096x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8192x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8192x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8192x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![128], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4096x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4096x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4096x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4096x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S4096x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S4096x64 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8192x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S8192x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![64], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S8192x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S8192x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4096x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![128], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4096x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4096x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S4096x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S4096x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S4096x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S4096x64 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8192x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S8192x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S8192x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![64], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8192x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S8192x64 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S8192x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S256x82 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S82x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S256x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S256x1 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x1 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S256x1 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

class Facts₀ : Prop where
  shapeCasts_S64_S1x64 : S64.ShapeCasts S1x64
  inb_S4096x6_S4096x6_0_0 : ∀ a, (![0, 0] : Fin 2 → Nat) a + S4096x6.size a ≤ S4096x6.size a
  h_S4096x6 : 0 < S4096x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  inb_S4096x2_S4096x2_0_0 : ∀ a, (![0, 0] : Fin 2 → Nat) a + S4096x2.size a ≤ S4096x2.size a
  h_S4096x2 : 0 < S4096x2.numel
  inb_S2x64_S2x64_0_0 : ∀ a, (![0, 0] : Fin 2 → Nat) a + S2x64.size a ≤ S2x64.size a
  h_S2x64 : 0 < S2x64.numel
  slices_S3x64x64_S1x64x64_0_0_0 : S3x64x64.Slices ![0, 0, 0] S1x64x64
  shapeCasts_S1x64x64_S64x64 : S1x64x64.ShapeCasts S64x64
  concatenates_S64x64_S64x64_S64x64_S64x64_S64x256_d1 : Shape.Concatenates [S64x64, S64x64, S64x64, S64x64] S64x256 1
  slices_S3x64_S1x64_0_0 : S3x64.Slices ![0, 0] S1x64
  shapeCasts_S1x64_S64 : S1x64.ShapeCasts S64
  concatenates_S64_S64_S64_S64_S256_d0 : Shape.Concatenates [S64, S64, S64, S64] S256 0
  shapeCasts_S256_S1x256 : S256.ShapeCasts S1x256
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  slices_S32768x256_S32768x64_0_0 : S32768x256.Slices ![0, 0] S32768x64
  slices_S32768x256_S32768x64_0_64 : S32768x256.Slices ![0, 64] S32768x64
  slices_S32768x256_S32768x64_0_128 : S32768x256.Slices ![0, 128] S32768x64
  slices_S32768x256_S32768x64_0_192 : S32768x256.Slices ![0, 192] S32768x64
  bcast_S_S524288 : S_.BroadcastsInDim S524288 (![] : Fin 0 → Fin S524288.rank)
  bcast_S524288_S524288x1_0 : S524288.BroadcastsInDim S524288x1 (![0] : Fin 1 → Fin S524288x1.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S32768x64 : S_.BroadcastsInDim S32768x64 (![] : Fin 0 → Fin S32768x64.rank)
  reducesTo_S32768x64_S64_d0 : S32768x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S32768x64_0_1 : S1x64.BroadcastsInDim S32768x64 (![0, 1] : Fin 2 → Fin S32768x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S1x64_S8192x64 : S1x64.Broadcasts S8192x64
  reducesTo_S524288x64_S64_d0 : S524288x64.ReducesTo [0] S64
  bcast_S1x64_S524288x64_0_1 : S1x64.BroadcastsInDim S524288x64 (![0, 1] : Fin 2 → Fin S524288x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S32768 : S_.BroadcastsInDim S32768 (![] : Fin 0 → Fin S32768.rank)
  bcast_S_S256 : S_.BroadcastsInDim S256 (![] : Fin 0 → Fin S256.rank)
  bcast_S32768_S32768x1_0 : S32768.BroadcastsInDim S32768x1 (![0] : Fin 1 → Fin S32768x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x16_S256x2_S256x82_d1 : Shape.Concatenates [S256x64, S256x16, S256x2] S256x82 1
  shapeCasts_S1_S1x1 : S1.ShapeCasts S1x1
  inb_S256x82_S256x82_0_0 : ∀ a, (![0, 0] : Fin 2 → Nat) a + S256x82.size a ≤ S256x82.size a
  h_S256x82 : 0 < S256x82.numel
  shapeCasts_S256x82_S256x82 : S256x82.ShapeCasts S256x82
  inb_S82x256_S82x256_0_0 : ∀ a, (![0, 0] : Fin 2 → Nat) a + S82x256.size a ≤ S82x256.size a
  h_S82x256 : 0 < S82x256.numel
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  dot_S4096x6_S6x64_S4096x64_1_0_0_1_n_n_wf : DotDims.WF S4096x6 S6x64 S4096x64 [1] [0] [0] [1] [] []
  dot_S4096x2_S2x64_S4096x64_1_0_0_1_n_n_wf : DotDims.WF S4096x2 S2x64 S4096x64 [1] [0] [0] [1] [] []
  dot_S4096x64_S64x256_S4096x256_1_0_0_1_n_n_wf : DotDims.WF S4096x64 S64x256 S4096x256 [1] [0] [0] [1] [] []
  gather_S32768x64_S524288x1_S524288x64_1_0_n_n_0_1_164_wf : GatherDims.WF S32768x64 S524288x1 S524288x64 [1] [0] [] [0] [] 1 ![1, 64]
  dot_S4096x64_S64x64_S4096x64_1_0_0_1_n_n_wf : DotDims.WF S4096x64 S64x64 S4096x64 [1] [0] [0] [1] [] []
  scatter_S32768x64_S524288x1_S524288x64_1_0_0_1_wf : ScatterDims.WF S32768x64 S524288x1 S524288x64 [1] [0] [0] 1
  scatter_S256_S32768x1_S32768_n_0_0_1_wf : ScatterDims.WF S256 S32768x1 S32768 [] [0] [0] 1
  scatter_S256x64_S32768x1_S32768x64_1_0_0_1_wf : ScatterDims.WF S256x64 S32768x1 S32768x64 [1] [0] [0] 1
  dot_S256x82_S82x256_S256x256_1_0_0_1_n_n_wf : DotDims.WF S256x82 S82x256 S256x256 [1] [0] [0] [1] [] []
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S32768x6.size a
  hwx0_0 : ∀ i : grid0.Coords, EltTy.bits .f32 = 32 ∨ (Rect.block (s := S32768x6) S4096x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S32768x64.size a
  hwx0_3 : ∀ i : grid0.Coords, EltTy.bits .f32 = 32 ∨ (Rect.block (s := S32768x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x2.size a ≤ S524288x2.size a
  hwx1_0 : ∀ i : grid1.Coords, EltTy.bits .f32 = 32 ∨ (Rect.block (s := S524288x2) S4096x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S524288x64.size a
  hwx1_3 : ∀ i : grid1.Coords, EltTy.bits .f32 = 32 ∨ (Rect.block (s := S524288x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S32768x64.size a
  hwx2_0 : ∀ i : grid2.Coords, EltTy.bits .f32 = 32 ∨ (Rect.block (s := S32768x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S32768x256.size a
  hwx2_3 : ∀ i : grid2.Coords, EltTy.bits .f32 = 32 ∨ (Rect.block (s := S32768x256) S4096x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S524288x64.size a
  hwx3_0 : ∀ i : grid3.Coords, EltTy.bits .f32 = 32 ∨ (Rect.block (s := S524288x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S524288x64.size a
  hwx3_3 : ∀ i : grid3.Coords, EltTy.bits .f32 = 32 ∨ (Rect.block (s := S524288x64) S4096x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S524288x64.size a
  hwx3_4 : ∀ i : grid3.Coords, EltTy.bits .f32 = 32 ∨ (Rect.block (s := S524288x64) S4096x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S524288x64.size a
  hwx3_5 : ∀ i : grid3.Coords, EltTy.bits .f32 = 32 ∨ (Rect.block (s := S524288x64) S4096x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x64.size a ≤ S524288x64.size a
  hwx3_6 : ∀ i : grid3.Coords, EltTy.bits .f32 = 32 ∨ (Rect.block (s := S524288x64) S4096x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x64.size a ≤ S524288x64.size a
  hwx3_7 : ∀ i : grid3.Coords, EltTy.bits .f32 = 32 ∨ (Rect.block (s := S524288x64) S4096x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4096x64.size a ≤ S524288x64.size a
  hwx3_8 : ∀ i : grid3.Coords, EltTy.bits .f32 = 32 ∨ (Rect.block (s := S524288x64) S4096x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S32768x64.size a
  hwx4_0 : ∀ i : grid4.Coords, EltTy.bits .f32 = 32 ∨ (Rect.block (s := S32768x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8192x64.size a ≤ S32768x64.size a
  hwx4_5 : ∀ i : grid4.Coords, EltTy.bits .f32 = 32 ∨ (Rect.block (s := S32768x64) S8192x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8192x64.size a ≤ S32768x64.size a
  hwx4_6 : ∀ i : grid4.Coords, EltTy.bits .f32 = 32 ∨ (Rect.block (s := S32768x64) S8192x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S524288x64.size a
  hwx5_0 : ∀ i : grid5.Coords, EltTy.bits .f32 = 32 ∨ (Rect.block (s := S524288x64) S8192x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8192x64.size a ≤ S524288x64.size a
  hwx5_5 : ∀ i : grid5.Coords, EltTy.bits .f32 = 32 ∨ (Rect.block (s := S524288x64) S8192x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8192x64.size a ≤ S524288x64.size a
  hwx5_6 : ∀ i : grid5.Coords, EltTy.bits .f32 = 32 ∨ (Rect.block (s := S524288x64) S8192x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S32768x64.size a
  hwx6_0 : ∀ i : grid6.Coords, EltTy.bits .f32 = 32 ∨ (Rect.block (s := S32768x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x256.size a ≤ S64x256.size a
  hwx6_1 : ∀ i : grid6.Coords, EltTy.bits .f32 = 32 ∨ (Rect.block (s := S64x256) S64x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x256.size a ≤ S32768x256.size a
  hwx6_3 : ∀ i : grid6.Coords, EltTy.bits .f32 = 32 ∨ (Rect.block (s := S32768x256) S4096x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x64.size a ≤ S524288x64.size a
  hwx7_0 : ∀ i : grid7.Coords, EltTy.bits .f32 = 32 ∨ (Rect.block (s := S524288x64) S4096x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x64.size a ≤ S524288x64.size a
  hwx7_3 : ∀ i : grid7.Coords, EltTy.bits .f32 = 32 ∨ (Rect.block (s := S524288x64) S4096x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4096x64.size a ≤ S524288x64.size a
  hwx7_4 : ∀ i : grid7.Coords, EltTy.bits .f32 = 32 ∨ (Rect.block (s := S524288x64) S4096x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4096x64.size a ≤ S524288x64.size a
  hwx7_5 : ∀ i : grid7.Coords, EltTy.bits .f32 = 32 ∨ (Rect.block (s := S524288x64) S4096x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4096x64.size a ≤ S524288x64.size a
  hwx7_6 : ∀ i : grid7.Coords, EltTy.bits .f32 = 32 ∨ (Rect.block (s := S524288x64) S4096x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4096x64.size a ≤ S524288x64.size a
  hwx7_7 : ∀ i : grid7.Coords, EltTy.bits .f32 = 32 ∨ (Rect.block (s := S524288x64) S4096x64.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S4096x64.size a ≤ S524288x64.size a
  hwx7_8 : ∀ i : grid7.Coords, EltTy.bits .f32 = 32 ∨ (Rect.block (s := S524288x64) S4096x64.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x64.size a ≤ S32768x64.size a
  hwx8_0 : ∀ i : grid8.Coords, EltTy.bits .f32 = 32 ∨ (Rect.block (s := S32768x64) S8192x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8192x64.size a ≤ S32768x64.size a
  hwx8_5 : ∀ i : grid8.Coords, EltTy.bits .f32 = 32 ∨ (Rect.block (s := S32768x64) S8192x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S8192x64.size a ≤ S32768x64.size a
  hwx8_6 : ∀ i : grid8.Coords, EltTy.bits .f32 = 32 ∨ (Rect.block (s := S32768x64) S8192x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x64.size a ≤ S524288x64.size a
  hwx9_0 : ∀ i : grid9.Coords, EltTy.bits .f32 = 32 ∨ (Rect.block (s := S524288x64) S8192x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S8192x64.size a ≤ S524288x64.size a
  hwx9_5 : ∀ i : grid9.Coords, EltTy.bits .f32 = 32 ∨ (Rect.block (s := S524288x64) S8192x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S8192x64.size a ≤ S524288x64.size a
  hwx9_6 : ∀ i : grid9.Coords, EltTy.bits .f32 = 32 ∨ (Rect.block (s := S524288x64) S8192x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x64.size a ≤ S32768x64.size a
  hwx10_0 : ∀ i : grid10.Coords, EltTy.bits .f32 = 32 ∨ (Rect.block (s := S32768x64) S4096x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x256.size a ≤ S64x256.size a
  hwx10_1 : ∀ i : grid10.Coords, EltTy.bits .f32 = 32 ∨ (Rect.block (s := S64x256) S64x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4096x256.size a ≤ S32768x256.size a
  hwx10_3 : ∀ i : grid10.Coords, EltTy.bits .f32 = 32 ∨ (Rect.block (s := S32768x256) S4096x256.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x64.size a ≤ S524288x64.size a
  hwx11_0 : ∀ i : grid11.Coords, EltTy.bits .f32 = 32 ∨ (Rect.block (s := S524288x64) S4096x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x64.size a ≤ S524288x64.size a
  hwx11_3 : ∀ i : grid11.Coords, EltTy.bits .f32 = 32 ∨ (Rect.block (s := S524288x64) S4096x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4096x64.size a ≤ S524288x64.size a
  hwx11_4 : ∀ i : grid11.Coords, EltTy.bits .f32 = 32 ∨ (Rect.block (s := S524288x64) S4096x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S4096x64.size a ≤ S524288x64.size a
  hwx11_5 : ∀ i : grid11.Coords, EltTy.bits .f32 = 32 ∨ (Rect.block (s := S524288x64) S4096x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S4096x64.size a ≤ S524288x64.size a
  hwx11_6 : ∀ i : grid11.Coords, EltTy.bits .f32 = 32 ∨ (Rect.block (s := S524288x64) S4096x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S4096x64.size a ≤ S524288x64.size a
  hwx11_7 : ∀ i : grid11.Coords, EltTy.bits .f32 = 32 ∨ (Rect.block (s := S524288x64) S4096x64.size (cc11_transform_7 i) (hinb11_7 i)).WholeWords (EltTy.packing .f32)
  hstage11_8 : ∀ j, (stage11_8 j).IsWhole
  nbuf11_8 : grid11.bufCount reads11_8 false = 2
  hreads11_8 : ∀ i i' : grid11.Coords, (∀ a, reads11_8 a = true → i a = i' a) → cc11_transform_8 i = cc11_transform_8 i'
  hinb11_8 : ∀ (i : grid11.Coords) a, (cc11_transform_8 i a + 1) * S4096x64.size a ≤ S524288x64.size a
  hwx11_8 : ∀ i : grid11.Coords, EltTy.bits .f32 = 32 ∨ (Rect.block (s := S524288x64) S4096x64.size (cc11_transform_8 i) (hinb11_8 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x64.size a ≤ S32768x64.size a
  hwx12_0 : ∀ i : grid12.Coords, EltTy.bits .f32 = 32 ∨ (Rect.block (s := S32768x64) S8192x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S8192x64.size a ≤ S32768x64.size a
  hwx12_5 : ∀ i : grid12.Coords, EltTy.bits .f32 = 32 ∨ (Rect.block (s := S32768x64) S8192x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S8192x64.size a ≤ S32768x64.size a
  hwx12_6 : ∀ i : grid12.Coords, EltTy.bits .f32 = 32 ∨ (Rect.block (s := S32768x64) S8192x64.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8192x64.size a ≤ S524288x64.size a
  hwx13_0 : ∀ i : grid13.Coords, EltTy.bits .f32 = 32 ∨ (Rect.block (s := S524288x64) S8192x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S8192x64.size a ≤ S524288x64.size a
  hwx13_5 : ∀ i : grid13.Coords, EltTy.bits .f32 = 32 ∨ (Rect.block (s := S524288x64) S8192x64.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S8192x64.size a ≤ S524288x64.size a
  hwx13_6 : ∀ i : grid13.Coords, EltTy.bits .f32 = 32 ∨ (Rect.block (s := S524288x64) S8192x64.size (cc13_transform_6 i) (hinb13_6 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S256x82.size a ≤ S256x82.size a
  hwx14_0 : ∀ i : grid14.Coords, EltTy.bits .f32 = 32 ∨ (Rect.block (s := S256x82) S256x82.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S82x256.size a ≤ S82x256.size a
  hwx14_1 : ∀ i : grid14.Coords, EltTy.bits .f32 = 32 ∨ (Rect.block (s := S82x256) S82x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S256x256.size a ≤ S256x256.size a
  hwx14_3 : ∀ i : grid14.Coords, EltTy.bits .f32 = 32 ∨ (Rect.block (s := S256x256) S256x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S256x1.size a ≤ S256x1.size a
  hwx14_5 : ∀ i : grid14.Coords, EltTy.bits .f32 = 32 ∨ (Rect.block (s := S256x1) S256x1.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x1.size a ≤ S1x1.size a
  hwx14_6 : ∀ i : grid14.Coords, EltTy.bits .f32 = 32 ∨ (Rect.block (s := S1x1) S1x1.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S256x1.size a ≤ S256x1.size a
  hwx14_7 : ∀ i : grid14.Coords, EltTy.bits .f32 = 32 ∨ (Rect.block (s := S256x1) S256x1.size (cc14_transform_7 i) (hinb14_7 i)).WholeWords (EltTy.packing .f32)

variable [Facts₀]

def dot_S4096x6_S6x64_S4096x64_1_0_0_1_n_n : DotDims S4096x6 S6x64 S4096x64 where
  lhsContracting := [1]
  rhsContracting := [0]
  lhsNonContracting := [0]
  rhsNonContracting := [1]
  lhsBatch := []
  rhsBatch := []
  wf := dot_S4096x6_S6x64_S4096x64_1_0_0_1_n_n_wf
def dot_S4096x2_S2x64_S4096x64_1_0_0_1_n_n : DotDims S4096x2 S2x64 S4096x64 where
  lhsContracting := [1]
  rhsContracting := [0]
  lhsNonContracting := [0]
  rhsNonContracting := [1]
  lhsBatch := []
  rhsBatch := []
  wf := dot_S4096x2_S2x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def gather_S32768x64_S524288x1_S524288x64_1_0_n_n_0_1_164 : GatherDims S32768x64 S524288x1 S524288x64 where
  offsetDims := [1]
  collapsedSliceDims := [0]
  operandBatchingDims := []
  startIndicesBatchingDims := []
  startIndexMap := [0]
  indexVectorDim := 1
  sliceSizes := ![1, 64]
  wf := gather_S32768x64_S524288x1_S524288x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S32768x64_S524288x1_S524288x64_1_0_0_1 : ScatterDims S32768x64 S524288x1 S524288x64 where
  updateWindowDims := [1]
  insertedWindowDims := [0]
  scatterDimsToOperandDims := [0]
  indexVectorDim := 1
  wf := scatter_S32768x64_S524288x1_S524288x64_1_0_0_1_wf
def scatter_S256_S32768x1_S32768_n_0_0_1 : ScatterDims S256 S32768x1 S32768 where
  updateWindowDims := []
  insertedWindowDims := [0]
  scatterDimsToOperandDims := [0]
  indexVectorDim := 1
  wf := scatter_S256_S32768x1_S32768_n_0_0_1_wf
def scatter_S256x64_S32768x1_S32768x64_1_0_0_1 : ScatterDims S256x64 S32768x1 S32768x64 where
  updateWindowDims := [1]
  insertedWindowDims := [0]
  scatterDimsToOperandDims := [0]
  indexVectorDim := 1
  wf := scatter_S256x64_S32768x1_S32768x64_1_0_0_1_wf
def dot_S256x82_S82x256_S256x256_1_0_0_1_n_n : DotDims S256x82 S82x256 S256x256 where
  lhsContracting := [1]
  rhsContracting := [0]
  lhsNonContracting := [0]
  rhsNonContracting := [1]
  lhsBatch := []
  rhsBatch := []
  wf := dot_S256x82_S82x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S4096x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S4096x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v41) S4096x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v48) S4096x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v54_0) S4096x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v54_1) S4096x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v54_2) S4096x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v64) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S8192x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v77) S8192x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v54_0) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v3) S8192x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v90) S8192x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v77) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S64x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v110) S4096x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S4096x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v137) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S4096x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v128) S4096x64.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v135) S4096x64.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v141_0) S4096x64.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v141_1) S4096x64.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v141_2) S4096x64.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v151) S8192x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v161) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v162) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v163) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v77) S8192x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v164) S8192x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v141_0) S8192x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v173) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v174) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v175) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v176) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v90) S8192x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v177) S8192x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v164) S4096x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v186) S64x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v196) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v197) S4096x256.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v177) S4096x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v224) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v227) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v208) S4096x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v215) S4096x64.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v222) S4096x64.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v228_0) S4096x64.size cc11_transform_6 reads11_6 true false 2 stage11_6 sem11_6
    hrank11 hreads11_6 hinb11_6 nbuf11_6 (Memref.isWhole_whole _) hwx11_6 hstage11_6

abbrev win11_7 : Pipeline.Window sig grid11 :=
  Pipeline.Window.ofSpec (Memref.whole main_v228_1) S4096x64.size cc11_transform_7 reads11_7 true false 2 stage11_7 sem11_7
    hrank11 hreads11_7 hinb11_7 nbuf11_7 (Memref.isWhole_whole _) hwx11_7 hstage11_7

abbrev win11_8 : Pipeline.Window sig grid11 :=
  Pipeline.Window.ofSpec (Memref.whole main_v228_2) S4096x64.size cc11_transform_8 reads11_8 true false 2 stage11_8 sem11_8
    hrank11 hreads11_8 hinb11_8 nbuf11_8 (Memref.isWhole_whole _) hwx11_8 hstage11_8

abbrev win11 : Fin 9 → Pipeline.Window sig grid11 := fun | 0 => win11_0 | 1 => win11_1 | 2 => win11_2 | 3 => win11_3 | 4 => win11_4 | 5 => win11_5 | 6 => win11_6 | 7 => win11_7 | 8 => win11_8 | ⟨_ + 9, h⟩ => absurd h (Nat.not_lt.2 (Nat.le_add_left _ _))
abbrev spec11 : Fin 9 → Pipeline.WinSpec sig grid11.rank := fun w => (win11 w).toWinSpec

abbrev win12_0 : Pipeline.Window sig grid12 :=
  Pipeline.Window.ofSpec (Memref.whole main_v238) S8192x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v247) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v248) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v249) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v250) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v164) S8192x64.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v251) S8192x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v228_0) S8192x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v260) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v261) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v262) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v263) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v177) S8192x64.size cc13_transform_5 reads13_5 false false 2 stage13_5 sem13_5
    hrank13 hreads13_5 hinb13_5 nbuf13_5 (Memref.isWhole_whole _) hwx13_5 hstage13_5

abbrev win13_6 : Pipeline.Window sig grid13 :=
  Pipeline.Window.ofSpec (Memref.whole main_v264) S8192x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v277) S256x82.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_arg25) S82x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v278) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_arg27) S256x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v279) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_arg29) S256x1.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v280) S1x1.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v281) S256x1.size cc14_transform_7 reads14_7 true true 1 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

class Facts : Prop extends Facts₀ where

variable [Facts]
-- ==== ReferenceIdeal.lean ====
abbrev S32768x6 : Shape := ⟨2, ![32768, 6]⟩
abbrev S524288x2 : Shape := ⟨2, ![524288, 2]⟩
abbrev S524288 : Shape := ⟨1, ![524288]⟩
abbrev S32768 : Shape := ⟨1, ![32768]⟩
abbrev S256x16 : Shape := ⟨2, ![256, 16]⟩
abbrev S256x2 : Shape := ⟨2, ![256, 2]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S82x256 : Shape := ⟨2, ![82, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S32768x64 : Shape := ⟨2, ![32768, 64]⟩
abbrev S1x64 : Shape := ⟨2, ![1, 64]⟩
abbrev S524288x64 : Shape := ⟨2, ![524288, 64]⟩
abbrev S1x64x64 : Shape := ⟨3, ![1, 64, 64]⟩
abbrev S64x64 : Shape := ⟨2, ![64, 64]⟩
abbrev S524288x1 : Shape := ⟨2, ![524288, 1]⟩
abbrev S32768x1 : Shape := ⟨2, ![32768, 1]⟩
abbrev S256x64 : Shape := ⟨2, ![256, 64]⟩
abbrev S256x82 : Shape := ⟨2, ![256, 82]⟩
abbrev S1x256 : Shape := ⟨2, ![1, 256]⟩
abbrev S1x1 : Shape := ⟨2, ![1, 1]⟩

abbrev nBuf : Space → Nat
  | .hbm => 662
  | .vmem => 0
  | .smem => 0
  | _ => 0

abbrev hbmTy0_0 (i : Nat) : BufTy := match i % 128 with
  | 0 => ⟨S32768x6, .f32⟩
  | 1 => ⟨S524288x2, .f32⟩
  | 2 => ⟨S524288, .i32⟩
  | 3 => ⟨S524288, .i32⟩
  | 4 => ⟨S32768, .i32⟩
  | 5 => ⟨S256x16, .f32⟩
  | 6 => ⟨S256x2, .f32⟩
  | 7 => ⟨S6x64, .f32⟩
  | 8 => ⟨S64, .f32⟩
  | 9 => ⟨S2x64, .f32⟩
  | 10 => ⟨S64, .f32⟩
  | 11 => ⟨S3x64x64, .f32⟩
  | 12 => ⟨S3x64, .f32⟩
  | 13 => ⟨S3x64x64, .f32⟩
  | 14 => ⟨S3x64, .f32⟩
  | 15 => ⟨S3x64x64, .f32⟩
  | 16 => ⟨S3x64, .f32⟩
  | 17 => ⟨S3x64x64, .f32⟩
  | 18 => ⟨S3x64, .f32⟩
  | 19 => ⟨S3x64x64, .f32⟩
  | 20 => ⟨S3x64, .f32⟩
  | 21 => ⟨S3x64, .f32⟩
  | 22 => ⟨S3x64, .f32⟩
  | 23 => ⟨S3x64, .f32⟩
  | 24 => ⟨S3x64, .f32⟩
  | 25 => ⟨S82x256, .f32⟩
  | 26 => ⟨S256, .f32⟩
  | 27 => ⟨S256x256, .f32⟩
  | 28 => ⟨S256, .f32⟩
  | 29 => ⟨S256x1, .f32⟩
  | 30 => ⟨S1, .f32⟩
  | 31 => ⟨S_, .f32⟩
  | 32 => ⟨S524288x2, .f32⟩
  | 33 => ⟨S524288x2, .f32⟩
  | 34 => ⟨S32768x64, .f32⟩
  | 35 => ⟨S1x64, .f32⟩
  | 36 => ⟨S32768x64, .f32⟩
  | 37 => ⟨S32768x64, .f32⟩
  | 38 => ⟨S524288x64, .f32⟩
  | 39 => ⟨S1x64, .f32⟩
  | 40 => ⟨S524288x64, .f32⟩
  | 41 => ⟨S524288x64, .f32⟩
  | 42 => ⟨S1x64x64, .f32⟩
  | 43 => ⟨S64x64, .f32⟩
  | 44 => ⟨S32768x64, .f32⟩
  | 45 => ⟨S1x64, .f32⟩
  | 46 => ⟨S64, .f32⟩
  | 47 => ⟨S1x64, .f32⟩
  | 48 => ⟨S32768x64, .f32⟩
  | 49 => ⟨S32768x64, .f32⟩
  | 50 => ⟨S1x64x64, .f32⟩
  | 51 => ⟨S64x64, .f32⟩
  | 52 => ⟨S32768x64, .f32⟩
  | 53 => ⟨S1x64, .f32⟩
  | 54 => ⟨S64, .f32⟩
  | 55 => ⟨S1x64, .f32⟩
  | 56 => ⟨S32768x64, .f32⟩
  | 57 => ⟨S32768x64, .f32⟩
  | 58 => ⟨S1x64x64, .f32⟩
  | 59 => ⟨S64x64, .f32⟩
  | 60 => ⟨S32768x64, .f32⟩
  | 61 => ⟨S1x64, .f32⟩
  | 62 => ⟨S64, .f32⟩
  | 63 => ⟨S1x64, .f32⟩
  | 64 => ⟨S32768x64, .f32⟩
  | 65 => ⟨S32768x64, .f32⟩
  | 66 => ⟨S1x64x64, .f32⟩
  | 67 => ⟨S64x64, .f32⟩
  | 68 => ⟨S32768x64, .f32⟩
  | 69 => ⟨S1x64, .f32⟩
  | 70 => ⟨S64, .f32⟩
  | 71 => ⟨S1x64, .f32⟩
  | 72 => ⟨S32768x64, .f32⟩
  | 73 => ⟨S32768x64, .f32⟩
  | 74 => ⟨S1x64x64, .f32⟩
  | 75 => ⟨S64x64, .f32⟩
  | 76 => ⟨S524288x64, .f32⟩
  | 77 => ⟨S1x64, .f32⟩
  | 78 => ⟨S64, .f32⟩
  | 79 => ⟨S1x64, .f32⟩
  | 80 => ⟨S524288x64, .f32⟩
  | 81 => ⟨S524288x64, .f32⟩
  | 82 => ⟨S_, .i32⟩
  | 83 => ⟨S524288, .i32⟩
  | 84 => ⟨S524288, .i1⟩
  | 85 => ⟨S_, .i32⟩
  | 86 => ⟨S524288, .i32⟩
  | 87 => ⟨S524288, .i32⟩
  | 88 => ⟨S524288, .i32⟩
  | 89 => ⟨S524288x1, .i32⟩
  | 90 => ⟨S524288x64, .f32⟩
  | 91 => ⟨S524288x64, .f32⟩
  | 92 => ⟨S_, .i32⟩
  | 93 => ⟨S524288, .i32⟩
  | 94 => ⟨S524288, .i1⟩
  | 95 => ⟨S_, .i32⟩
  | 96 => ⟨S524288, .i32⟩
  | 97 => ⟨S524288, .i32⟩
  | 98 => ⟨S524288, .i32⟩
  | 99 => ⟨S524288x1, .i32⟩
  | 100 => ⟨S524288x64, .f32⟩
  | 101 => ⟨S524288x64, .f32⟩
  | 102 => ⟨S524288x64, .f32⟩
  | 103 => ⟨S524288x64, .f32⟩
  | 104 => ⟨S_, .f32⟩
  | 105 => ⟨S524288x64, .f32⟩
  | 106 => ⟨S524288x64, .f32⟩
  | 107 => ⟨S_, .f32⟩
  | 108 => ⟨S524288x64, .f32⟩
  | 109 => ⟨S524288x64, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288x64, .f32⟩
  | 119 => ⟨S524288x64, .f32⟩
  | 120 => ⟨S_, .f32⟩
  | 121 => ⟨S32768x64, .f32⟩
  | 122 => ⟨S524288x1, .i32⟩
  | 123 => ⟨S32768x64, .f32⟩
  | 124 => ⟨S_, .f32⟩
  | 125 => ⟨S32768x64, .f32⟩
  | 126 => ⟨S524288x1, .i32⟩
  | 127 => ⟨S32768x64, .f32⟩
  | _ => ⟨S32768x6, .f32⟩

abbrev hbmTy0_1 (i : Nat) : BufTy := match i % 128 with
  | 0 => ⟨S_, .f32⟩
  | 1 => ⟨S32768x64, .f32⟩
  | 2 => ⟨S32768x64, .f32⟩
  | 3 => ⟨S32768x64, .f32⟩
  | 4 => ⟨S32768x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S32768x64, .f32⟩
  | 22 => ⟨S32768x64, .f32⟩
  | 23 => ⟨S32768x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S32768x64, .f32⟩
  | 39 => ⟨S32768x64, .f32⟩
  | 40 => ⟨S1x64, .f32⟩
  | 41 => ⟨S32768x64, .f32⟩
  | 42 => ⟨S32768x64, .f32⟩
  | 43 => ⟨S_, .f32⟩
  | 44 => ⟨S64, .f32⟩
  | 45 => ⟨S64, .f32⟩
  | 46 => ⟨S64, .f32⟩
  | 47 => ⟨S1x64, .f32⟩
  | 48 => ⟨S32768x64, .f32⟩
  | 49 => ⟨S32768x64, .f32⟩
  | 50 => ⟨S1x64, .f32⟩
  | 51 => ⟨S32768x64, .f32⟩
  | 52 => ⟨S32768x64, .f32⟩
  | 53 => ⟨S_, .f32⟩
  | 54 => ⟨S32768x64, .f32⟩
  | 55 => ⟨S32768x64, .f32⟩
  | 56 => ⟨S32768x64, .f32⟩
  | 57 => ⟨S1x64, .f32⟩
  | 58 => ⟨S64, .f32⟩
  | 59 => ⟨S1x64, .f32⟩
  | 60 => ⟨S64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S524288x64, .f32⟩
  | 74 => ⟨S524288x64, .f32⟩
  | 75 => ⟨S524288x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S524288x64, .f32⟩
  | 91 => ⟨S524288x64, .f32⟩
  | 92 => ⟨S1x64, .f32⟩
  | 93 => ⟨S524288x64, .f32⟩
  | 94 => ⟨S524288x64, .f32⟩
  | 95 => ⟨S_, .f32⟩
  | 96 => ⟨S64, .f32⟩
  | 97 => ⟨S64, .f32⟩
  | 98 => ⟨S64, .f32⟩
  | 99 => ⟨S1x64, .f32⟩
  | 100 => ⟨S524288x64, .f32⟩
  | 101 => ⟨S524288x64, .f32⟩
  | 102 => ⟨S1x64, .f32⟩
  | 103 => ⟨S524288x64, .f32⟩
  | 104 => ⟨S524288x64, .f32⟩
  | 105 => ⟨S_, .f32⟩
  | 106 => ⟨S524288x64, .f32⟩
  | 107 => ⟨S524288x64, .f32⟩
  | 108 => ⟨S524288x64, .f32⟩
  | 109 => ⟨S1x64x64, .f32⟩
  | 110 => ⟨S64x64, .f32⟩
  | 111 => ⟨S32768x64, .f32⟩
  | 112 => ⟨S1x64, .f32⟩
  | 113 => ⟨S64, .f32⟩
  | 114 => ⟨S1x64, .f32⟩
  | 115 => ⟨S32768x64, .f32⟩
  | 116 => ⟨S32768x64, .f32⟩
  | 117 => ⟨S1x64x64, .f32⟩
  | 118 => ⟨S64x64, .f32⟩
  | 119 => ⟨S32768x64, .f32⟩
  | 120 => ⟨S1x64, .f32⟩
  | 121 => ⟨S64, .f32⟩
  | 122 => ⟨S1x64, .f32⟩
  | 123 => ⟨S32768x64, .f32⟩
  | 124 => ⟨S32768x64, .f32⟩
  | 125 => ⟨S1x64x64, .f32⟩
  | 126 => ⟨S64x64, .f32⟩
  | 127 => ⟨S32768x64, .f32⟩
  | _ => ⟨S32768x6, .f32⟩

abbrev hbmTy0_2 (i : Nat) : BufTy := match i % 128 with
  | 0 => ⟨S1x64, .f32⟩
  | 1 => ⟨S64, .f32⟩
  | 2 => ⟨S1x64, .f32⟩
  | 3 => ⟨S32768x64, .f32⟩
  | 4 => ⟨S32768x64, .f32⟩
  | 5 => ⟨S1x64x64, .f32⟩
  | 6 => ⟨S64x64, .f32⟩
  | 7 => ⟨S32768x64, .f32⟩
  | 8 => ⟨S1x64, .f32⟩
  | 9 => ⟨S64, .f32⟩
  | 10 => ⟨S1x64, .f32⟩
  | 11 => ⟨S32768x64, .f32⟩
  | 12 => ⟨S32768x64, .f32⟩
  | 13 => ⟨S1x64x64, .f32⟩
  | 14 => ⟨S64x64, .f32⟩
  | 15 => ⟨S524288x64, .f32⟩
  | 16 => ⟨S1x64, .f32⟩
  | 17 => ⟨S64, .f32⟩
  | 18 => ⟨S1x64, .f32⟩
  | 19 => ⟨S524288x64, .f32⟩
  | 20 => ⟨S524288x64, .f32⟩
  | 21 => ⟨S_, .i32⟩
  | 22 => ⟨S524288, .i32⟩
  | 23 => ⟨S524288, .i1⟩
  | 24 => ⟨S_, .i32⟩
  | 25 => ⟨S524288, .i32⟩
  | 26 => ⟨S524288, .i32⟩
  | 27 => ⟨S524288, .i32⟩
  | 28 => ⟨S524288x1, .i32⟩
  | 29 => ⟨S524288x64, .f32⟩
  | 30 => ⟨S524288x64, .f32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x64, .f32⟩
  | 40 => ⟨S524288x64, .f32⟩
  | 41 => ⟨S524288x64, .f32⟩
  | 42 => ⟨S524288x64, .f32⟩
  | 43 => ⟨S_, .f32⟩
  | 44 => ⟨S524288x64, .f32⟩
  | 45 => ⟨S524288x64, .f32⟩
  | 46 => ⟨S_, .f32⟩
  | 47 => ⟨S524288x64, .f32⟩
  | 48 => ⟨S524288x64, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288x64, .f32⟩
  | 58 => ⟨S524288x64, .f32⟩
  | 59 => ⟨S_, .f32⟩
  | 60 => ⟨S32768x64, .f32⟩
  | 61 => ⟨S524288x1, .i32⟩
  | 62 => ⟨S32768x64, .f32⟩
  | 63 => ⟨S_, .f32⟩
  | 64 => ⟨S32768x64, .f32⟩
  | 65 => ⟨S524288x1, .i32⟩
  | 66 => ⟨S32768x64, .f32⟩
  | 67 => ⟨S_, .f32⟩
  | 68 => ⟨S32768x64, .f32⟩
  | 69 => ⟨S32768x64, .f32⟩
  | 70 => ⟨S32768x64, .f32⟩
  | 71 => ⟨S32768x64, .f32⟩
  | 72 => ⟨S1x64, .f32⟩
  | 73 => ⟨S64, .f32⟩
  | 74 => ⟨S1x64, .f32⟩
  | 75 => ⟨S64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S32768x64, .f32⟩
  | 89 => ⟨S32768x64, .f32⟩
  | 90 => ⟨S32768x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S32768x64, .f32⟩
  | 106 => ⟨S32768x64, .f32⟩
  | 107 => ⟨S1x64, .f32⟩
  | 108 => ⟨S32768x64, .f32⟩
  | 109 => ⟨S32768x64, .f32⟩
  | 110 => ⟨S_, .f32⟩
  | 111 => ⟨S64, .f32⟩
  | 112 => ⟨S64, .f32⟩
  | 113 => ⟨S64, .f32⟩
  | 114 => ⟨S1x64, .f32⟩
  | 115 => ⟨S32768x64, .f32⟩
  | 116 => ⟨S32768x64, .f32⟩
  | 117 => ⟨S1x64, .f32⟩
  | 118 => ⟨S32768x64, .f32⟩
  | 119 => ⟨S32768x64, .f32⟩
  | 120 => ⟨S_, .f32⟩
  | 121 => ⟨S32768x64, .f32⟩
  | 122 => ⟨S32768x64, .f32⟩
  | 123 => ⟨S32768x64, .f32⟩
  | 124 => ⟨S1x64, .f32⟩
  | 125 => ⟨S64, .f32⟩
  | 126 => ⟨S1x64, .f32⟩
  | 127 => ⟨S64, .f32⟩
  | _ => ⟨S32768x6, .f32⟩

abbrev hbmTy0_3 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S524288x64, .f32⟩
  | 13 => ⟨S524288x64, .f32⟩
  | 14 => ⟨S524288x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S524288x64, .f32⟩
  | 30 => ⟨S524288x64, .f32⟩
  | 31 => ⟨S1x64, .f32⟩
  | 32 => ⟨S524288x64, .f32⟩
  | 33 => ⟨S524288x64, .f32⟩
  | 34 => ⟨S_, .f32⟩
  | 35 => ⟨S64, .f32⟩
  | 36 => ⟨S64, .f32⟩
  | 37 => ⟨S64, .f32⟩
  | 38 => ⟨S1x64, .f32⟩
  | 39 => ⟨S524288x64, .f32⟩
  | 40 => ⟨S524288x64, .f32⟩
  | 41 => ⟨S1x64, .f32⟩
  | 42 => ⟨S524288x64, .f32⟩
  | 43 => ⟨S524288x64, .f32⟩
  | 44 => ⟨S_, .f32⟩
  | 45 => ⟨S524288x64, .f32⟩
  | 46 => ⟨S524288x64, .f32⟩
  | 47 => ⟨S524288x64, .f32⟩
  | 48 => ⟨S1x64x64, .f32⟩
  | 49 => ⟨S64x64, .f32⟩
  | 50 => ⟨S32768x64, .f32⟩
  | 51 => ⟨S1x64, .f32⟩
  | 52 => ⟨S64, .f32⟩
  | 53 => ⟨S1x64, .f32⟩
  | 54 => ⟨S32768x64, .f32⟩
  | 55 => ⟨S32768x64, .f32⟩
  | 56 => ⟨S1x64x64, .f32⟩
  | 57 => ⟨S64x64, .f32⟩
  | 58 => ⟨S32768x64, .f32⟩
  | 59 => ⟨S1x64, .f32⟩
  | 60 => ⟨S64, .f32⟩
  | 61 => ⟨S1x64, .f32⟩
  | 62 => ⟨S32768x64, .f32⟩
  | 63 => ⟨S32768x64, .f32⟩
  | 64 => ⟨S1x64x64, .f32⟩
  | 65 => ⟨S64x64, .f32⟩
  | 66 => ⟨S32768x64, .f32⟩
  | 67 => ⟨S1x64, .f32⟩
  | 68 => ⟨S64, .f32⟩
  | 69 => ⟨S1x64, .f32⟩
  | 70 => ⟨S32768x64, .f32⟩
  | 71 => ⟨S32768x64, .f32⟩
  | 72 => ⟨S1x64x64, .f32⟩
  | 73 => ⟨S64x64, .f32⟩
  | 74 => ⟨S32768x64, .f32⟩
  | 75 => ⟨S1x64, .f32⟩
  | 76 => ⟨S64, .f32⟩
  | 77 => ⟨S1x64, .f32⟩
  | 78 => ⟨S32768x64, .f32⟩
  | 79 => ⟨S32768x64, .f32⟩
  | 80 => ⟨S1x64x64, .f32⟩
  | 81 => ⟨S64x64, .f32⟩
  | 82 => ⟨S524288x64, .f32⟩
  | 83 => ⟨S1x64, .f32⟩
  | 84 => ⟨S64, .f32⟩
  | 85 => ⟨S1x64, .f32⟩
  | 86 => ⟨S524288x64, .f32⟩
  | 87 => ⟨S524288x64, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S524288x1, .i32⟩
  | 96 => ⟨S524288x64, .f32⟩
  | 97 => ⟨S524288x64, .f32⟩
  | 98 => ⟨S_, .i32⟩
  | 99 => ⟨S524288, .i32⟩
  | 100 => ⟨S524288, .i1⟩
  | 101 => ⟨S_, .i32⟩
  | 102 => ⟨S524288, .i32⟩
  | 103 => ⟨S524288, .i32⟩
  | 104 => ⟨S524288, .i32⟩
  | 105 => ⟨S524288x1, .i32⟩
  | 106 => ⟨S524288x64, .f32⟩
  | 107 => ⟨S524288x64, .f32⟩
  | 108 => ⟨S524288x64, .f32⟩
  | 109 => ⟨S524288x64, .f32⟩
  | 110 => ⟨S_, .f32⟩
  | 111 => ⟨S524288x64, .f32⟩
  | 112 => ⟨S524288x64, .f32⟩
  | 113 => ⟨S_, .f32⟩
  | 114 => ⟨S524288x64, .f32⟩
  | 115 => ⟨S524288x64, .f32⟩
  | 116 => ⟨S_, .i32⟩
  | 117 => ⟨S524288, .i32⟩
  | 118 => ⟨S524288, .i1⟩
  | 119 => ⟨S_, .i32⟩
  | 120 => ⟨S524288, .i32⟩
  | 121 => ⟨S524288, .i32⟩
  | 122 => ⟨S524288, .i32⟩
  | 123 => ⟨S524288x1, .i32⟩
  | 124 => ⟨S524288x64, .f32⟩
  | 125 => ⟨S524288x64, .f32⟩
  | 126 => ⟨S_, .f32⟩
  | 127 => ⟨S32768x64, .f32⟩
  | _ => ⟨S32768x6, .f32⟩

abbrev hbmTy0_4 (i : Nat) : BufTy := match i % 128 with
  | 0 => ⟨S524288x1, .i32⟩
  | 1 => ⟨S32768x64, .f32⟩
  | 2 => ⟨S_, .f32⟩
  | 3 => ⟨S32768x64, .f32⟩
  | 4 => ⟨S524288x1, .i32⟩
  | 5 => ⟨S32768x64, .f32⟩
  | 6 => ⟨S_, .f32⟩
  | 7 => ⟨S32768x64, .f32⟩
  | 8 => ⟨S32768x64, .f32⟩
  | 9 => ⟨S32768x64, .f32⟩
  | 10 => ⟨S32768x64, .f32⟩
  | 11 => ⟨S1x64, .f32⟩
  | 12 => ⟨S64, .f32⟩
  | 13 => ⟨S1x64, .f32⟩
  | 14 => ⟨S64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S32768x64, .f32⟩
  | 28 => ⟨S32768x64, .f32⟩
  | 29 => ⟨S32768x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S32768x64, .f32⟩
  | 45 => ⟨S32768x64, .f32⟩
  | 46 => ⟨S1x64, .f32⟩
  | 47 => ⟨S32768x64, .f32⟩
  | 48 => ⟨S32768x64, .f32⟩
  | 49 => ⟨S_, .f32⟩
  | 50 => ⟨S64, .f32⟩
  | 51 => ⟨S64, .f32⟩
  | 52 => ⟨S64, .f32⟩
  | 53 => ⟨S1x64, .f32⟩
  | 54 => ⟨S32768x64, .f32⟩
  | 55 => ⟨S32768x64, .f32⟩
  | 56 => ⟨S1x64, .f32⟩
  | 57 => ⟨S32768x64, .f32⟩
  | 58 => ⟨S32768x64, .f32⟩
  | 59 => ⟨S_, .f32⟩
  | 60 => ⟨S32768x64, .f32⟩
  | 61 => ⟨S32768x64, .f32⟩
  | 62 => ⟨S32768x64, .f32⟩
  | 63 => ⟨S1x64, .f32⟩
  | 64 => ⟨S64, .f32⟩
  | 65 => ⟨S1x64, .f32⟩
  | 66 => ⟨S64, .f32⟩
  | 67 => ⟨S_, .f32⟩
  | 68 => ⟨S64, .f32⟩
  | 69 => ⟨S_, .f32⟩
  | 70 => ⟨S64, .f32⟩
  | 71 => ⟨S64, .f32⟩
  | 72 => ⟨S_, .i32⟩
  | 73 => ⟨S_, .f32⟩
  | 74 => ⟨S64, .f32⟩
  | 75 => ⟨S1x64, .f32⟩
  | 76 => ⟨S_, .f32⟩
  | 77 => ⟨S1x64, .f32⟩
  | 78 => ⟨S1x64, .f32⟩
  | 79 => ⟨S524288x64, .f32⟩
  | 80 => ⟨S524288x64, .f32⟩
  | 81 => ⟨S524288x64, .f32⟩
  | 82 => ⟨S_, .f32⟩
  | 83 => ⟨S_, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S_, .i1⟩
  | 91 => ⟨S_, .f32⟩
  | 92 => ⟨S_, .f32⟩
  | 93 => ⟨S64, .f32⟩
  | 94 => ⟨S64, .f32⟩
  | 95 => ⟨S1x64, .f32⟩
  | 96 => ⟨S524288x64, .f32⟩
  | 97 => ⟨S524288x64, .f32⟩
  | 98 => ⟨S1x64, .f32⟩
  | 99 => ⟨S524288x64, .f32⟩
  | 100 => ⟨S524288x64, .f32⟩
  | 101 => ⟨S_, .f32⟩
  | 102 => ⟨S64, .f32⟩
  | 103 => ⟨S64, .f32⟩
  | 104 => ⟨S64, .f32⟩
  | 105 => ⟨S1x64, .f32⟩
  | 106 => ⟨S524288x64, .f32⟩
  | 107 => ⟨S524288x64, .f32⟩
  | 108 => ⟨S1x64, .f32⟩
  | 109 => ⟨S524288x64, .f32⟩
  | 110 => ⟨S524288x64, .f32⟩
  | 111 => ⟨S_, .f32⟩
  | 112 => ⟨S524288x64, .f32⟩
  | 113 => ⟨S524288x64, .f32⟩
  | 114 => ⟨S524288x64, .f32⟩
  | 115 => ⟨S_, .f32⟩
  | 116 => ⟨S32768, .f32⟩
  | 117 => ⟨S_, .f32⟩
  | 118 => ⟨S256, .f32⟩
  | 119 => ⟨S32768x1, .i32⟩
  | 120 => ⟨S256, .f32⟩
  | 121 => ⟨S_, .f32⟩
  | 122 => ⟨S256x64, .f32⟩
  | 123 => ⟨S32768x1, .i32⟩
  | 124 => ⟨S256x64, .f32⟩
  | 125 => ⟨S_, .f32⟩
  | 126 => ⟨S256, .f32⟩
  | 127 => ⟨S256, .f32⟩
  | _ => ⟨S32768x6, .f32⟩

abbrev hbmTy0_5 (i : Nat) : BufTy := match i % 128 with
  | 0 => ⟨S256x1, .f32⟩
  | 1 => ⟨S256x64, .f32⟩
  | 2 => ⟨S256x64, .f32⟩
  | 3 => ⟨S256x82, .f32⟩
  | 4 => ⟨S256x256, .f32⟩
  | 5 => ⟨S1x256, .f32⟩
  | 6 => ⟨S256x256, .f32⟩
  | 7 => ⟨S256x256, .f32⟩
  | 8 => ⟨S_, .f32⟩
  | 9 => ⟨S256x256, .f32⟩
  | 10 => ⟨S256x256, .f32⟩
  | 11 => ⟨S256x256, .f32⟩
  | 12 => ⟨S1x256, .f32⟩
  | 13 => ⟨S256x256, .f32⟩
  | 14 => ⟨S256x256, .f32⟩
  | 15 => ⟨S_, .f32⟩
  | 16 => ⟨S256x256, .f32⟩
  | 17 => ⟨S256x256, .f32⟩
  | 18 => ⟨S256x1, .f32⟩
  | 19 => ⟨S1x1, .f32⟩
  | 20 => ⟨S256x1, .f32⟩
  | 21 => ⟨S256x1, .f32⟩
  | _ => ⟨S32768x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32768x6, .f32⟩

abbrev bufTy : (tb : Table) → Fin (tcTables nBuf tb) → BufTy
  | .hbm, ⟨i, _⟩ => hbmTy i
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_cst : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c : Ref sig .tc := ⟨.hbm, 82, rfl⟩
abbrev main_v50 : Ref sig .tc := ⟨.hbm, 83, rfl⟩
abbrev main_v51 : Ref sig .tc := ⟨.hbm, 84, rfl⟩
abbrev main_c_0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_1 : Ref sig .tc := ⟨.hbm, 92, rfl⟩
abbrev main_v58 : Ref sig .tc := ⟨.hbm, 93, rfl⟩
abbrev main_v59 : Ref sig .tc := ⟨.hbm, 94, rfl⟩
abbrev main_c_2 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_3 : Ref sig .tc := ⟨.hbm, 104, rfl⟩
abbrev main_v68 : Ref sig .tc := ⟨.hbm, 105, rfl⟩
abbrev main_v69 : Ref sig .tc := ⟨.hbm, 106, rfl⟩
abbrev main_cst_4 : Ref sig .tc := ⟨.hbm, 107, rfl⟩
abbrev main_v70 : Ref sig .tc := ⟨.hbm, 108, rfl⟩
abbrev main_v71 : Ref sig .tc := ⟨.hbm, 109, rfl⟩
abbrev main_c_5 : Ref sig .tc := ⟨.hbm, 110, rfl⟩
abbrev main_v72 : Ref sig .tc := ⟨.hbm, 111, rfl⟩
abbrev main_v73 : Ref sig .tc := ⟨.hbm, 112, rfl⟩
abbrev main_c_6 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_7 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_8 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_9 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_10 : Ref sig .tc := ⟨.hbm, 137, rfl⟩
abbrev main_v94 : Ref sig .tc := ⟨.hbm, 138, rfl⟩
abbrev main_cst_11 : Ref sig .tc := ⟨.hbm, 139, rfl⟩
abbrev main_v95 : Ref sig .tc := ⟨.hbm, 140, rfl⟩
abbrev main_v96 : Ref sig .tc := ⟨.hbm, 141, rfl⟩
abbrev main_c_12 : Ref sig .tc := ⟨.hbm, 142, rfl⟩
abbrev main_call0_cst : Ref sig .tc := ⟨.hbm, 143, rfl⟩
abbrev main_call0_v0 : Ref sig .tc := ⟨.hbm, 144, rfl⟩
abbrev main_call0_v1 : Ref sig .tc := ⟨.hbm, 145, rfl⟩
abbrev main_call0_cst_0 : Ref sig .tc := ⟨.hbm, 146, rfl⟩
abbrev main_call0_v2 : Ref sig .tc := ⟨.hbm, 147, rfl⟩
abbrev main_call0_v3 : Ref sig .tc := ⟨.hbm, 148, rfl⟩
abbrev main_call0_v4 : Ref sig .tc := ⟨.hbm, 149, rfl⟩
abbrev main_call0_v5 : Ref sig .tc := ⟨.hbm, 150, rfl⟩
abbrev main_call0_v6 : Ref sig .tc := ⟨.hbm, 151, rfl⟩
abbrev main_call0_v7 : Ref sig .tc := ⟨.hbm, 152, rfl⟩
abbrev main_call0_cst_1 : Ref sig .tc := ⟨.hbm, 153, rfl⟩
abbrev main_call0_v8 : Ref sig .tc := ⟨.hbm, 154, rfl⟩
abbrev main_call0_cst_2 : Ref sig .tc := ⟨.hbm, 155, rfl⟩
abbrev main_call0_v9 : Ref sig .tc := ⟨.hbm, 156, rfl⟩
abbrev main_call0_v10 : Ref sig .tc := ⟨.hbm, 157, rfl⟩
abbrev main_call0_v11 : Ref sig .tc := ⟨.hbm, 158, rfl⟩
abbrev main_call0_cst_3 : Ref sig .tc := ⟨.hbm, 159, rfl⟩
abbrev main_call0_v12 : Ref sig .tc := ⟨.hbm, 160, rfl⟩
abbrev main_call0_cst_4 : Ref sig .tc := ⟨.hbm, 161, rfl⟩
abbrev main_call0_call0_v0 : Ref sig .tc := ⟨.hbm, 162, rfl⟩
abbrev main_call0_call0_v1 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_13 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_call1_cst : Ref sig .tc := ⟨.hbm, 181, rfl⟩
abbrev main_call1_v0 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_14 : Ref sig .tc := ⟨.hbm, 189, rfl⟩
abbrev main_v119 : Ref sig .tc := ⟨.hbm, 190, rfl⟩
abbrev main_cst_15 : Ref sig .tc := ⟨.hbm, 191, rfl⟩
abbrev main_v120 : Ref sig .tc := ⟨.hbm, 192, rfl⟩
abbrev main_v121 : Ref sig .tc := ⟨.hbm, 193, rfl⟩
abbrev main_c_16 : Ref sig .tc := ⟨.hbm, 194, rfl⟩
abbrev main_call2_cst : Ref sig .tc := ⟨.hbm, 195, rfl⟩
abbrev main_call2_v0 : Ref sig .tc := ⟨.hbm, 196, rfl⟩
abbrev main_call2_v1 : Ref sig .tc := ⟨.hbm, 197, rfl⟩
abbrev main_call2_cst_0 : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_call2_v5 : Ref sig .tc := ⟨.hbm, 202, rfl⟩
abbrev main_call2_v6 : Ref sig .tc := ⟨.hbm, 203, rfl⟩
abbrev main_call2_v7 : Ref sig .tc := ⟨.hbm, 204, rfl⟩
abbrev main_call2_cst_1 : Ref sig .tc := ⟨.hbm, 205, rfl⟩
abbrev main_call2_v8 : Ref sig .tc := ⟨.hbm, 206, rfl⟩
abbrev main_call2_cst_2 : Ref sig .tc := ⟨.hbm, 207, rfl⟩
abbrev main_call2_v9 : Ref sig .tc := ⟨.hbm, 208, rfl⟩
abbrev main_call2_v10 : Ref sig .tc := ⟨.hbm, 209, rfl⟩
abbrev main_call2_v11 : Ref sig .tc := ⟨.hbm, 210, rfl⟩
abbrev main_call2_cst_3 : Ref sig .tc := ⟨.hbm, 211, rfl⟩
abbrev main_call2_v12 : Ref sig .tc := ⟨.hbm, 212, rfl⟩
abbrev main_call2_cst_4 : Ref sig .tc := ⟨.hbm, 213, rfl⟩
abbrev main_call2_call0_v0 : Ref sig .tc := ⟨.hbm, 214, rfl⟩
abbrev main_call2_call0_v1 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_cst_17 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_call3_cst : Ref sig .tc := ⟨.hbm, 233, rfl⟩
abbrev main_call3_v0 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_c_18 : Ref sig .tc := ⟨.hbm, 277, rfl⟩
abbrev main_v180 : Ref sig .tc := ⟨.hbm, 278, rfl⟩
abbrev main_v181 : Ref sig .tc := ⟨.hbm, 279, rfl⟩
abbrev main_c_19 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_c_20 : Ref sig .tc := ⟨.hbm, 287, rfl⟩
abbrev main_v188 : Ref sig .tc := ⟨.hbm, 288, rfl⟩
abbrev main_v189 : Ref sig .tc := ⟨.hbm, 289, rfl⟩
abbrev main_c_21 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_cst_22 : Ref sig .tc := ⟨.hbm, 299, rfl⟩
abbrev main_v198 : Ref sig .tc := ⟨.hbm, 300, rfl⟩
abbrev main_v199 : Ref sig .tc := ⟨.hbm, 301, rfl⟩
abbrev main_cst_23 : Ref sig .tc := ⟨.hbm, 302, rfl⟩
abbrev main_v200 : Ref sig .tc := ⟨.hbm, 303, rfl⟩
abbrev main_v201 : Ref sig .tc := ⟨.hbm, 304, rfl⟩
abbrev main_c_24 : Ref sig .tc := ⟨.hbm, 305, rfl⟩
abbrev main_v202 : Ref sig .tc := ⟨.hbm, 306, rfl⟩
abbrev main_v203 : Ref sig .tc := ⟨.hbm, 307, rfl⟩
abbrev main_c_25 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_cst_26 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_cst_27 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_cst_28 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_cst_29 : Ref sig .tc := ⟨.hbm, 332, rfl⟩
abbrev main_v224 : Ref sig .tc := ⟨.hbm, 333, rfl⟩
abbrev main_cst_30 : Ref sig .tc := ⟨.hbm, 334, rfl⟩
abbrev main_v225 : Ref sig .tc := ⟨.hbm, 335, rfl⟩
abbrev main_v226 : Ref sig .tc := ⟨.hbm, 336, rfl⟩
abbrev main_c_31 : Ref sig .tc := ⟨.hbm, 337, rfl⟩
abbrev main_call4_cst : Ref sig .tc := ⟨.hbm, 338, rfl⟩
abbrev main_call4_v0 : Ref sig .tc := ⟨.hbm, 339, rfl⟩
abbrev main_call4_v1 : Ref sig .tc := ⟨.hbm, 340, rfl⟩
abbrev main_call4_cst_0 : Ref sig .tc := ⟨.hbm, 341, rfl⟩
abbrev main_call4_v2 : Ref sig .tc := ⟨.hbm, 342, rfl⟩
abbrev main_call4_v3 : Ref sig .tc := ⟨.hbm, 343, rfl⟩
abbrev main_call4_v4 : Ref sig .tc := ⟨.hbm, 344, rfl⟩
abbrev main_call4_v5 : Ref sig .tc := ⟨.hbm, 345, rfl⟩
abbrev main_call4_v6 : Ref sig .tc := ⟨.hbm, 346, rfl⟩
abbrev main_call4_v7 : Ref sig .tc := ⟨.hbm, 347, rfl⟩
abbrev main_call4_cst_1 : Ref sig .tc := ⟨.hbm, 348, rfl⟩
abbrev main_call4_v8 : Ref sig .tc := ⟨.hbm, 349, rfl⟩
abbrev main_call4_cst_2 : Ref sig .tc := ⟨.hbm, 350, rfl⟩
abbrev main_call4_v9 : Ref sig .tc := ⟨.hbm, 351, rfl⟩
abbrev main_call4_v10 : Ref sig .tc := ⟨.hbm, 352, rfl⟩
abbrev main_call4_v11 : Ref sig .tc := ⟨.hbm, 353, rfl⟩
abbrev main_call4_cst_3 : Ref sig .tc := ⟨.hbm, 354, rfl⟩
abbrev main_call4_v12 : Ref sig .tc := ⟨.hbm, 355, rfl⟩
abbrev main_call4_cst_4 : Ref sig .tc := ⟨.hbm, 356, rfl⟩
abbrev main_call4_call0_v0 : Ref sig .tc := ⟨.hbm, 357, rfl⟩
abbrev main_call4_call0_v1 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_cst_32 : Ref sig .tc := ⟨.hbm, 366, rfl⟩
abbrev main_v234 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_v242 : Ref sig .tc := ⟨.hbm, 375, rfl⟩
abbrev main_call5_cst : Ref sig .tc := ⟨.hbm, 376, rfl⟩
abbrev main_call5_v0 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_cst_33 : Ref sig .tc := ⟨.hbm, 384, rfl⟩
abbrev main_v249 : Ref sig .tc := ⟨.hbm, 385, rfl⟩
abbrev main_cst_34 : Ref sig .tc := ⟨.hbm, 386, rfl⟩
abbrev main_v250 : Ref sig .tc := ⟨.hbm, 387, rfl⟩
abbrev main_v251 : Ref sig .tc := ⟨.hbm, 388, rfl⟩
abbrev main_c_35 : Ref sig .tc := ⟨.hbm, 389, rfl⟩
abbrev main_call6_cst : Ref sig .tc := ⟨.hbm, 390, rfl⟩
abbrev main_call6_v0 : Ref sig .tc := ⟨.hbm, 391, rfl⟩
abbrev main_call6_v1 : Ref sig .tc := ⟨.hbm, 392, rfl⟩
abbrev main_call6_cst_0 : Ref sig .tc := ⟨.hbm, 393, rfl⟩
abbrev main_call6_v2 : Ref sig .tc := ⟨.hbm, 394, rfl⟩
abbrev main_call6_v3 : Ref sig .tc := ⟨.hbm, 395, rfl⟩
abbrev main_call6_v4 : Ref sig .tc := ⟨.hbm, 396, rfl⟩
abbrev main_call6_v5 : Ref sig .tc := ⟨.hbm, 397, rfl⟩
abbrev main_call6_v6 : Ref sig .tc := ⟨.hbm, 398, rfl⟩
abbrev main_call6_v7 : Ref sig .tc := ⟨.hbm, 399, rfl⟩
abbrev main_call6_cst_1 : Ref sig .tc := ⟨.hbm, 400, rfl⟩
abbrev main_call6_v8 : Ref sig .tc := ⟨.hbm, 401, rfl⟩
abbrev main_call6_cst_2 : Ref sig .tc := ⟨.hbm, 402, rfl⟩
abbrev main_call6_v9 : Ref sig .tc := ⟨.hbm, 403, rfl⟩
abbrev main_call6_v10 : Ref sig .tc := ⟨.hbm, 404, rfl⟩
abbrev main_call6_v11 : Ref sig .tc := ⟨.hbm, 405, rfl⟩
abbrev main_call6_cst_3 : Ref sig .tc := ⟨.hbm, 406, rfl⟩
abbrev main_call6_v12 : Ref sig .tc := ⟨.hbm, 407, rfl⟩
abbrev main_call6_cst_4 : Ref sig .tc := ⟨.hbm, 408, rfl⟩
abbrev main_call6_call0_v0 : Ref sig .tc := ⟨.hbm, 409, rfl⟩
abbrev main_call6_call0_v1 : Ref sig .tc := ⟨.hbm, 410, rfl⟩
abbrev main_v252 : Ref sig .tc := ⟨.hbm, 411, rfl⟩
abbrev main_v253 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_cst_36 : Ref sig .tc := ⟨.hbm, 418, rfl⟩
abbrev main_v259 : Ref sig .tc := ⟨.hbm, 419, rfl⟩
abbrev main_v260 : Ref sig .tc := ⟨.hbm, 420, rfl⟩
abbrev main_v261 : Ref sig .tc := ⟨.hbm, 421, rfl⟩
abbrev main_v262 : Ref sig .tc := ⟨.hbm, 422, rfl⟩
abbrev main_v263 : Ref sig .tc := ⟨.hbm, 423, rfl⟩
abbrev main_v264 : Ref sig .tc := ⟨.hbm, 424, rfl⟩
abbrev main_v265 : Ref sig .tc := ⟨.hbm, 425, rfl⟩
abbrev main_v266 : Ref sig .tc := ⟨.hbm, 426, rfl⟩
abbrev main_v267 : Ref sig .tc := ⟨.hbm, 427, rfl⟩
abbrev main_call7_cst : Ref sig .tc := ⟨.hbm, 428, rfl⟩
abbrev main_call7_v0 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_v274 : Ref sig .tc := ⟨.hbm, 436, rfl⟩
abbrev main_v275 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_v279 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_v284 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_v288 : Ref sig .tc := ⟨.hbm, 450, rfl⟩
abbrev main_v289 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_v293 : Ref sig .tc := ⟨.hbm, 455, rfl⟩
abbrev main_v294 : Ref sig .tc := ⟨.hbm, 456, rfl⟩
abbrev main_v295 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_v299 : Ref sig .tc := ⟨.hbm, 461, rfl⟩
abbrev main_v300 : Ref sig .tc := ⟨.hbm, 462, rfl⟩
abbrev main_v301 : Ref sig .tc := ⟨.hbm, 463, rfl⟩
abbrev main_v302 : Ref sig .tc := ⟨.hbm, 464, rfl⟩
abbrev main_v303 : Ref sig .tc := ⟨.hbm, 465, rfl⟩
abbrev main_v304 : Ref sig .tc := ⟨.hbm, 466, rfl⟩
abbrev main_v305 : Ref sig .tc := ⟨.hbm, 467, rfl⟩
abbrev main_v306 : Ref sig .tc := ⟨.hbm, 468, rfl⟩
abbrev main_v307 : Ref sig .tc := ⟨.hbm, 469, rfl⟩
abbrev main_v308 : Ref sig .tc := ⟨.hbm, 470, rfl⟩
abbrev main_v309 : Ref sig .tc := ⟨.hbm, 471, rfl⟩
abbrev main_c_37 : Ref sig .tc := ⟨.hbm, 472, rfl⟩
abbrev main_v310 : Ref sig .tc := ⟨.hbm, 473, rfl⟩
abbrev main_v311 : Ref sig .tc := ⟨.hbm, 474, rfl⟩
abbrev main_c_38 : Ref sig .tc := ⟨.hbm, 475, rfl⟩
abbrev main_v312 : Ref sig .tc := ⟨.hbm, 476, rfl⟩
abbrev main_v313 : Ref sig .tc := ⟨.hbm, 477, rfl⟩
abbrev main_v314 : Ref sig .tc := ⟨.hbm, 478, rfl⟩
abbrev main_v315 : Ref sig .tc := ⟨.hbm, 479, rfl⟩
abbrev main_v316 : Ref sig .tc := ⟨.hbm, 480, rfl⟩
abbrev main_v317 : Ref sig .tc := ⟨.hbm, 481, rfl⟩
abbrev main_c_39 : Ref sig .tc := ⟨.hbm, 482, rfl⟩
abbrev main_v318 : Ref sig .tc := ⟨.hbm, 483, rfl⟩
abbrev main_v319 : Ref sig .tc := ⟨.hbm, 484, rfl⟩
abbrev main_c_40 : Ref sig .tc := ⟨.hbm, 485, rfl⟩
abbrev main_v320 : Ref sig .tc := ⟨.hbm, 486, rfl⟩
abbrev main_v321 : Ref sig .tc := ⟨.hbm, 487, rfl⟩
abbrev main_v322 : Ref sig .tc := ⟨.hbm, 488, rfl⟩
abbrev main_v323 : Ref sig .tc := ⟨.hbm, 489, rfl⟩
abbrev main_v324 : Ref sig .tc := ⟨.hbm, 490, rfl⟩
abbrev main_v325 : Ref sig .tc := ⟨.hbm, 491, rfl⟩
abbrev main_v326 : Ref sig .tc := ⟨.hbm, 492, rfl⟩
abbrev main_v327 : Ref sig .tc := ⟨.hbm, 493, rfl⟩
abbrev main_cst_41 : Ref sig .tc := ⟨.hbm, 494, rfl⟩
abbrev main_v328 : Ref sig .tc := ⟨.hbm, 495, rfl⟩
abbrev main_v329 : Ref sig .tc := ⟨.hbm, 496, rfl⟩
abbrev main_cst_42 : Ref sig .tc := ⟨.hbm, 497, rfl⟩
abbrev main_v330 : Ref sig .tc := ⟨.hbm, 498, rfl⟩
abbrev main_v331 : Ref sig .tc := ⟨.hbm, 499, rfl⟩
abbrev main_c_43 : Ref sig .tc := ⟨.hbm, 500, rfl⟩
abbrev main_v332 : Ref sig .tc := ⟨.hbm, 501, rfl⟩
abbrev main_v333 : Ref sig .tc := ⟨.hbm, 502, rfl⟩
abbrev main_c_44 : Ref sig .tc := ⟨.hbm, 503, rfl⟩
abbrev main_v334 : Ref sig .tc := ⟨.hbm, 504, rfl⟩
abbrev main_v335 : Ref sig .tc := ⟨.hbm, 505, rfl⟩
abbrev main_v336 : Ref sig .tc := ⟨.hbm, 506, rfl⟩
abbrev main_v337 : Ref sig .tc := ⟨.hbm, 507, rfl⟩
abbrev main_v338 : Ref sig .tc := ⟨.hbm, 508, rfl⟩
abbrev main_v339 : Ref sig .tc := ⟨.hbm, 509, rfl⟩
abbrev main_cst_45 : Ref sig .tc := ⟨.hbm, 510, rfl⟩
abbrev main_v340 : Ref sig .tc := ⟨.hbm, 511, rfl⟩
abbrev main_v341 : Ref sig .tc := ⟨.hbm, 512, rfl⟩
abbrev main_v342 : Ref sig .tc := ⟨.hbm, 513, rfl⟩
abbrev main_cst_46 : Ref sig .tc := ⟨.hbm, 514, rfl⟩
abbrev main_v343 : Ref sig .tc := ⟨.hbm, 515, rfl⟩
abbrev main_v344 : Ref sig .tc := ⟨.hbm, 516, rfl⟩
abbrev main_v345 : Ref sig .tc := ⟨.hbm, 517, rfl⟩
abbrev main_cst_47 : Ref sig .tc := ⟨.hbm, 518, rfl⟩
abbrev main_v346 : Ref sig .tc := ⟨.hbm, 519, rfl⟩
abbrev main_v347 : Ref sig .tc := ⟨.hbm, 520, rfl⟩
abbrev main_v348 : Ref sig .tc := ⟨.hbm, 521, rfl⟩
abbrev main_v349 : Ref sig .tc := ⟨.hbm, 522, rfl⟩
abbrev main_v350 : Ref sig .tc := ⟨.hbm, 523, rfl⟩
abbrev main_v351 : Ref sig .tc := ⟨.hbm, 524, rfl⟩
abbrev main_v352 : Ref sig .tc := ⟨.hbm, 525, rfl⟩
abbrev main_v353 : Ref sig .tc := ⟨.hbm, 526, rfl⟩
abbrev main_cst_48 : Ref sig .tc := ⟨.hbm, 527, rfl⟩
abbrev main_v354 : Ref sig .tc := ⟨.hbm, 528, rfl⟩
abbrev main_cst_49 : Ref sig .tc := ⟨.hbm, 529, rfl⟩
abbrev main_v355 : Ref sig .tc := ⟨.hbm, 530, rfl⟩
abbrev main_v356 : Ref sig .tc := ⟨.hbm, 531, rfl⟩
abbrev main_c_50 : Ref sig .tc := ⟨.hbm, 532, rfl⟩
abbrev main_call8_cst : Ref sig .tc := ⟨.hbm, 533, rfl⟩
abbrev main_call8_v0 : Ref sig .tc := ⟨.hbm, 534, rfl⟩
abbrev main_call8_v1 : Ref sig .tc := ⟨.hbm, 535, rfl⟩
abbrev main_call8_cst_0 : Ref sig .tc := ⟨.hbm, 536, rfl⟩
abbrev main_call8_v2 : Ref sig .tc := ⟨.hbm, 537, rfl⟩
abbrev main_call8_v3 : Ref sig .tc := ⟨.hbm, 538, rfl⟩
abbrev main_call8_v4 : Ref sig .tc := ⟨.hbm, 539, rfl⟩
abbrev main_call8_v5 : Ref sig .tc := ⟨.hbm, 540, rfl⟩
abbrev main_call8_v6 : Ref sig .tc := ⟨.hbm, 541, rfl⟩
abbrev main_call8_v7 : Ref sig .tc := ⟨.hbm, 542, rfl⟩
abbrev main_call8_cst_1 : Ref sig .tc := ⟨.hbm, 543, rfl⟩
abbrev main_call8_v8 : Ref sig .tc := ⟨.hbm, 544, rfl⟩
abbrev main_call8_cst_2 : Ref sig .tc := ⟨.hbm, 545, rfl⟩
abbrev main_call8_v9 : Ref sig .tc := ⟨.hbm, 546, rfl⟩
abbrev main_call8_v10 : Ref sig .tc := ⟨.hbm, 547, rfl⟩
abbrev main_call8_v11 : Ref sig .tc := ⟨.hbm, 548, rfl⟩
abbrev main_call8_cst_3 : Ref sig .tc := ⟨.hbm, 549, rfl⟩
abbrev main_call8_v12 : Ref sig .tc := ⟨.hbm, 550, rfl⟩
abbrev main_call8_cst_4 : Ref sig .tc := ⟨.hbm, 551, rfl⟩
abbrev main_call8_call0_v0 : Ref sig .tc := ⟨.hbm, 552, rfl⟩
abbrev main_call8_call0_v1 : Ref sig .tc := ⟨.hbm, 553, rfl⟩
abbrev main_v357 : Ref sig .tc := ⟨.hbm, 554, rfl⟩
abbrev main_v358 : Ref sig .tc := ⟨.hbm, 555, rfl⟩
abbrev main_v359 : Ref sig .tc := ⟨.hbm, 556, rfl⟩
abbrev main_v360 : Ref sig .tc := ⟨.hbm, 557, rfl⟩
abbrev main_v361 : Ref sig .tc := ⟨.hbm, 558, rfl⟩
abbrev main_v362 : Ref sig .tc := ⟨.hbm, 559, rfl⟩
abbrev main_v363 : Ref sig .tc := ⟨.hbm, 560, rfl⟩
abbrev main_cst_51 : Ref sig .tc := ⟨.hbm, 561, rfl⟩
abbrev main_v364 : Ref sig .tc := ⟨.hbm, 562, rfl⟩
abbrev main_v365 : Ref sig .tc := ⟨.hbm, 563, rfl⟩
abbrev main_v366 : Ref sig .tc := ⟨.hbm, 564, rfl⟩
abbrev main_v367 : Ref sig .tc := ⟨.hbm, 565, rfl⟩
abbrev main_v368 : Ref sig .tc := ⟨.hbm, 566, rfl⟩
abbrev main_v369 : Ref sig .tc := ⟨.hbm, 567, rfl⟩
abbrev main_v370 : Ref sig .tc := ⟨.hbm, 568, rfl⟩
abbrev main_v371 : Ref sig .tc := ⟨.hbm, 569, rfl⟩
abbrev main_v372 : Ref sig .tc := ⟨.hbm, 570, rfl⟩
abbrev main_call9_cst : Ref sig .tc := ⟨.hbm, 571, rfl⟩
abbrev main_call9_v0 : Ref sig .tc := ⟨.hbm, 572, rfl⟩
abbrev main_v373 : Ref sig .tc := ⟨.hbm, 573, rfl⟩
abbrev main_v374 : Ref sig .tc := ⟨.hbm, 574, rfl⟩
abbrev main_v375 : Ref sig .tc := ⟨.hbm, 575, rfl⟩
abbrev main_v376 : Ref sig .tc := ⟨.hbm, 576, rfl⟩
abbrev main_v377 : Ref sig .tc := ⟨.hbm, 577, rfl⟩
abbrev main_v378 : Ref sig .tc := ⟨.hbm, 578, rfl⟩
abbrev main_cst_52 : Ref sig .tc := ⟨.hbm, 579, rfl⟩
abbrev main_v379 : Ref sig .tc := ⟨.hbm, 580, rfl⟩
abbrev main_cst_53 : Ref sig .tc := ⟨.hbm, 581, rfl⟩
abbrev main_v380 : Ref sig .tc := ⟨.hbm, 582, rfl⟩
abbrev main_v381 : Ref sig .tc := ⟨.hbm, 583, rfl⟩
abbrev main_c_54 : Ref sig .tc := ⟨.hbm, 584, rfl⟩
abbrev main_call10_cst : Ref sig .tc := ⟨.hbm, 585, rfl⟩
abbrev main_call10_v0 : Ref sig .tc := ⟨.hbm, 586, rfl⟩
abbrev main_call10_v1 : Ref sig .tc := ⟨.hbm, 587, rfl⟩
abbrev main_call10_cst_0 : Ref sig .tc := ⟨.hbm, 588, rfl⟩
abbrev main_call10_v2 : Ref sig .tc := ⟨.hbm, 589, rfl⟩
abbrev main_call10_v3 : Ref sig .tc := ⟨.hbm, 590, rfl⟩
abbrev main_call10_v4 : Ref sig .tc := ⟨.hbm, 591, rfl⟩
abbrev main_call10_v5 : Ref sig .tc := ⟨.hbm, 592, rfl⟩
abbrev main_call10_v6 : Ref sig .tc := ⟨.hbm, 593, rfl⟩
abbrev main_call10_v7 : Ref sig .tc := ⟨.hbm, 594, rfl⟩
abbrev main_call10_cst_1 : Ref sig .tc := ⟨.hbm, 595, rfl⟩
abbrev main_call10_v8 : Ref sig .tc := ⟨.hbm, 596, rfl⟩
abbrev main_call10_cst_2 : Ref sig .tc := ⟨.hbm, 597, rfl⟩
abbrev main_call10_v9 : Ref sig .tc := ⟨.hbm, 598, rfl⟩
abbrev main_call10_v10 : Ref sig .tc := ⟨.hbm, 599, rfl⟩
abbrev main_call10_v11 : Ref sig .tc := ⟨.hbm, 600, rfl⟩
abbrev main_call10_cst_3 : Ref sig .tc := ⟨.hbm, 601, rfl⟩
abbrev main_call10_v12 : Ref sig .tc := ⟨.hbm, 602, rfl⟩
abbrev main_call10_cst_4 : Ref sig .tc := ⟨.hbm, 603, rfl⟩
abbrev main_call10_call0_v0 : Ref sig .tc := ⟨.hbm, 604, rfl⟩
abbrev main_call10_call0_v1 : Ref sig .tc := ⟨.hbm, 605, rfl⟩
abbrev main_v382 : Ref sig .tc := ⟨.hbm, 606, rfl⟩
abbrev main_v383 : Ref sig .tc := ⟨.hbm, 607, rfl⟩
abbrev main_v384 : Ref sig .tc := ⟨.hbm, 608, rfl⟩
abbrev main_v385 : Ref sig .tc := ⟨.hbm, 609, rfl⟩
abbrev main_v386 : Ref sig .tc := ⟨.hbm, 610, rfl⟩
abbrev main_v387 : Ref sig .tc := ⟨.hbm, 611, rfl⟩
abbrev main_v388 : Ref sig .tc := ⟨.hbm, 612, rfl⟩
abbrev main_cst_55 : Ref sig .tc := ⟨.hbm, 613, rfl⟩
abbrev main_v389 : Ref sig .tc := ⟨.hbm, 614, rfl⟩
abbrev main_v390 : Ref sig .tc := ⟨.hbm, 615, rfl⟩
abbrev main_v391 : Ref sig .tc := ⟨.hbm, 616, rfl⟩
abbrev main_v392 : Ref sig .tc := ⟨.hbm, 617, rfl⟩
abbrev main_v393 : Ref sig .tc := ⟨.hbm, 618, rfl⟩
abbrev main_v394 : Ref sig .tc := ⟨.hbm, 619, rfl⟩
abbrev main_v395 : Ref sig .tc := ⟨.hbm, 620, rfl⟩
abbrev main_v396 : Ref sig .tc := ⟨.hbm, 621, rfl⟩
abbrev main_v397 : Ref sig .tc := ⟨.hbm, 622, rfl⟩
abbrev main_call11_cst : Ref sig .tc := ⟨.hbm, 623, rfl⟩
abbrev main_call11_v0 : Ref sig .tc := ⟨.hbm, 624, rfl⟩
abbrev main_v398 : Ref sig .tc := ⟨.hbm, 625, rfl⟩
abbrev main_v399 : Ref sig .tc := ⟨.hbm, 626, rfl⟩
abbrev main_cst_56 : Ref sig .tc := ⟨.hbm, 627, rfl⟩
abbrev main_v400 : Ref sig .tc := ⟨.hbm, 628, rfl⟩
abbrev main_cst_57 : Ref sig .tc := ⟨.hbm, 629, rfl⟩
abbrev main_v401 : Ref sig .tc := ⟨.hbm, 630, rfl⟩
abbrev main_v402 : Ref sig .tc := ⟨.hbm, 631, rfl⟩
abbrev main_v403 : Ref sig .tc := ⟨.hbm, 632, rfl⟩
abbrev main_cst_58 : Ref sig .tc := ⟨.hbm, 633, rfl⟩
abbrev main_v404 : Ref sig .tc := ⟨.hbm, 634, rfl⟩
abbrev main_v405 : Ref sig .tc := ⟨.hbm, 635, rfl⟩
abbrev main_v406 : Ref sig .tc := ⟨.hbm, 636, rfl⟩
abbrev main_cst_59 : Ref sig .tc := ⟨.hbm, 637, rfl⟩
abbrev main_v407 : Ref sig .tc := ⟨.hbm, 638, rfl⟩
abbrev main_v408 : Ref sig .tc := ⟨.hbm, 639, rfl⟩
abbrev main_v409 : Ref sig .tc := ⟨.hbm, 640, rfl⟩
abbrev main_v410 : Ref sig .tc := ⟨.hbm, 641, rfl⟩
abbrev main_v411 : Ref sig .tc := ⟨.hbm, 642, rfl⟩
abbrev main_v412 : Ref sig .tc := ⟨.hbm, 643, rfl⟩
abbrev main_v413 : Ref sig .tc := ⟨.hbm, 644, rfl⟩
abbrev main_v414 : Ref sig .tc := ⟨.hbm, 645, rfl⟩
abbrev main_v415 : Ref sig .tc := ⟨.hbm, 646, rfl⟩
abbrev main_v416 : Ref sig .tc := ⟨.hbm, 647, rfl⟩
abbrev main_call12_cst : Ref sig .tc := ⟨.hbm, 648, rfl⟩
abbrev main_call12_v0 : Ref sig .tc := ⟨.hbm, 649, rfl⟩
abbrev main_v417 : Ref sig .tc := ⟨.hbm, 650, rfl⟩
abbrev main_v418 : Ref sig .tc := ⟨.hbm, 651, rfl⟩
abbrev main_v419 : Ref sig .tc := ⟨.hbm, 652, rfl⟩
abbrev main_v420 : Ref sig .tc := ⟨.hbm, 653, rfl⟩
abbrev main_v421 : Ref sig .tc := ⟨.hbm, 654, rfl⟩
abbrev main_call13_cst : Ref sig .tc := ⟨.hbm, 655, rfl⟩
abbrev main_call13_v0 : Ref sig .tc := ⟨.hbm, 656, rfl⟩
abbrev main_v422 : Ref sig .tc := ⟨.hbm, 657, rfl⟩
abbrev main_v423 : Ref sig .tc := ⟨.hbm, 658, rfl⟩
abbrev main_v424 : Ref sig .tc := ⟨.hbm, 659, rfl⟩
abbrev main_v425 : Ref sig .tc := ⟨.hbm, 660, rfl⟩
abbrev main_v426 : Ref sig .tc := ⟨.hbm, 661, rfl⟩

abbrev nD : Nat := 1
abbrev τ : Topo := Topo.v7x

variable {F : FTy → Type} [FloatOps F]

class Facts₀ : Prop where
  bcast_S_S524288x2 : S_.BroadcastsInDim S524288x2 (![] : Fin 0 → Fin S524288x2.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S1x64_S524288x64_0_1 : S1x64.BroadcastsInDim S524288x64 (![0, 1] : Fin 2 → Fin S524288x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S524288 : S_.BroadcastsInDim S524288 (![] : Fin 0 → Fin S524288.rank)
  bcast_S524288_S524288x1_0 : S524288.BroadcastsInDim S524288x1 (![0] : Fin 1 → Fin S524288x1.rank)
  bcast_S_S524288x64 : S_.BroadcastsInDim S524288x64 (![] : Fin 0 → Fin S524288x64.rank)
  bcast_S_S32768x64 : S_.BroadcastsInDim S32768x64 (![] : Fin 0 → Fin S32768x64.rank)
  reducesTo_S32768x64_S64_d0 : S32768x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S524288x64_S64_d0 : S524288x64.ReducesTo [0] S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S32768 : S_.BroadcastsInDim S32768 (![] : Fin 0 → Fin S32768.rank)
  bcast_S_S256 : S_.BroadcastsInDim S256 (![] : Fin 0 → Fin S256.rank)
  bcast_S32768_S32768x1_0 : S32768.BroadcastsInDim S32768x1 (![0] : Fin 1 → Fin S32768x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x16_S256x2_S256x82_d1 : Shape.Concatenates [S256x64, S256x16, S256x2] S256x82 1
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S32768x6_S6x64_S32768x64_1_0_0_1_n_n_wf : DotDims.WF S32768x6 S6x64 S32768x64 [1] [0] [0] [1] [] []
  dot_S524288x2_S2x64_S524288x64_1_0_0_1_n_n_wf : DotDims.WF S524288x2 S2x64 S524288x64 [1] [0] [0] [1] [] []
  dot_S32768x64_S64x64_S32768x64_1_0_0_1_n_n_wf : DotDims.WF S32768x64 S64x64 S32768x64 [1] [0] [0] [1] [] []
  dot_S524288x64_S64x64_S524288x64_1_0_0_1_n_n_wf : DotDims.WF S524288x64 S64x64 S524288x64 [1] [0] [0] [1] [] []
  gather_S32768x64_S524288x1_S524288x64_1_0_n_n_0_1_164_wf : GatherDims.WF S32768x64 S524288x1 S524288x64 [1] [0] [] [0] [] 1 ![1, 64]
  scatter_S32768x64_S524288x1_S524288x64_1_0_0_1_wf : ScatterDims.WF S32768x64 S524288x1 S524288x64 [1] [0] [0] 1
  scatter_S256_S32768x1_S32768_n_0_0_1_wf : ScatterDims.WF S256 S32768x1 S32768 [] [0] [0] 1
  scatter_S256x64_S32768x1_S32768x64_1_0_0_1_wf : ScatterDims.WF S256x64 S32768x1 S32768x64 [1] [0] [0] 1
  dot_S256x82_S82x256_S256x256_1_0_0_1_n_n_wf : DotDims.WF S256x82 S82x256 S256x256 [1] [0] [0] [1] [] []
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []

variable [Facts₀]

def dot_S32768x6_S6x64_S32768x64_1_0_0_1_n_n : DotDims S32768x6 S6x64 S32768x64 where
  lhsContracting := [1]
  rhsContracting := [0]
  lhsNonContracting := [0]
  rhsNonContracting := [1]
  lhsBatch := []
  rhsBatch := []
  wf := dot_S32768x6_S6x64_S32768x64_1_0_0_1_n_n_wf
def dot_S524288x2_S2x64_S524288x64_1_0_0_1_n_n : DotDims S524288x2 S2x64 S524288x64 where
  lhsContracting := [1]
  rhsContracting := [0]
  lhsNonContracting := [0]
  rhsNonContracting := [1]
  lhsBatch := []
  rhsBatch := []
  wf := dot_S524288x2_S2x64_S524288x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def gather_S32768x64_S524288x1_S524288x64_1_0_n_n_0_1_164 : GatherDims S32768x64 S524288x1 S524288x64 where
  offsetDims := [1]
  collapsedSliceDims := [0]
  operandBatchingDims := []
  startIndicesBatchingDims := []
  startIndexMap := [0]
  indexVectorDim := 1
  sliceSizes := ![1, 64]
  wf := gather_S32768x64_S524288x1_S524288x64_1_0_n_n_0_1_164_wf
def scatter_S32768x64_S524288x1_S524288x64_1_0_0_1 : ScatterDims S32768x64 S524288x1 S524288x64 where
  updateWindowDims := [1]
  insertedWindowDims := [0]
  scatterDimsToOperandDims := [0]
  indexVectorDim := 1
  wf := scatter_S32768x64_S524288x1_S524288x64_1_0_0_1_wf
def scatter_S256_S32768x1_S32768_n_0_0_1 : ScatterDims S256 S32768x1 S32768 where
  updateWindowDims := []
  insertedWindowDims := [0]
  scatterDimsToOperandDims := [0]
  indexVectorDim := 1
  wf := scatter_S256_S32768x1_S32768_n_0_0_1_wf
def scatter_S256x64_S32768x1_S32768x64_1_0_0_1 : ScatterDims S256x64 S32768x1 S32768x64 where
  updateWindowDims := [1]
  insertedWindowDims := [0]
  scatterDimsToOperandDims := [0]
  indexVectorDim := 1
  wf := scatter_S256x64_S32768x1_S32768x64_1_0_0_1_wf
def dot_S256x82_S82x256_S256x256_1_0_0_1_n_n : DotDims S256x82 S82x256 S256x256 where
  lhsContracting := [1]
  rhsContracting := [0]
  lhsNonContracting := [0]
  rhsNonContracting := [1]
  lhsBatch := []
  rhsBatch := []
  wf := dot_S256x82_S82x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.K.RunBase.lean ====
import proofs.«142356_j74423193305351_1_alg».proof.Proof.K.RegionsP
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What every region of the run shares: the variants, the levels, and what rides beside the buffers -/

/-- No kernel function has a variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)

end Cert.Kernel.Hand

end
-- ==== Proof.K.R0.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 0: a row-tiled linear layer, one block of rows of the output from the same rows of the input, the whole
   weight and the whole bias (pipeline 0), at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block x: its staging buffer holds the block at every point, for any proof data whose array is the entry
    contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight W, whole at every point: fetched at the first point only, its block index never moves, so the buffer
    still holds the one block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias b, whole at every point: as the weight. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole, through one rectangle -/

abbrev r0_0 : Rect S4096x6 := Rect.unit (s := S4096x6) ![0, 0] S4096x6.size inb_S4096x6_S4096x6_0_0
abbrev r0_1 : Rect S6x64 := Rect.unit (s := S6x64) ![0, 0] S6x64.size inb_S6x64_S6x64_0_0
abbrev r0_2 : Rect S1x64 := Rect.unit (s := S1x64) ![0, 0] S1x64.size inb_S1x64_S1x64_0_0
abbrev r0_3 : Rect S4096x64 := Rect.unit (s := S4096x64) ![0, 0] S4096x64.size inb_S4096x64_S4096x64_0_0

/-! ## What the body leaves in the output window's buffer -/

/-- The output block after the body, from the three input blocks: its one store, the whole block, of the body's one
    payload of the three loaded blocks. -/
def out0_3 (x0 : Vec F S4096x6 .f32) (x1 : Vec F S6x64 .f32) (x2 : Vec F S1x64 .f32) : Vec F S4096x64 .f32 :=
  View.canon [⟨r0_3, k0_pay1 (View.ld x0 r0_0) (View.ld x1 r0_1) (View.ld x2 r0_2)⟩]

/-- The one store is the whole block, so it covers it. -/
theorem cover0_3 (p0 : Vec F S4096x64 .f32) (y : S4096x64.Idx) :
    ∃ pc ∈ ([⟨r0_3, p0⟩] : List (View.Piece (Elt F) S4096x64 .f32)), y ∈ pc.1.set :=
  View.cover_of_tiled [⟨r0_3, p0⟩] S4096x64.size (by rfl) y

/-! ## The body's triple -/

set_option maxHeartbeats 1000000 in
/-- The kernel body on whole staging memrefs, the inputs' at read contents x0, x1, x2 and the output's at anything, runs
    to the continuation holding the inputs' as they were and the output's at `out0_3` of them. -/
theorem sound_kernel0 (c : Dev nD) (E : Set ℕ) (i : grid0.Coords) (arg1 : Memref sig .tc .vmem S4096x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S4096x64 .f32) (harg4 : arg4.IsWhole)
    (x0 : Vec F S4096x6 .f32) (x1 : Vec F S6x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg0.lean ====
import proofs.«142356_j74423193305351_1_alg».proof.Proof.K.RunBase
import proofs.«142356_j74423193305351_1_alg».proof.Proof.K.R0

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 0 as a segment of the run, for any proof-data family whose pipeline 0 is the region's own data -/

-- `iapply` of a library lemma stated over the pinned configuration unifies with it only when unification may unfold
-- plain definitions in a metavariable's type
set_option backward.isDefEq.respectTransparency.types false in
/-- REGION 0 over the thread state "every unscoped buffer at a valuation, the generator register at some state, nothing
    owed": entered from the valuation `Wpre`, left at `Wpost`, GIVEN that the family's data of pipeline 0 is `dat0` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg0_of (pdats : (p : Fin 15) → (c : Dev nD) → Dat τ (Elt F) Unit ℕ (UR sig nD τ) ℕ (cfgs p) c)
    (Wpre Wpost : Dev nD → Valuation τ sig (Elt F))
    (hp : ∀ c, pdats 0 c = dat0 (fun c b => Wpre c b) c)
    (hF : ∀ c (w : Fin cfg0.W), (dat0 (fun c b => Wpre c b) c).arrAt w cfg0.N = Wpost c (Pipeline.arrRef spec0 w))
    (hrest : ∀ c (b : Ref sig .tc), b ∉ Finset.univ.image (Pipeline.arrRef spec0) → Wpost c b = Wpre c b) :
    Pipeline.RegionSeg (pcfgs (F := F)) GenP.adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp c]; exact (body_obligation0 (fun c b => Wpre c b) c).loose
  hwaits := Pipeline.hwaits_of_owed_zero _ _ _ _ L lv 0 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec0 c (fun b => Wpre c b)
  hentry c := by
    rw [Pipeline.ownSems0_none]
    have hsplit := Pipeline.arrays_of_unscopedBufs (p := 0) (pcfgs (F := F)) GenP.adm pdats launch0.win launch0.arr_whole c
      (by rw [hp c]; exact (dat0 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c pdats (by rw [hp c]; exact (dat0 (fun c b => Wpre c b) c).share_full fun _ => rfl)
      (fun b => Wpre c b) (fun b => Wpost c b) ((pdats 0 c).arrAt · cfg0.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R1.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 1: a row-tiled linear layer, one block of rows of the output from the same rows of the input, the whole
   weight and the whole bias (pipeline 1), at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block x: its staging buffer holds the block at every point, for any proof data whose array is the entry
    contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight W, whole at every point: fetched at the first point only, its block index never moves, so the buffer
    still holds the one block at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias b, whole at every point: as the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window whole, through one rectangle -/

abbrev r1_0 : Rect S4096x2 := Rect.unit (s := S4096x2) ![0, 0] S4096x2.size inb_S4096x2_S4096x2_0_0
abbrev r1_1 : Rect S2x64 := Rect.unit (s := S2x64) ![0, 0] S2x64.size inb_S2x64_S2x64_0_0
abbrev r1_2 : Rect S1x64 := Rect.unit (s := S1x64) ![0, 0] S1x64.size inb_S1x64_S1x64_0_0
abbrev r1_3 : Rect S4096x64 := Rect.unit (s := S4096x64) ![0, 0] S4096x64.size inb_S4096x64_S4096x64_0_0

/-! ## What the body leaves in the output window's buffer -/

/-- The output block after the body, from the three input blocks: its one store, the whole block, of the body's one
    payload of the three loaded blocks. -/
def out1_3 (x0 : Vec F S4096x2 .f32) (x1 : Vec F S2x64 .f32) (x2 : Vec F S1x64 .f32) : Vec F S4096x64 .f32 :=
  View.canon [⟨r1_3, k1_pay1 (View.ld x0 r1_0) (View.ld x1 r1_1) (View.ld x2 r1_2)⟩]

/-- The one store is the whole block, so it covers it. -/
theorem cover1_3 (p0 : Vec F S4096x64 .f32) (y : S4096x64.Idx) :
    ∃ pc ∈ ([⟨r1_3, p0⟩] : List (View.Piece (Elt F) S4096x64 .f32)), y ∈ pc.1.set :=
  View.cover_of_tiled [⟨r1_3, p0⟩] S4096x64.size (by rfl) y

/-! ## The body's triple -/

set_option maxHeartbeats 1000000 in
/-- The kernel body on whole staging memrefs, the inputs' at read contents x0, x1, x2 and the output's at anything, runs
    to the continuation holding the inputs' as they were and the output's at `out1_3` of them. -/
theorem sound_kernel1 (c : Dev nD) (E : Set ℕ) (i : grid1.Coords) (arg1 : Memref sig .tc .vmem S4096x2 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S4096x64 .f32) (harg4 : arg4.IsWhole)
    (x0 : Vec F S4096x2 .f32) (x1 : Vec F S2x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_recip_kernel i arg1 harg1 arg2 harg2 arg3 harg3 arg4 harg4) K := by
  simp only [cc1__linear_recip_kernel_eq_skeleton]; unfold cc1__linear_recip_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg1.lean ====
import proofs.«142356_j74423193305351_1_alg».proof.Proof.K.RunBase
import proofs.«142356_j74423193305351_1_alg».proof.Proof.K.R1

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 1 as a segment of the run, for any proof-data family whose pipeline 1 is the region's own data -/

-- `iapply` of a library lemma stated over the pinned configuration unifies with it only when unification may unfold
-- plain definitions in a metavariable's type
set_option backward.isDefEq.respectTransparency.types false in
/-- REGION 1 over the thread state "every unscoped buffer at a valuation, the generator register at some state, nothing
    owed": entered from the valuation `Wpre`, left at `Wpost`, GIVEN that the family's data of pipeline 1 is `dat1` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg1_of (pdats : (p : Fin 15) → (c : Dev nD) → Dat τ (Elt F) Unit ℕ (UR sig nD τ) ℕ (cfgs p) c)
    (Wpre Wpost : Dev nD → Valuation τ sig (Elt F))
    (hp : ∀ c, pdats 1 c = dat1 (fun c b => Wpre c b) c)
    (hF : ∀ c (w : Fin cfg1.W), (dat1 (fun c b => Wpre c b) c).arrAt w cfg1.N = Wpost c (Pipeline.arrRef spec1 w))
    (hrest : ∀ c (b : Ref sig .tc), b ∉ Finset.univ.image (Pipeline.arrRef spec1) → Wpost c b = Wpre c b) :
    Pipeline.RegionSeg (pcfgs (F := F)) GenP.adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp c]; exact (body_obligation1 (fun c b => Wpre c b) c).loose
  hwaits := Pipeline.hwaits_of_owed_zero _ _ _ _ L lv 1 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec1 c (fun b => Wpre c b)
  hentry c := by
    rw [Pipeline.ownSems0_none]
    have hsplit := Pipeline.arrays_of_unscopedBufs (p := 1) (pcfgs (F := F)) GenP.adm pdats launch1.win launch1.arr_whole c
      (by rw [hp c]; exact (dat1 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 1 c).Φ 0 = Pipeline.ΦA spec1 c from by rw [hp c]; rfl]; unfold Pipeline.ΦA
    iintro ⟨Hp, -, Hr⟩
    isplitl [Hr]; · iexact Hr
    iexact Hp
  hout c := by
    rw [Pipeline.ownSems0_none, show (pdats 1 c).Φ (Fin.last _) = Pipeline.ΦA spec1 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c pdats (by rw [hp c]; exact (dat1 (fun c b => Wpre c b) c).share_full fun _ => rfl)
      (fun b => Wpre c b) (fun b => Wpost c b) ((pdats 1 c).arrAt · cfg1.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R2.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 2: a row-tiled linear layer, one block of rows of the output from the same rows of the input, the whole
   weight and the whole bias (pipeline 2), at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block x: its staging buffer holds the block at every point, for any proof data whose array is the entry
    contents and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight W, whole at every point: fetched at the first point only, its block index never moves, so the buffer
    still holds the one block at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias b, whole at every point: as the weight. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole, through one rectangle -/

abbrev r2_0 : Rect S4096x64 := Rect.unit (s := S4096x64) ![0, 0] S4096x64.size inb_S4096x64_S4096x64_0_0
abbrev r2_1 : Rect S64x256 := Rect.unit (s := S64x256) ![0, 0] S64x256.size inb_S64x256_S64x256_0_0
abbrev r2_2 : Rect S1x256 := Rect.unit (s := S1x256) ![0, 0] S1x256.size inb_S1x256_S1x256_0_0
abbrev r2_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out2_3 (x0 : Vec F S4096x64 .f32) (x1 : Vec F S64x256 .f32) (x2 : Vec F S1x256 .f32) : Vec F S4096x256 .f32 :=
  View.canon [⟨r2_3, k2_pay1 (View.ld x0 r2_0) (View.ld x1 r2_1) (View.ld x2 r2_2)⟩]

/-- The one store is the whole block, so it covers it. -/
theorem cover2_3 (p0 : Vec F S4096x256 .f32) (y : S4096x256.Idx) :
    ∃ pc ∈ ([⟨r2_3, p0⟩] : List (View.Piece (Elt F) S4096x256 .f32)), y ∈ pc.1.set :=
  View.cover_of_tiled [⟨r2_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out2_3` of them. -/
theorem sound_kernel2 (c : Dev nD) (E : Set ℕ) (i : grid2.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg2.lean ====
import proofs.«142356_j74423193305351_1_alg».proof.Proof.K.RunBase
import proofs.«142356_j74423193305351_1_alg».proof.Proof.K.R2

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 2 as a segment of the run, for any proof-data family whose pipeline 2 is the region's own data -/

-- `iapply` of a library lemma stated over the pinned configuration unifies with it only when unification may unfold
-- plain definitions in a metavariable's type
set_option backward.isDefEq.respectTransparency.types false in
/-- REGION 2 over the thread state "every unscoped buffer at a valuation, the generator register at some state, nothing
    owed": entered from the valuation `Wpre`, left at `Wpost`, GIVEN that the family's data of pipeline 2 is `dat2` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg2_of (pdats : (p : Fin 15) → (c : Dev nD) → Dat τ (Elt F) Unit ℕ (UR sig nD τ) ℕ (cfgs p) c)
    (Wpre Wpost : Dev nD → Valuation τ sig (Elt F))
    (hp : ∀ c, pdats 2 c = dat2 (fun c b => Wpre c b) c)
    (hF : ∀ c (w : Fin cfg2.W), (dat2 (fun c b => Wpre c b) c).arrAt w cfg2.N = Wpost c (Pipeline.arrRef spec2 w))
    (hrest : ∀ c (b : Ref sig .tc), b ∉ Finset.univ.image (Pipeline.arrRef spec2) → Wpost c b = Wpre c b) :
    Pipeline.RegionSeg (pcfgs (F := F)) GenP.adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp c]; exact (body_obligation2 (fun c b => Wpre c b) c).loose
  hwaits := Pipeline.hwaits_of_owed_zero _ _ _ _ L lv 2 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec2 c (fun b => Wpre c b)
  hentry c := by
    rw [Pipeline.ownSems0_none]
    have hsplit := Pipeline.arrays_of_unscopedBufs (p := 2) (pcfgs (F := F)) GenP.adm pdats launch2.win launch2.arr_whole c
      (by rw [hp c]; exact (dat2 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c pdats (by rw [hp c]; exact (dat2 (fun c b => Wpre c b) c).share_full fun _ => rfl)
      (fun b => Wpre c b) (fun b => Wpost c b) ((pdats 2 c).arrAt · cfg2.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R3.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 3 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it is fetched there
    (an unfetched window's block index has not moved since the previous point), for any proof data whose array is
    `V`'s (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole, through one rectangle per shape -/

abbrev r3_0 : Rect S4096x64 := Rect.unit (s := S4096x64) ![0, 0] S4096x64.size inb_S4096x64_S4096x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in each output window's buffer -/

/-- Window 6's staging buffer after the body, from the input windows' blocks: its one store, of the whole buffer. -/
def out3_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay1 (View.ld x0 r3_0) (View.ld x1 r3_1) (View.ld x2 r3_2) (View.ld x3 r3_0) (View.ld x4 r3_0)⟩]

/-- The one stored rectangle is the whole buffer, so it covers it. -/
theorem cover3_6 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-- Window 7's staging buffer after the body, from the input windows' blocks: its one store, of the whole buffer. -/
def out3_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay2 (View.ld x0 r3_0) (View.ld x1 r3_1) (View.ld x2 r3_2) (View.ld x3 r3_0) (View.ld x4 r3_0)⟩]

/-- The one stored rectangle is the whole buffer, so it covers it. -/
theorem cover3_7 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-- Window 8's staging buffer after the body, from the input windows' blocks: its one store, of the whole buffer. -/
def out3_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay3 (View.ld x0 r3_0) (View.ld x1 r3_1) (View.ld x2 r3_2) (View.ld x3 r3_0) (View.ld x4 r3_0) (View.ld x5 r3_0)⟩]

/-- The one stored rectangle is the whole buffer, so it covers it. -/
theorem cover3_8 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-! ## The body's triple -/

set_option maxHeartbeats 4000000 in
/-- The kernel body on whole staging memrefs, the inputs' holding `xW` and the outputs' holding anything, runs to the
    continuation with the inputs' as they were and each output's at `out3_W` of the inputs: every load reads a whole
    buffer, the three loads of the output buffers are unused, and each store overwrites a whole output buffer. -/
theorem sound_kernel3 (c : Dev nD) (E : Set ℕ) (i : grid3.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5) ∗ owns (c : Thread nD τ) arg9 fullShare (out3_8 x0 x1 x2 x3 x4 x5)) -∗ K ⟨⟩))
      ⊢ wp frame (wpE (defs₀ (F := F)) Variants.none c none) E (cc3__edge_update_kernel i arg1 harg1 arg2 harg2 arg3 harg3 arg4 harg4 arg5 harg5 arg6 harg6 arg7 harg7 arg8 harg8 arg9 harg9) K := by
  simp only [cc3__edge_update_kernel_eq_skeleton]; unfold cc3__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  isplitl [H7]
  · iexists _; isplitr
    swap; · iexact H7
    ipureintro
    exact View.read_writes_eq_canon _ _ _ (cover3_7 _)
  iexists _; isplitr
  swap; · iexact H8
  ipureintro
  exact View.read_writes_eq_canon _ _ _ (cover3_8 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced at a literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Reg3.lean ====
import proofs.«142356_j74423193305351_1_alg».proof.Proof.K.RunBase
import proofs.«142356_j74423193305351_1_alg».proof.Proof.K.R3

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 3 as a segment of the run, for any proof-data family whose pipeline 3 is the region's own data -/

-- `iapply` of a library lemma stated over the pinned configuration unifies with it only when unification may unfold
-- plain definitions in a metavariable's type
set_option backward.isDefEq.respectTransparency.types false in
/-- REGION 3 over the thread state "every unscoped buffer at a valuation, the generator register at some state, nothing
    owed": entered from the valuation `Wpre`, left at `Wpost`, GIVEN that the family's data of pipeline 3 is `dat3` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg3_of (pdats : (p : Fin 15) → (c : Dev nD) → Dat τ (Elt F) Unit ℕ (UR sig nD τ) ℕ (cfgs p) c)
    (Wpre Wpost : Dev nD → Valuation τ sig (Elt F))
    (hp : ∀ c, pdats 3 c = dat3 (fun c b => Wpre c b) c)
    (hF : ∀ c (w : Fin cfg3.W), (dat3 (fun c b => Wpre c b) c).arrAt w cfg3.N = Wpost c (Pipeline.arrRef spec3 w))
    (hrest : ∀ c (b : Ref sig .tc), b ∉ Finset.univ.image (Pipeline.arrRef spec3) → Wpost c b = Wpre c b) :
    Pipeline.RegionSeg (pcfgs (F := F)) GenP.adm pdats () defs₀ 𝒱₀ L lv 3 where
  win := launch3.win.to₀
  block_pos := launch3.block_pos
  stage_whole := launch3.stage_whole
  K := PEmpty
  osem k := k.elim
  ho := Pipeline.OwnSemFacts.none _
  hbody c := by rw [hp c]; exact (body_obligation3 (fun c b => Wpre c b) c).loose
  hwaits := Pipeline.hwaits_of_owed_zero _ _ _ _ L lv 3 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec3 c (fun b => Wpre c b)
  hentry c := by
    rw [Pipeline.ownSems0_none]
    have hsplit := Pipeline.arrays_of_unscopedBufs (p := 3) (pcfgs (F := F)) GenP.adm pdats launch3.win launch3.arr_whole c
      (by rw [hp c]; exact (dat3 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 3 c).Φ 0 = Pipeline.ΦA spec3 c from by rw [hp c]; rfl]; unfold Pipeline.ΦA
    iintro ⟨Hp, -, Hr⟩
    isplitl [Hr]; · iexact Hr
    iexact Hp
  hout c := by
    rw [Pipeline.ownSems0_none, show (pdats 3 c).Φ (Fin.last _) = Pipeline.ΦA spec3 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c pdats (by rw [hp c]; exact (dat3 (fun c b => Wpre c b) c).share_full fun _ => rfl)
      (fun b => Wpre c b) (fun b => Wpost c b) ((pdats 3 c).arrAt · cfg3.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R4.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 4 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (the mean row): its block index is constant, so it is fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 (the variance row). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 (the scale row). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 (the shift row). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 (the block of rows of the old features), fetched at every point. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole block of rows. -/
abbrev r4_0 : Rect S8192x64 := Rect.unit (s := S8192x64) ![0, 0] S8192x64.size inb_S8192x64_S8192x64_0_0
/-- The whole one-row block. -/
abbrev r4_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out4_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r4_0, k4_pay1 (View.ld x0 r4_0) (View.ld x1 r4_1) (View.ld x2 r4_1) (View.ld x3 r4_1) (View.ld x4 r4_1) (View.ld x5 r4_0)⟩]

/-- The one store is the whole buffer, so it covers it. -/
theorem cover4_6 (p0 : Vec F S8192x64 .f32) (y : S8192x64.Idx) :
    ∃ pc ∈ ([⟨r4_0, p0⟩] : List (View.Piece (Elt F) S8192x64 .f32)), y ∈ pc.1.set :=
  View.cover_of_tiled [⟨r4_0, p0⟩] S8192x64.size (by rfl) y

/-! ## The body's triple -/

set_option maxHeartbeats 1000000 in
/-- The kernel body on whole staging memrefs, the inputs' at contents x0 .. x5 and the output's at anything,
    runs to the continuation with the inputs' as they were and the output's at out4_6 of the inputs': the
    printed function is its skeleton; its loads read the owned buffers (the load of the output buffer
    before the store reads whatever it held and its value is not used), and its one store writes the payload. -/
theorem sound_kernel4 (c : Dev nD) (E : Set ℕ) (i : grid4.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E (cc4__bn_relu_res_kernel i arg1 harg1 arg2 harg2 arg3 harg3 arg4 harg4 arg5 harg5 arg6 harg6 arg7 harg7) K := by
  simp only [cc4__bn_relu_res_kernel_eq_skeleton]; unfold cc4__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core c: the arrays as the region finds them; after the body at point t
    each input's buffer at its block and the output's at out4_6 of the input blocks; the invariant that of a
    body touching only its windows (the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's match reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Reg4.lean ====
import proofs.«142356_j74423193305351_1_alg».proof.Proof.K.RunBase
import proofs.«142356_j74423193305351_1_alg».proof.Proof.K.R4

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 4 as a segment of the run, for any proof-data family whose pipeline 4 is the region's own data -/

-- `iapply` of a library lemma stated over the pinned configuration unifies with it only when unification may unfold
-- plain definitions in a metavariable's type
set_option backward.isDefEq.respectTransparency.types false in
/-- REGION 4 over the thread state "every unscoped buffer at a valuation, the generator register at some state, nothing
    owed": entered from the valuation `Wpre`, left at `Wpost`, GIVEN that the family's data of pipeline 4 is `dat4` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg4_of (pdats : (p : Fin 15) → (c : Dev nD) → Dat τ (Elt F) Unit ℕ (UR sig nD τ) ℕ (cfgs p) c)
    (Wpre Wpost : Dev nD → Valuation τ sig (Elt F))
    (hp : ∀ c, pdats 4 c = dat4 (fun c b => Wpre c b) c)
    (hF : ∀ c (w : Fin cfg4.W), (dat4 (fun c b => Wpre c b) c).arrAt w cfg4.N = Wpost c (Pipeline.arrRef spec4 w))
    (hrest : ∀ c (b : Ref sig .tc), b ∉ Finset.univ.image (Pipeline.arrRef spec4) → Wpost c b = Wpre c b) :
    Pipeline.RegionSeg (pcfgs (F := F)) GenP.adm pdats () defs₀ 𝒱₀ L lv 4 where
  win := launch4.win.to₀
  block_pos := launch4.block_pos
  stage_whole := launch4.stage_whole
  K := PEmpty
  osem k := k.elim
  ho := Pipeline.OwnSemFacts.none _
  hbody c := by rw [hp c]; exact (body_obligation4 (fun c b => Wpre c b) c).loose
  hwaits := Pipeline.hwaits_of_owed_zero _ _ _ _ L lv 4 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec4 c (fun b => Wpre c b)
  hentry c := by
    rw [Pipeline.ownSems0_none]
    have hsplit := Pipeline.arrays_of_unscopedBufs (p := 4) (pcfgs (F := F)) GenP.adm pdats launch4.win launch4.arr_whole c
      (by rw [hp c]; exact (dat4 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [hp c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c pdats (by rw [hp c]; exact (dat4 (fun c b => Wpre c b) c).share_full fun _ => rfl)
      (fun b => Wpre c b) (fun b => Wpost c b) ((pdats 4 c).arrAt · cfg4.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R5.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 5 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1 (the mean row): its block index is constant, so it is fetched at the first point only. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2 (the variance row). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3 (the scale row). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Window 4 (the shift row). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Window 5 (the block of rows of the old features), fetched at every point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of rows. -/
abbrev r5_0 : Rect S8192x64 := Rect.unit (s := S8192x64) ![0, 0] S8192x64.size inb_S8192x64_S8192x64_0_0
/-- The whole one-row block. -/
abbrev r5_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out5_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r5_0, k5_pay1 (View.ld x0 r5_0) (View.ld x1 r5_1) (View.ld x2 r5_1) (View.ld x3 r5_1) (View.ld x4 r5_1) (View.ld x5 r5_0)⟩]

/-- The one store is the whole buffer, so it covers it. -/
theorem cover5_6 (p0 : Vec F S8192x64 .f32) (y : S8192x64.Idx) :
    ∃ pc ∈ ([⟨r5_0, p0⟩] : List (View.Piece (Elt F) S8192x64 .f32)), y ∈ pc.1.set :=
  View.cover_of_tiled [⟨r5_0, p0⟩] S8192x64.size (by rfl) y

/-! ## The body's triple -/

set_option maxHeartbeats 1000000 in
/-- The kernel body on whole staging memrefs, the inputs' at contents x0 .. x5 and the output's at anything,
    runs to the continuation with the inputs' as they were and the output's at out5_6 of the inputs': the
    printed function is its skeleton; its loads read the owned buffers (the load of the output buffer
    before the store reads whatever it held and its value is not used), and its one store writes the payload. -/
theorem sound_kernel5 (c : Dev nD) (E : Set ℕ) (i : grid5.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__bn_relu_res_kernel i arg1 harg1 arg2 harg2 arg3 harg3 arg4 harg4 arg5 harg5 arg6 harg6 arg7 harg7) K := by
  simp only [cc5__bn_relu_res_kernel_eq_skeleton]; unfold cc5__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core c: the arrays as the region finds them; after the body at point t
    each input's buffer at its block and the output's at out5_6 of the input blocks; the invariant that of a
    body touching only its windows (the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's match reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point t (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Reg5.lean ====
import proofs.«142356_j74423193305351_1_alg».proof.Proof.K.RunBase
import proofs.«142356_j74423193305351_1_alg».proof.Proof.K.R5

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 5 as a segment of the run, for any proof-data family whose pipeline 5 is the region's own data -/

-- `iapply` of a library lemma stated over the pinned configuration unifies with it only when unification may unfold
-- plain definitions in a metavariable's type
set_option backward.isDefEq.respectTransparency.types false in
/-- REGION 5 over the thread state "every unscoped buffer at a valuation, the generator register at some state, nothing
    owed": entered from the valuation `Wpre`, left at `Wpost`, GIVEN that the family's data of pipeline 5 is `dat5` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg5_of (pdats : (p : Fin 15) → (c : Dev nD) → Dat τ (Elt F) Unit ℕ (UR sig nD τ) ℕ (cfgs p) c)
    (Wpre Wpost : Dev nD → Valuation τ sig (Elt F))
    (hp : ∀ c, pdats 5 c = dat5 (fun c b => Wpre c b) c)
    (hF : ∀ c (w : Fin cfg5.W), (dat5 (fun c b => Wpre c b) c).arrAt w cfg5.N = Wpost c (Pipeline.arrRef spec5 w))
    (hrest : ∀ c (b : Ref sig .tc), b ∉ Finset.univ.image (Pipeline.arrRef spec5) → Wpost c b = Wpre c b) :
    Pipeline.RegionSeg (pcfgs (F := F)) GenP.adm pdats () defs₀ 𝒱₀ L lv 5 where
  win := launch5.win.to₀
  block_pos := launch5.block_pos
  stage_whole := launch5.stage_whole
  K := PEmpty
  osem k := k.elim
  ho := Pipeline.OwnSemFacts.none _
  hbody c := by rw [hp c]; exact (body_obligation5 (fun c b => Wpre c b) c).loose
  hwaits := Pipeline.hwaits_of_owed_zero _ _ _ _ L lv 5 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec5 c (fun b => Wpre c b)
  hentry c := by
    rw [Pipeline.ownSems0_none]
    have hsplit := Pipeline.arrays_of_unscopedBufs (p := 5) (pcfgs (F := F)) GenP.adm pdats launch5.win launch5.arr_whole c
      (by rw [hp c]; exact (dat5 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c pdats (by rw [hp c]; exact (dat5 (fun c b => Wpre c b) c).share_full fun _ => rfl)
      (fun b => Wpre c b) (fun b => Wpost c b) ((pdats 5 c).arrAt · cfg5.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R6.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 6: a row-tiled linear layer, one block of rows of the output from the same rows of the input, the whole
   weight and the whole bias (pipeline 6), at the entry contents `V` -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block x: its staging buffer holds the block at every point, for any proof data whose array is the entry
    contents and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weight W, whole at every point: fetched at the first point only, its block index never moves, so the buffer
    still holds the one block at every later point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The bias b, whole at every point: as the weight. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window whole, through one rectangle -/

abbrev r6_0 : Rect S4096x64 := Rect.unit (s := S4096x64) ![0, 0] S4096x64.size inb_S4096x64_S4096x64_0_0
abbrev r6_1 : Rect S64x256 := Rect.unit (s := S64x256) ![0, 0] S64x256.size inb_S64x256_S64x256_0_0
abbrev r6_2 : Rect S1x256 := Rect.unit (s := S1x256) ![0, 0] S1x256.size inb_S1x256_S1x256_0_0
abbrev r6_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out6_3 (x0 : Vec F S4096x64 .f32) (x1 : Vec F S64x256 .f32) (x2 : Vec F S1x256 .f32) : Vec F S4096x256 .f32 :=
  View.canon [⟨r6_3, k6_pay1 (View.ld x0 r6_0) (View.ld x1 r6_1) (View.ld x2 r6_2)⟩]

/-- The one store is the whole block, so it covers it. -/
theorem cover6_3 (p0 : Vec F S4096x256 .f32) (y : S4096x256.Idx) :
    ∃ pc ∈ ([⟨r6_3, p0⟩] : List (View.Piece (Elt F) S4096x256 .f32)), y ∈ pc.1.set :=
  View.cover_of_tiled [⟨r6_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out6_3` of them. -/
theorem sound_kernel6 (c : Dev nD) (E : Set ℕ) (i : grid6.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them; after the body at point `t` each
    input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's case split reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg6.lean ====
import proofs.«142356_j74423193305351_1_alg».proof.Proof.K.RunBase
import proofs.«142356_j74423193305351_1_alg».proof.Proof.K.R6

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 6 as a segment of the run, for any proof-data family whose pipeline 6 is the region's own data -/

-- `iapply` of a library lemma stated over the pinned configuration unifies with it only when unification may unfold
-- plain definitions in a metavariable's type
set_option backward.isDefEq.respectTransparency.types false in
/-- REGION 6 over the thread state "every unscoped buffer at a valuation, the generator register at some state, nothing
    owed": entered from the valuation `Wpre`, left at `Wpost`, GIVEN that the family's data of pipeline 6 is `dat6` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg6_of (pdats : (p : Fin 15) → (c : Dev nD) → Dat τ (Elt F) Unit ℕ (UR sig nD τ) ℕ (cfgs p) c)
    (Wpre Wpost : Dev nD → Valuation τ sig (Elt F))
    (hp : ∀ c, pdats 6 c = dat6 (fun c b => Wpre c b) c)
    (hF : ∀ c (w : Fin cfg6.W), (dat6 (fun c b => Wpre c b) c).arrAt w cfg6.N = Wpost c (Pipeline.arrRef spec6 w))
    (hrest : ∀ c (b : Ref sig .tc), b ∉ Finset.univ.image (Pipeline.arrRef spec6) → Wpost c b = Wpre c b) :
    Pipeline.RegionSeg (pcfgs (F := F)) GenP.adm pdats () defs₀ 𝒱₀ L lv 6 where
  win := launch6.win.to₀
  block_pos := launch6.block_pos
  stage_whole := launch6.stage_whole
  K := PEmpty
  osem k := k.elim
  ho := Pipeline.OwnSemFacts.none _
  hbody c := by rw [hp c]; exact (body_obligation6 (fun c b => Wpre c b) c).loose
  hwaits := Pipeline.hwaits_of_owed_zero _ _ _ _ L lv 6 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec6 c (fun b => Wpre c b)
  hentry c := by
    rw [Pipeline.ownSems0_none]
    have hsplit := Pipeline.arrays_of_unscopedBufs (p := 6) (pcfgs (F := F)) GenP.adm pdats launch6.win launch6.arr_whole c
      (by rw [hp c]; exact (dat6 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hp c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c pdats (by rw [hp c]; exact (dat6 (fun c b => Wpre c b) c).share_full fun _ => rfl)
      (fun b => Wpre c b) (fun b => Wpost c b) ((pdats 6 c).arrAt · cfg6.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R7.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 7 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not it is fetched there
    (an unfetched window's block index has not moved since the previous point), for any proof data whose array is
    `V`'s (`hA`) and whose body leaves the block in place (`hafter`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole, through one rectangle per shape -/

abbrev r7_0 : Rect S4096x64 := Rect.unit (s := S4096x64) ![0, 0] S4096x64.size inb_S4096x64_S4096x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0

/-! ## What the body leaves in each output window's buffer -/

/-- Window 6's staging buffer after the body, from the input windows' blocks: its one store, of the whole buffer. -/
def out7_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay1 (View.ld x0 r7_0) (View.ld x1 r7_1) (View.ld x2 r7_2) (View.ld x3 r7_0) (View.ld x4 r7_0)⟩]

/-- The one stored rectangle is the whole buffer, so it covers it. -/
theorem cover7_6 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-- Window 7's staging buffer after the body, from the input windows' blocks: its one store, of the whole buffer. -/
def out7_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay2 (View.ld x0 r7_0) (View.ld x1 r7_1) (View.ld x2 r7_2) (View.ld x3 r7_0) (View.ld x4 r7_0)⟩]

/-- The one stored rectangle is the whole buffer, so it covers it. -/
theorem cover7_7 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-- Window 8's staging buffer after the body, from the input windows' blocks: its one store, of the whole buffer. -/
def out7_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay3 (View.ld x0 r7_0) (View.ld x1 r7_1) (View.ld x2 r7_2) (View.ld x3 r7_0) (View.ld x4 r7_0) (View.ld x5 r7_0)⟩]

/-- The one stored rectangle is the whole buffer, so it covers it. -/
theorem cover7_8 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-! ## The body's triple -/

set_option maxHeartbeats 4000000 in
/-- The kernel body on whole staging memrefs, the inputs' holding `xW` and the outputs' holding anything, runs to the
    continuation with the inputs' as they were and each output's at `out7_W` of the inputs: every load reads a whole
    buffer, the three loads of the output buffers are unused, and each store overwrites a whole output buffer. -/
theorem sound_kernel7 (c : Dev nD) (E : Set ℕ) (i : grid7.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5) ∗ owns (c : Thread nD τ) arg8 fullShare (out7_7 x0 x1 x2 x3 x4 x5) ∗ owns (c : Thread nD τ) arg9 fullShare (out7_8 x0 x1 x2 x3 x4 x5)) -∗ K ⟨⟩))
      ⊢ wp frame (wpE (defs₀ (F := F)) Variants.none c none) E (cc7__edge_update_kernel i arg1 harg1 arg2 harg2 arg3 harg3 arg4 harg4 arg5 harg5 arg6 harg6 arg7 harg7 arg8 harg8 arg9 harg9) K := by
  simp only [cc7__edge_update_kernel_eq_skeleton]; unfold cc7__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover7_6 _)
  isplitl [H7]
  · iexists _; isplitr
    swap; · iexact H7
    ipureintro
    exact View.read_writes_eq_canon _ _ _ (cover7_7 _)
  iexists _; isplitr
  swap; · iexact H8
  ipureintro
  exact View.read_writes_eq_canon _ _ _ (cover7_8 _)

/-! ## The pipeline's proof data -/

/-- The proof data of pipeline 7 on core `c`: the arrays as the region finds them (`V`); after the body at point `t`
    each input's buffer at its block and each output's at `out7_W` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
    | ⟨8, _⟩ => out7_8 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced at a literal window). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Reg7.lean ====
import proofs.«142356_j74423193305351_1_alg».proof.Proof.K.RunBase
import proofs.«142356_j74423193305351_1_alg».proof.Proof.K.R7

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 7 as a segment of the run, for any proof-data family whose pipeline 7 is the region's own data -/

-- `iapply` of a library lemma stated over the pinned configuration unifies with it only when unification may unfold
-- plain definitions in a metavariable's type
set_option backward.isDefEq.respectTransparency.types false in
/-- REGION 7 over the thread state "every unscoped buffer at a valuation, the generator register at some state, nothing
    owed": entered from the valuation `Wpre`, left at `Wpost`, GIVEN that the family's data of pipeline 7 is `dat7` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg7_of (pdats : (p : Fin 15) → (c : Dev nD) → Dat τ (Elt F) Unit ℕ (UR sig nD τ) ℕ (cfgs p) c)
    (Wpre Wpost : Dev nD → Valuation τ sig (Elt F))
    (hp : ∀ c, pdats 7 c = dat7 (fun c b => Wpre c b) c)
    (hF : ∀ c (w : Fin cfg7.W), (dat7 (fun c b => Wpre c b) c).arrAt w cfg7.N = Wpost c (Pipeline.arrRef spec7 w))
    (hrest : ∀ c (b : Ref sig .tc), b ∉ Finset.univ.image (Pipeline.arrRef spec7) → Wpost c b = Wpre c b) :
    Pipeline.RegionSeg (pcfgs (F := F)) GenP.adm pdats () defs₀ 𝒱₀ L lv 7 where
  win := launch7.win.to₀
  block_pos := launch7.block_pos
  stage_whole := launch7.stage_whole
  K := PEmpty
  osem k := k.elim
  ho := Pipeline.OwnSemFacts.none _
  hbody c := by rw [hp c]; exact (body_obligation7 (fun c b => Wpre c b) c).loose
  hwaits := Pipeline.hwaits_of_owed_zero _ _ _ _ L lv 7 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec7 c (fun b => Wpre c b)
  hentry c := by
    rw [Pipeline.ownSems0_none]
    have hsplit := Pipeline.arrays_of_unscopedBufs (p := 7) (pcfgs (F := F)) GenP.adm pdats launch7.win launch7.arr_whole c
      (by rw [hp c]; exact (dat7 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 7 c).Φ 0 = Pipeline.ΦA spec7 c from by rw [hp c]; rfl]; unfold Pipeline.ΦA
    iintro ⟨Hp, -, Hr⟩
    isplitl [Hr]; · iexact Hr
    iexact Hp
  hout c := by
    rw [Pipeline.ownSems0_none, show (pdats 7 c).Φ (Fin.last _) = Pipeline.ΦA spec7 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c pdats (by rw [hp c]; exact (dat7 (fun c b => Wpre c b) c).share_full fun _ => rfl)
      (fun b => Wpre c b) (fun b => Wpost c b) ((pdats 7 c).arrAt · cfg7.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R8.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 8 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1 (the mean row): its block index is constant, so it is fetched at the first point only. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2 (the variance row). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3 (the scale row). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Window 4 (the shift row). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Window 5 (the block of rows of the old features), fetched at every point. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole block of rows. -/
abbrev r8_0 : Rect S8192x64 := Rect.unit (s := S8192x64) ![0, 0] S8192x64.size inb_S8192x64_S8192x64_0_0
/-- The whole one-row block. -/
abbrev r8_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out8_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r8_0, k8_pay1 (View.ld x0 r8_0) (View.ld x1 r8_1) (View.ld x2 r8_1) (View.ld x3 r8_1) (View.ld x4 r8_1) (View.ld x5 r8_0)⟩]

/-- The one store is the whole buffer, so it covers it. -/
theorem cover8_6 (p0 : Vec F S8192x64 .f32) (y : S8192x64.Idx) :
    ∃ pc ∈ ([⟨r8_0, p0⟩] : List (View.Piece (Elt F) S8192x64 .f32)), y ∈ pc.1.set :=
  View.cover_of_tiled [⟨r8_0, p0⟩] S8192x64.size (by rfl) y

/-! ## The body's triple -/

set_option maxHeartbeats 1000000 in
/-- The kernel body on whole staging memrefs, the inputs' at contents x0 .. x5 and the output's at anything,
    runs to the continuation with the inputs' as they were and the output's at out8_6 of the inputs': the
    printed function is its skeleton; its loads read the owned buffers (the load of the output buffer
    before the store reads whatever it held and its value is not used), and its one store writes the payload. -/
theorem sound_kernel8 (c : Dev nD) (E : Set ℕ) (i : grid8.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_relu_res_kernel i arg1 harg1 arg2 harg2 arg3 harg3 arg4 harg4 arg5 harg5 arg6 harg6 arg7 harg7) K := by
  simp only [cc8__bn_relu_res_kernel_eq_skeleton]; unfold cc8__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core c: the arrays as the region finds them; after the body at point t
    each input's buffer at its block and the output's at out8_6 of the input blocks; the invariant that of a
    body touching only its windows (the scoped rest and the generator register, untouched); nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's match reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point t (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant
    and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.Reg8.lean ====
import proofs.«142356_j74423193305351_1_alg».proof.Proof.K.RunBase
import proofs.«142356_j74423193305351_1_alg».proof.Proof.K.R8

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 8 as a segment of the run, for any proof-data family whose pipeline 8 is the region's own data -/

-- `iapply` of a library lemma stated over the pinned configuration unifies with it only when unification may unfold
-- plain definitions in a metavariable's type
set_option backward.isDefEq.respectTransparency.types false in
/-- REGION 8 over the thread state "every unscoped buffer at a valuation, the generator register at some state, nothing
    owed": entered from the valuation `Wpre`, left at `Wpost`, GIVEN that the family's data of pipeline 8 is `dat8` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg8_of (pdats : (p : Fin 15) → (c : Dev nD) → Dat τ (Elt F) Unit ℕ (UR sig nD τ) ℕ (cfgs p) c)
    (Wpre Wpost : Dev nD → Valuation τ sig (Elt F))
    (hp : ∀ c, pdats 8 c = dat8 (fun c b => Wpre c b) c)
    (hF : ∀ c (w : Fin cfg8.W), (dat8 (fun c b => Wpre c b) c).arrAt w cfg8.N = Wpost c (Pipeline.arrRef spec8 w))
    (hrest : ∀ c (b : Ref sig .tc), b ∉ Finset.univ.image (Pipeline.arrRef spec8) → Wpost c b = Wpre c b) :
    Pipeline.RegionSeg (pcfgs (F := F)) GenP.adm pdats () defs₀ 𝒱₀ L lv 8 where
  win := launch8.win.to₀
  block_pos := launch8.block_pos
  stage_whole := launch8.stage_whole
  K := PEmpty
  osem k := k.elim
  ho := Pipeline.OwnSemFacts.none _
  hbody c := by rw [hp c]; exact (body_obligation8 (fun c b => Wpre c b) c).loose
  hwaits := Pipeline.hwaits_of_owed_zero _ _ _ _ L lv 8 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec8 c (fun b => Wpre c b)
  hentry c := by
    rw [Pipeline.ownSems0_none]
    have hsplit := Pipeline.arrays_of_unscopedBufs (p := 8) (pcfgs (F := F)) GenP.adm pdats launch8.win launch8.arr_whole c
      (by rw [hp c]; exact (dat8 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [hp c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c pdats (by rw [hp c]; exact (dat8 (fun c b => Wpre c b) c).share_full fun _ => rfl)
      (fun b => Wpre c b) (fun b => Wpost c b) ((pdats 8 c).arrAt · cfg8.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R9.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 9 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the mean row): its block index is constant, so it is fetched at the first point only. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the variance row). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the scale row). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the shift row). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the block of rows of the old features), fetched at every point. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole block of rows. -/
abbrev r9_0 : Rect S8192x64 := Rect.unit (s := S8192x64) ![0, 0] S8192x64.size inb_S8192x64_S8192x64_0_0
/-- The whole one-row block. -/
abbrev r9_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out9_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r9_0, k9_pay1 (View.ld x0 r9_0) (View.ld x1 r9_1) (View.ld x2 r9_1) (View.ld x3 r9_1) (View.ld x4 r9_1) (View.ld x5 r9_0)⟩]

/-- The one store is the whole buffer, so it covers it. -/
theorem cover9_6 (p0 : Vec F S8192x64 .f32) (y : S8192x64.Idx) :
    ∃ pc ∈ ([⟨r9_0, p0⟩] : List (View.Piece (Elt F) S8192x64 .f32)), y ∈ pc.1.set :=
  View.cover_of_tiled [⟨r9_0, p0⟩] S8192x64.size (by rfl) y

/-! ## The body's triple -/

set_option maxHeartbeats 1000000 in
/-- The kernel body on whole staging memrefs, the inputs' at contents x0 .. x5 and the output's at anything,
    runs to the continuation with the inputs' as they were and the output's at out9_6 of the inputs': the
    printed function is its skeleton; its loads read the owned buffers (the load of the output buffer
    before the store reads whatever it held and its value is not used), and its one store writes the payload. -/
theorem sound_kernel9 (c : Dev nD) (E : Set ℕ) (i : grid9.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E (cc9__bn_relu_res_kernel i arg1 harg1 arg2 harg2 arg3 harg3 arg4 harg4 arg5 harg5 arg6 harg6 arg7 harg7) K := by
  simp only [cc9__bn_relu_res_kernel_eq_skeleton]; unfold cc9__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core c: the arrays as the region finds them; after the body at point t
    each input's buffer at its block and the output's at out9_6 of the input blocks; the invariant that of a
    body touching only its windows (the scoped rest and the generator register, untouched); nothing owed;
    full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's match reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point t (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks, so the body's triple applies; the invariant
    and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.K.Reg9.lean ====
import proofs.«142356_j74423193305351_1_alg».proof.Proof.K.RunBase
import proofs.«142356_j74423193305351_1_alg».proof.Proof.K.R9

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 9 as a segment of the run, for any proof-data family whose pipeline 9 is the region's own data -/

-- `iapply` of a library lemma stated over the pinned configuration unifies with it only when unification may unfold
-- plain definitions in a metavariable's type
set_option backward.isDefEq.respectTransparency.types false in
/-- REGION 9 over the thread state "every unscoped buffer at a valuation, the generator register at some state, nothing
    owed": entered from the valuation `Wpre`, left at `Wpost`, GIVEN that the family's data of pipeline 9 is `dat9` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg9_of (pdats : (p : Fin 15) → (c : Dev nD) → Dat τ (Elt F) Unit ℕ (UR sig nD τ) ℕ (cfgs p) c)
    (Wpre Wpost : Dev nD → Valuation τ sig (Elt F))
    (hp : ∀ c, pdats 9 c = dat9 (fun c b => Wpre c b) c)
    (hF : ∀ c (w : Fin cfg9.W), (dat9 (fun c b => Wpre c b) c).arrAt w cfg9.N = Wpost c (Pipeline.arrRef spec9 w))
    (hrest : ∀ c (b : Ref sig .tc), b ∉ Finset.univ.image (Pipeline.arrRef spec9) → Wpost c b = Wpre c b) :
    Pipeline.RegionSeg (pcfgs (F := F)) GenP.adm pdats () defs₀ 𝒱₀ L lv 9 where
  win := launch9.win.to₀
  block_pos := launch9.block_pos
  stage_whole := launch9.stage_whole
  K := PEmpty
  osem k := k.elim
  ho := Pipeline.OwnSemFacts.none _
  hbody c := by rw [hp c]; exact (body_obligation9 (fun c b => Wpre c b) c).loose
  hwaits := Pipeline.hwaits_of_owed_zero _ _ _ _ L lv 9 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec9 c (fun b => Wpre c b)
  hentry c := by
    rw [Pipeline.ownSems0_none]
    have hsplit := Pipeline.arrays_of_unscopedBufs (p := 9) (pcfgs (F := F)) GenP.adm pdats launch9.win launch9.arr_whole c
      (by rw [hp c]; exact (dat9 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 9 c).Φ 0 = Pipeline.ΦA spec9 c from by rw [hp c]; rfl]; unfold Pipeline.ΦA
    iintro ⟨Hp, -, Hr⟩
    isplitl [Hr]; · iexact Hr
    iexact Hp
  hout c := by
    rw [Pipeline.ownSems0_none, show (pdats 9 c).Φ (Fin.last _) = Pipeline.ΦA spec9 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c pdats (by rw [hp c]; exact (dat9 (fun c b => Wpre c b) c).share_full fun _ => rfl)
      (fun b => Wpre c b) (fun b => Wpost c b) ((pdats 9 c).arrAt · cfg9.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R10.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 10: a row-tiled linear layer, one block of rows of the output from the same rows of the input, the whole
   weight and the whole bias (pipeline 10), at the entry contents `V` -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The row block x: its staging buffer holds the block at every point, for any proof data whose array is the entry
    contents and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The weight W, whole at every point: fetched at the first point only, its block index never moves, so the buffer
    still holds the one block at every later point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The bias b, whole at every point: as the weight. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window whole, through one rectangle -/

abbrev r10_0 : Rect S4096x64 := Rect.unit (s := S4096x64) ![0, 0] S4096x64.size inb_S4096x64_S4096x64_0_0
abbrev r10_1 : Rect S64x256 := Rect.unit (s := S64x256) ![0, 0] S64x256.size inb_S64x256_S64x256_0_0
abbrev r10_2 : Rect S1x256 := Rect.unit (s := S1x256) ![0, 0] S1x256.size inb_S1x256_S1x256_0_0
abbrev r10_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out10_3 (x0 : Vec F S4096x64 .f32) (x1 : Vec F S64x256 .f32) (x2 : Vec F S1x256 .f32) : Vec F S4096x256 .f32 :=
  View.canon [⟨r10_3, k10_pay1 (View.ld x0 r10_0) (View.ld x1 r10_1) (View.ld x2 r10_2)⟩]

/-- The one store is the whole block, so it covers it. -/
theorem cover10_3 (p0 : Vec F S4096x256 .f32) (y : S4096x256.Idx) :
    ∃ pc ∈ ([⟨r10_3, p0⟩] : List (View.Piece (Elt F) S4096x256 .f32)), y ∈ pc.1.set :=
  View.cover_of_tiled [⟨r10_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out10_3` of them. -/
theorem sound_kernel10 (c : Dev nD) (E : Set ℕ) (i : grid10.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them; after the body at point `t` each
    input's buffer at its block and the output's at `out10_3` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the definition's case split reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and the
    core's owed count pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Reg10.lean ====
import proofs.«142356_j74423193305351_1_alg».proof.Proof.K.RunBase
import proofs.«142356_j74423193305351_1_alg».proof.Proof.K.R10

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 10 as a segment of the run, for any proof-data family whose pipeline 10 is the region's own data -/

-- `iapply` of a library lemma stated over the pinned configuration unifies with it only when unification may unfold
-- plain definitions in a metavariable's type
set_option backward.isDefEq.respectTransparency.types false in
/-- REGION 10 over the thread state "every unscoped buffer at a valuation, the generator register at some state, nothing
    owed": entered from the valuation `Wpre`, left at `Wpost`, GIVEN that the family's data of pipeline 10 is `dat10` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg10_of (pdats : (p : Fin 15) → (c : Dev nD) → Dat τ (Elt F) Unit ℕ (UR sig nD τ) ℕ (cfgs p) c)
    (Wpre Wpost : Dev nD → Valuation τ sig (Elt F))
    (hp : ∀ c, pdats 10 c = dat10 (fun c b => Wpre c b) c)
    (hF : ∀ c (w : Fin cfg10.W), (dat10 (fun c b => Wpre c b) c).arrAt w cfg10.N = Wpost c (Pipeline.arrRef spec10 w))
    (hrest : ∀ c (b : Ref sig .tc), b ∉ Finset.univ.image (Pipeline.arrRef spec10) → Wpost c b = Wpre c b) :
    Pipeline.RegionSeg (pcfgs (F := F)) GenP.adm pdats () defs₀ 𝒱₀ L lv 10 where
  win := launch10.win.to₀
  block_pos := launch10.block_pos
  stage_whole := launch10.stage_whole
  K := PEmpty
  osem k := k.elim
  ho := Pipeline.OwnSemFacts.none _
  hbody c := by rw [hp c]; exact (body_obligation10 (fun c b => Wpre c b) c).loose
  hwaits := Pipeline.hwaits_of_owed_zero _ _ _ _ L lv 10 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec10 c (fun b => Wpre c b)
  hentry c := by
    rw [Pipeline.ownSems0_none]
    have hsplit := Pipeline.arrays_of_unscopedBufs (p := 10) (pcfgs (F := F)) GenP.adm pdats launch10.win launch10.arr_whole c
      (by rw [hp c]; exact (dat10 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 10 c).Φ 0 = Pipeline.ΦA spec10 c from by rw [hp c]; rfl]; unfold Pipeline.ΦA
    iintro ⟨Hp, -, Hr⟩
    isplitl [Hr]; · iexact Hr
    iexact Hp
  hout c := by
    rw [Pipeline.ownSems0_none, show (pdats 10 c).Φ (Fin.last _) = Pipeline.ΦA spec10 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c pdats (by rw [hp c]; exact (dat10 (fun c b => Wpre c b) c).share_full fun _ => rfl)
      (fun b => Wpre c b) (fun b => Wpost c b) ((pdats 10 c).arrAt · cfg10.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R11.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 11 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether or not it is fetched there
    (an unfetched window's block index has not moved since the previous point), for any proof data whose array is
    `V`'s (`hA`) and whose body leaves the block in place (`hafter`); the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole, through one rectangle per shape -/

abbrev r11_0 : Rect S4096x64 := Rect.unit (s := S4096x64) ![0, 0] S4096x64.size inb_S4096x64_S4096x64_0_0
abbrev r11_1 : Rect S64x64 := Rect.unit (s := S64x64) ![0, 0] S64x64.size inb_S64x64_S64x64_0_0
abbrev r11_2 : Rect S1x64 := Rect.unit (s := S1x64) ![0, 0] S1x64.size inb_S1x64_S1x64_0_0

/-! ## What the body leaves in each output window's buffer -/

/-- Window 6's staging buffer after the body, from the input windows' blocks: its one store, of the whole buffer. -/
def out11_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay1 (View.ld x0 r11_0) (View.ld x1 r11_1) (View.ld x2 r11_2) (View.ld x3 r11_0) (View.ld x4 r11_0)⟩]

/-- The one stored rectangle is the whole buffer, so it covers it. -/
theorem cover11_6 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-- Window 7's staging buffer after the body, from the input windows' blocks: its one store, of the whole buffer. -/
def out11_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay2 (View.ld x0 r11_0) (View.ld x1 r11_1) (View.ld x2 r11_2) (View.ld x3 r11_0) (View.ld x4 r11_0)⟩]

/-- The one stored rectangle is the whole buffer, so it covers it. -/
theorem cover11_7 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-- Window 8's staging buffer after the body, from the input windows' blocks: its one store, of the whole buffer. -/
def out11_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay3 (View.ld x0 r11_0) (View.ld x1 r11_1) (View.ld x2 r11_2) (View.ld x3 r11_0) (View.ld x4 r11_0) (View.ld x5 r11_0)⟩]

/-- The one stored rectangle is the whole buffer, so it covers it. -/
theorem cover11_8 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-! ## The body's triple -/

set_option maxHeartbeats 4000000 in
/-- The kernel body on whole staging memrefs, the inputs' holding `xW` and the outputs' holding anything, runs to the
    continuation with the inputs' as they were and each output's at `out11_W` of the inputs: every load reads a whole
    buffer, the three loads of the output buffers are unused, and each store overwrites a whole output buffer. -/
theorem sound_kernel11 (c : Dev nD) (E : Set ℕ) (i : grid11.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5) ∗ owns (c : Thread nD τ) arg8 fullShare (out11_7 x0 x1 x2 x3 x4 x5) ∗ owns (c : Thread nD τ) arg9 fullShare (out11_8 x0 x1 x2 x3 x4 x5)) -∗ K ⟨⟩))
      ⊢ wp frame (wpE (defs₀ (F := F)) Variants.none c none) E (cc11__edge_update_kernel i arg1 harg1 arg2 harg2 arg3 harg3 arg4 harg4 arg5 harg5 arg6 harg6 arg7 harg7 arg8 harg8 arg9 harg9) K := by
  simp only [cc11__edge_update_kernel_eq_skeleton]; unfold cc11__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover11_6 _)
  isplitl [H7]
  · iexists _; isplitr
    swap; · iexact H7
    ipureintro
    exact View.read_writes_eq_canon _ _ _ (cover11_7 _)
  iexists _; isplitr
  swap; · iexact H8
  ipureintro
  exact View.read_writes_eq_canon _ _ _ (cover11_8 _)

/-! ## The pipeline's proof data -/

/-- The proof data of pipeline 11 on core `c`: the arrays as the region finds them (`V`); after the body at point `t`
    each input's buffer at its block and each output's at `out11_W` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
    | ⟨7, _⟩ => out11_7 (iblk11 V c 0 t) (iblk11 V c 1 t) (iblk11 V c 2 t) (iblk11 V c 3 t) (iblk11 V c 4 t) (iblk11 V c 5 t)
    | ⟨8, _⟩ => out11_8 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced at a literal window). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) := by dsimp only [dat11]
theorem after11_8 (c : Dev nD) (t : Fin cfg11.N) : (dat11 V c).after 8 t = out11_8 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel11 c Set.univ (grid11.coords t) _ _ _ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.Reg11.lean ====
import proofs.«142356_j74423193305351_1_alg».proof.Proof.K.RunBase
import proofs.«142356_j74423193305351_1_alg».proof.Proof.K.R11

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 11 as a segment of the run, for any proof-data family whose pipeline 11 is the region's own data -/

-- `iapply` of a library lemma stated over the pinned configuration unifies with it only when unification may unfold
-- plain definitions in a metavariable's type
set_option backward.isDefEq.respectTransparency.types false in
/-- REGION 11 over the thread state "every unscoped buffer at a valuation, the generator register at some state, nothing
    owed": entered from the valuation `Wpre`, left at `Wpost`, GIVEN that the family's data of pipeline 11 is `dat11` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg11_of (pdats : (p : Fin 15) → (c : Dev nD) → Dat τ (Elt F) Unit ℕ (UR sig nD τ) ℕ (cfgs p) c)
    (Wpre Wpost : Dev nD → Valuation τ sig (Elt F))
    (hp : ∀ c, pdats 11 c = dat11 (fun c b => Wpre c b) c)
    (hF : ∀ c (w : Fin cfg11.W), (dat11 (fun c b => Wpre c b) c).arrAt w cfg11.N = Wpost c (Pipeline.arrRef spec11 w))
    (hrest : ∀ c (b : Ref sig .tc), b ∉ Finset.univ.image (Pipeline.arrRef spec11) → Wpost c b = Wpre c b) :
    Pipeline.RegionSeg (pcfgs (F := F)) GenP.adm pdats () defs₀ 𝒱₀ L lv 11 where
  win := launch11.win.to₀
  block_pos := launch11.block_pos
  stage_whole := launch11.stage_whole
  K := PEmpty
  osem k := k.elim
  ho := Pipeline.OwnSemFacts.none _
  hbody c := by rw [hp c]; exact (body_obligation11 (fun c b => Wpre c b) c).loose
  hwaits := Pipeline.hwaits_of_owed_zero _ _ _ _ L lv 11 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec11 c (fun b => Wpre c b)
  hentry c := by
    rw [Pipeline.ownSems0_none]
    have hsplit := Pipeline.arrays_of_unscopedBufs (p := 11) (pcfgs (F := F)) GenP.adm pdats launch11.win launch11.arr_whole c
      (by rw [hp c]; exact (dat11 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 11 c).Φ 0 = Pipeline.ΦA spec11 c from by rw [hp c]; rfl]; unfold Pipeline.ΦA
    iintro ⟨Hp, -, Hr⟩
    isplitl [Hr]; · iexact Hr
    iexact Hp
  hout c := by
    rw [Pipeline.ownSems0_none, show (pdats 11 c).Φ (Fin.last _) = Pipeline.ΦA spec11 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c pdats (by rw [hp c]; exact (dat11 (fun c b => Wpre c b) c).share_full fun _ => rfl)
      (fun b => Wpre c b) (fun b => Wpost c b) ((pdats 11 c).arrAt · cfg11.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R12.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 12 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1 (the mean row): its block index is constant, so it is fetched at the first point only. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2 (the variance row). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 (the scale row). -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4 (the shift row). -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Window 5 (the block of rows of the old features), fetched at every point. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole block of rows. -/
abbrev r12_0 : Rect S8192x64 := Rect.unit (s := S8192x64) ![0, 0] S8192x64.size inb_S8192x64_S8192x64_0_0
/-- The whole one-row block. -/
abbrev r12_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out12_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r12_0, k12_pay1 (View.ld x0 r12_0) (View.ld x1 r12_1) (View.ld x2 r12_1) (View.ld x3 r12_1) (View.ld x4 r12_1) (View.ld x5 r12_0)⟩]

/-- The one store is the whole buffer, so it covers it. -/
theorem cover12_6 (p0 : Vec F S8192x64 .f32) (y : S8192x64.Idx) :
    ∃ pc ∈ ([⟨r12_0, p0⟩] : List (View.Piece (Elt F) S8192x64 .f32)), y ∈ pc.1.set :=
  View.cover_of_tiled [⟨r12_0, p0⟩] S8192x64.size (by rfl) y

/-! ## The body's triple -/

set_option maxHeartbeats 1000000 in
/-- The kernel body on whole staging memrefs, the inputs' at contents x0 .. x5 and the output's at anything,
    runs to the continuation with the inputs' as they were and the output's at out12_6 of the inputs': the
    printed function is its skeleton; its loads read the owned buffers (the load of the output buffer
    before the store reads whatever it held and its value is not used), and its one store writes the payload. -/
theorem sound_kernel12 (c : Dev nD) (E : Set ℕ) (i : grid12.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out12_6 x0 x1 x2 x3 x4 x5)) -∗ K ⟨⟩))
      ⊢ wp frame (wpE (defs₀ (F := F)) Variants.none c none) E (cc12__bn_relu_res_kernel i arg1 harg1 arg2 harg2 arg3 harg3 arg4 harg4 arg5 harg5 arg6 harg6 arg7 harg7) K := by
  simp only [cc12__bn_relu_res_kernel_eq_skeleton]; unfold cc12__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core c: the arrays as the region finds them; after the body at point t
    each input's buffer at its block and the output's at out12_6 of the input blocks; the invariant that of a
    body touching only its windows (the scoped rest and the generator register, untouched); nothing owed;
    full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's match reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point t (the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the inputs' memrefs hold their blocks, so the body's triple applies; the invariant
    and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.Reg12.lean ====
import proofs.«142356_j74423193305351_1_alg».proof.Proof.K.RunBase
import proofs.«142356_j74423193305351_1_alg».proof.Proof.K.R12

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 12 as a segment of the run, for any proof-data family whose pipeline 12 is the region's own data -/

-- `iapply` of a library lemma stated over the pinned configuration unifies with it only when unification may unfold
-- plain definitions in a metavariable's type
set_option backward.isDefEq.respectTransparency.types false in
/-- REGION 12 over the thread state "every unscoped buffer at a valuation, the generator register at some state, nothing
    owed": entered from the valuation `Wpre`, left at `Wpost`, GIVEN that the family's data of pipeline 12 is `dat12` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg12_of (pdats : (p : Fin 15) → (c : Dev nD) → Dat τ (Elt F) Unit ℕ (UR sig nD τ) ℕ (cfgs p) c)
    (Wpre Wpost : Dev nD → Valuation τ sig (Elt F))
    (hp : ∀ c, pdats 12 c = dat12 (fun c b => Wpre c b) c)
    (hF : ∀ c (w : Fin cfg12.W), (dat12 (fun c b => Wpre c b) c).arrAt w cfg12.N = Wpost c (Pipeline.arrRef spec12 w))
    (hrest : ∀ c (b : Ref sig .tc), b ∉ Finset.univ.image (Pipeline.arrRef spec12) → Wpost c b = Wpre c b) :
    Pipeline.RegionSeg (pcfgs (F := F)) GenP.adm pdats () defs₀ 𝒱₀ L lv 12 where
  win := launch12.win.to₀
  block_pos := launch12.block_pos
  stage_whole := launch12.stage_whole
  K := PEmpty
  osem k := k.elim
  ho := Pipeline.OwnSemFacts.none _
  hbody c := by rw [hp c]; exact (body_obligation12 (fun c b => Wpre c b) c).loose
  hwaits := Pipeline.hwaits_of_owed_zero _ _ _ _ L lv 12 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec12 c (fun b => Wpre c b)
  hentry c := by
    rw [Pipeline.ownSems0_none]
    have hsplit := Pipeline.arrays_of_unscopedBufs (p := 12) (pcfgs (F := F)) GenP.adm pdats launch12.win launch12.arr_whole c
      (by rw [hp c]; exact (dat12 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [hp c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c pdats (by rw [hp c]; exact (dat12 (fun c b => Wpre c b) c).share_full fun _ => rfl)
      (fun b => Wpre c b) (fun b => Wpost c b) ((pdats 12 c).arrAt · cfg12.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R13.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 13 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Window 1 (the mean row): its block index is constant, so it is fetched at the first point only. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Window 2 (the variance row). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Window 3 (the scale row). -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Window 4 (the shift row). -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Window 5 (the block of rows of the old features), fetched at every point. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole block of rows. -/
abbrev r13_0 : Rect S8192x64 := Rect.unit (s := S8192x64) ![0, 0] S8192x64.size inb_S8192x64_S8192x64_0_0
/-- The whole one-row block. -/
abbrev r13_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out13_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r13_0, k13_pay1 (View.ld x0 r13_0) (View.ld x1 r13_1) (View.ld x2 r13_1) (View.ld x3 r13_1) (View.ld x4 r13_1) (View.ld x5 r13_0)⟩]

/-- The one store is the whole buffer, so it covers it. -/
theorem cover13_6 (p0 : Vec F S8192x64 .f32) (y : S8192x64.Idx) :
    ∃ pc ∈ ([⟨r13_0, p0⟩] : List (View.Piece (Elt F) S8192x64 .f32)), y ∈ pc.1.set :=
  View.cover_of_tiled [⟨r13_0, p0⟩] S8192x64.size (by rfl) y

/-! ## The body's triple -/

set_option maxHeartbeats 1000000 in
/-- The kernel body on whole staging memrefs, the inputs' at contents x0 .. x5 and the output's at anything,
    runs to the continuation with the inputs' as they were and the output's at out13_6 of the inputs': the
    printed function is its skeleton; its loads read the owned buffers (the load of the output buffer
    before the store reads whatever it held and its value is not used), and its one store writes the payload. -/
theorem sound_kernel13 (c : Dev nD) (E : Set ℕ) (i : grid13.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out13_6 x0 x1 x2 x3 x4 x5)) -∗ K ⟨⟩))
      ⊢ wp frame (wpE (defs₀ (F := F)) Variants.none c none) E (cc13__bn_relu_res_kernel i arg1 harg1 arg2 harg2 arg3 harg3 arg4 harg4 arg5 harg5 arg6 harg6 arg7 harg7) K := by
  simp only [cc13__bn_relu_res_kernel_eq_skeleton]; unfold cc13__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core c: the arrays as the region finds them; after the body at point t
    each input's buffer at its block and the output's at out13_6 of the input blocks; the invariant that of a
    body touching only its windows (the scoped rest and the generator register, untouched); nothing owed;
    full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's match reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t (the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant
    and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand
-- ==== Proof.K.Reg13.lean ====
import proofs.«142356_j74423193305351_1_alg».proof.Proof.K.RunBase
import proofs.«142356_j74423193305351_1_alg».proof.Proof.K.R13

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 13 as a segment of the run, for any proof-data family whose pipeline 13 is the region's own data -/

-- `iapply` of a library lemma stated over the pinned configuration unifies with it only when unification may unfold
-- plain definitions in a metavariable's type
set_option backward.isDefEq.respectTransparency.types false in
/-- REGION 13 over the thread state "every unscoped buffer at a valuation, the generator register at some state, nothing
    owed": entered from the valuation `Wpre`, left at `Wpost`, GIVEN that the family's data of pipeline 13 is `dat13` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg13_of (pdats : (p : Fin 15) → (c : Dev nD) → Dat τ (Elt F) Unit ℕ (UR sig nD τ) ℕ (cfgs p) c)
    (Wpre Wpost : Dev nD → Valuation τ sig (Elt F))
    (hp : ∀ c, pdats 13 c = dat13 (fun c b => Wpre c b) c)
    (hF : ∀ c (w : Fin cfg13.W), (dat13 (fun c b => Wpre c b) c).arrAt w cfg13.N = Wpost c (Pipeline.arrRef spec13 w))
    (hrest : ∀ c (b : Ref sig .tc), b ∉ Finset.univ.image (Pipeline.arrRef spec13) → Wpost c b = Wpre c b) :
    Pipeline.RegionSeg (pcfgs (F := F)) GenP.adm pdats () defs₀ 𝒱₀ L lv 13 where
  win := launch13.win.to₀
  block_pos := launch13.block_pos
  stage_whole := launch13.stage_whole
  K := PEmpty
  osem k := k.elim
  ho := Pipeline.OwnSemFacts.none _
  hbody c := by rw [hp c]; exact (body_obligation13 (fun c b => Wpre c b) c).loose
  hwaits := Pipeline.hwaits_of_owed_zero _ _ _ _ L lv 13 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec13 c (fun b => Wpre c b)
  hentry c := by
    rw [Pipeline.ownSems0_none]
    have hsplit := Pipeline.arrays_of_unscopedBufs (p := 13) (pcfgs (F := F)) GenP.adm pdats launch13.win launch13.arr_whole c
      (by rw [hp c]; exact (dat13 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 13 c).Φ 0 = Pipeline.ΦA spec13 c from by rw [hp c]; rfl]; unfold Pipeline.ΦA
    iintro ⟨Hp, -, Hr⟩
    isplitl [Hr]; · iexact Hr
    iexact Hp
  hout c := by
    rw [Pipeline.ownSems0_none, show (pdats 13 c).Φ (Fin.last _) = Pipeline.ΦA spec13 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c pdats (by rw [hp c]; exact (dat13 (fun c b => Wpre c b) c).share_full fun _ => rfl)
      (fun b => Wpre c b) (fun b => Wpost c b) ((pdats 13 c).arrAt · cfg13.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.R14.lean ====
import proofs.«142356_j74423193305351_1_alg».proof.Proof.Gen.Kernel.Launch
import proofs.«142356_j74423193305351_1_alg».proof.Proof.Gen.Kernel.Skeleton
import proofs.«142356_j74423193305351_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 14 of @main: the three-layer perceptron head, at the entry contents `V`

One grid point; every window is its whole array. Windows 0 to 6 are read (the rows `x`, and per layer
a weight matrix and a bias row), window 7 is written: `relu (relu (x W₁ + b₁) W₂ + b₂) W₃ + b₃`.
The body reads each input whole through one rectangle and writes the output whole through one
rectangle, so what it leaves in the output's buffer is one pure term of the inputs' blocks. -/

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, for any proof data whose array is
    `V`'s (`hA`) and whose body leaves the block in place (`hafter`): the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, for any proof data whose array is
    `V`'s (`hA`) and whose body leaves the block in place (`hafter`): the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, for any proof data whose array is
    `V`'s (`hA`) and whose body leaves the block in place (`hafter`): the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, for any proof data whose array is
    `V`'s (`hA`) and whose body leaves the block in place (`hafter`): the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, for any proof data whose array is
    `V`'s (`hA`) and whose body leaves the block in place (`hafter`): the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, for any proof data whose array is
    `V`'s (`hA`) and whose body leaves the block in place (`hafter`): the window is uncut and never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-- Input window 6's current staging buffer holds its block at every point, for any proof data whose array is
    `V`'s (`hA`) and whose body leaves the block in place (`hafter`): the window is uncut and never idle. -/
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: one whole-buffer rectangle per window -/

abbrev r14_0 : Rect S256x82 := Rect.unit (s := S256x82) ![0, 0] S256x82.size inb_S256x82_S256x82_0_0
abbrev r14_1 : Rect S82x256 := Rect.unit (s := S82x256) ![0, 0] S82x256.size inb_S82x256_S82x256_0_0
abbrev r14_2 : Rect S1x256 := Rect.unit (s := S1x256) ![0, 0] S1x256.size inb_S1x256_S1x256_0_0
abbrev r14_3 : Rect S256x256 := Rect.unit (s := S256x256) ![0, 0] S256x256.size inb_S256x256_S256x256_0_0
abbrev r14_4 : Rect S1x256 := Rect.unit (s := S1x256) ![0, 0] S1x256.size inb_S1x256_S1x256_0_0
abbrev r14_5 : Rect S256x1 := Rect.unit (s := S256x1) ![0, 0] S256x1.size inb_S256x1_S256x1_0_0
abbrev r14_6 : Rect S1x1 := Rect.unit (s := S1x1) ![0, 0] S1x1.size inb_S1x1_S1x1_0_0
abbrev r14_7 : Rect S256x1 := Rect.unit (s := S256x1) ![0, 0] S256x1.size inb_S256x1_S256x1_0_0

/-! ## What the body leaves in the output window's buffer -/

/-- Window 7's staging buffer after the body, from the input windows' blocks: its one store as one piece
    (the payload is the skeleton's). -/
def out14_7 (x0 : Vec F S256x82 .f32) (x1 : Vec F S82x256 .f32) (x2 : Vec F S1x256 .f32) (x3 : Vec F S256x256 .f32) (x4 : Vec F S1x256 .f32) (x5 : Vec F S256x1 .f32) (x6 : Vec F S1x1 .f32) : Vec F S256x1 .f32 :=
  View.canon [⟨r14_7, k14_pay1 (View.ld x0 r14_0) (View.ld x1 r14_1) (View.ld x2 r14_2) (View.ld x3 r14_3) (View.ld x4 r14_4) (View.ld x5 r14_5) (View.ld x6 r14_6)⟩]

/-- The store is the whole buffer, so it covers it. -/
theorem cover14_7 (p0 : Vec F S256x1 .f32) (y : S256x1.Idx) :
    ∃ pc ∈ ([⟨r14_7, p0⟩] : List (View.Piece (Elt F) S256x1 .f32)), y ∈ pc.1.set :=
  View.cover_of_tiled [⟨r14_7, p0⟩] S256x1.size (by rfl) y

/-! ## The body's triple -/

set_option maxHeartbeats 4000000 in
/-- The kernel body on whole staging memrefs, the inputs' at read contents `xW` and the output's at anything, runs to
    the continuation holding the inputs' as they were and the output's at `out14_7` of the inputs'. -/
theorem sound_kernel14 (c : Dev nD) (E : Set ℕ) (i : grid14.Coords) (arg0 : Memref sig .tc .vmem S256x82 .f32) (harg0 : arg0.IsWhole) (arg1 : Memref sig .tc .vmem S82x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S256x1 .f32) (harg7 : arg7.IsWhole)
    (x0 : Vec F S256x82 .f32) (x1 : Vec F S82x256 .f32) (x2 : Vec F S1x256 .f32) (x3 : Vec F S256x256 .f32) (x4 : Vec F S1x256 .f32) (x5 : Vec F S256x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out14_7 x0 x1 x2 x3 x4 x5 x6)) -∗ K ⟨⟩))
      ⊢ wp frame (wpE (defs₀ (F := F)) Variants.none c none) E (cc14__mlp_kernel i arg0 harg0 arg1 harg1 arg2 harg2 arg3 harg3 arg4 harg4 arg5 harg5 arg6 harg6 arg7 harg7) K := by
  simp only [cc14__mlp_kernel_eq_skeleton]; unfold cc14__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover14_7 _)

/-! ## The pipeline's proof data -/

/-- The proof data of pipeline 14 on core `c`: the arrays as the region finds them (`V`); after the body at
    point `t` each input's buffer at its block and the output's at `out14_7` of the input blocks; the invariant the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => out14_7 (iblk14 V c 0 t) (iblk14 V c 1 t) (iblk14 V c 2 t) (iblk14 V c 3 t) (iblk14 V c 4 t) (iblk14 V c 5 t) (iblk14 V c 6 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) (iblk14 V c 5 t) (iblk14 V c 6 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel14 c Set.univ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Reg14.lean ====
import proofs.«142356_j74423193305351_1_alg».proof.Proof.K.RunBase
import proofs.«142356_j74423193305351_1_alg».proof.Proof.K.R14

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 14 as a segment of the run, for any proof-data family whose pipeline 14 is the region's own data -/

-- `iapply` of a library lemma stated over the pinned configuration unifies with it only when unification may unfold
-- plain definitions in a metavariable's type
set_option backward.isDefEq.respectTransparency.types false in
/-- REGION 14 over the thread state "every unscoped buffer at a valuation, the generator register at some state, nothing
    owed": entered from the valuation `Wpre`, left at `Wpost`, GIVEN that the family's data of pipeline 14 is `dat14` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg14_of (pdats : (p : Fin 15) → (c : Dev nD) → Dat τ (Elt F) Unit ℕ (UR sig nD τ) ℕ (cfgs p) c)
    (Wpre Wpost : Dev nD → Valuation τ sig (Elt F))
    (hp : ∀ c, pdats 14 c = dat14 (fun c b => Wpre c b) c)
    (hF : ∀ c (w : Fin cfg14.W), (dat14 (fun c b => Wpre c b) c).arrAt w cfg14.N = Wpost c (Pipeline.arrRef spec14 w))
    (hrest : ∀ c (b : Ref sig .tc), b ∉ Finset.univ.image (Pipeline.arrRef spec14) → Wpost c b = Wpre c b) :
    Pipeline.RegionSeg (pcfgs (F := F)) GenP.adm pdats () defs₀ 𝒱₀ L lv 14 where
  win := launch14.win.to₀
  block_pos := launch14.block_pos
  stage_whole := launch14.stage_whole
  K := PEmpty
  osem k := k.elim
  ho := Pipeline.OwnSemFacts.none _
  hbody c := by rw [hp c]; exact (body_obligation14 (fun c b => Wpre c b) c).loose
  hwaits := Pipeline.hwaits_of_owed_zero _ _ _ _ L lv 14 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec14 c (fun b => Wpre c b)
  hentry c := by
    rw [Pipeline.ownSems0_none]
    have hsplit := Pipeline.arrays_of_unscopedBufs (p := 14) (pcfgs (F := F)) GenP.adm pdats launch14.win launch14.arr_whole c
      (by rw [hp c]; exact (dat14 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 14 c).Φ 0 = Pipeline.ΦA spec14 c from by rw [hp c]; rfl]; unfold Pipeline.ΦA
    iintro ⟨Hp, -, Hr⟩
    isplitl [Hr]; · iexact Hr
    iexact Hp
  hout c := by
    rw [Pipeline.ownSems0_none, show (pdats 14 c).Φ (Fin.last _) = Pipeline.ΦA spec14 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c pdats (by rw [hp c]; exact (dat14 (fun c b => Wpre c b) c).share_full fun _ => rfl)
      (fun b => Wpre c b) (fun b => Wpost c b) ((pdats 14 c).arrAt · cfg14.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«142356_j74423193305351_1_alg».proof.Proof.K.RegionsAll
import proofs.«142356_j74423193305351_1_alg».proof.Proof.K.Reg0
import proofs.«142356_j74423193305351_1_alg».proof.Proof.K.Reg1
import proofs.«142356_j74423193305351_1_alg».proof.Proof.K.Reg2
import proofs.«142356_j74423193305351_1_alg».proof.Proof.K.Reg3
import proofs.«142356_j74423193305351_1_alg».proof.Proof.K.Reg4
import proofs.«142356_j74423193305351_1_alg».proof.Proof.K.Reg5
import proofs.«142356_j74423193305351_1_alg».proof.Proof.K.Reg6
import proofs.«142356_j74423193305351_1_alg».proof.Proof.K.Reg7
import proofs.«142356_j74423193305351_1_alg».proof.Proof.K.Reg8
import proofs.«142356_j74423193305351_1_alg».proof.Proof.K.Reg9
import proofs.«142356_j74423193305351_1_alg».proof.Proof.K.Reg10
import proofs.«142356_j74423193305351_1_alg».proof.Proof.K.Reg11
import proofs.«142356_j74423193305351_1_alg».proof.Proof.K.Reg12
import proofs.«142356_j74423193305351_1_alg».proof.Proof.K.Reg13
import proofs.«142356_j74423193305351_1_alg».proof.Proof.K.Reg14

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # THE RUN of program Kernel: @main's 42 items from the launch to the return

## The buffer contents after each item: a fold from the launch memory

A host stretch leaves what its operations compute (the fold of their values over the contents before it); a region leaves
its output arrays at what its pipeline's write-backs leave (the proof data's array after the last point, at the region's
entry contents) and every other buffer as entered. -/

/-- After item 0, the host stretch hostOps0 (region 0's entry contents). -/
def W1 (c : Dev nD) : Valuation τ sig (Elt F) := GenP.V1 m c
/-- What region 0 leaves in main_v1: its window 3's array after the last point's write-back. -/
def o2_main_v1 (c : Dev nD) : Buf (Elt F) ((c : Thread nD τ).loc main_v1) := (dat0 (fun c b => W1 m c b) c).arrAt 3 cfg0.N
/-- After item 1, region 0: its output array at what the pipeline leaves, every other buffer as entered. -/
def W2 (c : Dev nD) : Valuation τ sig (Elt F) := Function.update (W1 m c) main_v1 (o2_main_v1 m c)
/-- After item 2, the host stretch hostOps1. -/
def W3 (c : Dev nD) : Valuation τ sig (Elt F) := StableHlo.after hostOps1 (W2 m c)
/-- What region 1 leaves in main_v3: its window 3's array after the last point's write-back. -/
def o4_main_v3 (c : Dev nD) : Buf (Elt F) ((c : Thread nD τ).loc main_v3) := (dat1 (fun c b => W3 m c b) c).arrAt 3 cfg1.N
/-- After item 3, region 1: its output array at what the pipeline leaves, every other buffer as entered. -/
def W4 (c : Dev nD) : Valuation τ sig (Elt F) := Function.update (W3 m c) main_v3 (o4_main_v3 m c)
/-- After item 4, the host stretch hostOps2. -/
def W5 (c : Dev nD) : Valuation τ sig (Elt F) := StableHlo.after hostOps2 (W4 m c)
/-- What region 2 leaves in main_v23: its window 3's array after the last point's write-back. -/
def o6_main_v23 (c : Dev nD) : Buf (Elt F) ((c : Thread nD τ).loc main_v23) := (dat2 (fun c b => W5 m c b) c).arrAt 3 cfg2.N
/-- After item 5, region 2: its output array at what the pipeline leaves, every other buffer as entered. -/
def W6 (c : Dev nD) : Valuation τ sig (Elt F) := Function.update (W5 m c) main_v23 (o6_main_v23 m c)
/-- After item 6, the host stretch hostOps3. -/
def W7 (c : Dev nD) : Valuation τ sig (Elt F) := StableHlo.after hostOps3 (W6 m c)
/-- What region 3 leaves in main_v54_0: its window 6's array after the last point's write-back. -/
def o8_main_v54_0 (c : Dev nD) : Buf (Elt F) ((c : Thread nD τ).loc main_v54_0) := (dat3 (fun c b => W7 m c b) c).arrAt 6 cfg3.N
/-- What region 3 leaves in main_v54_1: its window 7's array after the last point's write-back. -/
def o8_main_v54_1 (c : Dev nD) : Buf (Elt F) ((c : Thread nD τ).loc main_v54_1) := (dat3 (fun c b => W7 m c b) c).arrAt 7 cfg3.N
/-- What region 3 leaves in main_v54_2: its window 8's array after the last point's write-back. -/
def o8_main_v54_2 (c : Dev nD) : Buf (Elt F) ((c : Thread nD τ).loc main_v54_2) := (dat3 (fun c b => W7 m c b) c).arrAt 8 cfg3.N
/-- After item 7, region 3: its output arrays at what the pipeline leaves, every other buffer as entered. -/
def W8 (c : Dev nD) : Valuation τ sig (Elt F) := Function.update (Function.update (Function.update (W7 m c) main_v54_0 (o8_main_v54_0 m c)) main_v54_1 (o8_main_v54_1 m c)) main_v54_2 (o8_main_v54_2 m c)
/-- After item 8, the host stretch hostOps4. -/
def W9 (c : Dev nD) : Valuation τ sig (Elt F) := StableHlo.after hostOps4 (W8 m c)
/-- After item 9, the host stretch hostOps4_1. -/
def W10 (c : Dev nD) : Valuation τ sig (Elt F) := StableHlo.after hostOps4_1 (W9 m c)
/-- After item 10, the host stretch hostOps4_2. -/
def W11 (c : Dev nD) : Valuation τ sig (Elt F) := StableHlo.after hostOps4_2 (W10 m c)
/-- What region 4 leaves in main_v77: its window 6's array after the last point's write-back. -/
def o12_main_v77 (c : Dev nD) : Buf (Elt F) ((c : Thread nD τ).loc main_v77) := (dat4 (fun c b => W11 m c b) c).arrAt 6 cfg4.N
/-- After item 11, region 4: its output array at what the pipeline leaves, every other buffer as entered. -/
def W12 (c : Dev nD) : Valuation τ sig (Elt F) := Function.update (W11 m c) main_v77 (o12_main_v77 m c)
/-- After item 12, the host stretch hostOps5. -/
def W13 (c : Dev nD) : Valuation τ sig (Elt F) := StableHlo.after hostOps5 (W12 m c)
/-- After item 13, the host stretch hostOps5_1. -/
def W14 (c : Dev nD) : Valuation τ sig (Elt F) := StableHlo.after hostOps5_1 (W13 m c)
/-- After item 14, the host stretch hostOps5_2. -/
def W15 (c : Dev nD) : Valuation τ sig (Elt F) := StableHlo.after hostOps5_2 (W14 m c)
/-- What region 5 leaves in main_v90: its window 6's array after the last point's write-back. -/
def o16_main_v90 (c : Dev nD) : Buf (Elt F) ((c : Thread nD τ).loc main_v90) := (dat5 (fun c b => W15 m c b) c).arrAt 6 cfg5.N
/-- After item 15, region 5: its output array at what the pipeline leaves, every other buffer as entered. -/
def W16 (c : Dev nD) : Valuation τ sig (Elt F) := Function.update (W15 m c) main_v90 (o16_main_v90 m c)
/-- After item 16, the host stretch hostOps6. -/
def W17 (c : Dev nD) : Valuation τ sig (Elt F) := StableHlo.after hostOps6 (W16 m c)
/-- What region 6 leaves in main_v110: its window 3's array after the last point's write-back. -/
def o18_main_v110 (c : Dev nD) : Buf (Elt F) ((c : Thread nD τ).loc main_v110) := (dat6 (fun c b => W17 m c b) c).arrAt 3 cfg6.N
/-- After item 17, region 6: its output array at what the pipeline leaves, every other buffer as entered. -/
def W18 (c : Dev nD) : Valuation τ sig (Elt F) := Function.update (W17 m c) main_v110 (o18_main_v110 m c)
/-- After item 18, the host stretch hostOps7. -/
def W19 (c : Dev nD) : Valuation τ sig (Elt F) := StableHlo.after hostOps7 (W18 m c)
/-- What region 7 leaves in main_v141_0: its window 6's array after the last point's write-back. -/
def o20_main_v141_0 (c : Dev nD) : Buf (Elt F) ((c : Thread nD τ).loc main_v141_0) := (dat7 (fun c b => W19 m c b) c).arrAt 6 cfg7.N
/-- What region 7 leaves in main_v141_1: its window 7's array after the last point's write-back. -/
def o20_main_v141_1 (c : Dev nD) : Buf (Elt F) ((c : Thread nD τ).loc main_v141_1) := (dat7 (fun c b => W19 m c b) c).arrAt 7 cfg7.N
/-- What region 7 leaves in main_v141_2: its window 8's array after the last point's write-back. -/
def o20_main_v141_2 (c : Dev nD) : Buf (Elt F) ((c : Thread nD τ).loc main_v141_2) := (dat7 (fun c b => W19 m c b) c).arrAt 8 cfg7.N
/-- After item 19, region 7: its output arrays at what the pipeline leaves, every other buffer as entered. -/
def W20 (c : Dev nD) : Valuation τ sig (Elt F) := Function.update (Function.update (Function.update (W19 m c) main_v141_0 (o20_main_v141_0 m c)) main_v141_1 (o20_main_v141_1 m c)) main_v141_2 (o20_main_v141_2 m c)
/-- After item 20, the host stretch hostOps8. -/
def W21 (c : Dev nD) : Valuation τ sig (Elt F) := StableHlo.after hostOps8 (W20 m c)
/-- After item 21, the host stretch hostOps8_1. -/
def W22 (c : Dev nD) : Valuation τ sig (Elt F) := StableHlo.after hostOps8_1 (W21 m c)
/-- After item 22, the host stretch hostOps8_2. -/
def W23 (c : Dev nD) : Valuation τ sig (Elt F) := StableHlo.after hostOps8_2 (W22 m c)
/-- What region 8 leaves in main_v164: its window 6's array after the last point's write-back. -/
def o24_main_v164 (c : Dev nD) : Buf (Elt F) ((c : Thread nD τ).loc main_v164) := (dat8 (fun c b => W23 m c b) c).arrAt 6 cfg8.N
/-- After item 23, region 8: its output array at what the pipeline leaves, every other buffer as entered. -/
def W24 (c : Dev nD) : Valuation τ sig (Elt F) := Function.update (W23 m c) main_v164 (o24_main_v164 m c)
/-- After item 24, the host stretch hostOps9. -/
def W25 (c : Dev nD) : Valuation τ sig (Elt F) := StableHlo.after hostOps9 (W24 m c)
/-- After item 25, the host stretch hostOps9_1. -/
def W26 (c : Dev nD) : Valuation τ sig (Elt F) := StableHlo.after hostOps9_1 (W25 m c)
/-- After item 26, the host stretch hostOps9_2. -/
def W27 (c : Dev nD) : Valuation τ sig (Elt F) := StableHlo.after hostOps9_2 (W26 m c)
/-- What region 9 leaves in main_v177: its window 6's array after the last point's write-back. -/
def o28_main_v177 (c : Dev nD) : Buf (Elt F) ((c : Thread nD τ).loc main_v177) := (dat9 (fun c b => W27 m c b) c).arrAt 6 cfg9.N
/-- After item 27, region 9: its output array at what the pipeline leaves, every other buffer as entered. -/
def W28 (c : Dev nD) : Valuation τ sig (Elt F) := Function.update (W27 m c) main_v177 (o28_main_v177 m c)
/-- After item 28, the host stretch hostOps10. -/
def W29 (c : Dev nD) : Valuation τ sig (Elt F) := StableHlo.after hostOps10 (W28 m c)
/-- What region 10 leaves in main_v197: its window 3's array after the last point's write-back. -/
def o30_main_v197 (c : Dev nD) : Buf (Elt F) ((c : Thread nD τ).loc main_v197) := (dat10 (fun c b => W29 m c b) c).arrAt 3 cfg10.N
/-- After item 29, region 10: its output array at what the pipeline leaves, every other buffer as entered. -/
def W30 (c : Dev nD) : Valuation τ sig (Elt F) := Function.update (W29 m c) main_v197 (o30_main_v197 m c)
/-- After item 30, the host stretch hostOps11. -/
def W31 (c : Dev nD) : Valuation τ sig (Elt F) := StableHlo.after hostOps11 (W30 m c)
/-- What region 11 leaves in main_v228_0: its window 6's array after the last point's write-back. -/
def o32_main_v228_0 (c : Dev nD) : Buf (Elt F) ((c : Thread nD τ).loc main_v228_0) := (dat11 (fun c b => W31 m c b) c).arrAt 6 cfg11.N
/-- What region 11 leaves in main_v228_1: its window 7's array after the last point's write-back. -/
def o32_main_v228_1 (c : Dev nD) : Buf (Elt F) ((c : Thread nD τ).loc main_v228_1) := (dat11 (fun c b => W31 m c b) c).arrAt 7 cfg11.N
/-- What region 11 leaves in main_v228_2: its window 8's array after the last point's write-back. -/
def o32_main_v228_2 (c : Dev nD) : Buf (Elt F) ((c : Thread nD τ).loc main_v228_2) := (dat11 (fun c b => W31 m c b) c).arrAt 8 cfg11.N
/-- After item 31, region 11: its output arrays at what the pipeline leaves, every other buffer as entered. -/
def W32 (c : Dev nD) : Valuation τ sig (Elt F) := Function.update (Function.update (Function.update (W31 m c) main_v228_0 (o32_main_v228_0 m c)) main_v228_1 (o32_main_v228_1 m c)) main_v228_2 (o32_main_v228_2 m c)
/-- After item 32, the host stretch hostOps12. -/
def W33 (c : Dev nD) : Valuation τ sig (Elt F) := StableHlo.after hostOps12 (W32 m c)
/-- After item 33, the host stretch hostOps12_1. -/
def W34 (c : Dev nD) : Valuation τ sig (Elt F) := StableHlo.after hostOps12_1 (W33 m c)
/-- After item 34, the host stretch hostOps12_2. -/
def W35 (c : Dev nD) : Valuation τ sig (Elt F) := StableHlo.after hostOps12_2 (W34 m c)
/-- What region 12 leaves in main_v251: its window 6's array after the last point's write-back. -/
def o36_main_v251 (c : Dev nD) : Buf (Elt F) ((c : Thread nD τ).loc main_v251) := (dat12 (fun c b => W35 m c b) c).arrAt 6 cfg12.N
/-- After item 35, region 12: its output array at what the pipeline leaves, every other buffer as entered. -/
def W36 (c : Dev nD) : Valuation τ sig (Elt F) := Function.update (W35 m c) main_v251 (o36_main_v251 m c)
/-- After item 36, the host stretch hostOps13. -/
def W37 (c : Dev nD) : Valuation τ sig (Elt F) := StableHlo.after hostOps13 (W36 m c)
/-- After item 37, the host stretch hostOps13_1. -/
def W38 (c : Dev nD) : Valuation τ sig (Elt F) := StableHlo.after hostOps13_1 (W37 m c)
/-- After item 38, the host stretch hostOps13_2. -/
def W39 (c : Dev nD) : Valuation τ sig (Elt F) := StableHlo.after hostOps13_2 (W38 m c)
/-- What region 13 leaves in main_v264: its window 6's array after the last point's write-back. -/
def o40_main_v264 (c : Dev nD) : Buf (Elt F) ((c : Thread nD τ).loc main_v264) := (dat13 (fun c b => W39 m c b) c).arrAt 6 cfg13.N
/-- After item 39, region 13: its output array at what the pipeline leaves, every other buffer as entered. -/
def W40 (c : Dev nD) : Valuation τ sig (Elt F) := Function.update (W39 m c) main_v264 (o40_main_v264 m c)
/-- After item 40, the host stretch hostOps14. -/
def W41 (c : Dev nD) : Valuation τ sig (Elt F) := StableHlo.after hostOps14 (W40 m c)
/-- What region 14 leaves in main_v281: its window 7's array after the last point's write-back. -/
def o42_main_v281 (c : Dev nD) : Buf (Elt F) ((c : Thread nD τ).loc main_v281) := (dat14 (fun c b => W41 m c b) c).arrAt 7 cfg14.N
/-- After item 41, region 14: its output array at what the pipeline leaves, every other buffer as entered. -/
def W42 (c : Dev nD) : Valuation τ sig (Elt F) := Function.update (W41 m c) main_v281 (o42_main_v281 m c)

/-! ## The regions' outputs as the conditional frame's unknowns -/

/-- What the regions leave, in the shape the conditional frame is stated over: at a region's item, the valuation after it
    (read by the frame only at that region's output arrays). -/
def outs : GenP.Outs (F := F) := fun J r c => match J with
  | 2 => W2 m c r
  | 4 => W4 m c r
  | 6 => W6 m c r
  | 8 => W8 m c r
  | 12 => W12 m c r
  | 16 => W16 m c r
  | 18 => W18 m c r
  | 20 => W20 m c r
  | 24 => W24 m c r
  | 28 => W28 m c r
  | 30 => W30 m c r
  | 32 => W32 m c r
  | 36 => W36 m c r
  | 40 => W40 m c r
  | _ => W42 m c r

theorem outs_2_main_v1 (c : Dev nD) : outs m 2 main_v1 c = o2_main_v1 m c := by
  show W2 m c main_v1 = _
  unfold W2
  rw [Function.update_self]
theorem outs_4_main_v3 (c : Dev nD) : outs m 4 main_v3 c = o4_main_v3 m c := by
  show W4 m c main_v3 = _
  unfold W4
  rw [Function.update_self]
theorem outs_6_main_v23 (c : Dev nD) : outs m 6 main_v23 c = o6_main_v23 m c := by
  show W6 m c main_v23 = _
  unfold W6
  rw [Function.update_self]
theorem outs_8_main_v54_0 (c : Dev nD) : outs m 8 main_v54_0 c = o8_main_v54_0 m c := by
  show W8 m c main_v54_0 = _
  unfold W8
  rw [Function.update_of_ne (StableHlo.devRef_ne_of_ne (by decide : (main_v54_0 : Ref sig .tc) ≠ main_v54_2) : (Proc.devRef .tc main_v54_0 : DevRef τ sig) ≠ Proc.devRef .tc main_v54_2), Function.update_of_ne (StableHlo.devRef_ne_of_ne (by decide : (main_v54_0 : Ref sig .tc) ≠ main_v54_1) : (Proc.devRef .tc main_v54_0 : DevRef τ sig) ≠ Proc.devRef .tc main_v54_1), Function.update_self]
theorem outs_8_main_v54_1 (c : Dev nD) : outs m 8 main_v54_1 c = o8_main_v54_1 m c := by
  show W8 m c main_v54_1 = _
  unfold W8
  rw [Function.update_of_ne (StableHlo.devRef_ne_of_ne (by decide : (main_v54_1 : Ref sig .tc) ≠ main_v54_2) : (Proc.devRef .tc main_v54_1 : DevRef τ sig) ≠ Proc.devRef .tc main_v54_2), Function.update_self]
theorem outs_8_main_v54_2 (c : Dev nD) : outs m 8 main_v54_2 c = o8_main_v54_2 m c := by
  show W8 m c main_v54_2 = _
  unfold W8
  rw [Function.update_self]
theorem outs_12_main_v77 (c : Dev nD) : outs m 12 main_v77 c = o12_main_v77 m c := by
  show W12 m c main_v77 = _
  unfold W12
  rw [Function.update_self]
theorem outs_16_main_v90 (c : Dev nD) : outs m 16 main_v90 c = o16_main_v90 m c := by
  show W16 m c main_v90 = _
  unfold W16
  rw [Function.update_self]
theorem outs_18_main_v110 (c : Dev nD) : outs m 18 main_v110 c = o18_main_v110 m c := by
  show W18 m c main_v110 = _
  unfold W18
  rw [Function.update_self]
theorem outs_20_main_v141_0 (c : Dev nD) : outs m 20 main_v141_0 c = o20_main_v141_0 m c := by
  show W20 m c main_v141_0 = _
  unfold W20
  rw [Function.update_of_ne (StableHlo.devRef_ne_of_ne (by decide : (main_v141_0 : Ref sig .tc) ≠ main_v141_2) : (Proc.devRef .tc main_v141_0 : DevRef τ sig) ≠ Proc.devRef .tc main_v141_2), Function.update_of_ne (StableHlo.devRef_ne_of_ne (by decide : (main_v141_0 : Ref sig .tc) ≠ main_v141_1) : (Proc.devRef .tc main_v141_0 : DevRef τ sig) ≠ Proc.devRef .tc main_v141_1), Function.update_self]
theorem outs_20_main_v141_1 (c : Dev nD) : outs m 20 main_v141_1 c = o20_main_v141_1 m c := by
  show W20 m c main_v141_1 = _
  unfold W20
  rw [Function.update_of_ne (StableHlo.devRef_ne_of_ne (by decide : (main_v141_1 : Ref sig .tc) ≠ main_v141_2) : (Proc.devRef .tc main_v141_1 : DevRef τ sig) ≠ Proc.devRef .tc main_v141_2), Function.update_self]
theorem outs_20_main_v141_2 (c : Dev nD) : outs m 20 main_v141_2 c = o20_main_v141_2 m c := by
  show W20 m c main_v141_2 = _
  unfold W20
  rw [Function.update_self]
theorem outs_24_main_v164 (c : Dev nD) : outs m 24 main_v164 c = o24_main_v164 m c := by
  show W24 m c main_v164 = _
  unfold W24
  rw [Function.update_self]
theorem outs_28_main_v177 (c : Dev nD) : outs m 28 main_v177 c = o28_main_v177 m c := by
  show W28 m c main_v177 = _
  unfold W28
  rw [Function.update_self]
theorem outs_30_main_v197 (c : Dev nD) : outs m 30 main_v197 c = o30_main_v197 m c := by
  show W30 m c main_v197 = _
  unfold W30
  rw [Function.update_self]
theorem outs_32_main_v228_0 (c : Dev nD) : outs m 32 main_v228_0 c = o32_main_v228_0 m c := by
  show W32 m c main_v228_0 = _
  unfold W32
  rw [Function.update_of_ne (StableHlo.devRef_ne_of_ne (by decide : (main_v228_0 : Ref sig .tc) ≠ main_v228_2) : (Proc.devRef .tc main_v228_0 : DevRef τ sig) ≠ Proc.devRef .tc main_v228_2), Function.update_of_ne (StableHlo.devRef_ne_of_ne (by decide : (main_v228_0 : Ref sig .tc) ≠ main_v228_1) : (Proc.devRef .tc main_v228_0 : DevRef τ sig) ≠ Proc.devRef .tc main_v228_1), Function.update_self]
theorem outs_32_main_v228_1 (c : Dev nD) : outs m 32 main_v228_1 c = o32_main_v228_1 m c := by
  show W32 m c main_v228_1 = _
  unfold W32
  rw [Function.update_of_ne (StableHlo.devRef_ne_of_ne (by decide : (main_v228_1 : Ref sig .tc) ≠ main_v228_2) : (Proc.devRef .tc main_v228_1 : DevRef τ sig) ≠ Proc.devRef .tc main_v228_2), Function.update_self]
theorem outs_32_main_v228_2 (c : Dev nD) : outs m 32 main_v228_2 c = o32_main_v228_2 m c := by
  show W32 m c main_v228_2 = _
  unfold W32
  rw [Function.update_self]
theorem outs_36_main_v251 (c : Dev nD) : outs m 36 main_v251 c = o36_main_v251 m c := by
  show W36 m c main_v251 = _
  unfold W36
  rw [Function.update_self]
theorem outs_40_main_v264 (c : Dev nD) : outs m 40 main_v264 c = o40_main_v264 m c := by
  show W40 m c main_v264 = _
  unfold W40
  rw [Function.update_self]
theorem outs_42_main_v281 (c : Dev nD) : outs m 42 main_v281 c = o42_main_v281 m c := by
  show W42 m c main_v281 = _
  unfold W42
  rw [Function.update_self]

/-! ## The conditional frame's valuations, at these outputs, are the fold -/

theorem V1_eq (c : Dev nD) : GenP.V1 m c = W1 m c := rfl
theorem V2_eq (c : Dev nD) : GenP.V2 m (outs m) c = W2 m c := by
  rw [show GenP.V2 m (outs m) c = Function.update (GenP.V1 m c) main_v1 (outs m 2 main_v1 c) from rfl, V1_eq, outs_2_main_v1]; rfl
theorem V3_eq (c : Dev nD) : GenP.V3 m (outs m) c = W3 m c := by
  rw [show GenP.V3 m (outs m) c = StableHlo.after hostOps1 (GenP.V2 m (outs m) c) from rfl, V2_eq]; rfl
theorem V4_eq (c : Dev nD) : GenP.V4 m (outs m) c = W4 m c := by
  rw [show GenP.V4 m (outs m) c = Function.update (GenP.V3 m (outs m) c) main_v3 (outs m 4 main_v3 c) from rfl, V3_eq, outs_4_main_v3]; rfl
theorem V5_eq (c : Dev nD) : GenP.V5 m (outs m) c = W5 m c := by
  rw [show GenP.V5 m (outs m) c = StableHlo.after hostOps2 (GenP.V4 m (outs m) c) from rfl, V4_eq]; rfl
theorem V6_eq (c : Dev nD) : GenP.V6 m (outs m) c = W6 m c := by
  rw [show GenP.V6 m (outs m) c = Function.update (GenP.V5 m (outs m) c) main_v23 (outs m 6 main_v23 c) from rfl, V5_eq, outs_6_main_v23]; rfl
theorem V7_eq (c : Dev nD) : GenP.V7 m (outs m) c = W7 m c := by
  rw [show GenP.V7 m (outs m) c = StableHlo.after hostOps3 (GenP.V6 m (outs m) c) from rfl, V6_eq]; rfl
theorem V8_eq (c : Dev nD) : GenP.V8 m (outs m) c = W8 m c := by
  rw [show GenP.V8 m (outs m) c = Function.update (Function.update (Function.update (GenP.V7 m (outs m) c) main_v54_0 (outs m 8 main_v54_0 c)) main_v54_1 (outs m 8 main_v54_1 c)) main_v54_2 (outs m 8 main_v54_2 c) from rfl, V7_eq, outs_8_main_v54_0, outs_8_main_v54_1, outs_8_main_v54_2]; rfl
theorem V9_eq (c : Dev nD) : GenP.V9 m (outs m) c = W9 m c := by
  rw [show GenP.V9 m (outs m) c = StableHlo.after hostOps4 (GenP.V8 m (outs m) c) from rfl, V8_eq]; rfl
theorem V10_eq (c : Dev nD) : GenP.V10 m (outs m) c = W10 m c := by
  rw [show GenP.V10 m (outs m) c = StableHlo.after hostOps4_1 (GenP.V9 m (outs m) c) from rfl, V9_eq]; rfl
theorem V11_eq (c : Dev nD) : GenP.V11 m (outs m) c = W11 m c := by
  rw [show GenP.V11 m (outs m) c = StableHlo.after hostOps4_2 (GenP.V10 m (outs m) c) from rfl, V10_eq]; rfl
theorem V12_eq (c : Dev nD) : GenP.V12 m (outs m) c = W12 m c := by
  rw [show GenP.V12 m (outs m) c = Function.update (GenP.V11 m (outs m) c) main_v77 (outs m 12 main_v77 c) from rfl, V11_eq, outs_12_main_v77]; rfl
theorem V13_eq (c : Dev nD) : GenP.V13 m (outs m) c = W13 m c := by
  rw [show GenP.V13 m (outs m) c = StableHlo.after hostOps5 (GenP.V12 m (outs m) c) from rfl, V12_eq]; rfl
theorem V14_eq (c : Dev nD) : GenP.V14 m (outs m) c = W14 m c := by
  rw [show GenP.V14 m (outs m) c = StableHlo.after hostOps5_1 (GenP.V13 m (outs m) c) from rfl, V13_eq]; rfl
theorem V15_eq (c : Dev nD) : GenP.V15 m (outs m) c = W15 m c := by
  rw [show GenP.V15 m (outs m) c = StableHlo.after hostOps5_2 (GenP.V14 m (outs m) c) from rfl, V14_eq]; rfl
theorem V16_eq (c : Dev nD) : GenP.V16 m (outs m) c = W16 m c := by
  rw [show GenP.V16 m (outs m) c = Function.update (GenP.V15 m (outs m) c) main_v90 (outs m 16 main_v90 c) from rfl, V15_eq, outs_16_main_v90]; rfl
theorem V17_eq (c : Dev nD) : GenP.V17 m (outs m) c = W17 m c := by
  rw [show GenP.V17 m (outs m) c = StableHlo.after hostOps6 (GenP.V16 m (outs m) c) from rfl, V16_eq]; rfl
theorem V18_eq (c : Dev nD) : GenP.V18 m (outs m) c = W18 m c := by
  rw [show GenP.V18 m (outs m) c = Function.update (GenP.V17 m (outs m) c) main_v110 (outs m 18 main_v110 c) from rfl, V17_eq, outs_18_main_v110]; rfl
theorem V19_eq (c : Dev nD) : GenP.V19 m (outs m) c = W19 m c := by
  rw [show GenP.V19 m (outs m) c = StableHlo.after hostOps7 (GenP.V18 m (outs m) c) from rfl, V18_eq]; rfl
theorem V20_eq (c : Dev nD) : GenP.V20 m (outs m) c = W20 m c := by
  rw [show GenP.V20 m (outs m) c = Function.update (Function.update (Function.update (GenP.V19 m (outs m) c) main_v141_0 (outs m 20 main_v141_0 c)) main_v141_1 (outs m 20 main_v141_1 c)) main_v141_2 (outs m 20 main_v141_2 c) from rfl, V19_eq, outs_20_main_v141_0, outs_20_main_v141_1, outs_20_main_v141_2]; rfl
theorem V21_eq (c : Dev nD) : GenP.V21 m (outs m) c = W21 m c := by
  rw [show GenP.V21 m (outs m) c = StableHlo.after hostOps8 (GenP.V20 m (outs m) c) from rfl, V20_eq]; rfl
theorem V22_eq (c : Dev nD) : GenP.V22 m (outs m) c = W22 m c := by
  rw [show GenP.V22 m (outs m) c = StableHlo.after hostOps8_1 (GenP.V21 m (outs m) c) from rfl, V21_eq]; rfl
theorem V23_eq (c : Dev nD) : GenP.V23 m (outs m) c = W23 m c := by
  rw [show GenP.V23 m (outs m) c = StableHlo.after hostOps8_2 (GenP.V22 m (outs m) c) from rfl, V22_eq]; rfl
theorem V24_eq (c : Dev nD) : GenP.V24 m (outs m) c = W24 m c := by
  rw [show GenP.V24 m (outs m) c = Function.update (GenP.V23 m (outs m) c) main_v164 (outs m 24 main_v164 c) from rfl, V23_eq, outs_24_main_v164]; rfl
theorem V25_eq (c : Dev nD) : GenP.V25 m (outs m) c = W25 m c := by
  rw [show GenP.V25 m (outs m) c = StableHlo.after hostOps9 (GenP.V24 m (outs m) c) from rfl, V24_eq]; rfl
theorem V26_eq (c : Dev nD) : GenP.V26 m (outs m) c = W26 m c := by
  rw [show GenP.V26 m (outs m) c = StableHlo.after hostOps9_1 (GenP.V25 m (outs m) c) from rfl, V25_eq]; rfl
theorem V27_eq (c : Dev nD) : GenP.V27 m (outs m) c = W27 m c := by
  rw [show GenP.V27 m (outs m) c = StableHlo.after hostOps9_2 (GenP.V26 m (outs m) c) from rfl, V26_eq]; rfl
theorem V28_eq (c : Dev nD) : GenP.V28 m (outs m) c = W28 m c := by
  rw [show GenP.V28 m (outs m) c = Function.update (GenP.V27 m (outs m) c) main_v177 (outs m 28 main_v177 c) from rfl, V27_eq, outs_28_main_v177]; rfl
theorem V29_eq (c : Dev nD) : GenP.V29 m (outs m) c = W29 m c := by
  rw [show GenP.V29 m (outs m) c = StableHlo.after hostOps10 (GenP.V28 m (outs m) c) from rfl, V28_eq]; rfl
theorem V30_eq (c : Dev nD) : GenP.V30 m (outs m) c = W30 m c := by
  rw [show GenP.V30 m (outs m) c = Function.update (GenP.V29 m (outs m) c) main_v197 (outs m 30 main_v197 c) from rfl, V29_eq, outs_30_main_v197]; rfl
theorem V31_eq (c : Dev nD) : GenP.V31 m (outs m) c = W31 m c := by
  rw [show GenP.V31 m (outs m) c = StableHlo.after hostOps11 (GenP.V30 m (outs m) c) from rfl, V30_eq]; rfl
theorem V32_eq (c : Dev nD) : GenP.V32 m (outs m) c = W32 m c := by
  rw [show GenP.V32 m (outs m) c = Function.update (Function.update (Function.update (GenP.V31 m (outs m) c) main_v228_0 (outs m 32 main_v228_0 c)) main_v228_1 (outs m 32 main_v228_1 c)) main_v228_2 (outs m 32 main_v228_2 c) from rfl, V31_eq, outs_32_main_v228_0, outs_32_main_v228_1, outs_32_main_v228_2]; rfl
theorem V33_eq (c : Dev nD) : GenP.V33 m (outs m) c = W33 m c := by
  rw [show GenP.V33 m (outs m) c = StableHlo.after hostOps12 (GenP.V32 m (outs m) c) from rfl, V32_eq]; rfl
theorem V34_eq (c : Dev nD) : GenP.V34 m (outs m) c = W34 m c := by
  rw [show GenP.V34 m (outs m) c = StableHlo.after hostOps12_1 (GenP.V33 m (outs m) c) from rfl, V33_eq]; rfl
theorem V35_eq (c : Dev nD) : GenP.V35 m (outs m) c = W35 m c := by
  rw [show GenP.V35 m (outs m) c = StableHlo.after hostOps12_2 (GenP.V34 m (outs m) c) from rfl, V34_eq]; rfl
theorem V36_eq (c : Dev nD) : GenP.V36 m (outs m) c = W36 m c := by
  rw [show GenP.V36 m (outs m) c = Function.update (GenP.V35 m (outs m) c) main_v251 (outs m 36 main_v251 c) from rfl, V35_eq, outs_36_main_v251]; rfl
theorem V37_eq (c : Dev nD) : GenP.V37 m (outs m) c = W37 m c := by
  rw [show GenP.V37 m (outs m) c = StableHlo.after hostOps13 (GenP.V36 m (outs m) c) from rfl, V36_eq]; rfl
theorem V38_eq (c : Dev nD) : GenP.V38 m (outs m) c = W38 m c := by
  rw [show GenP.V38 m (outs m) c = StableHlo.after hostOps13_1 (GenP.V37 m (outs m) c) from rfl, V37_eq]; rfl
theorem V39_eq (c : Dev nD) : GenP.V39 m (outs m) c = W39 m c := by
  rw [show GenP.V39 m (outs m) c = StableHlo.after hostOps13_2 (GenP.V38 m (outs m) c) from rfl, V38_eq]; rfl
theorem V40_eq (c : Dev nD) : GenP.V40 m (outs m) c = W40 m c := by
  rw [show GenP.V40 m (outs m) c = Function.update (GenP.V39 m (outs m) c) main_v264 (outs m 40 main_v264 c) from rfl, V39_eq, outs_40_main_v264]; rfl
theorem V41_eq (c : Dev nD) : GenP.V41 m (outs m) c = W41 m c := by
  rw [show GenP.V41 m (outs m) c = StableHlo.after hostOps14 (GenP.V40 m (outs m) c) from rfl, V40_eq]; rfl
theorem V42_eq (c : Dev nD) : GenP.V42 m (outs m) c = W42 m c := by
  rw [show GenP.V42 m (outs m) c = Function.update (GenP.V41 m (outs m) c) main_v281 (outs m 42 main_v281 c) from rfl, V41_eq, outs_42_main_v281]; rfl

/-! ## The proof data family: every pipeline's data at its region's entry contents -/

/-- Every pipeline's proof data, each at its region's entry contents: a literal case split, so that the family at a numeral
    reduces to that region's data. -/
def pdats : (p : Fin 15) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W11 m c b) c
  | ⟨5, _⟩ => fun c => dat5 (fun c b => W15 m c b) c
  | ⟨6, _⟩ => fun c => dat6 (fun c b => W17 m c b) c
  | ⟨7, _⟩ => fun c => dat7 (fun c b => W19 m c b) c
  | ⟨8, _⟩ => fun c => dat8 (fun c b => W23 m c b) c
  | ⟨9, _⟩ => fun c => dat9 (fun c b => W27 m c b) c
  | ⟨10, _⟩ => fun c => dat10 (fun c b => W29 m c b) c
  | ⟨11, _⟩ => fun c => dat11 (fun c b => W31 m c b) c
  | ⟨12, _⟩ => fun c => dat12 (fun c b => W35 m c b) c
  | ⟨13, _⟩ => fun c => dat13 (fun c b => W39 m c b) c
  | ⟨14, _⟩ => fun c => dat14 (fun c b => W41 m c b) c
  | ⟨_ + 15, h⟩ => absurd h (Nat.not_lt.2 (Nat.le_add_left _ _))

/-! ## At a region's exit: each of its arrays holds what the pipeline leaves, every other buffer what it held at entry -/

-- one case per window, each deciding that the window's array is none of the arrays the region writes
set_option maxHeartbeats 4000000 in
theorem hF0 (c : Dev nD) : ∀ w : Fin cfg0.W, (dat0 (fun c b => W1 m c b) c).arrAt w cfg0.N = W2 m c (Pipeline.arrRef spec0 w)
  | ⟨0, h⟩ => by
    rw [(dat0 (fun c b => W1 m c b) c).arrAt_in ⟨0, h⟩ rfl, A_eq0]
    show W1 m c main_arg0 = W2 m c main_arg0
    unfold W2
    rw [Function.update_of_ne (StableHlo.devRef_ne_of_ne (by decide : (main_arg0 : Ref sig .tc) ≠ main_v1) : (Proc.devRef .tc main_arg0 : DevRef τ sig) ≠ Proc.devRef .tc main_v1)]
  | ⟨1, h⟩ => by
    rw [(dat0 (fun c b => W1 m c b) c).arrAt_in ⟨1, h⟩ rfl, A_eq0]
    show W1 m c main_arg7 = W2 m c main_arg7
    unfold W2
    rw [Function.update_of_ne (StableHlo.devRef_ne_of_ne (by decide : (main_arg7 : Ref sig .tc) ≠ main_v1) : (Proc.devRef .tc main_arg7 : DevRef τ sig) ≠ Proc.devRef .tc main_v1)]
  | ⟨2, h⟩ => by
    rw [(dat0 (fun c b => W1 m c b) c).arrAt_in ⟨2, h⟩ rfl, A_eq0]
    show W1 m c main_v0 = W2 m c main_v0
    unfold W2
    rw [Function.update_of_ne (StableHlo.devRef_ne_of_ne (by decide : (main_v0 : Ref sig .tc) ≠ main_v1) : (Proc.devRef .tc main_v0 : DevRef τ sig) ≠ Proc.devRef .tc main_v1)]
  | ⟨3, h⟩ => by
    show o2_main_v1 m c = W2 m c main_v1
    unfold W2
    rw [Function.update_self]
theorem hrest0 (c : Dev nD) (b : Ref sig .tc) (hb : b ∉ Finset.univ.image (Pipeline.arrRef spec0)) : W2 m c b = W1 m c b := by
  unfold W2
  rw [Function.update_of_ne (StableHlo.devRef_ne_of_ne (fun e => hb (Finset.mem_image.mpr ⟨3, Finset.mem_univ _, e.symm⟩)) : (Proc.devRef .tc b : DevRef τ sig) ≠ Proc.devRef .tc main_v1)]
-- one case per window, each deciding that the window's array is none of the arrays the region writes
set_option maxHeartbeats 4000000 in
theorem hF1 (c : Dev nD) : ∀ w : Fin cfg1.W, (dat1 (fun c b => W3 m c b) c).arrAt w cfg1.N = W4 m c (Pipeline.arrRef spec1 w)
  | ⟨0, h⟩ => by
    rw [(dat1 (fun c b => W3 m c b) c).arrAt_in ⟨0, h⟩ rfl, A_eq1]
    show W3 m c main_arg1 = W4 m c main_arg1
    unfold W4
    rw [Function.update_of_ne (StableHlo.devRef_ne_of_ne (by decide : (main_arg1 : Ref sig .tc) ≠ main_v3) : (Proc.devRef .tc main_arg1 : DevRef τ sig) ≠ Proc.devRef .tc main_v3)]
  | ⟨1, h⟩ => by
    rw [(dat1 (fun c b => W3 m c b) c).arrAt_in ⟨1, h⟩ rfl, A_eq1]
    show W3 m c main_arg9 = W4 m c main_arg9
    unfold W4
    rw [Function.update_of_ne (StableHlo.devRef_ne_of_ne (by decide : (main_arg9 : Ref sig .tc) ≠ main_v3) : (Proc.devRef .tc main_arg9 : DevRef τ sig) ≠ Proc.devRef .tc main_v3)]
  | ⟨2, h⟩ => by
    rw [(dat1 (fun c b => W3 m c b) c).arrAt_in ⟨2, h⟩ rfl, A_eq1]
    show W3 m c main_v2 = W4 m c main_v2
    unfold W4
    rw [Function.update_of_ne (StableHlo.devRef_ne_of_ne (by decide : (main_v2 : Ref sig .tc) ≠ main_v3) : (Proc.devRef .tc main_v2 : DevRef τ sig) ≠ Proc.devRef .tc main_v3)]
  | ⟨3, h⟩ => by
    show o4_main_v3 m c = W4 m c main_v3
    unfold W4
    rw [Function.update_self]
theorem hrest1 (c : Dev nD) (b : Ref sig .tc) (hb : b ∉ Finset.univ.image (Pipeline.arrRef spec1)) : W4 m c b = W3 m c b := by
  unfold W4
  rw [Function.update_of_ne (StableHlo.devRef_ne_of_ne (fun e => hb (Finset.mem_image.mpr ⟨3, Finset.mem_univ _, e.symm⟩)) : (Proc.devRef .tc b : DevRef τ sig) ≠ Proc.devRef .tc main_v3)]
-- one case per window, each deciding that the window's array is none of the arrays the region writes
set_option maxHeartbeats 4000000 in
theorem hF2 (c : Dev nD) : ∀ w : Fin cfg2.W, (dat2 (fun c b => W5 m c b) c).arrAt w cfg2.N = W6 m c (Pipeline.arrRef spec2 w)
  | ⟨0, h⟩ => by
    rw [(dat2 (fun c b => W5 m c b) c).arrAt_in ⟨0, h⟩ rfl, A_eq2]
    show W5 m c main_v1 = W6 m c main_v1
    unfold W6
    rw [Function.update_of_ne (StableHlo.devRef_ne_of_ne (by decide : (main_v1 : Ref sig .tc) ≠ main_v23) : (Proc.devRef .tc main_v1 : DevRef τ sig) ≠ Proc.devRef .tc main_v23)]
  | ⟨1, h⟩ => by
    rw [(dat2 (fun c b => W5 m c b) c).arrAt_in ⟨1, h⟩ rfl, A_eq2]
    show W5 m c main_v12 = W6 m c main_v12
    unfold W6
    rw [Function.update_of_ne (StableHlo.devRef_ne_of_ne (by decide : (main_v12 : Ref sig .tc) ≠ main_v23) : (Proc.devRef .tc main_v12 : DevRef τ sig) ≠ Proc.devRef .tc main_v23)]
  | ⟨2, h⟩ => by
    rw [(dat2 (fun c b => W5 m c b) c).arrAt_in ⟨2, h⟩ rfl, A_eq2]
    show W5 m c main_v22 = W6 m c main_v22
    unfold W6
    rw [Function.update_of_ne (StableHlo.devRef_ne_of_ne (by decide : (main_v22 : Ref sig .tc) ≠ main_v23) : (Proc.devRef .tc main_v22 : DevRef τ sig) ≠ Proc.devRef .tc main_v23)]
  | ⟨3, h⟩ => by
    show o6_main_v23 m c = W6 m c main_v23
    unfold W6
    rw [Function.update_self]
theorem hrest2 (c : Dev nD) (b : Ref sig .tc) (hb : b ∉ Finset.univ.image (Pipeline.arrRef spec2)) : W6 m c b = W5 m c b := by
  unfold W6
  rw [Function.update_of_ne (StableHlo.devRef_ne_of_ne (fun e => hb (Finset.mem_image.mpr ⟨3, Finset.mem_univ _, e.symm⟩)) : (Proc.devRef .tc b : DevRef τ sig) ≠ Proc.devRef .tc main_v23)]
-- one case per window, each deciding that the window's array is none of the arrays the region writes
set_option maxHeartbeats 4000000 in
theorem hF3 (c : Dev nD) : ∀ w : Fin cfg3.W, (dat3 (fun c b => W7 m c b) c).arrAt w cfg3.N = W8 m c (Pipeline.arrRef spec3 w)
  | ⟨0, h⟩ => by
    rw [(dat3 (fun c b => W7 m c b) c).arrAt_in ⟨0, h⟩ rfl, A_eq3]
    show W7 m c main_v3 = W8 m c main_v3
    unfold W8
    rw [Function.update_of_ne (StableHlo.devRef_ne_of_ne (by decide : (main_v3 : Ref sig .tc) ≠ main_v54_2) : (Proc.devRef .tc main_v3 : DevRef τ sig) ≠ Proc.devRef .tc main_v54_2), Function.update_of_ne (StableHlo.devRef_ne_of_ne (by decide : (main_v3 : Ref sig .tc) ≠ main_v54_1) : (Proc.devRef .tc main_v3 : DevRef τ sig) ≠ Proc.devRef .tc main_v54_1), Function.update_of_ne (StableHlo.devRef_ne_of_ne (by decide : (main_v3 : Ref sig .tc) ≠ main_v54_0) : (Proc.devRef .tc main_v3 : DevRef τ sig) ≠ Proc.devRef .tc main_v54_0)]
  | ⟨1, h⟩ => by
    rw [(dat3 (fun c b => W7 m c b) c).arrAt_in ⟨1, h⟩ rfl, A_eq3]
    show W7 m c main_v50 = W8 m c main_v50
    unfold W8
    rw [Function.update_of_ne (StableHlo.devRef_ne_of_ne (by decide : (main_v50 : Ref sig .tc) ≠ main_v54_2) : (Proc.devRef .tc main_v50 : DevRef τ sig) ≠ Proc.devRef .tc main_v54_2), Function.update_of_ne (StableHlo.devRef_ne_of_ne (by decide : (main_v50 : Ref sig .tc) ≠ main_v54_1) : (Proc.devRef .tc main_v50 : DevRef τ sig) ≠ Proc.devRef .tc main_v54_1), Function.update_of_ne (StableHlo.devRef_ne_of_ne (by decide : (main_v50 : Ref sig .tc) ≠ main_v54_0) : (Proc.devRef .tc main_v50 : DevRef τ sig) ≠ Proc.devRef .tc main_v54_0)]
  | ⟨2, h⟩ => by
    rw [(dat3 (fun c b => W7 m c b) c).arrAt_in ⟨2, h⟩ rfl, A_eq3]
    show W7 m c main_v53 = W8 m c main_v53
    unfold W8
    rw [Function.update_of_ne (StableHlo.devRef_ne_of_ne (by decide : (main_v53 : Ref sig .tc) ≠ main_v54_2) : (Proc.devRef .tc main_v53 : DevRef τ sig) ≠ Proc.devRef .tc main_v54_2), Function.update_of_ne (StableHlo.devRef_ne_of_ne (by decide : (main_v53 : Ref sig .tc) ≠ main_v54_1) : (Proc.devRef .tc main_v53 : DevRef τ sig) ≠ Proc.devRef .tc main_v54_1), Function.update_of_ne (StableHlo.devRef_ne_of_ne (by decide : (main_v53 : Ref sig .tc) ≠ main_v54_0) : (Proc.devRef .tc main_v53 : DevRef τ sig) ≠ Proc.devRef .tc main_v54_0)]
  | ⟨3, h⟩ => by
    rw [(dat3 (fun c b => W7 m c b) c).arrAt_in ⟨3, h⟩ rfl, A_eq3]
    show W7 m c main_v34 = W8 m c main_v34
    unfold W8
    rw [Function.update_of_ne (StableHlo.devRef_ne_of_ne (by decide : (main_v34 : Ref sig .tc) ≠ main_v54_2) : (Proc.devRef .tc main_v34 : DevRef τ sig) ≠ Proc.devRef .tc main_v54_2), Function.update_of_ne (StableHlo.devRef_ne_of_ne (by decide : (main_v34 : Ref sig .tc) ≠ main_v54_1) : (Proc.devRef .tc main_v34 : DevRef τ sig) ≠ Proc.devRef .tc main_v54_1), Function.update_of_ne (StableHlo.devRef_ne_of_ne (by decide : (main_v34 : Ref sig .tc) ≠ main_v54_0) : (Proc.devRef .tc main_v34 : DevRef τ sig) ≠ Proc.devRef .tc main_v54_0)]
  | ⟨4, h⟩ => by
    rw [(dat3 (fun c b => W7 m c b) c).arrAt_in ⟨4, h⟩ rfl, A_eq3]
    show W7 m c main_v41 = W8 m c main_v41
    unfold W8
    rw [Function.update_of_ne (StableHlo.devRef_ne_of_ne (by decide : (main_v41 : Ref sig .tc) ≠ main_v54_2) : (Proc.devRef .tc main_v41 : DevRef τ sig) ≠ Proc.devRef .tc main_v54_2), Function.update_of_ne (StableHlo.devRef_ne_of_ne (by decide : (main_v41 : Ref sig .tc) ≠ main_v54_1) : (Proc.devRef .tc main_v41 : DevRef τ sig) ≠ Proc.devRef .tc main_v54_1), Function.update_of_ne (StableHlo.devRef_ne_of_ne (by decide : (main_v41 : Ref sig .tc) ≠ main_v54_0) : (Proc.devRef .tc main_v41 : DevRef τ sig) ≠ Proc.devRef .tc main_v54_0)]
  | ⟨5, h⟩ => by
    rw [(dat3 (fun c b => W7 m c b) c).arrAt_in ⟨5, h⟩ rfl, A_eq3]
    show W7 m c main_v48 = W8 m c main_v48
    unfold W8
    rw [Function.update_of_ne (StableHlo.devRef_ne_of_ne (by decide : (main_v48 : Ref sig .tc) ≠ main_v54_2) : (Proc.devRef .tc main_v48 : DevRef τ sig) ≠ Proc.devRef .tc main_v54_2), Function.update_of_ne (StableHlo.devRef_ne_of_ne (by decide : (main_v48 : Ref sig .tc) ≠ main_v54_1) : (Proc.devRef .tc main_v48 : DevRef τ sig) ≠ Proc.devRef .tc main_v54_1), Function.update_of_ne (StableHlo.devRef_ne_of_ne (by decide : (main_v48 : Ref sig .tc) ≠ main_v54_0) : (Proc.devRef .tc main_v48 : DevRef τ sig) ≠ Proc.devRef .tc main_v54_0)]
  | ⟨6, h⟩ => by
    show o8_main_v54_0 m c = W8 m c main_v54_0
    unfold W8
    rw [Function.update_of_ne (StableHlo.devRef_ne_of_ne (by decide : (main_v54_0 : Ref sig .tc) ≠ main_v54_2) : (Proc.devRef .tc main_v54_0 : DevRef τ sig) ≠ Proc.devRef .tc main_v54_2), Function.update_of_ne (StableHlo.devRef_ne_of_ne (by decide : (main_v54_0 : Ref sig .tc) ≠ main_v54_1) : (Proc.devRef .tc main_v54_0 : DevRef τ sig) ≠ Proc.devRef .tc main_v54_1), Function.update_self]
  | ⟨7, h⟩ => by
    show o8_main_v54_1 m c = W8 m c main_v54_1
    unfold W8
    rw [Function.update_of_ne (StableHlo.devRef_ne_of_ne (by decide : (main_v54_1 : Ref sig .tc) ≠ main_v54_2) : (Proc.devRef .tc main_v54_1 : DevRef τ sig) ≠ Proc.devRef .tc main_v54_2), Function.update_self]
  | ⟨8, h⟩ => by
    show o8_main_v54_2 m c = W8 m c main_v54_2
    unfold W8
    rw [Function.update_self]
theorem hrest3 (c : Dev nD) (b : Ref sig .tc) (hb : b ∉ Finset.univ.image (Pipeline.arrRef spec3)) : W8 m c b = W7 m c b := by
  unfold W8
  rw [Function.update_of_ne (StableHlo.devRef_ne_of_ne (fun e => hb (Finset.mem_image.mpr ⟨8, Finset.mem_univ _, e.symm⟩)) : (Proc.devRef .tc b : DevRef τ sig) ≠ Proc.devRef .tc main_v54_2), Function.update_of_ne (StableHlo.devRef_ne_of_ne (fun e => hb (Finset.mem_image.mpr ⟨7, Finset.mem_univ _, e.symm⟩)) : (Proc.devRef .tc b : DevRef τ sig) ≠ Proc.devRef .tc main_v54_1), Function.update_of_ne (StableHlo.devRef_ne_of_ne (fun e => hb (Finset.mem_image.mpr ⟨6, Finset.mem_univ _, e.symm⟩)) : (Proc.devRef .tc b : DevRef τ sig) ≠ Proc.devRef .tc main_v54_0)]
-- one case per window, each deciding that the window's array is none of the arrays the region writes
set_option maxHeartbeats 4000000 in
theorem hF4 (c : Dev nD) : ∀ w : Fin cfg4.W, (dat4 (fun c b => W11 m c b) c).arrAt w cfg4.N = W12 m c (Pipeline.arrRef spec4 w)
  | ⟨0, h⟩ => by
    rw [(dat4 (fun c b => W11 m c b) c).arrAt_in ⟨0, h⟩ rfl, A_eq4]
    show W11 m c main_v64 = W12 m c main_v64
    unfold W12
    rw [Function.update_of_ne (StableHlo.devRef_ne_of_ne (by decide : (main_v64 : Ref sig .tc) ≠ main_v77) : (Proc.devRef .tc main_v64 : DevRef τ sig) ≠ Proc.devRef .tc main_v77)]
  | ⟨1, h⟩ => by
    rw [(dat4 (fun c b => W11 m c b) c).arrAt_in ⟨1, h⟩ rfl, A_eq4]
    show W11 m c main_v73 = W12 m c main_v73
    unfold W12
    rw [Function.update_of_ne (StableHlo.devRef_ne_of_ne (by decide : (main_v73 : Ref sig .tc) ≠ main_v77) : (Proc.devRef .tc main_v73 : DevRef τ sig) ≠ Proc.devRef .tc main_v77)]
  | ⟨2, h⟩ => by
    rw [(dat4 (fun c b => W11 m c b) c).arrAt_in ⟨2, h⟩ rfl, A_eq4]
    show W11 m c main_v74 = W12 m c main_v74
    unfold W12
    rw [Function.update_of_ne (StableHlo.devRef_ne_of_ne (by decide : (main_v74 : Ref sig .tc) ≠ main_v77) : (Proc.devRef .tc main_v74 : DevRef τ sig) ≠ Proc.devRef .tc main_v77)]
  | ⟨3, h⟩ => by
    rw [(dat4 (fun c b => W11 m c b) c).arrAt_in ⟨3, h⟩ rfl, A_eq4]
    show W11 m c main_v75 = W12 m c main_v75
    unfold W12
    rw [Function.update_of_ne (StableHlo.devRef_ne_of_ne (by decide : (main_v75 : Ref sig .tc) ≠ main_v77) : (Proc.devRef .tc main_v75 : DevRef τ sig) ≠ Proc.devRef .tc main_v77)]
  | ⟨4, h⟩ => by
    rw [(dat4 (fun c b => W11 m c b) c).arrAt_in ⟨4, h⟩ rfl, A_eq4]
    show W11 m c main_v76 = W12 m c main_v76
    unfold W12
    rw [Function.update_of_ne (StableHlo.devRef_ne_of_ne (by decide : (main_v76 : Ref sig .tc) ≠ main_v77) : (Proc.devRef .tc main_v76 : DevRef τ sig) ≠ Proc.devRef .tc main_v77)]
  | ⟨5, h⟩ => by
    rw [(dat4 (fun c b => W11 m c b) c).arrAt_in ⟨5, h⟩ rfl, A_eq4]
    show W11 m c main_v1 = W12 m c main_v1
    unfold W12
    rw [Function.update_of_ne (StableHlo.devRef_ne_of_ne (by decide : (main_v1 : Ref sig .tc) ≠ main_v77) : (Proc.devRef .tc main_v1 : DevRef τ sig) ≠ Proc.devRef .tc main_v77)]
  | ⟨6, h⟩ => by
    show o12_main_v77 m c = W12 m c main_v77
    unfold W12
    rw [Function.update_self]
theorem hrest4 (c : Dev nD) (b : Ref sig .tc) (hb : b ∉ Finset.univ.image (Pipeline.arrRef spec4)) : W12 m c b = W11 m c b := by
  unfold W12
  rw [Function.update_of_ne (StableHlo.devRef_ne_of_ne (fun e => hb (Finset.mem_image.mpr ⟨6, Finset.mem_univ _, e.symm⟩)) : (Proc.devRef .tc b : DevRef τ sig) ≠ Proc.devRef .tc main_v77)]
-- one case per window, each deciding that the window's array is none of the arrays the region writes
set_option maxHeartbeats 4000000 in
theorem hF5 (c : Dev nD) : ∀ w : Fin cfg5.W, (dat5 (fun c b => W15 m c b) c).arrAt w cfg5.N = W16 m c (Pipeline.arrRef spec5 w)
  | ⟨0, h⟩ => by
    rw [(dat5 (fun c b => W15 m c b) c).arrAt_in ⟨0, h⟩ rfl, A_eq5]
    show W15 m c main_v54_0 = W16 m c main_v54_0
    unfold W16
    rw [Function.update_of_ne (StableHlo.devRef_ne_of_ne (by decide : (main_v54_0 : Ref sig .tc) ≠ main_v90) : (Proc.devRef .tc main_v54_0 : DevRef τ sig) ≠ Proc.devRef .tc main_v90)]
  | ⟨1, h⟩ => by
    rw [(dat5 (fun c b => W15 m c b) c).arrAt_in ⟨1, h⟩ rfl, A_eq5]
    show W15 m c main_v86 = W16 m c main_v86
    unfold W16
    rw [Function.update_of_ne (StableHlo.devRef_ne_of_ne (by decide : (main_v86 : Ref sig .tc) ≠ main_v90) : (Proc.devRef .tc main_v86 : DevRef τ sig) ≠ Proc.devRef .tc main_v90)]
  | ⟨2, h⟩ => by
    rw [(dat5 (fun c b => W15 m c b) c).arrAt_in ⟨2, h⟩ rfl, A_eq5]
    show W15 m c main_v87 = W16 m c main_v87
    unfold W16
    rw [Function.update_of_ne (StableHlo.devRef_ne_of_ne (by decide : (main_v87 : Ref sig .tc) ≠ main_v90) : (Proc.devRef .tc main_v87 : DevRef τ sig) ≠ Proc.devRef .tc main_v90)]
  | ⟨3, h⟩ => by
    rw [(dat5 (fun c b => W15 m c b) c).arrAt_in ⟨3, h⟩ rfl, A_eq5]
    show W15 m c main_v88 = W16 m c main_v88
    unfold W16
    rw [Function.update_of_ne (StableHlo.devRef_ne_of_ne (by decide : (main_v88 : Ref sig .tc) ≠ main_v90) : (Proc.devRef .tc main_v88 : DevRef τ sig) ≠ Proc.devRef .tc main_v90)]
  | ⟨4, h⟩ => by
    rw [(dat5 (fun c b => W15 m c b) c).arrAt_in ⟨4, h⟩ rfl, A_eq5]
    show W15 m c main_v89 = W16 m c main_v89
    unfold W16
    rw [Function.update_of_ne (StableHlo.devRef_ne_of_ne (by decide : (main_v89 : Ref sig .tc) ≠ main_v90) : (Proc.devRef .tc main_v89 : DevRef τ sig) ≠ Proc.devRef .tc main_v90)]
  | ⟨5, h⟩ => by
    rw [(dat5 (fun c b => W15 m c b) c).arrAt_in ⟨5, h⟩ rfl, A_eq5]
    show W15 m c main_v3 = W16 m c main_v3
    unfold W16
    rw [Function.update_of_ne (StableHlo.devRef_ne_of_ne (by decide : (main_v3 : Ref sig .tc) ≠ main_v90) : (Proc.devRef .tc main_v3 : DevRef τ sig) ≠ Proc.devRef .tc main_v90)]
  | ⟨6, h⟩ => by
    show o16_main_v90 m c = W16 m c main_v90
    unfold W16
    rw [Function.update_self]
theorem hrest5 (c : Dev nD) (b : Ref sig .tc) (hb : b ∉ Finset.univ.image (Pipeline.arrRef spec5)) : W16 m c b = W15 m c b := by
  unfold W16
  rw [Function.update_of_ne (StableHlo.devRef_ne_of_ne (fun e => hb (Finset.mem_image.mpr ⟨6, Finset.mem_univ _, e.symm⟩)) : (Proc.devRef .tc b : DevRef τ sig) ≠ Proc.devRef .tc main_v90)]
-- one case per window, each deciding that the window's array is none of the arrays the region writes
set_option maxHeartbeats 4000000 in
theorem hF6 (c : Dev nD) : ∀ w : Fin cfg6.W, (dat6 (fun c b => W17 m c b) c).arrAt w cfg6.N = W18 m c (Pipeline.arrRef spec6 w)
  | ⟨0, h⟩ => by
    rw [(dat6 (fun c b => W17 m c b) c).arrAt_in ⟨0, h⟩ rfl, A_eq6]
    show W17 m c main_v77 = W18 m c main_v77
    unfold W18
    rw [Function.update_of_ne (StableHlo.devRef_ne_of_ne (by decide : (main_v77 : Ref sig .tc) ≠ main_v110) : (Proc.devRef .tc main_v77 : DevRef τ sig) ≠ Proc.devRef .tc main_v110)]
  | ⟨1, h⟩ => by
    rw [(dat6 (fun c b => W17 m c b) c).arrAt_in ⟨1, h⟩ rfl, A_eq6]
    show W17 m c main_v99 = W18 m c main_v99
    unfold W18
    rw [Function.update_of_ne (StableHlo.devRef_ne_of_ne (by decide : (main_v99 : Ref sig .tc) ≠ main_v110) : (Proc.devRef .tc main_v99 : DevRef τ sig) ≠ Proc.devRef .tc main_v110)]
  | ⟨2, h⟩ => by
    rw [(dat6 (fun c b => W17 m c b) c).arrAt_in ⟨2, h⟩ rfl, A_eq6]
    show W17 m c main_v109 = W18 m c main_v109
    unfold W18
    rw [Function.update_of_ne (StableHlo.devRef_ne_of_ne (by decide : (main_v109 : Ref sig .tc) ≠ main_v110) : (Proc.devRef .tc main_v109 : DevRef τ sig) ≠ Proc.devRef .tc main_v110)]
  | ⟨3, h⟩ => by
    show o18_main_v110 m c = W18 m c main_v110
    unfold W18
    rw [Function.update_self]
theorem hrest6 (c : Dev nD) (b : Ref sig .tc) (hb : b ∉ Finset.univ.image (Pipeline.arrRef spec6)) : W18 m c b = W17 m c b := by
  unfold W18
  rw [Function.update_of_ne (StableHlo.devRef_ne_of_ne (fun e => hb (Finset.mem_image.mpr ⟨3, Finset.mem_univ _, e.symm⟩)) : (Proc.devRef .tc b : DevRef τ sig) ≠ Proc.devRef .tc main_v110)]
-- one case per window, each deciding that the window's array is none of the arrays the region writes
set_option maxHeartbeats 4000000 in
theorem hF7 (c : Dev nD) : ∀ w : Fin cfg7.W, (dat7 (fun c b => W19 m c b) c).arrAt w cfg7.N = W20 m c (Pipeline.arrRef spec7 w)
  | ⟨0, h⟩ => by
    rw [(dat7 (fun c b => W19 m c b) c).arrAt_in ⟨0, h⟩ rfl, A_eq7]
    show W19 m c main_v90 = W20 m c main_v90
    unfold W20
    rw [Function.update_of_ne (StableHlo.devRef_ne_of_ne (by decide : (main_v90 : Ref sig .tc) ≠ main_v141_2) : (Proc.devRef .tc main_v90 : DevRef τ sig) ≠ Proc.devRef .tc main_v141_2), Function.update_of_ne (StableHlo.devRef_ne_of_ne (by decide : (main_v90 : Ref sig .tc) ≠ main_v141_1) : (Proc.devRef .tc main_v90 : DevRef τ sig) ≠ Proc.devRef .tc main_v141_1), Function.update_of_ne (StableHlo.devRef_ne_of_ne (by decide : (main_v90 : Ref sig .tc) ≠ main_v141_0) : (Proc.devRef .tc main_v90 : DevRef τ sig) ≠ Proc.devRef .tc main_v141_0)]
  | ⟨1, h⟩ => by
    rw [(dat7 (fun c b => W19 m c b) c).arrAt_in ⟨1, h⟩ rfl, A_eq7]
    show W19 m c main_v137 = W20 m c main_v137
    unfold W20
    rw [Function.update_of_ne (StableHlo.devRef_ne_of_ne (by decide : (main_v137 : Ref sig .tc) ≠ main_v141_2) : (Proc.devRef .tc main_v137 : DevRef τ sig) ≠ Proc.devRef .tc main_v141_2), Function.update_of_ne (StableHlo.devRef_ne_of_ne (by decide : (main_v137 : Ref sig .tc) ≠ main_v141_1) : (Proc.devRef .tc main_v137 : DevRef τ sig) ≠ Proc.devRef .tc main_v141_1), Function.update_of_ne (StableHlo.devRef_ne_of_ne (by decide : (main_v137 : Ref sig .tc) ≠ main_v141_0) : (Proc.devRef .tc main_v137 : DevRef τ sig) ≠ Proc.devRef .tc main_v141_0)]
  | ⟨2, h⟩ => by
    rw [(dat7 (fun c b => W19 m c b) c).arrAt_in ⟨2, h⟩ rfl, A_eq7]
    show W19 m c main_v140 = W20 m c main_v140
    unfold W20
    rw [Function.update_of_ne (StableHlo.devRef_ne_of_ne (by decide : (main_v140 : Ref sig .tc) ≠ main_v141_2) : (Proc.devRef .tc main_v140 : DevRef τ sig) ≠ Proc.devRef .tc main_v141_2), Function.update_of_ne (StableHlo.devRef_ne_of_ne (by decide : (main_v140 : Ref sig .tc) ≠ main_v141_1) : (Proc.devRef .tc main_v140 : DevRef τ sig) ≠ Proc.devRef .tc main_v141_1), Function.update_of_ne (StableHlo.devRef_ne_of_ne (by decide : (main_v140 : Ref sig .tc) ≠ main_v141_0) : (Proc.devRef .tc main_v140 : DevRef τ sig) ≠ Proc.devRef .tc main_v141_0)]
  | ⟨3, h⟩ => by
    rw [(dat7 (fun c b => W19 m c b) c).arrAt_in ⟨3, h⟩ rfl, A_eq7]
    show W19 m c main_v121 = W20 m c main_v121
    unfold W20
    rw [Function.update_of_ne (StableHlo.devRef_ne_of_ne (by decide : (main_v121 : Ref sig .tc) ≠ main_v141_2) : (Proc.devRef .tc main_v121 : DevRef τ sig) ≠ Proc.devRef .tc main_v141_2), Function.update_of_ne (StableHlo.devRef_ne_of_ne (by decide : (main_v121 : Ref sig .tc) ≠ main_v141_1) : (Proc.devRef .tc main_v121 : DevRef τ sig) ≠ Proc.devRef .tc main_v141_1), Function.update_of_ne (StableHlo.devRef_ne_of_ne (by decide : (main_v121 : Ref sig .tc) ≠ main_v141_0) : (Proc.devRef .tc main_v121 : DevRef τ sig) ≠ Proc.devRef .tc main_v141_0)]
  | ⟨4, h⟩ => by
    rw [(dat7 (fun c b => W19 m c b) c).arrAt_in ⟨4, h⟩ rfl, A_eq7]
    show W19 m c main_v128 = W20 m c main_v128
    unfold W20
    rw [Function.update_of_ne (StableHlo.devRef_ne_of_ne (by decide : (main_v128 : Ref sig .tc) ≠ main_v141_2) : (Proc.devRef .tc main_v128 : DevRef τ sig) ≠ Proc.devRef .tc main_v141_2), Function.update_of_ne (StableHlo.devRef_ne_of_ne (by decide : (main_v128 : Ref sig .tc) ≠ main_v141_1) : (Proc.devRef .tc main_v128 : DevRef τ sig) ≠ Proc.devRef .tc main_v141_1), Function.update_of_ne (StableHlo.devRef_ne_of_ne (by decide : (main_v128 : Ref sig .tc) ≠ main_v141_0) : (Proc.devRef .tc main_v128 : DevRef τ sig) ≠ Proc.devRef .tc main_v141_0)]
  | ⟨5, h⟩ => by
    rw [(dat7 (fun c b => W19 m c b) c).arrAt_in ⟨5, h⟩ rfl, A_eq7]
    show W19 m c main_v135 = W20 m c main_v135
    unfold W20
    rw [Function.update_of_ne (StableHlo.devRef_ne_of_ne (by decide : (main_v135 : Ref sig .tc) ≠ main_v141_2) : (Proc.devRef .tc main_v135 : DevRef τ sig) ≠ Proc.devRef .tc main_v141_2), Function.update_of_ne (StableHlo.devRef_ne_of_ne (by decide : (main_v135 : Ref sig .tc) ≠ main_v141_1) : (Proc.devRef .tc main_v135 : DevRef τ sig) ≠ Proc.devRef .tc main_v141_1), Function.update_of_ne (StableHlo.devRef_ne_of_ne (by decide : (main_v135 : Ref sig .tc) ≠ main_v141_0) : (Proc.devRef .tc main_v135 : DevRef τ sig) ≠ Proc.devRef .tc main_v141_0)]
  | ⟨6, h⟩ => by
    show o20_main_v141_0 m c = W20 m c main_v141_0
    unfold W20
    rw [Function.update_of_ne (StableHlo.devRef_ne_of_ne (by decide : (main_v141_0 : Ref sig .tc) ≠ main_v141_2) : (Proc.devRef .tc main_v141_0 : DevRef τ sig) ≠ Proc.devRef .tc main_v141_2), Function.update_of_ne (StableHlo.devRef_ne_of_ne (by decide : (main_v141_0 : Ref sig .tc) ≠ main_v141_1) : (Proc.devRef .tc main_v141_0 : DevRef τ sig) ≠ Proc.devRef .tc main_v141_1), Function.update_self]
  | ⟨7, h⟩ => by
    show o20_main_v141_1 m c = W20 m c main_v141_1
    unfold W20
    rw [Function.update_of_ne (StableHlo.devRef_ne_of_ne (by decide : (main_v141_1 : Ref sig .tc) ≠ main_v141_2) : (Proc.devRef .tc main_v141_1 : DevRef τ sig) ≠ Proc.devRef .tc main_v141_2), Function.update_self]
  | ⟨8, h⟩ => by
    show o20_main_v141_2 m c = W20 m c main_v141_2
    unfold W20
    rw [Function.update_self]
theorem hrest7 (c : Dev nD) (b : Ref sig .tc) (hb : b ∉ Finset.univ.image (Pipeline.arrRef spec7)) : W20 m c b = W19 m c b := by
  unfold W20
  rw [Function.update_of_ne (StableHlo.devRef_ne_of_ne (fun e => hb (Finset.mem_image.mpr ⟨8, Finset.mem_univ _, e.symm⟩)) : (Proc.devRef .tc b : DevRef τ sig) ≠ Proc.devRef .tc main_v141_2), Function.update_of_ne (StableHlo.devRef_ne_of_ne (fun e => hb (Finset.mem_image.mpr ⟨7, Finset.mem_univ _, e.symm⟩)) : (Proc.devRef .tc b : DevRef τ sig) ≠ Proc.devRef .tc main_v141_1), Function.update_of_ne (StableHlo.devRef_ne_of_ne (fun e => hb (Finset.mem_image.mpr ⟨6, Finset.mem_univ _, e.symm⟩)) : (Proc.devRef .tc b : DevRef τ sig) ≠ Proc.devRef .tc main_v141_0)]
-- one case per window, each deciding that the window's array is none of the arrays the region writes
set_option maxHeartbeats 4000000 in
theorem hF8 (c : Dev nD) : ∀ w : Fin cfg8.W, (dat8 (fun c b => W23 m c b) c).arrAt w cfg8.N = W24 m c (Pipeline.arrRef spec8 w)
  | ⟨0, h⟩ => by
    rw [(dat8 (fun c b => W23 m c b) c).arrAt_in ⟨0, h⟩ rfl, A_eq8]
    show W23 m c main_v151 = W24 m c main_v151
    unfold W24
    rw [Function.update_of_ne (StableHlo.devRef_ne_of_ne (by decide : (main_v151 : Ref sig .tc) ≠ main_v164) : (Proc.devRef .tc main_v151 : DevRef τ sig) ≠ Proc.devRef .tc main_v164)]
  | ⟨1, h⟩ => by
    rw [(dat8 (fun c b => W23 m c b) c).arrAt_in ⟨1, h⟩ rfl, A_eq8]
    show W23 m c main_v160 = W24 m c main_v160
    unfold W24
    rw [Function.update_of_ne (StableHlo.devRef_ne_of_ne (by decide : (main_v160 : Ref sig .tc) ≠ main_v164) : (Proc.devRef .tc main_v160 : DevRef τ sig) ≠ Proc.devRef .tc main_v164)]
  | ⟨2, h⟩ => by
    rw [(dat8 (fun c b => W23 m c b) c).arrAt_in ⟨2, h⟩ rfl, A_eq8]
    show W23 m c main_v161 = W24 m c main_v161
    unfold W24
    rw [Function.update_of_ne (StableHlo.devRef_ne_of_ne (by decide : (main_v161 : Ref sig .tc) ≠ main_v164) : (Proc.devRef .tc main_v161 : DevRef τ sig) ≠ Proc.devRef .tc main_v164)]
  | ⟨3, h⟩ => by
    rw [(dat8 (fun c b => W23 m c b) c).arrAt_in ⟨3, h⟩ rfl, A_eq8]
    show W23 m c main_v162 = W24 m c main_v162
    unfold W24
    rw [Function.update_of_ne (StableHlo.devRef_ne_of_ne (by decide : (main_v162 : Ref sig .tc) ≠ main_v164) : (Proc.devRef .tc main_v162 : DevRef τ sig) ≠ Proc.devRef .tc main_v164)]
  | ⟨4, h⟩ => by
    rw [(dat8 (fun c b => W23 m c b) c).arrAt_in ⟨4, h⟩ rfl, A_eq8]
    show W23 m c main_v163 = W24 m c main_v163
    unfold W24
    rw [Function.update_of_ne (StableHlo.devRef_ne_of_ne (by decide : (main_v163 : Ref sig .tc) ≠ main_v164) : (Proc.devRef .tc main_v163 : DevRef τ sig) ≠ Proc.devRef .tc main_v164)]
  | ⟨5, h⟩ => by
    rw [(dat8 (fun c b => W23 m c b) c).arrAt_in ⟨5, h⟩ rfl, A_eq8]
    show W23 m c main_v77 = W24 m c main_v77
    unfold W24
    rw [Function.update_of_ne (StableHlo.devRef_ne_of_ne (by decide : (main_v77 : Ref sig .tc) ≠ main_v164) : (Proc.devRef .tc main_v77 : DevRef τ sig) ≠ Proc.devRef .tc main_v164)]
  | ⟨6, h⟩ => by
    show o24_main_v164 m c = W24 m c main_v164
    unfold W24
    rw [Function.update_self]
theorem hrest8 (c : Dev nD) (b : Ref sig .tc) (hb : b ∉ Finset.univ.image (Pipeline.arrRef spec8)) : W24 m c b = W23 m c b := by
  unfold W24
  rw [Function.update_of_ne (StableHlo.devRef_ne_of_ne (fun e => hb (Finset.mem_image.mpr ⟨6, Finset.mem_univ _, e.symm⟩)) : (Proc.devRef .tc b : DevRef τ sig) ≠ Proc.devRef .tc main_v164)]
-- one case per window, each deciding that the window's array is none of the arrays the region writes
set_option maxHeartbeats 4000000 in
theorem hF9 (c : Dev nD) : ∀ w : Fin cfg9.W, (dat9 (fun c b => W27 m c b) c).arrAt w cfg9.N = W28 m c (Pipeline.arrRef spec9 w)
  | ⟨0, h⟩ => by
    rw [(dat9 (fun c b => W27 m c b) c).arrAt_in ⟨0, h⟩ rfl, A_eq9]
    show W27 m c main_v141_0 = W28 m c main_v141_0
    unfold W28
    rw [Function.update_of_ne (StableHlo.devRef_ne_of_ne (by decide : (main_v141_0 : Ref sig .tc) ≠ main_v177) : (Proc.devRef .tc main_v141_0 : DevRef τ sig) ≠ Proc.devRef .tc main_v177)]
  | ⟨1, h⟩ => by
    rw [(dat9 (fun c b => W27 m c b) c).arrAt_in ⟨1, h⟩ rfl, A_eq9]
    show W27 m c main_v173 = W28 m c main_v173
    unfold W28
    rw [Function.update_of_ne (StableHlo.devRef_ne_of_ne (by decide : (main_v173 : Ref sig .tc) ≠ main_v177) : (Proc.devRef .tc main_v173 : DevRef τ sig) ≠ Proc.devRef .tc main_v177)]
  | ⟨2, h⟩ => by
    rw [(dat9 (fun c b => W27 m c b) c).arrAt_in ⟨2, h⟩ rfl, A_eq9]
    show W27 m c main_v174 = W28 m c main_v174
    unfold W28
    rw [Function.update_of_ne (StableHlo.devRef_ne_of_ne (by decide : (main_v174 : Ref sig .tc) ≠ main_v177) : (Proc.devRef .tc main_v174 : DevRef τ sig) ≠ Proc.devRef .tc main_v177)]
  | ⟨3, h⟩ => by
    rw [(dat9 (fun c b => W27 m c b) c).arrAt_in ⟨3, h⟩ rfl, A_eq9]
    show W27 m c main_v175 = W28 m c main_v175
    unfold W28
    rw [Function.update_of_ne (StableHlo.devRef_ne_of_ne (by decide : (main_v175 : Ref sig .tc) ≠ main_v177) : (Proc.devRef .tc main_v175 : DevRef τ sig) ≠ Proc.devRef .tc main_v177)]
  | ⟨4, h⟩ => by
    rw [(dat9 (fun c b => W27 m c b) c).arrAt_in ⟨4, h⟩ rfl, A_eq9]
    show W27 m c main_v176 = W28 m c main_v176
    unfold W28
    rw [Function.update_of_ne (StableHlo.devRef_ne_of_ne (by decide : (main_v176 : Ref sig .tc) ≠ main_v177) : (Proc.devRef .tc main_v176 : DevRef τ sig) ≠ Proc.devRef .tc main_v177)]
  | ⟨5, h⟩ => by
    rw [(dat9 (fun c b => W27 m c b) c).arrAt_in ⟨5, h⟩ rfl, A_eq9]
    show W27 m c main_v90 = W28 m c main_v90
    unfold W28
    rw [Function.update_of_ne (StableHlo.devRef_ne_of_ne (by decide : (main_v90 : Ref sig .tc) ≠ main_v177) : (Proc.devRef .tc main_v90 : DevRef τ sig) ≠ Proc.devRef .tc main_v177)]
  | ⟨6, h⟩ => by
    show o28_main_v177 m c = W28 m c main_v177
    unfold W28
    rw [Function.update_self]
theorem hrest9 (c : Dev nD) (b : Ref sig .tc) (hb : b ∉ Finset.univ.image (Pipeline.arrRef spec9)) : W28 m c b = W27 m c b := by
  unfold W28
  rw [Function.update_of_ne (StableHlo.devRef_ne_of_ne (fun e => hb (Finset.mem_image.mpr ⟨6, Finset.mem_univ _, e.symm⟩)) : (Proc.devRef .tc b : DevRef τ sig) ≠ Proc.devRef .tc main_v177)]
-- one case per window, each deciding that the window's array is none of the arrays the region writes
set_option maxHeartbeats 4000000 in
theorem hF10 (c : Dev nD) : ∀ w : Fin cfg10.W, (dat10 (fun c b => W29 m c b) c).arrAt w cfg10.N = W30 m c (Pipeline.arrRef spec10 w)
  | ⟨0, h⟩ => by
    rw [(dat10 (fun c b => W29 m c b) c).arrAt_in ⟨0, h⟩ rfl, A_eq10]
    show W29 m c main_v164 = W30 m c main_v164
    unfold W30
    rw [Function.update_of_ne (StableHlo.devRef_ne_of_ne (by decide : (main_v164 : Ref sig .tc) ≠ main_v197) : (Proc.devRef .tc main_v164 : DevRef τ sig) ≠ Proc.devRef .tc main_v197)]
  | ⟨1, h⟩ => by
    rw [(dat10 (fun c b => W29 m c b) c).arrAt_in ⟨1, h⟩ rfl, A_eq10]
    show W29 m c main_v186 = W30 m c main_v186
    unfold W30
    rw [Function.update_of_ne (StableHlo.devRef_ne_of_ne (by decide : (main_v186 : Ref sig .tc) ≠ main_v197) : (Proc.devRef .tc main_v186 : DevRef τ sig) ≠ Proc.devRef .tc main_v197)]
  | ⟨2, h⟩ => by
    rw [(dat10 (fun c b => W29 m c b) c).arrAt_in ⟨2, h⟩ rfl, A_eq10]
    show W29 m c main_v196 = W30 m c main_v196
    unfold W30
    rw [Function.update_of_ne (StableHlo.devRef_ne_of_ne (by decide : (main_v196 : Ref sig .tc) ≠ main_v197) : (Proc.devRef .tc main_v196 : DevRef τ sig) ≠ Proc.devRef .tc main_v197)]
  | ⟨3, h⟩ => by
    show o30_main_v197 m c = W30 m c main_v197
    unfold W30
    rw [Function.update_self]
theorem hrest10 (c : Dev nD) (b : Ref sig .tc) (hb : b ∉ Finset.univ.image (Pipeline.arrRef spec10)) : W30 m c b = W29 m c b := by
  unfold W30
  rw [Function.update_of_ne (StableHlo.devRef_ne_of_ne (fun e => hb (Finset.mem_image.mpr ⟨3, Finset.mem_univ _, e.symm⟩)) : (Proc.devRef .tc b : DevRef τ sig) ≠ Proc.devRef .tc main_v197)]
-- one case per window, each deciding that the window's array is none of the arrays the region writes
set_option maxHeartbeats 4000000 in
theorem hF11 (c : Dev nD) : ∀ w : Fin cfg11.W, (dat11 (fun c b => W31 m c b) c).arrAt w cfg11.N = W32 m c (Pipeline.arrRef spec11 w)
  | ⟨0, h⟩ => by
    rw [(dat11 (fun c b => W31 m c b) c).arrAt_in ⟨0, h⟩ rfl, A_eq11]
    show W31 m c main_v177 = W32 m c main_v177
    unfold W32
    rw [Function.update_of_ne (StableHlo.devRef_ne_of_ne (by decide : (main_v177 : Ref sig .tc) ≠ main_v228_2) : (Proc.devRef .tc main_v177 : DevRef τ sig) ≠ Proc.devRef .tc main_v228_2), Function.update_of_ne (StableHlo.devRef_ne_of_ne (by decide : (main_v177 : Ref sig .tc) ≠ main_v228_1) : (Proc.devRef .tc main_v177 : DevRef τ sig) ≠ Proc.devRef .tc main_v228_1), Function.update_of_ne (StableHlo.devRef_ne_of_ne (by decide : (main_v177 : Ref sig .tc) ≠ main_v228_0) : (Proc.devRef .tc main_v177 : DevRef τ sig) ≠ Proc.devRef .tc main_v228_0)]
  | ⟨1, h⟩ => by
    rw [(dat11 (fun c b => W31 m c b) c).arrAt_in ⟨1, h⟩ rfl, A_eq11]
    show W31 m c main_v224 = W32 m c main_v224
    unfold W32
    rw [Function.update_of_ne (StableHlo.devRef_ne_of_ne (by decide : (main_v224 : Ref sig .tc) ≠ main_v228_2) : (Proc.devRef .tc main_v224 : DevRef τ sig) ≠ Proc.devRef .tc main_v228_2), Function.update_of_ne (StableHlo.devRef_ne_of_ne (by decide : (main_v224 : Ref sig .tc) ≠ main_v228_1) : (Proc.devRef .tc main_v224 : DevRef τ sig) ≠ Proc.devRef .tc main_v228_1), Function.update_of_ne (StableHlo.devRef_ne_of_ne (by decide : (main_v224 : Ref sig .tc) ≠ main_v228_0) : (Proc.devRef .tc main_v224 : DevRef τ sig) ≠ Proc.devRef .tc main_v228_0)]
  | ⟨2, h⟩ => by
    rw [(dat11 (fun c b => W31 m c b) c).arrAt_in ⟨2, h⟩ rfl, A_eq11]
    show W31 m c main_v227 = W32 m c main_v227
    unfold W32
    rw [Function.update_of_ne (StableHlo.devRef_ne_of_ne (by decide : (main_v227 : Ref sig .tc) ≠ main_v228_2) : (Proc.devRef .tc main_v227 : DevRef τ sig) ≠ Proc.devRef .tc main_v228_2), Function.update_of_ne (StableHlo.devRef_ne_of_ne (by decide : (main_v227 : Ref sig .tc) ≠ main_v228_1) : (Proc.devRef .tc main_v227 : DevRef τ sig) ≠ Proc.devRef .tc main_v228_1), Function.update_of_ne (StableHlo.devRef_ne_of_ne (by decide : (main_v227 : Ref sig .tc) ≠ main_v228_0) : (Proc.devRef .tc main_v227 : DevRef τ sig) ≠ Proc.devRef .tc main_v228_0)]
  | ⟨3, h⟩ => by
    rw [(dat11 (fun c b => W31 m c b) c).arrAt_in ⟨3, h⟩ rfl, A_eq11]
    show W31 m c main_v208 = W32 m c main_v208
    unfold W32
    rw [Function.update_of_ne (StableHlo.devRef_ne_of_ne (by decide : (main_v208 : Ref sig .tc) ≠ main_v228_2) : (Proc.devRef .tc main_v208 : DevRef τ sig) ≠ Proc.devRef .tc main_v228_2), Function.update_of_ne (StableHlo.devRef_ne_of_ne (by decide : (main_v208 : Ref sig .tc) ≠ main_v228_1) : (Proc.devRef .tc main_v208 : DevRef τ sig) ≠ Proc.devRef .tc main_v228_1), Function.update_of_ne (StableHlo.devRef_ne_of_ne (by decide : (main_v208 : Ref sig .tc) ≠ main_v228_0) : (Proc.devRef .tc main_v208 : DevRef τ sig) ≠ Proc.devRef .tc main_v228_0)]
  | ⟨4, h⟩ => by
    rw [(dat11 (fun c b => W31 m c b) c).arrAt_in ⟨4, h⟩ rfl, A_eq11]
    show W31 m c main_v215 = W32 m c main_v215
    unfold W32
    rw [Function.update_of_ne (StableHlo.devRef_ne_of_ne (by decide : (main_v215 : Ref sig .tc) ≠ main_v228_2) : (Proc.devRef .tc main_v215 : DevRef τ sig) ≠ Proc.devRef .tc main_v228_2), Function.update_of_ne (StableHlo.devRef_ne_of_ne (by decide : (main_v215 : Ref sig .tc) ≠ main_v228_1) : (Proc.devRef .tc main_v215 : DevRef τ sig) ≠ Proc.devRef .tc main_v228_1), Function.update_of_ne (StableHlo.devRef_ne_of_ne (by decide : (main_v215 : Ref sig .tc) ≠ main_v228_0) : (Proc.devRef .tc main_v215 : DevRef τ sig) ≠ Proc.devRef .tc main_v228_0)]
  | ⟨5, h⟩ => by
    rw [(dat11 (fun c b => W31 m c b) c).arrAt_in ⟨5, h⟩ rfl, A_eq11]
    show W31 m c main_v222 = W32 m c main_v222
    unfold W32
    rw [Function.update_of_ne (StableHlo.devRef_ne_of_ne (by decide : (main_v222 : Ref sig .tc) ≠ main_v228_2) : (Proc.devRef .tc main_v222 : DevRef τ sig) ≠ Proc.devRef .tc main_v228_2), Function.update_of_ne (StableHlo.devRef_ne_of_ne (by decide : (main_v222 : Ref sig .tc) ≠ main_v228_1) : (Proc.devRef .tc main_v222 : DevRef τ sig) ≠ Proc.devRef .tc main_v228_1), Function.update_of_ne (StableHlo.devRef_ne_of_ne (by decide : (main_v222 : Ref sig .tc) ≠ main_v228_0) : (Proc.devRef .tc main_v222 : DevRef τ sig) ≠ Proc.devRef .tc main_v228_0)]
  | ⟨6, h⟩ => by
    show o32_main_v228_0 m c = W32 m c main_v228_0
    unfold W32
    rw [Function.update_of_ne (StableHlo.devRef_ne_of_ne (by decide : (main_v228_0 : Ref sig .tc) ≠ main_v228_2) : (Proc.devRef .tc main_v228_0 : DevRef τ sig) ≠ Proc.devRef .tc main_v228_2), Function.update_of_ne (StableHlo.devRef_ne_of_ne (by decide : (main_v228_0 : Ref sig .tc) ≠ main_v228_1) : (Proc.devRef .tc main_v228_0 : DevRef τ sig) ≠ Proc.devRef .tc main_v228_1), Function.update_self]
  | ⟨7, h⟩ => by
    show o32_main_v228_1 m c = W32 m c main_v228_1
    unfold W32
    rw [Function.update_of_ne (StableHlo.devRef_ne_of_ne (by decide : (main_v228_1 : Ref sig .tc) ≠ main_v228_2) : (Proc.devRef .tc main_v228_1 : DevRef τ sig) ≠ Proc.devRef .tc main_v228_2), Function.update_self]
  | ⟨8, h⟩ => by
    show o32_main_v228_2 m c = W32 m c main_v228_2
    unfold W32
    rw [Function.update_self]
theorem hrest11 (c : Dev nD) (b : Ref sig .tc) (hb : b ∉ Finset.univ.image (Pipeline.arrRef spec11)) : W32 m c b = W31 m c b := by
  unfold W32
  rw [Function.update_of_ne (StableHlo.devRef_ne_of_ne (fun e => hb (Finset.mem_image.mpr ⟨8, Finset.mem_univ _, e.symm⟩)) : (Proc.devRef .tc b : DevRef τ sig) ≠ Proc.devRef .tc main_v228_2), Function.update_of_ne (StableHlo.devRef_ne_of_ne (fun e => hb (Finset.mem_image.mpr ⟨7, Finset.mem_univ _, e.symm⟩)) : (Proc.devRef .tc b : DevRef τ sig) ≠ Proc.devRef .tc main_v228_1), Function.update_of_ne (StableHlo.devRef_ne_of_ne (fun e => hb (Finset.mem_image.mpr ⟨6, Finset.mem_univ _, e.symm⟩)) : (Proc.devRef .tc b : DevRef τ sig) ≠ Proc.devRef .tc main_v228_0)]
-- one case per window, each deciding that the window's array is none of the arrays the region writes
set_option maxHeartbeats 4000000 in
theorem hF12 (c : Dev nD) : ∀ w : Fin cfg12.W, (dat12 (fun c b => W35 m c b) c).arrAt w cfg12.N = W36 m c (Pipeline.arrRef spec12 w)
  | ⟨0, h⟩ => by
    rw [(dat12 (fun c b => W35 m c b) c).arrAt_in ⟨0, h⟩ rfl, A_eq12]
    show W35 m c main_v238 = W36 m c main_v238
    unfold W36
    rw [Function.update_of_ne (StableHlo.devRef_ne_of_ne (by decide : (main_v238 : Ref sig .tc) ≠ main_v251) : (Proc.devRef .tc main_v238 : DevRef τ sig) ≠ Proc.devRef .tc main_v251)]
  | ⟨1, h⟩ => by
    rw [(dat12 (fun c b => W35 m c b) c).arrAt_in ⟨1, h⟩ rfl, A_eq12]
    show W35 m c main_v247 = W36 m c main_v247
    unfold W36
    rw [Function.update_of_ne (StableHlo.devRef_ne_of_ne (by decide : (main_v247 : Ref sig .tc) ≠ main_v251) : (Proc.devRef .tc main_v247 : DevRef τ sig) ≠ Proc.devRef .tc main_v251)]
  | ⟨2, h⟩ => by
    rw [(dat12 (fun c b => W35 m c b) c).arrAt_in ⟨2, h⟩ rfl, A_eq12]
    show W35 m c main_v248 = W36 m c main_v248
    unfold W36
    rw [Function.update_of_ne (StableHlo.devRef_ne_of_ne (by decide : (main_v248 : Ref sig .tc) ≠ main_v251) : (Proc.devRef .tc main_v248 : DevRef τ sig) ≠ Proc.devRef .tc main_v251)]
  | ⟨3, h⟩ => by
    rw [(dat12 (fun c b => W35 m c b) c).arrAt_in ⟨3, h⟩ rfl, A_eq12]
    show W35 m c main_v249 = W36 m c main_v249
    unfold W36
    rw [Function.update_of_ne (StableHlo.devRef_ne_of_ne (by decide : (main_v249 : Ref sig .tc) ≠ main_v251) : (Proc.devRef .tc main_v249 : DevRef τ sig) ≠ Proc.devRef .tc main_v251)]
  | ⟨4, h⟩ => by
    rw [(dat12 (fun c b => W35 m c b) c).arrAt_in ⟨4, h⟩ rfl, A_eq12]
    show W35 m c main_v250 = W36 m c main_v250
    unfold W36
    rw [Function.update_of_ne (StableHlo.devRef_ne_of_ne (by decide : (main_v250 : Ref sig .tc) ≠ main_v251) : (Proc.devRef .tc main_v250 : DevRef τ sig) ≠ Proc.devRef .tc main_v251)]
  | ⟨5, h⟩ => by
    rw [(dat12 (fun c b => W35 m c b) c).arrAt_in ⟨5, h⟩ rfl, A_eq12]
    show W35 m c main_v164 = W36 m c main_v164
    unfold W36
    rw [Function.update_of_ne (StableHlo.devRef_ne_of_ne (by decide : (main_v164 : Ref sig .tc) ≠ main_v251) : (Proc.devRef .tc main_v164 : DevRef τ sig) ≠ Proc.devRef .tc main_v251)]
  | ⟨6, h⟩ => by
    show o36_main_v251 m c = W36 m c main_v251
    unfold W36
    rw [Function.update_self]
theorem hrest12 (c : Dev nD) (b : Ref sig .tc) (hb : b ∉ Finset.univ.image (Pipeline.arrRef spec12)) : W36 m c b = W35 m c b := by
  unfold W36
  rw [Function.update_of_ne (StableHlo.devRef_ne_of_ne (fun e => hb (Finset.mem_image.mpr ⟨6, Finset.mem_univ _, e.symm⟩)) : (Proc.devRef .tc b : DevRef τ sig) ≠ Proc.devRef .tc main_v251)]
-- one case per window, each deciding that the window's array is none of the arrays the region writes
set_option maxHeartbeats 4000000 in
theorem hF13 (c : Dev nD) : ∀ w : Fin cfg13.W, (dat13 (fun c b => W39 m c b) c).arrAt w cfg13.N = W40 m c (Pipeline.arrRef spec13 w)
  | ⟨0, h⟩ => by
    rw [(dat13 (fun c b => W39 m c b) c).arrAt_in ⟨0, h⟩ rfl, A_eq13]
    show W39 m c main_v228_0 = W40 m c main_v228_0
    unfold W40
    rw [Function.update_of_ne (StableHlo.devRef_ne_of_ne (by decide : (main_v228_0 : Ref sig .tc) ≠ main_v264) : (Proc.devRef .tc main_v228_0 : DevRef τ sig) ≠ Proc.devRef .tc main_v264)]
  | ⟨1, h⟩ => by
    rw [(dat13 (fun c b => W39 m c b) c).arrAt_in ⟨1, h⟩ rfl, A_eq13]
    show W39 m c main_v260 = W40 m c main_v260
    unfold W40
    rw [Function.update_of_ne (StableHlo.devRef_ne_of_ne (by decide : (main_v260 : Ref sig .tc) ≠ main_v264) : (Proc.devRef .tc main_v260 : DevRef τ sig) ≠ Proc.devRef .tc main_v264)]
  | ⟨2, h⟩ => by
    rw [(dat13 (fun c b => W39 m c b) c).arrAt_in ⟨2, h⟩ rfl, A_eq13]
    show W39 m c main_v261 = W40 m c main_v261
    unfold W40
    rw [Function.update_of_ne (StableHlo.devRef_ne_of_ne (by decide : (main_v261 : Ref sig .tc) ≠ main_v264) : (Proc.devRef .tc main_v261 : DevRef τ sig) ≠ Proc.devRef .tc main_v264)]
  | ⟨3, h⟩ => by
    rw [(dat13 (fun c b => W39 m c b) c).arrAt_in ⟨3, h⟩ rfl, A_eq13]
    show W39 m c main_v262 = W40 m c main_v262
    unfold W40
    rw [Function.update_of_ne (StableHlo.devRef_ne_of_ne (by decide : (main_v262 : Ref sig .tc) ≠ main_v264) : (Proc.devRef .tc main_v262 : DevRef τ sig) ≠ Proc.devRef .tc main_v264)]
  | ⟨4, h⟩ => by
    rw [(dat13 (fun c b => W39 m c b) c).arrAt_in ⟨4, h⟩ rfl, A_eq13]
    show W39 m c main_v263 = W40 m c main_v263
    unfold W40
    rw [Function.update_of_ne (StableHlo.devRef_ne_of_ne (by decide : (main_v263 : Ref sig .tc) ≠ main_v264) : (Proc.devRef .tc main_v263 : DevRef τ sig) ≠ Proc.devRef .tc main_v264)]
  | ⟨5, h⟩ => by
    rw [(dat13 (fun c b => W39 m c b) c).arrAt_in ⟨5, h⟩ rfl, A_eq13]
    show W39 m c main_v177 = W40 m c main_v177
    unfold W40
    rw [Function.update_of_ne (StableHlo.devRef_ne_of_ne (by decide : (main_v177 : Ref sig .tc) ≠ main_v264) : (Proc.devRef .tc main_v177 : DevRef τ sig) ≠ Proc.devRef .tc main_v264)]
  | ⟨6, h⟩ => by
    show o40_main_v264 m c = W40 m c main_v264
    unfold W40
    rw [Function.update_self]
theorem hrest13 (c : Dev nD) (b : Ref sig .tc) (hb : b ∉ Finset.univ.image (Pipeline.arrRef spec13)) : W40 m c b = W39 m c b := by
  unfold W40
  rw [Function.update_of_ne (StableHlo.devRef_ne_of_ne (fun e => hb (Finset.mem_image.mpr ⟨6, Finset.mem_univ _, e.symm⟩)) : (Proc.devRef .tc b : DevRef τ sig) ≠ Proc.devRef .tc main_v264)]
-- one case per window, each deciding that the window's array is none of the arrays the region writes
set_option maxHeartbeats 4000000 in
theorem hF14 (c : Dev nD) : ∀ w : Fin cfg14.W, (dat14 (fun c b => W41 m c b) c).arrAt w cfg14.N = W42 m c (Pipeline.arrRef spec14 w)
  | ⟨0, h⟩ => by
    rw [(dat14 (fun c b => W41 m c b) c).arrAt_in ⟨0, h⟩ rfl, A_eq14]
    show W41 m c main_v277 = W42 m c main_v277
    unfold W42
    rw [Function.update_of_ne (StableHlo.devRef_ne_of_ne (by decide : (main_v277 : Ref sig .tc) ≠ main_v281) : (Proc.devRef .tc main_v277 : DevRef τ sig) ≠ Proc.devRef .tc main_v281)]
  | ⟨1, h⟩ => by
    rw [(dat14 (fun c b => W41 m c b) c).arrAt_in ⟨1, h⟩ rfl, A_eq14]
    show W41 m c main_arg25 = W42 m c main_arg25
    unfold W42
    rw [Function.update_of_ne (StableHlo.devRef_ne_of_ne (by decide : (main_arg25 : Ref sig .tc) ≠ main_v281) : (Proc.devRef .tc main_arg25 : DevRef τ sig) ≠ Proc.devRef .tc main_v281)]
  | ⟨2, h⟩ => by
    rw [(dat14 (fun c b => W41 m c b) c).arrAt_in ⟨2, h⟩ rfl, A_eq14]
    show W41 m c main_v278 = W42 m c main_v278
    unfold W42
    rw [Function.update_of_ne (StableHlo.devRef_ne_of_ne (by decide : (main_v278 : Ref sig .tc) ≠ main_v281) : (Proc.devRef .tc main_v278 : DevRef τ sig) ≠ Proc.devRef .tc main_v281)]
  | ⟨3, h⟩ => by
    rw [(dat14 (fun c b => W41 m c b) c).arrAt_in ⟨3, h⟩ rfl, A_eq14]
    show W41 m c main_arg27 = W42 m c main_arg27
    unfold W42
    rw [Function.update_of_ne (StableHlo.devRef_ne_of_ne (by decide : (main_arg27 : Ref sig .tc) ≠ main_v281) : (Proc.devRef .tc main_arg27 : DevRef τ sig) ≠ Proc.devRef .tc main_v281)]
  | ⟨4, h⟩ => by
    rw [(dat14 (fun c b => W41 m c b) c).arrAt_in ⟨4, h⟩ rfl, A_eq14]
    show W41 m c main_v279 = W42 m c main_v279
    unfold W42
    rw [Function.update_of_ne (StableHlo.devRef_ne_of_ne (by decide : (main_v279 : Ref sig .tc) ≠ main_v281) : (Proc.devRef .tc main_v279 : DevRef τ sig) ≠ Proc.devRef .tc main_v281)]
  | ⟨5, h⟩ => by
    rw [(dat14 (fun c b => W41 m c b) c).arrAt_in ⟨5, h⟩ rfl, A_eq14]
    show W41 m c main_arg29 = W42 m c main_arg29
    unfold W42
    rw [Function.update_of_ne (StableHlo.devRef_ne_of_ne (by decide : (main_arg29 : Ref sig .tc) ≠ main_v281) : (Proc.devRef .tc main_arg29 : DevRef τ sig) ≠ Proc.devRef .tc main_v281)]
  | ⟨6, h⟩ => by
    rw [(dat14 (fun c b => W41 m c b) c).arrAt_in ⟨6, h⟩ rfl, A_eq14]
    show W41 m c main_v280 = W42 m c main_v280
    unfold W42
    rw [Function.update_of_ne (StableHlo.devRef_ne_of_ne (by decide : (main_v280 : Ref sig .tc) ≠ main_v281) : (Proc.devRef .tc main_v280 : DevRef τ sig) ≠ Proc.devRef .tc main_v281)]
  | ⟨7, h⟩ => by
    show o42_main_v281 m c = W42 m c main_v281
    unfold W42
    rw [Function.update_self]
theorem hrest14 (c : Dev nD) (b : Ref sig .tc) (hb : b ∉ Finset.univ.image (Pipeline.arrRef spec14)) : W42 m c b = W41 m c b := by
  unfold W42
  rw [Function.update_of_ne (StableHlo.devRef_ne_of_ne (fun e => hb (Finset.mem_image.mpr ⟨7, Finset.mem_univ _, e.symm⟩)) : (Proc.devRef .tc b : DevRef τ sig) ≠ Proc.devRef .tc main_v281)]

/-! ## The regions as segments of this run -/

/-- Region 0: entered from the fold after item 0, left at the fold after item 1. -/
def reg0 : Pipeline.RegionSeg (pcfgs (F := F)) GenP.adm (pdats m) () defs₀ 𝒱₀ L lv 0 :=
  reg0_of (pdats m) (W1 m) (W2 m) (fun _ => rfl) (hF0 m) (hrest0 m)
/-- Region 1: entered from the fold after item 2, left at the fold after item 3. -/
def reg1 : Pipeline.RegionSeg (pcfgs (F := F)) GenP.adm (pdats m) () defs₀ 𝒱₀ L lv 1 :=
  reg1_of (pdats m) (W3 m) (W4 m) (fun _ => rfl) (hF1 m) (hrest1 m)
/-- Region 2: entered from the fold after item 4, left at the fold after item 5. -/
def reg2 : Pipeline.RegionSeg (pcfgs (F := F)) GenP.adm (pdats m) () defs₀ 𝒱₀ L lv 2 :=
  reg2_of (pdats m) (W5 m) (W6 m) (fun _ => rfl) (hF2 m) (hrest2 m)
/-- Region 3: entered from the fold after item 6, left at the fold after item 7. -/
def reg3 : Pipeline.RegionSeg (pcfgs (F := F)) GenP.adm (pdats m) () defs₀ 𝒱₀ L lv 3 :=
  reg3_of (pdats m) (W7 m) (W8 m) (fun _ => rfl) (hF3 m) (hrest3 m)
/-- Region 4: entered from the fold after item 10, left at the fold after item 11. -/
def reg4 : Pipeline.RegionSeg (pcfgs (F := F)) GenP.adm (pdats m) () defs₀ 𝒱₀ L lv 4 :=
  reg4_of (pdats m) (W11 m) (W12 m) (fun _ => rfl) (hF4 m) (hrest4 m)
/-- Region 5: entered from the fold after item 14, left at the fold after item 15. -/
def reg5 : Pipeline.RegionSeg (pcfgs (F := F)) GenP.adm (pdats m) () defs₀ 𝒱₀ L lv 5 :=
  reg5_of (pdats m) (W15 m) (W16 m) (fun _ => rfl) (hF5 m) (hrest5 m)
/-- Region 6: entered from the fold after item 16, left at the fold after item 17. -/
def reg6 : Pipeline.RegionSeg (pcfgs (F := F)) GenP.adm (pdats m) () defs₀ 𝒱₀ L lv 6 :=
  reg6_of (pdats m) (W17 m) (W18 m) (fun _ => rfl) (hF6 m) (hrest6 m)
/-- Region 7: entered from the fold after item 18, left at the fold after item 19. -/
def reg7 : Pipeline.RegionSeg (pcfgs (F := F)) GenP.adm (pdats m) () defs₀ 𝒱₀ L lv 7 :=
  reg7_of (pdats m) (W19 m) (W20 m) (fun _ => rfl) (hF7 m) (hrest7 m)
/-- Region 8: entered from the fold after item 22, left at the fold after item 23. -/
def reg8 : Pipeline.RegionSeg (pcfgs (F := F)) GenP.adm (pdats m) () defs₀ 𝒱₀ L lv 8 :=
  reg8_of (pdats m) (W23 m) (W24 m) (fun _ => rfl) (hF8 m) (hrest8 m)
/-- Region 9: entered from the fold after item 26, left at the fold after item 27. -/
def reg9 : Pipeline.RegionSeg (pcfgs (F := F)) GenP.adm (pdats m) () defs₀ 𝒱₀ L lv 9 :=
  reg9_of (pdats m) (W27 m) (W28 m) (fun _ => rfl) (hF9 m) (hrest9 m)
/-- Region 10: entered from the fold after item 28, left at the fold after item 29. -/
def reg10 : Pipeline.RegionSeg (pcfgs (F := F)) GenP.adm (pdats m) () defs₀ 𝒱₀ L lv 10 :=
  reg10_of (pdats m) (W29 m) (W30 m) (fun _ => rfl) (hF10 m) (hrest10 m)
/-- Region 11: entered from the fold after item 30, left at the fold after item 31. -/
def reg11 : Pipeline.RegionSeg (pcfgs (F := F)) GenP.adm (pdats m) () defs₀ 𝒱₀ L lv 11 :=
  reg11_of (pdats m) (W31 m) (W32 m) (fun _ => rfl) (hF11 m) (hrest11 m)
/-- Region 12: entered from the fold after item 34, left at the fold after item 35. -/
def reg12 : Pipeline.RegionSeg (pcfgs (F := F)) GenP.adm (pdats m) () defs₀ 𝒱₀ L lv 12 :=
  reg12_of (pdats m) (W35 m) (W36 m) (fun _ => rfl) (hF12 m) (hrest12 m)
/-- Region 13: entered from the fold after item 38, left at the fold after item 39. -/
def reg13 : Pipeline.RegionSeg (pcfgs (F := F)) GenP.adm (pdats m) () defs₀ 𝒱₀ L lv 13 :=
  reg13_of (pdats m) (W39 m) (W40 m) (fun _ => rfl) (hF13 m) (hrest13 m)
/-- Region 14: entered from the fold after item 40, left at the fold after item 41. -/
def reg14 : Pipeline.RegionSeg (pcfgs (F := F)) GenP.adm (pdats m) () defs₀ 𝒱₀ L lv 14 :=
  reg14_of (pdats m) (W41 m) (W42 m) (fun _ => rfl) (hF14 m) (hrest14 m)

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at every unscoped buffer: from any memory with zero counters, every weakly fair execution of @main on the
    TensorCores terminates, and in every final memory each unscoped buffer holds the fold's last valuation; so any post that
    follows from that reading holds. The conditional run at these outputs and these records: the launch deals each core its
    generator register and an empty debt, which ride beside the buffers through every segment. -/
theorem run_all (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W42 m c b) → Q (⟨⟩, s)) :
    θ_run defs (onTc (τ := τ) (main (F := F))) ⟨m, fun _ => 0, ρ⟩ Q :=
  GenP.frame_cond_all m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V11_eq]; exact .rfl) (fun c => by rw [V12_eq]; exact .rfl)
    (reg5 m) (fun c => by rw [V15_eq]; exact .rfl) (fun c => by rw [V16_eq]; exact .rfl)
    (reg6 m) (fun c => by rw [V17_eq]; exact .rfl) (fun c => by rw [V18_eq]; exact .rfl)
    (reg7 m) (fun c => by rw [V19_eq]; exact .rfl) (fun c => by rw [V20_eq]; exact .rfl)
    (reg8 m) (fun c => by rw [V23_eq]; exact .rfl) (fun c => by rw [V24_eq]; exact .rfl)
    (reg9 m) (fun c => by rw [V27_eq]; exact .rfl) (fun c => by rw [V28_eq]; exact .rfl)
    (reg10 m) (fun c => by rw [V29_eq]; exact .rfl) (fun c => by rw [V30_eq]; exact .rfl)
    (reg11 m) (fun c => by rw [V31_eq]; exact .rfl) (fun c => by rw [V32_eq]; exact .rfl)
    (reg12 m) (fun c => by rw [V35_eq]; exact .rfl) (fun c => by rw [V36_eq]; exact .rfl)
    (reg13 m) (fun c => by rw [V39_eq]; exact .rfl) (fun c => by rw [V40_eq]; exact .rfl)
    (reg14 m) (fun c => by rw [V41_eq]; exact .rfl) (fun c => by rw [V42_eq]; exact .rfl)
    (fun s h => hQ s fun c b hb => (h c b hb).trans (congrFun (V42_eq m c) b))

/-- THE FRAME of program Kernel at any F: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_all m ρ fun s h c =>
    ⟨(h c _ (mem_uc main_arg0 (by decide))).trans ((congrFun (V42_eq m c) _).symm.trans (GenP.V42_main_arg0 m (outs m) c)),
     (h c _ (mem_uc main_arg1 (by decide))).trans ((congrFun (V42_eq m c) _).symm.trans (GenP.V42_main_arg1 m (outs m) c)),
     (h c _ (mem_uc main_arg2 (by decide))).trans ((congrFun (V42_eq m c) _).symm.trans (GenP.V42_main_arg2 m (outs m) c)),
     (h c _ (mem_uc main_arg3 (by decide))).trans ((congrFun (V42_eq m c) _).symm.trans (GenP.V42_main_arg3 m (outs m) c)),
     (h c _ (mem_uc main_arg4 (by decide))).trans ((congrFun (V42_eq m c) _).symm.trans (GenP.V42_main_arg4 m (outs m) c)),
     (h c _ (mem_uc main_arg5 (by decide))).trans ((congrFun (V42_eq m c) _).symm.trans (GenP.V42_main_arg5 m (outs m) c)),
     (h c _ (mem_uc main_arg6 (by decide))).trans ((congrFun (V42_eq m c) _).symm.trans (GenP.V42_main_arg6 m (outs m) c)),
     (h c _ (mem_uc main_arg7 (by decide))).trans ((congrFun (V42_eq m c) _).symm.trans (GenP.V42_main_arg7 m (outs m) c)),
     (h c _ (mem_uc main_arg8 (by decide))).trans ((congrFun (V42_eq m c) _).symm.trans (GenP.V42_main_arg8 m (outs m) c)),
     (h c _ (mem_uc main_arg9 (by decide))).trans ((congrFun (V42_eq m c) _).symm.trans (GenP.V42_main_arg9 m (outs m) c)),
     (h c _ (mem_uc main_arg10 (by decide))).trans ((congrFun (V42_eq m c) _).symm.trans (GenP.V42_main_arg10 m (outs m) c)),
     (h c _ (mem_uc main_arg11 (by decide))).trans ((congrFun (V42_eq m c) _).symm.trans (GenP.V42_main_arg11 m (outs m) c)),
     (h c _ (mem_uc main_arg12 (by decide))).trans ((congrFun (V42_eq m c) _).symm.trans (GenP.V42_main_arg12 m (outs m) c)),
     (h c _ (mem_uc main_arg13 (by decide))).trans ((congrFun (V42_eq m c) _).symm.trans (GenP.V42_main_arg13 m (outs m) c)),
     (h c _ (mem_uc main_arg14 (by decide))).trans ((congrFun (V42_eq m c) _).symm.trans (GenP.V42_main_arg14 m (outs m) c)),
     (h c _ (mem_uc main_arg15 (by decide))).trans ((congrFun (V42_eq m c) _).symm.trans (GenP.V42_main_arg15 m (outs m) c)),
     (h c _ (mem_uc main_arg16 (by decide))).trans ((congrFun (V42_eq m c) _).symm.trans (GenP.V42_main_arg16 m (outs m) c)),
     (h c _ (mem_uc main_arg17 (by decide))).trans ((congrFun (V42_eq m c) _).symm.trans (GenP.V42_main_arg17 m (outs m) c)),
     (h c _ (mem_uc main_arg18 (by decide))).trans ((congrFun (V42_eq m c) _).symm.trans (GenP.V42_main_arg18 m (outs m) c)),
     (h c _ (mem_uc main_arg19 (by decide))).trans ((congrFun (V42_eq m c) _).symm.trans (GenP.V42_main_arg19 m (outs m) c)),
     (h c _ (mem_uc main_arg20 (by decide))).trans ((congrFun (V42_eq m c) _).symm.trans (GenP.V42_main_arg20 m (outs m) c)),
     (h c _ (mem_uc main_arg21 (by decide))).trans ((congrFun (V42_eq m c) _).symm.trans (GenP.V42_main_arg21 m (outs m) c)),
     (h c _ (mem_uc main_arg22 (by decide))).trans ((congrFun (V42_eq m c) _).symm.trans (GenP.V42_main_arg22 m (outs m) c)),
     (h c _ (mem_uc main_arg23 (by decide))).trans ((congrFun (V42_eq m c) _).symm.trans (GenP.V42_main_arg23 m (outs m) c)),
     (h c _ (mem_uc main_arg24 (by decide))).trans ((congrFun (V42_eq m c) _).symm.trans (GenP.V42_main_arg24 m (outs m) c)),
     (h c _ (mem_uc main_arg25 (by decide))).trans ((congrFun (V42_eq m c) _).symm.trans (GenP.V42_main_arg25 m (outs m) c)),
     (h c _ (mem_uc main_arg26 (by decide))).trans ((congrFun (V42_eq m c) _).symm.trans (GenP.V42_main_arg26 m (outs m) c)),
     (h c _ (mem_uc main_arg27 (by decide))).trans ((congrFun (V42_eq m c) _).symm.trans (GenP.V42_main_arg27 m (outs m) c)),
     (h c _ (mem_uc main_arg28 (by decide))).trans ((congrFun (V42_eq m c) _).symm.trans (GenP.V42_main_arg28 m (outs m) c)),
     (h c _ (mem_uc main_arg29 (by decide))).trans ((congrFun (V42_eq m c) _).symm.trans (GenP.V42_main_arg29 m (outs m) c)),
     (h c _ (mem_uc main_arg30 (by decide))).trans ((congrFun (V42_eq m c) _).symm.trans (GenP.V42_main_arg30 m (outs m) c))⟩

/-- THE RUN'S RESULT: besides the frame, the result array main_v281 ends at what region 14 leaves in it. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v281) = o42_main_v281 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_all m ρ fun s h c =>
    ⟨(h c _ (mem_uc main_v281 (by decide))).trans (by unfold W42; rw [Function.update_self]),
     (h c _ (mem_uc main_arg0 (by decide))).trans ((congrFun (V42_eq m c) _).symm.trans (GenP.V42_main_arg0 m (outs m) c)),
     (h c _ (mem_uc main_arg1 (by decide))).trans ((congrFun (V42_eq m c) _).symm.trans (GenP.V42_main_arg1 m (outs m) c)),
     (h c _ (mem_uc main_arg2 (by decide))).trans ((congrFun (V42_eq m c) _).symm.trans (GenP.V42_main_arg2 m (outs m) c)),
     (h c _ (mem_uc main_arg3 (by decide))).trans ((congrFun (V42_eq m c) _).symm.trans (GenP.V42_main_arg3 m (outs m) c)),
     (h c _ (mem_uc main_arg4 (by decide))).trans ((congrFun (V42_eq m c) _).symm.trans (GenP.V42_main_arg4 m (outs m) c)),
     (h c _ (mem_uc main_arg5 (by decide))).trans ((congrFun (V42_eq m c) _).symm.trans (GenP.V42_main_arg5 m (outs m) c)),
     (h c _ (mem_uc main_arg6 (by decide))).trans ((congrFun (V42_eq m c) _).symm.trans (GenP.V42_main_arg6 m (outs m) c)),
     (h c _ (mem_uc main_arg7 (by decide))).trans ((congrFun (V42_eq m c) _).symm.trans (GenP.V42_main_arg7 m (outs m) c)),
     (h c _ (mem_uc main_arg8 (by decide))).trans ((congrFun (V42_eq m c) _).symm.trans (GenP.V42_main_arg8 m (outs m) c)),
     (h c _ (mem_uc main_arg9 (by decide))).trans ((congrFun (V42_eq m c) _).symm.trans (GenP.V42_main_arg9 m (outs m) c)),
     (h c _ (mem_uc main_arg10 (by decide))).trans ((congrFun (V42_eq m c) _).symm.trans (GenP.V42_main_arg10 m (outs m) c)),
     (h c _ (mem_uc main_arg11 (by decide))).trans ((congrFun (V42_eq m c) _).symm.trans (GenP.V42_main_arg11 m (outs m) c)),
     (h c _ (mem_uc main_arg12 (by decide))).trans ((congrFun (V42_eq m c) _).symm.trans (GenP.V42_main_arg12 m (outs m) c)),
     (h c _ (mem_uc main_arg13 (by decide))).trans ((congrFun (V42_eq m c) _).symm.trans (GenP.V42_main_arg13 m (outs m) c)),
     (h c _ (mem_uc main_arg14 (by decide))).trans ((congrFun (V42_eq m c) _).symm.trans (GenP.V42_main_arg14 m (outs m) c)),
     (h c _ (mem_uc main_arg15 (by decide))).trans ((congrFun (V42_eq m c) _).symm.trans (GenP.V42_main_arg15 m (outs m) c)),
     (h c _ (mem_uc main_arg16 (by decide))).trans ((congrFun (V42_eq m c) _).symm.trans (GenP.V42_main_arg16 m (outs m) c)),
     (h c _ (mem_uc main_arg17 (by decide))).trans ((congrFun (V42_eq m c) _).symm.trans (GenP.V42_main_arg17 m (outs m) c)),
     (h c _ (mem_uc main_arg18 (by decide))).trans ((congrFun (V42_eq m c) _).symm.trans (GenP.V42_main_arg18 m (outs m) c)),
     (h c _ (mem_uc main_arg19 (by decide))).trans ((congrFun (V42_eq m c) _).symm.trans (GenP.V42_main_arg19 m (outs m) c)),
     (h c _ (mem_uc main_arg20 (by decide))).trans ((congrFun (V42_eq m c) _).symm.trans (GenP.V42_main_arg20 m (outs m) c)),
     (h c _ (mem_uc main_arg21 (by decide))).trans ((congrFun (V42_eq m c) _).symm.trans (GenP.V42_main_arg21 m (outs m) c)),
     (h c _ (mem_uc main_arg22 (by decide))).trans ((congrFun (V42_eq m c) _).symm.trans (GenP.V42_main_arg22 m (outs m) c)),
     (h c _ (mem_uc main_arg23 (by decide))).trans ((congrFun (V42_eq m c) _).symm.trans (GenP.V42_main_arg23 m (outs m) c)),
     (h c _ (mem_uc main_arg24 (by decide))).trans ((congrFun (V42_eq m c) _).symm.trans (GenP.V42_main_arg24 m (outs m) c)),
     (h c _ (mem_uc main_arg25 (by decide))).trans ((congrFun (V42_eq m c) _).symm.trans (GenP.V42_main_arg25 m (outs m) c)),
     (h c _ (mem_uc main_arg26 (by decide))).trans ((congrFun (V42_eq m c) _).symm.trans (GenP.V42_main_arg26 m (outs m) c)),
     (h c _ (mem_uc main_arg27 (by decide))).trans ((congrFun (V42_eq m c) _).symm.trans (GenP.V42_main_arg27 m (outs m) c)),
     (h c _ (mem_uc main_arg28 (by decide))).trans ((congrFun (V42_eq m c) _).symm.trans (GenP.V42_main_arg28 m (outs m) c)),
     (h c _ (mem_uc main_arg29 (by decide))).trans ((congrFun (V42_eq m c) _).symm.trans (GenP.V42_main_arg29 m (outs m) c)),
     (h c _ (mem_uc main_arg30 (by decide))).trans ((congrFun (V42_eq m c) _).symm.trans (GenP.V42_main_arg30 m (outs m) c))⟩

end Cert.Kernel.Hand

end
-- ==== Proof.KI.RunBase.lean ====
import proofs.«142356_j74423193305351_1_alg».proof.Proof.KI.RegionsP
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What every region of the run shares: the variants, the levels, and what rides beside the buffers -/

/-- No kernel function has a variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)

end Cert.KernelIdeal.Hand

end
-- ==== Proof.KI.R0.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 0: a row-tiled linear layer, one block of rows of the output from the same rows of the input, the whole
   weight and the whole bias (pipeline 0), at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block x: its staging buffer holds the block at every point, for any proof data whose array is the entry
    contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight W, whole at every point: fetched at the first point only, its block index never moves, so the buffer
    still holds the one block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias b, whole at every point: as the weight. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole, through one rectangle -/

abbrev r0_0 : Rect S4096x6 := Rect.unit (s := S4096x6) ![0, 0] S4096x6.size inb_S4096x6_S4096x6_0_0
abbrev r0_1 : Rect S6x64 := Rect.unit (s := S6x64) ![0, 0] S6x64.size inb_S6x64_S6x64_0_0
abbrev r0_2 : Rect S1x64 := Rect.unit (s := S1x64) ![0, 0] S1x64.size inb_S1x64_S1x64_0_0
abbrev r0_3 : Rect S4096x64 := Rect.unit (s := S4096x64) ![0, 0] S4096x64.size inb_S4096x64_S4096x64_0_0

/-! ## What the body leaves in the output window's buffer -/

/-- The output block after the body, from the three input blocks: its one store, the whole block, of the body's one
    payload of the three loaded blocks. -/
def out0_3 (x0 : Vec F S4096x6 .f32) (x1 : Vec F S6x64 .f32) (x2 : Vec F S1x64 .f32) : Vec F S4096x64 .f32 :=
  View.canon [⟨r0_3, k0_pay1 (View.ld x0 r0_0) (View.ld x1 r0_1) (View.ld x2 r0_2)⟩]

/-- The one store is the whole block, so it covers it. -/
theorem cover0_3 (p0 : Vec F S4096x64 .f32) (y : S4096x64.Idx) :
    ∃ pc ∈ ([⟨r0_3, p0⟩] : List (View.Piece (Elt F) S4096x64 .f32)), y ∈ pc.1.set :=
  View.cover_of_tiled [⟨r0_3, p0⟩] S4096x64.size (by rfl) y

/-! ## The body's triple -/

set_option maxHeartbeats 1000000 in
/-- The kernel body on whole staging memrefs, the inputs' at read contents x0, x1, x2 and the output's at anything, runs
    to the continuation holding the inputs' as they were and the output's at `out0_3` of them. -/
theorem sound_kernel0 (c : Dev nD) (E : Set ℕ) (i : grid0.Coords) (arg1 : Memref sig .tc .vmem S4096x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S4096x64 .f32) (harg4 : arg4.IsWhole)
    (x0 : Vec F S4096x6 .f32) (x1 : Vec F S6x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
import proofs.«142356_j74423193305351_1_alg».proof.Proof.KI.RunBase
import proofs.«142356_j74423193305351_1_alg».proof.Proof.KI.R0

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 0 as a segment of the run, for any proof-data family whose pipeline 0 is the region's own data -/

-- `iapply` of a library lemma stated over the pinned configuration unifies with it only when unification may unfold
-- plain definitions in a metavariable's type
set_option backward.isDefEq.respectTransparency.types false in
/-- REGION 0 over the thread state "every unscoped buffer at a valuation, the generator register at some state, nothing
    owed": entered from the valuation `Wpre`, left at `Wpost`, GIVEN that the family's data of pipeline 0 is `dat0` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg0_of (pdats : (p : Fin 15) → (c : Dev nD) → Dat τ (Elt F) Unit ℕ (UR sig nD τ) ℕ (cfgs p) c)
    (Wpre Wpost : Dev nD → Valuation τ sig (Elt F))
    (hp : ∀ c, pdats 0 c = dat0 (fun c b => Wpre c b) c)
    (hF : ∀ c (w : Fin cfg0.W), (dat0 (fun c b => Wpre c b) c).arrAt w cfg0.N = Wpost c (Pipeline.arrRef spec0 w))
    (hrest : ∀ c (b : Ref sig .tc), b ∉ Finset.univ.image (Pipeline.arrRef spec0) → Wpost c b = Wpre c b) :
    Pipeline.RegionSeg (pcfgs (F := F)) GenP.adm pdats () defs₀ 𝒱₀ L lv 0 where
  win := launch0.win.to₀
  block_pos := launch0.block_pos
  stage_whole := launch0.stage_whole
  K := PEmpty
  osem k := k.elim
  ho := Pipeline.OwnSemFacts.none _
  hbody c := by rw [hp c]; exact (body_obligation0 (fun c b => Wpre c b) c).loose
  hwaits := Pipeline.hwaits_of_owed_zero _ _ _ _ L lv 0 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec0 c (fun b => Wpre c b)
  hentry c := by
    rw [Pipeline.ownSems0_none]
    have hsplit := Pipeline.arrays_of_unscopedBufs (p := 0) (pcfgs (F := F)) GenP.adm pdats launch0.win launch0.arr_whole c
      (by rw [hp c]; exact (dat0 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 0 c).Φ 0 = Pipeline.ΦA spec0 c from by rw [hp c]; rfl]; unfold Pipeline.ΦA
    iintro ⟨Hp, -, Hr⟩
    isplitl [Hr]; · iexact Hr
    iexact Hp
  hout c := by
    rw [Pipeline.ownSems0_none, show (pdats 0 c).Φ (Fin.last _) = Pipeline.ΦA spec0 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c pdats (by rw [hp c]; exact (dat0 (fun c b => Wpre c b) c).share_full fun _ => rfl)
      (fun b => Wpre c b) (fun b => Wpost c b) ((pdats 0 c).arrAt · cfg0.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R1.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 1: a row-tiled linear layer, one block of rows of the output from the same rows of the input, the whole
   weight and the whole bias (pipeline 1), at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block x: its staging buffer holds the block at every point, for any proof data whose array is the entry
    contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight W, whole at every point: fetched at the first point only, its block index never moves, so the buffer
    still holds the one block at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias b, whole at every point: as the weight. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window whole, through one rectangle -/

abbrev r1_0 : Rect S4096x2 := Rect.unit (s := S4096x2) ![0, 0] S4096x2.size inb_S4096x2_S4096x2_0_0
abbrev r1_1 : Rect S2x64 := Rect.unit (s := S2x64) ![0, 0] S2x64.size inb_S2x64_S2x64_0_0
abbrev r1_2 : Rect S1x64 := Rect.unit (s := S1x64) ![0, 0] S1x64.size inb_S1x64_S1x64_0_0
abbrev r1_3 : Rect S4096x64 := Rect.unit (s := S4096x64) ![0, 0] S4096x64.size inb_S4096x64_S4096x64_0_0

/-! ## What the body leaves in the output window's buffer -/

/-- The output block after the body, from the three input blocks: its one store, the whole block, of the body's one
    payload of the three loaded blocks. -/
def out1_3 (x0 : Vec F S4096x2 .f32) (x1 : Vec F S2x64 .f32) (x2 : Vec F S1x64 .f32) : Vec F S4096x64 .f32 :=
  View.canon [⟨r1_3, k1_pay1 (View.ld x0 r1_0) (View.ld x1 r1_1) (View.ld x2 r1_2)⟩]

/-- The one store is the whole block, so it covers it. -/
theorem cover1_3 (p0 : Vec F S4096x64 .f32) (y : S4096x64.Idx) :
    ∃ pc ∈ ([⟨r1_3, p0⟩] : List (View.Piece (Elt F) S4096x64 .f32)), y ∈ pc.1.set :=
  View.cover_of_tiled [⟨r1_3, p0⟩] S4096x64.size (by rfl) y

/-! ## The body's triple -/

set_option maxHeartbeats 1000000 in
/-- The kernel body on whole staging memrefs, the inputs' at read contents x0, x1, x2 and the output's at anything, runs
    to the continuation holding the inputs' as they were and the output's at `out1_3` of them. -/
theorem sound_kernel1 (c : Dev nD) (E : Set ℕ) (i : grid1.Coords) (arg1 : Memref sig .tc .vmem S4096x2 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S4096x64 .f32) (harg4 : arg4.IsWhole)
    (x0 : Vec F S4096x2 .f32) (x1 : Vec F S2x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_recip_kernel i arg1 harg1 arg2 harg2 arg3 harg3 arg4 harg4) K := by
  simp only [cc1__linear_recip_kernel_eq_skeleton]; unfold cc1__linear_recip_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
import proofs.«142356_j74423193305351_1_alg».proof.Proof.KI.RunBase
import proofs.«142356_j74423193305351_1_alg».proof.Proof.KI.R1

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 1 as a segment of the run, for any proof-data family whose pipeline 1 is the region's own data -/

-- `iapply` of a library lemma stated over the pinned configuration unifies with it only when unification may unfold
-- plain definitions in a metavariable's type
set_option backward.isDefEq.respectTransparency.types false in
/-- REGION 1 over the thread state "every unscoped buffer at a valuation, the generator register at some state, nothing
    owed": entered from the valuation `Wpre`, left at `Wpost`, GIVEN that the family's data of pipeline 1 is `dat1` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg1_of (pdats : (p : Fin 15) → (c : Dev nD) → Dat τ (Elt F) Unit ℕ (UR sig nD τ) ℕ (cfgs p) c)
    (Wpre Wpost : Dev nD → Valuation τ sig (Elt F))
    (hp : ∀ c, pdats 1 c = dat1 (fun c b => Wpre c b) c)
    (hF : ∀ c (w : Fin cfg1.W), (dat1 (fun c b => Wpre c b) c).arrAt w cfg1.N = Wpost c (Pipeline.arrRef spec1 w))
    (hrest : ∀ c (b : Ref sig .tc), b ∉ Finset.univ.image (Pipeline.arrRef spec1) → Wpost c b = Wpre c b) :
    Pipeline.RegionSeg (pcfgs (F := F)) GenP.adm pdats () defs₀ 𝒱₀ L lv 1 where
  win := launch1.win.to₀
  block_pos := launch1.block_pos
  stage_whole := launch1.stage_whole
  K := PEmpty
  osem k := k.elim
  ho := Pipeline.OwnSemFacts.none _
  hbody c := by rw [hp c]; exact (body_obligation1 (fun c b => Wpre c b) c).loose
  hwaits := Pipeline.hwaits_of_owed_zero _ _ _ _ L lv 1 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec1 c (fun b => Wpre c b)
  hentry c := by
    rw [Pipeline.ownSems0_none]
    have hsplit := Pipeline.arrays_of_unscopedBufs (p := 1) (pcfgs (F := F)) GenP.adm pdats launch1.win launch1.arr_whole c
      (by rw [hp c]; exact (dat1 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 1 c).Φ 0 = Pipeline.ΦA spec1 c from by rw [hp c]; rfl]; unfold Pipeline.ΦA
    iintro ⟨Hp, -, Hr⟩
    isplitl [Hr]; · iexact Hr
    iexact Hp
  hout c := by
    rw [Pipeline.ownSems0_none, show (pdats 1 c).Φ (Fin.last _) = Pipeline.ΦA spec1 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c pdats (by rw [hp c]; exact (dat1 (fun c b => Wpre c b) c).share_full fun _ => rfl)
      (fun b => Wpre c b) (fun b => Wpost c b) ((pdats 1 c).arrAt · cfg1.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R2.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 2: a row-tiled linear layer, one block of rows of the output from the same rows of the input, the whole
   weight and the whole bias (pipeline 2), at the entry contents `V` -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block x: its staging buffer holds the block at every point, for any proof data whose array is the entry
    contents and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight W, whole at every point: fetched at the first point only, its block index never moves, so the buffer
    still holds the one block at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias b, whole at every point: as the weight. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole, through one rectangle -/

abbrev r2_0 : Rect S4096x64 := Rect.unit (s := S4096x64) ![0, 0] S4096x64.size inb_S4096x64_S4096x64_0_0
abbrev r2_1 : Rect S64x256 := Rect.unit (s := S64x256) ![0, 0] S64x256.size inb_S64x256_S64x256_0_0
abbrev r2_2 : Rect S1x256 := Rect.unit (s := S1x256) ![0, 0] S1x256.size inb_S1x256_S1x256_0_0
abbrev r2_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out2_3 (x0 : Vec F S4096x64 .f32) (x1 : Vec F S64x256 .f32) (x2 : Vec F S1x256 .f32) : Vec F S4096x256 .f32 :=
  View.canon [⟨r2_3, k2_pay1 (View.ld x0 r2_0) (View.ld x1 r2_1) (View.ld x2 r2_2)⟩]

/-- The one store is the whole block, so it covers it. -/
theorem cover2_3 (p0 : Vec F S4096x256 .f32) (y : S4096x256.Idx) :
    ∃ pc ∈ ([⟨r2_3, p0⟩] : List (View.Piece (Elt F) S4096x256 .f32)), y ∈ pc.1.set :=
  View.cover_of_tiled [⟨r2_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out2_3` of them. -/
theorem sound_kernel2 (c : Dev nD) (E : Set ℕ) (i : grid2.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t` each
    input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's case split reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg2.lean ====
import proofs.«142356_j74423193305351_1_alg».proof.Proof.KI.RunBase
import proofs.«142356_j74423193305351_1_alg».proof.Proof.KI.R2

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 2 as a segment of the run, for any proof-data family whose pipeline 2 is the region's own data -/

-- `iapply` of a library lemma stated over the pinned configuration unifies with it only when unification may unfold
-- plain definitions in a metavariable's type
set_option backward.isDefEq.respectTransparency.types false in
/-- REGION 2 over the thread state "every unscoped buffer at a valuation, the generator register at some state, nothing
    owed": entered from the valuation `Wpre`, left at `Wpost`, GIVEN that the family's data of pipeline 2 is `dat2` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg2_of (pdats : (p : Fin 15) → (c : Dev nD) → Dat τ (Elt F) Unit ℕ (UR sig nD τ) ℕ (cfgs p) c)
    (Wpre Wpost : Dev nD → Valuation τ sig (Elt F))
    (hp : ∀ c, pdats 2 c = dat2 (fun c b => Wpre c b) c)
    (hF : ∀ c (w : Fin cfg2.W), (dat2 (fun c b => Wpre c b) c).arrAt w cfg2.N = Wpost c (Pipeline.arrRef spec2 w))
    (hrest : ∀ c (b : Ref sig .tc), b ∉ Finset.univ.image (Pipeline.arrRef spec2) → Wpost c b = Wpre c b) :
    Pipeline.RegionSeg (pcfgs (F := F)) GenP.adm pdats () defs₀ 𝒱₀ L lv 2 where
  win := launch2.win.to₀
  block_pos := launch2.block_pos
  stage_whole := launch2.stage_whole
  K := PEmpty
  osem k := k.elim
  ho := Pipeline.OwnSemFacts.none _
  hbody c := by rw [hp c]; exact (body_obligation2 (fun c b => Wpre c b) c).loose
  hwaits := Pipeline.hwaits_of_owed_zero _ _ _ _ L lv 2 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec2 c (fun b => Wpre c b)
  hentry c := by
    rw [Pipeline.ownSems0_none]
    have hsplit := Pipeline.arrays_of_unscopedBufs (p := 2) (pcfgs (F := F)) GenP.adm pdats launch2.win launch2.arr_whole c
      (by rw [hp c]; exact (dat2 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 2 c).Φ 0 = Pipeline.ΦA spec2 c from by rw [hp c]; rfl]; unfold Pipeline.ΦA
    iintro ⟨Hp, -, Hr⟩
    isplitl [Hr]; · iexact Hr
    iexact Hp
  hout c := by
    rw [Pipeline.ownSems0_none, show (pdats 2 c).Φ (Fin.last _) = Pipeline.ΦA spec2 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c pdats (by rw [hp c]; exact (dat2 (fun c b => Wpre c b) c).share_full fun _ => rfl)
      (fun b => Wpre c b) (fun b => Wpost c b) ((pdats 2 c).arrAt · cfg2.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R3.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 3 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not it is fetched there
    (an unfetched window's block index has not moved since the previous point), for any proof data whose array is
    `V`'s (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole, through one rectangle per shape -/

abbrev r3_0 : Rect S4096x64 := Rect.unit (s := S4096x64) ![0, 0] S4096x64.size inb_S4096x64_S4096x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in each output window's buffer -/

/-- Window 6's staging buffer after the body, from the input windows' blocks: its one store, of the whole buffer. -/
def out3_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay1 (View.ld x0 r3_0) (View.ld x1 r3_1) (View.ld x2 r3_2) (View.ld x3 r3_0) (View.ld x4 r3_0)⟩]

/-- The one stored rectangle is the whole buffer, so it covers it. -/
theorem cover3_6 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-- Window 7's staging buffer after the body, from the input windows' blocks: its one store, of the whole buffer. -/
def out3_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay2 (View.ld x0 r3_0) (View.ld x1 r3_1) (View.ld x2 r3_2) (View.ld x3 r3_0) (View.ld x4 r3_0)⟩]

/-- The one stored rectangle is the whole buffer, so it covers it. -/
theorem cover3_7 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-- Window 8's staging buffer after the body, from the input windows' blocks: its one store, of the whole buffer. -/
def out3_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r3_0, k3_pay3 (View.ld x0 r3_0) (View.ld x1 r3_1) (View.ld x2 r3_2) (View.ld x3 r3_0) (View.ld x4 r3_0) (View.ld x5 r3_0)⟩]

/-- The one stored rectangle is the whole buffer, so it covers it. -/
theorem cover3_8 (p0 : Vec F S4096x64 .f32) (y : S4096x64.Idx) :
    ∃ pc ∈ ([⟨r3_0, p0⟩] : List (View.Piece (Elt F) S4096x64 .f32)), y ∈ pc.1.set :=
  View.cover_of_tiled [⟨r3_0, p0⟩] S4096x64.size (by rfl) y

/-! ## The body's triple -/

set_option maxHeartbeats 4000000 in
/-- The kernel body on whole staging memrefs, the inputs' holding `xW` and the outputs' holding anything, runs to the
    continuation with the inputs' as they were and each output's at `out3_W` of the inputs: every load reads a whole
    buffer, the three loads of the output buffers are unused, and each store overwrites a whole output buffer. -/
theorem sound_kernel3 (c : Dev nD) (E : Set ℕ) (i : grid3.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5) ∗ owns (c : Thread nD τ) arg8 fullShare (out3_7 x0 x1 x2 x3 x4 x5) ∗ owns (c : Thread nD τ) arg9 fullShare (out3_8 x0 x1 x2 x3 x4 x5)) -∗ K ⟨⟩))
      ⊢ wp frame (wpE (defs₀ (F := F)) Variants.none c none) E (cc3__edge_update_kernel i arg1 harg1 arg2 harg2 arg3 harg3 arg4 harg4 arg5 harg5 arg6 harg6 arg7 harg7 arg8 harg8 arg9 harg9) K := by
  simp only [cc3__edge_update_kernel_eq_skeleton]; unfold cc3__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  isplitl [H7]
  · iexists _; isplitr
    swap; · iexact H7
    ipureintro
    exact View.read_writes_eq_canon _ _ _ (cover3_7 _)
  iexists _; isplitr
  swap; · iexact H8
  ipureintro
  exact View.read_writes_eq_canon _ _ _ (cover3_8 _)

/-! ## The pipeline's proof data -/

/-- The proof data of pipeline 3 on core `c`: the arrays as the region finds them (`V`); after the body at point `t`
    each input's buffer at its block and each output's at `out3_W` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced at a literal window). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg3.lean ====
import proofs.«142356_j74423193305351_1_alg».proof.Proof.KI.RunBase
import proofs.«142356_j74423193305351_1_alg».proof.Proof.KI.R3

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 3 as a segment of the run, for any proof-data family whose pipeline 3 is the region's own data -/

-- `iapply` of a library lemma stated over the pinned configuration unifies with it only when unification may unfold
-- plain definitions in a metavariable's type
set_option backward.isDefEq.respectTransparency.types false in
/-- REGION 3 over the thread state "every unscoped buffer at a valuation, the generator register at some state, nothing
    owed": entered from the valuation `Wpre`, left at `Wpost`, GIVEN that the family's data of pipeline 3 is `dat3` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg3_of (pdats : (p : Fin 15) → (c : Dev nD) → Dat τ (Elt F) Unit ℕ (UR sig nD τ) ℕ (cfgs p) c)
    (Wpre Wpost : Dev nD → Valuation τ sig (Elt F))
    (hp : ∀ c, pdats 3 c = dat3 (fun c b => Wpre c b) c)
    (hF : ∀ c (w : Fin cfg3.W), (dat3 (fun c b => Wpre c b) c).arrAt w cfg3.N = Wpost c (Pipeline.arrRef spec3 w))
    (hrest : ∀ c (b : Ref sig .tc), b ∉ Finset.univ.image (Pipeline.arrRef spec3) → Wpost c b = Wpre c b) :
    Pipeline.RegionSeg (pcfgs (F := F)) GenP.adm pdats () defs₀ 𝒱₀ L lv 3 where
  win := launch3.win.to₀
  block_pos := launch3.block_pos
  stage_whole := launch3.stage_whole
  K := PEmpty
  osem k := k.elim
  ho := Pipeline.OwnSemFacts.none _
  hbody c := by rw [hp c]; exact (body_obligation3 (fun c b => Wpre c b) c).loose
  hwaits := Pipeline.hwaits_of_owed_zero _ _ _ _ L lv 3 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec3 c (fun b => Wpre c b)
  hentry c := by
    rw [Pipeline.ownSems0_none]
    have hsplit := Pipeline.arrays_of_unscopedBufs (p := 3) (pcfgs (F := F)) GenP.adm pdats launch3.win launch3.arr_whole c
      (by rw [hp c]; exact (dat3 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 3 c).Φ 0 = Pipeline.ΦA spec3 c from by rw [hp c]; rfl]; unfold Pipeline.ΦA
    iintro ⟨Hp, -, Hr⟩
    isplitl [Hr]; · iexact Hr
    iexact Hp
  hout c := by
    rw [Pipeline.ownSems0_none, show (pdats 3 c).Φ (Fin.last _) = Pipeline.ΦA spec3 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c pdats (by rw [hp c]; exact (dat3 (fun c b => Wpre c b) c).share_full fun _ => rfl)
      (fun b => Wpre c b) (fun b => Wpost c b) ((pdats 3 c).arrAt · cfg3.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R4.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 4 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (the mean row): its block index is constant, so it is fetched at the first point only. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 (the variance row). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 (the scale row). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 (the shift row). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 (the block of rows of the old features), fetched at every point. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole block of rows. -/
abbrev r4_0 : Rect S8192x64 := Rect.unit (s := S8192x64) ![0, 0] S8192x64.size inb_S8192x64_S8192x64_0_0
/-- The whole one-row block. -/
abbrev r4_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out4_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r4_0, k4_pay1 (View.ld x0 r4_0) (View.ld x1 r4_1) (View.ld x2 r4_1) (View.ld x3 r4_1) (View.ld x4 r4_1) (View.ld x5 r4_0)⟩]

/-- The one store is the whole buffer, so it covers it. -/
theorem cover4_6 (p0 : Vec F S8192x64 .f32) (y : S8192x64.Idx) :
    ∃ pc ∈ ([⟨r4_0, p0⟩] : List (View.Piece (Elt F) S8192x64 .f32)), y ∈ pc.1.set :=
  View.cover_of_tiled [⟨r4_0, p0⟩] S8192x64.size (by rfl) y

/-! ## The body's triple -/

set_option maxHeartbeats 1000000 in
/-- The kernel body on whole staging memrefs, the inputs' at contents x0 .. x5 and the output's at anything,
    runs to the continuation with the inputs' as they were and the output's at out4_6 of the inputs': the
    printed function is its skeleton; its loads read the owned buffers (the load of the output buffer
    before the store reads whatever it held and its value is not used), and its one store writes the payload. -/
theorem sound_kernel4 (c : Dev nD) (E : Set ℕ) (i : grid4.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E (cc4__bn_relu_res_kernel i arg1 harg1 arg2 harg2 arg3 harg3 arg4 harg4 arg5 harg5 arg6 harg6 arg7 harg7) K := by
  simp only [cc4__bn_relu_res_kernel_eq_skeleton]; unfold cc4__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core c: the arrays as the region finds them; after the body at point t
    each input's buffer at its block and the output's at out4_6 of the input blocks; the invariant that of a
    body touching only its windows (the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's match reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg4.lean ====
import proofs.«142356_j74423193305351_1_alg».proof.Proof.KI.RunBase
import proofs.«142356_j74423193305351_1_alg».proof.Proof.KI.R4

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 4 as a segment of the run, for any proof-data family whose pipeline 4 is the region's own data -/

-- `iapply` of a library lemma stated over the pinned configuration unifies with it only when unification may unfold
-- plain definitions in a metavariable's type
set_option backward.isDefEq.respectTransparency.types false in
/-- REGION 4 over the thread state "every unscoped buffer at a valuation, the generator register at some state, nothing
    owed": entered from the valuation `Wpre`, left at `Wpost`, GIVEN that the family's data of pipeline 4 is `dat4` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg4_of (pdats : (p : Fin 15) → (c : Dev nD) → Dat τ (Elt F) Unit ℕ (UR sig nD τ) ℕ (cfgs p) c)
    (Wpre Wpost : Dev nD → Valuation τ sig (Elt F))
    (hp : ∀ c, pdats 4 c = dat4 (fun c b => Wpre c b) c)
    (hF : ∀ c (w : Fin cfg4.W), (dat4 (fun c b => Wpre c b) c).arrAt w cfg4.N = Wpost c (Pipeline.arrRef spec4 w))
    (hrest : ∀ c (b : Ref sig .tc), b ∉ Finset.univ.image (Pipeline.arrRef spec4) → Wpost c b = Wpre c b) :
    Pipeline.RegionSeg (pcfgs (F := F)) GenP.adm pdats () defs₀ 𝒱₀ L lv 4 where
  win := launch4.win.to₀
  block_pos := launch4.block_pos
  stage_whole := launch4.stage_whole
  K := PEmpty
  osem k := k.elim
  ho := Pipeline.OwnSemFacts.none _
  hbody c := by rw [hp c]; exact (body_obligation4 (fun c b => Wpre c b) c).loose
  hwaits := Pipeline.hwaits_of_owed_zero _ _ _ _ L lv 4 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec4 c (fun b => Wpre c b)
  hentry c := by
    rw [Pipeline.ownSems0_none]
    have hsplit := Pipeline.arrays_of_unscopedBufs (p := 4) (pcfgs (F := F)) GenP.adm pdats launch4.win launch4.arr_whole c
      (by rw [hp c]; exact (dat4 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 4 c).Φ 0 = Pipeline.ΦA spec4 c from by rw [hp c]; rfl]; unfold Pipeline.ΦA
    iintro ⟨Hp, -, Hr⟩
    isplitl [Hr]; · iexact Hr
    iexact Hp
  hout c := by
    rw [Pipeline.ownSems0_none, show (pdats 4 c).Φ (Fin.last _) = Pipeline.ΦA spec4 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c pdats (by rw [hp c]; exact (dat4 (fun c b => Wpre c b) c).share_full fun _ => rfl)
      (fun b => Wpre c b) (fun b => Wpost c b) ((pdats 4 c).arrAt · cfg4.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R5.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 5 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1 (the mean row): its block index is constant, so it is fetched at the first point only. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2 (the variance row). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3 (the scale row). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Window 4 (the shift row). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Window 5 (the block of rows of the old features), fetched at every point. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole block of rows. -/
abbrev r5_0 : Rect S8192x64 := Rect.unit (s := S8192x64) ![0, 0] S8192x64.size inb_S8192x64_S8192x64_0_0
/-- The whole one-row block. -/
abbrev r5_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out5_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r5_0, k5_pay1 (View.ld x0 r5_0) (View.ld x1 r5_1) (View.ld x2 r5_1) (View.ld x3 r5_1) (View.ld x4 r5_1) (View.ld x5 r5_0)⟩]

/-- The one store is the whole buffer, so it covers it. -/
theorem cover5_6 (p0 : Vec F S8192x64 .f32) (y : S8192x64.Idx) :
    ∃ pc ∈ ([⟨r5_0, p0⟩] : List (View.Piece (Elt F) S8192x64 .f32)), y ∈ pc.1.set :=
  View.cover_of_tiled [⟨r5_0, p0⟩] S8192x64.size (by rfl) y

/-! ## The body's triple -/

set_option maxHeartbeats 1000000 in
/-- The kernel body on whole staging memrefs, the inputs' at contents x0 .. x5 and the output's at anything,
    runs to the continuation with the inputs' as they were and the output's at out5_6 of the inputs': the
    printed function is its skeleton; its loads read the owned buffers (the load of the output buffer
    before the store reads whatever it held and its value is not used), and its one store writes the payload. -/
theorem sound_kernel5 (c : Dev nD) (E : Set ℕ) (i : grid5.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__bn_relu_res_kernel i arg1 harg1 arg2 harg2 arg3 harg3 arg4 harg4 arg5 harg5 arg6 harg6 arg7 harg7) K := by
  simp only [cc5__bn_relu_res_kernel_eq_skeleton]; unfold cc5__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core c: the arrays as the region finds them; after the body at point t
    each input's buffer at its block and the output's at out5_6 of the input blocks; the invariant that of a
    body touching only its windows (the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's match reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point t (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the body's triple applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Reg5.lean ====
import proofs.«142356_j74423193305351_1_alg».proof.Proof.KI.RunBase
import proofs.«142356_j74423193305351_1_alg».proof.Proof.KI.R5

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 5 as a segment of the run, for any proof-data family whose pipeline 5 is the region's own data -/

-- `iapply` of a library lemma stated over the pinned configuration unifies with it only when unification may unfold
-- plain definitions in a metavariable's type
set_option backward.isDefEq.respectTransparency.types false in
/-- REGION 5 over the thread state "every unscoped buffer at a valuation, the generator register at some state, nothing
    owed": entered from the valuation `Wpre`, left at `Wpost`, GIVEN that the family's data of pipeline 5 is `dat5` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg5_of (pdats : (p : Fin 15) → (c : Dev nD) → Dat τ (Elt F) Unit ℕ (UR sig nD τ) ℕ (cfgs p) c)
    (Wpre Wpost : Dev nD → Valuation τ sig (Elt F))
    (hp : ∀ c, pdats 5 c = dat5 (fun c b => Wpre c b) c)
    (hF : ∀ c (w : Fin cfg5.W), (dat5 (fun c b => Wpre c b) c).arrAt w cfg5.N = Wpost c (Pipeline.arrRef spec5 w))
    (hrest : ∀ c (b : Ref sig .tc), b ∉ Finset.univ.image (Pipeline.arrRef spec5) → Wpost c b = Wpre c b) :
    Pipeline.RegionSeg (pcfgs (F := F)) GenP.adm pdats () defs₀ 𝒱₀ L lv 5 where
  win := launch5.win.to₀
  block_pos := launch5.block_pos
  stage_whole := launch5.stage_whole
  K := PEmpty
  osem k := k.elim
  ho := Pipeline.OwnSemFacts.none _
  hbody c := by rw [hp c]; exact (body_obligation5 (fun c b => Wpre c b) c).loose
  hwaits := Pipeline.hwaits_of_owed_zero _ _ _ _ L lv 5 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec5 c (fun b => Wpre c b)
  hentry c := by
    rw [Pipeline.ownSems0_none]
    have hsplit := Pipeline.arrays_of_unscopedBufs (p := 5) (pcfgs (F := F)) GenP.adm pdats launch5.win launch5.arr_whole c
      (by rw [hp c]; exact (dat5 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 5 c).Φ 0 = Pipeline.ΦA spec5 c from by rw [hp c]; rfl]; unfold Pipeline.ΦA
    iintro ⟨Hp, -, Hr⟩
    isplitl [Hr]; · iexact Hr
    iexact Hp
  hout c := by
    rw [Pipeline.ownSems0_none, show (pdats 5 c).Φ (Fin.last _) = Pipeline.ΦA spec5 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c pdats (by rw [hp c]; exact (dat5 (fun c b => Wpre c b) c).share_full fun _ => rfl)
      (fun b => Wpre c b) (fun b => Wpost c b) ((pdats 5 c).arrAt · cfg5.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R6.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 6: a row-tiled linear layer, one block of rows of the output from the same rows of the input, the whole
   weight and the whole bias (pipeline 6), at the entry contents `V` -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block x: its staging buffer holds the block at every point, for any proof data whose array is the entry
    contents and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The weight W, whole at every point: fetched at the first point only, its block index never moves, so the buffer
    still holds the one block at every later point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The bias b, whole at every point: as the weight. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window whole, through one rectangle -/

abbrev r6_0 : Rect S4096x64 := Rect.unit (s := S4096x64) ![0, 0] S4096x64.size inb_S4096x64_S4096x64_0_0
abbrev r6_1 : Rect S64x256 := Rect.unit (s := S64x256) ![0, 0] S64x256.size inb_S64x256_S64x256_0_0
abbrev r6_2 : Rect S1x256 := Rect.unit (s := S1x256) ![0, 0] S1x256.size inb_S1x256_S1x256_0_0
abbrev r6_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out6_3 (x0 : Vec F S4096x64 .f32) (x1 : Vec F S64x256 .f32) (x2 : Vec F S1x256 .f32) : Vec F S4096x256 .f32 :=
  View.canon [⟨r6_3, k6_pay1 (View.ld x0 r6_0) (View.ld x1 r6_1) (View.ld x2 r6_2)⟩]

/-- The one store is the whole block, so it covers it. -/
theorem cover6_3 (p0 : Vec F S4096x256 .f32) (y : S4096x256.Idx) :
    ∃ pc ∈ ([⟨r6_3, p0⟩] : List (View.Piece (Elt F) S4096x256 .f32)), y ∈ pc.1.set :=
  View.cover_of_tiled [⟨r6_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out6_3` of them. -/
theorem sound_kernel6 (c : Dev nD) (E : Set ℕ) (i : grid6.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them; after the body at point `t` each
    input's buffer at its block and the output's at `out6_3` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's case split reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg6.lean ====
import proofs.«142356_j74423193305351_1_alg».proof.Proof.KI.RunBase
import proofs.«142356_j74423193305351_1_alg».proof.Proof.KI.R6

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 6 as a segment of the run, for any proof-data family whose pipeline 6 is the region's own data -/

-- `iapply` of a library lemma stated over the pinned configuration unifies with it only when unification may unfold
-- plain definitions in a metavariable's type
set_option backward.isDefEq.respectTransparency.types false in
/-- REGION 6 over the thread state "every unscoped buffer at a valuation, the generator register at some state, nothing
    owed": entered from the valuation `Wpre`, left at `Wpost`, GIVEN that the family's data of pipeline 6 is `dat6` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg6_of (pdats : (p : Fin 15) → (c : Dev nD) → Dat τ (Elt F) Unit ℕ (UR sig nD τ) ℕ (cfgs p) c)
    (Wpre Wpost : Dev nD → Valuation τ sig (Elt F))
    (hp : ∀ c, pdats 6 c = dat6 (fun c b => Wpre c b) c)
    (hF : ∀ c (w : Fin cfg6.W), (dat6 (fun c b => Wpre c b) c).arrAt w cfg6.N = Wpost c (Pipeline.arrRef spec6 w))
    (hrest : ∀ c (b : Ref sig .tc), b ∉ Finset.univ.image (Pipeline.arrRef spec6) → Wpost c b = Wpre c b) :
    Pipeline.RegionSeg (pcfgs (F := F)) GenP.adm pdats () defs₀ 𝒱₀ L lv 6 where
  win := launch6.win.to₀
  block_pos := launch6.block_pos
  stage_whole := launch6.stage_whole
  K := PEmpty
  osem k := k.elim
  ho := Pipeline.OwnSemFacts.none _
  hbody c := by rw [hp c]; exact (body_obligation6 (fun c b => Wpre c b) c).loose
  hwaits := Pipeline.hwaits_of_owed_zero _ _ _ _ L lv 6 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec6 c (fun b => Wpre c b)
  hentry c := by
    rw [Pipeline.ownSems0_none]
    have hsplit := Pipeline.arrays_of_unscopedBufs (p := 6) (pcfgs (F := F)) GenP.adm pdats launch6.win launch6.arr_whole c
      (by rw [hp c]; exact (dat6 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 6 c).Φ 0 = Pipeline.ΦA spec6 c from by rw [hp c]; rfl]; unfold Pipeline.ΦA
    iintro ⟨Hp, -, Hr⟩
    isplitl [Hr]; · iexact Hr
    iexact Hp
  hout c := by
    rw [Pipeline.ownSems0_none, show (pdats 6 c).Φ (Fin.last _) = Pipeline.ΦA spec6 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c pdats (by rw [hp c]; exact (dat6 (fun c b => Wpre c b) c).share_full fun _ => rfl)
      (fun b => Wpre c b) (fun b => Wpost c b) ((pdats 6 c).arrAt · cfg6.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R7.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 7 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not it is fetched there
    (an unfetched window's block index has not moved since the previous point), for any proof data whose array is
    `V`'s (`hA`) and whose body leaves the block in place (`hafter`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole, through one rectangle per shape -/

abbrev r7_0 : Rect S4096x64 := Rect.unit (s := S4096x64) ![0, 0] S4096x64.size inb_S4096x64_S4096x64_0_0
abbrev r7_1 : Rect S64x64 := Rect.unit (s := S64x64) ![0, 0] S64x64.size inb_S64x64_S64x64_0_0
abbrev r7_2 : Rect S1x64 := Rect.unit (s := S1x64) ![0, 0] S1x64.size inb_S1x64_S1x64_0_0

/-! ## What the body leaves in each output window's buffer -/

/-- Window 6's staging buffer after the body, from the input windows' blocks: its one store, of the whole buffer. -/
def out7_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay1 (View.ld x0 r7_0) (View.ld x1 r7_1) (View.ld x2 r7_2) (View.ld x3 r7_0) (View.ld x4 r7_0)⟩]

/-- The one stored rectangle is the whole buffer, so it covers it. -/
theorem cover7_6 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-- Window 7's staging buffer after the body, from the input windows' blocks: its one store, of the whole buffer. -/
def out7_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay2 (View.ld x0 r7_0) (View.ld x1 r7_1) (View.ld x2 r7_2) (View.ld x3 r7_0) (View.ld x4 r7_0)⟩]

/-- The one stored rectangle is the whole buffer, so it covers it. -/
theorem cover7_7 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-- Window 8's staging buffer after the body, from the input windows' blocks: its one store, of the whole buffer. -/
def out7_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r7_0, k7_pay3 (View.ld x0 r7_0) (View.ld x1 r7_1) (View.ld x2 r7_2) (View.ld x3 r7_0) (View.ld x4 r7_0) (View.ld x5 r7_0)⟩]

/-- The one stored rectangle is the whole buffer, so it covers it. -/
theorem cover7_8 (p0 : Vec F S4096x64 .f32) (y : S4096x64.Idx) :
    ∃ pc ∈ ([⟨r7_0, p0⟩] : List (View.Piece (Elt F) S4096x64 .f32)), y ∈ pc.1.set :=
  View.cover_of_tiled [⟨r7_0, p0⟩] S4096x64.size (by rfl) y

/-! ## The body's triple -/

set_option maxHeartbeats 4000000 in
/-- The kernel body on whole staging memrefs, the inputs' holding `xW` and the outputs' holding anything, runs to the
    continuation with the inputs' as they were and each output's at `out7_W` of the inputs: every load reads a whole
    buffer, the three loads of the output buffers are unused, and each store overwrites a whole output buffer. -/
theorem sound_kernel7 (c : Dev nD) (E : Set ℕ) (i : grid7.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5) ∗ owns (c : Thread nD τ) arg8 fullShare (out7_7 x0 x1 x2 x3 x4 x5) ∗ owns (c : Thread nD τ) arg9 fullShare (out7_8 x0 x1 x2 x3 x4 x5)) -∗ K ⟨⟩))
      ⊢ wp frame (wpE (defs₀ (F := F)) Variants.none c none) E (cc7__edge_update_kernel i arg1 harg1 arg2 harg2 arg3 harg3 arg4 harg4 arg5 harg5 arg6 harg6 arg7 harg7 arg8 harg8 arg9 harg9) K := by
  simp only [cc7__edge_update_kernel_eq_skeleton]; unfold cc7__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover7_6 _)
  isplitl [H7]
  · iexists _; isplitr
    swap; · iexact H7
    ipureintro
    exact View.read_writes_eq_canon _ _ _ (cover7_7 _)
  iexists _; isplitr
  swap; · iexact H8
  ipureintro
  exact View.read_writes_eq_canon _ _ _ (cover7_8 _)

/-! ## The pipeline's proof data -/

/-- The proof data of pipeline 7 on core `c`: the arrays as the region finds them (`V`); after the body at point `t`
    each input's buffer at its block and each output's at `out7_W` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
    | ⟨8, _⟩ => out7_8 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced at a literal window). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Reg7.lean ====
import proofs.«142356_j74423193305351_1_alg».proof.Proof.KI.RunBase
import proofs.«142356_j74423193305351_1_alg».proof.Proof.KI.R7

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 7 as a segment of the run, for any proof-data family whose pipeline 7 is the region's own data -/

-- `iapply` of a library lemma stated over the pinned configuration unifies with it only when unification may unfold
-- plain definitions in a metavariable's type
set_option backward.isDefEq.respectTransparency.types false in
/-- REGION 7 over the thread state "every unscoped buffer at a valuation, the generator register at some state, nothing
    owed": entered from the valuation `Wpre`, left at `Wpost`, GIVEN that the family's data of pipeline 7 is `dat7` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg7_of (pdats : (p : Fin 15) → (c : Dev nD) → Dat τ (Elt F) Unit ℕ (UR sig nD τ) ℕ (cfgs p) c)
    (Wpre Wpost : Dev nD → Valuation τ sig (Elt F))
    (hp : ∀ c, pdats 7 c = dat7 (fun c b => Wpre c b) c)
    (hF : ∀ c (w : Fin cfg7.W), (dat7 (fun c b => Wpre c b) c).arrAt w cfg7.N = Wpost c (Pipeline.arrRef spec7 w))
    (hrest : ∀ c (b : Ref sig .tc), b ∉ Finset.univ.image (Pipeline.arrRef spec7) → Wpost c b = Wpre c b) :
    Pipeline.RegionSeg (pcfgs (F := F)) GenP.adm pdats () defs₀ 𝒱₀ L lv 7 where
  win := launch7.win.to₀
  block_pos := launch7.block_pos
  stage_whole := launch7.stage_whole
  K := PEmpty
  osem k := k.elim
  ho := Pipeline.OwnSemFacts.none _
  hbody c := by rw [hp c]; exact (body_obligation7 (fun c b => Wpre c b) c).loose
  hwaits := Pipeline.hwaits_of_owed_zero _ _ _ _ L lv 7 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec7 c (fun b => Wpre c b)
  hentry c := by
    rw [Pipeline.ownSems0_none]
    have hsplit := Pipeline.arrays_of_unscopedBufs (p := 7) (pcfgs (F := F)) GenP.adm pdats launch7.win launch7.arr_whole c
      (by rw [hp c]; exact (dat7 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 7 c).Φ 0 = Pipeline.ΦA spec7 c from by rw [hp c]; rfl]; unfold Pipeline.ΦA
    iintro ⟨Hp, -, Hr⟩
    isplitl [Hr]; · iexact Hr
    iexact Hp
  hout c := by
    rw [Pipeline.ownSems0_none, show (pdats 7 c).Φ (Fin.last _) = Pipeline.ΦA spec7 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c pdats (by rw [hp c]; exact (dat7 (fun c b => Wpre c b) c).share_full fun _ => rfl)
      (fun b => Wpre c b) (fun b => Wpost c b) ((pdats 7 c).arrAt · cfg7.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R8.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 8 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Window 1 (the mean row): its block index is constant, so it is fetched at the first point only. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Window 2 (the variance row). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Window 3 (the scale row). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Window 4 (the shift row). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Window 5 (the block of rows of the old features), fetched at every point. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole block of rows. -/
abbrev r8_0 : Rect S8192x64 := Rect.unit (s := S8192x64) ![0, 0] S8192x64.size inb_S8192x64_S8192x64_0_0
/-- The whole one-row block. -/
abbrev r8_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out8_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r8_0, k8_pay1 (View.ld x0 r8_0) (View.ld x1 r8_1) (View.ld x2 r8_1) (View.ld x3 r8_1) (View.ld x4 r8_1) (View.ld x5 r8_0)⟩]

/-- The one store is the whole buffer, so it covers it. -/
theorem cover8_6 (p0 : Vec F S8192x64 .f32) (y : S8192x64.Idx) :
    ∃ pc ∈ ([⟨r8_0, p0⟩] : List (View.Piece (Elt F) S8192x64 .f32)), y ∈ pc.1.set :=
  View.cover_of_tiled [⟨r8_0, p0⟩] S8192x64.size (by rfl) y

/-! ## The body's triple -/

set_option maxHeartbeats 1000000 in
/-- The kernel body on whole staging memrefs, the inputs' at contents x0 .. x5 and the output's at anything,
    runs to the continuation with the inputs' as they were and the output's at out8_6 of the inputs': the
    printed function is its skeleton; its loads read the owned buffers (the load of the output buffer
    before the store reads whatever it held and its value is not used), and its one store writes the payload. -/
theorem sound_kernel8 (c : Dev nD) (E : Set ℕ) (i : grid8.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__bn_relu_res_kernel i arg1 harg1 arg2 harg2 arg3 harg3 arg4 harg4 arg5 harg5 arg6 harg6 arg7 harg7) K := by
  simp only [cc8__bn_relu_res_kernel_eq_skeleton]; unfold cc8__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The proof data of pipeline 8 on core c: the arrays as the region finds them; after the body at point t
    each input's buffer at its block and the output's at out8_6 of the input blocks; the invariant that of a
    body touching only its windows (the scoped rest and the generator register, untouched); nothing owed;
    full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the proof data's match reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point t (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

/-- The body at any point: the inputs' memrefs hold their blocks, so the body's triple applies; the invariant
    and what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ (grid8.coords t) _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg8.lean ====
import proofs.«142356_j74423193305351_1_alg».proof.Proof.KI.RunBase
import proofs.«142356_j74423193305351_1_alg».proof.Proof.KI.R8

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 8 as a segment of the run, for any proof-data family whose pipeline 8 is the region's own data -/

-- `iapply` of a library lemma stated over the pinned configuration unifies with it only when unification may unfold
-- plain definitions in a metavariable's type
set_option backward.isDefEq.respectTransparency.types false in
/-- REGION 8 over the thread state "every unscoped buffer at a valuation, the generator register at some state, nothing
    owed": entered from the valuation `Wpre`, left at `Wpost`, GIVEN that the family's data of pipeline 8 is `dat8` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg8_of (pdats : (p : Fin 15) → (c : Dev nD) → Dat τ (Elt F) Unit ℕ (UR sig nD τ) ℕ (cfgs p) c)
    (Wpre Wpost : Dev nD → Valuation τ sig (Elt F))
    (hp : ∀ c, pdats 8 c = dat8 (fun c b => Wpre c b) c)
    (hF : ∀ c (w : Fin cfg8.W), (dat8 (fun c b => Wpre c b) c).arrAt w cfg8.N = Wpost c (Pipeline.arrRef spec8 w))
    (hrest : ∀ c (b : Ref sig .tc), b ∉ Finset.univ.image (Pipeline.arrRef spec8) → Wpost c b = Wpre c b) :
    Pipeline.RegionSeg (pcfgs (F := F)) GenP.adm pdats () defs₀ 𝒱₀ L lv 8 where
  win := launch8.win.to₀
  block_pos := launch8.block_pos
  stage_whole := launch8.stage_whole
  K := PEmpty
  osem k := k.elim
  ho := Pipeline.OwnSemFacts.none _
  hbody c := by rw [hp c]; exact (body_obligation8 (fun c b => Wpre c b) c).loose
  hwaits := Pipeline.hwaits_of_owed_zero _ _ _ _ L lv 8 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec8 c (fun b => Wpre c b)
  hentry c := by
    rw [Pipeline.ownSems0_none]
    have hsplit := Pipeline.arrays_of_unscopedBufs (p := 8) (pcfgs (F := F)) GenP.adm pdats launch8.win launch8.arr_whole c
      (by rw [hp c]; exact (dat8 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 8 c).Φ 0 = Pipeline.ΦA spec8 c from by rw [hp c]; rfl]; unfold Pipeline.ΦA
    iintro ⟨Hp, -, Hr⟩
    isplitl [Hr]; · iexact Hr
    iexact Hp
  hout c := by
    rw [Pipeline.ownSems0_none, show (pdats 8 c).Φ (Fin.last _) = Pipeline.ΦA spec8 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c pdats (by rw [hp c]; exact (dat8 (fun c b => Wpre c b) c).share_full fun _ => rfl)
      (fun b => Wpre c b) (fun b => Wpost c b) ((pdats 8 c).arrAt · cfg8.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R9.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 9 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Window 1 (the mean row): its block index is constant, so it is fetched at the first point only. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Window 2 (the variance row). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Window 3 (the scale row). -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Window 4 (the shift row). -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Window 5 (the block of rows of the old features), fetched at every point. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole block of rows. -/
abbrev r9_0 : Rect S8192x64 := Rect.unit (s := S8192x64) ![0, 0] S8192x64.size inb_S8192x64_S8192x64_0_0
/-- The whole one-row block. -/
abbrev r9_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out9_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r9_0, k9_pay1 (View.ld x0 r9_0) (View.ld x1 r9_1) (View.ld x2 r9_1) (View.ld x3 r9_1) (View.ld x4 r9_1) (View.ld x5 r9_0)⟩]

/-- The one store is the whole buffer, so it covers it. -/
theorem cover9_6 (p0 : Vec F S8192x64 .f32) (y : S8192x64.Idx) :
    ∃ pc ∈ ([⟨r9_0, p0⟩] : List (View.Piece (Elt F) S8192x64 .f32)), y ∈ pc.1.set :=
  View.cover_of_tiled [⟨r9_0, p0⟩] S8192x64.size (by rfl) y

/-! ## The body's triple -/

set_option maxHeartbeats 1000000 in
/-- The kernel body on whole staging memrefs, the inputs' at contents x0 .. x5 and the output's at anything,
    runs to the continuation with the inputs' as they were and the output's at out9_6 of the inputs': the
    printed function is its skeleton; its loads read the owned buffers (the load of the output buffer
    before the store reads whatever it held and its value is not used), and its one store writes the payload. -/
theorem sound_kernel9 (c : Dev nD) (E : Set ℕ) (i : grid9.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out9_6 x0 x1 x2 x3 x4 x5)) -∗ K ⟨⟩))
      ⊢ wp frame (wpE (defs₀ (F := F)) Variants.none c none) E (cc9__bn_relu_res_kernel i arg1 harg1 arg2 harg2 arg3 harg3 arg4 harg4 arg5 harg5 arg6 harg6 arg7 harg7) K := by
  simp only [cc9__bn_relu_res_kernel_eq_skeleton]; unfold cc9__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-! ## The pipeline's proof data -/

/-- The proof data of pipeline 9 on core c: the arrays as the region finds them; after the body at point t
    each input's buffer at its block and the output's at out9_6 of the input blocks; the invariant that of a
    body touching only its windows (the scoped rest and the generator register, untouched); nothing owed;
    full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's match reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-! ## The body obligation, at a generic point -/

/-- What the body is called with at point t (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any point: the inputs' memrefs hold their blocks, so the body's triple applies; the invariant
    and what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.Reg9.lean ====
import proofs.«142356_j74423193305351_1_alg».proof.Proof.KI.RunBase
import proofs.«142356_j74423193305351_1_alg».proof.Proof.KI.R9

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 9 as a segment of the run, for any proof-data family whose pipeline 9 is the region's own data -/

-- `iapply` of a library lemma stated over the pinned configuration unifies with it only when unification may unfold
-- plain definitions in a metavariable's type
set_option backward.isDefEq.respectTransparency.types false in
/-- REGION 9 over the thread state "every unscoped buffer at a valuation, the generator register at some state, nothing
    owed": entered from the valuation `Wpre`, left at `Wpost`, GIVEN that the family's data of pipeline 9 is `dat9` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg9_of (pdats : (p : Fin 15) → (c : Dev nD) → Dat τ (Elt F) Unit ℕ (UR sig nD τ) ℕ (cfgs p) c)
    (Wpre Wpost : Dev nD → Valuation τ sig (Elt F))
    (hp : ∀ c, pdats 9 c = dat9 (fun c b => Wpre c b) c)
    (hF : ∀ c (w : Fin cfg9.W), (dat9 (fun c b => Wpre c b) c).arrAt w cfg9.N = Wpost c (Pipeline.arrRef spec9 w))
    (hrest : ∀ c (b : Ref sig .tc), b ∉ Finset.univ.image (Pipeline.arrRef spec9) → Wpost c b = Wpre c b) :
    Pipeline.RegionSeg (pcfgs (F := F)) GenP.adm pdats () defs₀ 𝒱₀ L lv 9 where
  win := launch9.win.to₀
  block_pos := launch9.block_pos
  stage_whole := launch9.stage_whole
  K := PEmpty
  osem k := k.elim
  ho := Pipeline.OwnSemFacts.none _
  hbody c := by rw [hp c]; exact (body_obligation9 (fun c b => Wpre c b) c).loose
  hwaits := Pipeline.hwaits_of_owed_zero _ _ _ _ L lv 9 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec9 c (fun b => Wpre c b)
  hentry c := by
    rw [Pipeline.ownSems0_none]
    have hsplit := Pipeline.arrays_of_unscopedBufs (p := 9) (pcfgs (F := F)) GenP.adm pdats launch9.win launch9.arr_whole c
      (by rw [hp c]; exact (dat9 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 9 c).Φ 0 = Pipeline.ΦA spec9 c from by rw [hp c]; rfl]; unfold Pipeline.ΦA
    iintro ⟨Hp, -, Hr⟩
    isplitl [Hr]; · iexact Hr
    iexact Hp
  hout c := by
    rw [Pipeline.ownSems0_none, show (pdats 9 c).Φ (Fin.last _) = Pipeline.ΦA spec9 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c pdats (by rw [hp c]; exact (dat9 (fun c b => Wpre c b) c).share_full fun _ => rfl)
      (fun b => Wpre c b) (fun b => Wpost c b) ((pdats 9 c).arrAt · cfg9.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R10.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the whole half is stated at
variable (V : (c : Dev nD) → (b : Ref sig .tc) → Buf (Elt F) ((c : Thread nD τ).loc b))

/-! # REGION 10: a row-tiled linear layer, one block of rows of the output from the same rows of the input, the whole
   weight and the whole bias (pipeline 10), at the entry contents `V` -/

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The row block x: its staging buffer holds the block at every point, for any proof data whose array is the entry
    contents and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The weight W, whole at every point: fetched at the first point only, its block index never moves, so the buffer
    still holds the one block at every later point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- The bias b, whole at every point: as the weight. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window whole, through one rectangle -/

abbrev r10_0 : Rect S4096x64 := Rect.unit (s := S4096x64) ![0, 0] S4096x64.size inb_S4096x64_S4096x64_0_0
abbrev r10_1 : Rect S64x256 := Rect.unit (s := S64x256) ![0, 0] S64x256.size inb_S64x256_S64x256_0_0
abbrev r10_2 : Rect S1x256 := Rect.unit (s := S1x256) ![0, 0] S1x256.size inb_S1x256_S1x256_0_0
abbrev r10_3 : Rect S4096x256 := Rect.unit (s := S4096x256) ![0, 0] S4096x256.size inb_S4096x256_S4096x256_0_0

/-! ## What the body leaves in the output window's buffer -/

/-- The output block after the body, from the three input blocks: its one store, the whole block, of the body's one
    payload of the three loaded blocks. -/
def out10_3 (x0 : Vec F S4096x64 .f32) (x1 : Vec F S64x256 .f32) (x2 : Vec F S1x256 .f32) : Vec F S4096x256 .f32 :=
  View.canon [⟨r10_3, k10_pay1 (View.ld x0 r10_0) (View.ld x1 r10_1) (View.ld x2 r10_2)⟩]

/-- The one store is the whole block, so it covers it. -/
theorem cover10_3 (p0 : Vec F S4096x256 .f32) (y : S4096x256.Idx) :
    ∃ pc ∈ ([⟨r10_3, p0⟩] : List (View.Piece (Elt F) S4096x256 .f32)), y ∈ pc.1.set :=
  View.cover_of_tiled [⟨r10_3, p0⟩] S4096x256.size (by rfl) y

/-! ## The body's triple -/

set_option maxHeartbeats 1000000 in
/-- The kernel body on whole staging memrefs, the inputs' at read contents x0, x1, x2 and the output's at anything, runs
    to the continuation holding the inputs' as they were and the output's at `out10_3` of them. -/
theorem sound_kernel10 (c : Dev nD) (E : Set ℕ) (i : grid10.Coords) (arg1 : Memref sig .tc .vmem S4096x64 .f32) (harg1 : arg1.IsWhole) (arg2 : Memref sig .tc .vmem S64x256 .f32) (harg2 : arg2.IsWhole) (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-! ## The pipeline's proof data -/

/-- The proof data of pipeline 10 on core `c`: the arrays as the region finds them; after the body at point `t` each
    input's buffer at its block and the output's at `out10_3` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the definition's case split reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point `t` (the obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' memrefs hold their blocks, so the body's triple applies; the invariant and the
    core's owed count pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ (grid10.coords t) _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg10.lean ====
import proofs.«142356_j74423193305351_1_alg».proof.Proof.KI.RunBase
import proofs.«142356_j74423193305351_1_alg».proof.Proof.KI.R10

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 10 as a segment of the run, for any proof-data family whose pipeline 10 is the region's own data -/

-- `iapply` of a library lemma stated over the pinned configuration unifies with it only when unification may unfold
-- plain definitions in a metavariable's type
set_option backward.isDefEq.respectTransparency.types false in
/-- REGION 10 over the thread state "every unscoped buffer at a valuation, the generator register at some state, nothing
    owed": entered from the valuation `Wpre`, left at `Wpost`, GIVEN that the family's data of pipeline 10 is `dat10` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg10_of (pdats : (p : Fin 15) → (c : Dev nD) → Dat τ (Elt F) Unit ℕ (UR sig nD τ) ℕ (cfgs p) c)
    (Wpre Wpost : Dev nD → Valuation τ sig (Elt F))
    (hp : ∀ c, pdats 10 c = dat10 (fun c b => Wpre c b) c)
    (hF : ∀ c (w : Fin cfg10.W), (dat10 (fun c b => Wpre c b) c).arrAt w cfg10.N = Wpost c (Pipeline.arrRef spec10 w))
    (hrest : ∀ c (b : Ref sig .tc), b ∉ Finset.univ.image (Pipeline.arrRef spec10) → Wpost c b = Wpre c b) :
    Pipeline.RegionSeg (pcfgs (F := F)) GenP.adm pdats () defs₀ 𝒱₀ L lv 10 where
  win := launch10.win.to₀
  block_pos := launch10.block_pos
  stage_whole := launch10.stage_whole
  K := PEmpty
  osem k := k.elim
  ho := Pipeline.OwnSemFacts.none _
  hbody c := by rw [hp c]; exact (body_obligation10 (fun c b => Wpre c b) c).loose
  hwaits := Pipeline.hwaits_of_owed_zero _ _ _ _ L lv 10 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec10 c (fun b => Wpre c b)
  hentry c := by
    rw [Pipeline.ownSems0_none]
    have hsplit := Pipeline.arrays_of_unscopedBufs (p := 10) (pcfgs (F := F)) GenP.adm pdats launch10.win launch10.arr_whole c
      (by rw [hp c]; exact (dat10 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 10 c).Φ 0 = Pipeline.ΦA spec10 c from by rw [hp c]; rfl]; unfold Pipeline.ΦA
    iintro ⟨Hp, -, Hr⟩
    isplitl [Hr]; · iexact Hr
    iexact Hp
  hout c := by
    rw [Pipeline.ownSems0_none, show (pdats 10 c).Φ (Fin.last _) = Pipeline.ΦA spec10 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c pdats (by rw [hp c]; exact (dat10 (fun c b => Wpre c b) c).share_full fun _ => rfl)
      (fun b => Wpre c b) (fun b => Wpost c b) ((pdats 10 c).arrAt · cfg10.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R11.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 11 of @main (the edge update), at the buffer contents `V` the region is entered with

Per grid point `t` the body reads six blocks — rows `4096·t … 4096·t+4095` of the edge features and of the three
gathered node arrays, and the whole weight matrix and bias row — and writes three blocks of the same rows: the
pre-activation `ê = e·W + b + Dh[src] + Eh[dst]`, the gate `σ(ê)` and the gated message `σ(ê)·Bh[src]`. This file
states what each staging buffer holds before and after the body at every point, and proves the body's triple. -/

-- membership in a rectangle of 4096 rows: the structural recursion goes once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, whether or not it is fetched there
    (an unfetched window's block index has not moved since the previous point), for any proof data whose array is
    `V`'s (`hA`) and whose body leaves the block in place (`hafter`); the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- Input window 1's current staging buffer holds its block at every point, whether or not it is fetched there
    (an unfetched window's block index has not moved since the previous point), for any proof data whose array is
    `V`'s (`hA`) and whose body leaves the block in place (`hafter`); the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- Input window 2's current staging buffer holds its block at every point, whether or not it is fetched there
    (an unfetched window's block index has not moved since the previous point), for any proof data whose array is
    `V`'s (`hA`) and whose body leaves the block in place (`hafter`); the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- Input window 3's current staging buffer holds its block at every point, whether or not it is fetched there
    (an unfetched window's block index has not moved since the previous point), for any proof data whose array is
    `V`'s (`hA`) and whose body leaves the block in place (`hafter`); the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- Input window 4's current staging buffer holds its block at every point, whether or not it is fetched there
    (an unfetched window's block index has not moved since the previous point), for any proof data whose array is
    `V`'s (`hA`) and whose body leaves the block in place (`hafter`); the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
/-- Input window 5's current staging buffer holds its block at every point, whether or not it is fetched there
    (an unfetched window's block index has not moved since the previous point), for any proof data whose array is
    `V`'s (`hA`) and whose body leaves the block in place (`hafter`); the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole, through one rectangle per shape -/

abbrev r11_0 : Rect S4096x64 := Rect.unit (s := S4096x64) ![0, 0] S4096x64.size inb_S4096x64_S4096x64_0_0
abbrev r11_1 : Rect S64x64 := Rect.unit (s := S64x64) ![0, 0] S64x64.size inb_S64x64_S64x64_0_0
abbrev r11_2 : Rect S1x64 := Rect.unit (s := S1x64) ![0, 0] S1x64.size inb_S1x64_S1x64_0_0

/-! ## What the body leaves in each output window's buffer -/

/-- Window 6's staging buffer after the body, from the input windows' blocks: its one store, of the whole buffer. -/
def out11_6 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay1 (View.ld x0 r11_0) (View.ld x1 r11_1) (View.ld x2 r11_2) (View.ld x3 r11_0) (View.ld x4 r11_0)⟩]

/-- The one stored rectangle is the whole buffer, so it covers it. -/
theorem cover11_6 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-- Window 7's staging buffer after the body, from the input windows' blocks: its one store, of the whole buffer. -/
def out11_7 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay2 (View.ld x0 r11_0) (View.ld x1 r11_1) (View.ld x2 r11_2) (View.ld x3 r11_0) (View.ld x4 r11_0)⟩]

/-- The one stored rectangle is the whole buffer, so it covers it. -/
theorem cover11_7 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-- Window 8's staging buffer after the body, from the input windows' blocks: its one store, of the whole buffer. -/
def out11_8 (x0 : Vec F S4096x64 .f32) (x1 : Vec F S64x64 .f32) (x2 : Vec F S1x64 .f32) (x3 : Vec F S4096x64 .f32) (x4 : Vec F S4096x64 .f32) (x5 : Vec F S4096x64 .f32) : Vec F S4096x64 .f32 :=
  View.canon [⟨r11_0, k11_pay3 (View.ld x0 r11_0) (View.ld x1 r11_1) (View.ld x2 r11_2) (View.ld x3 r11_0) (View.ld x4 r11_0) (View.ld x5 r11_0)⟩]

/-- The one stored rectangle is the whole buffer, so it covers it. -/
theorem cover11_8 (p0 : Vec F S4096x64 .f32) (y : S4096x64.Idx) :
    ∃ pc ∈ ([⟨r11_0, p0⟩] : List (View.Piece (Elt F) S4096x64 .f32)), y ∈ pc.1.set :=
  View.cover_of_tiled [⟨r11_0, p0⟩] S4096x64.size (by rfl) y

/-! ## The body's triple -/

set_option maxHeartbeats 4000000 in
/-- The kernel body on whole staging memrefs, the inputs' holding `xW` and the outputs' holding anything, runs to the
    continuation with the inputs' as they were and each output's at `out11_W` of the inputs: every load reads a whole
    buffer, the three loads of the output buffers are unused, and each store overwrites a whole output buffer. -/
theorem sound_kernel11 (c : Dev nD) (E : Set ℕ) (i : grid11.Coords) (arg1 : Memref sig .tc .vmem S4096x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S4096x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S4096x64 .f32) (harg7 : arg7.IsWhole) (arg8 : Memref sig .tc .vmem S4096x64 .f32) (harg8 : arg8.IsWhole) (arg9 : Memref sig .tc .vmem S4096x64 .f32) (harg9 : arg9.IsWhole)
    (x0 : Vec F S4096x64 .f32) (x1 : Vec F S64x64 .f32) (x2 : Vec F S1x64 .f32) (x3 : Vec F S4096x64 .f32) (x4 : Vec F S4096x64 .f32) (x5 : Vec F S4096x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5) ∗ owns (c : Thread nD τ) arg8 fullShare (out11_7 x0 x1 x2 x3 x4 x5) ∗ owns (c : Thread nD τ) arg9 fullShare (out11_8 x0 x1 x2 x3 x4 x5)) -∗ K ⟨⟩))
      ⊢ wp frame (wpE (defs₀ (F := F)) Variants.none c none) E (cc11__edge_update_kernel i arg1 harg1 arg2 harg2 arg3 harg3 arg4 harg4 arg5 harg5 arg6 harg6 arg7 harg7 arg8 harg8 arg9 harg9) K := by
  simp only [cc11__edge_update_kernel_eq_skeleton]; unfold cc11__edge_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover11_6 _)
  isplitl [H7]
  · iexists _; isplitr
    swap; · iexact H7
    ipureintro
    exact View.read_writes_eq_canon _ _ _ (cover11_7 _)
  iexists _; isplitr
  swap; · iexact H8
  ipureintro
  exact View.read_writes_eq_canon _ _ _ (cover11_8 _)

/-! ## The pipeline's proof data -/

/-- The proof data of pipeline 11 on core `c`: the arrays as the region finds them (`V`); after the body at point `t`
    each input's buffer at its block and each output's at `out11_W` of the input blocks; the invariant is the scoped
    rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
    | ⟨7, _⟩ => out11_7 (iblk11 V c 0 t) (iblk11 V c 1 t) (iblk11 V c 2 t) (iblk11 V c 3 t) (iblk11 V c 4 t) (iblk11 V c 5 t)
    | ⟨8, _⟩ => out11_8 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced at a literal window). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]
theorem after11_7 (c : Dev nD) (t : Fin cfg11.N) : (dat11 V c).after 7 t = out11_7 (iblk11 V c 0 t) (iblk11 V c 1 t) (iblk11 V c 2 t) (iblk11 V c 3 t) (iblk11 V c 4 t) (iblk11 V c 5 t) := by dsimp only [dat11]
theorem after11_8 (c : Dev nD) (t : Fin cfg11.N) : (dat11 V c).after 8 t = out11_8 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t))

/-- The body at any point: the inputs' memrefs hold their blocks (`before11_W`), so `sound_kernel11` applies; the
    invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel11 c Set.univ (grid11.coords t) _ _ _ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.Reg11.lean ====
import proofs.«142356_j74423193305351_1_alg».proof.Proof.KI.RunBase
import proofs.«142356_j74423193305351_1_alg».proof.Proof.KI.R11

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 11 as a segment of the run, for any proof-data family whose pipeline 11 is the region's own data -/

-- `iapply` of a library lemma stated over the pinned configuration unifies with it only when unification may unfold
-- plain definitions in a metavariable's type
set_option backward.isDefEq.respectTransparency.types false in
/-- REGION 11 over the thread state "every unscoped buffer at a valuation, the generator register at some state, nothing
    owed": entered from the valuation `Wpre`, left at `Wpost`, GIVEN that the family's data of pipeline 11 is `dat11` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg11_of (pdats : (p : Fin 15) → (c : Dev nD) → Dat τ (Elt F) Unit ℕ (UR sig nD τ) ℕ (cfgs p) c)
    (Wpre Wpost : Dev nD → Valuation τ sig (Elt F))
    (hp : ∀ c, pdats 11 c = dat11 (fun c b => Wpre c b) c)
    (hF : ∀ c (w : Fin cfg11.W), (dat11 (fun c b => Wpre c b) c).arrAt w cfg11.N = Wpost c (Pipeline.arrRef spec11 w))
    (hrest : ∀ c (b : Ref sig .tc), b ∉ Finset.univ.image (Pipeline.arrRef spec11) → Wpost c b = Wpre c b) :
    Pipeline.RegionSeg (pcfgs (F := F)) GenP.adm pdats () defs₀ 𝒱₀ L lv 11 where
  win := launch11.win.to₀
  block_pos := launch11.block_pos
  stage_whole := launch11.stage_whole
  K := PEmpty
  osem k := k.elim
  ho := Pipeline.OwnSemFacts.none _
  hbody c := by rw [hp c]; exact (body_obligation11 (fun c b => Wpre c b) c).loose
  hwaits := Pipeline.hwaits_of_owed_zero _ _ _ _ L lv 11 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec11 c (fun b => Wpre c b)
  hentry c := by
    rw [Pipeline.ownSems0_none]
    have hsplit := Pipeline.arrays_of_unscopedBufs (p := 11) (pcfgs (F := F)) GenP.adm pdats launch11.win launch11.arr_whole c
      (by rw [hp c]; exact (dat11 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 11 c).Φ 0 = Pipeline.ΦA spec11 c from by rw [hp c]; rfl]; unfold Pipeline.ΦA
    iintro ⟨Hp, -, Hr⟩
    isplitl [Hr]; · iexact Hr
    iexact Hp
  hout c := by
    rw [Pipeline.ownSems0_none, show (pdats 11 c).Φ (Fin.last _) = Pipeline.ΦA spec11 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c pdats (by rw [hp c]; exact (dat11 (fun c b => Wpre c b) c).share_full fun _ => rfl)
      (fun b => Wpre c b) (fun b => Wpost c b) ((pdats 11 c).arrAt · cfg11.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R12.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 12 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Window 1 (the mean row): its block index is constant, so it is fetched at the first point only. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Window 2 (the variance row). -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Window 3 (the scale row). -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Window 4 (the shift row). -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Window 5 (the block of rows of the old features), fetched at every point. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

/-- The whole block of rows. -/
abbrev r12_0 : Rect S8192x64 := Rect.unit (s := S8192x64) ![0, 0] S8192x64.size inb_S8192x64_S8192x64_0_0
/-- The whole one-row block. -/
abbrev r12_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out12_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r12_0, k12_pay1 (View.ld x0 r12_0) (View.ld x1 r12_1) (View.ld x2 r12_1) (View.ld x3 r12_1) (View.ld x4 r12_1) (View.ld x5 r12_0)⟩]

/-- The one store is the whole buffer, so it covers it. -/
theorem cover12_6 (p0 : Vec F S8192x64 .f32) (y : S8192x64.Idx) :
    ∃ pc ∈ ([⟨r12_0, p0⟩] : List (View.Piece (Elt F) S8192x64 .f32)), y ∈ pc.1.set :=
  View.cover_of_tiled [⟨r12_0, p0⟩] S8192x64.size (by rfl) y

/-! ## The body's triple -/

set_option maxHeartbeats 1000000 in
/-- The kernel body on whole staging memrefs, the inputs' at contents x0 .. x5 and the output's at anything,
    runs to the continuation with the inputs' as they were and the output's at out12_6 of the inputs': the
    printed function is its skeleton; its loads read the owned buffers (the load of the output buffer
    before the store reads whatever it held and its value is not used), and its one store writes the payload. -/
theorem sound_kernel12 (c : Dev nD) (E : Set ℕ) (i : grid12.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out12_6 x0 x1 x2 x3 x4 x5)) -∗ K ⟨⟩))
      ⊢ wp frame (wpE (defs₀ (F := F)) Variants.none c none) E (cc12__bn_relu_res_kernel i arg1 harg1 arg2 harg2 arg3 harg3 arg4 harg4 arg5 harg5 arg6 harg6 arg7 harg7) K := by
  simp only [cc12__bn_relu_res_kernel_eq_skeleton]; unfold cc12__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-! ## The pipeline's proof data -/

/-- The proof data of pipeline 12 on core c: the arrays as the region finds them; after the body at point t
    each input's buffer at its block and the output's at out12_6 of the input blocks; the invariant that of a
    body touching only its windows (the scoped rest and the generator register, untouched); nothing owed;
    full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

/-- The proof data's arrays are the region-entry contents (the definition projected). -/
theorem A_eq12 (c : Dev nD) (w : Fin cfg12.W) : (dat12 V c).A w = V c (Pipeline.arrRef spec12 w) := by
  dsimp only [dat12]

/-- What the body leaves, window by window (the proof data's match reduced). -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

/-! ## The body obligation, at a generic point -/

/-- What the body is called with at point t (the windows one by one), -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

/-- The body at any point: the inputs' memrefs hold their blocks, so the body's triple applies; the invariant
    and what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg12.lean ====
import proofs.«142356_j74423193305351_1_alg».proof.Proof.KI.RunBase
import proofs.«142356_j74423193305351_1_alg».proof.Proof.KI.R12

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 12 as a segment of the run, for any proof-data family whose pipeline 12 is the region's own data -/

-- `iapply` of a library lemma stated over the pinned configuration unifies with it only when unification may unfold
-- plain definitions in a metavariable's type
set_option backward.isDefEq.respectTransparency.types false in
/-- REGION 12 over the thread state "every unscoped buffer at a valuation, the generator register at some state, nothing
    owed": entered from the valuation `Wpre`, left at `Wpost`, GIVEN that the family's data of pipeline 12 is `dat12` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg12_of (pdats : (p : Fin 15) → (c : Dev nD) → Dat τ (Elt F) Unit ℕ (UR sig nD τ) ℕ (cfgs p) c)
    (Wpre Wpost : Dev nD → Valuation τ sig (Elt F))
    (hp : ∀ c, pdats 12 c = dat12 (fun c b => Wpre c b) c)
    (hF : ∀ c (w : Fin cfg12.W), (dat12 (fun c b => Wpre c b) c).arrAt w cfg12.N = Wpost c (Pipeline.arrRef spec12 w))
    (hrest : ∀ c (b : Ref sig .tc), b ∉ Finset.univ.image (Pipeline.arrRef spec12) → Wpost c b = Wpre c b) :
    Pipeline.RegionSeg (pcfgs (F := F)) GenP.adm pdats () defs₀ 𝒱₀ L lv 12 where
  win := launch12.win.to₀
  block_pos := launch12.block_pos
  stage_whole := launch12.stage_whole
  K := PEmpty
  osem k := k.elim
  ho := Pipeline.OwnSemFacts.none _
  hbody c := by rw [hp c]; exact (body_obligation12 (fun c b => Wpre c b) c).loose
  hwaits := Pipeline.hwaits_of_owed_zero _ _ _ _ L lv 12 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec12 c (fun b => Wpre c b)
  hentry c := by
    rw [Pipeline.ownSems0_none]
    have hsplit := Pipeline.arrays_of_unscopedBufs (p := 12) (pcfgs (F := F)) GenP.adm pdats launch12.win launch12.arr_whole c
      (by rw [hp c]; exact (dat12 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 12 c).Φ 0 = Pipeline.ΦA spec12 c from by rw [hp c]; rfl]; unfold Pipeline.ΦA
    iintro ⟨Hp, -, Hr⟩
    isplitl [Hr]; · iexact Hr
    iexact Hp
  hout c := by
    rw [Pipeline.ownSems0_none, show (pdats 12 c).Φ (Fin.last _) = Pipeline.ΦA spec12 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c pdats (by rw [hp c]; exact (dat12 (fun c b => Wpre c b) c).share_full fun _ => rfl)
      (fun b => Wpre c b) (fun b => Wpost c b) ((pdats 12 c).arrAt · cfg12.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R13.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 13 of @main (batch-norm, relu and residual on one block of rows), at the entry contents V

The body reads six input windows whole (a block of rows of the new features; the mean, the variance,
the scale and the shift, one row each; the matching block of rows of the old features) and writes its
one output window whole. So after the body each input's staging buffer still holds its block, and the
output's holds the body's payload of the six blocks. This file states that as the pipeline's proof data
and proves the body's obligation at every grid point, for any contents V of the buffers at entry. -/

-- membership in a rectangle of long extents: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, whether the pipeline fetched
    it there or not: where it was not fetched the block index has not moved since the last fetch and the
    body left the block in place. Stated for any proof data whose array is the entry contents and whose
    body keeps the block. Window 0: a block of rows, fetched at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Window 1 (the mean row): its block index is constant, so it is fetched at the first point only. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Window 2 (the variance row). -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Window 3 (the scale row). -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Window 4 (the shift row). -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Window 5 (the block of rows of the old features), fetched at every point. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The whole block of rows. -/
abbrev r13_0 : Rect S8192x64 := Rect.unit (s := S8192x64) ![0, 0] S8192x64.size inb_S8192x64_S8192x64_0_0
/-- The whole one-row block. -/
abbrev r13_1 : Rect S1x64 := Rect.unit (s := S1x64) ![0, 0] S1x64.size inb_S1x64_S1x64_0_0

/-! ## What the body leaves in the output window's buffer -/

/-- Window 6's staging buffer after the body, from the six input blocks: its one store as one piece,
    whose payload is the skeleton's, of the six loads. -/
def out13_6 (x0 : Vec F S8192x64 .f32) (x1 : Vec F S1x64 .f32) (x2 : Vec F S1x64 .f32) (x3 : Vec F S1x64 .f32) (x4 : Vec F S1x64 .f32) (x5 : Vec F S8192x64 .f32) : Vec F S8192x64 .f32 :=
  View.canon [⟨r13_0, k13_pay1 (View.ld x0 r13_0) (View.ld x1 r13_1) (View.ld x2 r13_1) (View.ld x3 r13_1) (View.ld x4 r13_1) (View.ld x5 r13_0)⟩]

/-- The one store is the whole buffer, so it covers it. -/
theorem cover13_6 (p0 : Vec F S8192x64 .f32) (y : S8192x64.Idx) :
    ∃ pc ∈ ([⟨r13_0, p0⟩] : List (View.Piece (Elt F) S8192x64 .f32)), y ∈ pc.1.set :=
  View.cover_of_tiled [⟨r13_0, p0⟩] S8192x64.size (by rfl) y

/-! ## The body's triple -/

set_option maxHeartbeats 1000000 in
/-- The kernel body on whole staging memrefs, the inputs' at contents x0 .. x5 and the output's at anything,
    runs to the continuation with the inputs' as they were and the output's at out13_6 of the inputs': the
    printed function is its skeleton; its loads read the owned buffers (the load of the output buffer
    before the store reads whatever it held and its value is not used), and its one store writes the payload. -/
theorem sound_kernel13 (c : Dev nD) (E : Set ℕ) (i : grid13.Coords) (arg1 : Memref sig .tc .vmem S8192x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .f32) (harg6 : arg6.IsWhole) (arg7 : Memref sig .tc .vmem S8192x64 .f32) (harg7 : arg7.IsWhole)
    (x0 : Vec F S8192x64 .f32) (x1 : Vec F S1x64 .f32) (x2 : Vec F S1x64 .f32) (x3 : Vec F S1x64 .f32) (x4 : Vec F S1x64 .f32) (x5 : Vec F S8192x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out13_6 x0 x1 x2 x3 x4 x5)) -∗ K ⟨⟩))
      ⊢ wp frame (wpE (defs₀ (F := F)) Variants.none c none) E (cc13__bn_relu_res_kernel i arg1 harg1 arg2 harg2 arg3 harg3 arg4 harg4 arg5 harg5 arg6 harg6 arg7 harg7) K := by
  simp only [cc13__bn_relu_res_kernel_eq_skeleton]; unfold cc13__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core c: the arrays as the region finds them; after the body at point t
    each input's buffer at its block and the output's at out13_6 of the input blocks; the invariant that of a
    body touching only its windows (the scoped rest and the generator register, untouched); nothing owed;
    full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents (the definition projected). -/
theorem A_eq13 (c : Dev nD) (w : Fin cfg13.W) : (dat13 V c).A w = V c (Pipeline.arrRef spec13 w) := by
  dsimp only [dat13]

/-- What the body leaves, window by window (the proof data's match reduced). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point t (the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant
    and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand
-- ==== Proof.KI.Reg13.lean ====
import proofs.«142356_j74423193305351_1_alg».proof.Proof.KI.RunBase
import proofs.«142356_j74423193305351_1_alg».proof.Proof.KI.R13

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 13 as a segment of the run, for any proof-data family whose pipeline 13 is the region's own data -/

-- `iapply` of a library lemma stated over the pinned configuration unifies with it only when unification may unfold
-- plain definitions in a metavariable's type
set_option backward.isDefEq.respectTransparency.types false in
/-- REGION 13 over the thread state "every unscoped buffer at a valuation, the generator register at some state, nothing
    owed": entered from the valuation `Wpre`, left at `Wpost`, GIVEN that the family's data of pipeline 13 is `dat13` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg13_of (pdats : (p : Fin 15) → (c : Dev nD) → Dat τ (Elt F) Unit ℕ (UR sig nD τ) ℕ (cfgs p) c)
    (Wpre Wpost : Dev nD → Valuation τ sig (Elt F))
    (hp : ∀ c, pdats 13 c = dat13 (fun c b => Wpre c b) c)
    (hF : ∀ c (w : Fin cfg13.W), (dat13 (fun c b => Wpre c b) c).arrAt w cfg13.N = Wpost c (Pipeline.arrRef spec13 w))
    (hrest : ∀ c (b : Ref sig .tc), b ∉ Finset.univ.image (Pipeline.arrRef spec13) → Wpost c b = Wpre c b) :
    Pipeline.RegionSeg (pcfgs (F := F)) GenP.adm pdats () defs₀ 𝒱₀ L lv 13 where
  win := launch13.win.to₀
  block_pos := launch13.block_pos
  stage_whole := launch13.stage_whole
  K := PEmpty
  osem k := k.elim
  ho := Pipeline.OwnSemFacts.none _
  hbody c := by rw [hp c]; exact (body_obligation13 (fun c b => Wpre c b) c).loose
  hwaits := Pipeline.hwaits_of_owed_zero _ _ _ _ L lv 13 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec13 c (fun b => Wpre c b)
  hentry c := by
    rw [Pipeline.ownSems0_none]
    have hsplit := Pipeline.arrays_of_unscopedBufs (p := 13) (pcfgs (F := F)) GenP.adm pdats launch13.win launch13.arr_whole c
      (by rw [hp c]; exact (dat13 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 13 c).Φ 0 = Pipeline.ΦA spec13 c from by rw [hp c]; rfl]; unfold Pipeline.ΦA
    iintro ⟨Hp, -, Hr⟩
    isplitl [Hr]; · iexact Hr
    iexact Hp
  hout c := by
    rw [Pipeline.ownSems0_none, show (pdats 13 c).Φ (Fin.last _) = Pipeline.ΦA spec13 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c pdats (by rw [hp c]; exact (dat13 (fun c b => Wpre c b) c).share_full fun _ => rfl)
      (fun b => Wpre c b) (fun b => Wpost c b) ((pdats 13 c).arrAt · cfg13.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.R14.lean ====
import proofs.«142356_j74423193305351_1_alg».proof.Proof.Gen.KernelIdeal.Launch
import proofs.«142356_j74423193305351_1_alg».proof.Proof.Gen.KernelIdeal.Skeleton
import proofs.«142356_j74423193305351_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 14 of @main: the three-layer perceptron head, at the entry contents `V`

One grid point; every window is its whole array. Windows 0 to 6 are read (the rows `x`, and per layer
a weight matrix and a bias row), window 7 is written: `relu (relu (x W₁ + b₁) W₂ + b₂) W₃ + b₃`.
The body reads each input whole through one rectangle and writes the output whole through one
rectangle, so what it leaves in the output's buffer is one pure term of the inputs' blocks. -/

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, for any proof data whose array is
    `V`'s (`hA`) and whose body leaves the block in place (`hafter`): the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, for any proof data whose array is
    `V`'s (`hA`) and whose body leaves the block in place (`hafter`): the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, for any proof data whose array is
    `V`'s (`hA`) and whose body leaves the block in place (`hafter`): the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, for any proof data whose array is
    `V`'s (`hA`) and whose body leaves the block in place (`hafter`): the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, for any proof data whose array is
    `V`'s (`hA`) and whose body leaves the block in place (`hafter`): the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, for any proof data whose array is
    `V`'s (`hA`) and whose body leaves the block in place (`hafter`): the window is uncut and never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-- Input window 6's current staging buffer holds its block at every point, for any proof data whose array is
    `V`'s (`hA`) and whose body leaves the block in place (`hafter`): the window is uncut and never idle. -/
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: one whole-buffer rectangle per window -/

abbrev r14_0 : Rect S256x82 := Rect.unit (s := S256x82) ![0, 0] S256x82.size inb_S256x82_S256x82_0_0
abbrev r14_1 : Rect S82x256 := Rect.unit (s := S82x256) ![0, 0] S82x256.size inb_S82x256_S82x256_0_0
abbrev r14_2 : Rect S1x256 := Rect.unit (s := S1x256) ![0, 0] S1x256.size inb_S1x256_S1x256_0_0
abbrev r14_3 : Rect S256x256 := Rect.unit (s := S256x256) ![0, 0] S256x256.size inb_S256x256_S256x256_0_0
abbrev r14_4 : Rect S1x256 := Rect.unit (s := S1x256) ![0, 0] S1x256.size inb_S1x256_S1x256_0_0
abbrev r14_5 : Rect S256x1 := Rect.unit (s := S256x1) ![0, 0] S256x1.size inb_S256x1_S256x1_0_0
abbrev r14_6 : Rect S1x1 := Rect.unit (s := S1x1) ![0, 0] S1x1.size inb_S1x1_S1x1_0_0
abbrev r14_7 : Rect S256x1 := Rect.unit (s := S256x1) ![0, 0] S256x1.size inb_S256x1_S256x1_0_0

/-! ## What the body leaves in the output window's buffer -/

/-- Window 7's staging buffer after the body, from the input windows' blocks: its one store as one piece
    (the payload is the skeleton's). -/
def out14_7 (x0 : Vec F S256x82 .f32) (x1 : Vec F S82x256 .f32) (x2 : Vec F S1x256 .f32) (x3 : Vec F S256x256 .f32) (x4 : Vec F S1x256 .f32) (x5 : Vec F S256x1 .f32) (x6 : Vec F S1x1 .f32) : Vec F S256x1 .f32 :=
  View.canon [⟨r14_7, k14_pay1 (View.ld x0 r14_0) (View.ld x1 r14_1) (View.ld x2 r14_2) (View.ld x3 r14_3) (View.ld x4 r14_4) (View.ld x5 r14_5) (View.ld x6 r14_6)⟩]

/-- The store is the whole buffer, so it covers it. -/
theorem cover14_7 (p0 : Vec F S256x1 .f32) (y : S256x1.Idx) :
    ∃ pc ∈ ([⟨r14_7, p0⟩] : List (View.Piece (Elt F) S256x1 .f32)), y ∈ pc.1.set :=
  View.cover_of_tiled [⟨r14_7, p0⟩] S256x1.size (by rfl) y

/-! ## The body's triple -/

set_option maxHeartbeats 4000000 in
/-- The kernel body on whole staging memrefs, the inputs' at read contents `xW` and the output's at anything, runs to
    the continuation holding the inputs' as they were and the output's at `out14_7` of the inputs'. -/
theorem sound_kernel14 (c : Dev nD) (E : Set ℕ) (i : grid14.Coords) (arg0 : Memref sig .tc .vmem S256x82 .f32) (harg0 : arg0.IsWhole) (arg1 : Memref sig .tc .vmem S82x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S256x1 .f32) (harg7 : arg7.IsWhole)
    (x0 : Vec F S256x82 .f32) (x1 : Vec F S82x256 .f32) (x2 : Vec F S1x256 .f32) (x3 : Vec F S256x256 .f32) (x4 : Vec F S1x256 .f32) (x5 : Vec F S256x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out14_7 x0 x1 x2 x3 x4 x5 x6)) -∗ K ⟨⟩))
      ⊢ wp frame (wpE (defs₀ (F := F)) Variants.none c none) E (cc14__mlp_kernel i arg0 harg0 arg1 harg1 arg2 harg2 arg3 harg3 arg4 harg4 arg5 harg5 arg6 harg6 arg7 harg7) K := by
  simp only [cc14__mlp_kernel_eq_skeleton]; unfold cc14__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover14_7 _)

/-! ## The pipeline's proof data -/

/-- The proof data of pipeline 14 on core `c`: the arrays as the region finds them (`V`); after the body at
    point `t` each input's buffer at its block and the output's at `out14_7` of the input blocks; the invariant the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => out14_7 (iblk14 V c 0 t) (iblk14 V c 1 t) (iblk14 V c 2 t) (iblk14 V c 3 t) (iblk14 V c 4 t) (iblk14 V c 5 t) (iblk14 V c 6 t)
  Φ _ := Pipeline.ΦA spec14 c
  q _ := fullShare
  owed _ := 0

/-- The proof data's arrays are the region-entry contents (the definition projected). -/
theorem A_eq14 (c : Dev nD) (w : Fin cfg14.W) : (dat14 V c).A w = V c (Pipeline.arrRef spec14 w) := by
  dsimp only [dat14]

/-- What the body leaves, window by window (the proof data's `match` reduced). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = out14_7 (iblk14 V c 0 t) (iblk14 V c 1 t) (iblk14 V c 2 t) (iblk14 V c 3 t) (iblk14 V c 4 t) (iblk14 V c 5 t) (iblk14 V c 6 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t))

set_option maxHeartbeats 1000000 in
/-- The body at any point: the inputs' memrefs hold their blocks (`before14_W`), so `sound_kernel14` applies; the
    invariant and the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel14 c Set.univ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Reg14.lean ====
import proofs.«142356_j74423193305351_1_alg».proof.Proof.KI.RunBase
import proofs.«142356_j74423193305351_1_alg».proof.Proof.KI.R14

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # REGION 14 as a segment of the run, for any proof-data family whose pipeline 14 is the region's own data -/

-- `iapply` of a library lemma stated over the pinned configuration unifies with it only when unification may unfold
-- plain definitions in a metavariable's type
set_option backward.isDefEq.respectTransparency.types false in
/-- REGION 14 over the thread state "every unscoped buffer at a valuation, the generator register at some state, nothing
    owed": entered from the valuation `Wpre`, left at `Wpost`, GIVEN that the family's data of pipeline 14 is `dat14` at
    `Wpre` (`hp`), that `Wpost` holds at each array of the region what the pipeline leaves there (`hF`) and agrees with
    `Wpre` off the arrays (`hrest`). The arrays are split out of the unscoped buffers at entry and put back at exit; the
    generator register goes into the region's invariant and comes out; the kernel has no semaphore of its own. -/
def reg14_of (pdats : (p : Fin 15) → (c : Dev nD) → Dat τ (Elt F) Unit ℕ (UR sig nD τ) ℕ (cfgs p) c)
    (Wpre Wpost : Dev nD → Valuation τ sig (Elt F))
    (hp : ∀ c, pdats 14 c = dat14 (fun c b => Wpre c b) c)
    (hF : ∀ c (w : Fin cfg14.W), (dat14 (fun c b => Wpre c b) c).arrAt w cfg14.N = Wpost c (Pipeline.arrRef spec14 w))
    (hrest : ∀ c (b : Ref sig .tc), b ∉ Finset.univ.image (Pipeline.arrRef spec14) → Wpost c b = Wpre c b) :
    Pipeline.RegionSeg (pcfgs (F := F)) GenP.adm pdats () defs₀ 𝒱₀ L lv 14 where
  win := launch14.win.to₀
  block_pos := launch14.block_pos
  stage_whole := launch14.stage_whole
  K := PEmpty
  osem k := k.elim
  ho := Pipeline.OwnSemFacts.none _
  hbody c := by rw [hp c]; exact (body_obligation14 (fun c b => Wpre c b) c).loose
  hwaits := Pipeline.hwaits_of_owed_zero _ _ _ _ L lv 14 fun c _ => by rw [hp c]; rfl
  pre c := iprop(StableHlo.held (c : Thread nD τ) (Pipeline.ucRefs τ sig) (Wpre c) ∗ R c)
  post c := iprop(StableHlo.held (c : Thread nD τ) (Pipeline.ucRefs τ sig) (Wpost c) ∗ R c)
  X c := iprop(∃ r, prngReg c r)
  Y c := iprop(∃ r, prngReg c r)
  Z c := Pipeline.unscopedRest (Ix := Unit) (Name := ℕ) (U := UR sig nD τ) (Lvl := ℕ) spec14 c (fun b => Wpre c b)
  hentry c := by
    rw [Pipeline.ownSems0_none]
    have hsplit := Pipeline.arrays_of_unscopedBufs (p := 14) (pcfgs (F := F)) GenP.adm pdats launch14.win launch14.arr_whole c
      (by rw [hp c]; exact (dat14 (fun c b => Wpre c b) c).share_full fun _ => rfl) (fun b => Wpre c b) (by rw [hp c]; exact fun _ => rfl)
    rw [Pipeline.unscopedBufs_held] at hsplit
    rw [hp c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats 14 c).Φ 0 = Pipeline.ΦA spec14 c from by rw [hp c]; rfl]; unfold Pipeline.ΦA
    iintro ⟨Hp, -, Hr⟩
    isplitl [Hr]; · iexact Hr
    iexact Hp
  hout c := by
    rw [Pipeline.ownSems0_none, show (pdats 14 c).Φ (Fin.last _) = Pipeline.ΦA spec14 c from by rw [hp c]; rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c pdats (by rw [hp c]; exact (dat14 (fun c b => Wpre c b) c).share_full fun _ => rfl)
      (fun b => Wpre c b) (fun b => Wpost c b) ((pdats 14 c).arrAt · cfg14.N) (by rw [hp c]; exact hF c) (hrest c)
    rw [Pipeline.unscopedBufs_held] at hjoin
    rw [hp c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«142356_j74423193305351_1_alg».proof.Proof.KI.RegionsAll
import proofs.«142356_j74423193305351_1_alg».proof.Proof.KI.Reg0
import proofs.«142356_j74423193305351_1_alg».proof.Proof.KI.Reg1
import proofs.«142356_j74423193305351_1_alg».proof.Proof.KI.Reg2
import proofs.«142356_j74423193305351_1_alg».proof.Proof.KI.Reg3
import proofs.«142356_j74423193305351_1_alg».proof.Proof.KI.Reg4
import proofs.«142356_j74423193305351_1_alg».proof.Proof.KI.Reg5
import proofs.«142356_j74423193305351_1_alg».proof.Proof.KI.Reg6
import proofs.«142356_j74423193305351_1_alg».proof.Proof.KI.Reg7
import proofs.«142356_j74423193305351_1_alg».proof.Proof.KI.Reg8
import proofs.«142356_j74423193305351_1_alg».proof.Proof.KI.Reg9
import proofs.«142356_j74423193305351_1_alg».proof.Proof.KI.Reg10
import proofs.«142356_j74423193305351_1_alg».proof.Proof.KI.Reg11
import proofs.«142356_j74423193305351_1_alg».proof.Proof.KI.Reg12
import proofs.«142356_j74423193305351_1_alg».proof.Proof.KI.Reg13
import proofs.«142356_j74423193305351_1_alg».proof.Proof.KI.Reg14

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # THE RUN of program KernelIdeal: @main's 42 items from the launch to the return

## The buffer contents after each item: a fold from the launch memory

A host stretch leaves what its operations compute (the fold of their values over the contents before it); a region leaves
its output arrays at what its pipeline's write-backs leave (the proof data's array after the last point, at the region's
entry contents) and every other buffer as entered. -/

/-- After item 0, the host stretch hostOps0 (region 0's entry contents). -/
def W1 (c : Dev nD) : Valuation τ sig (Elt F) := GenP.V1 m c
/-- What region 0 leaves in main_v1: its window 3's array after the last point's write-back. -/
def o2_main_v1 (c : Dev nD) : Buf (Elt F) ((c : Thread nD τ).loc main_v1) := (dat0 (fun c b => W1 m c b) c).arrAt 3 cfg0.N
/-- After item 1, region 0: its output array at what the pipeline leaves, every other buffer as entered. -/
def W2 (c : Dev nD) : Valuation τ sig (Elt F) := Function.update (W1 m c) main_v1 (o2_main_v1 m c)
/-- After item 2, the host stretch hostOps1. -/
def W3 (c : Dev nD) : Valuation τ sig (Elt F) := StableHlo.after hostOps1 (W2 m c)
/-- What region 1 leaves in main_v3: its window 3's array after the last point's write-back. -/
def o4_main_v3 (c : Dev nD) : Buf (Elt F) ((c : Thread nD τ).loc main_v3) := (dat1 (fun c b => W3 m c b) c).arrAt 3 cfg1.N
/-- After item 3, region 1: its output array at what the pipeline leaves, every other buffer as entered. -/
def W4 (c : Dev nD) : Valuation τ sig (Elt F) := Function.update (W3 m c) main_v3 (o4_main_v3 m c)
/-- After item 4, the host stretch hostOps2. -/
def W5 (c : Dev nD) : Valuation τ sig (Elt F) := StableHlo.after hostOps2 (W4 m c)
/-- What region 2 leaves in main_v23: its window 3's array after the last point's write-back. -/
def o6_main_v23 (c : Dev nD) : Buf (Elt F) ((c : Thread nD τ).loc main_v23) := (dat2 (fun c b => W5 m c b) c).arrAt 3 cfg2.N
/-- After item 5, region 2: its output array at what the pipeline leaves, every other buffer as entered. -/
def W6 (c : Dev nD) : Valuation τ sig (Elt F) := Function.update (W5 m c) main_v23 (o6_main_v23 m c)
/-- After item 6, the host stretch hostOps3. -/
def W7 (c : Dev nD) : Valuation τ sig (Elt F) := StableHlo.after hostOps3 (W6 m c)
/-- What region 3 leaves in main_v54_0: its window 6's array after the last point's write-back. -/
def o8_main_v54_0 (c : Dev nD) : Buf (Elt F) ((c : Thread nD τ).loc main_v54_0) := (dat3 (fun c b => W7 m c b) c).arrAt 6 cfg3.N
/-- What region 3 leaves in main_v54_1: its window 7's array after the last point's write-back. -/
def o8_main_v54_1 (c : Dev nD) : Buf (Elt F) ((c : Thread nD τ).loc main_v54_1) := (dat3 (fun c b => W7 m c b) c).arrAt 7 cfg3.N
/-- What region 3 leaves in main_v54_2: its window 8's array after the last point's write-back. -/
def o8_main_v54_2 (c : Dev nD) : Buf (Elt F) ((c : Thread nD τ).loc main_v54_2) := (dat3 (fun c b => W7 m c b) c).arrAt 8 cfg3.N
/-- After item 7, region 3: its output arrays at what the pipeline leaves, every other buffer as entered. -/
def W8 (c : Dev nD) : Valuation τ sig (Elt F) := Function.update (Function.update (Function.update (W7 m c) main_v54_0 (o8_main_v54_0 m c)) main_v54_1 (o8_main_v54_1 m c)) main_v54_2 (o8_main_v54_2 m c)
/-- After item 8, the host stretch hostOps4. -/
def W9 (c : Dev nD) : Valuation τ sig (Elt F) := StableHlo.after hostOps4 (W8 m c)
/-- After item 9, the host stretch hostOps4_1. -/
def W10 (c : Dev nD) : Valuation τ sig (Elt F) := StableHlo.after hostOps4_1 (W9 m c)
/-- After item 10, the host stretch hostOps4_2. -/
def W11 (c : Dev nD) : Valuation τ sig (Elt F) := StableHlo.after hostOps4_2 (W10 m c)
/-- What region 4 leaves in main_v77: its window 6's array after the last point's write-back. -/
def o12_main_v77 (c : Dev nD) : Buf (Elt F) ((c : Thread nD τ).loc main_v77) := (dat4 (fun c b => W11 m c b) c).arrAt 6 cfg4.N
/-- After item 11, region 4: its output array at what the pipeline leaves, every other buffer as entered. -/
def W12 (c : Dev nD) : Valuation τ sig (Elt F) := Function.update (W11 m c) main_v77 (o12_main_v77 m c)
/-- After item 12, the host stretch hostOps5. -/
def W13 (c : Dev nD) : Valuation τ sig (Elt F) := StableHlo.after hostOps5 (W12 m c)
/-- After item 13, the host stretch hostOps5_1. -/
def W14 (c : Dev nD) : Valuation τ sig (Elt F) := StableHlo.after hostOps5_1 (W13 m c)
/-- After item 14, the host stretch hostOps5_2. -/
def W15 (c : Dev nD) : Valuation τ sig (Elt F) := StableHlo.after hostOps5_2 (W14 m c)
/-- What region 5 leaves in main_v90: its window 6's array after the last point's write-back. -/
def o16_main_v90 (c : Dev nD) : Buf (Elt F) ((c : Thread nD τ).loc main_v90) := (dat5 (fun c b => W15 m c b) c).arrAt 6 cfg5.N
/-- After item 15, region 5: its output array at what the pipeline leaves, every other buffer as entered. -/
def W16 (c : Dev nD) : Valuation τ sig (Elt F) := Function.update (W15 m c) main_v90 (o16_main_v90 m c)
/-- After item 16, the host stretch hostOps6. -/
def W17 (c : Dev nD) : Valuation τ sig (Elt F) := StableHlo.after hostOps6 (W16 m c)
/-- What region 6 leaves in main_v110: its window 3's array after the last point's write-back. -/
def o18_main_v110 (c : Dev nD) : Buf (Elt F) ((c : Thread nD τ).loc main_v110) := (dat6 (fun c b => W17 m c b) c).arrAt 3 cfg6.N
/-- After item 17, region 6: its output array at what the pipeline leaves, every other buffer as entered. -/
def W18 (c : Dev nD) : Valuation τ sig (Elt F) := Function.update (W17 m c) main_v110 (o18_main_v110 m c)
/-- After item 18, the host stretch hostOps7. -/
def W19 (c : Dev nD) : Valuation τ sig (Elt F) := StableHlo.after hostOps7 (W18 m c)
/-- What region 7 leaves in main_v141_0: its window 6's array after the last point's write-back. -/
def o20_main_v141_0 (c : Dev nD) : Buf (Elt F) ((c : Thread nD τ).loc main_v141_0) := (dat7 (fun c b => W19 m c b) c).arrAt 6 cfg7.N
/-- What region 7 leaves in main_v141_1: its window 7's array after the last point's write-back. -/
def o20_main_v141_1 (c : Dev nD) : Buf (Elt F) ((c : Thread nD τ).loc main_v141_1) := (dat7 (fun c b => W19 m c b) c).arrAt 7 cfg7.N
/-- What region 7 leaves in main_v141_2: its window 8's array after the last point's write-back. -/
def o20_main_v141_2 (c : Dev nD) : Buf (Elt F) ((c : Thread nD τ).loc main_v141_2) := (dat7 (fun c b => W19 m c b) c).arrAt 8 cfg7.N
/-- After item 19, region 7: its output arrays at what the pipeline leaves, every other buffer as entered. -/
def W20 (c : Dev nD) : Valuation τ sig (Elt F) := Function.update (Function.update (Function.update (W19 m c) main_v141_0 (o20_main_v141_0 m c)) main_v141_1 (o20_main_v141_1 m c)) main_v141_2 (o20_main_v141_2 m c)
/-- After item 20, the host stretch hostOps8. -/
def W21 (c : Dev nD) : Valuation τ sig (Elt F) := StableHlo.after hostOps8 (W20 m c)
/-- After item 21, the host stretch hostOps8_1. -/
def W22 (c : Dev nD) : Valuation τ sig (Elt F) := StableHlo.after hostOps8_1 (W21 m c)
/-- After item 22, the host stretch hostOps8_2. -/
def W23 (c : Dev nD) : Valuation τ sig (Elt F) := StableHlo.after hostOps8_2 (W22 m c)
/-- What region 8 leaves in main_v164: its window 6's array after the last point's write-back. -/
def o24_main_v164 (c : Dev nD) : Buf (Elt F) ((c : Thread nD τ).loc main_v164) := (dat8 (fun c b => W23 m c b) c).arrAt 6 cfg8.N
/-- After item 23, region 8: its output array at what the pipeline leaves, every other buffer as entered. -/
def W24 (c : Dev nD) : Valuation τ sig (Elt F) := Function.update (W23 m c) main_v164 (o24_main_v164 m c)
/-- After item 24, the host stretch hostOps9. -/
def W25 (c : Dev nD) : Valuation τ sig (Elt F) := StableHlo.after hostOps9 (W24 m c)
/-- After item 25, the host stretch hostOps9_1. -/
def W26 (c : Dev nD) : Valuation τ sig (Elt F) := StableHlo.after hostOps9_1 (W25 m c)
/-- After item 26, the host stretch hostOps9_2. -/
def W27 (c : Dev nD) : Valuation τ sig (Elt F) := StableHlo.after hostOps9_2 (W26 m c)
/-- What region 9 leaves in main_v177: its window 6's array after the last point's write-back. -/
def o28_main_v177 (c : Dev nD) : Buf (Elt F) ((c : Thread nD τ).loc main_v177) := (dat9 (fun c b => W27 m c b) c).arrAt 6 cfg9.N
/-- After item 27, region 9: its output array at what the pipeline leaves, every other buffer as entered. -/
def W28 (c : Dev nD) : Valuation τ sig (Elt F) := Function.update (W27 m c) main_v177 (o28_main_v177 m c)
/-- After item 28, the host stretch hostOps10. -/
def W29 (c : Dev nD) : Valuation τ sig (Elt F) := StableHlo.after hostOps10 (W28 m c)
/-- What region 10 leaves in main_v197: its window 3's array after the last point's write-back. -/
def o30_main_v197 (c : Dev nD) : Buf (Elt F) ((c : Thread nD τ).loc main_v197) := (dat10 (fun c b => W29 m c b) c).arrAt 3 cfg10.N
/-- After item 29, region 10: its output array at what the pipeline leaves, every other buffer as entered. -/
def W30 (c : Dev nD) : Valuation τ sig (Elt F) := Function.update (W29 m c) main_v197 (o30_main_v197 m c)
/-- After item 30, the host stretch hostOps11. -/
def W31 (c : Dev nD) : Valuation τ sig (Elt F) := StableHlo.after hostOps11 (W30 m c)
/-- What region 11 leaves in main_v228_0: its window 6's array after the last point's write-back. -/
def o32_main_v228_0 (c : Dev nD) : Buf (Elt F) ((c : Thread nD τ).loc main_v228_0) := (dat11 (fun c b => W31 m c b) c).arrAt 6 cfg11.N
/-- What region 11 leaves in main_v228_1: its window 7's array after the last point's write-back. -/
def o32_main_v228_1 (c : Dev nD) : Buf (Elt F) ((c : Thread nD τ).loc main_v228_1) := (dat11 (fun c b => W31 m c b) c).arrAt 7 cfg11.N
/-- What region 11 leaves in main_v228_2: its window 8's array after the last point's write-back. -/
def o32_main_v228_2 (c : Dev nD) : Buf (Elt F) ((c : Thread nD τ).loc main_v228_2) := (dat11 (fun c b => W31 m c b) c).arrAt 8 cfg11.N
/-- After item 31, region 11: its output arrays at what the pipeline leaves, every other buffer as entered. -/
def W32 (c : Dev nD) : Valuation τ sig (Elt F) := Function.update (Function.update (Function.update (W31 m c) main_v228_0 (o32_main_v228_0 m c)) main_v228_1 (o32_main_v228_1 m c)) main_v228_2 (o32_main_v228_2 m c)
/-- After item 32, the host stretch hostOps12. -/
def W33 (c : Dev nD) : Valuation τ sig (Elt F) := StableHlo.after hostOps12 (W32 m c)
/-- After item 33, the host stretch hostOps12_1. -/
def W34 (c : Dev nD) : Valuation τ sig (Elt F) := StableHlo.after hostOps12_1 (W33 m c)
/-- After item 34, the host stretch hostOps12_2. -/
def W35 (c : Dev nD) : Valuation τ sig (Elt F) := StableHlo.after hostOps12_2 (W34 m c)
/-- What region 12 leaves in main_v251: its window 6's array after the last point's write-back. -/
def o36_main_v251 (c : Dev nD) : Buf (Elt F) ((c : Thread nD τ).loc main_v251) := (dat12 (fun c b => W35 m c b) c).arrAt 6 cfg12.N
/-- After item 35, region 12: its output array at what the pipeline leaves, every other buffer as entered. -/
def W36 (c : Dev nD) : Valuation τ sig (Elt F) := Function.update (W35 m c) main_v251 (o36_main_v251 m c)
/-- After item 36, the host stretch hostOps13. -/
def W37 (c : Dev nD) : Valuation τ sig (Elt F) := StableHlo.after hostOps13 (W36 m c)
/-- After item 37, the host stretch hostOps13_1. -/
def W38 (c : Dev nD) : Valuation τ sig (Elt F) := StableHlo.after hostOps13_1 (W37 m c)
/-- After item 38, the host stretch hostOps13_2. -/
def W39 (c : Dev nD) : Valuation τ sig (Elt F) := StableHlo.after hostOps13_2 (W38 m c)
/-- What region 13 leaves in main_v264: its window 6's array after the last point's write-back. -/
def o40_main_v264 (c : Dev nD) : Buf (Elt F) ((c : Thread nD τ).loc main_v264) := (dat13 (fun c b => W39 m c b) c).arrAt 6 cfg13.N
/-- After item 39, region 13: its output array at what the pipeline leaves, every other buffer as entered. -/
def W40 (c : Dev nD) : Valuation τ sig (Elt F) := Function.update (W39 m c) main_v264 (o40_main_v264 m c)
/-- After item 40, the host stretch hostOps14. -/
def W41 (c : Dev nD) : Valuation τ sig (Elt F) := StableHlo.after hostOps14 (W40 m c)
/-- What region 14 leaves in main_v281: its window 7's array after the last point's write-back. -/
def o42_main_v281 (c : Dev nD) : Buf (Elt F) ((c : Thread nD τ).loc main_v281) := (dat14 (fun c b => W41 m c b) c).arrAt 7 cfg14.N
/-- After item 41, region 14: its output array at what the pipeline leaves, every other buffer as entered. -/
def W42 (c : Dev nD) : Valuation τ sig (Elt F) := Function.update (W41 m c) main_v281 (o42_main_v281 m c)

/-! ## The regions' outputs as the conditional frame's unknowns -/

/-- What the regions leave, in the shape the conditional frame is stated over: at a region's item, the valuation after it
    (read by the frame only at that region's output arrays). -/
def outs : GenP.Outs (F := F) := fun J r c => match J with
  | 2 => W2 m c r
  | 4 => W4 m c r
  | 6 => W6 m c r
  | 8 => W8 m c r
  | 12 => W12 m c r
  | 16 => W16 m c r
  | 18 => W18 m c r
  | 20 => W20 m c r
  | 24 => W24 m c r
  | 28 => W28 m c r
  | 30 => W30 m c r
  | 32 => W32 m c r
  | 36 => W36 m c r
  | 40 => W40 m c r
  | _ => W42 m c r

theorem outs_2_main_v1 (c : Dev nD) : outs m 2 main_v1 c = o2_main_v1 m c := by
  show W2 m c main_v1 = _
  unfold W2
  rw [Function.update_self]
theorem outs_4_main_v3 (c : Dev nD) : outs m 4 main_v3 c = o4_main_v3 m c := by
  show W4 m c main_v3 = _
  unfold W4
  rw [Function.update_self]
theorem outs_6_main_v23 (c : Dev nD) : outs m 6 main_v23 c = o6_main_v23 m c := by
  show W6 m c main_v23 = _
  unfold W6
  rw [Function.update_self]
theorem outs_8_main_v54_0 (c : Dev nD) : outs m 8 main_v54_0 c = o8_main_v54_0 m c := by
  show W8 m c main_v54_0 = _
  unfold W8
  rw [Function.update_of_ne (StableHlo.devRef_ne_of_ne (by decide : (main_v54_0 : Ref sig .tc) ≠ main_v54_2) : (Proc.devRef .tc main_v54_0 : DevRef τ sig) ≠ Proc.devRef .tc main_v54_2), Function.update_of_ne (StableHlo.devRef_ne_of_ne (by decide : (main_v54_0 : Ref sig .tc) ≠ main_v54_1) : (Proc.devRef .tc main_v54_0 : DevRef τ sig) ≠ Proc.devRef .tc main_v54_1), Function.update_self]
theorem outs_8_main_v54_1 (c : Dev nD) : outs m 8 main_v54_1 c = o8_main_v54_1 m c := by
  show W8 m c main_v54_1 = _
  unfold W8
  rw [Function.update_of_ne (StableHlo.devRef_ne_of_ne (by decide : (main_v54_1 : Ref sig .tc) ≠ main_v54_2) : (Proc.devRef .tc main_v54_1 : DevRef τ sig) ≠ Proc.devRef .tc main_v54_2), Function.update_self]
theorem outs_8_main_v54_2 (c : Dev nD) : outs m 8 main_v54_2 c = o8_main_v54_2 m c := by
  show W8 m c main_v54_2 = _
  unfold W8
  rw [Function.update_self]
theorem outs_12_main_v77 (c : Dev nD) : outs m 12 main_v77 c = o12_main_v77 m c := by
  show W12 m c main_v77 = _
  unfold W12
  rw [Function.update_self]
theorem outs_16_main_v90 (c : Dev nD) : outs m 16 main_v90 c = o16_main_v90 m c := by
  show W16 m c main_v90 = _
  unfold W16
  rw [Function.update_self]
theorem outs_18_main_v110 (c : Dev nD) : outs m 18 main_v110 c = o18_main_v110 m c := by
  show W18 m c main_v110 = _
  unfold W18
  rw [Function.update_self]
theorem outs_20_main_v141_0 (c : Dev nD) : outs m 20 main_v141_0 c = o20_main_v141_0 m c := by
  show W20 m c main_v141_0 = _
  unfold W20
  rw [Function.update_of_ne (StableHlo.devRef_ne_of_ne (by decide : (main_v141_0 : Ref sig .tc) ≠ main_v141_2) : (Proc.devRef .tc main_v141_0 : DevRef τ sig) ≠ Proc.devRef .tc main_v141_2), Function.update_of_ne (StableHlo.devRef_ne_of_ne (by decide : (main_v141_0 : Ref sig .tc) ≠ main_v141_1) : (Proc.devRef .tc main_v141_0 : DevRef τ sig) ≠ Proc.devRef .tc main_v141_1), Function.update_self]
theorem outs_20_main_v141_1 (c : Dev nD) : outs m 20 main_v141_1 c = o20_main_v141_1 m c := by
  show W20 m c main_v141_1 = _
  unfold W20
  rw [Function.update_of_ne (StableHlo.devRef_ne_of_ne (by decide : (main_v141_1 : Ref sig .tc) ≠ main_v141_2) : (Proc.devRef .tc main_v141_1 : DevRef τ sig) ≠ Proc.devRef .tc main_v141_2), Function.update_self]
theorem outs_20_main_v141_2 (c : Dev nD) : outs m 20 main_v141_2 c = o20_main_v141_2 m c := by
  show W20 m c main_v141_2 = _
  unfold W20
  rw [Function.update_self]
theorem outs_24_main_v164 (c : Dev nD) : outs m 24 main_v164 c = o24_main_v164 m c := by
  show W24 m c main_v164 = _
  unfold W24
  rw [Function.update_self]
theorem outs_28_main_v177 (c : Dev nD) : outs m 28 main_v177 c = o28_main_v177 m c := by
  show W28 m c main_v177 = _
  unfold W28
  rw [Function.update_self]
theorem outs_30_main_v197 (c : Dev nD) : outs m 30 main_v197 c = o30_main_v197 m c := by
  show W30 m c main_v197 = _
  unfold W30
  rw [Function.update_self]
theorem outs_32_main_v228_0 (c : Dev nD) : outs m 32 main_v228_0 c = o32_main_v228_0 m c := by
  show W32 m c main_v228_0 = _
  unfold W32
  rw [Function.update_of_ne (StableHlo.devRef_ne_of_ne (by decide : (main_v228_0 : Ref sig .tc) ≠ main_v228_2) : (Proc.devRef .tc main_v228_0 : DevRef τ sig) ≠ Proc.devRef .tc main_v228_2), Function.update_of_ne (StableHlo.devRef_ne_of_ne (by decide : (main_v228_0 : Ref sig .tc) ≠ main_v228_1) : (Proc.devRef .tc main_v228_0 : DevRef τ sig) ≠ Proc.devRef .tc main_v228_1), Function.update_self]
theorem outs_32_main_v228_1 (c : Dev nD) : outs m 32 main_v228_1 c = o32_main_v228_1 m c := by
  show W32 m c main_v228_1 = _
  unfold W32
  rw [Function.update_of_ne (StableHlo.devRef_ne_of_ne (by decide : (main_v228_1 : Ref sig .tc) ≠ main_v228_2) : (Proc.devRef .tc main_v228_1 : DevRef τ sig) ≠ Proc.devRef .tc main_v228_2), Function.update_self]
theorem outs_32_main_v228_2 (c : Dev nD) : outs m 32 main_v228_2 c = o32_main_v228_2 m c := by
  show W32 m c main_v228_2 = _
  unfold W32
  rw [Function.update_self]
theorem outs_36_main_v251 (c : Dev nD) : outs m 36 main_v251 c = o36_main_v251 m c := by
  show W36 m c main_v251 = _
  unfold W36
  rw [Function.update_self]
theorem outs_40_main_v264 (c : Dev nD) : outs m 40 main_v264 c = o40_main_v264 m c := by
  show W40 m c main_v264 = _
  unfold W40
  rw [Function.update_self]
theorem outs_42_main_v281 (c : Dev nD) : outs m 42 main_v281 c = o42_main_v281 m c := by
  show W42 m c main_v281 = _
  unfold W42
  rw [Function.update_self]

/-! ## The conditional frame's valuations, at these outputs, are the fold -/

theorem V1_eq (c : Dev nD) : GenP.V1 m c = W1 m c := rfl
theorem V2_eq (c : Dev nD) : GenP.V2 m (outs m) c = W2 m c := by
  rw [show GenP.V2 m (outs m) c = Function.update (GenP.V1 m c) main_v1 (outs m 2 main_v1 c) from rfl, V1_eq, outs_2_main_v1]; rfl
theorem V3_eq (c : Dev nD) : GenP.V3 m (outs m) c = W3 m c := by
  rw [show GenP.V3 m (outs m) c = StableHlo.after hostOps1 (GenP.V2 m (outs m) c) from rfl, V2_eq]; rfl
theorem V4_eq (c : Dev nD) : GenP.V4 m (outs m) c = W4 m c := by
  rw [show GenP.V4 m (outs m) c = Function.update (GenP.V3 m (outs m) c) main_v3 (outs m 4 main_v3 c) from rfl, V3_eq, outs_4_main_v3]; rfl
theorem V5_eq (c : Dev nD) : GenP.V5 m (outs m) c = W5 m c := by
  rw [show GenP.V5 m (outs m) c = StableHlo.after hostOps2 (GenP.V4 m (outs m) c) from rfl, V4_eq]; rfl
theorem V6_eq (c : Dev nD) : GenP.V6 m (outs m) c = W6 m c := by
  rw [show GenP.V6 m (outs m) c = Function.update (GenP.V5 m (outs m) c) main_v23 (outs m 6 main_v23 c) from rfl, V5_eq, outs_6_main_v23]; rfl
theorem V7_eq (c : Dev nD) : GenP.V7 m (outs m) c = W7 m c := by
  rw [show GenP.V7 m (outs m) c = StableHlo.after hostOps3 (GenP.V6 m (outs m) c) from rfl, V6_eq]; rfl
theorem V8_eq (c : Dev nD) : GenP.V8 m (outs m) c = W8 m c := by
  rw [show GenP.V8 m (outs m) c = Function.update (Function.update (Function.update (GenP.V7 m (outs m) c) main_v54_0 (outs m 8 main_v54_0 c)) main_v54_1 (outs m 8 main_v54_1 c)) main_v54_2 (outs m 8 main_v54_2 c) from rfl, V7_eq, outs_8_main_v54_0, outs_8_main_v54_1, outs_8_main_v54_2]; rfl
theorem V9_eq (c : Dev nD) : GenP.V9 m (outs m) c = W9 m c := by
  rw [show GenP.V9 m (outs m) c = StableHlo.after hostOps4 (GenP.V8 m (outs m) c) from rfl, V8_eq]; rfl
theorem V10_eq (c : Dev nD) : GenP.V10 m (outs m) c = W10 m c := by
  rw [show GenP.V10 m (outs m) c = StableHlo.after hostOps4_1 (GenP.V9 m (outs m) c) from rfl, V9_eq]; rfl
theorem V11_eq (c : Dev nD) : GenP.V11 m (outs m) c = W11 m c := by
  rw [show GenP.V11 m (outs m) c = StableHlo.after hostOps4_2 (GenP.V10 m (outs m) c) from rfl, V10_eq]; rfl
theorem V12_eq (c : Dev nD) : GenP.V12 m (outs m) c = W12 m c := by
  rw [show GenP.V12 m (outs m) c = Function.update (GenP.V11 m (outs m) c) main_v77 (outs m 12 main_v77 c) from rfl, V11_eq, outs_12_main_v77]; rfl
theorem V13_eq (c : Dev nD) : GenP.V13 m (outs m) c = W13 m c := by
  rw [show GenP.V13 m (outs m) c = StableHlo.after hostOps5 (GenP.V12 m (outs m) c) from rfl, V12_eq]; rfl
theorem V14_eq (c : Dev nD) : GenP.V14 m (outs m) c = W14 m c := by
  rw [show GenP.V14 m (outs m) c = StableHlo.after hostOps5_1 (GenP.V13 m (outs m) c) from rfl, V13_eq]; rfl
theorem V15_eq (c : Dev nD) : GenP.V15 m (outs m) c = W15 m c := by
  rw [show GenP.V15 m (outs m) c = StableHlo.after hostOps5_2 (GenP.V14 m (outs m) c) from rfl, V14_eq]; rfl
theorem V16_eq (c : Dev nD) : GenP.V16 m (outs m) c = W16 m c := by
  rw [show GenP.V16 m (outs m) c = Function.update (GenP.V15 m (outs m) c) main_v90 (outs m 16 main_v90 c) from rfl, V15_eq, outs_16_main_v90]; rfl
theorem V17_eq (c : Dev nD) : GenP.V17 m (outs m) c = W17 m c := by
  rw [show GenP.V17 m (outs m) c = StableHlo.after hostOps6 (GenP.V16 m (outs m) c) from rfl, V16_eq]; rfl
theorem V18_eq (c : Dev nD) : GenP.V18 m (outs m) c = W18 m c := by
  rw [show GenP.V18 m (outs m) c = Function.update (GenP.V17 m (outs m) c) main_v110 (outs m 18 main_v110 c) from rfl, V17_eq, outs_18_main_v110]; rfl
theorem V19_eq (c : Dev nD) : GenP.V19 m (outs m) c = W19 m c := by
  rw [show GenP.V19 m (outs m) c = StableHlo.after hostOps7 (GenP.V18 m (outs m) c) from rfl, V18_eq]; rfl
theorem V20_eq (c : Dev nD) : GenP.V20 m (outs m) c = W20 m c := by
  rw [show GenP.V20 m (outs m) c = Function.update (Function.update (Function.update (GenP.V19 m (outs m) c) main_v141_0 (outs m 20 main_v141_0 c)) main_v141_1 (outs m 20 main_v141_1 c)) main_v141_2 (outs m 20 main_v141_2 c) from rfl, V19_eq, outs_20_main_v141_0, outs_20_main_v141_1, outs_20_main_v141_2]; rfl
theorem V21_eq (c : Dev nD) : GenP.V21 m (outs m) c = W21 m c := by
  rw [show GenP.V21 m (outs m) c = StableHlo.after hostOps8 (GenP.V20 m (outs m) c) from rfl, V20_eq]; rfl
theorem V22_eq (c : Dev nD) : GenP.V22 m (outs m) c = W22 m c := by
  rw [show GenP.V22 m (outs m) c = StableHlo.after hostOps8_1 (GenP.V21 m (outs m) c) from rfl, V21_eq]; rfl
theorem V23_eq (c : Dev nD) : GenP.V23 m (outs m) c = W23 m c := by
  rw [show GenP.V23 m (outs m) c = StableHlo.after hostOps8_2 (GenP.V22 m (outs m) c) from rfl, V22_eq]; rfl
theorem V24_eq (c : Dev nD) : GenP.V24 m (outs m) c = W24 m c := by
  rw [show GenP.V24 m (outs m) c = Function.update (GenP.V23 m (outs m) c) main_v164 (outs m 24 main_v164 c) from rfl, V23_eq, outs_24_main_v164]; rfl
theorem V25_eq (c : Dev nD) : GenP.V25 m (outs m) c = W25 m c := by
  rw [show GenP.V25 m (outs m) c = StableHlo.after hostOps9 (GenP.V24 m (outs m) c) from rfl, V24_eq]; rfl
theorem V26_eq (c : Dev nD) : GenP.V26 m (outs m) c = W26 m c := by
  rw [show GenP.V26 m (outs m) c = StableHlo.after hostOps9_1 (GenP.V25 m (outs m) c) from rfl, V25_eq]; rfl
theorem V27_eq (c : Dev nD) : GenP.V27 m (outs m) c = W27 m c := by
  rw [show GenP.V27 m (outs m) c = StableHlo.after hostOps9_2 (GenP.V26 m (outs m) c) from rfl, V26_eq]; rfl
theorem V28_eq (c : Dev nD) : GenP.V28 m (outs m) c = W28 m c := by
  rw [show GenP.V28 m (outs m) c = Function.update (GenP.V27 m (outs m) c) main_v177 (outs m 28 main_v177 c) from rfl, V27_eq, outs_28_main_v177]; rfl
theorem V29_eq (c : Dev nD) : GenP.V29 m (outs m) c = W29 m c := by
  rw [show GenP.V29 m (outs m) c = StableHlo.after hostOps10 (GenP.V28 m (outs m) c) from rfl, V28_eq]; rfl
theorem V30_eq (c : Dev nD) : GenP.V30 m (outs m) c = W30 m c := by
  rw [show GenP.V30 m (outs m) c = Function.update (GenP.V29 m (outs m) c) main_v197 (outs m 30 main_v197 c) from rfl, V29_eq, outs_30_main_v197]; rfl
theorem V31_eq (c : Dev nD) : GenP.V31 m (outs m) c = W31 m c := by
  rw [show GenP.V31 m (outs m) c = StableHlo.after hostOps11 (GenP.V30 m (outs m) c) from rfl, V30_eq]; rfl
theorem V32_eq (c : Dev nD) : GenP.V32 m (outs m) c = W32 m c := by
  rw [show GenP.V32 m (outs m) c = Function.update (Function.update (Function.update (GenP.V31 m (outs m) c) main_v228_0 (outs m 32 main_v228_0 c)) main_v228_1 (outs m 32 main_v228_1 c)) main_v228_2 (outs m 32 main_v228_2 c) from rfl, V31_eq, outs_32_main_v228_0, outs_32_main_v228_1, outs_32_main_v228_2]; rfl
theorem V33_eq (c : Dev nD) : GenP.V33 m (outs m) c = W33 m c := by
  rw [show GenP.V33 m (outs m) c = StableHlo.after hostOps12 (GenP.V32 m (outs m) c) from rfl, V32_eq]; rfl
theorem V34_eq (c : Dev nD) : GenP.V34 m (outs m) c = W34 m c := by
  rw [show GenP.V34 m (outs m) c = StableHlo.after hostOps12_1 (GenP.V33 m (outs m) c) from rfl, V33_eq]; rfl
theorem V35_eq (c : Dev nD) : GenP.V35 m (outs m) c = W35 m c := by
  rw [show GenP.V35 m (outs m) c = StableHlo.after hostOps12_2 (GenP.V34 m (outs m) c) from rfl, V34_eq]; rfl
theorem V36_eq (c : Dev nD) : GenP.V36 m (outs m) c = W36 m c := by
  rw [show GenP.V36 m (outs m) c = Function.update (GenP.V35 m (outs m) c) main_v251 (outs m 36 main_v251 c) from rfl, V35_eq, outs_36_main_v251]; rfl
theorem V37_eq (c : Dev nD) : GenP.V37 m (outs m) c = W37 m c := by
  rw [show GenP.V37 m (outs m) c = StableHlo.after hostOps13 (GenP.V36 m (outs m) c) from rfl, V36_eq]; rfl
theorem V38_eq (c : Dev nD) : GenP.V38 m (outs m) c = W38 m c := by
  rw [show GenP.V38 m (outs m) c = StableHlo.after hostOps13_1 (GenP.V37 m (outs m) c) from rfl, V37_eq]; rfl
theorem V39_eq (c : Dev nD) : GenP.V39 m (outs m) c = W39 m c := by
  rw [show GenP.V39 m (outs m) c = StableHlo.after hostOps13_2 (GenP.V38 m (outs m) c) from rfl, V38_eq]; rfl
theorem V40_eq (c : Dev nD) : GenP.V40 m (outs m) c = W40 m c := by
  rw [show GenP.V40 m (outs m) c = Function.update (GenP.V39 m (outs m) c) main_v264 (outs m 40 main_v264 c) from rfl, V39_eq, outs_40_main_v264]; rfl
theorem V41_eq (c : Dev nD) : GenP.V41 m (outs m) c = W41 m c := by
  rw [show GenP.V41 m (outs m) c = StableHlo.after hostOps14 (GenP.V40 m (outs m) c) from rfl, V40_eq]; rfl
theorem V42_eq (c : Dev nD) : GenP.V42 m (outs m) c = W42 m c := by
  rw [show GenP.V42 m (outs m) c = Function.update (GenP.V41 m (outs m) c) main_v281 (outs m 42 main_v281 c) from rfl, V41_eq, outs_42_main_v281]; rfl

/-! ## The proof data family: every pipeline's data at its region's entry contents -/

/-- Every pipeline's proof data, each at its region's entry contents: a literal case split, so that the family at a numeral
    reduces to that region's data. -/
def pdats : (p : Fin 15) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W11 m c b) c
  | ⟨5, _⟩ => fun c => dat5 (fun c b => W15 m c b) c
  | ⟨6, _⟩ => fun c => dat6 (fun c b => W17 m c b) c
  | ⟨7, _⟩ => fun c => dat7 (fun c b => W19 m c b) c
  | ⟨8, _⟩ => fun c => dat8 (fun c b => W23 m c b) c
  | ⟨9, _⟩ => fun c => dat9 (fun c b => W27 m c b) c
  | ⟨10, _⟩ => fun c => dat10 (fun c b => W29 m c b) c
  | ⟨11, _⟩ => fun c => dat11 (fun c b => W31 m c b) c
  | ⟨12, _⟩ => fun c => dat12 (fun c b => W35 m c b) c
  | ⟨13, _⟩ => fun c => dat13 (fun c b => W39 m c b) c
  | ⟨14, _⟩ => fun c => dat14 (fun c b => W41 m c b) c
  | ⟨_ + 15, h⟩ => absurd h (Nat.not_lt.2 (Nat.le_add_left _ _))

/-! ## At a region's exit: each of its arrays holds what the pipeline leaves, every other buffer what it held at entry -/

-- one case per window, each deciding that the window's array is none of the arrays the region writes
set_option maxHeartbeats 4000000 in
theorem hF0 (c : Dev nD) : ∀ w : Fin cfg0.W, (dat0 (fun c b => W1 m c b) c).arrAt w cfg0.N = W2 m c (Pipeline.arrRef spec0 w)
  | ⟨0, h⟩ => by
    rw [(dat0 (fun c b => W1 m c b) c).arrAt_in ⟨0, h⟩ rfl, A_eq0]
    show W1 m c main_arg0 = W2 m c main_arg0
    unfold W2
    rw [Function.update_of_ne (StableHlo.devRef_ne_of_ne (by decide : (main_arg0 : Ref sig .tc) ≠ main_v1) : (Proc.devRef .tc main_arg0 : DevRef τ sig) ≠ Proc.devRef .tc main_v1)]
  | ⟨1, h⟩ => by
    rw [(dat0 (fun c b => W1 m c b) c).arrAt_in ⟨1, h⟩ rfl, A_eq0]
    show W1 m c main_arg7 = W2 m c main_arg7
    unfold W2
    rw [Function.update_of_ne (StableHlo.devRef_ne_of_ne (by decide : (main_arg7 : Ref sig .tc) ≠ main_v1) : (Proc.devRef .tc main_arg7 : DevRef τ sig) ≠ Proc.devRef .tc main_v1)]
  | ⟨2, h⟩ => by
    rw [(dat0 (fun c b => W1 m c b) c).arrAt_in ⟨2, h⟩ rfl, A_eq0]
    show W1 m c main_v0 = W2 m c main_v0
    unfold W2
    rw [Function.update_of_ne (StableHlo.devRef_ne_of_ne (by decide : (main_v0 : Ref sig .tc) ≠ main_v1) : (Proc.devRef .tc main_v0 : DevRef τ sig) ≠ Proc.devRef .tc main_v1)]
  | ⟨3, h⟩ => by
    show o2_main_v1 m c = W2 m c main_v1
    unfold W2
    rw [Function.update_self]
theorem hrest0 (c : Dev nD) (b : Ref sig .tc) (hb : b ∉ Finset.univ.image (Pipeline.arrRef spec0)) : W2 m c b = W1 m c b := by
  unfold W2
  rw [Function.update_of_ne (StableHlo.devRef_ne_of_ne (fun e => hb (Finset.mem_image.mpr ⟨3, Finset.mem_univ _, e.symm⟩)) : (Proc.devRef .tc b : DevRef τ sig) ≠ Proc.devRef .tc main_v1)]
-- one case per window, each deciding that the window's array is none of the arrays the region writes
set_option maxHeartbeats 4000000 in
theorem hF1 (c : Dev nD) : ∀ w : Fin cfg1.W, (dat1 (fun c b => W3 m c b) c).arrAt w cfg1.N = W4 m c (Pipeline.arrRef spec1 w)
  | ⟨0, h⟩ => by
    rw [(dat1 (fun c b => W3 m c b) c).arrAt_in ⟨0, h⟩ rfl, A_eq1]
    show W3 m c main_arg1 = W4 m c main_arg1
    unfold W4
    rw [Function.update_of_ne (StableHlo.devRef_ne_of_ne (by decide : (main_arg1 : Ref sig .tc) ≠ main_v3) : (Proc.devRef .tc main_arg1 : DevRef τ sig) ≠ Proc.devRef .tc main_v3)]
  | ⟨1, h⟩ => by
    rw [(dat1 (fun c b => W3 m c b) c).arrAt_in ⟨1, h⟩ rfl, A_eq1]
    show W3 m c main_arg9 = W4 m c main_arg9
    unfold W4
    rw [Function.update_of_ne (StableHlo.devRef_ne_of_ne (by decide : (main_arg9 : Ref sig .tc) ≠ main_v3) : (Proc.devRef .tc main_arg9 : DevRef τ sig) ≠ Proc.devRef .tc main_v3)]
  | ⟨2, h⟩ => by
    rw [(dat1 (fun c b => W3 m c b) c).arrAt_in ⟨2, h⟩ rfl, A_eq1]
    show W3 m c main_v2 = W4 m c main_v2
    unfold W4
    rw [Function.update_of_ne (StableHlo.devRef_ne_of_ne (by decide : (main_v2 : Ref sig .tc) ≠ main_v3) : (Proc.devRef .tc main_v2 : DevRef τ sig) ≠ Proc.devRef .tc main_v3)]
  | ⟨3, h⟩ => by
    show o4_main_v3 m c = W4 m c main_v3
    unfold W4
    rw [Function.update_self]
theorem hrest1 (c : Dev nD) (b : Ref sig .tc) (hb : b ∉ Finset.univ.image (Pipeline.arrRef spec1)) : W4 m c b = W3 m c b := by
  unfold W4
  rw [Function.update_of_ne (StableHlo.devRef_ne_of_ne (fun e => hb (Finset.mem_image.mpr ⟨3, Finset.mem_univ _, e.symm⟩)) : (Proc.devRef .tc b : DevRef τ sig) ≠ Proc.devRef .tc main_v3)]
-- one case per window, each deciding that the window's array is none of the arrays the region writes
set_option maxHeartbeats 4000000 in
theorem hF2 (c : Dev nD) : ∀ w : Fin cfg2.W, (dat2 (fun c b => W5 m c b) c).arrAt w cfg2.N = W6 m c (Pipeline.arrRef spec2 w)
  | ⟨0, h⟩ => by
    rw [(dat2 (fun c b => W5 m c b) c).arrAt_in ⟨0, h⟩ rfl, A_eq2]
    show W5 m c main_v1 = W6 m c main_v1
    unfold W6
    rw [Function.update_of_ne (StableHlo.devRef_ne_of_ne (by decide : (main_v1 : Ref sig .tc) ≠ main_v23) : (Proc.devRef .tc main_v1 : DevRef τ sig) ≠ Proc.devRef .tc main_v23)]
  | ⟨1, h⟩ => by
    rw [(dat2 (fun c b => W5 m c b) c).arrAt_in ⟨1, h⟩ rfl, A_eq2]
    show W5 m c main_v12 = W6 m c main_v12
    unfold W6
    rw [Function.update_of_ne (StableHlo.devRef_ne_of_ne (by decide : (main_v12 : Ref sig .tc) ≠ main_v23) : (Proc.devRef .tc main_v12 : DevRef τ sig) ≠ Proc.devRef .tc main_v23)]
  | ⟨2, h⟩ => by
    rw [(dat2 (fun c b => W5 m c b) c).arrAt_in ⟨2, h⟩ rfl, A_eq2]
    show W5 m c main_v22 = W6 m c main_v22
    unfold W6
    rw [Function.update_of_ne (StableHlo.devRef_ne_of_ne (by decide : (main_v22 : Ref sig .tc) ≠ main_v23) : (Proc.devRef .tc main_v22 : DevRef τ sig) ≠ Proc.devRef .tc main_v23)]
  | ⟨3, h⟩ => by
    show o6_main_v23 m c = W6 m c main_v23
    unfold W6
    rw [Function.update_self]
theorem hrest2 (c : Dev nD) (b : Ref sig .tc) (hb : b ∉ Finset.univ.image (Pipeline.arrRef spec2)) : W6 m c b = W5 m c b := by
  unfold W6
  rw [Function.update_of_ne (StableHlo.devRef_ne_of_ne (fun e => hb (Finset.mem_image.mpr ⟨3, Finset.mem_univ _, e.symm⟩)) : (Proc.devRef .tc b : DevRef τ sig) ≠ Proc.devRef .tc main_v23)]
-- one case per window, each deciding that the window's array is none of the arrays the region writes
set_option maxHeartbeats 4000000 in
theorem hF3 (c : Dev nD) : ∀ w : Fin cfg3.W, (dat3 (fun c b => W7 m c b) c).arrAt w cfg3.N = W8 m c (Pipeline.arrRef spec3 w)
  | ⟨0, h⟩ => by
    rw [(dat3 (fun c b => W7 m c b) c).arrAt_in ⟨0, h⟩ rfl, A_eq3]
    show W7 m c main_v3 = W8 m c main_v3
    unfold W8
    rw [Function.update_of_ne (StableHlo.devRef_ne_of_ne (by decide : (main_v3 : Ref sig .tc) ≠ main_v54_2) : (Proc.devRef .tc main_v3 : DevRef τ sig) ≠ Proc.devRef .tc main_v54_2), Function.update_of_ne (StableHlo.devRef_ne_of_ne (by decide : (main_v3 : Ref sig .tc) ≠ main_v54_1) : (Proc.devRef .tc main_v3 : DevRef τ sig) ≠ Proc.devRef .tc main_v54_1), Function.update_of_ne (StableHlo.devRef_ne_of_ne (by decide : (main_v3 : Ref sig .tc) ≠ main_v54_0) : (Proc.devRef .tc main_v3 : DevRef τ sig) ≠ Proc.devRef .tc main_v54_0)]
  | ⟨1, h⟩ => by
    rw [(dat3 (fun c b => W7 m c b) c).arrAt_in ⟨1, h⟩ rfl, A_eq3]
    show W7 m c main_v50 = W8 m c main_v50
    unfold W8
    rw [Function.update_of_ne (StableHlo.devRef_ne_of_ne (by decide : (main_v50 : Ref sig .tc) ≠ main_v54_2) : (Proc.devRef .tc main_v50 : DevRef τ sig) ≠ Proc.devRef .tc main_v54_2), Function.update_of_ne (StableHlo.devRef_ne_of_ne (by decide : (main_v50 : Ref sig .tc) ≠ main_v54_1) : (Proc.devRef .tc main_v50 : DevRef τ sig) ≠ Proc.devRef .tc main_v54_1), Function.update_of_ne (StableHlo.devRef_ne_of_ne (by decide : (main_v50 : Ref sig .tc) ≠ main_v54_0) : (Proc.devRef .tc main_v50 : DevRef τ sig) ≠ Proc.devRef .tc main_v54_0)]
  | ⟨2, h⟩ => by
    rw [(dat3 (fun c b => W7 m c b) c).arrAt_in ⟨2, h⟩ rfl, A_eq3]
    show W7 m c main_v53 = W8 m c main_v53
    unfold W8
    rw [Function.update_of_ne (StableHlo.devRef_ne_of_ne (by decide : (main_v53 : Ref sig .tc) ≠ main_v54_2) : (Proc.devRef .tc main_v53 : DevRef τ sig) ≠ Proc.devRef .tc main_v54_2), Function.update_of_ne (StableHlo.devRef_ne_of_ne (by decide : (main_v53 : Ref sig .tc) ≠ main_v54_1) : (Proc.devRef .tc main_v53 : DevRef τ sig) ≠ Proc.devRef .tc main_v54_1), Function.update_of_ne (StableHlo.devRef_ne_of_ne (by decide : (main_v53 : Ref sig .tc) ≠ main_v54_0) : (Proc.devRef .tc main_v53 : DevRef τ sig) ≠ Proc.devRef .tc main_v54_0)]
  | ⟨3, h⟩ => by
    rw [(dat3 (fun c b => W7 m c b) c).arrAt_in ⟨3, h⟩ rfl, A_eq3]
    show W7 m c main_v34 = W8 m c main_v34
    unfold W8
    rw [Function.update_of_ne (StableHlo.devRef_ne_of_ne (by decide : (main_v34 : Ref sig .tc) ≠ main_v54_2) : (Proc.devRef .tc main_v34 : DevRef τ sig) ≠ Proc.devRef .tc main_v54_2), Function.update_of_ne (StableHlo.devRef_ne_of_ne (by decide : (main_v34 : Ref sig .tc) ≠ main_v54_1) : (Proc.devRef .tc main_v34 : DevRef τ sig) ≠ Proc.devRef .tc main_v54_1), Function.update_of_ne (StableHlo.devRef_ne_of_ne (by decide : (main_v34 : Ref sig .tc) ≠ main_v54_0) : (Proc.devRef .tc main_v34 : DevRef τ sig) ≠ Proc.devRef .tc main_v54_0)]
  | ⟨4, h⟩ => by
    rw [(dat3 (fun c b => W7 m c b) c).arrAt_in ⟨4, h⟩ rfl, A_eq3]
    show W7 m c main_v41 = W8 m c main_v41
    unfold W8
    rw [Function.update_of_ne (StableHlo.devRef_ne_of_ne (by decide : (main_v41 : Ref sig .tc) ≠ main_v54_2) : (Proc.devRef .tc main_v41 : DevRef τ sig) ≠ Proc.devRef .tc main_v54_2), Function.update_of_ne (StableHlo.devRef_ne_of_ne (by decide : (main_v41 : Ref sig .tc) ≠ main_v54_1) : (Proc.devRef .tc main_v41 : DevRef τ sig) ≠ Proc.devRef .tc main_v54_1), Function.update_of_ne (StableHlo.devRef_ne_of_ne (by decide : (main_v41 : Ref sig .tc) ≠ main_v54_0) : (Proc.devRef .tc main_v41 : DevRef τ sig) ≠ Proc.devRef .tc main_v54_0)]
  | ⟨5, h⟩ => by
    rw [(dat3 (fun c b => W7 m c b) c).arrAt_in ⟨5, h⟩ rfl, A_eq3]
    show W7 m c main_v48 = W8 m c main_v48
    unfold W8
    rw [Function.update_of_ne (StableHlo.devRef_ne_of_ne (by decide : (main_v48 : Ref sig .tc) ≠ main_v54_2) : (Proc.devRef .tc main_v48 : DevRef τ sig) ≠ Proc.devRef .tc main_v54_2), Function.update_of_ne (StableHlo.devRef_ne_of_ne (by decide : (main_v48 : Ref sig .tc) ≠ main_v54_1) : (Proc.devRef .tc main_v48 : DevRef τ sig) ≠ Proc.devRef .tc main_v54_1), Function.update_of_ne (StableHlo.devRef_ne_of_ne (by decide : (main_v48 : Ref sig .tc) ≠ main_v54_0) : (Proc.devRef .tc main_v48 : DevRef τ sig) ≠ Proc.devRef .tc main_v54_0)]
  | ⟨6, h⟩ => by
    show o8_main_v54_0 m c = W8 m c main_v54_0
    unfold W8
    rw [Function.update_of_ne (StableHlo.devRef_ne_of_ne (by decide : (main_v54_0 : Ref sig .tc) ≠ main_v54_2) : (Proc.devRef .tc main_v54_0 : DevRef τ sig) ≠ Proc.devRef .tc main_v54_2), Function.update_of_ne (StableHlo.devRef_ne_of_ne (by decide : (main_v54_0 : Ref sig .tc) ≠ main_v54_1) : (Proc.devRef .tc main_v54_0 : DevRef τ sig) ≠ Proc.devRef .tc main_v54_1), Function.update_self]
  | ⟨7, h⟩ => by
    show o8_main_v54_1 m c = W8 m c main_v54_1
    unfold W8
    rw [Function.update_of_ne (StableHlo.devRef_ne_of_ne (by decide : (main_v54_1 : Ref sig .tc) ≠ main_v54_2) : (Proc.devRef .tc main_v54_1 : DevRef τ sig) ≠ Proc.devRef .tc main_v54_2), Function.update_self]
  | ⟨8, h⟩ => by
    show o8_main_v54_2 m c = W8 m c main_v54_2
    unfold W8
    rw [Function.update_self]
theorem hrest3 (c : Dev nD) (b : Ref sig .tc) (hb : b ∉ Finset.univ.image (Pipeline.arrRef spec3)) : W8 m c b = W7 m c b := by
  unfold W8
  rw [Function.update_of_ne (StableHlo.devRef_ne_of_ne (fun e => hb (Finset.mem_image.mpr ⟨8, Finset.mem_univ _, e.symm⟩)) : (Proc.devRef .tc b : DevRef τ sig) ≠ Proc.devRef .tc main_v54_2), Function.update_of_ne (StableHlo.devRef_ne_of_ne (fun e => hb (Finset.mem_image.mpr ⟨7, Finset.mem_univ _, e.symm⟩)) : (Proc.devRef .tc b : DevRef τ sig) ≠ Proc.devRef .tc main_v54_1), Function.update_of_ne (StableHlo.devRef_ne_of_ne (fun e => hb (Finset.mem_image.mpr ⟨6, Finset.mem_univ _, e.symm⟩)) : (Proc.devRef .tc b : DevRef τ sig) ≠ Proc.devRef .tc main_v54_0)]
-- one case per window, each deciding that the window's array is none of the arrays the region writes
set_option maxHeartbeats 4000000 in
theorem hF4 (c : Dev nD) : ∀ w : Fin cfg4.W, (dat4 (fun c b => W11 m c b) c).arrAt w cfg4.N = W12 m c (Pipeline.arrRef spec4 w)
  | ⟨0, h⟩ => by
    rw [(dat4 (fun c b => W11 m c b) c).arrAt_in ⟨0, h⟩ rfl, A_eq4]
    show W11 m c main_v64 = W12 m c main_v64
    unfold W12
    rw [Function.update_of_ne (StableHlo.devRef_ne_of_ne (by decide : (main_v64 : Ref sig .tc) ≠ main_v77) : (Proc.devRef .tc main_v64 : DevRef τ sig) ≠ Proc.devRef .tc main_v77)]
  | ⟨1, h⟩ => by
    rw [(dat4 (fun c b => W11 m c b) c).arrAt_in ⟨1, h⟩ rfl, A_eq4]
    show W11 m c main_v73 = W12 m c main_v73
    unfold W12
    rw [Function.update_of_ne (StableHlo.devRef_ne_of_ne (by decide : (main_v73 : Ref sig .tc) ≠ main_v77) : (Proc.devRef .tc main_v73 : DevRef τ sig) ≠ Proc.devRef .tc main_v77)]
  | ⟨2, h⟩ => by
    rw [(dat4 (fun c b => W11 m c b) c).arrAt_in ⟨2, h⟩ rfl, A_eq4]
    show W11 m c main_v74 = W12 m c main_v74
    unfold W12
    rw [Function.update_of_ne (StableHlo.devRef_ne_of_ne (by decide : (main_v74 : Ref sig .tc) ≠ main_v77) : (Proc.devRef .tc main_v74 : DevRef τ sig) ≠ Proc.devRef .tc main_v77)]
  | ⟨3, h⟩ => by
    rw [(dat4 (fun c b => W11 m c b) c).arrAt_in ⟨3, h⟩ rfl, A_eq4]
    show W11 m c main_v75 = W12 m c main_v75
    unfold W12
    rw [Function.update_of_ne (StableHlo.devRef_ne_of_ne (by decide : (main_v75 : Ref sig .tc) ≠ main_v77) : (Proc.devRef .tc main_v75 : DevRef τ sig) ≠ Proc.devRef .tc main_v77)]
  | ⟨4, h⟩ => by
    rw [(dat4 (fun c b => W11 m c b) c).arrAt_in ⟨4, h⟩ rfl, A_eq4]
    show W11 m c main_v76 = W12 m c main_v76
    unfold W12
    rw [Function.update_of_ne (StableHlo.devRef_ne_of_ne (by decide : (main_v76 : Ref sig .tc) ≠ main_v77) : (Proc.devRef .tc main_v76 : DevRef τ sig) ≠ Proc.devRef .tc main_v77)]
  | ⟨5, h⟩ => by
    rw [(dat4 (fun c b => W11 m c b) c).arrAt_in ⟨5, h⟩ rfl, A_eq4]
    show W11 m c main_v1 = W12 m c main_v1
    unfold W12
    rw [Function.update_of_ne (StableHlo.devRef_ne_of_ne (by decide : (main_v1 : Ref sig .tc) ≠ main_v77) : (Proc.devRef .tc main_v1 : DevRef τ sig) ≠ Proc.devRef .tc main_v77)]
  | ⟨6, h⟩ => by
    show o12_main_v77 m c = W12 m c main_v77
    unfold W12
    rw [Function.update_self]
theorem hrest4 (c : Dev nD) (b : Ref sig .tc) (hb : b ∉ Finset.univ.image (Pipeline.arrRef spec4)) : W12 m c b = W11 m c b := by
  unfold W12
  rw [Function.update_of_ne (StableHlo.devRef_ne_of_ne (fun e => hb (Finset.mem_image.mpr ⟨6, Finset.mem_univ _, e.symm⟩)) : (Proc.devRef .tc b : DevRef τ sig) ≠ Proc.devRef .tc main_v77)]
-- one case per window, each deciding that the window's array is none of the arrays the region writes
set_option maxHeartbeats 4000000 in
theorem hF5 (c : Dev nD) : ∀ w : Fin cfg5.W, (dat5 (fun c b => W15 m c b) c).arrAt w cfg5.N = W16 m c (Pipeline.arrRef spec5 w)
  | ⟨0, h⟩ => by
    rw [(dat5 (fun c b => W15 m c b) c).arrAt_in ⟨0, h⟩ rfl, A_eq5]
    show W15 m c main_v54_0 = W16 m c main_v54_0
    unfold W16
    rw [Function.update_of_ne (StableHlo.devRef_ne_of_ne (by decide : (main_v54_0 : Ref sig .tc) ≠ main_v90) : (Proc.devRef .tc main_v54_0 : DevRef τ sig) ≠ Proc.devRef .tc main_v90)]
  | ⟨1, h⟩ => by
    rw [(dat5 (fun c b => W15 m c b) c).arrAt_in ⟨1, h⟩ rfl, A_eq5]
    show W15 m c main_v86 = W16 m c main_v86
    unfold W16
    rw [Function.update_of_ne (StableHlo.devRef_ne_of_ne (by decide : (main_v86 : Ref sig .tc) ≠ main_v90) : (Proc.devRef .tc main_v86 : DevRef τ sig) ≠ Proc.devRef .tc main_v90)]
  | ⟨2, h⟩ => by
    rw [(dat5 (fun c b => W15 m c b) c).arrAt_in ⟨2, h⟩ rfl, A_eq5]
    show W15 m c main_v87 = W16 m c main_v87
    unfold W16
    rw [Function.update_of_ne (StableHlo.devRef_ne_of_ne (by decide : (main_v87 : Ref sig .tc) ≠ main_v90) : (Proc.devRef .tc main_v87 : DevRef τ sig) ≠ Proc.devRef .tc main_v90)]
  | ⟨3, h⟩ => by
    rw [(dat5 (fun c b => W15 m c b) c).arrAt_in ⟨3, h⟩ rfl, A_eq5]
    show W15 m c main_v88 = W16 m c main_v88
    unfold W16
    rw [Function.update_of_ne (StableHlo.devRef_ne_of_ne (by decide : (main_v88 : Ref sig .tc) ≠ main_v90) : (Proc.devRef .tc main_v88 : DevRef τ sig) ≠ Proc.devRef .tc main_v90)]
  | ⟨4, h⟩ => by
    rw [(dat5 (fun c b => W15 m c b) c).arrAt_in ⟨4, h⟩ rfl, A_eq5]
    show W15 m c main_v89 = W16 m c main_v89
    unfold W16
    rw [Function.update_of_ne (StableHlo.devRef_ne_of_ne (by decide : (main_v89 : Ref sig .tc) ≠ main_v90) : (Proc.devRef .tc main_v89 : DevRef τ sig) ≠ Proc.devRef .tc main_v90)]
  | ⟨5, h⟩ => by
    rw [(dat5 (fun c b => W15 m c b) c).arrAt_in ⟨5, h⟩ rfl, A_eq5]
    show W15 m c main_v3 = W16 m c main_v3
    unfold W16
    rw [Function.update_of_ne (StableHlo.devRef_ne_of_ne (by decide : (main_v3 : Ref sig .tc) ≠ main_v90) : (Proc.devRef .tc main_v3 : DevRef τ sig) ≠ Proc.devRef .tc main_v90)]
  | ⟨6, h⟩ => by
    show o16_main_v90 m c = W16 m c main_v90
    unfold W16
    rw [Function.update_self]
theorem hrest5 (c : Dev nD) (b : Ref sig .tc) (hb : b ∉ Finset.univ.image (Pipeline.arrRef spec5)) : W16 m c b = W15 m c b := by
  unfold W16
  rw [Function.update_of_ne (StableHlo.devRef_ne_of_ne (fun e => hb (Finset.mem_image.mpr ⟨6, Finset.mem_univ _, e.symm⟩)) : (Proc.devRef .tc b : DevRef τ sig) ≠ Proc.devRef .tc main_v90)]
-- one case per window, each deciding that the window's array is none of the arrays the region writes
set_option maxHeartbeats 4000000 in
theorem hF6 (c : Dev nD) : ∀ w : Fin cfg6.W, (dat6 (fun c b => W17 m c b) c).arrAt w cfg6.N = W18 m c (Pipeline.arrRef spec6 w)
  | ⟨0, h⟩ => by
    rw [(dat6 (fun c b => W17 m c b) c).arrAt_in ⟨0, h⟩ rfl, A_eq6]
    show W17 m c main_v77 = W18 m c main_v77
    unfold W18
    rw [Function.update_of_ne (StableHlo.devRef_ne_of_ne (by decide : (main_v77 : Ref sig .tc) ≠ main_v110) : (Proc.devRef .tc main_v77 : DevRef τ sig) ≠ Proc.devRef .tc main_v110)]
  | ⟨1, h⟩ => by
    rw [(dat6 (fun c b => W17 m c b) c).arrAt_in ⟨1, h⟩ rfl, A_eq6]
    show W17 m c main_v99 = W18 m c main_v99
    unfold W18
    rw [Function.update_of_ne (StableHlo.devRef_ne_of_ne (by decide : (main_v99 : Ref sig .tc) ≠ main_v110) : (Proc.devRef .tc main_v99 : DevRef τ sig) ≠ Proc.devRef .tc main_v110)]
  | ⟨2, h⟩ => by
    rw [(dat6 (fun c b => W17 m c b) c).arrAt_in ⟨2, h⟩ rfl, A_eq6]
    show W17 m c main_v109 = W18 m c main_v109
    unfold W18
    rw [Function.update_of_ne (StableHlo.devRef_ne_of_ne (by decide : (main_v109 : Ref sig .tc) ≠ main_v110) : (Proc.devRef .tc main_v109 : DevRef τ sig) ≠ Proc.devRef .tc main_v110)]
  | ⟨3, h⟩ => by
    show o18_main_v110 m c = W18 m c main_v110
    unfold W18
    rw [Function.update_self]
theorem hrest6 (c : Dev nD) (b : Ref sig .tc) (hb : b ∉ Finset.univ.image (Pipeline.arrRef spec6)) : W18 m c b = W17 m c b := by
  unfold W18
  rw [Function.update_of_ne (StableHlo.devRef_ne_of_ne (fun e => hb (Finset.mem_image.mpr ⟨3, Finset.mem_univ _, e.symm⟩)) : (Proc.devRef .tc b : DevRef τ sig) ≠ Proc.devRef .tc main_v110)]
-- one case per window, each deciding that the window's array is none of the arrays the region writes
set_option maxHeartbeats 4000000 in
theorem hF7 (c : Dev nD) : ∀ w : Fin cfg7.W, (dat7 (fun c b => W19 m c b) c).arrAt w cfg7.N = W20 m c (Pipeline.arrRef spec7 w)
  | ⟨0, h⟩ => by
    rw [(dat7 (fun c b => W19 m c b) c).arrAt_in ⟨0, h⟩ rfl, A_eq7]
    show W19 m c main_v90 = W20 m c main_v90
    unfold W20
    rw [Function.update_of_ne (StableHlo.devRef_ne_of_ne (by decide : (main_v90 : Ref sig .tc) ≠ main_v141_2) : (Proc.devRef .tc main_v90 : DevRef τ sig) ≠ Proc.devRef .tc main_v141_2), Function.update_of_ne (StableHlo.devRef_ne_of_ne (by decide : (main_v90 : Ref sig .tc) ≠ main_v141_1) : (Proc.devRef .tc main_v90 : DevRef τ sig) ≠ Proc.devRef .tc main_v141_1), Function.update_of_ne (StableHlo.devRef_ne_of_ne (by decide : (main_v90 : Ref sig .tc) ≠ main_v141_0) : (Proc.devRef .tc main_v90 : DevRef τ sig) ≠ Proc.devRef .tc main_v141_0)]
  | ⟨1, h⟩ => by
    rw [(dat7 (fun c b => W19 m c b) c).arrAt_in ⟨1, h⟩ rfl, A_eq7]
    show W19 m c main_v137 = W20 m c main_v137
    unfold W20
    rw [Function.update_of_ne (StableHlo.devRef_ne_of_ne (by decide : (main_v137 : Ref sig .tc) ≠ main_v141_2) : (Proc.devRef .tc main_v137 : DevRef τ sig) ≠ Proc.devRef .tc main_v141_2), Function.update_of_ne (StableHlo.devRef_ne_of_ne (by decide : (main_v137 : Ref sig .tc) ≠ main_v141_1) : (Proc.devRef .tc main_v137 : DevRef τ sig) ≠ Proc.devRef .tc main_v141_1), Function.update_of_ne (StableHlo.devRef_ne_of_ne (by decide : (main_v137 : Ref sig .tc) ≠ main_v141_0) : (Proc.devRef .tc main_v137 : DevRef τ sig) ≠ Proc.devRef .tc main_v141_0)]
  | ⟨2, h⟩ => by
    rw [(dat7 (fun c b => W19 m c b) c).arrAt_in ⟨2, h⟩ rfl, A_eq7]
    show W19 m c main_v140 = W20 m c main_v140
    unfold W20
    rw [Function.update_of_ne (StableHlo.devRef_ne_of_ne (by decide : (main_v140 : Ref sig .tc) ≠ main_v141_2) : (Proc.devRef .tc main_v140 : DevRef τ sig) ≠ Proc.devRef .tc main_v141_2), Function.update_of_ne (StableHlo.devRef_ne_of_ne (by decide : (main_v140 : Ref sig .tc) ≠ main_v141_1) : (Proc.devRef .tc main_v140 : DevRef τ sig) ≠ Proc.devRef .tc main_v141_1), Function.update_of_ne (StableHlo.devRef_ne_of_ne (by decide : (main_v140 : Ref sig .tc) ≠ main_v141_0) : (Proc.devRef .tc main_v140 : DevRef τ sig) ≠ Proc.devRef .tc main_v141_0)]
  | ⟨3, h⟩ => by
    rw [(dat7 (fun c b => W19 m c b) c).arrAt_in ⟨3, h⟩ rfl, A_eq7]
    show W19 m c main_v121 = W20 m c main_v121
    unfold W20
    rw [Function.update_of_ne (StableHlo.devRef_ne_of_ne (by decide : (main_v121 : Ref sig .tc) ≠ main_v141_2) : (Proc.devRef .tc main_v121 : DevRef τ sig) ≠ Proc.devRef .tc main_v141_2), Function.update_of_ne (StableHlo.devRef_ne_of_ne (by decide : (main_v121 : Ref sig .tc) ≠ main_v141_1) : (Proc.devRef .tc main_v121 : DevRef τ sig) ≠ Proc.devRef .tc main_v141_1), Function.update_of_ne (StableHlo.devRef_ne_of_ne (by decide : (main_v121 : Ref sig .tc) ≠ main_v141_0) : (Proc.devRef .tc main_v121 : DevRef τ sig) ≠ Proc.devRef .tc main_v141_0)]
  | ⟨4, h⟩ => by
    rw [(dat7 (fun c b => W19 m c b) c).arrAt_in ⟨4, h⟩ rfl, A_eq7]
    show W19 m c main_v128 = W20 m c main_v128
    unfold W20
    rw [Function.update_of_ne (StableHlo.devRef_ne_of_ne (by decide : (main_v128 : Ref sig .tc) ≠ main_v141_2) : (Proc.devRef .tc main_v128 : DevRef τ sig) ≠ Proc.devRef .tc main_v141_2), Function.update_of_ne (StableHlo.devRef_ne_of_ne (by decide : (main_v128 : Ref sig .tc) ≠ main_v141_1) : (Proc.devRef .tc main_v128 : DevRef τ sig) ≠ Proc.devRef .tc main_v141_1), Function.update_of_ne (StableHlo.devRef_ne_of_ne (by decide : (main_v128 : Ref sig .tc) ≠ main_v141_0) : (Proc.devRef .tc main_v128 : DevRef τ sig) ≠ Proc.devRef .tc main_v141_0)]
  | ⟨5, h⟩ => by
    rw [(dat7 (fun c b => W19 m c b) c).arrAt_in ⟨5, h⟩ rfl, A_eq7]
    show W19 m c main_v135 = W20 m c main_v135
    unfold W20
    rw [Function.update_of_ne (StableHlo.devRef_ne_of_ne (by decide : (main_v135 : Ref sig .tc) ≠ main_v141_2) : (Proc.devRef .tc main_v135 : DevRef τ sig) ≠ Proc.devRef .tc main_v141_2), Function.update_of_ne (StableHlo.devRef_ne_of_ne (by decide : (main_v135 : Ref sig .tc) ≠ main_v141_1) : (Proc.devRef .tc main_v135 : DevRef τ sig) ≠ Proc.devRef .tc main_v141_1), Function.update_of_ne (StableHlo.devRef_ne_of_ne (by decide : (main_v135 : Ref sig .tc) ≠ main_v141_0) : (Proc.devRef .tc main_v135 : DevRef τ sig) ≠ Proc.devRef .tc main_v141_0)]
  | ⟨6, h⟩ => by
    show o20_main_v141_0 m c = W20 m c main_v141_0
    unfold W20
    rw [Function.update_of_ne (StableHlo.devRef_ne_of_ne (by decide : (main_v141_0 : Ref sig .tc) ≠ main_v141_2) : (Proc.devRef .tc main_v141_0 : DevRef τ sig) ≠ Proc.devRef .tc main_v141_2), Function.update_of_ne (StableHlo.devRef_ne_of_ne (by decide : (main_v141_0 : Ref sig .tc) ≠ main_v141_1) : (Proc.devRef .tc main_v141_0 : DevRef τ sig) ≠ Proc.devRef .tc main_v141_1), Function.update_self]
  | ⟨7, h⟩ => by
    show o20_main_v141_1 m c = W20 m c main_v141_1
    unfold W20
    rw [Function.update_of_ne (StableHlo.devRef_ne_of_ne (by decide : (main_v141_1 : Ref sig .tc) ≠ main_v141_2) : (Proc.devRef .tc main_v141_1 : DevRef τ sig) ≠ Proc.devRef .tc main_v141_2), Function.update_self]
  | ⟨8, h⟩ => by
    show o20_main_v141_2 m c = W20 m c main_v141_2
    unfold W20
    rw [Function.update_self]
theorem hrest7 (c : Dev nD) (b : Ref sig .tc) (hb : b ∉ Finset.univ.image (Pipeline.arrRef spec7)) : W20 m c b = W19 m c b := by
  unfold W20
  rw [Function.update_of_ne (StableHlo.devRef_ne_of_ne (fun e => hb (Finset.mem_image.mpr ⟨8, Finset.mem_univ _, e.symm⟩)) : (Proc.devRef .tc b : DevRef τ sig) ≠ Proc.devRef .tc main_v141_2), Function.update_of_ne (StableHlo.devRef_ne_of_ne (fun e => hb (Finset.mem_image.mpr ⟨7, Finset.mem_univ _, e.symm⟩)) : (Proc.devRef .tc b : DevRef τ sig) ≠ Proc.devRef .tc main_v141_1), Function.update_of_ne (StableHlo.devRef_ne_of_ne (fun e => hb (Finset.mem_image.mpr ⟨6, Finset.mem_univ _, e.symm⟩)) : (Proc.devRef .tc b : DevRef τ sig) ≠ Proc.devRef .tc main_v141_0)]
-- one case per window, each deciding that the window's array is none of the arrays the region writes
set_option maxHeartbeats 4000000 in
theorem hF8 (c : Dev nD) : ∀ w : Fin cfg8.W, (dat8 (fun c b => W23 m c b) c).arrAt w cfg8.N = W24 m c (Pipeline.arrRef spec8 w)
  | ⟨0, h⟩ => by
    rw [(dat8 (fun c b => W23 m c b) c).arrAt_in ⟨0, h⟩ rfl, A_eq8]
    show W23 m c main_v151 = W24 m c main_v151
    unfold W24
    rw [Function.update_of_ne (StableHlo.devRef_ne_of_ne (by decide : (main_v151 : Ref sig .tc) ≠ main_v164) : (Proc.devRef .tc main_v151 : DevRef τ sig) ≠ Proc.devRef .tc main_v164)]
  | ⟨1, h⟩ => by
    rw [(dat8 (fun c b => W23 m c b) c).arrAt_in ⟨1, h⟩ rfl, A_eq8]
    show W23 m c main_v160 = W24 m c main_v160
    unfold W24
    rw [Function.update_of_ne (StableHlo.devRef_ne_of_ne (by decide : (main_v160 : Ref sig .tc) ≠ main_v164) : (Proc.devRef .tc main_v160 : DevRef τ sig) ≠ Proc.devRef .tc main_v164)]
  | ⟨2, h⟩ => by
    rw [(dat8 (fun c b => W23 m c b) c).arrAt_in ⟨2, h⟩ rfl, A_eq8]
    show W23 m c main_v161 = W24 m c main_v161
    unfold W24
    rw [Function.update_of_ne (StableHlo.devRef_ne_of_ne (by decide : (main_v161 : Ref sig .tc) ≠ main_v164) : (Proc.devRef .tc main_v161 : DevRef τ sig) ≠ Proc.devRef .tc main_v164)]
  | ⟨3, h⟩ => by
    rw [(dat8 (fun c b => W23 m c b) c).arrAt_in ⟨3, h⟩ rfl, A_eq8]
    show W23 m c main_v162 = W24 m c main_v162
    unfold W24
    rw [Function.update_of_ne (StableHlo.devRef_ne_of_ne (by decide : (main_v162 : Ref sig .tc) ≠ main_v164) : (Proc.devRef .tc main_v162 : DevRef τ sig) ≠ Proc.devRef .tc main_v164)]
  | ⟨4, h⟩ => by
    rw [(dat8 (fun c b => W23 m c b) c).arrAt_in ⟨4, h⟩ rfl, A_eq8]
    show W23 m c main_v163 = W24 m c main_v163
    unfold W24
    rw [Function.update_of_ne (StableHlo.devRef_ne_of_ne (by decide : (main_v163 : Ref sig .tc) ≠ main_v164) : (Proc.devRef .tc main_v163 : DevRef τ sig) ≠ Proc.devRef .tc main_v164)]
  | ⟨5, h⟩ => by
    rw [(dat8 (fun c b => W23 m c b) c).arrAt_in ⟨5, h⟩ rfl, A_eq8]
    show W23 m c main_v77 = W24 m c main_v77
    unfold W24
    rw [Function.update_of_ne (StableHlo.devRef_ne_of_ne (by decide : (main_v77 : Ref sig .tc) ≠ main_v164) : (Proc.devRef .tc main_v77 : DevRef τ sig) ≠ Proc.devRef .tc main_v164)]
  | ⟨6, h⟩ => by
    show o24_main_v164 m c = W24 m c main_v164
    unfold W24
    rw [Function.update_self]
theorem hrest8 (c : Dev nD) (b : Ref sig .tc) (hb : b ∉ Finset.univ.image (Pipeline.arrRef spec8)) : W24 m c b = W23 m c b := by
  unfold W24
  rw [Function.update_of_ne (StableHlo.devRef_ne_of_ne (fun e => hb (Finset.mem_image.mpr ⟨6, Finset.mem_univ _, e.symm⟩)) : (Proc.devRef .tc b : DevRef τ sig) ≠ Proc.devRef .tc main_v164)]
-- one case per window, each deciding that the window's array is none of the arrays the region writes
set_option maxHeartbeats 4000000 in
theorem hF9 (c : Dev nD) : ∀ w : Fin cfg9.W, (dat9 (fun c b => W27 m c b) c).arrAt w cfg9.N = W28 m c (Pipeline.arrRef spec9 w)
  | ⟨0, h⟩ => by
    rw [(dat9 (fun c b => W27 m c b) c).arrAt_in ⟨0, h⟩ rfl, A_eq9]
    show W27 m c main_v141_0 = W28 m c main_v141_0
    unfold W28
    rw [Function.update_of_ne (StableHlo.devRef_ne_of_ne (by decide : (main_v141_0 : Ref sig .tc) ≠ main_v177) : (Proc.devRef .tc main_v141_0 : DevRef τ sig) ≠ Proc.devRef .tc main_v177)]
  | ⟨1, h⟩ => by
    rw [(dat9 (fun c b => W27 m c b) c).arrAt_in ⟨1, h⟩ rfl, A_eq9]
    show W27 m c main_v173 = W28 m c main_v173
    unfold W28
    rw [Function.update_of_ne (StableHlo.devRef_ne_of_ne (by decide : (main_v173 : Ref sig .tc) ≠ main_v177) : (Proc.devRef .tc main_v173 : DevRef τ sig) ≠ Proc.devRef .tc main_v177)]
  | ⟨2, h⟩ => by
    rw [(dat9 (fun c b => W27 m c b) c).arrAt_in ⟨2, h⟩ rfl, A_eq9]
    show W27 m c main_v174 = W28 m c main_v174
    unfold W28
    rw [Function.update_of_ne (StableHlo.devRef_ne_of_ne (by decide : (main_v174 : Ref sig .tc) ≠ main_v177) : (Proc.devRef .tc main_v174 : DevRef τ sig) ≠ Proc.devRef .tc main_v177)]
  | ⟨3, h⟩ => by
    rw [(dat9 (fun c b => W27 m c b) c).arrAt_in ⟨3, h⟩ rfl, A_eq9]
    show W27 m c main_v175 = W28 m c main_v175
    unfold W28
    rw [Function.update_of_ne (StableHlo.devRef_ne_of_ne (by decide : (main_v175 : Ref sig .tc) ≠ main_v177) : (Proc.devRef .tc main_v175 : DevRef τ sig) ≠ Proc.devRef .tc main_v177)]
  | ⟨4, h⟩ => by
    rw [(dat9 (fun c b => W27 m c b) c).arrAt_in ⟨4, h⟩ rfl, A_eq9]
    show W27 m c main_v176 = W28 m c main_v176
    unfold W28
    rw [Function.update_of_ne (StableHlo.devRef_ne_of_ne (by decide : (main_v176 : Ref sig .tc) ≠ main_v177) : (Proc.devRef .tc main_v176 : DevRef τ sig) ≠ Proc.devRef .tc main_v177)]
  | ⟨5, h⟩ => by
    rw [(dat9 (fun c b => W27 m c b) c).arrAt_in ⟨5, h⟩ rfl, A_eq9]
    show W27 m c main_v90 = W28 m c main_v90
    unfold W28
    rw [Function.update_of_ne (StableHlo.devRef_ne_of_ne (by decide : (main_v90 : Ref sig .tc) ≠ main_v177) : (Proc.devRef .tc main_v90 : DevRef τ sig) ≠ Proc.devRef .tc main_v177)]
  | ⟨6, h⟩ => by
    show o28_main_v177 m c = W28 m c main_v177
    unfold W28
    rw [Function.update_self]
theorem hrest9 (c : Dev nD) (b : Ref sig .tc) (hb : b ∉ Finset.univ.image (Pipeline.arrRef spec9)) : W28 m c b = W27 m c b := by
  unfold W28
  rw [Function.update_of_ne (StableHlo.devRef_ne_of_ne (fun e => hb (Finset.mem_image.mpr ⟨6, Finset.mem_univ _, e.symm⟩)) : (Proc.devRef .tc b : DevRef τ sig) ≠ Proc.devRef .tc main_v177)]
-- one case per window, each deciding that the window's array is none of the arrays the region writes
set_option maxHeartbeats 4000000 in
theorem hF10 (c : Dev nD) : ∀ w : Fin cfg10.W, (dat10 (fun c b => W29 m c b) c).arrAt w cfg10.N = W30 m c (Pipeline.arrRef spec10 w)
  | ⟨0, h⟩ => by
    rw [(dat10 (fun c b => W29 m c b) c).arrAt_in ⟨0, h⟩ rfl, A_eq10]
    show W29 m c main_v164 = W30 m c main_v164
    unfold W30
    rw [Function.update_of_ne (StableHlo.devRef_ne_of_ne (by decide : (main_v164 : Ref sig .tc) ≠ main_v197) : (Proc.devRef .tc main_v164 : DevRef τ sig) ≠ Proc.devRef .tc main_v197)]
  | ⟨1, h⟩ => by
    rw [(dat10 (fun c b => W29 m c b) c).arrAt_in ⟨1, h⟩ rfl, A_eq10]
    show W29 m c main_v186 = W30 m c main_v186
    unfold W30
    rw [Function.update_of_ne (StableHlo.devRef_ne_of_ne (by decide : (main_v186 : Ref sig .tc) ≠ main_v197) : (Proc.devRef .tc main_v186 : DevRef τ sig) ≠ Proc.devRef .tc main_v197)]
  | ⟨2, h⟩ => by
    rw [(dat10 (fun c b => W29 m c b) c).arrAt_in ⟨2, h⟩ rfl, A_eq10]
    show W29 m c main_v196 = W30 m c main_v196
    unfold W30
    rw [Function.update_of_ne (StableHlo.devRef_ne_of_ne (by decide : (main_v196 : Ref sig .tc) ≠ main_v197) : (Proc.devRef .tc main_v196 : DevRef τ sig) ≠ Proc.devRef .tc main_v197)]
  | ⟨3, h⟩ => by
    show o30_main_v197 m c = W30 m c main_v197
    unfold W30
    rw [Function.update_self]
theorem hrest10 (c : Dev nD) (b : Ref sig .tc) (hb : b ∉ Finset.univ.image (Pipeline.arrRef spec10)) : W30 m c b = W29 m c b := by
  unfold W30
  rw [Function.update_of_ne (StableHlo.devRef_ne_of_ne (fun e => hb (Finset.mem_image.mpr ⟨3, Finset.mem_univ _, e.symm⟩)) : (Proc.devRef .tc b : DevRef τ sig) ≠ Proc.devRef .tc main_v197)]
-- one case per window, each deciding that the window's array is none of the arrays the region writes
set_option maxHeartbeats 4000000 in
theorem hF11 (c : Dev nD) : ∀ w : Fin cfg11.W, (dat11 (fun c b => W31 m c b) c).arrAt w cfg11.N = W32 m c (Pipeline.arrRef spec11 w)
  | ⟨0, h⟩ => by
    rw [(dat11 (fun c b => W31 m c b) c).arrAt_in ⟨0, h⟩ rfl, A_eq11]
    show W31 m c main_v177 = W32 m c main_v177
    unfold W32
    rw [Function.update_of_ne (StableHlo.devRef_ne_of_ne (by decide : (main_v177 : Ref sig .tc) ≠ main_v228_2) : (Proc.devRef .tc main_v177 : DevRef τ sig) ≠ Proc.devRef .tc main_v228_2), Function.update_of_ne (StableHlo.devRef_ne_of_ne (by decide : (main_v177 : Ref sig .tc) ≠ main_v228_1) : (Proc.devRef .tc main_v177 : DevRef τ sig) ≠ Proc.devRef .tc main_v228_1), Function.update_of_ne (StableHlo.devRef_ne_of_ne (by decide : (main_v177 : Ref sig .tc) ≠ main_v228_0) : (Proc.devRef .tc main_v177 : DevRef τ sig) ≠ Proc.devRef .tc main_v228_0)]
  | ⟨1, h⟩ => by
    rw [(dat11 (fun c b => W31 m c b) c).arrAt_in ⟨1, h⟩ rfl, A_eq11]
    show W31 m c main_v224 = W32 m c main_v224
    unfold W32
    rw [Function.update_of_ne (StableHlo.devRef_ne_of_ne (by decide : (main_v224 : Ref sig .tc) ≠ main_v228_2) : (Proc.devRef .tc main_v224 : DevRef τ sig) ≠ Proc.devRef .tc main_v228_2), Function.update_of_ne (StableHlo.devRef_ne_of_ne (by decide : (main_v224 : Ref sig .tc) ≠ main_v228_1) : (Proc.devRef .tc main_v224 : DevRef τ sig) ≠ Proc.devRef .tc main_v228_1), Function.update_of_ne (StableHlo.devRef_ne_of_ne (by decide : (main_v224 : Ref sig .tc) ≠ main_v228_0) : (Proc.devRef .tc main_v224 : DevRef τ sig) ≠ Proc.devRef .tc main_v228_0)]
  | ⟨2, h⟩ => by
    rw [(dat11 (fun c b => W31 m c b) c).arrAt_in ⟨2, h⟩ rfl, A_eq11]
    show W31 m c main_v227 = W32 m c main_v227
    unfold W32
    rw [Function.update_of_ne (StableHlo.devRef_ne_of_ne (by decide : (main_v227 : Ref sig .tc) ≠ main_v228_2) : (Proc.devRef .tc main_v227 : DevRef τ sig) ≠ Proc.devRef .tc main_v228_2), Function.update_of_ne (StableHlo.devRef_ne_of_ne (by decide : (main_v227 : Ref sig .tc) ≠ main_v228_1) : (Proc.devRef .tc main_v227 : DevRef τ sig) ≠ Proc.devRef .tc main_v228_1), Function.update_of_ne (StableHlo.devRef_ne_of_ne (by decide : (main_v227 : Ref sig .tc) ≠ main_v228_0) : (Proc.devRef .tc main_v227 : DevRef τ sig) ≠ Proc.devRef .tc main_v228_0)]
  | ⟨3, h⟩ => by
    rw [(dat11 (fun c b => W31 m c b) c).arrAt_in ⟨3, h⟩ rfl, A_eq11]
    show W31 m c main_v208 = W32 m c main_v208
    unfold W32
    rw [Function.update_of_ne (StableHlo.devRef_ne_of_ne (by decide : (main_v208 : Ref sig .tc) ≠ main_v228_2) : (Proc.devRef .tc main_v208 : DevRef τ sig) ≠ Proc.devRef .tc main_v228_2), Function.update_of_ne (StableHlo.devRef_ne_of_ne (by decide : (main_v208 : Ref sig .tc) ≠ main_v228_1) : (Proc.devRef .tc main_v208 : DevRef τ sig) ≠ Proc.devRef .tc main_v228_1), Function.update_of_ne (StableHlo.devRef_ne_of_ne (by decide : (main_v208 : Ref sig .tc) ≠ main_v228_0) : (Proc.devRef .tc main_v208 : DevRef τ sig) ≠ Proc.devRef .tc main_v228_0)]
  | ⟨4, h⟩ => by
    rw [(dat11 (fun c b => W31 m c b) c).arrAt_in ⟨4, h⟩ rfl, A_eq11]
    show W31 m c main_v215 = W32 m c main_v215
    unfold W32
    rw [Function.update_of_ne (StableHlo.devRef_ne_of_ne (by decide : (main_v215 : Ref sig .tc) ≠ main_v228_2) : (Proc.devRef .tc main_v215 : DevRef τ sig) ≠ Proc.devRef .tc main_v228_2), Function.update_of_ne (StableHlo.devRef_ne_of_ne (by decide : (main_v215 : Ref sig .tc) ≠ main_v228_1) : (Proc.devRef .tc main_v215 : DevRef τ sig) ≠ Proc.devRef .tc main_v228_1), Function.update_of_ne (StableHlo.devRef_ne_of_ne (by decide : (main_v215 : Ref sig .tc) ≠ main_v228_0) : (Proc.devRef .tc main_v215 : DevRef τ sig) ≠ Proc.devRef .tc main_v228_0)]
  | ⟨5, h⟩ => by
    rw [(dat11 (fun c b => W31 m c b) c).arrAt_in ⟨5, h⟩ rfl, A_eq11]
    show W31 m c main_v222 = W32 m c main_v222
    unfold W32
    rw [Function.update_of_ne (StableHlo.devRef_ne_of_ne (by decide : (main_v222 : Ref sig .tc) ≠ main_v228_2) : (Proc.devRef .tc main_v222 : DevRef τ sig) ≠ Proc.devRef .tc main_v228_2), Function.update_of_ne (StableHlo.devRef_ne_of_ne (by decide : (main_v222 : Ref sig .tc) ≠ main_v228_1) : (Proc.devRef .tc main_v222 : DevRef τ sig) ≠ Proc.devRef .tc main_v228_1), Function.update_of_ne (StableHlo.devRef_ne_of_ne (by decide : (main_v222 : Ref sig .tc) ≠ main_v228_0) : (Proc.devRef .tc main_v222 : DevRef τ sig) ≠ Proc.devRef .tc main_v228_0)]
  | ⟨6, h⟩ => by
    show o32_main_v228_0 m c = W32 m c main_v228_0
    unfold W32
    rw [Function.update_of_ne (StableHlo.devRef_ne_of_ne (by decide : (main_v228_0 : Ref sig .tc) ≠ main_v228_2) : (Proc.devRef .tc main_v228_0 : DevRef τ sig) ≠ Proc.devRef .tc main_v228_2), Function.update_of_ne (StableHlo.devRef_ne_of_ne (by decide : (main_v228_0 : Ref sig .tc) ≠ main_v228_1) : (Proc.devRef .tc main_v228_0 : DevRef τ sig) ≠ Proc.devRef .tc main_v228_1), Function.update_self]
  | ⟨7, h⟩ => by
    show o32_main_v228_1 m c = W32 m c main_v228_1
    unfold W32
    rw [Function.update_of_ne (StableHlo.devRef_ne_of_ne (by decide : (main_v228_1 : Ref sig .tc) ≠ main_v228_2) : (Proc.devRef .tc main_v228_1 : DevRef τ sig) ≠ Proc.devRef .tc main_v228_2), Function.update_self]
  | ⟨8, h⟩ => by
    show o32_main_v228_2 m c = W32 m c main_v228_2
    unfold W32
    rw [Function.update_self]
theorem hrest11 (c : Dev nD) (b : Ref sig .tc) (hb : b ∉ Finset.univ.image (Pipeline.arrRef spec11)) : W32 m c b = W31 m c b := by
  unfold W32
  rw [Function.update_of_ne (StableHlo.devRef_ne_of_ne (fun e => hb (Finset.mem_image.mpr ⟨8, Finset.mem_univ _, e.symm⟩)) : (Proc.devRef .tc b : DevRef τ sig) ≠ Proc.devRef .tc main_v228_2), Function.update_of_ne (StableHlo.devRef_ne_of_ne (fun e => hb (Finset.mem_image.mpr ⟨7, Finset.mem_univ _, e.symm⟩)) : (Proc.devRef .tc b : DevRef τ sig) ≠ Proc.devRef .tc main_v228_1), Function.update_of_ne (StableHlo.devRef_ne_of_ne (fun e => hb (Finset.mem_image.mpr ⟨6, Finset.mem_univ _, e.symm⟩)) : (Proc.devRef .tc b : DevRef τ sig) ≠ Proc.devRef .tc main_v228_0)]
-- one case per window, each deciding that the window's array is none of the arrays the region writes
set_option maxHeartbeats 4000000 in
theorem hF12 (c : Dev nD) : ∀ w : Fin cfg12.W, (dat12 (fun c b => W35 m c b) c).arrAt w cfg12.N = W36 m c (Pipeline.arrRef spec12 w)
  | ⟨0, h⟩ => by
    rw [(dat12 (fun c b => W35 m c b) c).arrAt_in ⟨0, h⟩ rfl, A_eq12]
    show W35 m c main_v238 = W36 m c main_v238
    unfold W36
    rw [Function.update_of_ne (StableHlo.devRef_ne_of_ne (by decide : (main_v238 : Ref sig .tc) ≠ main_v251) : (Proc.devRef .tc main_v238 : DevRef τ sig) ≠ Proc.devRef .tc main_v251)]
  | ⟨1, h⟩ => by
    rw [(dat12 (fun c b => W35 m c b) c).arrAt_in ⟨1, h⟩ rfl, A_eq12]
    show W35 m c main_v247 = W36 m c main_v247
    unfold W36
    rw [Function.update_of_ne (StableHlo.devRef_ne_of_ne (by decide : (main_v247 : Ref sig .tc) ≠ main_v251) : (Proc.devRef .tc main_v247 : DevRef τ sig) ≠ Proc.devRef .tc main_v251)]
  | ⟨2, h⟩ => by
    rw [(dat12 (fun c b => W35 m c b) c).arrAt_in ⟨2, h⟩ rfl, A_eq12]
    show W35 m c main_v248 = W36 m c main_v248
    unfold W36
    rw [Function.update_of_ne (StableHlo.devRef_ne_of_ne (by decide : (main_v248 : Ref sig .tc) ≠ main_v251) : (Proc.devRef .tc main_v248 : DevRef τ sig) ≠ Proc.devRef .tc main_v251)]
  | ⟨3, h⟩ => by
    rw [(dat12 (fun c b => W35 m c b) c).arrAt_in ⟨3, h⟩ rfl, A_eq12]
    show W35 m c main_v249 = W36 m c main_v249
    unfold W36
    rw [Function.update_of_ne (StableHlo.devRef_ne_of_ne (by decide : (main_v249 : Ref sig .tc) ≠ main_v251) : (Proc.devRef .tc main_v249 : DevRef τ sig) ≠ Proc.devRef .tc main_v251)]
  | ⟨4, h⟩ => by
    rw [(dat12 (fun c b => W35 m c b) c).arrAt_in ⟨4, h⟩ rfl, A_eq12]
    show W35 m c main_v250 = W36 m c main_v250
    unfold W36
    rw [Function.update_of_ne (StableHlo.devRef_ne_of_ne (by decide : (main_v250 : Ref sig .tc) ≠ main_v251) : (Proc.devRef .tc main_v250 : DevRef τ sig) ≠ Proc.devRef .tc main_v251)]
  | ⟨5, h⟩ => by
    rw [(dat12 (fun c b => W35 m c b) c).arrAt_in ⟨5, h⟩ rfl, A_eq12]
    show W35 m c main_v164 = W36 m c main_v164
    unfold W36
    rw [Function.update_of_ne (StableHlo.devRef_ne_of_ne (by decide : (main_v164 : Ref sig .tc) ≠ main_v251) : (Proc.devRef .tc main_v164 : DevRef τ sig) ≠ Proc.devRef .tc main_v251)]
  | ⟨6, h⟩ => by
    show o36_main_v251 m c = W36 m c main_v251
    unfold W36
    rw [Function.update_self]
theorem hrest12 (c : Dev nD) (b : Ref sig .tc) (hb : b ∉ Finset.univ.image (Pipeline.arrRef spec12)) : W36 m c b = W35 m c b := by
  unfold W36
  rw [Function.update_of_ne (StableHlo.devRef_ne_of_ne (fun e => hb (Finset.mem_image.mpr ⟨6, Finset.mem_univ _, e.symm⟩)) : (Proc.devRef .tc b : DevRef τ sig) ≠ Proc.devRef .tc main_v251)]
-- one case per window, each deciding that the window's array is none of the arrays the region writes
set_option maxHeartbeats 4000000 in
theorem hF13 (c : Dev nD) : ∀ w : Fin cfg13.W, (dat13 (fun c b => W39 m c b) c).arrAt w cfg13.N = W40 m c (Pipeline.arrRef spec13 w)
  | ⟨0, h⟩ => by
    rw [(dat13 (fun c b => W39 m c b) c).arrAt_in ⟨0, h⟩ rfl, A_eq13]
    show W39 m c main_v228_0 = W40 m c main_v228_0
    unfold W40
    rw [Function.update_of_ne (StableHlo.devRef_ne_of_ne (by decide : (main_v228_0 : Ref sig .tc) ≠ main_v264) : (Proc.devRef .tc main_v228_0 : DevRef τ sig) ≠ Proc.devRef .tc main_v264)]
  | ⟨1, h⟩ => by
    rw [(dat13 (fun c b => W39 m c b) c).arrAt_in ⟨1, h⟩ rfl, A_eq13]
    show W39 m c main_v260 = W40 m c main_v260
    unfold W40
    rw [Function.update_of_ne (StableHlo.devRef_ne_of_ne (by decide : (main_v260 : Ref sig .tc) ≠ main_v264) : (Proc.devRef .tc main_v260 : DevRef τ sig) ≠ Proc.devRef .tc main_v264)]
  | ⟨2, h⟩ => by
    rw [(dat13 (fun c b => W39 m c b) c).arrAt_in ⟨2, h⟩ rfl, A_eq13]
    show W39 m c main_v261 = W40 m c main_v261
    unfold W40
    rw [Function.update_of_ne (StableHlo.devRef_ne_of_ne (by decide : (main_v261 : Ref sig .tc) ≠ main_v264) : (Proc.devRef .tc main_v261 : DevRef τ sig) ≠ Proc.devRef .tc main_v264)]
  | ⟨3, h⟩ => by
    rw [(dat13 (fun c b => W39 m c b) c).arrAt_in ⟨3, h⟩ rfl, A_eq13]
    show W39 m c main_v262 = W40 m c main_v262
    unfold W40
    rw [Function.update_of_ne (StableHlo.devRef_ne_of_ne (by decide : (main_v262 : Ref sig .tc) ≠ main_v264) : (Proc.devRef .tc main_v262 : DevRef τ sig) ≠ Proc.devRef .tc main_v264)]
  | ⟨4, h⟩ => by
    rw [(dat13 (fun c b => W39 m c b) c).arrAt_in ⟨4, h⟩ rfl, A_eq13]
    show W39 m c main_v263 = W40 m c main_v263
    unfold W40
    rw [Function.update_of_ne (StableHlo.devRef_ne_of_ne (by decide : (main_v263 : Ref sig .tc) ≠ main_v264) : (Proc.devRef .tc main_v263 : DevRef τ sig) ≠ Proc.devRef .tc main_v264)]
  | ⟨5, h⟩ => by
    rw [(dat13 (fun c b => W39 m c b) c).arrAt_in ⟨5, h⟩ rfl, A_eq13]
    show W39 m c main_v177 = W40 m c main_v177
    unfold W40
    rw [Function.update_of_ne (StableHlo.devRef_ne_of_ne (by decide : (main_v177 : Ref sig .tc) ≠ main_v264) : (Proc.devRef .tc main_v177 : DevRef τ sig) ≠ Proc.devRef .tc main_v264)]
  | ⟨6, h⟩ => by
    show o40_main_v264 m c = W40 m c main_v264
    unfold W40
    rw [Function.update_self]
theorem hrest13 (c : Dev nD) (b : Ref sig .tc) (hb : b ∉ Finset.univ.image (Pipeline.arrRef spec13)) : W40 m c b = W39 m c b := by
  unfold W40
  rw [Function.update_of_ne (StableHlo.devRef_ne_of_ne (fun e => hb (Finset.mem_image.mpr ⟨6, Finset.mem_univ _, e.symm⟩)) : (Proc.devRef .tc b : DevRef τ sig) ≠ Proc.devRef .tc main_v264)]
-- one case per window, each deciding that the window's array is none of the arrays the region writes
set_option maxHeartbeats 4000000 in
theorem hF14 (c : Dev nD) : ∀ w : Fin cfg14.W, (dat14 (fun c b => W41 m c b) c).arrAt w cfg14.N = W42 m c (Pipeline.arrRef spec14 w)
  | ⟨0, h⟩ => by
    rw [(dat14 (fun c b => W41 m c b) c).arrAt_in ⟨0, h⟩ rfl, A_eq14]
    show W41 m c main_v277 = W42 m c main_v277
    unfold W42
    rw [Function.update_of_ne (StableHlo.devRef_ne_of_ne (by decide : (main_v277 : Ref sig .tc) ≠ main_v281) : (Proc.devRef .tc main_v277 : DevRef τ sig) ≠ Proc.devRef .tc main_v281)]
  | ⟨1, h⟩ => by
    rw [(dat14 (fun c b => W41 m c b) c).arrAt_in ⟨1, h⟩ rfl, A_eq14]
    show W41 m c main_arg25 = W42 m c main_arg25
    unfold W42
    rw [Function.update_of_ne (StableHlo.devRef_ne_of_ne (by decide : (main_arg25 : Ref sig .tc) ≠ main_v281) : (Proc.devRef .tc main_arg25 : DevRef τ sig) ≠ Proc.devRef .tc main_v281)]
  | ⟨2, h⟩ => by
    rw [(dat14 (fun c b => W41 m c b) c).arrAt_in ⟨2, h⟩ rfl, A_eq14]
    show W41 m c main_v278 = W42 m c main_v278
    unfold W42
    rw [Function.update_of_ne (StableHlo.devRef_ne_of_ne (by decide : (main_v278 : Ref sig .tc) ≠ main_v281) : (Proc.devRef .tc main_v278 : DevRef τ sig) ≠ Proc.devRef .tc main_v281)]
  | ⟨3, h⟩ => by
    rw [(dat14 (fun c b => W41 m c b) c).arrAt_in ⟨3, h⟩ rfl, A_eq14]
    show W41 m c main_arg27 = W42 m c main_arg27
    unfold W42
    rw [Function.update_of_ne (StableHlo.devRef_ne_of_ne (by decide : (main_arg27 : Ref sig .tc) ≠ main_v281) : (Proc.devRef .tc main_arg27 : DevRef τ sig) ≠ Proc.devRef .tc main_v281)]
  | ⟨4, h⟩ => by
    rw [(dat14 (fun c b => W41 m c b) c).arrAt_in ⟨4, h⟩ rfl, A_eq14]
    show W41 m c main_v279 = W42 m c main_v279
    unfold W42
    rw [Function.update_of_ne (StableHlo.devRef_ne_of_ne (by decide : (main_v279 : Ref sig .tc) ≠ main_v281) : (Proc.devRef .tc main_v279 : DevRef τ sig) ≠ Proc.devRef .tc main_v281)]
  | ⟨5, h⟩ => by
    rw [(dat14 (fun c b => W41 m c b) c).arrAt_in ⟨5, h⟩ rfl, A_eq14]
    show W41 m c main_arg29 = W42 m c main_arg29
    unfold W42
    rw [Function.update_of_ne (StableHlo.devRef_ne_of_ne (by decide : (main_arg29 : Ref sig .tc) ≠ main_v281) : (Proc.devRef .tc main_arg29 : DevRef τ sig) ≠ Proc.devRef .tc main_v281)]
  | ⟨6, h⟩ => by
    rw [(dat14 (fun c b => W41 m c b) c).arrAt_in ⟨6, h⟩ rfl, A_eq14]
    show W41 m c main_v280 = W42 m c main_v280
    unfold W42
    rw [Function.update_of_ne (StableHlo.devRef_ne_of_ne (by decide : (main_v280 : Ref sig .tc) ≠ main_v281) : (Proc.devRef .tc main_v280 : DevRef τ sig) ≠ Proc.devRef .tc main_v281)]
  | ⟨7, h⟩ => by
    show o42_main_v281 m c = W42 m c main_v281
    unfold W42
    rw [Function.update_self]
theorem hrest14 (c : Dev nD) (b : Ref sig .tc) (hb : b ∉ Finset.univ.image (Pipeline.arrRef spec14)) : W42 m c b = W41 m c b := by
  unfold W42
  rw [Function.update_of_ne (StableHlo.devRef_ne_of_ne (fun e => hb (Finset.mem_image.mpr ⟨7, Finset.mem_univ _, e.symm⟩)) : (Proc.devRef .tc b : DevRef τ sig) ≠ Proc.devRef .tc main_v281)]

/-! ## The regions as segments of this run -/

/-- Region 0: entered from the fold after item 0, left at the fold after item 1. -/
def reg0 : Pipeline.RegionSeg (pcfgs (F := F)) GenP.adm (pdats m) () defs₀ 𝒱₀ L lv 0 :=
  reg0_of (pdats m) (W1 m) (W2 m) (fun _ => rfl) (hF0 m) (hrest0 m)
/-- Region 1: entered from the fold after item 2, left at the fold after item 3. -/
def reg1 : Pipeline.RegionSeg (pcfgs (F := F)) GenP.adm (pdats m) () defs₀ 𝒱₀ L lv 1 :=
  reg1_of (pdats m) (W3 m) (W4 m) (fun _ => rfl) (hF1 m) (hrest1 m)
/-- Region 2: entered from the fold after item 4, left at the fold after item 5. -/
def reg2 : Pipeline.RegionSeg (pcfgs (F := F)) GenP.adm (pdats m) () defs₀ 𝒱₀ L lv 2 :=
  reg2_of (pdats m) (W5 m) (W6 m) (fun _ => rfl) (hF2 m) (hrest2 m)
/-- Region 3: entered from the fold after item 6, left at the fold after item 7. -/
def reg3 : Pipeline.RegionSeg (pcfgs (F := F)) GenP.adm (pdats m) () defs₀ 𝒱₀ L lv 3 :=
  reg3_of (pdats m) (W7 m) (W8 m) (fun _ => rfl) (hF3 m) (hrest3 m)
/-- Region 4: entered from the fold after item 10, left at the fold after item 11. -/
def reg4 : Pipeline.RegionSeg (pcfgs (F := F)) GenP.adm (pdats m) () defs₀ 𝒱₀ L lv 4 :=
  reg4_of (pdats m) (W11 m) (W12 m) (fun _ => rfl) (hF4 m) (hrest4 m)
/-- Region 5: entered from the fold after item 14, left at the fold after item 15. -/
def reg5 : Pipeline.RegionSeg (pcfgs (F := F)) GenP.adm (pdats m) () defs₀ 𝒱₀ L lv 5 :=
  reg5_of (pdats m) (W15 m) (W16 m) (fun _ => rfl) (hF5 m) (hrest5 m)
/-- Region 6: entered from the fold after item 16, left at the fold after item 17. -/
def reg6 : Pipeline.RegionSeg (pcfgs (F := F)) GenP.adm (pdats m) () defs₀ 𝒱₀ L lv 6 :=
  reg6_of (pdats m) (W17 m) (W18 m) (fun _ => rfl) (hF6 m) (hrest6 m)
/-- Region 7: entered from the fold after item 18, left at the fold after item 19. -/
def reg7 : Pipeline.RegionSeg (pcfgs (F := F)) GenP.adm (pdats m) () defs₀ 𝒱₀ L lv 7 :=
  reg7_of (pdats m) (W19 m) (W20 m) (fun _ => rfl) (hF7 m) (hrest7 m)
/-- Region 8: entered from the fold after item 22, left at the fold after item 23. -/
def reg8 : Pipeline.RegionSeg (pcfgs (F := F)) GenP.adm (pdats m) () defs₀ 𝒱₀ L lv 8 :=
  reg8_of (pdats m) (W23 m) (W24 m) (fun _ => rfl) (hF8 m) (hrest8 m)
/-- Region 9: entered from the fold after item 26, left at the fold after item 27. -/
def reg9 : Pipeline.RegionSeg (pcfgs (F := F)) GenP.adm (pdats m) () defs₀ 𝒱₀ L lv 9 :=
  reg9_of (pdats m) (W27 m) (W28 m) (fun _ => rfl) (hF9 m) (hrest9 m)
/-- Region 10: entered from the fold after item 28, left at the fold after item 29. -/
def reg10 : Pipeline.RegionSeg (pcfgs (F := F)) GenP.adm (pdats m) () defs₀ 𝒱₀ L lv 10 :=
  reg10_of (pdats m) (W29 m) (W30 m) (fun _ => rfl) (hF10 m) (hrest10 m)
/-- Region 11: entered from the fold after item 30, left at the fold after item 31. -/
def reg11 : Pipeline.RegionSeg (pcfgs (F := F)) GenP.adm (pdats m) () defs₀ 𝒱₀ L lv 11 :=
  reg11_of (pdats m) (W31 m) (W32 m) (fun _ => rfl) (hF11 m) (hrest11 m)
/-- Region 12: entered from the fold after item 34, left at the fold after item 35. -/
def reg12 : Pipeline.RegionSeg (pcfgs (F := F)) GenP.adm (pdats m) () defs₀ 𝒱₀ L lv 12 :=
  reg12_of (pdats m) (W35 m) (W36 m) (fun _ => rfl) (hF12 m) (hrest12 m)
/-- Region 13: entered from the fold after item 38, left at the fold after item 39. -/
def reg13 : Pipeline.RegionSeg (pcfgs (F := F)) GenP.adm (pdats m) () defs₀ 𝒱₀ L lv 13 :=
  reg13_of (pdats m) (W39 m) (W40 m) (fun _ => rfl) (hF13 m) (hrest13 m)
/-- Region 14: entered from the fold after item 40, left at the fold after item 41. -/
def reg14 : Pipeline.RegionSeg (pcfgs (F := F)) GenP.adm (pdats m) () defs₀ 𝒱₀ L lv 14 :=
  reg14_of (pdats m) (W41 m) (W42 m) (fun _ => rfl) (hF14 m) (hrest14 m)

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at every unscoped buffer: from any memory with zero counters, every weakly fair execution of @main on the
    TensorCores terminates, and in every final memory each unscoped buffer holds the fold's last valuation; so any post that
    follows from that reading holds. The conditional run at these outputs and these records: the launch deals each core its
    generator register and an empty debt, which ride beside the buffers through every segment. -/
theorem run_all (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = W42 m c b) → Q (⟨⟩, s)) :
    θ_run defs (onTc (τ := τ) (main (F := F))) ⟨m, fun _ => 0, ρ⟩ Q :=
  GenP.frame_cond_all m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V11_eq]; exact .rfl) (fun c => by rw [V12_eq]; exact .rfl)
    (reg5 m) (fun c => by rw [V15_eq]; exact .rfl) (fun c => by rw [V16_eq]; exact .rfl)
    (reg6 m) (fun c => by rw [V17_eq]; exact .rfl) (fun c => by rw [V18_eq]; exact .rfl)
    (reg7 m) (fun c => by rw [V19_eq]; exact .rfl) (fun c => by rw [V20_eq]; exact .rfl)
    (reg8 m) (fun c => by rw [V23_eq]; exact .rfl) (fun c => by rw [V24_eq]; exact .rfl)
    (reg9 m) (fun c => by rw [V27_eq]; exact .rfl) (fun c => by rw [V28_eq]; exact .rfl)
    (reg10 m) (fun c => by rw [V29_eq]; exact .rfl) (fun c => by rw [V30_eq]; exact .rfl)
    (reg11 m) (fun c => by rw [V31_eq]; exact .rfl) (fun c => by rw [V32_eq]; exact .rfl)
    (reg12 m) (fun c => by rw [V35_eq]; exact .rfl) (fun c => by rw [V36_eq]; exact .rfl)
    (reg13 m) (fun c => by rw [V39_eq]; exact .rfl) (fun c => by rw [V40_eq]; exact .rfl)
    (reg14 m) (fun c => by rw [V41_eq]; exact .rfl) (fun c => by rw [V42_eq]; exact .rfl)
    (fun s h => hQ s fun c b hb => (h c b hb).trans (congrFun (V42_eq m c) b))

/-- THE FRAME of program KernelIdeal at any F: every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_all m ρ fun s h c =>
    ⟨(h c _ (mem_uc main_arg0 (by decide))).trans ((congrFun (V42_eq m c) _).symm.trans (GenP.V42_main_arg0 m (outs m) c)),
     (h c _ (mem_uc main_arg1 (by decide))).trans ((congrFun (V42_eq m c) _).symm.trans (GenP.V42_main_arg1 m (outs m) c)),
     (h c _ (mem_uc main_arg2 (by decide))).trans ((congrFun (V42_eq m c) _).symm.trans (GenP.V42_main_arg2 m (outs m) c)),
     (h c _ (mem_uc main_arg3 (by decide))).trans ((congrFun (V42_eq m c) _).symm.trans (GenP.V42_main_arg3 m (outs m) c)),
     (h c _ (mem_uc main_arg4 (by decide))).trans ((congrFun (V42_eq m c) _).symm.trans (GenP.V42_main_arg4 m (outs m) c)),
     (h c _ (mem_uc main_arg5 (by decide))).trans ((congrFun (V42_eq m c) _).symm.trans (GenP.V42_main_arg5 m (outs m) c)),
     (h c _ (mem_uc main_arg6 (by decide))).trans ((congrFun (V42_eq m c) _).symm.trans (GenP.V42_main_arg6 m (outs m) c)),
     (h c _ (mem_uc main_arg7 (by decide))).trans ((congrFun (V42_eq m c) _).symm.trans (GenP.V42_main_arg7 m (outs m) c)),
     (h c _ (mem_uc main_arg8 (by decide))).trans ((congrFun (V42_eq m c) _).symm.trans (GenP.V42_main_arg8 m (outs m) c)),
     (h c _ (mem_uc main_arg9 (by decide))).trans ((congrFun (V42_eq m c) _).symm.trans (GenP.V42_main_arg9 m (outs m) c)),
     (h c _ (mem_uc main_arg10 (by decide))).trans ((congrFun (V42_eq m c) _).symm.trans (GenP.V42_main_arg10 m (outs m) c)),
     (h c _ (mem_uc main_arg11 (by decide))).trans ((congrFun (V42_eq m c) _).symm.trans (GenP.V42_main_arg11 m (outs m) c)),
     (h c _ (mem_uc main_arg12 (by decide))).trans ((congrFun (V42_eq m c) _).symm.trans (GenP.V42_main_arg12 m (outs m) c)),
     (h c _ (mem_uc main_arg13 (by decide))).trans ((congrFun (V42_eq m c) _).symm.trans (GenP.V42_main_arg13 m (outs m) c)),
     (h c _ (mem_uc main_arg14 (by decide))).trans ((congrFun (V42_eq m c) _).symm.trans (GenP.V42_main_arg14 m (outs m) c)),
     (h c _ (mem_uc main_arg15 (by decide))).trans ((congrFun (V42_eq m c) _).symm.trans (GenP.V42_main_arg15 m (outs m) c)),
     (h c _ (mem_uc main_arg16 (by decide))).trans ((congrFun (V42_eq m c) _).symm.trans (GenP.V42_main_arg16 m (outs m) c)),
     (h c _ (mem_uc main_arg17 (by decide))).trans ((congrFun (V42_eq m c) _).symm.trans (GenP.V42_main_arg17 m (outs m) c)),
     (h c _ (mem_uc main_arg18 (by decide))).trans ((congrFun (V42_eq m c) _).symm.trans (GenP.V42_main_arg18 m (outs m) c)),
     (h c _ (mem_uc main_arg19 (by decide))).trans ((congrFun (V42_eq m c) _).symm.trans (GenP.V42_main_arg19 m (outs m) c)),
     (h c _ (mem_uc main_arg20 (by decide))).trans ((congrFun (V42_eq m c) _).symm.trans (GenP.V42_main_arg20 m (outs m) c)),
     (h c _ (mem_uc main_arg21 (by decide))).trans ((congrFun (V42_eq m c) _).symm.trans (GenP.V42_main_arg21 m (outs m) c)),
     (h c _ (mem_uc main_arg22 (by decide))).trans ((congrFun (V42_eq m c) _).symm.trans (GenP.V42_main_arg22 m (outs m) c)),
     (h c _ (mem_uc main_arg23 (by decide))).trans ((congrFun (V42_eq m c) _).symm.trans (GenP.V42_main_arg23 m (outs m) c)),
     (h c _ (mem_uc main_arg24 (by decide))).trans ((congrFun (V42_eq m c) _).symm.trans (GenP.V42_main_arg24 m (outs m) c)),
     (h c _ (mem_uc main_arg25 (by decide))).trans ((congrFun (V42_eq m c) _).symm.trans (GenP.V42_main_arg25 m (outs m) c)),
     (h c _ (mem_uc main_arg26 (by decide))).trans ((congrFun (V42_eq m c) _).symm.trans (GenP.V42_main_arg26 m (outs m) c)),
     (h c _ (mem_uc main_arg27 (by decide))).trans ((congrFun (V42_eq m c) _).symm.trans (GenP.V42_main_arg27 m (outs m) c)),
     (h c _ (mem_uc main_arg28 (by decide))).trans ((congrFun (V42_eq m c) _).symm.trans (GenP.V42_main_arg28 m (outs m) c)),
     (h c _ (mem_uc main_arg29 (by decide))).trans ((congrFun (V42_eq m c) _).symm.trans (GenP.V42_main_arg29 m (outs m) c)),
     (h c _ (mem_uc main_arg30 (by decide))).trans ((congrFun (V42_eq m c) _).symm.trans (GenP.V42_main_arg30 m (outs m) c))⟩

/-- THE RUN'S RESULT: besides the frame, the result array main_v281 ends at what region 14 leaves in it. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v281) = o42_main_v281 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_all m ρ fun s h c =>
    ⟨(h c _ (mem_uc main_v281 (by decide))).trans (by unfold W42; rw [Function.update_self]),
     (h c _ (mem_uc main_arg0 (by decide))).trans ((congrFun (V42_eq m c) _).symm.trans (GenP.V42_main_arg0 m (outs m) c)),
     (h c _ (mem_uc main_arg1 (by decide))).trans ((congrFun (V42_eq m c) _).symm.trans (GenP.V42_main_arg1 m (outs m) c)),
     (h c _ (mem_uc main_arg2 (by decide))).trans ((congrFun (V42_eq m c) _).symm.trans (GenP.V42_main_arg2 m (outs m) c)),
     (h c _ (mem_uc main_arg3 (by decide))).trans ((congrFun (V42_eq m c) _).symm.trans (GenP.V42_main_arg3 m (outs m) c)),
     (h c _ (mem_uc main_arg4 (by decide))).trans ((congrFun (V42_eq m c) _).symm.trans (GenP.V42_main_arg4 m (outs m) c)),
     (h c _ (mem_uc main_arg5 (by decide))).trans ((congrFun (V42_eq m c) _).symm.trans (GenP.V42_main_arg5 m (outs m) c)),
     (h c _ (mem_uc main_arg6 (by decide))).trans ((congrFun (V42_eq m c) _).symm.trans (GenP.V42_main_arg6 m (outs m) c)),
     (h c _ (mem_uc main_arg7 (by decide))).trans ((congrFun (V42_eq m c) _).symm.trans (GenP.V42_main_arg7 m (outs m) c)),
     (h c _ (mem_uc main_arg8 (by decide))).trans ((congrFun (V42_eq m c) _).symm.trans (GenP.V42_main_arg8 m (outs m) c)),
     (h c _ (mem_uc main_arg9 (by decide))).trans ((congrFun (V42_eq m c) _).symm.trans (GenP.V42_main_arg9 m (outs m) c)),
     (h c _ (mem_uc main_arg10 (by decide))).trans ((congrFun (V42_eq m c) _).symm.trans (GenP.V42_main_arg10 m (outs m) c)),
     (h c _ (mem_uc main_arg11 (by decide))).trans ((congrFun (V42_eq m c) _).symm.trans (GenP.V42_main_arg11 m (outs m) c)),
     (h c _ (mem_uc main_arg12 (by decide))).trans ((congrFun (V42_eq m c) _).symm.trans (GenP.V42_main_arg12 m (outs m) c)),
     (h c _ (mem_uc main_arg13 (by decide))).trans ((congrFun (V42_eq m c) _).symm.trans (GenP.V42_main_arg13 m (outs m) c)),
     (h c _ (mem_uc main_arg14 (by decide))).trans ((congrFun (V42_eq m c) _).symm.trans (GenP.V42_main_arg14 m (outs m) c)),
     (h c _ (mem_uc main_arg15 (by decide))).trans ((congrFun (V42_eq m c) _).symm.trans (GenP.V42_main_arg15 m (outs m) c)),
     (h c _ (mem_uc main_arg16 (by decide))).trans ((congrFun (V42_eq m c) _).symm.trans (GenP.V42_main_arg16 m (outs m) c)),
     (h c _ (mem_uc main_arg17 (by decide))).trans ((congrFun (V42_eq m c) _).symm.trans (GenP.V42_main_arg17 m (outs m) c)),
     (h c _ (mem_uc main_arg18 (by decide))).trans ((congrFun (V42_eq m c) _).symm.trans (GenP.V42_main_arg18 m (outs m) c)),
     (h c _ (mem_uc main_arg19 (by decide))).trans ((congrFun (V42_eq m c) _).symm.trans (GenP.V42_main_arg19 m (outs m) c)),
     (h c _ (mem_uc main_arg20 (by decide))).trans ((congrFun (V42_eq m c) _).symm.trans (GenP.V42_main_arg20 m (outs m) c)),
     (h c _ (mem_uc main_arg21 (by decide))).trans ((congrFun (V42_eq m c) _).symm.trans (GenP.V42_main_arg21 m (outs m) c)),
     (h c _ (mem_uc main_arg22 (by decide))).trans ((congrFun (V42_eq m c) _).symm.trans (GenP.V42_main_arg22 m (outs m) c)),
     (h c _ (mem_uc main_arg23 (by decide))).trans ((congrFun (V42_eq m c) _).symm.trans (GenP.V42_main_arg23 m (outs m) c)),
     (h c _ (mem_uc main_arg24 (by decide))).trans ((congrFun (V42_eq m c) _).symm.trans (GenP.V42_main_arg24 m (outs m) c)),
     (h c _ (mem_uc main_arg25 (by decide))).trans ((congrFun (V42_eq m c) _).symm.trans (GenP.V42_main_arg25 m (outs m) c)),
     (h c _ (mem_uc main_arg26 (by decide))).trans ((congrFun (V42_eq m c) _).symm.trans (GenP.V42_main_arg26 m (outs m) c)),
     (h c _ (mem_uc main_arg27 (by decide))).trans ((congrFun (V42_eq m c) _).symm.trans (GenP.V42_main_arg27 m (outs m) c)),
     (h c _ (mem_uc main_arg28 (by decide))).trans ((congrFun (V42_eq m c) _).symm.trans (GenP.V42_main_arg28 m (outs m) c)),
     (h c _ (mem_uc main_arg29 (by decide))).trans ((congrFun (V42_eq m c) _).symm.trans (GenP.V42_main_arg29 m (outs m) c)),
     (h c _ (mem_uc main_arg30 (by decide))).trans ((congrFun (V42_eq m c) _).symm.trans (GenP.V42_main_arg30 m (outs m) c))⟩

end Cert.KernelIdeal.Hand

end
-- ==== Proof.RI.Ops0.lean ====
/- Chunks 0 … 5 of the reference program's operations: @main's statements in order, each func.call replaced by the
   callee's statements over that call's buffer record. -/
import proofs.«142356_j74423193305351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Chunk 0: 11 operations, through %9. -/
abbrev rops0 : List (HloOp τ sig (Elt F)) :=
  [ StableHlo.nullary main_cst (constant S_ .f32 0x3F800000#32),
    StableHlo.unary main_cst main_v0 (broadcastInDim S524288x2 ![] bcast_S_S524288x2 : (⟨S_, .f32⟩ : BufTy).Contents (Elt F) → (⟨S524288x2, .f32⟩ : BufTy).Contents (Elt F)),
    StableHlo.binary main_v0 main_arg1 main_v1 (Host.divf : (⟨S524288x2, .f32⟩ : BufTy).Contents (Elt F) → (⟨S524288x2, .f32⟩ : BufTy).Contents (Elt F) → (⟨S524288x2, .f32⟩ : BufTy).Contents (Elt F)),
    StableHlo.binary main_arg0 main_arg7 main_v2 ((fun l r => Host.dotGeneral dot_S32768x6_S6x64_S32768x64_1_0_0_1_n_n none l r) : (⟨S32768x6, .f32⟩ : BufTy).Contents (Elt F) → (⟨S6x64, .f32⟩ : BufTy).Contents (Elt F) → (⟨S32768x64, .f32⟩ : BufTy).Contents (Elt F)),
    StableHlo.unary main_arg8 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S32768x64 ![0, 1] bcast_S1x64_S32768x64_0_1 : (⟨S1x64, .f32⟩ : BufTy).Contents (Elt F) → (⟨S32768x64, .f32⟩ : BufTy).Contents (Elt F)),
    StableHlo.binary main_v2 main_v4 main_v5 (addf : (⟨S32768x64, .f32⟩ : BufTy).Contents (Elt F) → (⟨S32768x64, .f32⟩ : BufTy).Contents (Elt F) → (⟨S32768x64, .f32⟩ : BufTy).Contents (Elt F)),
    StableHlo.binary main_v1 main_arg9 main_v6 ((fun l r => Host.dotGeneral dot_S524288x2_S2x64_S524288x64_1_0_0_1_n_n none l r) : (⟨S524288x2, .f32⟩ : BufTy).Contents (Elt F) → (⟨S2x64, .f32⟩ : BufTy).Contents (Elt F) → (⟨S524288x64, .f32⟩ : BufTy).Contents (Elt F)),
    StableHlo.unary main_arg10 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S524288x64 ![0, 1] bcast_S1x64_S524288x64_0_1 : (⟨S1x64, .f32⟩ : BufTy).Contents (Elt F) → (⟨S524288x64, .f32⟩ : BufTy).Contents (Elt F)),
    StableHlo.binary main_v6 main_v8 main_v9 (addf : (⟨S524288x64, .f32⟩ : BufTy).Contents (Elt F) → (⟨S524288x64, .f32⟩ : BufTy).Contents (Elt F) → (⟨S524288x64, .f32⟩ : BufTy).Contents (Elt F)) ]

/-- Chunk 1: 40 operations, through %49. -/
abbrev rops1 : List (HloOp τ sig (Elt F)) :=
  [ StableHlo.unary main_arg11 main_v10 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v10 main_v11 rfl shapeCasts_S1x64x64_S64x64,
    StableHlo.binary main_v5 main_v11 main_v12 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg12 main_v13 ((extractStridedSlice S1x64 ![0, 0] · slices_S3x64_S1x64_0_0) : (⟨S3x64, .f32⟩ : BufTy).Contents (Elt F) → (⟨S1x64, .f32⟩ : BufTy).Contents (Elt F)),
    StableHlo.reshape main_v13 main_v14 rfl shapeCasts_S1x64_S64,
    StableHlo.unary main_v14 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S32768x64 ![0, 1] bcast_S1x64_S32768x64_0_1 : (⟨S1x64, .f32⟩ : BufTy).Contents (Elt F) → (⟨S32768x64, .f32⟩ : BufTy).Contents (Elt F)),
    StableHlo.binary main_v12 main_v16 main_v17 (addf : (⟨S32768x64, .f32⟩ : BufTy).Contents (Elt F) → (⟨S32768x64, .f32⟩ : BufTy).Contents (Elt F) → (⟨S32768x64, .f32⟩ : BufTy).Contents (Elt F)),
    StableHlo.unary main_arg13 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v18 main_v19 rfl shapeCasts_S1x64x64_S64x64,
    StableHlo.binary main_v5 main_v19 main_v20 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg14 main_v21 ((extractStridedSlice S1x64 ![0, 0] · slices_S3x64_S1x64_0_0) : (⟨S3x64, .f32⟩ : BufTy).Contents (Elt F) → (⟨S1x64, .f32⟩ : BufTy).Contents (Elt F)),
    StableHlo.reshape main_v21 main_v22 rfl shapeCasts_S1x64_S64,
    StableHlo.unary main_v22 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S32768x64 ![0, 1] bcast_S1x64_S32768x64_0_1 : (⟨S1x64, .f32⟩ : BufTy).Contents (Elt F) → (⟨S32768x64, .f32⟩ : BufTy).Contents (Elt F)),
    StableHlo.binary main_v20 main_v24 main_v25 (addf : (⟨S32768x64, .f32⟩ : BufTy).Contents (Elt F) → (⟨S32768x64, .f32⟩ : BufTy).Contents (Elt F) → (⟨S32768x64, .f32⟩ : BufTy).Contents (Elt F)),
    StableHlo.unary main_arg17 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v26 main_v27 rfl shapeCasts_S1x64x64_S64x64,
    StableHlo.binary main_v5 main_v27 main_v28 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg18 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S32768x64 ![0, 1] bcast_S1x64_S32768x64_0_1 : (⟨S1x64, .f32⟩ : BufTy).Contents (Elt F) → (⟨S32768x64, .f32⟩ : BufTy).Contents (Elt F)),
    StableHlo.binary main_v28 main_v32 main_v33 (addf : (⟨S32768x64, .f32⟩ : BufTy).Contents (Elt F) → (⟨S32768x64, .f32⟩ : BufTy).Contents (Elt F) → (⟨S32768x64, .f32⟩ : BufTy).Contents (Elt F)),
    StableHlo.unary main_arg19 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v5 main_v35 main_v36 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg20 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S32768x64 ![0, 1] bcast_S1x64_S32768x64_0_1 : (⟨S1x64, .f32⟩ : BufTy).Contents (Elt F) → (⟨S32768x64, .f32⟩ : BufTy).Contents (Elt F)),
    StableHlo.binary main_v36 main_v40 main_v41 (addf : (⟨S32768x64, .f32⟩ : BufTy).Contents (Elt F) → (⟨S32768x64, .f32⟩ : BufTy).Contents (Elt F) → (⟨S32768x64, .f32⟩ : BufTy).Contents (Elt F)),
    StableHlo.unary main_arg15 main_v42 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v42 main_v43 rfl shapeCasts_S1x64x64_S64x64,
    StableHlo.binary main_v9 main_v43 main_v44 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)),
    StableHlo.unary main_arg16 main_v45 ((extractStridedSlice S1x64 ![0, 0] · slices_S3x64_S1x64_0_0) : (⟨S3x64, .f32⟩ : BufTy).Contents (Elt F) → (⟨S1x64, .f32⟩ : BufTy).Contents (Elt F)),
    StableHlo.reshape main_v45 main_v46 rfl shapeCasts_S1x64_S64,
    StableHlo.unary main_v46 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S524288x64 ![0, 1] bcast_S1x64_S524288x64_0_1 : (⟨S1x64, .f32⟩ : BufTy).Contents (Elt F) → (⟨S524288x64, .f32⟩ : BufTy).Contents (Elt F)),
    StableHlo.binary main_v44 main_v48 main_v49 (addf : (⟨S524288x64, .f32⟩ : BufTy).Contents (Elt F) → (⟨S524288x64, .f32⟩ : BufTy).Contents (Elt F) → (⟨S524288x64, .f32⟩ : BufTy).Contents (Elt F)) ]

/-- Chunk 2: 38 operations, through %79. -/
abbrev rops2 : List (HloOp τ sig (Elt F)) :=
  [ StableHlo.nullary main_c (constantI S_ 32 0#32),
    StableHlo.unary main_c main_v50 (broadcastInDim S524288 ![] bcast_S_S524288 : (⟨S_, .i32⟩ : BufTy).Contents (Elt F) → (⟨S524288, .i32⟩ : BufTy).Contents (Elt F)),
    StableHlo.binary main_arg2 main_v50 main_v51 (cmpi .slt : (⟨S524288, .i32⟩ : BufTy).Contents (Elt F) → (⟨S524288, .i32⟩ : BufTy).Contents (Elt F) → (⟨S524288, .i1⟩ : BufTy).Contents (Elt F)),
    StableHlo.nullary main_c_0 (constantI S_ 32 32768#32),
    StableHlo.unary main_c_0 main_v52 (broadcastInDim S524288 ![] bcast_S_S524288 : (⟨S_, .i32⟩ : BufTy).Contents (Elt F) → (⟨S524288, .i32⟩ : BufTy).Contents (Elt F)),
    StableHlo.binary main_arg2 main_v52 main_v53 (addi : (⟨S524288, .i32⟩ : BufTy).Contents (Elt F) → (⟨S524288, .i32⟩ : BufTy).Contents (Elt F) → (⟨S524288, .i32⟩ : BufTy).Contents (Elt F)),
    StableHlo.ternary main_v51 main_v53 main_arg2 main_v54 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v54 main_v55 (broadcastInDim S524288x1 ![0] bcast_S524288_S524288x1_0 : (⟨S524288, .i32⟩ : BufTy).Contents (Elt F) → (⟨S524288x1, .i32⟩ : BufTy).Contents (Elt F)),
    StableHlo.binary main_v33 main_v55 main_v56 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v49 main_v56 main_v57 (addf : (⟨S524288x64, .f32⟩ : BufTy).Contents (Elt F) → (⟨S524288x64, .f32⟩ : BufTy).Contents (Elt F) → (⟨S524288x64, .f32⟩ : BufTy).Contents (Elt F)),
    StableHlo.nullary main_c_1 (constantI S_ 32 0#32),
    StableHlo.unary main_c_1 main_v58 (broadcastInDim S524288 ![] bcast_S_S524288 : (⟨S_, .i32⟩ : BufTy).Contents (Elt F) → (⟨S524288, .i32⟩ : BufTy).Contents (Elt F)),
    StableHlo.binary main_arg3 main_v58 main_v59 (cmpi .slt : (⟨S524288, .i32⟩ : BufTy).Contents (Elt F) → (⟨S524288, .i32⟩ : BufTy).Contents (Elt F) → (⟨S524288, .i1⟩ : BufTy).Contents (Elt F)),
    StableHlo.nullary main_c_2 (constantI S_ 32 32768#32),
    StableHlo.unary main_c_2 main_v60 (broadcastInDim S524288 ![] bcast_S_S524288 : (⟨S_, .i32⟩ : BufTy).Contents (Elt F) → (⟨S524288, .i32⟩ : BufTy).Contents (Elt F)),
    StableHlo.binary main_arg3 main_v60 main_v61 (addi : (⟨S524288, .i32⟩ : BufTy).Contents (Elt F) → (⟨S524288, .i32⟩ : BufTy).Contents (Elt F) → (⟨S524288, .i32⟩ : BufTy).Contents (Elt F)),
    StableHlo.ternary main_v59 main_v61 main_arg3 main_v62 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v62 main_v63 (broadcastInDim S524288x1 ![0] bcast_S524288_S524288x1_0 : (⟨S524288, .i32⟩ : BufTy).Contents (Elt F) → (⟨S524288x1, .i32⟩ : BufTy).Contents (Elt F)),
    StableHlo.binary main_v41 main_v63 main_v64 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v57 main_v64 main_v65 (addf : (⟨S524288x64, .f32⟩ : BufTy).Contents (Elt F) → (⟨S524288x64, .f32⟩ : BufTy).Contents (Elt F) → (⟨S524288x64, .f32⟩ : BufTy).Contents (Elt F)),
    StableHlo.unary main_v65 main_v66 (Host.negf : (⟨S524288x64, .f32⟩ : BufTy).Contents (Elt F) → (⟨S524288x64, .f32⟩ : BufTy).Contents (Elt F)),
    StableHlo.unary main_v66 main_v67 (Host.exp : (⟨S524288x64, .f32⟩ : BufTy).Contents (Elt F) → (⟨S524288x64, .f32⟩ : BufTy).Contents (Elt F)),
    StableHlo.nullary main_cst_3 (constant S_ .f32 0x3F800000#32),
    StableHlo.unary main_cst_3 main_v68 (broadcastInDim S524288x64 ![] bcast_S_S524288x64 : (⟨S_, .f32⟩ : BufTy).Contents (Elt F) → (⟨S524288x64, .f32⟩ : BufTy).Contents (Elt F)),
    StableHlo.binary main_v68 main_v67 main_v69 (addf : (⟨S524288x64, .f32⟩ : BufTy).Contents (Elt F) → (⟨S524288x64, .f32⟩ : BufTy).Contents (Elt F) → (⟨S524288x64, .f32⟩ : BufTy).Contents (Elt F)),
    StableHlo.nullary main_cst_4 (constant S_ .f32 0x3F800000#32),
    StableHlo.unary main_cst_4 main_v70 (broadcastInDim S524288x64 ![] bcast_S_S524288x64 : (⟨S_, .f32⟩ : BufTy).Contents (Elt F) → (⟨S524288x64, .f32⟩ : BufTy).Contents (Elt F)),
    StableHlo.binary main_v70 main_v69 main_v71 (Host.divf : (⟨S524288x64, .f32⟩ : BufTy).Contents (Elt F) → (⟨S524288x64, .f32⟩ : BufTy).Contents (Elt F) → (⟨S524288x64, .f32⟩ : BufTy).Contents (Elt F)),
    StableHlo.nullary main_c_5 (constantI S_ 32 0#32),
    StableHlo.unary main_c_5 main_v72 (broadcastInDim S524288 ![] bcast_S_S524288 : (⟨S_, .i32⟩ : BufTy).Contents (Elt F) → (⟨S524288, .i32⟩ : BufTy).Contents (Elt F)),
    StableHlo.binary main_arg2 main_v72 main_v73 (cmpi .slt : (⟨S524288, .i32⟩ : BufTy).Contents (Elt F) → (⟨S524288, .i32⟩ : BufTy).Contents (Elt F) → (⟨S524288, .i1⟩ : BufTy).Contents (Elt F)),
    StableHlo.nullary main_c_6 (constantI S_ 32 32768#32),
    StableHlo.unary main_c_6 main_v74 (broadcastInDim S524288 ![] bcast_S_S524288 : (⟨S_, .i32⟩ : BufTy).Contents (Elt F) → (⟨S524288, .i32⟩ : BufTy).Contents (Elt F)),
    StableHlo.binary main_arg2 main_v74 main_v75 (addi : (⟨S524288, .i32⟩ : BufTy).Contents (Elt F) → (⟨S524288, .i32⟩ : BufTy).Contents (Elt F) → (⟨S524288, .i32⟩ : BufTy).Contents (Elt F)),
    StableHlo.ternary main_v73 main_v75 main_arg2 main_v76 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v76 main_v77 (broadcastInDim S524288x1 ![0] bcast_S524288_S524288x1_0 : (⟨S524288, .i32⟩ : BufTy).Contents (Elt F) → (⟨S524288x1, .i32⟩ : BufTy).Contents (Elt F)),
    StableHlo.binary main_v25 main_v77 main_v78 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v71 main_v78 main_v79 (mulf : (⟨S524288x64, .f32⟩ : BufTy).Contents (Elt F) → (⟨S524288x64, .f32⟩ : BufTy).Contents (Elt F) → (⟨S524288x64, .f32⟩ : BufTy).Contents (Elt F)) ]

/-- Chunk 3: 13 operations, through %89. -/
abbrev rops3 : List (HloOp τ sig (Elt F)) :=
  [ StableHlo.nullary main_cst_7 (constant S_ .f32 0x00000000#32),
    StableHlo.unary main_cst_7 main_v80 (broadcastInDim S32768x64 ![] bcast_S_S32768x64 : (⟨S_, .f32⟩ : BufTy).Contents (Elt F) → (⟨S32768x64, .f32⟩ : BufTy).Contents (Elt F)),
    StableHlo.unary main_arg3 main_v81 (broadcastInDim S524288x1 ![0] bcast_S524288_S524288x1_0 : (⟨S524288, .i32⟩ : BufTy).Contents (Elt F) → (⟨S524288x1, .i32⟩ : BufTy).Contents (Elt F)),
    StableHlo.ternary main_v80 main_v81 main_v79 main_v82 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_8 (constant S_ .f32 0x00000000#32),
    StableHlo.unary main_cst_8 main_v83 (broadcastInDim S32768x64 ![] bcast_S_S32768x64 : (⟨S_, .f32⟩ : BufTy).Contents (Elt F) → (⟨S32768x64, .f32⟩ : BufTy).Contents (Elt F)),
    StableHlo.unary main_arg3 main_v84 (broadcastInDim S524288x1 ![0] bcast_S524288_S524288x1_0 : (⟨S524288, .i32⟩ : BufTy).Contents (Elt F) → (⟨S524288x1, .i32⟩ : BufTy).Contents (Elt F)),
    StableHlo.ternary main_v83 main_v84 main_v71 main_v85 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_9 (constant S_ .f32 0x358637BD#32),
    StableHlo.unary main_cst_9 main_v86 (broadcastInDim S32768x64 ![] bcast_S_S32768x64 : (⟨S_, .f32⟩ : BufTy).Contents (Elt F) → (⟨S32768x64, .f32⟩ : BufTy).Contents (Elt F)),
    StableHlo.binary main_v85 main_v86 main_v87 (addf : (⟨S32768x64, .f32⟩ : BufTy).Contents (Elt F) → (⟨S32768x64, .f32⟩ : BufTy).Contents (Elt F) → (⟨S32768x64, .f32⟩ : BufTy).Contents (Elt F)),
    StableHlo.binary main_v82 main_v87 main_v88 (Host.divf : (⟨S32768x64, .f32⟩ : BufTy).Contents (Elt F) → (⟨S32768x64, .f32⟩ : BufTy).Contents (Elt F) → (⟨S32768x64, .f32⟩ : BufTy).Contents (Elt F)),
    StableHlo.binary main_v17 main_v88 main_v89 (addf : (⟨S32768x64, .f32⟩ : BufTy).Contents (Elt F) → (⟨S32768x64, .f32⟩ : BufTy).Contents (Elt F) → (⟨S32768x64, .f32⟩ : BufTy).Contents (Elt F)) ]

/-- Chunk 4: 52 operations, through %114. -/
abbrev rops4 : List (HloOp τ sig (Elt F)) :=
  [ StableHlo.unary main_arg21 main_v90 ((extractStridedSlice S1x64 ![0, 0] · slices_S3x64_S1x64_0_0) : (⟨S3x64, .f32⟩ : BufTy).Contents (Elt F) → (⟨S1x64, .f32⟩ : BufTy).Contents (Elt F)),
    StableHlo.reshape main_v90 main_v91 rfl shapeCasts_S1x64_S64,
    StableHlo.unary main_arg22 main_v92 ((extractStridedSlice S1x64 ![0, 0] · slices_S3x64_S1x64_0_0) : (⟨S3x64, .f32⟩ : BufTy).Contents (Elt F) → (⟨S1x64, .f32⟩ : BufTy).Contents (Elt F)),
    StableHlo.reshape main_v92 main_v93 rfl shapeCasts_S1x64_S64,
    StableHlo.nullary main_cst_10 (constant S_ .f32 0x00000000#32),
    StableHlo.binary main_v89 main_cst_10 main_v94 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_11 (constant S_ .f32 0x47000000#32),
    StableHlo.unary main_cst_11 main_v95 (broadcastInDim S64 ![] bcast_S_S64 : (⟨S_, .f32⟩ : BufTy).Contents (Elt F) → (⟨S64, .f32⟩ : BufTy).Contents (Elt F)),
    StableHlo.binary main_v94 main_v95 main_v96 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary (.of main_call0_cst : StableHlo.TRef sig ⟨S_, .f32⟩) (constant S_ .f32 0x00000000#32),
    StableHlo.TRef.binary (.of main_v89 : StableHlo.TRef sig ⟨S32768x64, .f32⟩) (.of main_call0_cst : StableHlo.TRef sig ⟨S_, .f32⟩) (.of main_call0_v0 : StableHlo.TRef sig ⟨S64, .f32⟩) (fun x v => Host.reduceAdd x v reducesTo_S32768x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47000000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S32768x64, .f32⟩) (broadcastInDim S32768x64 ![0, 1] bcast_S1x64_S32768x64_0_1),
    StableHlo.TRef.binary (.of main_v89 : StableHlo.TRef sig ⟨S32768x64, .f32⟩) (.of main_call0_v4 : StableHlo.TRef sig ⟨S32768x64, .f32⟩) (.of main_call0_v5 : StableHlo.TRef sig ⟨S32768x64, .f32⟩) subf,
    StableHlo.TRef.binary (.of main_call0_v5 : StableHlo.TRef sig ⟨S32768x64, .f32⟩) (.of main_call0_v5 : StableHlo.TRef sig ⟨S32768x64, .f32⟩) (.of main_call0_v6 : StableHlo.TRef sig ⟨S32768x64, .f32⟩) mulf,
    StableHlo.TRef.unary (.of main_c_12 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S32768x64, .f32⟩) (.of main_call0_cst_2 : StableHlo.TRef sig ⟨S_, .f32⟩) (.of main_call0_v9 : StableHlo.TRef sig ⟨S64, .f32⟩) (fun x v => Host.reduceAdd x v reducesTo_S32768x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v97 : StableHlo.TRef sig ⟨S64, .f32⟩) (fun p a b => select (broadcastInDim S64 ![] bcast_S_S64 p) a b),
    StableHlo.unary main_v96 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S32768x64 ![0, 1] bcast_S1x64_S32768x64_0_1 : (⟨S1x64, .f32⟩ : BufTy).Contents (Elt F) → (⟨S32768x64, .f32⟩ : BufTy).Contents (Elt F)),
    StableHlo.binary main_v89 main_v99 main_v100 (subf : (⟨S32768x64, .f32⟩ : BufTy).Contents (Elt F) → (⟨S32768x64, .f32⟩ : BufTy).Contents (Elt F) → (⟨S32768x64, .f32⟩ : BufTy).Contents (Elt F)),
    StableHlo.unary main_v91 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S32768x64 ![0, 1] bcast_S1x64_S32768x64_0_1 : (⟨S1x64, .f32⟩ : BufTy).Contents (Elt F) → (⟨S32768x64, .f32⟩ : BufTy).Contents (Elt F)),
    StableHlo.binary main_v102 main_v100 main_v103 (mulf : (⟨S32768x64, .f32⟩ : BufTy).Contents (Elt F) → (⟨S32768x64, .f32⟩ : BufTy).Contents (Elt F) → (⟨S32768x64, .f32⟩ : BufTy).Contents (Elt F)),
    StableHlo.nullary main_cst_13 (constant S_ .f32 0x3727C5AC#32),
    StableHlo.unary main_cst_13 main_v104 (broadcastInDim S64 ![] bcast_S_S64 : (⟨S_, .f32⟩ : BufTy).Contents (Elt F) → (⟨S64, .f32⟩ : BufTy).Contents (Elt F)),
    StableHlo.binary main_v97 main_v104 main_v105 (addf : (⟨S64, .f32⟩ : BufTy).Contents (Elt F) → (⟨S64, .f32⟩ : BufTy).Contents (Elt F) → (⟨S64, .f32⟩ : BufTy).Contents (Elt F)),
    StableHlo.unary main_v105 main_v106 (Host.rsqrt : (⟨S64, .f32⟩ : BufTy).Contents (Elt F) → (⟨S64, .f32⟩ : BufTy).Contents (Elt F)),
    StableHlo.unary main_v106 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S32768x64 ![0, 1] bcast_S1x64_S32768x64_0_1 : (⟨S1x64, .f32⟩ : BufTy).Contents (Elt F) → (⟨S32768x64, .f32⟩ : BufTy).Contents (Elt F)),
    StableHlo.binary main_v103 main_v108 main_v109 (mulf : (⟨S32768x64, .f32⟩ : BufTy).Contents (Elt F) → (⟨S32768x64, .f32⟩ : BufTy).Contents (Elt F) → (⟨S32768x64, .f32⟩ : BufTy).Contents (Elt F)),
    StableHlo.unary main_v93 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S32768x64 ![0, 1] bcast_S1x64_S32768x64_0_1 : (⟨S1x64, .f32⟩ : BufTy).Contents (Elt F) → (⟨S32768x64, .f32⟩ : BufTy).Contents (Elt F)),
    StableHlo.binary main_v109 main_v111 main_v112 (addf : (⟨S32768x64, .f32⟩ : BufTy).Contents (Elt F) → (⟨S32768x64, .f32⟩ : BufTy).Contents (Elt F) → (⟨S32768x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S32768x64, .f32⟩) (broadcastInDim S32768x64 ![] bcast_S_S32768x64),
    StableHlo.TRef.binary (.of main_v112 : StableHlo.TRef sig ⟨S32768x64, .f32⟩) (.of main_call1_v0 : StableHlo.TRef sig ⟨S32768x64, .f32⟩) (.of main_v113 : StableHlo.TRef sig ⟨S32768x64, .f32⟩) maximumf,
    StableHlo.binary main_v5 main_v113 main_v114 (addf : (⟨S32768x64, .f32⟩ : BufTy).Contents (Elt F) → (⟨S32768x64, .f32⟩ : BufTy).Contents (Elt F) → (⟨S32768x64, .f32⟩ : BufTy).Contents (Elt F)) ]

/-- Chunk 5: 52 operations, through %139. -/
abbrev rops5 : List (HloOp τ sig (Elt F)) :=
  [ StableHlo.unary main_arg23 main_v115 ((extractStridedSlice S1x64 ![0, 0] · slices_S3x64_S1x64_0_0) : (⟨S3x64, .f32⟩ : BufTy).Contents (Elt F) → (⟨S1x64, .f32⟩ : BufTy).Contents (Elt F)),
    StableHlo.reshape main_v115 main_v116 rfl shapeCasts_S1x64_S64,
    StableHlo.unary main_arg24 main_v117 ((extractStridedSlice S1x64 ![0, 0] · slices_S3x64_S1x64_0_0) : (⟨S3x64, .f32⟩ : BufTy).Contents (Elt F) → (⟨S1x64, .f32⟩ : BufTy).Contents (Elt F)),
    StableHlo.reshape main_v117 main_v118 rfl shapeCasts_S1x64_S64,
    StableHlo.nullary main_cst_14 (constant S_ .f32 0x00000000#32),
    StableHlo.binary main_v65 main_cst_14 main_v119 ((fun x v => Host.reduceAdd x v reducesTo_S524288x64_S64_d0 h_S_) : (⟨S524288x64, .f32⟩ : BufTy).Contents (Elt F) → (⟨S_, .f32⟩ : BufTy).Contents (Elt F) → (⟨S64, .f32⟩ : BufTy).Contents (Elt F)),
    StableHlo.nullary main_cst_15 (constant S_ .f32 0x49000000#32),
    StableHlo.unary main_cst_15 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v65 : StableHlo.TRef sig ⟨S524288x64, .f32⟩) (.of main_call2_cst : StableHlo.TRef sig ⟨S_, .f32⟩) (.of main_call2_v0 : StableHlo.TRef sig ⟨S64, .f32⟩) (fun x v => Host.reduceAdd x v reducesTo_S524288x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x49000000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S524288x64, .f32⟩) (broadcastInDim S524288x64 ![0, 1] bcast_S1x64_S524288x64_0_1),
    StableHlo.TRef.binary (.of main_v65 : StableHlo.TRef sig ⟨S524288x64, .f32⟩) (.of main_call2_v4 : StableHlo.TRef sig ⟨S524288x64, .f32⟩) (.of main_call2_v5 : StableHlo.TRef sig ⟨S524288x64, .f32⟩) subf,
    StableHlo.TRef.binary (.of main_call2_v5 : StableHlo.TRef sig ⟨S524288x64, .f32⟩) (.of main_call2_v5 : StableHlo.TRef sig ⟨S524288x64, .f32⟩) (.of main_call2_v6 : StableHlo.TRef sig ⟨S524288x64, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x49000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S524288x64, .f32⟩) (.of main_call2_cst_2 : StableHlo.TRef sig ⟨S_, .f32⟩) (.of main_call2_v9 : StableHlo.TRef sig ⟨S64, .f32⟩) (fun x v => Host.reduceAdd x v reducesTo_S524288x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v122 : StableHlo.TRef sig ⟨S64, .f32⟩) (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S524288x64 ![0, 1] bcast_S1x64_S524288x64_0_1 : (⟨S1x64, .f32⟩ : BufTy).Contents (Elt F) → (⟨S524288x64, .f32⟩ : BufTy).Contents (Elt F)),
    StableHlo.binary main_v65 main_v124 main_v125 (subf : (⟨S524288x64, .f32⟩ : BufTy).Contents (Elt F) → (⟨S524288x64, .f32⟩ : BufTy).Contents (Elt F) → (⟨S524288x64, .f32⟩ : BufTy).Contents (Elt F)),
    StableHlo.unary main_v116 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S524288x64 ![0, 1] bcast_S1x64_S524288x64_0_1 : (⟨S1x64, .f32⟩ : BufTy).Contents (Elt F) → (⟨S524288x64, .f32⟩ : BufTy).Contents (Elt F)),
    StableHlo.binary main_v127 main_v125 main_v128 (mulf : (⟨S524288x64, .f32⟩ : BufTy).Contents (Elt F) → (⟨S524288x64, .f32⟩ : BufTy).Contents (Elt F) → (⟨S524288x64, .f32⟩ : BufTy).Contents (Elt F)),
    StableHlo.nullary main_cst_17 (constant S_ .f32 0x3727C5AC#32),
    StableHlo.unary main_cst_17 main_v129 (broadcastInDim S64 ![] bcast_S_S64 : (⟨S_, .f32⟩ : BufTy).Contents (Elt F) → (⟨S64, .f32⟩ : BufTy).Contents (Elt F)),
    StableHlo.binary main_v122 main_v129 main_v130 (addf : (⟨S64, .f32⟩ : BufTy).Contents (Elt F) → (⟨S64, .f32⟩ : BufTy).Contents (Elt F) → (⟨S64, .f32⟩ : BufTy).Contents (Elt F)),
    StableHlo.unary main_v130 main_v131 (Host.rsqrt : (⟨S64, .f32⟩ : BufTy).Contents (Elt F) → (⟨S64, .f32⟩ : BufTy).Contents (Elt F)),
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S524288x64 ![0, 1] bcast_S1x64_S524288x64_0_1 : (⟨S1x64, .f32⟩ : BufTy).Contents (Elt F) → (⟨S524288x64, .f32⟩ : BufTy).Contents (Elt F)),
    StableHlo.binary main_v128 main_v133 main_v134 (mulf : (⟨S524288x64, .f32⟩ : BufTy).Contents (Elt F) → (⟨S524288x64, .f32⟩ : BufTy).Contents (Elt F) → (⟨S524288x64, .f32⟩ : BufTy).Contents (Elt F)),
    StableHlo.unary main_v118 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S524288x64 ![0, 1] bcast_S1x64_S524288x64_0_1 : (⟨S1x64, .f32⟩ : BufTy).Contents (Elt F) → (⟨S524288x64, .f32⟩ : BufTy).Contents (Elt F)),
    StableHlo.binary main_v134 main_v136 main_v137 (addf : (⟨S524288x64, .f32⟩ : BufTy).Contents (Elt F) → (⟨S524288x64, .f32⟩ : BufTy).Contents (Elt F) → (⟨S524288x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S524288x64, .f32⟩) (broadcastInDim S524288x64 ![] bcast_S_S524288x64),
    StableHlo.TRef.binary (.of main_v137 : StableHlo.TRef sig ⟨S524288x64, .f32⟩) (.of main_call3_v0 : StableHlo.TRef sig ⟨S524288x64, .f32⟩) (.of main_v138 : StableHlo.TRef sig ⟨S524288x64, .f32⟩) maximumf,
    StableHlo.binary main_v9 main_v138 main_v139 (addf : (⟨S524288x64, .f32⟩ : BufTy).Contents (Elt F) → (⟨S524288x64, .f32⟩ : BufTy).Contents (Elt F) → (⟨S524288x64, .f32⟩ : BufTy).Contents (Elt F)) ]

end Cert.ReferenceIdeal.Hand

end
-- ==== Proof.RI.Ops1.lean ====
/- Chunks 6 … 10 of the reference program's operations: @main's statements in order, each func.call replaced by the
   callee's statements over that call's buffer record. -/
import proofs.«142356_j74423193305351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Chunk 6: 40 operations, through %179. -/
abbrev rops6 : List (HloOp τ sig (Elt F)) :=
  [ StableHlo.unary main_arg11 main_v140 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v114 main_v141 main_v142 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg12 main_v143 ((extractStridedSlice S1x64 ![1, 0] · slices_S3x64_S1x64_1_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S32768x64 ![0, 1] bcast_S1x64_S32768x64_0_1 : (⟨S1x64, .f32⟩ : BufTy).Contents (Elt F) → (⟨S32768x64, .f32⟩ : BufTy).Contents (Elt F)),
    StableHlo.binary main_v142 main_v146 main_v147 (addf : (⟨S32768x64, .f32⟩ : BufTy).Contents (Elt F) → (⟨S32768x64, .f32⟩ : BufTy).Contents (Elt F) → (⟨S32768x64, .f32⟩ : BufTy).Contents (Elt F)),
    StableHlo.unary main_arg13 main_v148 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v148 main_v149 rfl shapeCasts_S1x64x64_S64x64,
    StableHlo.binary main_v114 main_v149 main_v150 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg14 main_v151 ((extractStridedSlice S1x64 ![1, 0] · slices_S3x64_S1x64_1_0) : (⟨S3x64, .f32⟩ : BufTy).Contents (Elt F) → (⟨S1x64, .f32⟩ : BufTy).Contents (Elt F)),
    StableHlo.reshape main_v151 main_v152 rfl shapeCasts_S1x64_S64,
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S32768x64 ![0, 1] bcast_S1x64_S32768x64_0_1 : (⟨S1x64, .f32⟩ : BufTy).Contents (Elt F) → (⟨S32768x64, .f32⟩ : BufTy).Contents (Elt F)),
    StableHlo.binary main_v150 main_v154 main_v155 (addf : (⟨S32768x64, .f32⟩ : BufTy).Contents (Elt F) → (⟨S32768x64, .f32⟩ : BufTy).Contents (Elt F) → (⟨S32768x64, .f32⟩ : BufTy).Contents (Elt F)),
    StableHlo.unary main_arg17 main_v156 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v156 main_v157 rfl shapeCasts_S1x64x64_S64x64,
    StableHlo.binary main_v114 main_v157 main_v158 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg18 main_v159 ((extractStridedSlice S1x64 ![1, 0] · slices_S3x64_S1x64_1_0) : (⟨S3x64, .f32⟩ : BufTy).Contents (Elt F) → (⟨S1x64, .f32⟩ : BufTy).Contents (Elt F)),
    StableHlo.reshape main_v159 main_v160 rfl shapeCasts_S1x64_S64,
    StableHlo.unary main_v160 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S32768x64 ![0, 1] bcast_S1x64_S32768x64_0_1 : (⟨S1x64, .f32⟩ : BufTy).Contents (Elt F) → (⟨S32768x64, .f32⟩ : BufTy).Contents (Elt F)),
    StableHlo.binary main_v158 main_v162 main_v163 (addf : (⟨S32768x64, .f32⟩ : BufTy).Contents (Elt F) → (⟨S32768x64, .f32⟩ : BufTy).Contents (Elt F) → (⟨S32768x64, .f32⟩ : BufTy).Contents (Elt F)),
    StableHlo.unary main_arg19 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v164 main_v165 rfl shapeCasts_S1x64x64_S64x64,
    StableHlo.binary main_v114 main_v165 main_v166 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg20 main_v167 ((extractStridedSlice S1x64 ![1, 0] · slices_S3x64_S1x64_1_0) : (⟨S3x64, .f32⟩ : BufTy).Contents (Elt F) → (⟨S1x64, .f32⟩ : BufTy).Contents (Elt F)),
    StableHlo.reshape main_v167 main_v168 rfl shapeCasts_S1x64_S64,
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S32768x64 ![0, 1] bcast_S1x64_S32768x64_0_1 : (⟨S1x64, .f32⟩ : BufTy).Contents (Elt F) → (⟨S32768x64, .f32⟩ : BufTy).Contents (Elt F)),
    StableHlo.binary main_v166 main_v170 main_v171 (addf : (⟨S32768x64, .f32⟩ : BufTy).Contents (Elt F) → (⟨S32768x64, .f32⟩ : BufTy).Contents (Elt F) → (⟨S32768x64, .f32⟩ : BufTy).Contents (Elt F)),
    StableHlo.unary main_arg15 main_v172 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v172 main_v173 rfl shapeCasts_S1x64x64_S64x64,
    StableHlo.binary main_v139 main_v173 main_v174 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)),
    StableHlo.unary main_arg16 main_v175 ((extractStridedSlice S1x64 ![1, 0] · slices_S3x64_S1x64_1_0) : (⟨S3x64, .f32⟩ : BufTy).Contents (Elt F) → (⟨S1x64, .f32⟩ : BufTy).Contents (Elt F)),
    StableHlo.reshape main_v175 main_v176 rfl shapeCasts_S1x64_S64,
    StableHlo.unary main_v176 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S524288x64 ![0, 1] bcast_S1x64_S524288x64_0_1 : (⟨S1x64, .f32⟩ : BufTy).Contents (Elt F) → (⟨S524288x64, .f32⟩ : BufTy).Contents (Elt F)),
    StableHlo.binary main_v174 main_v178 main_v179 (addf : (⟨S524288x64, .f32⟩ : BufTy).Contents (Elt F) → (⟨S524288x64, .f32⟩ : BufTy).Contents (Elt F) → (⟨S524288x64, .f32⟩ : BufTy).Contents (Elt F)) ]

/-- Chunk 7: 38 operations, through %209. -/
abbrev rops7 : List (HloOp τ sig (Elt F)) :=
  [ StableHlo.nullary main_c_18 (constantI S_ 32 0#32),
    StableHlo.unary main_c_18 main_v180 (broadcastInDim S524288 ![] bcast_S_S524288 : (⟨S_, .i32⟩ : BufTy).Contents (Elt F) → (⟨S524288, .i32⟩ : BufTy).Contents (Elt F)),
    StableHlo.binary main_arg2 main_v180 main_v181 (cmpi .slt : (⟨S524288, .i32⟩ : BufTy).Contents (Elt F) → (⟨S524288, .i32⟩ : BufTy).Contents (Elt F) → (⟨S524288, .i1⟩ : BufTy).Contents (Elt F)),
    StableHlo.nullary main_c_19 (constantI S_ 32 32768#32),
    StableHlo.unary main_c_19 main_v182 (broadcastInDim S524288 ![] bcast_S_S524288 : (⟨S_, .i32⟩ : BufTy).Contents (Elt F) → (⟨S524288, .i32⟩ : BufTy).Contents (Elt F)),
    StableHlo.binary main_arg2 main_v182 main_v183 (addi : (⟨S524288, .i32⟩ : BufTy).Contents (Elt F) → (⟨S524288, .i32⟩ : BufTy).Contents (Elt F) → (⟨S524288, .i32⟩ : BufTy).Contents (Elt F)),
    StableHlo.ternary main_v181 main_v183 main_arg2 main_v184 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v184 main_v185 (broadcastInDim S524288x1 ![0] bcast_S524288_S524288x1_0 : (⟨S524288, .i32⟩ : BufTy).Contents (Elt F) → (⟨S524288x1, .i32⟩ : BufTy).Contents (Elt F)),
    StableHlo.binary main_v163 main_v185 main_v186 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v179 main_v186 main_v187 (addf : (⟨S524288x64, .f32⟩ : BufTy).Contents (Elt F) → (⟨S524288x64, .f32⟩ : BufTy).Contents (Elt F) → (⟨S524288x64, .f32⟩ : BufTy).Contents (Elt F)),
    StableHlo.nullary main_c_20 (constantI S_ 32 0#32),
    StableHlo.unary main_c_20 main_v188 (broadcastInDim S524288 ![] bcast_S_S524288 : (⟨S_, .i32⟩ : BufTy).Contents (Elt F) → (⟨S524288, .i32⟩ : BufTy).Contents (Elt F)),
    StableHlo.binary main_arg3 main_v188 main_v189 (cmpi .slt : (⟨S524288, .i32⟩ : BufTy).Contents (Elt F) → (⟨S524288, .i32⟩ : BufTy).Contents (Elt F) → (⟨S524288, .i1⟩ : BufTy).Contents (Elt F)),
    StableHlo.nullary main_c_21 (constantI S_ 32 32768#32),
    StableHlo.unary main_c_21 main_v190 (broadcastInDim S524288 ![] bcast_S_S524288 : (⟨S_, .i32⟩ : BufTy).Contents (Elt F) → (⟨S524288, .i32⟩ : BufTy).Contents (Elt F)),
    StableHlo.binary main_arg3 main_v190 main_v191 (addi : (⟨S524288, .i32⟩ : BufTy).Contents (Elt F) → (⟨S524288, .i32⟩ : BufTy).Contents (Elt F) → (⟨S524288, .i32⟩ : BufTy).Contents (Elt F)),
    StableHlo.ternary main_v189 main_v191 main_arg3 main_v192 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v192 main_v193 (broadcastInDim S524288x1 ![0] bcast_S524288_S524288x1_0 : (⟨S524288, .i32⟩ : BufTy).Contents (Elt F) → (⟨S524288x1, .i32⟩ : BufTy).Contents (Elt F)),
    StableHlo.binary main_v171 main_v193 main_v194 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v187 main_v194 main_v195 (addf : (⟨S524288x64, .f32⟩ : BufTy).Contents (Elt F) → (⟨S524288x64, .f32⟩ : BufTy).Contents (Elt F) → (⟨S524288x64, .f32⟩ : BufTy).Contents (Elt F)),
    StableHlo.unary main_v195 main_v196 (Host.negf : (⟨S524288x64, .f32⟩ : BufTy).Contents (Elt F) → (⟨S524288x64, .f32⟩ : BufTy).Contents (Elt F)),
    StableHlo.unary main_v196 main_v197 (Host.exp : (⟨S524288x64, .f32⟩ : BufTy).Contents (Elt F) → (⟨S524288x64, .f32⟩ : BufTy).Contents (Elt F)),
    StableHlo.nullary main_cst_22 (constant S_ .f32 0x3F800000#32),
    StableHlo.unary main_cst_22 main_v198 (broadcastInDim S524288x64 ![] bcast_S_S524288x64 : (⟨S_, .f32⟩ : BufTy).Contents (Elt F) → (⟨S524288x64, .f32⟩ : BufTy).Contents (Elt F)),
    StableHlo.binary main_v198 main_v197 main_v199 (addf : (⟨S524288x64, .f32⟩ : BufTy).Contents (Elt F) → (⟨S524288x64, .f32⟩ : BufTy).Contents (Elt F) → (⟨S524288x64, .f32⟩ : BufTy).Contents (Elt F)),
    StableHlo.nullary main_cst_23 (constant S_ .f32 0x3F800000#32),
    StableHlo.unary main_cst_23 main_v200 (broadcastInDim S524288x64 ![] bcast_S_S524288x64 : (⟨S_, .f32⟩ : BufTy).Contents (Elt F) → (⟨S524288x64, .f32⟩ : BufTy).Contents (Elt F)),
    StableHlo.binary main_v200 main_v199 main_v201 (Host.divf : (⟨S524288x64, .f32⟩ : BufTy).Contents (Elt F) → (⟨S524288x64, .f32⟩ : BufTy).Contents (Elt F) → (⟨S524288x64, .f32⟩ : BufTy).Contents (Elt F)),
    StableHlo.nullary main_c_24 (constantI S_ 32 0#32),
    StableHlo.unary main_c_24 main_v202 (broadcastInDim S524288 ![] bcast_S_S524288 : (⟨S_, .i32⟩ : BufTy).Contents (Elt F) → (⟨S524288, .i32⟩ : BufTy).Contents (Elt F)),
    StableHlo.binary main_arg2 main_v202 main_v203 (cmpi .slt : (⟨S524288, .i32⟩ : BufTy).Contents (Elt F) → (⟨S524288, .i32⟩ : BufTy).Contents (Elt F) → (⟨S524288, .i1⟩ : BufTy).Contents (Elt F)),
    StableHlo.nullary main_c_25 (constantI S_ 32 32768#32),
    StableHlo.unary main_c_25 main_v204 (broadcastInDim S524288 ![] bcast_S_S524288 : (⟨S_, .i32⟩ : BufTy).Contents (Elt F) → (⟨S524288, .i32⟩ : BufTy).Contents (Elt F)),
    StableHlo.binary main_arg2 main_v204 main_v205 (addi : (⟨S524288, .i32⟩ : BufTy).Contents (Elt F) → (⟨S524288, .i32⟩ : BufTy).Contents (Elt F) → (⟨S524288, .i32⟩ : BufTy).Contents (Elt F)),
    StableHlo.ternary main_v203 main_v205 main_arg2 main_v206 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v206 main_v207 (broadcastInDim S524288x1 ![0] bcast_S524288_S524288x1_0 : (⟨S524288, .i32⟩ : BufTy).Contents (Elt F) → (⟨S524288x1, .i32⟩ : BufTy).Contents (Elt F)),
    StableHlo.binary main_v155 main_v207 main_v208 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v201 main_v208 main_v209 (mulf : (⟨S524288x64, .f32⟩ : BufTy).Contents (Elt F) → (⟨S524288x64, .f32⟩ : BufTy).Contents (Elt F) → (⟨S524288x64, .f32⟩ : BufTy).Contents (Elt F)) ]

/-- Chunk 8: 13 operations, through %219. -/
abbrev rops8 : List (HloOp τ sig (Elt F)) :=
  [ StableHlo.nullary main_cst_26 (constant S_ .f32 0x00000000#32),
    StableHlo.unary main_cst_26 main_v210 (broadcastInDim S32768x64 ![] bcast_S_S32768x64 : (⟨S_, .f32⟩ : BufTy).Contents (Elt F) → (⟨S32768x64, .f32⟩ : BufTy).Contents (Elt F)),
    StableHlo.unary main_arg3 main_v211 (broadcastInDim S524288x1 ![0] bcast_S524288_S524288x1_0 : (⟨S524288, .i32⟩ : BufTy).Contents (Elt F) → (⟨S524288x1, .i32⟩ : BufTy).Contents (Elt F)),
    StableHlo.ternary main_v210 main_v211 main_v209 main_v212 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_27 (constant S_ .f32 0x00000000#32),
    StableHlo.unary main_cst_27 main_v213 (broadcastInDim S32768x64 ![] bcast_S_S32768x64 : (⟨S_, .f32⟩ : BufTy).Contents (Elt F) → (⟨S32768x64, .f32⟩ : BufTy).Contents (Elt F)),
    StableHlo.unary main_arg3 main_v214 (broadcastInDim S524288x1 ![0] bcast_S524288_S524288x1_0 : (⟨S524288, .i32⟩ : BufTy).Contents (Elt F) → (⟨S524288x1, .i32⟩ : BufTy).Contents (Elt F)),
    StableHlo.ternary main_v213 main_v214 main_v201 main_v215 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_28 (constant S_ .f32 0x358637BD#32),
    StableHlo.unary main_cst_28 main_v216 (broadcastInDim S32768x64 ![] bcast_S_S32768x64 : (⟨S_, .f32⟩ : BufTy).Contents (Elt F) → (⟨S32768x64, .f32⟩ : BufTy).Contents (Elt F)),
    StableHlo.binary main_v215 main_v216 main_v217 (addf : (⟨S32768x64, .f32⟩ : BufTy).Contents (Elt F) → (⟨S32768x64, .f32⟩ : BufTy).Contents (Elt F) → (⟨S32768x64, .f32⟩ : BufTy).Contents (Elt F)),
    StableHlo.binary main_v212 main_v217 main_v218 (Host.divf : (⟨S32768x64, .f32⟩ : BufTy).Contents (Elt F) → (⟨S32768x64, .f32⟩ : BufTy).Contents (Elt F) → (⟨S32768x64, .f32⟩ : BufTy).Contents (Elt F)),
    StableHlo.binary main_v147 main_v218 main_v219 (addf : (⟨S32768x64, .f32⟩ : BufTy).Contents (Elt F) → (⟨S32768x64, .f32⟩ : BufTy).Contents (Elt F) → (⟨S32768x64, .f32⟩ : BufTy).Contents (Elt F)) ]

/-- Chunk 9: 52 operations, through %244. -/
abbrev rops9 : List (HloOp τ sig (Elt F)) :=
  [ StableHlo.unary main_arg21 main_v220 ((extractStridedSlice S1x64 ![1, 0] · slices_S3x64_S1x64_1_0) : (⟨S3x64, .f32⟩ : BufTy).Contents (Elt F) → (⟨S1x64, .f32⟩ : BufTy).Contents (Elt F)),
    StableHlo.reshape main_v220 main_v221 rfl shapeCasts_S1x64_S64,
    StableHlo.unary main_arg22 main_v222 ((extractStridedSlice S1x64 ![1, 0] · slices_S3x64_S1x64_1_0) : (⟨S3x64, .f32⟩ : BufTy).Contents (Elt F) → (⟨S1x64, .f32⟩ : BufTy).Contents (Elt F)),
    StableHlo.reshape main_v222 main_v223 rfl shapeCasts_S1x64_S64,
    StableHlo.nullary main_cst_29 (constant S_ .f32 0x00000000#32),
    StableHlo.binary main_v219 main_cst_29 main_v224 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_30 (constant S_ .f32 0x47000000#32),
    StableHlo.unary main_cst_30 main_v225 (broadcastInDim S64 ![] bcast_S_S64 : (⟨S_, .f32⟩ : BufTy).Contents (Elt F) → (⟨S64, .f32⟩ : BufTy).Contents (Elt F)),
    StableHlo.binary main_v224 main_v225 main_v226 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.TRef.nullary (.of main_call4_cst : StableHlo.TRef sig ⟨S_, .f32⟩) (constant S_ .f32 0x00000000#32),
    StableHlo.TRef.binary (.of main_v219 : StableHlo.TRef sig ⟨S32768x64, .f32⟩) (.of main_call4_cst : StableHlo.TRef sig ⟨S_, .f32⟩) (.of main_call4_v0 : StableHlo.TRef sig ⟨S64, .f32⟩) (fun x v => Host.reduceAdd x v reducesTo_S32768x64_S64_d0 h_S_),
    StableHlo.TRef.unary (.of main_call4_v0 : StableHlo.TRef sig ⟨S64, .f32⟩) (.of main_call4_v1 : StableHlo.TRef sig ⟨S1x64, .f32⟩) (broadcastInDim S1x64 ![1] bcast_S64_S1x64_1),
    StableHlo.TRef.nullary (.of main_call4_cst_0 : StableHlo.TRef sig ⟨S_, .f32⟩) (constant S_ .f32 0x47000000#32),
    StableHlo.TRef.unary (.of main_call4_cst_0 : StableHlo.TRef sig ⟨S_, .f32⟩) (.of main_call4_v2 : StableHlo.TRef sig ⟨S1x64, .f32⟩) (broadcastInDim S1x64 ![] bcast_S_S1x64),
    StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf,
    StableHlo.TRef.unary (.of main_call4_v3 : StableHlo.TRef sig ⟨S1x64, .f32⟩) (.of main_call4_v4 : StableHlo.TRef sig ⟨S32768x64, .f32⟩) (broadcastInDim S32768x64 ![0, 1] bcast_S1x64_S32768x64_0_1),
    StableHlo.TRef.binary (.of main_v219 : StableHlo.TRef sig ⟨S32768x64, .f32⟩) (.of main_call4_v4 : StableHlo.TRef sig ⟨S32768x64, .f32⟩) (.of main_call4_v5 : StableHlo.TRef sig ⟨S32768x64, .f32⟩) subf,
    StableHlo.TRef.binary (.of main_call4_v5 : StableHlo.TRef sig ⟨S32768x64, .f32⟩) (.of main_call4_v5 : StableHlo.TRef sig ⟨S32768x64, .f32⟩) (.of main_call4_v6 : StableHlo.TRef sig ⟨S32768x64, .f32⟩) mulf,
    StableHlo.TRef.unary (.of main_c_31 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S32768x64, .f32⟩) (.of main_call4_cst_2 : StableHlo.TRef sig ⟨S_, .f32⟩) (.of main_call4_v9 : StableHlo.TRef sig ⟨S64, .f32⟩) (fun x v => Host.reduceAdd x v reducesTo_S32768x64_S64_d0 h_S_),
    StableHlo.TRef.unary (.of main_call4_v8 : StableHlo.TRef sig ⟨S_, .f32⟩) (.of main_call4_v10 : StableHlo.TRef sig ⟨S64, .f32⟩) (broadcastInDim S64 ![] bcast_S_S64),
    StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S64, .f32⟩) (broadcastInDim S64 ![] bcast_S_S64),
    StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v227 : StableHlo.TRef sig ⟨S64, .f32⟩) (fun p a b => select (broadcastInDim S64 ![] bcast_S_S64 p) a b),
    StableHlo.unary main_v226 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S32768x64 ![0, 1] bcast_S1x64_S32768x64_0_1 : (⟨S1x64, .f32⟩ : BufTy).Contents (Elt F) → (⟨S32768x64, .f32⟩ : BufTy).Contents (Elt F)),
    StableHlo.binary main_v219 main_v229 main_v230 (subf : (⟨S32768x64, .f32⟩ : BufTy).Contents (Elt F) → (⟨S32768x64, .f32⟩ : BufTy).Contents (Elt F) → (⟨S32768x64, .f32⟩ : BufTy).Contents (Elt F)),
    StableHlo.unary main_v221 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S32768x64 ![0, 1] bcast_S1x64_S32768x64_0_1 : (⟨S1x64, .f32⟩ : BufTy).Contents (Elt F) → (⟨S32768x64, .f32⟩ : BufTy).Contents (Elt F)),
    StableHlo.binary main_v232 main_v230 main_v233 (mulf : (⟨S32768x64, .f32⟩ : BufTy).Contents (Elt F) → (⟨S32768x64, .f32⟩ : BufTy).Contents (Elt F) → (⟨S32768x64, .f32⟩ : BufTy).Contents (Elt F)),
    StableHlo.nullary main_cst_32 (constant S_ .f32 0x3727C5AC#32),
    StableHlo.unary main_cst_32 main_v234 (broadcastInDim S64 ![] bcast_S_S64 : (⟨S_, .f32⟩ : BufTy).Contents (Elt F) → (⟨S64, .f32⟩ : BufTy).Contents (Elt F)),
    StableHlo.binary main_v227 main_v234 main_v235 (addf : (⟨S64, .f32⟩ : BufTy).Contents (Elt F) → (⟨S64, .f32⟩ : BufTy).Contents (Elt F) → (⟨S64, .f32⟩ : BufTy).Contents (Elt F)),
    StableHlo.unary main_v235 main_v236 (Host.rsqrt : (⟨S64, .f32⟩ : BufTy).Contents (Elt F) → (⟨S64, .f32⟩ : BufTy).Contents (Elt F)),
    StableHlo.unary main_v236 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S32768x64 ![0, 1] bcast_S1x64_S32768x64_0_1 : (⟨S1x64, .f32⟩ : BufTy).Contents (Elt F) → (⟨S32768x64, .f32⟩ : BufTy).Contents (Elt F)),
    StableHlo.binary main_v233 main_v238 main_v239 (mulf : (⟨S32768x64, .f32⟩ : BufTy).Contents (Elt F) → (⟨S32768x64, .f32⟩ : BufTy).Contents (Elt F) → (⟨S32768x64, .f32⟩ : BufTy).Contents (Elt F)),
    StableHlo.unary main_v223 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S32768x64 ![0, 1] bcast_S1x64_S32768x64_0_1 : (⟨S1x64, .f32⟩ : BufTy).Contents (Elt F) → (⟨S32768x64, .f32⟩ : BufTy).Contents (Elt F)),
    StableHlo.binary main_v239 main_v241 main_v242 (addf : (⟨S32768x64, .f32⟩ : BufTy).Contents (Elt F) → (⟨S32768x64, .f32⟩ : BufTy).Contents (Elt F) → (⟨S32768x64, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S32768x64, .f32⟩) (broadcastInDim S32768x64 ![] bcast_S_S32768x64),
    StableHlo.TRef.binary (.of main_v242 : StableHlo.TRef sig ⟨S32768x64, .f32⟩) (.of main_call5_v0 : StableHlo.TRef sig ⟨S32768x64, .f32⟩) (.of main_v243 : StableHlo.TRef sig ⟨S32768x64, .f32⟩) maximumf,
    StableHlo.binary main_v114 main_v243 main_v244 (addf : (⟨S32768x64, .f32⟩ : BufTy).Contents (Elt F) → (⟨S32768x64, .f32⟩ : BufTy).Contents (Elt F) → (⟨S32768x64, .f32⟩ : BufTy).Contents (Elt F)) ]

/-- Chunk 10: 52 operations, through %269. -/
abbrev rops10 : List (HloOp τ sig (Elt F)) :=
  [ StableHlo.unary main_arg23 main_v245 ((extractStridedSlice S1x64 ![1, 0] · slices_S3x64_S1x64_1_0) : (⟨S3x64, .f32⟩ : BufTy).Contents (Elt F) → (⟨S1x64, .f32⟩ : BufTy).Contents (Elt F)),
    StableHlo.reshape main_v245 main_v246 rfl shapeCasts_S1x64_S64,
    StableHlo.unary main_arg24 main_v247 ((extractStridedSlice S1x64 ![1, 0] · slices_S3x64_S1x64_1_0) : (⟨S3x64, .f32⟩ : BufTy).Contents (Elt F) → (⟨S1x64, .f32⟩ : BufTy).Contents (Elt F)),
    StableHlo.reshape main_v247 main_v248 rfl shapeCasts_S1x64_S64,
    StableHlo.nullary main_cst_33 (constant S_ .f32 0x00000000#32),
    StableHlo.binary main_v195 main_cst_33 main_v249 ((fun x v => Host.reduceAdd x v reducesTo_S524288x64_S64_d0 h_S_) : (⟨S524288x64, .f32⟩ : BufTy).Contents (Elt F) → (⟨S_, .f32⟩ : BufTy).Contents (Elt F) → (⟨S64, .f32⟩ : BufTy).Contents (Elt F)),
    StableHlo.nullary main_cst_34 (constant S_ .f32 0x49000000#32),
    StableHlo.unary main_cst_34 main_v250 (broadcastInDim S64 ![] bcast_S_S64 : (⟨S_, .f32⟩ : BufTy).Contents (Elt F) → (⟨S64, .f32⟩ : BufTy).Contents (Elt F)),
    StableHlo.binary main_v249 main_v250 main_v251 (Host.divf : (⟨S64, .f32⟩ : BufTy).Contents (Elt F) → (⟨S64, .f32⟩ : BufTy).Contents (Elt F) → (⟨S64, .f32⟩ : BufTy).Contents (Elt F)),
    StableHlo.nullary main_c_35 (constantI S_ 32 0#32),
    StableHlo.TRef.nullary (.of main_call6_cst : StableHlo.TRef sig ⟨S_, .f32⟩) (constant S_ .f32 0x00000000#32),
    StableHlo.TRef.binary (.of main_v195 : StableHlo.TRef sig ⟨S524288x64, .f32⟩) (.of main_call6_cst : StableHlo.TRef sig ⟨S_, .f32⟩) (.of main_call6_v0 : StableHlo.TRef sig ⟨S64, .f32⟩) (fun x v => Host.reduceAdd x v reducesTo_S524288x64_S64_d0 h_S_),
    StableHlo.TRef.unary (.of main_call6_v0 : StableHlo.TRef sig ⟨S64, .f32⟩) (.of main_call6_v1 : StableHlo.TRef sig ⟨S1x64, .f32⟩) (broadcastInDim S1x64 ![1] bcast_S64_S1x64_1),
    StableHlo.TRef.nullary (.of main_call6_cst_0 : StableHlo.TRef sig ⟨S_, .f32⟩) (constant S_ .f32 0x49000000#32),
    StableHlo.TRef.unary (.of main_call6_cst_0 : StableHlo.TRef sig ⟨S_, .f32⟩) (.of main_call6_v2 : StableHlo.TRef sig ⟨S1x64, .f32⟩) (broadcastInDim S1x64 ![] bcast_S_S1x64),
    StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf,
    StableHlo.TRef.unary (.of main_call6_v3 : StableHlo.TRef sig ⟨S1x64, .f32⟩) (.of main_call6_v4 : StableHlo.TRef sig ⟨S524288x64, .f32⟩) (broadcastInDim S524288x64 ![0, 1] bcast_S1x64_S524288x64_0_1),
    StableHlo.TRef.binary (.of main_v195 : StableHlo.TRef sig ⟨S524288x64, .f32⟩) (.of main_call6_v4 : StableHlo.TRef sig ⟨S524288x64, .f32⟩) (.of main_call6_v5 : StableHlo.TRef sig ⟨S524288x64, .f32⟩) subf,
    StableHlo.TRef.binary (.of main_call6_v5 : StableHlo.TRef sig ⟨S524288x64, .f32⟩) (.of main_call6_v5 : StableHlo.TRef sig ⟨S524288x64, .f32⟩) (.of main_call6_v6 : StableHlo.TRef sig ⟨S524288x64, .f32⟩) mulf,
    StableHlo.TRef.unary (.of main_c_35 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x49000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S524288x64, .f32⟩) (.of main_call6_cst_2 : StableHlo.TRef sig ⟨S_, .f32⟩) (.of main_call6_v9 : StableHlo.TRef sig ⟨S64, .f32⟩) (fun x v => Host.reduceAdd x v reducesTo_S524288x64_S64_d0 h_S_),
    StableHlo.TRef.unary (.of main_call6_v8 : StableHlo.TRef sig ⟨S_, .f32⟩) (.of main_call6_v10 : StableHlo.TRef sig ⟨S64, .f32⟩) (broadcastInDim S64 ![] bcast_S_S64),
    StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S64, .f32⟩) (broadcastInDim S64 ![] bcast_S_S64),
    StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v252 : StableHlo.TRef sig ⟨S64, .f32⟩) (fun p a b => select (broadcastInDim S64 ![] bcast_S_S64 p) a b),
    StableHlo.unary main_v251 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S524288x64 ![0, 1] bcast_S1x64_S524288x64_0_1 : (⟨S1x64, .f32⟩ : BufTy).Contents (Elt F) → (⟨S524288x64, .f32⟩ : BufTy).Contents (Elt F)),
    StableHlo.binary main_v195 main_v254 main_v255 (subf : (⟨S524288x64, .f32⟩ : BufTy).Contents (Elt F) → (⟨S524288x64, .f32⟩ : BufTy).Contents (Elt F) → (⟨S524288x64, .f32⟩ : BufTy).Contents (Elt F)),
    StableHlo.unary main_v246 main_v256 (broadcastInDim S1x64 ![1] bcast_S64_S1x64_1 : (⟨S64, .f32⟩ : BufTy).Contents (Elt F) → (⟨S1x64, .f32⟩ : BufTy).Contents (Elt F)),
    StableHlo.unary main_v256 main_v257 (broadcastInDim S524288x64 ![0, 1] bcast_S1x64_S524288x64_0_1 : (⟨S1x64, .f32⟩ : BufTy).Contents (Elt F) → (⟨S524288x64, .f32⟩ : BufTy).Contents (Elt F)),
    StableHlo.binary main_v257 main_v255 main_v258 (mulf : (⟨S524288x64, .f32⟩ : BufTy).Contents (Elt F) → (⟨S524288x64, .f32⟩ : BufTy).Contents (Elt F) → (⟨S524288x64, .f32⟩ : BufTy).Contents (Elt F)),
    StableHlo.nullary main_cst_36 (constant S_ .f32 0x3727C5AC#32),
    StableHlo.unary main_cst_36 main_v259 (broadcastInDim S64 ![] bcast_S_S64 : (⟨S_, .f32⟩ : BufTy).Contents (Elt F) → (⟨S64, .f32⟩ : BufTy).Contents (Elt F)),
    StableHlo.binary main_v252 main_v259 main_v260 (addf : (⟨S64, .f32⟩ : BufTy).Contents (Elt F) → (⟨S64, .f32⟩ : BufTy).Contents (Elt F) → (⟨S64, .f32⟩ : BufTy).Contents (Elt F)),
    StableHlo.unary main_v260 main_v261 (Host.rsqrt : (⟨S64, .f32⟩ : BufTy).Contents (Elt F) → (⟨S64, .f32⟩ : BufTy).Contents (Elt F)),
    StableHlo.unary main_v261 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S524288x64 ![0, 1] bcast_S1x64_S524288x64_0_1 : (⟨S1x64, .f32⟩ : BufTy).Contents (Elt F) → (⟨S524288x64, .f32⟩ : BufTy).Contents (Elt F)),
    StableHlo.binary main_v258 main_v263 main_v264 (mulf : (⟨S524288x64, .f32⟩ : BufTy).Contents (Elt F) → (⟨S524288x64, .f32⟩ : BufTy).Contents (Elt F) → (⟨S524288x64, .f32⟩ : BufTy).Contents (Elt F)),
    StableHlo.unary main_v248 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S524288x64 ![0, 1] bcast_S1x64_S524288x64_0_1 : (⟨S1x64, .f32⟩ : BufTy).Contents (Elt F) → (⟨S524288x64, .f32⟩ : BufTy).Contents (Elt F)),
    StableHlo.binary main_v264 main_v266 main_v267 (addf : (⟨S524288x64, .f32⟩ : BufTy).Contents (Elt F) → (⟨S524288x64, .f32⟩ : BufTy).Contents (Elt F) → (⟨S524288x64, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S524288x64, .f32⟩) (broadcastInDim S524288x64 ![] bcast_S_S524288x64),
    StableHlo.TRef.binary (.of main_v267 : StableHlo.TRef sig ⟨S524288x64, .f32⟩) (.of main_call7_v0 : StableHlo.TRef sig ⟨S524288x64, .f32⟩) (.of main_v268 : StableHlo.TRef sig ⟨S524288x64, .f32⟩) maximumf,
    StableHlo.binary main_v139 main_v268 main_v269 (addf : (⟨S524288x64, .f32⟩ : BufTy).Contents (Elt F) → (⟨S524288x64, .f32⟩ : BufTy).Contents (Elt F) → (⟨S524288x64, .f32⟩ : BufTy).Contents (Elt F)) ]

end Cert.ReferenceIdeal.Hand

end
-- ==== Proof.RI.Ops2.lean ====
/- Chunks 11 … 15 of the reference program's operations: @main's statements in order, each func.call replaced by the
   callee's statements over that call's buffer record. -/
import proofs.«142356_j74423193305351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Chunk 11: 40 operations, through %309. -/
abbrev rops11 : List (HloOp τ sig (Elt F)) :=
  [ StableHlo.unary main_arg11 main_v270 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v270 main_v271 rfl shapeCasts_S1x64x64_S64x64,
    StableHlo.binary main_v244 main_v271 main_v272 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg12 main_v273 ((extractStridedSlice S1x64 ![2, 0] · slices_S3x64_S1x64_2_0) : (⟨S3x64, .f32⟩ : BufTy).Contents (Elt F) → (⟨S1x64, .f32⟩ : BufTy).Contents (Elt F)),
    StableHlo.reshape main_v273 main_v274 rfl shapeCasts_S1x64_S64,
    StableHlo.unary main_v274 main_v275 (broadcastInDim S1x64 ![1] bcast_S64_S1x64_1 : (⟨S64, .f32⟩ : BufTy).Contents (Elt F) → (⟨S1x64, .f32⟩ : BufTy).Contents (Elt F)),
    StableHlo.unary main_v275 main_v276 (broadcastInDim S32768x64 ![0, 1] bcast_S1x64_S32768x64_0_1 : (⟨S1x64, .f32⟩ : BufTy).Contents (Elt F) → (⟨S32768x64, .f32⟩ : BufTy).Contents (Elt F)),
    StableHlo.binary main_v272 main_v276 main_v277 (addf : (⟨S32768x64, .f32⟩ : BufTy).Contents (Elt F) → (⟨S32768x64, .f32⟩ : BufTy).Contents (Elt F) → (⟨S32768x64, .f32⟩ : BufTy).Contents (Elt F)),
    StableHlo.unary main_arg13 main_v278 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v278 main_v279 rfl shapeCasts_S1x64x64_S64x64,
    StableHlo.binary main_v244 main_v279 main_v280 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg14 main_v281 ((extractStridedSlice S1x64 ![2, 0] · slices_S3x64_S1x64_2_0) : (⟨S3x64, .f32⟩ : BufTy).Contents (Elt F) → (⟨S1x64, .f32⟩ : BufTy).Contents (Elt F)),
    StableHlo.reshape main_v281 main_v282 rfl shapeCasts_S1x64_S64,
    StableHlo.unary main_v282 main_v283 (broadcastInDim S1x64 ![1] bcast_S64_S1x64_1 : (⟨S64, .f32⟩ : BufTy).Contents (Elt F) → (⟨S1x64, .f32⟩ : BufTy).Contents (Elt F)),
    StableHlo.unary main_v283 main_v284 (broadcastInDim S32768x64 ![0, 1] bcast_S1x64_S32768x64_0_1 : (⟨S1x64, .f32⟩ : BufTy).Contents (Elt F) → (⟨S32768x64, .f32⟩ : BufTy).Contents (Elt F)),
    StableHlo.binary main_v280 main_v284 main_v285 (addf : (⟨S32768x64, .f32⟩ : BufTy).Contents (Elt F) → (⟨S32768x64, .f32⟩ : BufTy).Contents (Elt F) → (⟨S32768x64, .f32⟩ : BufTy).Contents (Elt F)),
    StableHlo.unary main_arg17 main_v286 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v286 main_v287 rfl shapeCasts_S1x64x64_S64x64,
    StableHlo.binary main_v244 main_v287 main_v288 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg18 main_v289 ((extractStridedSlice S1x64 ![2, 0] · slices_S3x64_S1x64_2_0) : (⟨S3x64, .f32⟩ : BufTy).Contents (Elt F) → (⟨S1x64, .f32⟩ : BufTy).Contents (Elt F)),
    StableHlo.reshape main_v289 main_v290 rfl shapeCasts_S1x64_S64,
    StableHlo.unary main_v290 main_v291 (broadcastInDim S1x64 ![1] bcast_S64_S1x64_1 : (⟨S64, .f32⟩ : BufTy).Contents (Elt F) → (⟨S1x64, .f32⟩ : BufTy).Contents (Elt F)),
    StableHlo.unary main_v291 main_v292 (broadcastInDim S32768x64 ![0, 1] bcast_S1x64_S32768x64_0_1 : (⟨S1x64, .f32⟩ : BufTy).Contents (Elt F) → (⟨S32768x64, .f32⟩ : BufTy).Contents (Elt F)),
    StableHlo.binary main_v288 main_v292 main_v293 (addf : (⟨S32768x64, .f32⟩ : BufTy).Contents (Elt F) → (⟨S32768x64, .f32⟩ : BufTy).Contents (Elt F) → (⟨S32768x64, .f32⟩ : BufTy).Contents (Elt F)),
    StableHlo.unary main_arg19 main_v294 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v294 main_v295 rfl shapeCasts_S1x64x64_S64x64,
    StableHlo.binary main_v244 main_v295 main_v296 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg20 main_v297 ((extractStridedSlice S1x64 ![2, 0] · slices_S3x64_S1x64_2_0) : (⟨S3x64, .f32⟩ : BufTy).Contents (Elt F) → (⟨S1x64, .f32⟩ : BufTy).Contents (Elt F)),
    StableHlo.reshape main_v297 main_v298 rfl shapeCasts_S1x64_S64,
    StableHlo.unary main_v298 main_v299 (broadcastInDim S1x64 ![1] bcast_S64_S1x64_1 : (⟨S64, .f32⟩ : BufTy).Contents (Elt F) → (⟨S1x64, .f32⟩ : BufTy).Contents (Elt F)),
    StableHlo.unary main_v299 main_v300 (broadcastInDim S32768x64 ![0, 1] bcast_S1x64_S32768x64_0_1 : (⟨S1x64, .f32⟩ : BufTy).Contents (Elt F) → (⟨S32768x64, .f32⟩ : BufTy).Contents (Elt F)),
    StableHlo.binary main_v296 main_v300 main_v301 (addf : (⟨S32768x64, .f32⟩ : BufTy).Contents (Elt F) → (⟨S32768x64, .f32⟩ : BufTy).Contents (Elt F) → (⟨S32768x64, .f32⟩ : BufTy).Contents (Elt F)),
    StableHlo.unary main_arg15 main_v302 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v302 main_v303 rfl shapeCasts_S1x64x64_S64x64,
    StableHlo.binary main_v269 main_v303 main_v304 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)),
    StableHlo.unary main_arg16 main_v305 ((extractStridedSlice S1x64 ![2, 0] · slices_S3x64_S1x64_2_0) : (⟨S3x64, .f32⟩ : BufTy).Contents (Elt F) → (⟨S1x64, .f32⟩ : BufTy).Contents (Elt F)),
    StableHlo.reshape main_v305 main_v306 rfl shapeCasts_S1x64_S64,
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S524288x64 ![0, 1] bcast_S1x64_S524288x64_0_1 : (⟨S1x64, .f32⟩ : BufTy).Contents (Elt F) → (⟨S524288x64, .f32⟩ : BufTy).Contents (Elt F)),
    StableHlo.binary main_v304 main_v308 main_v309 (addf : (⟨S524288x64, .f32⟩ : BufTy).Contents (Elt F) → (⟨S524288x64, .f32⟩ : BufTy).Contents (Elt F) → (⟨S524288x64, .f32⟩ : BufTy).Contents (Elt F)) ]

/-- Chunk 12: 38 operations, through %339. -/
abbrev rops12 : List (HloOp τ sig (Elt F)) :=
  [ StableHlo.nullary main_c_37 (constantI S_ 32 0#32),
    StableHlo.unary main_c_37 main_v310 (broadcastInDim S524288 ![] bcast_S_S524288 : (⟨S_, .i32⟩ : BufTy).Contents (Elt F) → (⟨S524288, .i32⟩ : BufTy).Contents (Elt F)),
    StableHlo.binary main_arg2 main_v310 main_v311 (cmpi .slt : (⟨S524288, .i32⟩ : BufTy).Contents (Elt F) → (⟨S524288, .i32⟩ : BufTy).Contents (Elt F) → (⟨S524288, .i1⟩ : BufTy).Contents (Elt F)),
    StableHlo.nullary main_c_38 (constantI S_ 32 32768#32),
    StableHlo.unary main_c_38 main_v312 (broadcastInDim S524288 ![] bcast_S_S524288 : (⟨S_, .i32⟩ : BufTy).Contents (Elt F) → (⟨S524288, .i32⟩ : BufTy).Contents (Elt F)),
    StableHlo.binary main_arg2 main_v312 main_v313 (addi : (⟨S524288, .i32⟩ : BufTy).Contents (Elt F) → (⟨S524288, .i32⟩ : BufTy).Contents (Elt F) → (⟨S524288, .i32⟩ : BufTy).Contents (Elt F)),
    StableHlo.ternary main_v311 main_v313 main_arg2 main_v314 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v314 main_v315 (broadcastInDim S524288x1 ![0] bcast_S524288_S524288x1_0 : (⟨S524288, .i32⟩ : BufTy).Contents (Elt F) → (⟨S524288x1, .i32⟩ : BufTy).Contents (Elt F)),
    StableHlo.binary main_v293 main_v315 main_v316 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v309 main_v316 main_v317 (addf : (⟨S524288x64, .f32⟩ : BufTy).Contents (Elt F) → (⟨S524288x64, .f32⟩ : BufTy).Contents (Elt F) → (⟨S524288x64, .f32⟩ : BufTy).Contents (Elt F)),
    StableHlo.nullary main_c_39 (constantI S_ 32 0#32),
    StableHlo.unary main_c_39 main_v318 (broadcastInDim S524288 ![] bcast_S_S524288 : (⟨S_, .i32⟩ : BufTy).Contents (Elt F) → (⟨S524288, .i32⟩ : BufTy).Contents (Elt F)),
    StableHlo.binary main_arg3 main_v318 main_v319 (cmpi .slt : (⟨S524288, .i32⟩ : BufTy).Contents (Elt F) → (⟨S524288, .i32⟩ : BufTy).Contents (Elt F) → (⟨S524288, .i1⟩ : BufTy).Contents (Elt F)),
    StableHlo.nullary main_c_40 (constantI S_ 32 32768#32),
    StableHlo.unary main_c_40 main_v320 (broadcastInDim S524288 ![] bcast_S_S524288 : (⟨S_, .i32⟩ : BufTy).Contents (Elt F) → (⟨S524288, .i32⟩ : BufTy).Contents (Elt F)),
    StableHlo.binary main_arg3 main_v320 main_v321 (addi : (⟨S524288, .i32⟩ : BufTy).Contents (Elt F) → (⟨S524288, .i32⟩ : BufTy).Contents (Elt F) → (⟨S524288, .i32⟩ : BufTy).Contents (Elt F)),
    StableHlo.ternary main_v319 main_v321 main_arg3 main_v322 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v322 main_v323 (broadcastInDim S524288x1 ![0] bcast_S524288_S524288x1_0 : (⟨S524288, .i32⟩ : BufTy).Contents (Elt F) → (⟨S524288x1, .i32⟩ : BufTy).Contents (Elt F)),
    StableHlo.binary main_v301 main_v323 main_v324 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v317 main_v324 main_v325 (addf : (⟨S524288x64, .f32⟩ : BufTy).Contents (Elt F) → (⟨S524288x64, .f32⟩ : BufTy).Contents (Elt F) → (⟨S524288x64, .f32⟩ : BufTy).Contents (Elt F)),
    StableHlo.unary main_v325 main_v326 (Host.negf : (⟨S524288x64, .f32⟩ : BufTy).Contents (Elt F) → (⟨S524288x64, .f32⟩ : BufTy).Contents (Elt F)),
    StableHlo.unary main_v326 main_v327 (Host.exp : (⟨S524288x64, .f32⟩ : BufTy).Contents (Elt F) → (⟨S524288x64, .f32⟩ : BufTy).Contents (Elt F)),
    StableHlo.nullary main_cst_41 (constant S_ .f32 0x3F800000#32),
    StableHlo.unary main_cst_41 main_v328 (broadcastInDim S524288x64 ![] bcast_S_S524288x64 : (⟨S_, .f32⟩ : BufTy).Contents (Elt F) → (⟨S524288x64, .f32⟩ : BufTy).Contents (Elt F)),
    StableHlo.binary main_v328 main_v327 main_v329 (addf : (⟨S524288x64, .f32⟩ : BufTy).Contents (Elt F) → (⟨S524288x64, .f32⟩ : BufTy).Contents (Elt F) → (⟨S524288x64, .f32⟩ : BufTy).Contents (Elt F)),
    StableHlo.nullary main_cst_42 (constant S_ .f32 0x3F800000#32),
    StableHlo.unary main_cst_42 main_v330 (broadcastInDim S524288x64 ![] bcast_S_S524288x64 : (⟨S_, .f32⟩ : BufTy).Contents (Elt F) → (⟨S524288x64, .f32⟩ : BufTy).Contents (Elt F)),
    StableHlo.binary main_v330 main_v329 main_v331 (Host.divf : (⟨S524288x64, .f32⟩ : BufTy).Contents (Elt F) → (⟨S524288x64, .f32⟩ : BufTy).Contents (Elt F) → (⟨S524288x64, .f32⟩ : BufTy).Contents (Elt F)),
    StableHlo.nullary main_c_43 (constantI S_ 32 0#32),
    StableHlo.unary main_c_43 main_v332 (broadcastInDim S524288 ![] bcast_S_S524288 : (⟨S_, .i32⟩ : BufTy).Contents (Elt F) → (⟨S524288, .i32⟩ : BufTy).Contents (Elt F)),
    StableHlo.binary main_arg2 main_v332 main_v333 (cmpi .slt : (⟨S524288, .i32⟩ : BufTy).Contents (Elt F) → (⟨S524288, .i32⟩ : BufTy).Contents (Elt F) → (⟨S524288, .i1⟩ : BufTy).Contents (Elt F)),
    StableHlo.nullary main_c_44 (constantI S_ 32 32768#32),
    StableHlo.unary main_c_44 main_v334 (broadcastInDim S524288 ![] bcast_S_S524288 : (⟨S_, .i32⟩ : BufTy).Contents (Elt F) → (⟨S524288, .i32⟩ : BufTy).Contents (Elt F)),
    StableHlo.binary main_arg2 main_v334 main_v335 (addi : (⟨S524288, .i32⟩ : BufTy).Contents (Elt F) → (⟨S524288, .i32⟩ : BufTy).Contents (Elt F) → (⟨S524288, .i32⟩ : BufTy).Contents (Elt F)),
    StableHlo.ternary main_v333 main_v335 main_arg2 main_v336 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v336 main_v337 (broadcastInDim S524288x1 ![0] bcast_S524288_S524288x1_0 : (⟨S524288, .i32⟩ : BufTy).Contents (Elt F) → (⟨S524288x1, .i32⟩ : BufTy).Contents (Elt F)),
    StableHlo.binary main_v285 main_v337 main_v338 ((fun x i => Host.gather gather_S32768x64_S524288x1_S524288x64_1_0_n_n_0_1_164 x i) : (⟨S32768x64, .f32⟩ : BufTy).Contents (Elt F) → (⟨S524288x1, .i32⟩ : BufTy).Contents (Elt F) → (⟨S524288x64, .f32⟩ : BufTy).Contents (Elt F)),
    StableHlo.binary main_v331 main_v338 main_v339 (mulf : (⟨S524288x64, .f32⟩ : BufTy).Contents (Elt F) → (⟨S524288x64, .f32⟩ : BufTy).Contents (Elt F) → (⟨S524288x64, .f32⟩ : BufTy).Contents (Elt F)) ]

/-- Chunk 13: 13 operations, through %349. -/
abbrev rops13 : List (HloOp τ sig (Elt F)) :=
  [ StableHlo.nullary main_cst_45 (constant S_ .f32 0x00000000#32),
    StableHlo.unary main_cst_45 main_v340 (broadcastInDim S32768x64 ![] bcast_S_S32768x64 : (⟨S_, .f32⟩ : BufTy).Contents (Elt F) → (⟨S32768x64, .f32⟩ : BufTy).Contents (Elt F)),
    StableHlo.unary main_arg3 main_v341 (broadcastInDim S524288x1 ![0] bcast_S524288_S524288x1_0 : (⟨S524288, .i32⟩ : BufTy).Contents (Elt F) → (⟨S524288x1, .i32⟩ : BufTy).Contents (Elt F)),
    StableHlo.ternary main_v340 main_v341 main_v339 main_v342 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_46 (constant S_ .f32 0x00000000#32),
    StableHlo.unary main_cst_46 main_v343 (broadcastInDim S32768x64 ![] bcast_S_S32768x64 : (⟨S_, .f32⟩ : BufTy).Contents (Elt F) → (⟨S32768x64, .f32⟩ : BufTy).Contents (Elt F)),
    StableHlo.unary main_arg3 main_v344 (broadcastInDim S524288x1 ![0] bcast_S524288_S524288x1_0 : (⟨S524288, .i32⟩ : BufTy).Contents (Elt F) → (⟨S524288x1, .i32⟩ : BufTy).Contents (Elt F)),
    StableHlo.ternary main_v343 main_v344 main_v331 main_v345 ((fun x i u => Host.scatterAdd scatter_S32768x64_S524288x1_S524288x64_1_0_0_1 x i u) : (⟨S32768x64, .f32⟩ : BufTy).Contents (Elt F) → (⟨S524288x1, .i32⟩ : BufTy).Contents (Elt F) → (⟨S524288x64, .f32⟩ : BufTy).Contents (Elt F) → (⟨S32768x64, .f32⟩ : BufTy).Contents (Elt F)),
    StableHlo.nullary main_cst_47 (constant S_ .f32 0x358637BD#32),
    StableHlo.unary main_cst_47 main_v346 (broadcastInDim S32768x64 ![] bcast_S_S32768x64 : (⟨S_, .f32⟩ : BufTy).Contents (Elt F) → (⟨S32768x64, .f32⟩ : BufTy).Contents (Elt F)),
    StableHlo.binary main_v345 main_v346 main_v347 (addf : (⟨S32768x64, .f32⟩ : BufTy).Contents (Elt F) → (⟨S32768x64, .f32⟩ : BufTy).Contents (Elt F) → (⟨S32768x64, .f32⟩ : BufTy).Contents (Elt F)),
    StableHlo.binary main_v342 main_v347 main_v348 (Host.divf : (⟨S32768x64, .f32⟩ : BufTy).Contents (Elt F) → (⟨S32768x64, .f32⟩ : BufTy).Contents (Elt F) → (⟨S32768x64, .f32⟩ : BufTy).Contents (Elt F)),
    StableHlo.binary main_v277 main_v348 main_v349 (addf : (⟨S32768x64, .f32⟩ : BufTy).Contents (Elt F) → (⟨S32768x64, .f32⟩ : BufTy).Contents (Elt F) → (⟨S32768x64, .f32⟩ : BufTy).Contents (Elt F)) ]

/-- Chunk 14: 52 operations, through %374. -/
abbrev rops14 : List (HloOp τ sig (Elt F)) :=
  [ StableHlo.unary main_arg21 main_v350 ((extractStridedSlice S1x64 ![2, 0] · slices_S3x64_S1x64_2_0) : (⟨S3x64, .f32⟩ : BufTy).Contents (Elt F) → (⟨S1x64, .f32⟩ : BufTy).Contents (Elt F)),
    StableHlo.reshape main_v350 main_v351 rfl shapeCasts_S1x64_S64,
    StableHlo.unary main_arg22 main_v352 ((extractStridedSlice S1x64 ![2, 0] · slices_S3x64_S1x64_2_0) : (⟨S3x64, .f32⟩ : BufTy).Contents (Elt F) → (⟨S1x64, .f32⟩ : BufTy).Contents (Elt F)),
    StableHlo.reshape main_v352 main_v353 rfl shapeCasts_S1x64_S64,
    StableHlo.nullary main_cst_48 (constant S_ .f32 0x00000000#32),
    StableHlo.binary main_v349 main_cst_48 main_v354 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_49 (constant S_ .f32 0x47000000#32),
    StableHlo.unary main_cst_49 main_v355 (broadcastInDim S64 ![] bcast_S_S64 : (⟨S_, .f32⟩ : BufTy).Contents (Elt F) → (⟨S64, .f32⟩ : BufTy).Contents (Elt F)),
    StableHlo.binary main_v354 main_v355 main_v356 (Host.divf : (⟨S64, .f32⟩ : BufTy).Contents (Elt F) → (⟨S64, .f32⟩ : BufTy).Contents (Elt F) → (⟨S64, .f32⟩ : BufTy).Contents (Elt F)),
    StableHlo.nullary main_c_50 (constantI S_ 32 0#32),
    StableHlo.TRef.nullary (.of main_call8_cst : StableHlo.TRef sig ⟨S_, .f32⟩) (constant S_ .f32 0x00000000#32),
    StableHlo.TRef.binary (.of main_v349 : StableHlo.TRef sig ⟨S32768x64, .f32⟩) (.of main_call8_cst : StableHlo.TRef sig ⟨S_, .f32⟩) (.of main_call8_v0 : StableHlo.TRef sig ⟨S64, .f32⟩) (fun x v => Host.reduceAdd x v reducesTo_S32768x64_S64_d0 h_S_),
    StableHlo.TRef.unary (.of main_call8_v0 : StableHlo.TRef sig ⟨S64, .f32⟩) (.of main_call8_v1 : StableHlo.TRef sig ⟨S1x64, .f32⟩) (broadcastInDim S1x64 ![1] bcast_S64_S1x64_1),
    StableHlo.TRef.nullary (.of main_call8_cst_0 : StableHlo.TRef sig ⟨S_, .f32⟩) (constant S_ .f32 0x47000000#32),
    StableHlo.TRef.unary (.of main_call8_cst_0 : StableHlo.TRef sig ⟨S_, .f32⟩) (.of main_call8_v2 : StableHlo.TRef sig ⟨S1x64, .f32⟩) (broadcastInDim S1x64 ![] bcast_S_S1x64),
    StableHlo.TRef.binary (.of main_call8_v1 : StableHlo.TRef sig ⟨S1x64, .f32⟩) (.of main_call8_v2 : StableHlo.TRef sig ⟨S1x64, .f32⟩) (.of main_call8_v3 : StableHlo.TRef sig ⟨S1x64, .f32⟩) Host.divf,
    StableHlo.TRef.unary (.of main_call8_v3 : StableHlo.TRef sig ⟨S1x64, .f32⟩) (.of main_call8_v4 : StableHlo.TRef sig ⟨S32768x64, .f32⟩) (broadcastInDim S32768x64 ![0, 1] bcast_S1x64_S32768x64_0_1),
    StableHlo.TRef.binary (.of main_v349 : StableHlo.TRef sig ⟨S32768x64, .f32⟩) (.of main_call8_v4 : StableHlo.TRef sig ⟨S32768x64, .f32⟩) (.of main_call8_v5 : StableHlo.TRef sig ⟨S32768x64, .f32⟩) subf,
    StableHlo.TRef.binary (.of main_call8_v5 : StableHlo.TRef sig ⟨S32768x64, .f32⟩) (.of main_call8_v5 : StableHlo.TRef sig ⟨S32768x64, .f32⟩) (.of main_call8_v6 : StableHlo.TRef sig ⟨S32768x64, .f32⟩) mulf,
    StableHlo.TRef.unary (.of main_c_50 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47000000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S32768x64, .f32⟩) (.of main_call8_cst_2 : StableHlo.TRef sig ⟨S_, .f32⟩) (.of main_call8_v9 : StableHlo.TRef sig ⟨S64, .f32⟩) (fun x v => Host.reduceAdd x v reducesTo_S32768x64_S64_d0 h_S_),
    StableHlo.TRef.unary (.of main_call8_v8 : StableHlo.TRef sig ⟨S_, .f32⟩) (.of main_call8_v10 : StableHlo.TRef sig ⟨S64, .f32⟩) (broadcastInDim S64 ![] bcast_S_S64),
    StableHlo.TRef.binary (.of main_call8_v9 : StableHlo.TRef sig ⟨S64, .f32⟩) (.of main_call8_v10 : StableHlo.TRef sig ⟨S64, .f32⟩) (.of main_call8_v11 : StableHlo.TRef sig ⟨S64, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S64, .f32⟩) (broadcastInDim S64 ![] bcast_S_S64),
    StableHlo.TRef.ternary (.of main_call8_v12 : StableHlo.TRef sig ⟨S_, .i1⟩) (.of main_call8_v11 : StableHlo.TRef sig ⟨S64, .f32⟩) (.of main_call8_call0_v1 : StableHlo.TRef sig ⟨S64, .f32⟩) (.of main_v357 : StableHlo.TRef sig ⟨S64, .f32⟩) (fun p a b => select (broadcastInDim S64 ![] bcast_S_S64 p) a b),
    StableHlo.unary main_v356 main_v358 (broadcastInDim S1x64 ![1] bcast_S64_S1x64_1 : (⟨S64, .f32⟩ : BufTy).Contents (Elt F) → (⟨S1x64, .f32⟩ : BufTy).Contents (Elt F)),
    StableHlo.unary main_v358 main_v359 (broadcastInDim S32768x64 ![0, 1] bcast_S1x64_S32768x64_0_1 : (⟨S1x64, .f32⟩ : BufTy).Contents (Elt F) → (⟨S32768x64, .f32⟩ : BufTy).Contents (Elt F)),
    StableHlo.binary main_v349 main_v359 main_v360 (subf : (⟨S32768x64, .f32⟩ : BufTy).Contents (Elt F) → (⟨S32768x64, .f32⟩ : BufTy).Contents (Elt F) → (⟨S32768x64, .f32⟩ : BufTy).Contents (Elt F)),
    StableHlo.unary main_v351 main_v361 (broadcastInDim S1x64 ![1] bcast_S64_S1x64_1 : (⟨S64, .f32⟩ : BufTy).Contents (Elt F) → (⟨S1x64, .f32⟩ : BufTy).Contents (Elt F)),
    StableHlo.unary main_v361 main_v362 (broadcastInDim S32768x64 ![0, 1] bcast_S1x64_S32768x64_0_1 : (⟨S1x64, .f32⟩ : BufTy).Contents (Elt F) → (⟨S32768x64, .f32⟩ : BufTy).Contents (Elt F)),
    StableHlo.binary main_v362 main_v360 main_v363 (mulf : (⟨S32768x64, .f32⟩ : BufTy).Contents (Elt F) → (⟨S32768x64, .f32⟩ : BufTy).Contents (Elt F) → (⟨S32768x64, .f32⟩ : BufTy).Contents (Elt F)),
    StableHlo.nullary main_cst_51 (constant S_ .f32 0x3727C5AC#32),
    StableHlo.unary main_cst_51 main_v364 (broadcastInDim S64 ![] bcast_S_S64 : (⟨S_, .f32⟩ : BufTy).Contents (Elt F) → (⟨S64, .f32⟩ : BufTy).Contents (Elt F)),
    StableHlo.binary main_v357 main_v364 main_v365 (addf : (⟨S64, .f32⟩ : BufTy).Contents (Elt F) → (⟨S64, .f32⟩ : BufTy).Contents (Elt F) → (⟨S64, .f32⟩ : BufTy).Contents (Elt F)),
    StableHlo.unary main_v365 main_v366 (Host.rsqrt : (⟨S64, .f32⟩ : BufTy).Contents (Elt F) → (⟨S64, .f32⟩ : BufTy).Contents (Elt F)),
    StableHlo.unary main_v366 main_v367 (broadcastInDim S1x64 ![1] bcast_S64_S1x64_1 : (⟨S64, .f32⟩ : BufTy).Contents (Elt F) → (⟨S1x64, .f32⟩ : BufTy).Contents (Elt F)),
    StableHlo.unary main_v367 main_v368 (broadcastInDim S32768x64 ![0, 1] bcast_S1x64_S32768x64_0_1 : (⟨S1x64, .f32⟩ : BufTy).Contents (Elt F) → (⟨S32768x64, .f32⟩ : BufTy).Contents (Elt F)),
    StableHlo.binary main_v363 main_v368 main_v369 (mulf : (⟨S32768x64, .f32⟩ : BufTy).Contents (Elt F) → (⟨S32768x64, .f32⟩ : BufTy).Contents (Elt F) → (⟨S32768x64, .f32⟩ : BufTy).Contents (Elt F)),
    StableHlo.unary main_v353 main_v370 (broadcastInDim S1x64 ![1] bcast_S64_S1x64_1 : (⟨S64, .f32⟩ : BufTy).Contents (Elt F) → (⟨S1x64, .f32⟩ : BufTy).Contents (Elt F)),
    StableHlo.unary main_v370 main_v371 (broadcastInDim S32768x64 ![0, 1] bcast_S1x64_S32768x64_0_1 : (⟨S1x64, .f32⟩ : BufTy).Contents (Elt F) → (⟨S32768x64, .f32⟩ : BufTy).Contents (Elt F)),
    StableHlo.binary main_v369 main_v371 main_v372 (addf : (⟨S32768x64, .f32⟩ : BufTy).Contents (Elt F) → (⟨S32768x64, .f32⟩ : BufTy).Contents (Elt F) → (⟨S32768x64, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S32768x64, .f32⟩) (broadcastInDim S32768x64 ![] bcast_S_S32768x64),
    StableHlo.TRef.binary (.of main_v372 : StableHlo.TRef sig ⟨S32768x64, .f32⟩) (.of main_call9_v0 : StableHlo.TRef sig ⟨S32768x64, .f32⟩) (.of main_v373 : StableHlo.TRef sig ⟨S32768x64, .f32⟩) maximumf,
    StableHlo.binary main_v244 main_v373 main_v374 (addf : (⟨S32768x64, .f32⟩ : BufTy).Contents (Elt F) → (⟨S32768x64, .f32⟩ : BufTy).Contents (Elt F) → (⟨S32768x64, .f32⟩ : BufTy).Contents (Elt F)) ]

/-- Chunk 15: 52 operations, through %399. -/
abbrev rops15 : List (HloOp τ sig (Elt F)) :=
  [ StableHlo.unary main_arg23 main_v375 ((extractStridedSlice S1x64 ![2, 0] · slices_S3x64_S1x64_2_0) : (⟨S3x64, .f32⟩ : BufTy).Contents (Elt F) → (⟨S1x64, .f32⟩ : BufTy).Contents (Elt F)),
    StableHlo.reshape main_v375 main_v376 rfl shapeCasts_S1x64_S64,
    StableHlo.unary main_arg24 main_v377 ((extractStridedSlice S1x64 ![2, 0] · slices_S3x64_S1x64_2_0) : (⟨S3x64, .f32⟩ : BufTy).Contents (Elt F) → (⟨S1x64, .f32⟩ : BufTy).Contents (Elt F)),
    StableHlo.reshape main_v377 main_v378 rfl shapeCasts_S1x64_S64,
    StableHlo.nullary main_cst_52 (constant S_ .f32 0x00000000#32),
    StableHlo.binary main_v325 main_cst_52 main_v379 ((fun x v => Host.reduceAdd x v reducesTo_S524288x64_S64_d0 h_S_) : (⟨S524288x64, .f32⟩ : BufTy).Contents (Elt F) → (⟨S_, .f32⟩ : BufTy).Contents (Elt F) → (⟨S64, .f32⟩ : BufTy).Contents (Elt F)),
    StableHlo.nullary main_cst_53 (constant S_ .f32 0x49000000#32),
    StableHlo.unary main_cst_53 main_v380 (broadcastInDim S64 ![] bcast_S_S64 : (⟨S_, .f32⟩ : BufTy).Contents (Elt F) → (⟨S64, .f32⟩ : BufTy).Contents (Elt F)),
    StableHlo.binary main_v379 main_v380 main_v381 (Host.divf : (⟨S64, .f32⟩ : BufTy).Contents (Elt F) → (⟨S64, .f32⟩ : BufTy).Contents (Elt F) → (⟨S64, .f32⟩ : BufTy).Contents (Elt F)),
    StableHlo.nullary main_c_54 (constantI S_ 32 0#32),
    StableHlo.TRef.nullary (.of main_call10_cst : StableHlo.TRef sig ⟨S_, .f32⟩) (constant S_ .f32 0x00000000#32),
    StableHlo.TRef.binary (.of main_v325 : StableHlo.TRef sig ⟨S524288x64, .f32⟩) (.of main_call10_cst : StableHlo.TRef sig ⟨S_, .f32⟩) (.of main_call10_v0 : StableHlo.TRef sig ⟨S64, .f32⟩) (fun x v => Host.reduceAdd x v reducesTo_S524288x64_S64_d0 h_S_),
    StableHlo.TRef.unary (.of main_call10_v0 : StableHlo.TRef sig ⟨S64, .f32⟩) (.of main_call10_v1 : StableHlo.TRef sig ⟨S1x64, .f32⟩) (broadcastInDim S1x64 ![1] bcast_S64_S1x64_1),
    StableHlo.TRef.nullary (.of main_call10_cst_0 : StableHlo.TRef sig ⟨S_, .f32⟩) (constant S_ .f32 0x49000000#32),
    StableHlo.TRef.unary (.of main_call10_cst_0 : StableHlo.TRef sig ⟨S_, .f32⟩) (.of main_call10_v2 : StableHlo.TRef sig ⟨S1x64, .f32⟩) (broadcastInDim S1x64 ![] bcast_S_S1x64),
    StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf,
    StableHlo.TRef.unary (.of main_call10_v3 : StableHlo.TRef sig ⟨S1x64, .f32⟩) (.of main_call10_v4 : StableHlo.TRef sig ⟨S524288x64, .f32⟩) (broadcastInDim S524288x64 ![0, 1] bcast_S1x64_S524288x64_0_1),
    StableHlo.TRef.binary (.of main_v325 : StableHlo.TRef sig ⟨S524288x64, .f32⟩) (.of main_call10_v4 : StableHlo.TRef sig ⟨S524288x64, .f32⟩) (.of main_call10_v5 : StableHlo.TRef sig ⟨S524288x64, .f32⟩) subf,
    StableHlo.TRef.binary (.of main_call10_v5 : StableHlo.TRef sig ⟨S524288x64, .f32⟩) (.of main_call10_v5 : StableHlo.TRef sig ⟨S524288x64, .f32⟩) (.of main_call10_v6 : StableHlo.TRef sig ⟨S524288x64, .f32⟩) mulf,
    StableHlo.TRef.unary (.of main_c_54 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x49000000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S524288x64, .f32⟩) (.of main_call10_cst_2 : StableHlo.TRef sig ⟨S_, .f32⟩) (.of main_call10_v9 : StableHlo.TRef sig ⟨S64, .f32⟩) (fun x v => Host.reduceAdd x v reducesTo_S524288x64_S64_d0 h_S_),
    StableHlo.TRef.unary (.of main_call10_v8 : StableHlo.TRef sig ⟨S_, .f32⟩) (.of main_call10_v10 : StableHlo.TRef sig ⟨S64, .f32⟩) (broadcastInDim S64 ![] bcast_S_S64),
    StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S64, .f32⟩) (broadcastInDim S64 ![] bcast_S_S64),
    StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v382 : StableHlo.TRef sig ⟨S64, .f32⟩) (fun p a b => select (broadcastInDim S64 ![] bcast_S_S64 p) a b),
    StableHlo.unary main_v381 main_v383 (broadcastInDim S1x64 ![1] bcast_S64_S1x64_1 : (⟨S64, .f32⟩ : BufTy).Contents (Elt F) → (⟨S1x64, .f32⟩ : BufTy).Contents (Elt F)),
    StableHlo.unary main_v383 main_v384 (broadcastInDim S524288x64 ![0, 1] bcast_S1x64_S524288x64_0_1 : (⟨S1x64, .f32⟩ : BufTy).Contents (Elt F) → (⟨S524288x64, .f32⟩ : BufTy).Contents (Elt F)),
    StableHlo.binary main_v325 main_v384 main_v385 (subf : (⟨S524288x64, .f32⟩ : BufTy).Contents (Elt F) → (⟨S524288x64, .f32⟩ : BufTy).Contents (Elt F) → (⟨S524288x64, .f32⟩ : BufTy).Contents (Elt F)),
    StableHlo.unary main_v376 main_v386 (broadcastInDim S1x64 ![1] bcast_S64_S1x64_1 : (⟨S64, .f32⟩ : BufTy).Contents (Elt F) → (⟨S1x64, .f32⟩ : BufTy).Contents (Elt F)),
    StableHlo.unary main_v386 main_v387 (broadcastInDim S524288x64 ![0, 1] bcast_S1x64_S524288x64_0_1 : (⟨S1x64, .f32⟩ : BufTy).Contents (Elt F) → (⟨S524288x64, .f32⟩ : BufTy).Contents (Elt F)),
    StableHlo.binary main_v387 main_v385 main_v388 (mulf : (⟨S524288x64, .f32⟩ : BufTy).Contents (Elt F) → (⟨S524288x64, .f32⟩ : BufTy).Contents (Elt F) → (⟨S524288x64, .f32⟩ : BufTy).Contents (Elt F)),
    StableHlo.nullary main_cst_55 (constant S_ .f32 0x3727C5AC#32),
    StableHlo.unary main_cst_55 main_v389 (broadcastInDim S64 ![] bcast_S_S64 : (⟨S_, .f32⟩ : BufTy).Contents (Elt F) → (⟨S64, .f32⟩ : BufTy).Contents (Elt F)),
    StableHlo.binary main_v382 main_v389 main_v390 (addf : (⟨S64, .f32⟩ : BufTy).Contents (Elt F) → (⟨S64, .f32⟩ : BufTy).Contents (Elt F) → (⟨S64, .f32⟩ : BufTy).Contents (Elt F)),
    StableHlo.unary main_v390 main_v391 (Host.rsqrt : (⟨S64, .f32⟩ : BufTy).Contents (Elt F) → (⟨S64, .f32⟩ : BufTy).Contents (Elt F)),
    StableHlo.unary main_v391 main_v392 (broadcastInDim S1x64 ![1] bcast_S64_S1x64_1 : (⟨S64, .f32⟩ : BufTy).Contents (Elt F) → (⟨S1x64, .f32⟩ : BufTy).Contents (Elt F)),
    StableHlo.unary main_v392 main_v393 (broadcastInDim S524288x64 ![0, 1] bcast_S1x64_S524288x64_0_1 : (⟨S1x64, .f32⟩ : BufTy).Contents (Elt F) → (⟨S524288x64, .f32⟩ : BufTy).Contents (Elt F)),
    StableHlo.binary main_v388 main_v393 main_v394 (mulf : (⟨S524288x64, .f32⟩ : BufTy).Contents (Elt F) → (⟨S524288x64, .f32⟩ : BufTy).Contents (Elt F) → (⟨S524288x64, .f32⟩ : BufTy).Contents (Elt F)),
    StableHlo.unary main_v378 main_v395 (broadcastInDim S1x64 ![1] bcast_S64_S1x64_1 : (⟨S64, .f32⟩ : BufTy).Contents (Elt F) → (⟨S1x64, .f32⟩ : BufTy).Contents (Elt F)),
    StableHlo.unary main_v395 main_v396 (broadcastInDim S524288x64 ![0, 1] bcast_S1x64_S524288x64_0_1 : (⟨S1x64, .f32⟩ : BufTy).Contents (Elt F) → (⟨S524288x64, .f32⟩ : BufTy).Contents (Elt F)),
    StableHlo.binary main_v394 main_v396 main_v397 (addf : (⟨S524288x64, .f32⟩ : BufTy).Contents (Elt F) → (⟨S524288x64, .f32⟩ : BufTy).Contents (Elt F) → (⟨S524288x64, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S524288x64, .f32⟩) (broadcastInDim S524288x64 ![] bcast_S_S524288x64),
    StableHlo.TRef.binary (.of main_v397 : StableHlo.TRef sig ⟨S524288x64, .f32⟩) (.of main_call11_v0 : StableHlo.TRef sig ⟨S524288x64, .f32⟩) (.of main_v398 : StableHlo.TRef sig ⟨S524288x64, .f32⟩) maximumf,
    StableHlo.binary main_v269 main_v398 main_v399 (addf : (⟨S524288x64, .f32⟩ : BufTy).Contents (Elt F) → (⟨S524288x64, .f32⟩ : BufTy).Contents (Elt F) → (⟨S524288x64, .f32⟩ : BufTy).Contents (Elt F)) ]

end Cert.ReferenceIdeal.Hand

end
-- ==== Proof.RI.Ops3.lean ====
/- Chunks 16 … 17 of the reference program's operations: @main's statements in order, each func.call replaced by the
   callee's statements over that call's buffer record. -/
import proofs.«142356_j74423193305351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Chunk 16: 17 operations, through %412. -/
abbrev rops16 : List (HloOp τ sig (Elt F)) :=
  [ StableHlo.nullary main_cst_56 (constant S_ .f32 0x3F800000#32),
    StableHlo.unary main_cst_56 main_v400 (broadcastInDim S32768 ![] bcast_S_S32768 : (⟨S_, .f32⟩ : BufTy).Contents (Elt F) → (⟨S32768, .f32⟩ : BufTy).Contents (Elt F)),
    StableHlo.nullary main_cst_57 (constant S_ .f32 0x00000000#32),
    StableHlo.unary main_cst_57 main_v401 (broadcastInDim S256 ![] bcast_S_S256 : (⟨S_, .f32⟩ : BufTy).Contents (Elt F) → (⟨S256, .f32⟩ : BufTy).Contents (Elt F)),
    StableHlo.unary main_arg4 main_v402 (broadcastInDim S32768x1 ![0] bcast_S32768_S32768x1_0 : (⟨S32768, .i32⟩ : BufTy).Contents (Elt F) → (⟨S32768x1, .i32⟩ : BufTy).Contents (Elt F)),
    StableHlo.ternary main_v401 main_v402 main_v400 main_v403 ((fun x i u => Host.scatterAdd scatter_S256_S32768x1_S32768_n_0_0_1 x i u) : (⟨S256, .f32⟩ : BufTy).Contents (Elt F) → (⟨S32768x1, .i32⟩ : BufTy).Contents (Elt F) → (⟨S32768, .f32⟩ : BufTy).Contents (Elt F) → (⟨S256, .f32⟩ : BufTy).Contents (Elt F)),
    StableHlo.nullary main_cst_58 (constant S_ .f32 0x00000000#32),
    StableHlo.unary main_cst_58 main_v404 (broadcastInDim S256x64 ![] bcast_S_S256x64 : (⟨S_, .f32⟩ : BufTy).Contents (Elt F) → (⟨S256x64, .f32⟩ : BufTy).Contents (Elt F)),
    StableHlo.unary main_arg4 main_v405 (broadcastInDim S32768x1 ![0] bcast_S32768_S32768x1_0 : (⟨S32768, .i32⟩ : BufTy).Contents (Elt F) → (⟨S32768x1, .i32⟩ : BufTy).Contents (Elt F)),
    StableHlo.ternary main_v404 main_v405 main_v374 main_v406 ((fun x i u => Host.scatterAdd scatter_S256x64_S32768x1_S32768x64_1_0_0_1 x i u) : (⟨S256x64, .f32⟩ : BufTy).Contents (Elt F) → (⟨S32768x1, .i32⟩ : BufTy).Contents (Elt F) → (⟨S32768x64, .f32⟩ : BufTy).Contents (Elt F) → (⟨S256x64, .f32⟩ : BufTy).Contents (Elt F)),
    StableHlo.nullary main_cst_59 (constant S_ .f32 0x3F800000#32),
    StableHlo.unary main_cst_59 main_v407 (broadcastInDim S256 ![] bcast_S_S256 : (⟨S_, .f32⟩ : BufTy).Contents (Elt F) → (⟨S256, .f32⟩ : BufTy).Contents (Elt F)),
    StableHlo.binary main_v403 main_v407 main_v408 (maximumf : (⟨S256, .f32⟩ : BufTy).Contents (Elt F) → (⟨S256, .f32⟩ : BufTy).Contents (Elt F) → (⟨S256, .f32⟩ : BufTy).Contents (Elt F)),
    StableHlo.unary main_v408 main_v409 (broadcastInDim S256x1 ![0] bcast_S256_S256x1_0 : (⟨S256, .f32⟩ : BufTy).Contents (Elt F) → (⟨S256x1, .f32⟩ : BufTy).Contents (Elt F)),
    StableHlo.unary main_v409 main_v410 (broadcastInDim S256x64 ![0, 1] bcast_S256x1_S256x64_0_1 : (⟨S256x1, .f32⟩ : BufTy).Contents (Elt F) → (⟨S256x64, .f32⟩ : BufTy).Contents (Elt F)),
    StableHlo.binary main_v406 main_v410 main_v411 (Host.divf : (⟨S256x64, .f32⟩ : BufTy).Contents (Elt F) → (⟨S256x64, .f32⟩ : BufTy).Contents (Elt F) → (⟨S256x64, .f32⟩ : BufTy).Contents (Elt F)),
    StableHlo.nary ![main_v411, main_arg5, main_arg6] main_v412 (fun u => concatenate S256x82 1 [⟨S256x64, u 0⟩, ⟨S256x16, u 1⟩, ⟨S256x2, u 2⟩] concatenates_S256x64_S256x16_S256x2_S256x82_d1) ]

/-- Chunk 17: 18 operations, through %426. -/
abbrev rops17 : List (HloOp τ sig (Elt F)) :=
  [ StableHlo.binary main_v412 main_arg25 main_v413 ((fun l r => Host.dotGeneral dot_S256x82_S82x256_S256x256_1_0_0_1_n_n none l r) : (⟨S256x82, .f32⟩ : BufTy).Contents (Elt F) → (⟨S82x256, .f32⟩ : BufTy).Contents (Elt F) → (⟨S256x256, .f32⟩ : BufTy).Contents (Elt F)),
    StableHlo.unary main_arg26 main_v414 (broadcastInDim S1x256 ![1] bcast_S256_S1x256_1 : (⟨S256, .f32⟩ : BufTy).Contents (Elt F) → (⟨S1x256, .f32⟩ : BufTy).Contents (Elt F)),
    StableHlo.unary main_v414 main_v415 (broadcastInDim S256x256 ![0, 1] bcast_S1x256_S256x256_0_1 : (⟨S1x256, .f32⟩ : BufTy).Contents (Elt F) → (⟨S256x256, .f32⟩ : BufTy).Contents (Elt F)),
    StableHlo.binary main_v413 main_v415 main_v416 (addf : (⟨S256x256, .f32⟩ : BufTy).Contents (Elt F) → (⟨S256x256, .f32⟩ : BufTy).Contents (Elt F) → (⟨S256x256, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S256x256, .f32⟩) (broadcastInDim S256x256 ![] bcast_S_S256x256),
    StableHlo.TRef.binary (.of main_v416 : StableHlo.TRef sig ⟨S256x256, .f32⟩) (.of main_call12_v0 : StableHlo.TRef sig ⟨S256x256, .f32⟩) (.of main_v417 : StableHlo.TRef sig ⟨S256x256, .f32⟩) maximumf,
    StableHlo.binary main_v417 main_arg27 main_v418 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg28 main_v419 (broadcastInDim S1x256 ![1] bcast_S256_S1x256_1 : (⟨S256, .f32⟩ : BufTy).Contents (Elt F) → (⟨S1x256, .f32⟩ : BufTy).Contents (Elt F)),
    StableHlo.unary main_v419 main_v420 (broadcastInDim S256x256 ![0, 1] bcast_S1x256_S256x256_0_1 : (⟨S1x256, .f32⟩ : BufTy).Contents (Elt F) → (⟨S256x256, .f32⟩ : BufTy).Contents (Elt F)),
    StableHlo.binary main_v418 main_v420 main_v421 (addf : (⟨S256x256, .f32⟩ : BufTy).Contents (Elt F) → (⟨S256x256, .f32⟩ : BufTy).Contents (Elt F) → (⟨S256x256, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S256x256, .f32⟩) (broadcastInDim S256x256 ![] bcast_S_S256x256),
    StableHlo.TRef.binary (.of main_v421 : StableHlo.TRef sig ⟨S256x256, .f32⟩) (.of main_call13_v0 : StableHlo.TRef sig ⟨S256x256, .f32⟩) (.of main_v422 : StableHlo.TRef sig ⟨S256x256, .f32⟩) maximumf,
    StableHlo.binary main_v422 main_arg29 main_v423 ((fun l r => Host.dotGeneral dot_S256x256_S256x1_S256x1_1_0_0_1_n_n none l r) : (⟨S256x256, .f32⟩ : BufTy).Contents (Elt F) → (⟨S256x1, .f32⟩ : BufTy).Contents (Elt F) → (⟨S256x1, .f32⟩ : BufTy).Contents (Elt F)),
    StableHlo.unary main_arg30 main_v424 (broadcastInDim S1x1 ![1] bcast_S1_S1x1_1 : (⟨S1, .f32⟩ : BufTy).Contents (Elt F) → (⟨S1x1, .f32⟩ : BufTy).Contents (Elt F)),
    StableHlo.unary main_v424 main_v425 (broadcastInDim S256x1 ![0, 1] bcast_S1x1_S256x1_0_1 : (⟨S1x1, .f32⟩ : BufTy).Contents (Elt F) → (⟨S256x1, .f32⟩ : BufTy).Contents (Elt F)),
    StableHlo.binary main_v423 main_v425 main_v426 (addf : (⟨S256x1, .f32⟩ : BufTy).Contents (Elt F) → (⟨S256x1, .f32⟩ : BufTy).Contents (Elt F) → (⟨S256x1, .f32⟩ : BufTy).Contents (Elt F)) ]

end Cert.ReferenceIdeal.Hand

end
-- ==== Proof.RI.Basic.lean ====
/- Small general facts for the reference program's run: what an argument reference is, a property over a concatenation
   of lists, the contents after two lines, and three tactics over a literal line of operations. -/
import proofs.«142356_j74423193305351_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-- A reference among @main's arguments: `main_arg0 … main_arg30` are the HBM buffers 0 … 30 of the printed signature, whose
    table gives no other space a buffer (`nBuf`), so a TensorCore reference of index below 31 is one of them. -/
def IsArg (r : Ref sig .tc) : Prop := r.idx.val < 31

instance (r : Ref sig .tc) : Decidable (IsArg r) := Nat.decLt _ _

/-- A reference that is an argument differs from one that is not. -/
theorem ne_of_isArg {r y : Ref sig .tc} (hr : IsArg r) (hy : ¬ IsArg y) : r ≠ y := fun e => hy (e ▸ hr)

/-- A property of every element of every list of a family holds of every element of the family's concatenation. -/
theorem forall_mem_flatten {α : Type} {p : α → Prop} {Ls : List (List α)} (h : Ls.Forall fun l => ∀ a ∈ l, p a) :
    ∀ a ∈ Ls.flatten, p a := fun a ha => by
  obtain ⟨l, hl, hal⟩ := List.mem_flatten.mp ha
  exact List.forall_iff_forall_mem.mp h l hl a hal

/-- The contents after two lines run one after the other: the second's, from the first's. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Every operation of a literal line built by the StableHLO builders touches TensorCore references only. -/
macro "bufs_sub_line" ops:ident : tactic =>
  `(tactic| simp only [$ops:ident, List.Forall, nullary_bufs_sub, unary_bufs_sub, binary_bufs_sub, ternary_bufs_sub, reshape_bufs_sub,
      nary_bufs_sub, and_self])

/-- No operation of a literal line writes an argument: each writes its one result reference, which is no argument. -/
macro "keeps_line" ops:ident hr:ident : tactic =>
  `(tactic| (simp only [$ops:ident, List.Forall, nullary_writes, unary_writes, binary_writes, ternary_writes, reshape_writes, nary_writes,
      Finset.mem_singleton]
             repeat' apply And.intro
             all_goals exact devRef_ne_of_ne (ne_of_isArg $hr (by decide))))

/-- Every operation of a literal line determines its results. -/
macro "fresh_line" : tactic =>
  `(tactic| (intro _ h; (repeat (cases h with | head => rfl | tail _ h => ?_)); exact nomatch h))

end Cert.ReferenceIdeal.Hand

end
-- ==== Proof.RI.Main.lean ====
/- The reference program's @main as ONE straight line of StableHLO operations. The operations are the eighteen chunks
   `rops0 … rops17` of RI/Ops0 … Ops3 end to end, every func.call already replaced by its callee's statements; here: each
   of @main's nine printed windows is the line of its slice of that list, and @main the line of the whole. -/
import proofs.«142356_j74423193305351_1_alg».proof.Proof.RI.Ops0
import proofs.«142356_j74423193305351_1_alg».proof.Proof.RI.Ops1
import proofs.«142356_j74423193305351_1_alg».proof.Proof.RI.Ops2
import proofs.«142356_j74423193305351_1_alg».proof.Proof.RI.Ops3
import proofs.«142356_j74423193305351_1_alg».proof.Proof.RI.Basic
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 631 operations, in order: the eighteen chunks end to end. -/
abbrev ops : List (HloOp τ sig (Elt F)) :=
  List.flatten [rops0, rops1, rops2, rops3, rops4, rops5, rops6, rops7, rops8, rops9, rops10, rops11, rops12, rops13, rops14,
    rops15, rops16, rops17]

/-! ## The windows

A window of @main is a `do` block of sixty statements, a call among them standing for its callee's body over the
call's buffer record; the line of the matching slice of the list is the same program once the calls and `seq` are
unfolded and the binds re-associated, which is a computation: both sides reduce to one chain of operation steps. The
slices are counted in operations, not statements (a call of `_var` is twenty-two, of a `relu` three), so a window's
slice starts and ends inside a chunk: `take` / `drop`. -/

/-- The operations of window 0 of @main. -/
abbrev wops0 : List (HloOp τ sig (Elt F)) := rops0 ++ rops1 ++ (rops2.take 9)
/-- The operations of window 1 of @main. -/
abbrev wops1 : List (HloOp τ sig (Elt F)) := (rops2.drop 9) ++ rops3 ++ (rops4.take 39)
/-- The operations of window 2 of @main. -/
abbrev wops2 : List (HloOp τ sig (Elt F)) := (rops4.drop 39) ++ rops5 ++ (rops6.take 20)
/-- The operations of window 3 of @main. -/
abbrev wops3 : List (HloOp τ sig (Elt F)) := (rops6.drop 20) ++ rops7 ++ (rops8.take 2)
/-- The operations of window 4 of @main. -/
abbrev wops4 : List (HloOp τ sig (Elt F)) := (rops8.drop 2) ++ rops9 ++ (rops10.take 41)
/-- The operations of window 5 of @main. -/
abbrev wops5 : List (HloOp τ sig (Elt F)) := (rops10.drop 41) ++ rops11 ++ (rops12.take 11)
/-- The operations of window 6 of @main. -/
abbrev wops6 : List (HloOp τ sig (Elt F)) := (rops12.drop 11) ++ rops13 ++ (rops14.take 41)
/-- The operations of window 7 of @main. -/
abbrev wops7 : List (HloOp τ sig (Elt F)) := (rops14.drop 41) ++ rops15 ++ rops16 ++ (rops17.take 7)
/-- The operations of window 8 of @main. -/
abbrev wops8 : List (HloOp τ sig (Elt F)) := (rops17.drop 7)

set_option maxRecDepth 8192 in
theorem main_part0_eq (c : Dev nD) : main_part0 (F := F) c = seq wops0 := by
  chain_rfl

set_option maxRecDepth 8192 in
theorem main_part1_eq (c : Dev nD) : main_part1 (F := F) c = seq wops1 := by
  chain_rfl

set_option maxRecDepth 8192 in
theorem main_part2_eq (c : Dev nD) : main_part2 (F := F) c = seq wops2 := by
  chain_rfl

set_option maxRecDepth 8192 in
theorem main_part3_eq (c : Dev nD) : main_part3 (F := F) c = seq wops3 := by
  chain_rfl

set_option maxRecDepth 8192 in
theorem main_part4_eq (c : Dev nD) : main_part4 (F := F) c = seq wops4 := by
  chain_rfl

set_option maxRecDepth 8192 in
theorem main_part5_eq (c : Dev nD) : main_part5 (F := F) c = seq wops5 := by
  chain_rfl

set_option maxRecDepth 8192 in
theorem main_part6_eq (c : Dev nD) : main_part6 (F := F) c = seq wops6 := by
  chain_rfl

set_option maxRecDepth 8192 in
theorem main_part7_eq (c : Dev nD) : main_part7 (F := F) c = seq wops7 := by
  chain_rfl

set_option maxRecDepth 8192 in
theorem main_part8_eq (c : Dev nD) : main_part8 (F := F) c = seq wops8 := by
  chain_rfl

/-- The nine slices end to end are the whole list (a chunk cut by a window boundary is its `take` then its `drop`):
    by computation on the literal lists. -/
theorem windows_eq :
    wops0 ++ (wops1 ++ (wops2 ++ (wops3 ++ (wops4 ++ (wops5 ++ (wops6 ++ (wops7 ++ wops8)))))))
      = (ops : List (HloOp τ sig (Elt F))) := by
  chain_rfl

/-- @main is the straight line of the list: its windows in order, each the line of its slice (`seq_append` joins them). -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c >>= fun _ => main_part5 (F := F) c >>= fun _ =>
    main_part6 (F := F) c >>= fun _ => main_part7 (F := F) c >>= fun _ => main_part8 (F := F) c) = _
  rewrite [main_part0_eq, main_part1_eq, main_part2_eq, main_part3_eq, main_part4_eq, main_part5_eq, main_part6_eq,
    main_part7_eq, main_part8_eq, ← seq_append, ← seq_append, ← seq_append, ← seq_append, ← seq_append, ← seq_append,
    ← seq_append, ← seq_append]
  exact congrArg seq windows_eq

/-! ## Walking the chunks -/

/-- The contents after the whole list: chunk by chunk. -/
theorem after_ops (V : Valuation τ sig (Elt F)) :
    after ops V
      = after rops17 (after rops16 (after rops15 (after rops14 (after rops13 (after rops12 (after rops11 (after rops10
          (after rops9 (after rops8 (after rops7 (after rops6 (after rops5 (after rops4 (after rops3 (after rops2
          (after rops1 (after rops0 V))))))))))))))))) := by
  simp only [ops, List.flatten_cons, List.flatten_nil, List.append_nil, after_app]

end Cert.ReferenceIdeal.Hand

end
-- ==== Proof.RI.Facts0.lean ====
/- Of each of the chunks 0 … 5 of the reference's operations: every operation touches TensorCore references only, none
   writes an argument of @main, and each determines its results. -/
import proofs.«142356_j74423193305351_1_alg».proof.Proof.RI.Ops0
import proofs.«142356_j74423193305351_1_alg».proof.Proof.RI.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem rops0_sub : (rops0 : List (HloOp τ sig (Elt F))).Forall fun op => op.bufs ⊆ tcRefs τ sig := by
  bufs_sub_line rops0

theorem rops0_keep {r : Ref sig .tc} (hr : IsArg r) :
    ∀ op ∈ (rops0 : List (HloOp τ sig (Elt F))), (Proc.devRef .tc r : DevRef τ sig) ∉ op.writes :=
  List.forall_iff_forall_mem.mp (by keeps_line rops0 hr)

theorem rops0_fresh : ∀ op ∈ (rops0 : List (HloOp τ sig (Elt F))), op.fresh = ∅ := by
  fresh_line

theorem rops1_sub : (rops1 : List (HloOp τ sig (Elt F))).Forall fun op => op.bufs ⊆ tcRefs τ sig := by
  bufs_sub_line rops1

theorem rops1_keep {r : Ref sig .tc} (hr : IsArg r) :
    ∀ op ∈ (rops1 : List (HloOp τ sig (Elt F))), (Proc.devRef .tc r : DevRef τ sig) ∉ op.writes :=
  List.forall_iff_forall_mem.mp (by keeps_line rops1 hr)

theorem rops1_fresh : ∀ op ∈ (rops1 : List (HloOp τ sig (Elt F))), op.fresh = ∅ := by
  fresh_line

theorem rops2_sub : (rops2 : List (HloOp τ sig (Elt F))).Forall fun op => op.bufs ⊆ tcRefs τ sig := by
  bufs_sub_line rops2

theorem rops2_keep {r : Ref sig .tc} (hr : IsArg r) :
    ∀ op ∈ (rops2 : List (HloOp τ sig (Elt F))), (Proc.devRef .tc r : DevRef τ sig) ∉ op.writes :=
  List.forall_iff_forall_mem.mp (by keeps_line rops2 hr)

theorem rops2_fresh : ∀ op ∈ (rops2 : List (HloOp τ sig (Elt F))), op.fresh = ∅ := by
  fresh_line

theorem rops3_sub : (rops3 : List (HloOp τ sig (Elt F))).Forall fun op => op.bufs ⊆ tcRefs τ sig := by
  bufs_sub_line rops3

theorem rops3_keep {r : Ref sig .tc} (hr : IsArg r) :
    ∀ op ∈ (rops3 : List (HloOp τ sig (Elt F))), (Proc.devRef .tc r : DevRef τ sig) ∉ op.writes :=
  List.forall_iff_forall_mem.mp (by keeps_line rops3 hr)

theorem rops3_fresh : ∀ op ∈ (rops3 : List (HloOp τ sig (Elt F))), op.fresh = ∅ := by
  fresh_line

theorem rops4_sub : (rops4 : List (HloOp τ sig (Elt F))).Forall fun op => op.bufs ⊆ tcRefs τ sig := by
  bufs_sub_line rops4

theorem rops4_keep {r : Ref sig .tc} (hr : IsArg r) :
    ∀ op ∈ (rops4 : List (HloOp τ sig (Elt F))), (Proc.devRef .tc r : DevRef τ sig) ∉ op.writes :=
  List.forall_iff_forall_mem.mp (by keeps_line rops4 hr)

theorem rops4_fresh : ∀ op ∈ (rops4 : List (HloOp τ sig (Elt F))), op.fresh = ∅ := by
  fresh_line

theorem rops5_sub : (rops5 : List (HloOp τ sig (Elt F))).Forall fun op => op.bufs ⊆ tcRefs τ sig := by
  bufs_sub_line rops5

theorem rops5_keep {r : Ref sig .tc} (hr : IsArg r) :
    ∀ op ∈ (rops5 : List (HloOp τ sig (Elt F))), (Proc.devRef .tc r : DevRef τ sig) ∉ op.writes :=
  List.forall_iff_forall_mem.mp (by keeps_line rops5 hr)

theorem rops5_fresh : ∀ op ∈ (rops5 : List (HloOp τ sig (Elt F))), op.fresh = ∅ := by
  fresh_line

end Cert.ReferenceIdeal.Hand

end
-- ==== Proof.RI.Facts1.lean ====
/- Of each of the chunks 6 … 10 of the reference's operations: every operation touches TensorCore references only, none
   writes an argument of @main, and each determines its results. -/
import proofs.«142356_j74423193305351_1_alg».proof.Proof.RI.Ops1
import proofs.«142356_j74423193305351_1_alg».proof.Proof.RI.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem rops6_sub : (rops6 : List (HloOp τ sig (Elt F))).Forall fun op => op.bufs ⊆ tcRefs τ sig := by
  bufs_sub_line rops6

theorem rops6_keep {r : Ref sig .tc} (hr : IsArg r) :
    ∀ op ∈ (rops6 : List (HloOp τ sig (Elt F))), (Proc.devRef .tc r : DevRef τ sig) ∉ op.writes :=
  List.forall_iff_forall_mem.mp (by keeps_line rops6 hr)

theorem rops6_fresh : ∀ op ∈ (rops6 : List (HloOp τ sig (Elt F))), op.fresh = ∅ := by
  fresh_line

theorem rops7_sub : (rops7 : List (HloOp τ sig (Elt F))).Forall fun op => op.bufs ⊆ tcRefs τ sig := by
  bufs_sub_line rops7

theorem rops7_keep {r : Ref sig .tc} (hr : IsArg r) :
    ∀ op ∈ (rops7 : List (HloOp τ sig (Elt F))), (Proc.devRef .tc r : DevRef τ sig) ∉ op.writes :=
  List.forall_iff_forall_mem.mp (by keeps_line rops7 hr)

theorem rops7_fresh : ∀ op ∈ (rops7 : List (HloOp τ sig (Elt F))), op.fresh = ∅ := by
  fresh_line

theorem rops8_sub : (rops8 : List (HloOp τ sig (Elt F))).Forall fun op => op.bufs ⊆ tcRefs τ sig := by
  bufs_sub_line rops8

theorem rops8_keep {r : Ref sig .tc} (hr : IsArg r) :
    ∀ op ∈ (rops8 : List (HloOp τ sig (Elt F))), (Proc.devRef .tc r : DevRef τ sig) ∉ op.writes :=
  List.forall_iff_forall_mem.mp (by keeps_line rops8 hr)

theorem rops8_fresh : ∀ op ∈ (rops8 : List (HloOp τ sig (Elt F))), op.fresh = ∅ := by
  fresh_line

theorem rops9_sub : (rops9 : List (HloOp τ sig (Elt F))).Forall fun op => op.bufs ⊆ tcRefs τ sig := by
  bufs_sub_line rops9

theorem rops9_keep {r : Ref sig .tc} (hr : IsArg r) :
    ∀ op ∈ (rops9 : List (HloOp τ sig (Elt F))), (Proc.devRef .tc r : DevRef τ sig) ∉ op.writes :=
  List.forall_iff_forall_mem.mp (by keeps_line rops9 hr)

theorem rops9_fresh : ∀ op ∈ (rops9 : List (HloOp τ sig (Elt F))), op.fresh = ∅ := by
  fresh_line

theorem rops10_sub : (rops10 : List (HloOp τ sig (Elt F))).Forall fun op => op.bufs ⊆ tcRefs τ sig := by
  bufs_sub_line rops10

theorem rops10_keep {r : Ref sig .tc} (hr : IsArg r) :
    ∀ op ∈ (rops10 : List (HloOp τ sig (Elt F))), (Proc.devRef .tc r : DevRef τ sig) ∉ op.writes :=
  List.forall_iff_forall_mem.mp (by keeps_line rops10 hr)

theorem rops10_fresh : ∀ op ∈ (rops10 : List (HloOp τ sig (Elt F))), op.fresh = ∅ := by
  fresh_line

end Cert.ReferenceIdeal.Hand

end
-- ==== Proof.RI.Facts2.lean ====
/- Of each of the chunks 11 … 15 of the reference's operations: every operation touches TensorCore references only, none
   writes an argument of @main, and each determines its results. -/
import proofs.«142356_j74423193305351_1_alg».proof.Proof.RI.Ops2
import proofs.«142356_j74423193305351_1_alg».proof.Proof.RI.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem rops11_sub : (rops11 : List (HloOp τ sig (Elt F))).Forall fun op => op.bufs ⊆ tcRefs τ sig := by
  bufs_sub_line rops11

theorem rops11_keep {r : Ref sig .tc} (hr : IsArg r) :
    ∀ op ∈ (rops11 : List (HloOp τ sig (Elt F))), (Proc.devRef .tc r : DevRef τ sig) ∉ op.writes :=
  List.forall_iff_forall_mem.mp (by keeps_line rops11 hr)

theorem rops11_fresh : ∀ op ∈ (rops11 : List (HloOp τ sig (Elt F))), op.fresh = ∅ := by
  fresh_line

theorem rops12_sub : (rops12 : List (HloOp τ sig (Elt F))).Forall fun op => op.bufs ⊆ tcRefs τ sig := by
  bufs_sub_line rops12

theorem rops12_keep {r : Ref sig .tc} (hr : IsArg r) :
    ∀ op ∈ (rops12 : List (HloOp τ sig (Elt F))), (Proc.devRef .tc r : DevRef τ sig) ∉ op.writes :=
  List.forall_iff_forall_mem.mp (by keeps_line rops12 hr)

theorem rops12_fresh : ∀ op ∈ (rops12 : List (HloOp τ sig (Elt F))), op.fresh = ∅ := by
  fresh_line

theorem rops13_sub : (rops13 : List (HloOp τ sig (Elt F))).Forall fun op => op.bufs ⊆ tcRefs τ sig := by
  bufs_sub_line rops13

theorem rops13_keep {r : Ref sig .tc} (hr : IsArg r) :
    ∀ op ∈ (rops13 : List (HloOp τ sig (Elt F))), (Proc.devRef .tc r : DevRef τ sig) ∉ op.writes :=
  List.forall_iff_forall_mem.mp (by keeps_line rops13 hr)

theorem rops13_fresh : ∀ op ∈ (rops13 : List (HloOp τ sig (Elt F))), op.fresh = ∅ := by
  fresh_line

theorem rops14_sub : (rops14 : List (HloOp τ sig (Elt F))).Forall fun op => op.bufs ⊆ tcRefs τ sig := by
  bufs_sub_line rops14

theorem rops14_keep {r : Ref sig .tc} (hr : IsArg r) :
    ∀ op ∈ (rops14 : List (HloOp τ sig (Elt F))), (Proc.devRef .tc r : DevRef τ sig) ∉ op.writes :=
  List.forall_iff_forall_mem.mp (by keeps_line rops14 hr)

theorem rops14_fresh : ∀ op ∈ (rops14 : List (HloOp τ sig (Elt F))), op.fresh = ∅ := by
  fresh_line

theorem rops15_sub : (rops15 : List (HloOp τ sig (Elt F))).Forall fun op => op.bufs ⊆ tcRefs τ sig := by
  bufs_sub_line rops15

theorem rops15_keep {r : Ref sig .tc} (hr : IsArg r) :
    ∀ op ∈ (rops15 : List (HloOp τ sig (Elt F))), (Proc.devRef .tc r : DevRef τ sig) ∉ op.writes :=
  List.forall_iff_forall_mem.mp (by keeps_line rops15 hr)

theorem rops15_fresh : ∀ op ∈ (rops15 : List (HloOp τ sig (Elt F))), op.fresh = ∅ := by
  fresh_line

end Cert.ReferenceIdeal.Hand

end
-- ==== Proof.RI.Facts3.lean ====
/- Of each of the chunks 16 … 17 of the reference's operations: every operation touches TensorCore references only, none
   writes an argument of @main, and each determines its results. -/
import proofs.«142356_j74423193305351_1_alg».proof.Proof.RI.Ops3
import proofs.«142356_j74423193305351_1_alg».proof.Proof.RI.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem rops16_sub : (rops16 : List (HloOp τ sig (Elt F))).Forall fun op => op.bufs ⊆ tcRefs τ sig := by
  bufs_sub_line rops16

theorem rops16_keep {r : Ref sig .tc} (hr : IsArg r) :
    ∀ op ∈ (rops16 : List (HloOp τ sig (Elt F))), (Proc.devRef .tc r : DevRef τ sig) ∉ op.writes :=
  List.forall_iff_forall_mem.mp (by keeps_line rops16 hr)

theorem rops16_fresh : ∀ op ∈ (rops16 : List (HloOp τ sig (Elt F))), op.fresh = ∅ := by
  fresh_line

theorem rops17_sub : (rops17 : List (HloOp τ sig (Elt F))).Forall fun op => op.bufs ⊆ tcRefs τ sig := by
  bufs_sub_line rops17

theorem rops17_keep {r : Ref sig .tc} (hr : IsArg r) :
    ∀ op ∈ (rops17 : List (HloOp τ sig (Elt F))), (Proc.devRef .tc r : DevRef τ sig) ∉ op.writes :=
  List.forall_iff_forall_mem.mp (by keeps_line rops17 hr)

theorem rops17_fresh : ∀ op ∈ (rops17 : List (HloOp τ sig (Elt F))), op.fresh = ∅ := by
  fresh_line

end Cert.ReferenceIdeal.Hand

end
-- ==== Proof.RI.Run.lean ====
/- The reference program's run and frame, by hand: from any memory with zero counters @main terminates with every
   TensorCore buffer at the fold of its 631 operations over the launch contents (`StableHlo.run_seq` at `main_eq`), and
   the fold leaves the thirty-one arguments as launched. -/
import proofs.«142356_j74423193305351_1_alg».proof.Proof.RI.Main
import proofs.«142356_j74423193305351_1_alg».proof.Proof.RI.Facts0
import proofs.«142356_j74423193305351_1_alg».proof.Proof.RI.Facts1
import proofs.«142356_j74423193305351_1_alg».proof.Proof.RI.Facts2
import proofs.«142356_j74423193305351_1_alg».proof.Proof.RI.Facts3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The side conditions of the run -/

/-- The signature scopes no TensorCore buffer. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every operation of the list touches TensorCore references only: chunk by chunk. -/
theorem ops_sub : (ops : List (HloOp τ sig (Elt F))).Forall fun op => op.bufs ⊆ tcRefs τ sig :=
  List.forall_iff_forall_mem.mpr (forall_mem_flatten (p := fun op : HloOp τ sig (Elt F) => op.bufs ⊆ tcRefs τ sig)
    ⟨List.forall_iff_forall_mem.mp rops0_sub,
     List.forall_iff_forall_mem.mp rops1_sub,
     List.forall_iff_forall_mem.mp rops2_sub,
     List.forall_iff_forall_mem.mp rops3_sub,
     List.forall_iff_forall_mem.mp rops4_sub,
     List.forall_iff_forall_mem.mp rops5_sub,
     List.forall_iff_forall_mem.mp rops6_sub,
     List.forall_iff_forall_mem.mp rops7_sub,
     List.forall_iff_forall_mem.mp rops8_sub,
     List.forall_iff_forall_mem.mp rops9_sub,
     List.forall_iff_forall_mem.mp rops10_sub,
     List.forall_iff_forall_mem.mp rops11_sub,
     List.forall_iff_forall_mem.mp rops12_sub,
     List.forall_iff_forall_mem.mp rops13_sub,
     List.forall_iff_forall_mem.mp rops14_sub,
     List.forall_iff_forall_mem.mp rops15_sub,
     List.forall_iff_forall_mem.mp rops16_sub,
     List.forall_iff_forall_mem.mp rops17_sub⟩)

/-- Every operation of the list determines its results: chunk by chunk. -/
theorem ops_fresh : ∀ op ∈ (ops : List (HloOp τ sig (Elt F))), op.fresh = ∅ :=
  forall_mem_flatten (p := fun op : HloOp τ sig (Elt F) => op.fresh = ∅)
    ⟨rops0_fresh, rops1_fresh, rops2_fresh, rops3_fresh, rops4_fresh, rops5_fresh, rops6_fresh, rops7_fresh, rops8_fresh, rops9_fresh, rops10_fresh, rops11_fresh, rops12_fresh, rops13_fresh, rops14_fresh, rops15_fresh, rops16_fresh, rops17_fresh⟩

/-- No operation of the list writes an argument of @main: chunk by chunk. -/
theorem ops_keep {r : Ref sig .tc} (hr : IsArg r) :
    ∀ op ∈ (ops : List (HloOp τ sig (Elt F))), (Proc.devRef .tc r : DevRef τ sig) ∉ op.writes :=
  forall_mem_flatten (p := fun op : HloOp τ sig (Elt F) => (Proc.devRef .tc r : DevRef τ sig) ∉ op.writes)
    ⟨rops0_keep hr, rops1_keep hr, rops2_keep hr, rops3_keep hr, rops4_keep hr, rops5_keep hr, rops6_keep hr, rops7_keep hr, rops8_keep hr, rops9_keep hr, rops10_keep hr, rops11_keep hr, rops12_keep hr, rops13_keep hr, rops14_keep hr, rops15_keep hr, rops16_keep hr, rops17_keep hr⟩

/-! ## The run -/

/-- On every device, for any float values, from any memory with zero counters: every weakly fair execution of @main on
    the TensorCores terminates, and every final state has each TensorCore buffer at the fold of the 631 operations over
    its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The arguments are kept -/

/-- The fold leaves an argument's buffer as it was: no operation writes it. -/
theorem args_kept (V : Valuation τ sig (Elt F)) {r : Ref sig .tc} (hr : IsArg r) :
    after ops V (Proc.devRef .tc r) = V (Proc.devRef .tc r) :=
  after_of_forall_not_mem ops V (ops_keep hr)

/-- The reference runs and its thirty-one argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c =>
    ⟨(h c main_arg0).trans (args_kept (launchContents m c) (r := main_arg0) (by decide)),
     (h c main_arg1).trans (args_kept (launchContents m c) (r := main_arg1) (by decide)),
     (h c main_arg2).trans (args_kept (launchContents m c) (r := main_arg2) (by decide)),
     (h c main_arg3).trans (args_kept (launchContents m c) (r := main_arg3) (by decide)),
     (h c main_arg4).trans (args_kept (launchContents m c) (r := main_arg4) (by decide)),
     (h c main_arg5).trans (args_kept (launchContents m c) (r := main_arg5) (by decide)),
     (h c main_arg6).trans (args_kept (launchContents m c) (r := main_arg6) (by decide)),
     (h c main_arg7).trans (args_kept (launchContents m c) (r := main_arg7) (by decide)),
     (h c main_arg8).trans (args_kept (launchContents m c) (r := main_arg8) (by decide)),
     (h c main_arg9).trans (args_kept (launchContents m c) (r := main_arg9) (by decide)),
     (h c main_arg10).trans (args_kept (launchContents m c) (r := main_arg10) (by decide)),
     (h c main_arg11).trans (args_kept (launchContents m c) (r := main_arg11) (by decide)),
     (h c main_arg12).trans (args_kept (launchContents m c) (r := main_arg12) (by decide)),
     (h c main_arg13).trans (args_kept (launchContents m c) (r := main_arg13) (by decide)),
     (h c main_arg14).trans (args_kept (launchContents m c) (r := main_arg14) (by decide)),
     (h c main_arg15).trans (args_kept (launchContents m c) (r := main_arg15) (by decide)),
     (h c main_arg16).trans (args_kept (launchContents m c) (r := main_arg16) (by decide)),
     (h c main_arg17).trans (args_kept (launchContents m c) (r := main_arg17) (by decide)),
     (h c main_arg18).trans (args_kept (launchContents m c) (r := main_arg18) (by decide)),
     (h c main_arg19).trans (args_kept (launchContents m c) (r := main_arg19) (by decide)),
     (h c main_arg20).trans (args_kept (launchContents m c) (r := main_arg20) (by decide)),
     (h c main_arg21).trans (args_kept (launchContents m c) (r := main_arg21) (by decide)),
     (h c main_arg22).trans (args_kept (launchContents m c) (r := main_arg22) (by decide)),
     (h c main_arg23).trans (args_kept (launchContents m c) (r := main_arg23) (by decide)),
     (h c main_arg24).trans (args_kept (launchContents m c) (r := main_arg24) (by decide)),
     (h c main_arg25).trans (args_kept (launchContents m c) (r := main_arg25) (by decide)),
     (h c main_arg26).trans (args_kept (launchContents m c) (r := main_arg26) (by decide)),
     (h c main_arg27).trans (args_kept (launchContents m c) (r := main_arg27) (by decide)),
     (h c main_arg28).trans (args_kept (launchContents m c) (r := main_arg28) (by decide)),
     (h c main_arg29).trans (args_kept (launchContents m c) (r := main_arg29) (by decide)),
     (h c main_arg30).trans (args_kept (launchContents m c) (r := main_arg30) (by decide))⟩)
    (run m ρ)

end Cert.ReferenceIdeal.Hand

end
-- ==== Proof.RI.Keep0.lean ====
/- What chunks 0 … 5 of the reference program's operations write: each operation writes its one result
   reference, so a reference outside a chunk's list of results keeps its contents through the chunk. -/
import proofs.«142356_j74423193305351_1_alg».proof.Proof.RI.Ops0
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references chunk 0's 11 operations write, in order. -/
abbrev rops0_W : List (Ref sig .tc) :=
  [main_cst, main_v0, main_v1, main_v2, main_v3, main_v4, main_v5, main_v6, main_v7, main_v8, main_v9]
/-- Each operation of chunk 0 writes within that list. -/
theorem rops0_writes : (rops0 : List (HloOp τ sig (Elt F))).Forall fun op => op.writes ⊆ (rops0_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 0 does not write keeps its contents through it. -/
theorem rops0_stay (Q : Valuation τ sig (Elt F)) (r : Ref sig .tc) (h : r ∉ rops0_W) :
    StableHlo.after rops0 Q (Proc.devRef .tc r) = Q (Proc.devRef .tc r) :=
  after_of_writes_sub rops0 Q rops0_writes h

/-- The references chunk 1's 40 operations write, in order. -/
abbrev rops1_W : List (Ref sig .tc) :=
  [main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49]
/-- Each operation of chunk 1 writes within that list. -/
theorem rops1_writes : (rops1 : List (HloOp τ sig (Elt F))).Forall fun op => op.writes ⊆ (rops1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 1 does not write keeps its contents through it. -/
theorem rops1_stay (Q : Valuation τ sig (Elt F)) (r : Ref sig .tc) (h : r ∉ rops1_W) :
    StableHlo.after rops1 Q (Proc.devRef .tc r) = Q (Proc.devRef .tc r) :=
  after_of_writes_sub rops1 Q rops1_writes h

/-- The references chunk 2's 38 operations write, in order. -/
abbrev rops2_W : List (Ref sig .tc) :=
  [main_c, main_v50, main_v51, main_c_0, main_v52, main_v53, main_v54, main_v55, main_v56, main_v57, main_c_1, main_v58, main_v59, main_c_2, main_v60, main_v61, main_v62, main_v63, main_v64, main_v65, main_v66, main_v67, main_cst_3, main_v68, main_v69, main_cst_4, main_v70, main_v71, main_c_5, main_v72, main_v73, main_c_6, main_v74, main_v75, main_v76, main_v77, main_v78, main_v79]
/-- Each operation of chunk 2 writes within that list. -/
theorem rops2_writes : (rops2 : List (HloOp τ sig (Elt F))).Forall fun op => op.writes ⊆ (rops2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 2 does not write keeps its contents through it. -/
theorem rops2_stay (Q : Valuation τ sig (Elt F)) (r : Ref sig .tc) (h : r ∉ rops2_W) :
    StableHlo.after rops2 Q (Proc.devRef .tc r) = Q (Proc.devRef .tc r) :=
  after_of_writes_sub rops2 Q rops2_writes h

/-- The references chunk 3's 13 operations write, in order. -/
abbrev rops3_W : List (Ref sig .tc) :=
  [main_cst_7, main_v80, main_v81, main_v82, main_cst_8, main_v83, main_v84, main_v85, main_cst_9, main_v86, main_v87, main_v88, main_v89]
/-- Each operation of chunk 3 writes within that list. -/
theorem rops3_writes : (rops3 : List (HloOp τ sig (Elt F))).Forall fun op => op.writes ⊆ (rops3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 3 does not write keeps its contents through it. -/
theorem rops3_stay (Q : Valuation τ sig (Elt F)) (r : Ref sig .tc) (h : r ∉ rops3_W) :
    StableHlo.after rops3 Q (Proc.devRef .tc r) = Q (Proc.devRef .tc r) :=
  after_of_writes_sub rops3 Q rops3_writes h

/-- The references chunk 4's 52 operations write, in order. -/
abbrev rops4_W : List (Ref sig .tc) :=
  [main_v90, main_v91, main_v92, main_v93, main_cst_10, main_v94, main_cst_11, main_v95, main_v96, main_c_12, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v97, main_v98, main_v99, main_v100, main_v101, main_v102, main_v103, main_cst_13, main_v104, main_v105, main_v106, main_v107, main_v108, main_v109, main_v110, main_v111, main_v112, main_call1_cst, main_call1_v0, main_v113, main_v114]
/-- Each operation of chunk 4 writes within that list. -/
theorem rops4_writes : (rops4 : List (HloOp τ sig (Elt F))).Forall fun op => op.writes ⊆ (rops4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 4 does not write keeps its contents through it. -/
theorem rops4_stay (Q : Valuation τ sig (Elt F)) (r : Ref sig .tc) (h : r ∉ rops4_W) :
    StableHlo.after rops4 Q (Proc.devRef .tc r) = Q (Proc.devRef .tc r) :=
  after_of_writes_sub rops4 Q rops4_writes h

/-- The references chunk 5's 52 operations write, in order. -/
abbrev rops5_W : List (Ref sig .tc) :=
  [main_v115, main_v116, main_v117, main_v118, main_cst_14, main_v119, main_cst_15, main_v120, main_v121, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v122, main_v123, main_v124, main_v125, main_v126, main_v127, main_v128, main_cst_17, main_v129, main_v130, main_v131, main_v132, main_v133, main_v134, main_v135, main_v136, main_v137, main_call3_cst, main_call3_v0, main_v138, main_v139]
/-- Each operation of chunk 5 writes within that list. -/
theorem rops5_writes : (rops5 : List (HloOp τ sig (Elt F))).Forall fun op => op.writes ⊆ (rops5_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 5 does not write keeps its contents through it. -/
theorem rops5_stay (Q : Valuation τ sig (Elt F)) (r : Ref sig .tc) (h : r ∉ rops5_W) :
    StableHlo.after rops5 Q (Proc.devRef .tc r) = Q (Proc.devRef .tc r) :=
  after_of_writes_sub rops5 Q rops5_writes h

end Cert.ReferenceIdeal.Hand

end
-- ==== Proof.RI.Keep1.lean ====
/- What chunks 6 … 10 of the reference program's operations write: each operation writes its one result
   reference, so a reference outside a chunk's list of results keeps its contents through the chunk. -/
import proofs.«142356_j74423193305351_1_alg».proof.Proof.RI.Ops1
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references chunk 6's 40 operations write, in order. -/
abbrev rops6_W : List (Ref sig .tc) :=
  [main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179]
/-- Each operation of chunk 6 writes within that list. -/
theorem rops6_writes : (rops6 : List (HloOp τ sig (Elt F))).Forall fun op => op.writes ⊆ (rops6_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 6 does not write keeps its contents through it. -/
theorem rops6_stay (Q : Valuation τ sig (Elt F)) (r : Ref sig .tc) (h : r ∉ rops6_W) :
    StableHlo.after rops6 Q (Proc.devRef .tc r) = Q (Proc.devRef .tc r) :=
  after_of_writes_sub rops6 Q rops6_writes h

/-- The references chunk 7's 38 operations write, in order. -/
abbrev rops7_W : List (Ref sig .tc) :=
  [main_c_18, main_v180, main_v181, main_c_19, main_v182, main_v183, main_v184, main_v185, main_v186, main_v187, main_c_20, main_v188, main_v189, main_c_21, main_v190, main_v191, main_v192, main_v193, main_v194, main_v195, main_v196, main_v197, main_cst_22, main_v198, main_v199, main_cst_23, main_v200, main_v201, main_c_24, main_v202, main_v203, main_c_25, main_v204, main_v205, main_v206, main_v207, main_v208, main_v209]
/-- Each operation of chunk 7 writes within that list. -/
theorem rops7_writes : (rops7 : List (HloOp τ sig (Elt F))).Forall fun op => op.writes ⊆ (rops7_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 7 does not write keeps its contents through it. -/
theorem rops7_stay (Q : Valuation τ sig (Elt F)) (r : Ref sig .tc) (h : r ∉ rops7_W) :
    StableHlo.after rops7 Q (Proc.devRef .tc r) = Q (Proc.devRef .tc r) :=
  after_of_writes_sub rops7 Q rops7_writes h

/-- The references chunk 8's 13 operations write, in order. -/
abbrev rops8_W : List (Ref sig .tc) :=
  [main_cst_26, main_v210, main_v211, main_v212, main_cst_27, main_v213, main_v214, main_v215, main_cst_28, main_v216, main_v217, main_v218, main_v219]
/-- Each operation of chunk 8 writes within that list. -/
theorem rops8_writes : (rops8 : List (HloOp τ sig (Elt F))).Forall fun op => op.writes ⊆ (rops8_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 8 does not write keeps its contents through it. -/
theorem rops8_stay (Q : Valuation τ sig (Elt F)) (r : Ref sig .tc) (h : r ∉ rops8_W) :
    StableHlo.after rops8 Q (Proc.devRef .tc r) = Q (Proc.devRef .tc r) :=
  after_of_writes_sub rops8 Q rops8_writes h

/-- The references chunk 9's 52 operations write, in order. -/
abbrev rops9_W : List (Ref sig .tc) :=
  [main_v220, main_v221, main_v222, main_v223, main_cst_29, main_v224, main_cst_30, main_v225, main_v226, main_c_31, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v227, main_v228, main_v229, main_v230, main_v231, main_v232, main_v233, main_cst_32, main_v234, main_v235, main_v236, main_v237, main_v238, main_v239, main_v240, main_v241, main_v242, main_call5_cst, main_call5_v0, main_v243, main_v244]
/-- Each operation of chunk 9 writes within that list. -/
theorem rops9_writes : (rops9 : List (HloOp τ sig (Elt F))).Forall fun op => op.writes ⊆ (rops9_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 9 does not write keeps its contents through it. -/
theorem rops9_stay (Q : Valuation τ sig (Elt F)) (r : Ref sig .tc) (h : r ∉ rops9_W) :
    StableHlo.after rops9 Q (Proc.devRef .tc r) = Q (Proc.devRef .tc r) :=
  after_of_writes_sub rops9 Q rops9_writes h

/-- The references chunk 10's 52 operations write, in order. -/
abbrev rops10_W : List (Ref sig .tc) :=
  [main_v245, main_v246, main_v247, main_v248, main_cst_33, main_v249, main_cst_34, main_v250, main_v251, main_c_35, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v252, main_v253, main_v254, main_v255, main_v256, main_v257, main_v258, main_cst_36, main_v259, main_v260, main_v261, main_v262, main_v263, main_v264, main_v265, main_v266, main_v267, main_call7_cst, main_call7_v0, main_v268, main_v269]
/-- Each operation of chunk 10 writes within that list. -/
theorem rops10_writes : (rops10 : List (HloOp τ sig (Elt F))).Forall fun op => op.writes ⊆ (rops10_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 10 does not write keeps its contents through it. -/
theorem rops10_stay (Q : Valuation τ sig (Elt F)) (r : Ref sig .tc) (h : r ∉ rops10_W) :
    StableHlo.after rops10 Q (Proc.devRef .tc r) = Q (Proc.devRef .tc r) :=
  after_of_writes_sub rops10 Q rops10_writes h

end Cert.ReferenceIdeal.Hand

end
-- ==== Proof.RI.Keep2.lean ====
/- What chunks 11 … 15 of the reference program's operations write: each operation writes its one result
   reference, so a reference outside a chunk's list of results keeps its contents through the chunk. -/
import proofs.«142356_j74423193305351_1_alg».proof.Proof.RI.Ops2
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references chunk 11's 40 operations write, in order. -/
abbrev rops11_W : List (Ref sig .tc) :=
  [main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309]
/-- Each operation of chunk 11 writes within that list. -/
theorem rops11_writes : (rops11 : List (HloOp τ sig (Elt F))).Forall fun op => op.writes ⊆ (rops11_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 11 does not write keeps its contents through it. -/
theorem rops11_stay (Q : Valuation τ sig (Elt F)) (r : Ref sig .tc) (h : r ∉ rops11_W) :
    StableHlo.after rops11 Q (Proc.devRef .tc r) = Q (Proc.devRef .tc r) :=
  after_of_writes_sub rops11 Q rops11_writes h

/-- The references chunk 12's 38 operations write, in order. -/
abbrev rops12_W : List (Ref sig .tc) :=
  [main_c_37, main_v310, main_v311, main_c_38, main_v312, main_v313, main_v314, main_v315, main_v316, main_v317, main_c_39, main_v318, main_v319, main_c_40, main_v320, main_v321, main_v322, main_v323, main_v324, main_v325, main_v326, main_v327, main_cst_41, main_v328, main_v329, main_cst_42, main_v330, main_v331, main_c_43, main_v332, main_v333, main_c_44, main_v334, main_v335, main_v336, main_v337, main_v338, main_v339]
/-- Each operation of chunk 12 writes within that list. -/
theorem rops12_writes : (rops12 : List (HloOp τ sig (Elt F))).Forall fun op => op.writes ⊆ (rops12_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 12 does not write keeps its contents through it. -/
theorem rops12_stay (Q : Valuation τ sig (Elt F)) (r : Ref sig .tc) (h : r ∉ rops12_W) :
    StableHlo.after rops12 Q (Proc.devRef .tc r) = Q (Proc.devRef .tc r) :=
  after_of_writes_sub rops12 Q rops12_writes h

/-- The references chunk 13's 13 operations write, in order. -/
abbrev rops13_W : List (Ref sig .tc) :=
  [main_cst_45, main_v340, main_v341, main_v342, main_cst_46, main_v343, main_v344, main_v345, main_cst_47, main_v346, main_v347, main_v348, main_v349]
/-- Each operation of chunk 13 writes within that list. -/
theorem rops13_writes : (rops13 : List (HloOp τ sig (Elt F))).Forall fun op => op.writes ⊆ (rops13_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 13 does not write keeps its contents through it. -/
theorem rops13_stay (Q : Valuation τ sig (Elt F)) (r : Ref sig .tc) (h : r ∉ rops13_W) :
    StableHlo.after rops13 Q (Proc.devRef .tc r) = Q (Proc.devRef .tc r) :=
  after_of_writes_sub rops13 Q rops13_writes h

/-- The references chunk 14's 52 operations write, in order. -/
abbrev rops14_W : List (Ref sig .tc) :=
  [main_v350, main_v351, main_v352, main_v353, main_cst_48, main_v354, main_cst_49, main_v355, main_v356, main_c_50, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v357, main_v358, main_v359, main_v360, main_v361, main_v362, main_v363, main_cst_51, main_v364, main_v365, main_v366, main_v367, main_v368, main_v369, main_v370, main_v371, main_v372, main_call9_cst, main_call9_v0, main_v373, main_v374]
/-- Each operation of chunk 14 writes within that list. -/
theorem rops14_writes : (rops14 : List (HloOp τ sig (Elt F))).Forall fun op => op.writes ⊆ (rops14_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 14 does not write keeps its contents through it. -/
theorem rops14_stay (Q : Valuation τ sig (Elt F)) (r : Ref sig .tc) (h : r ∉ rops14_W) :
    StableHlo.after rops14 Q (Proc.devRef .tc r) = Q (Proc.devRef .tc r) :=
  after_of_writes_sub rops14 Q rops14_writes h

/-- The references chunk 15's 52 operations write, in order. -/
abbrev rops15_W : List (Ref sig .tc) :=
  [main_v375, main_v376, main_v377, main_v378, main_cst_52, main_v379, main_cst_53, main_v380, main_v381, main_c_54, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v382, main_v383, main_v384, main_v385, main_v386, main_v387, main_v388, main_cst_55, main_v389, main_v390, main_v391, main_v392, main_v393, main_v394, main_v395, main_v396, main_v397, main_call11_cst, main_call11_v0, main_v398, main_v399]
/-- Each operation of chunk 15 writes within that list. -/
theorem rops15_writes : (rops15 : List (HloOp τ sig (Elt F))).Forall fun op => op.writes ⊆ (rops15_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 15 does not write keeps its contents through it. -/
theorem rops15_stay (Q : Valuation τ sig (Elt F)) (r : Ref sig .tc) (h : r ∉ rops15_W) :
    StableHlo.after rops15 Q (Proc.devRef .tc r) = Q (Proc.devRef .tc r) :=
  after_of_writes_sub rops15 Q rops15_writes h

end Cert.ReferenceIdeal.Hand

end
-- ==== Proof.RI.Keep3.lean ====
/- What chunks 16 … 17 of the reference program's operations write: each operation writes its one result
   reference, so a reference outside a chunk's list of results keeps its contents through the chunk. -/
import proofs.«142356_j74423193305351_1_alg».proof.Proof.RI.Ops3
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The references chunk 16's 17 operations write, in order. -/
abbrev rops16_W : List (Ref sig .tc) :=
  [main_cst_56, main_v400, main_cst_57, main_v401, main_v402, main_v403, main_cst_58, main_v404, main_v405, main_v406, main_cst_59, main_v407, main_v408, main_v409, main_v410, main_v411, main_v412]
/-- Each operation of chunk 16 writes within that list. -/
theorem rops16_writes : (rops16 : List (HloOp τ sig (Elt F))).Forall fun op => op.writes ⊆ (rops16_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 16 does not write keeps its contents through it. -/
theorem rops16_stay (Q : Valuation τ sig (Elt F)) (r : Ref sig .tc) (h : r ∉ rops16_W) :
    StableHlo.after rops16 Q (Proc.devRef .tc r) = Q (Proc.devRef .tc r) :=
  after_of_writes_sub rops16 Q rops16_writes h

/-- The references chunk 17's 18 operations write, in order. -/
abbrev rops17_W : List (Ref sig .tc) :=
  [main_v413, main_v414, main_v415, main_v416, main_call12_cst, main_call12_v0, main_v417, main_v418, main_v419, main_v420, main_v421, main_call13_cst, main_call13_v0, main_v422, main_v423, main_v424, main_v425, main_v426]
/-- Each operation of chunk 17 writes within that list. -/
theorem rops17_writes : (rops17 : List (HloOp τ sig (Elt F))).Forall fun op => op.writes ⊆ (rops17_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩
/-- A reference chunk 17 does not write keeps its contents through it. -/
theorem rops17_stay (Q : Valuation τ sig (Elt F)) (r : Ref sig .tc) (h : r ∉ rops17_W) :
    StableHlo.after rops17 Q (Proc.devRef .tc r) = Q (Proc.devRef .tc r) :=
  after_of_writes_sub rops17 Q rops17_writes h

end Cert.ReferenceIdeal.Hand

end
-- ==== Proof.BR.RefStages.lean ====
/-
  The reference program's run, staged: its buffers at launch and after each of the eighteen chunks of its operations.
  The last stage is the fold of the whole list over the launch contents, which is what the run leaves in every buffer.
-/
import proofs.«142356_j74423193305351_1_alg».proof.Proof.RI.Main
import proofs.«142356_j74423193305351_1_alg».proof.Proof.RI.Keep0
import proofs.«142356_j74423193305351_1_alg».proof.Proof.RI.Keep1
import proofs.«142356_j74423193305351_1_alg».proof.Proof.RI.Keep2
import proofs.«142356_j74423193305351_1_alg».proof.Proof.RI.Keep3
import Idealize.ShloMosaic.Lib.StableHlo.Run

noncomputable section

namespace Cert.Bridge

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

/-- Core `c`'s buffers at launch: the launch contents, as the run's statement names them. -/
def Q0 (m' : (ℓ : Loc nD τ sig) → Buf (Elt F) ℓ) (c : Dev nD) : Valuation τ sig (Elt F) := launchContents m' c

/-- The launch stage at a buffer is the launch memory there. -/
theorem Q0_apply (m' : (ℓ : Loc nD τ sig) → Buf (Elt F) ℓ) (c : Dev nD) (b : DevRef τ sig) : Q0 m' c b = m' (c, b) := rfl

/-- The reference's buffers once chunks 0 … 0 have run. -/
def Q1 (m' : (ℓ : Loc nD τ sig) → Buf (Elt F) ℓ) (c : Dev nD) : Valuation τ sig (Elt F) :=
  StableHlo.after rops0 (Q0 m' c)
/-- The reference's buffers once chunks 0 … 1 have run. -/
def Q2 (m' : (ℓ : Loc nD τ sig) → Buf (Elt F) ℓ) (c : Dev nD) : Valuation τ sig (Elt F) :=
  StableHlo.after rops1 (Q1 m' c)
/-- The reference's buffers once chunks 0 … 2 have run. -/
def Q3 (m' : (ℓ : Loc nD τ sig) → Buf (Elt F) ℓ) (c : Dev nD) : Valuation τ sig (Elt F) :=
  StableHlo.after rops2 (Q2 m' c)
/-- The reference's buffers once chunks 0 … 3 have run. -/
def Q4 (m' : (ℓ : Loc nD τ sig) → Buf (Elt F) ℓ) (c : Dev nD) : Valuation τ sig (Elt F) :=
  StableHlo.after rops3 (Q3 m' c)
/-- The reference's buffers once chunks 0 … 4 have run. -/
def Q5 (m' : (ℓ : Loc nD τ sig) → Buf (Elt F) ℓ) (c : Dev nD) : Valuation τ sig (Elt F) :=
  StableHlo.after rops4 (Q4 m' c)
/-- The reference's buffers once chunks 0 … 5 have run. -/
def Q6 (m' : (ℓ : Loc nD τ sig) → Buf (Elt F) ℓ) (c : Dev nD) : Valuation τ sig (Elt F) :=
  StableHlo.after rops5 (Q5 m' c)
/-- The reference's buffers once chunks 0 … 6 have run. -/
def Q7 (m' : (ℓ : Loc nD τ sig) → Buf (Elt F) ℓ) (c : Dev nD) : Valuation τ sig (Elt F) :=
  StableHlo.after rops6 (Q6 m' c)
/-- The reference's buffers once chunks 0 … 7 have run. -/
def Q8 (m' : (ℓ : Loc nD τ sig) → Buf (Elt F) ℓ) (c : Dev nD) : Valuation τ sig (Elt F) :=
  StableHlo.after rops7 (Q7 m' c)
/-- The reference's buffers once chunks 0 … 8 have run. -/
def Q9 (m' : (ℓ : Loc nD τ sig) → Buf (Elt F) ℓ) (c : Dev nD) : Valuation τ sig (Elt F) :=
  StableHlo.after rops8 (Q8 m' c)
/-- The reference's buffers once chunks 0 … 9 have run. -/
def Q10 (m' : (ℓ : Loc nD τ sig) → Buf (Elt F) ℓ) (c : Dev nD) : Valuation τ sig (Elt F) :=
  StableHlo.after rops9 (Q9 m' c)
/-- The reference's buffers once chunks 0 … 10 have run. -/
def Q11 (m' : (ℓ : Loc nD τ sig) → Buf (Elt F) ℓ) (c : Dev nD) : Valuation τ sig (Elt F) :=
  StableHlo.after rops10 (Q10 m' c)
/-- The reference's buffers once chunks 0 … 11 have run. -/
def Q12 (m' : (ℓ : Loc nD τ sig) → Buf (Elt F) ℓ) (c : Dev nD) : Valuation τ sig (Elt F) :=
  StableHlo.after rops11 (Q11 m' c)
/-- The reference's buffers once chunks 0 … 12 have run. -/
def Q13 (m' : (ℓ : Loc nD τ sig) → Buf (Elt F) ℓ) (c : Dev nD) : Valuation τ sig (Elt F) :=
  StableHlo.after rops12 (Q12 m' c)
/-- The reference's buffers once chunks 0 … 13 have run. -/
def Q14 (m' : (ℓ : Loc nD τ sig) → Buf (Elt F) ℓ) (c : Dev nD) : Valuation τ sig (Elt F) :=
  StableHlo.after rops13 (Q13 m' c)
/-- The reference's buffers once chunks 0 … 14 have run. -/
def Q15 (m' : (ℓ : Loc nD τ sig) → Buf (Elt F) ℓ) (c : Dev nD) : Valuation τ sig (Elt F) :=
  StableHlo.after rops14 (Q14 m' c)
/-- The reference's buffers once chunks 0 … 15 have run. -/
def Q16 (m' : (ℓ : Loc nD τ sig) → Buf (Elt F) ℓ) (c : Dev nD) : Valuation τ sig (Elt F) :=
  StableHlo.after rops15 (Q15 m' c)
/-- The reference's buffers once chunks 0 … 16 have run. -/
def Q17 (m' : (ℓ : Loc nD τ sig) → Buf (Elt F) ℓ) (c : Dev nD) : Valuation τ sig (Elt F) :=
  StableHlo.after rops16 (Q16 m' c)
/-- The reference's buffers once chunks 0 … 17 have run. -/
def Q18 (m' : (ℓ : Loc nD τ sig) → Buf (Elt F) ℓ) (c : Dev nD) : Valuation τ sig (Elt F) :=
  StableHlo.after rops17 (Q17 m' c)

/-- The last stage is the fold of the reference's whole list of operations over the launch contents. -/
theorem Q18_eq (m' : (ℓ : Loc nD τ sig) → Buf (Elt F) ℓ) (c : Dev nD) : Q18 m' c = StableHlo.after ops (Q0 m' c) := by
  rw [after_ops]
  rfl

/-! ## What each chunk leaves unchanged -/

/-- A reference chunk 0 does not write is, after it, as before it. -/
theorem Q1_of (m' : (ℓ : Loc nD τ sig) → Buf (Elt F) ℓ) (c : Dev nD) (r : Ref sig .tc) (h : r ∉ rops0_W) :
    Q1 m' c (Proc.devRef .tc r) = Q0 m' c (Proc.devRef .tc r) :=
  rops0_stay (Q0 m' c) r h
/-- A reference chunk 1 does not write is, after it, as before it. -/
theorem Q2_of (m' : (ℓ : Loc nD τ sig) → Buf (Elt F) ℓ) (c : Dev nD) (r : Ref sig .tc) (h : r ∉ rops1_W) :
    Q2 m' c (Proc.devRef .tc r) = Q1 m' c (Proc.devRef .tc r) :=
  rops1_stay (Q1 m' c) r h
/-- A reference chunk 2 does not write is, after it, as before it. -/
theorem Q3_of (m' : (ℓ : Loc nD τ sig) → Buf (Elt F) ℓ) (c : Dev nD) (r : Ref sig .tc) (h : r ∉ rops2_W) :
    Q3 m' c (Proc.devRef .tc r) = Q2 m' c (Proc.devRef .tc r) :=
  rops2_stay (Q2 m' c) r h
/-- A reference chunk 3 does not write is, after it, as before it. -/
theorem Q4_of (m' : (ℓ : Loc nD τ sig) → Buf (Elt F) ℓ) (c : Dev nD) (r : Ref sig .tc) (h : r ∉ rops3_W) :
    Q4 m' c (Proc.devRef .tc r) = Q3 m' c (Proc.devRef .tc r) :=
  rops3_stay (Q3 m' c) r h
/-- A reference chunk 4 does not write is, after it, as before it. -/
theorem Q5_of (m' : (ℓ : Loc nD τ sig) → Buf (Elt F) ℓ) (c : Dev nD) (r : Ref sig .tc) (h : r ∉ rops4_W) :
    Q5 m' c (Proc.devRef .tc r) = Q4 m' c (Proc.devRef .tc r) :=
  rops4_stay (Q4 m' c) r h
/-- A reference chunk 5 does not write is, after it, as before it. -/
theorem Q6_of (m' : (ℓ : Loc nD τ sig) → Buf (Elt F) ℓ) (c : Dev nD) (r : Ref sig .tc) (h : r ∉ rops5_W) :
    Q6 m' c (Proc.devRef .tc r) = Q5 m' c (Proc.devRef .tc r) :=
  rops5_stay (Q5 m' c) r h
/-- A reference chunk 6 does not write is, after it, as before it. -/
theorem Q7_of (m' : (ℓ : Loc nD τ sig) → Buf (Elt F) ℓ) (c : Dev nD) (r : Ref sig .tc) (h : r ∉ rops6_W) :
    Q7 m' c (Proc.devRef .tc r) = Q6 m' c (Proc.devRef .tc r) :=
  rops6_stay (Q6 m' c) r h
/-- A reference chunk 7 does not write is, after it, as before it. -/
theorem Q8_of (m' : (ℓ : Loc nD τ sig) → Buf (Elt F) ℓ) (c : Dev nD) (r : Ref sig .tc) (h : r ∉ rops7_W) :
    Q8 m' c (Proc.devRef .tc r) = Q7 m' c (Proc.devRef .tc r) :=
  rops7_stay (Q7 m' c) r h
/-- A reference chunk 8 does not write is, after it, as before it. -/
theorem Q9_of (m' : (ℓ : Loc nD τ sig) → Buf (Elt F) ℓ) (c : Dev nD) (r : Ref sig .tc) (h : r ∉ rops8_W) :
    Q9 m' c (Proc.devRef .tc r) = Q8 m' c (Proc.devRef .tc r) :=
  rops8_stay (Q8 m' c) r h
/-- A reference chunk 9 does not write is, after it, as before it. -/
theorem Q10_of (m' : (ℓ : Loc nD τ sig) → Buf (Elt F) ℓ) (c : Dev nD) (r : Ref sig .tc) (h : r ∉ rops9_W) :
    Q10 m' c (Proc.devRef .tc r) = Q9 m' c (Proc.devRef .tc r) :=
  rops9_stay (Q9 m' c) r h
/-- A reference chunk 10 does not write is, after it, as before it. -/
theorem Q11_of (m' : (ℓ : Loc nD τ sig) → Buf (Elt F) ℓ) (c : Dev nD) (r : Ref sig .tc) (h : r ∉ rops10_W) :
    Q11 m' c (Proc.devRef .tc r) = Q10 m' c (Proc.devRef .tc r) :=
  rops10_stay (Q10 m' c) r h
/-- A reference chunk 11 does not write is, after it, as before it. -/
theorem Q12_of (m' : (ℓ : Loc nD τ sig) → Buf (Elt F) ℓ) (c : Dev nD) (r : Ref sig .tc) (h : r ∉ rops11_W) :
    Q12 m' c (Proc.devRef .tc r) = Q11 m' c (Proc.devRef .tc r) :=
  rops11_stay (Q11 m' c) r h
/-- A reference chunk 12 does not write is, after it, as before it. -/
theorem Q13_of (m' : (ℓ : Loc nD τ sig) → Buf (Elt F) ℓ) (c : Dev nD) (r : Ref sig .tc) (h : r ∉ rops12_W) :
    Q13 m' c (Proc.devRef .tc r) = Q12 m' c (Proc.devRef .tc r) :=
  rops12_stay (Q12 m' c) r h
/-- A reference chunk 13 does not write is, after it, as before it. -/
theorem Q14_of (m' : (ℓ : Loc nD τ sig) → Buf (Elt F) ℓ) (c : Dev nD) (r : Ref sig .tc) (h : r ∉ rops13_W) :
    Q14 m' c (Proc.devRef .tc r) = Q13 m' c (Proc.devRef .tc r) :=
  rops13_stay (Q13 m' c) r h
/-- A reference chunk 14 does not write is, after it, as before it. -/
theorem Q15_of (m' : (ℓ : Loc nD τ sig) → Buf (Elt F) ℓ) (c : Dev nD) (r : Ref sig .tc) (h : r ∉ rops14_W) :
    Q15 m' c (Proc.devRef .tc r) = Q14 m' c (Proc.devRef .tc r) :=
  rops14_stay (Q14 m' c) r h
/-- A reference chunk 15 does not write is, after it, as before it. -/
theorem Q16_of (m' : (ℓ : Loc nD τ sig) → Buf (Elt F) ℓ) (c : Dev nD) (r : Ref sig .tc) (h : r ∉ rops15_W) :
    Q16 m' c (Proc.devRef .tc r) = Q15 m' c (Proc.devRef .tc r) :=
  rops15_stay (Q15 m' c) r h
/-- A reference chunk 16 does not write is, after it, as before it. -/
theorem Q17_of (m' : (ℓ : Loc nD τ sig) → Buf (Elt F) ℓ) (c : Dev nD) (r : Ref sig .tc) (h : r ∉ rops16_W) :
    Q17 m' c (Proc.devRef .tc r) = Q16 m' c (Proc.devRef .tc r) :=
  rops16_stay (Q16 m' c) r h
/-- A reference chunk 17 does not write is, after it, as before it. -/
theorem Q18_of (m' : (ℓ : Loc nD τ sig) → Buf (Elt F) ℓ) (c : Dev nD) (r : Ref sig .tc) (h : r ∉ rops17_W) :
    Q18 m' c (Proc.devRef .tc r) = Q17 m' c (Proc.devRef .tc r) :=
  rops17_stay (Q17 m' c) r h

end Cert.Bridge

end
-- ==== Proof.KI.V0.lean ====
import proofs.«142356_j74423193305351_1_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # REGION 0 at the ideal values: the output array as one function of the three input arrays -/

/-- The linear layer, index by index: row `i 0` of x against column `i 1` of W, summed over the 6 input features, plus
    the bias at that column. -/
def G0_3 (x : Vec Ideal S32768x6 .f32) (W : Vec Ideal S6x64 .f32) (b : Vec Ideal S1x64 .f32) : Vec Ideal S32768x64 .f32 :=
  fun i => (∑ k : Fin 6, x (ix2 (i 0) k) * W (ix2 k (i 1))) + b (ix2 (0 : Fin 1) (i 1))

/-! ## The body's payload at an index -/

/-- The matrix unit's contraction index is its one coordinate; the left operand is read at (row, k) -/
theorem lhs_dot0_0 (i : S4096x64.Idx) (q : dot_S4096x6_S6x64_S4096x64_1_0_0_1_n_n.contr.Idx) :
    (dot_S4096x6_S6x64_S4096x64_1_0_0_1_n_n.lhsIdx i q 0).val = (i 0).val := by
  unfold DotDims.lhsIdx
  rw [dif_neg (show ¬(0 : Fin S4096x6.rank) ∈ dot_S4096x6_S6x64_S4096x64_1_0_0_1_n_n.lhsBatch by decide), dif_pos (show (0 : Fin S4096x6.rank) ∈ dot_S4096x6_S6x64_S4096x64_1_0_0_1_n_n.lhsNonContracting by decide)]
  rfl
theorem lhs_dot0_1 (i : S4096x64.Idx) (q : dot_S4096x6_S6x64_S4096x64_1_0_0_1_n_n.contr.Idx) :
    (dot_S4096x6_S6x64_S4096x64_1_0_0_1_n_n.lhsIdx i q 1).val = (q ⟨0, by decide⟩).val :=
  dot_S4096x6_S6x64_S4096x64_1_0_0_1_n_n.lhsIdx_val_of_single rfl i q
/-- and the right operand at (k, column). -/
theorem rhs_dot0_0 (i : S4096x64.Idx) (q : dot_S4096x6_S6x64_S4096x64_1_0_0_1_n_n.contr.Idx) :
    (dot_S4096x6_S6x64_S4096x64_1_0_0_1_n_n.rhsIdx i q 0).val = (q ⟨0, by decide⟩).val :=
  dot_S4096x6_S6x64_S4096x64_1_0_0_1_n_n.rhsIdx_val_of_single rfl i q
theorem rhs_dot0_1 (i : S4096x64.Idx) (q : dot_S4096x6_S6x64_S4096x64_1_0_0_1_n_n.contr.Idx) :
    (dot_S4096x6_S6x64_S4096x64_1_0_0_1_n_n.rhsIdx i q 1).val = (i 1).val := by
  unfold DotDims.rhsIdx
  rw [dif_neg (show ¬(1 : Fin S6x64.rank) ∈ dot_S4096x6_S6x64_S4096x64_1_0_0_1_n_n.rhsBatch by decide), dif_pos (show (1 : Fin S6x64.rank) ∈ dot_S4096x6_S6x64_S4096x64_1_0_0_1_n_n.rhsNonContracting by decide)]
  rfl

/-- The block product into the zero accumulator, at (p, q): the sum over the 6 features of the products. -/
theorem matmul0_apply (A : FVec Ideal S4096x6 .bf16) (B : FVec Ideal S6x64 .bf16) (p : Fin 4096) (q : Fin 64) :
    FloatOps.matmul dot_S4096x6_S6x64_S4096x64_1_0_0_1_n_n none A B (constant (F := Ideal) S4096x64 .f32 0x00000000#32) (ix2 p q)
      = ∑ k : Fin 6, A (ix2 p k) * B (ix2 k q) := by
  rw [Ideal.matmul_constant_zero_apply, ← Equiv.sum_comp (contrEquiv1 dot_S4096x6_S6x64_S4096x64_1_0_0_1_n_n 6 rfl rfl).symm]
  refine Finset.sum_congr rfl fun k _ => ?_
  have hk := contrEquiv1_symm_val dot_S4096x6_S6x64_S4096x64_1_0_0_1_n_n 6 rfl rfl k
  have el : dot_S4096x6_S6x64_S4096x64_1_0_0_1_n_n.lhsIdx (ix2 p q) ((contrEquiv1 dot_S4096x6_S6x64_S4096x64_1_0_0_1_n_n 6 rfl rfl).symm k) = ix2 p k := funext fun a => Fin.ext (by
    match a with
    | ⟨0, _⟩ => exact lhs_dot0_0 _ _
    | ⟨1, _⟩ => exact (lhs_dot0_1 _ _).trans hk)
  have er : dot_S4096x6_S6x64_S4096x64_1_0_0_1_n_n.rhsIdx (ix2 p q) ((contrEquiv1 dot_S4096x6_S6x64_S4096x64_1_0_0_1_n_n 6 rfl rfl).symm k) = ix2 k q := funext fun a => Fin.ext (by
    match a with
    | ⟨0, _⟩ => exact (rhs_dot0_0 _ _).trans hk
    | ⟨1, _⟩ => exact rhs_dot0_1 _ _)
  rw [el, er]

/-- The body's payload at (p, q): the casts to the matrix unit's type are the identity at the ideal values, the bias row
    is broadcast over the rows. -/
theorem pay0_apply (x0 : Vec Ideal S4096x6 .f32) (x1 : Vec Ideal S6x64 .f32) (x2 : Vec Ideal S1x64 .f32) (p : Fin 4096) (q : Fin 64) :
    k0_pay1 x0 x1 x2 (ix2 p q) = (∑ k : Fin 6, x0 (ix2 p k) * x1 (ix2 k q)) + x2 (ix2 (0 : Fin 1) q) := by
  unfold k0_pay1
  simp only [matmul, shapeCast_self]
  rw [addf_apply, matmul0_apply, broadcastTo_1b_ab_apply]
  rfl

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the row block of x moves with the output's row block, which is the point's number; the
    weight and the bias stay at their one block; every block's column index is 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- each block read is compared with the array read through the window's index map: the buffers' types are looked up in
-- the program's table of buffers, which is long
set_option maxHeartbeats 1000000 in
/-- What point `t` writes back is block `t` of the linear layer of the arrays as the region finds them. -/
theorem flushed0_3_eq (c : Dev nD) (t : Fin cfg0.N) :
    (dat0 (F := Ideal) V c).flushed 3 t = ((cfg0.win 3).blk t).view.read (Elt Ideal)
      (G0_3 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S4096x6) hz0, View.ld_unit_zero (S := S6x64) hz0, View.ld_unit_zero (S := S1x64) hz0]
  obtain ⟨e0, e1, e2, e3, e4, e5, e6, e7⟩ := idx_facts0 t
  funext j
  obtain ⟨p, q, rfl⟩ : ∃ (p : Fin 4096) (q : Fin 64), j = ix2 p q := ⟨j 0, j 1, eq_ix2 j⟩
  show k0_pay1 (iblk0 V c 0 t) (iblk0 V c 1 t) (iblk0 V c 2 t) (ix2 p q)
    = G0_3 (V c (Pipeline.arrRef spec0 0)) (V c (Pipeline.arrRef spec0 1)) (V c (Pipeline.arrRef spec0 2)) (((cfg0.win 3).blk t).view.emb (ix2 p q))
  rw [pay0_apply]
  unfold G0_3
  have hx : ∀ k : Fin 6, iblk0 V c 0 t (ix2 p k) = V c (Pipeline.arrRef spec0 0) (ix2 ((((cfg0.win 3).blk t).view.emb (ix2 p q)) 0) k) := fun k => by
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 4096 + 1 * p.val = win0_3.index t (0 : Fin 2) * 4096 + 1 * p.val; omega
    | ⟨1, _⟩ => show win0_0.index t (1 : Fin 2) * 6 + 1 * k.val = k.val; omega
  have hw : ∀ k : Fin 6, iblk0 V c 1 t (ix2 k q) = V c (Pipeline.arrRef spec0 1) (ix2 k ((((cfg0.win 3).blk t).view.emb (ix2 p q)) 1)) := fun k => by
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 6 + 1 * k.val = k.val; omega
    | ⟨1, _⟩ => show win0_1.index t (1 : Fin 2) * 64 + 1 * q.val = win0_3.index t (1 : Fin 2) * 64 + 1 * q.val; omega
  have hb : iblk0 V c 2 t (ix2 (0 : Fin 1) q) = V c (Pipeline.arrRef spec0 2) (ix2 (0 : Fin 1) ((((cfg0.win 3).blk t).view.emb (ix2 p q)) 1)) := by
    show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [hb]
  exact congrArg (· + _) (Finset.sum_congr rfl fun k _ => by rw [hx k, hw k])

/-- An index of the output array is in point `t`'s block iff each coordinate is in the block's range on its axis. -/
theorem mem_blk0_3 (t : Fin cfg0.N) (i : S32768x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole (Pipeline.arrRef spec0 3)).slice (win0_3.rect t)).set ↔ _
  rw [View.set_slice_whole, Rect.mem_set_unit]
  exact Iff.rfl

/-- Every index of the output array is in some point's block: row r is in block r / 4096. -/
theorem covered0_3 (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : (i 0).val / 4096 < cfg0.N := by rw [show cfg0.N = 8 from N_0]; omega
  obtain ⟨e0, e1, e2, e3, e4, e5, e6, e7⟩ := idx_facts0 ⟨(i 0).val / 4096, hN⟩
  have e6' : win0_3.index ⟨(i 0).val / 4096, hN⟩ (0 : Fin 2) = (i 0).val / 4096 := e6
  refine ⟨⟨(i 0).val / 4096, hN⟩, flush0_3 _, ?_⟩
  rw [mem_blk0_3]
  intro a
  match a with
  | ⟨0, _⟩ => show win0_3.index ⟨(i 0).val / 4096, hN⟩ (0 : Fin 2) * 4096 ≤ (i 0).val ∧ (i 0).val < win0_3.index ⟨(i 0).val / 4096, hN⟩ (0 : Fin 2) * 4096 + 4096; omega
  | ⟨1, _⟩ => show win0_3.index ⟨(i 0).val / 4096, hN⟩ (1 : Fin 2) * 64 ≤ (i 1).val ∧ (i 1).val < win0_3.index ⟨(i 0).val / 4096, hN⟩ (1 : Fin 2) * 64 + 64; omega

/-- THE OUTPUT ARRAY after the region: the linear layer of the three input arrays as the region finds them. -/
theorem arr0_3 (c : Dev nD) : (dat0 (F := Ideal) V c).arrAt 3 cfg0.N
    = G0_3 (V c (Pipeline.arrRef spec0 0)) (V c (Pipeline.arrRef spec0 1)) (V c (Pipeline.arrRef spec0 2)) :=
  (dat0 V c).arrAt_eq_of_cover 3 _ (fun t _ => flushed0_3_eq V c t) (covered0_3)

end Cert.KernelIdeal.Hand

end
-- ==== Proof.KI.V1.lean ====
import proofs.«142356_j74423193305351_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # REGION 1 at the ideal values: the output array as one function of the three input arrays -/

/-- The linear layer of the reciprocals, index by index: the reciprocals (the body's literal 1.0, kept as its word, over
    each entry) of row `i 0` of x against column `i 1` of W, summed over the 2 input features, plus the bias at that column. -/
def G1_3 (x : Vec Ideal S524288x2 .f32) (W : Vec Ideal S2x64 .f32) (b : Vec Ideal S1x64 .f32) : Vec Ideal S524288x64 .f32 :=
  fun i => (∑ k : Fin 2, Ideal.div (Ideal.ofBits .f32 0x3F800000#32) (x (ix2 (i 0) k)) * W (ix2 k (i 1))) + b (ix2 (0 : Fin 1) (i 1))

/-! ## The body's payload at an index -/

/-- The matrix unit's contraction index is its one coordinate; the left operand is read at (row, k) -/
theorem lhs_dot1_0 (i : S4096x64.Idx) (q : dot_S4096x2_S2x64_S4096x64_1_0_0_1_n_n.contr.Idx) :
    (dot_S4096x2_S2x64_S4096x64_1_0_0_1_n_n.lhsIdx i q 0).val = (i 0).val := by
  unfold DotDims.lhsIdx
  rw [dif_neg (show ¬(0 : Fin S4096x2.rank) ∈ dot_S4096x2_S2x64_S4096x64_1_0_0_1_n_n.lhsBatch by decide), dif_pos (show (0 : Fin S4096x2.rank) ∈ dot_S4096x2_S2x64_S4096x64_1_0_0_1_n_n.lhsNonContracting by decide)]
  rfl
theorem lhs_dot1_1 (i : S4096x64.Idx) (q : dot_S4096x2_S2x64_S4096x64_1_0_0_1_n_n.contr.Idx) :
    (dot_S4096x2_S2x64_S4096x64_1_0_0_1_n_n.lhsIdx i q 1).val = (q ⟨0, by decide⟩).val :=
  dot_S4096x2_S2x64_S4096x64_1_0_0_1_n_n.lhsIdx_val_of_single rfl i q
/-- and the right operand at (k, column). -/
theorem rhs_dot1_0 (i : S4096x64.Idx) (q : dot_S4096x2_S2x64_S4096x64_1_0_0_1_n_n.contr.Idx) :
    (dot_S4096x2_S2x64_S4096x64_1_0_0_1_n_n.rhsIdx i q 0).val = (q ⟨0, by decide⟩).val :=
  dot_S4096x2_S2x64_S4096x64_1_0_0_1_n_n.rhsIdx_val_of_single rfl i q
theorem rhs_dot1_1 (i : S4096x64.Idx) (q : dot_S4096x2_S2x64_S4096x64_1_0_0_1_n_n.contr.Idx) :
    (dot_S4096x2_S2x64_S4096x64_1_0_0_1_n_n.rhsIdx i q 1).val = (i 1).val := by
  unfold DotDims.rhsIdx
  rw [dif_neg (show ¬(1 : Fin S2x64.rank) ∈ dot_S4096x2_S2x64_S4096x64_1_0_0_1_n_n.rhsBatch by decide), dif_pos (show (1 : Fin S2x64.rank) ∈ dot_S4096x2_S2x64_S4096x64_1_0_0_1_n_n.rhsNonContracting by decide)]
  rfl

/-- The block product into the zero accumulator, at (p, q): the sum over the 2 features of the products. -/
theorem matmul1_apply (A : FVec Ideal S4096x2 .bf16) (B : FVec Ideal S2x64 .bf16) (p : Fin 4096) (q : Fin 64) :
    FloatOps.matmul dot_S4096x2_S2x64_S4096x64_1_0_0_1_n_n none A B (constant (F := Ideal) S4096x64 .f32 0x00000000#32) (ix2 p q)
      = ∑ k : Fin 2, A (ix2 p k) * B (ix2 k q) := by
  rw [Ideal.matmul_constant_zero_apply, ← Equiv.sum_comp (contrEquiv1 dot_S4096x2_S2x64_S4096x64_1_0_0_1_n_n 2 rfl rfl).symm]
  refine Finset.sum_congr rfl fun k _ => ?_
  have hk := contrEquiv1_symm_val dot_S4096x2_S2x64_S4096x64_1_0_0_1_n_n 2 rfl rfl k
  have el : dot_S4096x2_S2x64_S4096x64_1_0_0_1_n_n.lhsIdx (ix2 p q) ((contrEquiv1 dot_S4096x2_S2x64_S4096x64_1_0_0_1_n_n 2 rfl rfl).symm k) = ix2 p k := funext fun a => Fin.ext (by
    match a with
    | ⟨0, _⟩ => exact lhs_dot1_0 _ _
    | ⟨1, _⟩ => exact (lhs_dot1_1 _ _).trans hk)
  have er : dot_S4096x2_S2x64_S4096x64_1_0_0_1_n_n.rhsIdx (ix2 p q) ((contrEquiv1 dot_S4096x2_S2x64_S4096x64_1_0_0_1_n_n 2 rfl rfl).symm k) = ix2 k q := funext fun a => Fin.ext (by
    match a with
    | ⟨0, _⟩ => exact (rhs_dot1_0 _ _).trans hk
    | ⟨1, _⟩ => exact rhs_dot1_1 _ _)
  rw [el, er]

/-- The body's payload at (p, q): the left operand is 1.0 divided by the block, entry by entry; the casts to the matrix
    unit's type are the identity at the ideal values, the bias row is broadcast over the rows. -/
theorem pay1_apply (x0 : Vec Ideal S4096x2 .f32) (x1 : Vec Ideal S2x64 .f32) (x2 : Vec Ideal S1x64 .f32) (p : Fin 4096) (q : Fin 64) :
    k1_pay1 x0 x1 x2 (ix2 p q) = (∑ k : Fin 2, Ideal.div (Ideal.ofBits .f32 0x3F800000#32) (x0 (ix2 p k)) * x1 (ix2 k q)) + x2 (ix2 (0 : Fin 1) q) := by
  unfold k1_pay1
  simp only [matmul, shapeCast_self]
  rw [addf_apply, matmul1_apply, broadcastTo_1b_ab_apply]
  rfl

/-! ## From blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the row block of x moves with the output's row block, which is the point's number; the
    weight and the bias stay at their one block; every block's column index is 0. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

-- each block read is compared with the array read through the window's index map: the buffers' types are looked up in
-- the program's table of buffers, which is long
set_option maxHeartbeats 1000000 in
/-- What point `t` writes back is block `t` of the linear layer of the reciprocals of the arrays as the region finds them. -/
theorem flushed1_3_eq (c : Dev nD) (t : Fin cfg1.N) :
    (dat1 (F := Ideal) V c).flushed 3 t = ((cfg1.win 3).blk t).view.read (Elt Ideal)
      (G1_3 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S4096x2) hz1, View.ld_unit_zero (S := S2x64) hz1, View.ld_unit_zero (S := S1x64) hz1]
  obtain ⟨e0, e1, e2, e3, e4, e5, e6, e7⟩ := idx_facts1 t
  funext j
  obtain ⟨p, q, rfl⟩ : ∃ (p : Fin 4096) (q : Fin 64), j = ix2 p q := ⟨j 0, j 1, eq_ix2 j⟩
  show k1_pay1 (iblk1 V c 0 t) (iblk1 V c 1 t) (iblk1 V c 2 t) (ix2 p q)
    = G1_3 (V c (Pipeline.arrRef spec1 0)) (V c (Pipeline.arrRef spec1 1)) (V c (Pipeline.arrRef spec1 2)) (((cfg1.win 3).blk t).view.emb (ix2 p q))
  rw [pay1_apply]
  unfold G1_3
  have hx : ∀ k : Fin 2, iblk1 V c 0 t (ix2 p k) = V c (Pipeline.arrRef spec1 0) (ix2 ((((cfg1.win 3).blk t).view.emb (ix2 p q)) 0) k) := fun k => by
    show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 4096 + 1 * p.val = win1_3.index t (0 : Fin 2) * 4096 + 1 * p.val; omega
    | ⟨1, _⟩ => show win1_0.index t (1 : Fin 2) * 2 + 1 * k.val = k.val; omega
  have hw : ∀ k : Fin 2, iblk1 V c 1 t (ix2 k q) = V c (Pipeline.arrRef spec1 1) (ix2 k ((((cfg1.win 3).blk t).view.emb (ix2 p q)) 1)) := fun k => by
    show V c (Pipeline.arrRef spec1 1) (((cfg1.win 1).blk t).view.emb (ix2 k q)) = _
    refine congrArg (V c (Pipeline.arrRef spec1 1)) (funext fun a => Fin.ext ?_)
    match a with
    | ⟨0, _⟩ => show win1_1.index t (0 : Fin 2) * 2 + 1 * k.val = k.val; omega
    | ⟨1, _⟩ => show win1_1.index t (1 : Fin 2) * 64 + 1 * q.val = win1_3.index t (1 : Fin 2) * 64 + 1 * q.val; omega
  have hb : iblk1 V c 2 t (ix2 (0 : Fin 1) q) = V c (Pipeline.arrRef spec1 2) (ix2 (0 : Fin 1) ((((cfg1.win 3).blk t).view.emb (ix2 p q)) 1)) := by
    show V c (Pipeline.arrRef spec1 2) (((cfg1.win 2).blk t).view.emb (ix2 (0 : Fin 1) q)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  rw [hb]
  exact congrArg (· + _) (Finset.sum_congr rfl fun k _ => by rw [hx k, hw k])

/-- An index of the output array is in point `t`'s block iff each coordinate is in the block's range on its axis. -/
theorem mem_blk1_3 (t : Fin cfg1.N) (i : S524288x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole (Pipeline.arrRef spec1 3)).slice (win1_3.rect t)).set ↔ _
  rw [View.set_slice_whole, Rect.mem_set_unit]
  exact Iff.rfl

/-- Every index of the output array is in some point's block: row r is in block r / 4096. -/
theorem covered1_3 (i : S524288x64.Idx) : ∃ t : Fin cfg1.N, (cfg1.win 3).flush t = true ∧ i ∈ ((cfg1.win 3).blk t).view.set := by
  have hi0 : (i 0).val < 524288 := (i 0).isLt
  have hi1 : (i 1).val < 64 := (i 1).isLt
  have hN : (i 0).val / 4096 < cfg1.N := by rw [show cfg1.N = 128 from N_1]; omega
  obtain ⟨e0, e1, e2, e3, e4, e5, e6, e7⟩ := idx_facts1 ⟨(i 0).val / 4096, hN⟩
  have e6' : win1_3.index ⟨(i 0).val / 4096, hN⟩ (0 : Fin 2) = (i 0).val / 4096 := e6
  refine ⟨⟨(i 0).val / 4096, hN⟩, flush1_3 _, ?_⟩
  rw [mem_blk1_3]
  intro a
  match a with
  | ⟨0, _⟩ => show win1_3.index ⟨(i 0).val / 4096, hN⟩ (0 : Fin 2) * 4096 ≤ (i 0).val ∧ (i 0).val < win1_3.index ⟨(i 0).val / 4096, hN⟩ (0 : Fin 2) * 4096 + 4096; omega
  | ⟨1, _⟩ => show win1_3.index ⟨(i 0).val / 4096, hN⟩ (1 : Fin 2) * 64 ≤ (i 1).val ∧ (i 1).val < win1_3.index ⟨(i 0).val / 4096, hN⟩ (1 : Fin 2) * 64 + 64; omega

/-- THE OUTPUT ARRAY after the region: the linear layer of the reciprocals, of the three input arrays as the region finds them. -/
theorem arr1_3 (c : Dev nD) : (dat1 (F := Ideal) V c).arrAt 3 cfg1.N
    = G1_3 (V c (Pipeline.arrRef spec1 0)) (V c (Pipeline.arrRef spec1 1)) (V c (Pipeline.arrRef spec1 2)) :=
  (dat1 V c).arrAt_eq_of_cover 3 _ (fun t _ => flushed1_3_eq V c t) (covered1_3)

end Cert.KernelIdeal.Hand

end
-- ==== Proof.KI.V2.lean ====
import proofs.«142356_j74423193305351_1_alg».proof.Proof.KI.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # REGION 2 at the ideal values: the output array as one function of the three input arrays -/

/-- The linear layer, index by index: row `i 0` of x against column `i 1` of W, summed over the 64 input features, plus
    the bias at that column. -/
def G2_3 (x : Vec Ideal S32768x64 .f32) (W : Vec Ideal S64x256 .f32) (b : Vec Ideal S1x256 .f32) : Vec Ideal S32768x256 .f32 :=
  fun i => (∑ k : Fin 64, x (ix2 (i 0) k) * W (ix2 k (i 1))) + b (ix2 (0 : Fin 1) (i 1))

/-! ## The body's payload at an index -/

/-- The matrix unit's contraction index is its one coordinate; the left operand is read at (row, k) -/
theorem lhs_dot2_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_dot2_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
/-- and the right operand at (k, column). -/
theorem rhs_dot2_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_dot2_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The block product into the zero accumulator, at (p, q): the sum over the 64 features of the products. -/
theorem matmul2_apply (A : FVec Ideal S4096x64 .bf16) (B : FVec Ideal S64x256 .bf16) (p : Fin 4096) (q : Fin 256) :
    FloatOps.matmul dot_S4096x64_S64x256_S4096x256_1_0_0_1_n_n none A B (constant (F := Ideal) S4096x256 .f32 0x00000000#32) (ix2 p q)
      = ∑ k : Fin 64, A (ix2 p k) * B (ix2 k q) := by
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k := funext fun a => Fin.ext (by
    match a with
    | ⟨0, _⟩ => exact lhs_dot2_0 _ _
    | ⟨1, _⟩ => exact (lhs_dot2_1 _ _).trans hk)
  have er : dot_S4096x64_S64x256_S4096x256_1_0_0_1_n_n.rhsIdx (ix2 p q) ((contrEquiv1 dot_S4096x64_S64x256_S4096x256_1_0_0_1_n_n 64 rfl rfl).symm k) = ix2 k q := funext fun a => Fin.ext (by
    match a with
    | ⟨0, _⟩ => exact (rhs_dot2_0 _ _).trans hk
    | ⟨1, _⟩ => exact rhs_dot2_1 _ _)
  rw [el, er]

/-- The body's payload at (p, q): the casts to the matrix unit's type are the identity at the ideal values, the bias row
    is broadcast over the rows. -/
theorem pay2_apply (x0 : Vec Ideal S4096x64 .f32) (x1 : Vec Ideal S64x256 .f32) (x2 : Vec Ideal S1x256 .f32) (p : Fin 4096) (q : Fin 256) :
    k2_pay1 x0 x1 x2 (ix2 p q) = (∑ k : Fin 64, x0 (ix2 p k) * x1 (ix2 k q)) + x2 (ix2 (0 : Fin 1) q) := by
  unfold k2_pay1
  simp only [matmul, shapeCast_self]
  rw [addf_apply, matmul2_apply, broadcastTo_1b_ab_apply]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the row block of x moves with the output's row block, which is the point's number; the
    weight and the bias stay at their one block; every block's column index is 0. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

-- each block read is compared with the array read through the window's index map: the buffers' types are looked up in
-- the program's table of buffers, which is long
set_option maxHeartbeats 1000000 in
/-- What point `t` writes back is block `t` of the linear layer of the arrays as the region finds them. -/
theorem flushed2_3_eq (c : Dev nD) (t : Fin cfg2.N) :
    (dat2 (F := Ideal) V c).flushed 3 t = ((cfg2.win 3).blk t).view.read (Elt Ideal)
      (G2_3 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S4096x64) hz2, View.ld_unit_zero (S := S64x256) hz2, View.ld_unit_zero (S := S1x256) hz2]
  obtain ⟨e0, e1, e2, e3, e4, e5, e6, e7⟩ := idx_facts2 t
  funext j
  obtain ⟨p, q, rfl⟩ : ∃ (p : Fin 4096) (q : Fin 256), j = ix2 p q := ⟨j 0, j 1, eq_ix2 j⟩
  show k2_pay1 (iblk2 V c 0 t) (iblk2 V c 1 t) (iblk2 V c 2 t) (ix2 p q)
    = G2_3 (V c (Pipeline.arrRef spec2 0)) (V c (Pipeline.arrRef spec2 1)) (V c (Pipeline.arrRef spec2 2)) (((cfg2.win 3).blk t).view.emb (ix2 p q))
  rw [pay2_apply]
  unfold G2_3
  have hx : ∀ k : Fin 64, iblk2 V c 0 t (ix2 p k) = V c (Pipeline.arrRef spec2 0) (ix2 ((((cfg2.win 3).blk t).view.emb (ix2 p q)) 0) k) := fun k => by
    show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 4096 + 1 * p.val = win2_3.index t (0 : Fin 2) * 4096 + 1 * p.val; omega
    | ⟨1, _⟩ => show win2_0.index t (1 : Fin 2) * 64 + 1 * k.val = k.val; omega
  have hw : ∀ k : Fin 64, iblk2 V c 1 t (ix2 k q) = V c (Pipeline.arrRef spec2 1) (ix2 k ((((cfg2.win 3).blk t).view.emb (ix2 p q)) 1)) := fun k => by
    show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 64 + 1 * k.val = k.val; omega
    | ⟨1, _⟩ => show win2_1.index t (1 : Fin 2) * 256 + 1 * q.val = win2_3.index t (1 : Fin 2) * 256 + 1 * q.val; omega
  have hb : iblk2 V c 2 t (ix2 (0 : Fin 1) q) = V c (Pipeline.arrRef spec2 2) (ix2 (0 : Fin 1) ((((cfg2.win 3).blk t).view.emb (ix2 p q)) 1)) := by
    show V c (Pipeline.arrRef spec2 2) (((cfg2.win 2).blk t).view.emb (ix2 (0 : Fin 1) q)) = _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 256 + 1 * q.val = win2_3.index t (1 : Fin 2) * 256 + 1 * q.val; omega
  rw [hb]
  exact congrArg (· + _) (Finset.sum_congr rfl fun k _ => by rw [hx k, hw k])

/-- An index of the output array is in point `t`'s block iff each coordinate is in the block's range on its axis. -/
theorem mem_blk2_3 (t : Fin cfg2.N) (i : S32768x256.Idx) :
    i ∈ ((cfg2.win 3).blk t).view.set ↔ ∀ a : Fin 2, win2_3.index t a * S4096x256.size a ≤ (i a).val ∧ (i a).val < win2_3.index t a * S4096x256.size a + S4096x256.size a := by
  show i ∈ ((View.whole (Pipeline.arrRef spec2 3)).slice (win2_3.rect t)).set ↔ _
  rw [View.set_slice_whole, Rect.mem_set_unit]
  exact Iff.rfl

/-- Every index of the output array is in some point's block: row r is in block r / 4096. -/
theorem covered2_3 (i : S32768x256.Idx) : ∃ t : Fin cfg2.N, (cfg2.win 3).flush t = true ∧ i ∈ ((cfg2.win 3).blk t).view.set := by
  have hi0 : (i 0).val < 32768 := (i 0).isLt
  have hi1 : (i 1).val < 256 := (i 1).isLt
  have hN : (i 0).val / 4096 < cfg2.N := by rw [show cfg2.N = 8 from N_2]; omega
  obtain ⟨e0, e1, e2, e3, e4, e5, e6, e7⟩ := idx_facts2 ⟨(i 0).val / 4096, hN⟩
  have e6' : win2_3.index ⟨(i 0).val / 4096, hN⟩ (0 : Fin 2) = (i 0).val / 4096 := e6
  refine ⟨⟨(i 0).val / 4096, hN⟩, flush2_3 _, ?_⟩
  rw [mem_blk2_3]
  intro a
  match a with
  | ⟨0, _⟩ => show win2_3.index ⟨(i 0).val / 4096, hN⟩ (0 : Fin 2) * 4096 ≤ (i 0).val ∧ (i 0).val < win2_3.index ⟨(i 0).val / 4096, hN⟩ (0 : Fin 2) * 4096 + 4096; omega
  | ⟨1, _⟩ => show win2_3.index ⟨(i 0).val / 4096, hN⟩ (1 : Fin 2) * 256 ≤ (i 1).val ∧ (i 1).val < win2_3.index ⟨(i 0).val / 4096, hN⟩ (1 : Fin 2) * 256 + 256; omega

/-- THE OUTPUT ARRAY after the region: the linear layer of the three input arrays as the region finds them. -/
theorem arr2_3 (c : Dev nD) : (dat2 (F := Ideal) V c).arrAt 3 cfg2.N
    = G2_3 (V c (Pipeline.arrRef spec2 0)) (V c (Pipeline.arrRef spec2 1)) (V c (Pipeline.arrRef spec2 2)) :=
  (dat2 V c).arrAt_eq_of_cover 3 _ (fun t _ => flushed2_3_eq V c t) (covered2_3)

end Cert.KernelIdeal.Hand

end
-- ==== Proof.KI.V3.lean ====
import proofs.«142356_j74423193305351_1_alg».proof.Proof.KI.R3
import Idealize.ShloMosaic.Lib.Pipeline.Value
import Idealize.ShloMosaic.Lib.ValueIdx
import Idealize.ShloMosaic.Lib.ValueLayout
import Idealize.ShloMosaic.PureOps.Ideal.Laws

/-! # Region 3 of @main (the edge update): its three output arrays as functions of its input arrays, at the ideal values

With `x` the edge features (524288 × 64), `W` the weights (64 × 64), `b` the bias row (1 × 64) and `d`, `g`, `u` the
gathered node arrays (524288 × 64 each), the region leaves, at every index `(r, q)`,

* the pre-activation `ê(r, q) = ((Σ_k x(r, k) · W(k, q) + b(0, q)) + d(r, q)) + g(r, q)`,
* the gate `σ(ê(r, q))`, and
* the gated message `σ(ê(r, q)) · u(r, q)`.

The body computes exactly this on each block of 4096 rows (at the ideal values the casts to bf16 are the identity and
the matrix unit's product is the plain sum), block `t` is rows `4096·t … 4096·t + 4095` of every blocked array, and the
128 blocks tile the 524288 rows. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification -/

/-- The pre-activation `ê = x·W + b + d + g`, index by index, the sums grouped as the body adds them. -/
def ehat3 (x : Vec Ideal S524288x64 .f32) (W : Vec Ideal S64x64 .f32) (b : Vec Ideal S1x64 .f32)
    (d g : Vec Ideal S524288x64 .f32) : Vec Ideal S524288x64 .f32 :=
  fun i => (((∑ k : Fin 64, x (ix2 (i 0) k) * W (ix2 k (i 1))) + b (ix2 (0 : Fin 1) (i 1))) + d i) + g i

/-- Output window 6's array: the pre-activation. -/
def G3_6 (x : Vec Ideal S524288x64 .f32) (W : Vec Ideal S64x64 .f32) (b : Vec Ideal S1x64 .f32)
    (d g : Vec Ideal S524288x64 .f32) : Vec Ideal S524288x64 .f32 :=
  ehat3 x W b d g

/-- Output window 7's array: the gate, the logistic function of the pre-activation. -/
def G3_7 (x : Vec Ideal S524288x64 .f32) (W : Vec Ideal S64x64 .f32) (b : Vec Ideal S1x64 .f32)
    (d g : Vec Ideal S524288x64 .f32) : Vec Ideal S524288x64 .f32 :=
  fun i => Ideal.logistic (ehat3 x W b d g i)

/-- Output window 8's array: the gate times the third gathered array. -/
def G3_8 (x : Vec Ideal S524288x64 .f32) (W : Vec Ideal S64x64 .f32) (b : Vec Ideal S1x64 .f32)
    (d g u : Vec Ideal S524288x64 .f32) : Vec Ideal S524288x64 .f32 :=
  fun i => Ideal.logistic (ehat3 x W b d g i) * u i

/-- The pre-activation at an index given by its coordinates. -/
theorem ehat3_ix2 (x : Vec Ideal S524288x64 .f32) (W : Vec Ideal S64x64 .f32) (b : Vec Ideal S1x64 .f32)
    (d g : Vec Ideal S524288x64 .f32) (r : Fin 524288) (q : Fin 64) :
    ehat3 x W b d g (ix2 r q)
      = (((∑ k : Fin 64, x (ix2 r k) * W (ix2 k q)) + b (ix2 (0 : Fin 1) q)) + d (ix2 r q)) + g (ix2 r q) := rfl

/-! ## The body's payloads at an index -/

/-- The matrix product of a 4096 × 64 block by the 64 × 64 weights into the zero accumulator, at `(p, q)`: the sum
    over the contracted coordinate of the products of the entries. -/
theorem matmul3_apply (A : FVec Ideal S4096x64 .bf16) (B : FVec Ideal S64x64 .bf16) (p : Fin 4096) (q : Fin 64) :
    matmul dot_S4096x64_S64x64_S4096x64_1_0_0_1_n_n none A B (constant (F := Ideal) S4096x64 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 p q) ((contrEquiv1 _ 64 rfl rfl).symm c) = ix2 p c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 p q) ((contrEquiv1 _ 64 rfl rfl).symm c) = ix2 c q := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- The first payload (the pre-activation of a block) at `(p, q)`: the casts are the identity, the bias row is read
    at its one row, the sums are the extended reals'. -/
theorem k3_pay1_apply (x0 : Vec Ideal S4096x64 .f32) (x1 : Vec Ideal S64x64 .f32) (x2 : Vec Ideal S1x64 .f32)
    (x3 x4 : Vec Ideal S4096x64 .f32) (p : Fin 4096) (q : Fin 64) :
    k3_pay1 x0 x1 x2 x3 x4 (ix2 p q)
      = (((∑ k : Fin 64, x0 (ix2 p k) * x1 (ix2 k q)) + x2 (ix2 (0 : Fin 1) q)) + x3 (ix2 p q)) + x4 (ix2 p q) := by
  unfold k3_pay1
  simp only [shapeCast_self]
  rw [addf_apply, addf_apply, addf_apply, broadcastTo_1b_ab_apply, matmul3_apply]
  rfl

/-- The second payload is the logistic function of the first, elementwise. -/
theorem k3_pay2_apply (x0 : Vec Ideal S4096x64 .f32) (x1 : Vec Ideal S64x64 .f32) (x2 : Vec Ideal S1x64 .f32)
    (x3 x4 : Vec Ideal S4096x64 .f32) (j : S4096x64.Idx) :
    k3_pay2 x0 x1 x2 x3 x4 j = Ideal.logistic (k3_pay1 x0 x1 x2 x3 x4 j) := rfl

/-- The third payload is the second times the sixth block, elementwise. -/
theorem k3_pay3_apply (x0 : Vec Ideal S4096x64 .f32) (x1 : Vec Ideal S64x64 .f32) (x2 : Vec Ideal S1x64 .f32)
    (x3 x4 x5 : Vec Ideal S4096x64 .f32) (j : S4096x64.Idx) :
    k3_pay3 x0 x1 x2 x3 x4 x5 j = Ideal.logistic (k3_pay1 x0 x1 x2 x3 x4 j) * x5 j := by
  unfold k3_pay3
  simp only [shapeCast_self]
  rfl

/-! ## Block `t` is rows `4096·t … 4096·t + 4095` -/

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the seven blocked windows are at block `(t, 0)`, the weights and the bias row
    at block `(0, 0)`. -/
theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = t.val ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- Row `p` of block `t`, as a row of the whole array. -/
def row3 (t : Fin cfg3.N) (p : Fin 4096) : Fin 524288 :=
  ⟨4096 * t.val + p.val, by have ht : t.val < 128 := N_3 ▸ t.isLt; have hp := p.isLt; omega⟩

/-- Window 0's block at `t` sits in its array at rows `4096·t + p`, all 64 columns. -/
theorem emb_blk3_0 (t : Fin cfg3.N) (p : Fin 4096) (q : Fin 64) :
    ((cfg3.win 0).blk t).view.emb (ix2 p q) = ix2 (row3 t p) q := by
  obtain ⟨e0, e1⟩ := (idx_facts3 t).1
  funext a; apply Fin.ext
  match a with
  | ⟨0, _⟩ => show win3_0.index t (0 : Fin 2) * 4096 + 1 * p.val = 4096 * t.val + p.val; rw [e0]; omega
  | ⟨1, _⟩ => show win3_0.index t (1 : Fin 2) * 64 + 1 * q.val = q.val; rw [e1]; omega
/-- Window 3's block at `t` sits in its array at rows `4096·t + p`, all 64 columns. -/
theorem emb_blk3_3 (t : Fin cfg3.N) (p : Fin 4096) (q : Fin 64) :
    ((cfg3.win 3).blk t).view.emb (ix2 p q) = ix2 (row3 t p) q := by
  obtain ⟨e0, e1⟩ := (idx_facts3 t).2.2.2.1
  funext a; apply Fin.ext
  match a with
  | ⟨0, _⟩ => show win3_3.index t (0 : Fin 2) * 4096 + 1 * p.val = 4096 * t.val + p.val; rw [e0]; omega
  | ⟨1, _⟩ => show win3_3.index t (1 : Fin 2) * 64 + 1 * q.val = q.val; rw [e1]; omega
/-- Window 4's block at `t` sits in its array at rows `4096·t + p`, all 64 columns. -/
theorem emb_blk3_4 (t : Fin cfg3.N) (p : Fin 4096) (q : Fin 64) :
    ((cfg3.win 4).blk t).view.emb (ix2 p q) = ix2 (row3 t p) q := by
  obtain ⟨e0, e1⟩ := (idx_facts3 t).2.2.2.2.1
  funext a; apply Fin.ext
  match a with
  | ⟨0, _⟩ => show win3_4.index t (0 : Fin 2) * 4096 + 1 * p.val = 4096 * t.val + p.val; rw [e0]; omega
  | ⟨1, _⟩ => show win3_4.index t (1 : Fin 2) * 64 + 1 * q.val = q.val; rw [e1]; omega
/-- Window 5's block at `t` sits in its array at rows `4096·t + p`, all 64 columns. -/
theorem emb_blk3_5 (t : Fin cfg3.N) (p : Fin 4096) (q : Fin 64) :
    ((cfg3.win 5).blk t).view.emb (ix2 p q) = ix2 (row3 t p) q := by
  obtain ⟨e0, e1⟩ := (idx_facts3 t).2.2.2.2.2.1
  funext a; apply Fin.ext
  match a with
  | ⟨0, _⟩ => show win3_5.index t (0 : Fin 2) * 4096 + 1 * p.val = 4096 * t.val + p.val; rw [e0]; omega
  | ⟨1, _⟩ => show win3_5.index t (1 : Fin 2) * 64 + 1 * q.val = q.val; rw [e1]; omega
/-- Window 6's block at `t` sits in its array at rows `4096·t + p`, all 64 columns. -/
theorem emb_blk3_6 (t : Fin cfg3.N) (p : Fin 4096) (q : Fin 64) :
    ((cfg3.win 6).blk t).view.emb (ix2 p q) = ix2 (row3 t p) q := by
  obtain ⟨e0, e1⟩ := (idx_facts3 t).2.2.2.2.2.2.1
  funext a; apply Fin.ext
  match a with
  | ⟨0, _⟩ => show win3_6.index t (0 : Fin 2) * 4096 + 1 * p.val = 4096 * t.val + p.val; rw [e0]; omega
  | ⟨1, _⟩ => show win3_6.index t (1 : Fin 2) * 64 + 1 * q.val = q.val; rw [e1]; omega
/-- Window 7's block at `t` sits in its array at rows `4096·t + p`, all 64 columns. -/
theorem emb_blk3_7 (t : Fin cfg3.N) (p : Fin 4096) (q : Fin 64) :
    ((cfg3.win 7).blk t).view.emb (ix2 p q) = ix2 (row3 t p) q := by
  obtain ⟨e0, e1⟩ := (idx_facts3 t).2.2.2.2.2.2.2.1
  funext a; apply Fin.ext
  match a with
  | ⟨0, _⟩ => show win3_7.index t (0 : Fin 2) * 4096 + 1 * p.val = 4096 * t.val + p.val; rw [e0]; omega
  | ⟨1, _⟩ => show win3_7.index t (1 : Fin 2) * 64 + 1 * q.val = q.val; rw [e1]; omega
/-- Window 8's block at `t` sits in its array at rows `4096·t + p`, all 64 columns. -/
theorem emb_blk3_8 (t : Fin cfg3.N) (p : Fin 4096) (q : Fin 64) :
    ((cfg3.win 8).blk t).view.emb (ix2 p q) = ix2 (row3 t p) q := by
  obtain ⟨e0, e1⟩ := (idx_facts3 t).2.2.2.2.2.2.2.2
  funext a; apply Fin.ext
  match a with
  | ⟨0, _⟩ => show win3_8.index t (0 : Fin 2) * 4096 + 1 * p.val = 4096 * t.val + p.val; rw [e0]; omega
  | ⟨1, _⟩ => show win3_8.index t (1 : Fin 2) * 64 + 1 * q.val = q.val; rw [e1]; omega
/-- The weights' block is the whole array at every point. -/
theorem emb_blk3_1 (t : Fin cfg3.N) (k : Fin 64) (q : Fin 64) :
    ((cfg3.win 1).blk t).view.emb (ix2 k q) = ix2 k q := by
  obtain ⟨e0, e1⟩ := (idx_facts3 t).2.1
  funext a; apply Fin.ext
  match a with
  | ⟨0, _⟩ => show win3_1.index t (0 : Fin 2) * 64 + 1 * k.val = k.val; rw [e0]; omega
  | ⟨1, _⟩ => show win3_1.index t (1 : Fin 2) * 64 + 1 * q.val = q.val; rw [e1]; omega
/-- The bias row's block is the whole array at every point. -/
theorem emb_blk3_2 (t : Fin cfg3.N) (z : Fin 1) (q : Fin 64) :
    ((cfg3.win 2).blk t).view.emb (ix2 z q) = ix2 z q := by
  obtain ⟨e0, e1⟩ := (idx_facts3 t).2.2.1
  funext a; apply Fin.ext
  match a with
  | ⟨0, _⟩ => show win3_2.index t (0 : Fin 2) * 1 + 1 * z.val = z.val; rw [e0]; omega
  | ⟨1, _⟩ => show win3_2.index t (1 : Fin 2) * 64 + 1 * q.val = q.val; rw [e1]; omega

/-! ## Each input block read off its array -/

theorem iblk3_0_apply (c : Dev nD) (t : Fin cfg3.N) (p : Fin 4096) (q : Fin 64) :
    iblk3 V c 0 t (ix2 p q) = V c (Pipeline.arrRef spec3 0) (ix2 (row3 t p) q) := by
  show V c (Pipeline.arrRef spec3 0) (((cfg3.win 0).blk t).view.emb (ix2 p q)) = _
  rw [emb_blk3_0]
theorem iblk3_3_apply (c : Dev nD) (t : Fin cfg3.N) (p : Fin 4096) (q : Fin 64) :
    iblk3 V c 3 t (ix2 p q) = V c (Pipeline.arrRef spec3 3) (ix2 (row3 t p) q) := by
  show V c (Pipeline.arrRef spec3 3) (((cfg3.win 3).blk t).view.emb (ix2 p q)) = _
  rw [emb_blk3_3]
theorem iblk3_4_apply (c : Dev nD) (t : Fin cfg3.N) (p : Fin 4096) (q : Fin 64) :
    iblk3 V c 4 t (ix2 p q) = V c (Pipeline.arrRef spec3 4) (ix2 (row3 t p) q) := by
  show V c (Pipeline.arrRef spec3 4) (((cfg3.win 4).blk t).view.emb (ix2 p q)) = _
  rw [emb_blk3_4]
theorem iblk3_5_apply (c : Dev nD) (t : Fin cfg3.N) (p : Fin 4096) (q : Fin 64) :
    iblk3 V c 5 t (ix2 p q) = V c (Pipeline.arrRef spec3 5) (ix2 (row3 t p) q) := by
  show V c (Pipeline.arrRef spec3 5) (((cfg3.win 5).blk t).view.emb (ix2 p q)) = _
  rw [emb_blk3_5]
theorem iblk3_1_apply (c : Dev nD) (t : Fin cfg3.N) (k : Fin 64) (q : Fin 64) :
    iblk3 V c 1 t (ix2 k q) = V c (Pipeline.arrRef spec3 1) (ix2 k q) := by
  show V c (Pipeline.arrRef spec3 1) (((cfg3.win 1).blk t).view.emb (ix2 k q)) = _
  rw [emb_blk3_1]
theorem iblk3_2_apply (c : Dev nD) (t : Fin cfg3.N) (z : Fin 1) (q : Fin 64) :
    iblk3 V c 2 t (ix2 z q) = V c (Pipeline.arrRef spec3 2) (ix2 z q) := by
  show V c (Pipeline.arrRef spec3 2) (((cfg3.win 2).blk t).view.emb (ix2 z q)) = _
  rw [emb_blk3_2]

/-- The pre-activation payload of the blocks at `t`, at `(p, q)`, is the pre-activation of the arrays at row
    `4096·t + p`, column `q`. -/
theorem pre3_apply (c : Dev nD) (t : Fin cfg3.N) (p : Fin 4096) (q : Fin 64) :
    k3_pay1 (iblk3 V c 0 t) (iblk3 V c 1 t) (iblk3 V c 2 t) (iblk3 V c 3 t) (iblk3 V c 4 t) (ix2 p q)
      = ehat3 (V c (Pipeline.arrRef spec3 0)) (V c (Pipeline.arrRef spec3 1)) (V c (Pipeline.arrRef spec3 2))
          (V c (Pipeline.arrRef spec3 3)) (V c (Pipeline.arrRef spec3 4)) (ix2 (row3 t p) q) := by
  rw [k3_pay1_apply, ehat3_ix2]
  simp only [iblk3_0_apply, iblk3_1_apply, iblk3_2_apply, iblk3_3_apply, iblk3_4_apply]

/-- The gate payload of the blocks at `t`, at `(p, q)`, is the gate of the arrays at row `4096·t + p`, column `q`. -/
theorem gate3_apply (c : Dev nD) (t : Fin cfg3.N) (p : Fin 4096) (q : Fin 64) :
    k3_pay2 (iblk3 V c 0 t) (iblk3 V c 1 t) (iblk3 V c 2 t) (iblk3 V c 3 t) (iblk3 V c 4 t) (ix2 p q) = G3_7 (V c (Pipeline.arrRef spec3 0)) (V c (Pipeline.arrRef spec3 1)) (V c (Pipeline.arrRef spec3 2)) (V c (Pipeline.arrRef spec3 3)) (V c (Pipeline.arrRef spec3 4)) (ix2 (row3 t p) q) := by
  unfold G3_7
  rw [k3_pay2_apply, pre3_apply]

/-- The message payload of the blocks at `t`, at `(p, q)`, is the gated message of the arrays at row `4096·t + p`,
    column `q`. -/
theorem msg3_apply (c : Dev nD) (t : Fin cfg3.N) (p : Fin 4096) (q : Fin 64) :
    k3_pay3 (iblk3 V c 0 t) (iblk3 V c 1 t) (iblk3 V c 2 t) (iblk3 V c 3 t) (iblk3 V c 4 t) (iblk3 V c 5 t) (ix2 p q) = G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (ix2 (row3 t p) q) := by
  unfold G3_8
  rw [k3_pay3_apply, pre3_apply, iblk3_5_apply]

/-! ## What each point writes back, and the arrays after the region -/

set_option maxHeartbeats 1000000 in
/-- What point `t` writes back to window 6's array is block `t` of `G3_6` of the input arrays. -/
theorem flushed3_6_eq (c : Dev nD) (t : Fin cfg3.N) :
    (dat3 (F := Ideal) V c).flushed 6 t = ((cfg3.win 6).blk t).view.read (Elt Ideal) (G3_6 (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 V c).after 6 t) = _
  rw [after3_6]
  unfold out3_6
  rw [View.canon_unit_zero hz3]
  simp only [View.ld_unit_zero (S := S4096x64) hz3, View.ld_unit_zero (S := S64x64) hz3, View.ld_unit_zero (S := S1x64) hz3]
  generalize hP : k3_pay1 (iblk3 V c 0 t) (iblk3 V c 1 t) (iblk3 V c 2 t) (iblk3 V c 3 t) (iblk3 V c 4 t) = P
  funext j
  obtain ⟨p, q, rfl⟩ : ∃ (p : Fin 4096) (q : Fin 64), j = ix2 p q := ⟨j 0, j 1, eq_ix2 j⟩
  show P (ix2 p q) = (G3_6 (V c (Pipeline.arrRef spec3 0)) (V c (Pipeline.arrRef spec3 1)) (V c (Pipeline.arrRef spec3 2)) (V c (Pipeline.arrRef spec3 3)) (V c (Pipeline.arrRef spec3 4))) (((cfg3.win 6).blk t).view.emb (ix2 p q))
  rw [← hP, emb_blk3_6]
  exact pre3_apply V c t p q

/-- An index of window 6's array is in point `t`'s block iff each coordinate is in the block's range on its axis. -/
theorem mem_blk3_6 (t : Fin cfg3.N) (i : S524288x64.Idx) :
    i ∈ ((cfg3.win 6).blk t).view.set ↔ ∀ a : Fin 2, win3_6.index t a * S4096x64.size a ≤ (i a).val ∧ (i a).val < win3_6.index t a * S4096x64.size a + S4096x64.size a := by
  show i ∈ ((View.whole (Pipeline.arrRef spec3 6)).slice (win3_6.rect t)).set ↔ _
  rw [View.set_slice_whole, Rect.mem_set_unit]
  exact Iff.rfl

/-- Every index of window 6's array is in some point's block: row `r` is in block `r / 4096`. -/
theorem covered3_6 (i : S524288x64.Idx) :
    ∃ t : Fin cfg3.N, (cfg3.win 6).flush t = true ∧ i ∈ ((cfg3.win 6).blk t).view.set := by
  have hi0 : (i 0).val < 524288 := (i 0).isLt
  have hi1 : (i 1).val < 64 := (i 1).isLt
  obtain ⟨t, ht⟩ : ∃ t : Fin cfg3.N, t.val = (i 0).val / 4096 := ⟨⟨(i 0).val / 4096, by rw [show cfg3.N = 128 from N_3]; omega⟩, rfl⟩
  obtain ⟨e0, e1⟩ := (idx_facts3 t).2.2.2.2.2.2.1
  refine ⟨t, flush3_6 t, ?_⟩
  rw [mem_blk3_6]
  intro a
  match a with
  | ⟨0, _⟩ => show win3_6.index t (0 : Fin 2) * 4096 ≤ (i 0).val ∧ (i 0).val < win3_6.index t (0 : Fin 2) * 4096 + 4096; rw [e0]; omega
  | ⟨1, _⟩ => show win3_6.index t (1 : Fin 2) * 64 ≤ (i 1).val ∧ (i 1).val < win3_6.index t (1 : Fin 2) * 64 + 64; rw [e1]; omega

/-- Window 6's array after the region is `G3_6` of the input arrays as the region finds them. -/
theorem arr3_6 (c : Dev nD) :
    (dat3 (F := Ideal) V c).arrAt 6 cfg3.N = G3_6 (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 6 (G3_6 (V c (Pipeline.arrRef spec3 0)) (V c (Pipeline.arrRef spec3 1)) (V c (Pipeline.arrRef spec3 2)) (V c (Pipeline.arrRef spec3 3)) (V c (Pipeline.arrRef spec3 4))) (fun t _ => flushed3_6_eq V c t) covered3_6

set_option maxHeartbeats 1000000 in
/-- What point `t` writes back to window 7's array is block `t` of `G3_7` of the input arrays. -/
theorem flushed3_7_eq (c : Dev nD) (t : Fin cfg3.N) :
    (dat3 (F := Ideal) V c).flushed 7 t = ((cfg3.win 7).blk t).view.read (Elt Ideal) (G3_7 (V c (Pipeline.arrRef spec3 0)) (V c (Pipeline.arrRef spec3 1)) (V c (Pipeline.arrRef spec3 2)) (V c (Pipeline.arrRef spec3 3)) (V c (Pipeline.arrRef spec3 4))) := by
  show (cfg3.win 7).cut (grid3.coords t) ((dat3 V c).after 7 t) = _
  rw [after3_7]
  unfold out3_7
  rw [View.canon_unit_zero hz3]
  simp only [View.ld_unit_zero (S := S4096x64) hz3, View.ld_unit_zero (S := S64x64) hz3, View.ld_unit_zero (S := S1x64) hz3]
  generalize hP : k3_pay2 (iblk3 V c 0 t) (iblk3 V c 1 t) (iblk3 V c 2 t) (iblk3 V c 3 t) (iblk3 V c 4 t) = P
  funext j
  obtain ⟨p, q, rfl⟩ : ∃ (p : Fin 4096) (q : Fin 64), j = ix2 p q := ⟨j 0, j 1, eq_ix2 j⟩
  show P (ix2 p q) = (G3_7 (V c (Pipeline.arrRef spec3 0)) (V c (Pipeline.arrRef spec3 1)) (V c (Pipeline.arrRef spec3 2)) (V c (Pipeline.arrRef spec3 3)) (V c (Pipeline.arrRef spec3 4))) (((cfg3.win 7).blk t).view.emb (ix2 p q))
  rw [← hP, emb_blk3_7]
  exact gate3_apply V c t p q

/-- An index of window 7's array is in point `t`'s block iff each coordinate is in the block's range on its axis. -/
theorem mem_blk3_7 (t : Fin cfg3.N) (i : S524288x64.Idx) :
    i ∈ ((cfg3.win 7).blk t).view.set ↔ ∀ a : Fin 2, win3_7.index t a * S4096x64.size a ≤ (i a).val ∧ (i a).val < win3_7.index t a * S4096x64.size a + S4096x64.size a := by
  show i ∈ ((View.whole (Pipeline.arrRef spec3 7)).slice (win3_7.rect t)).set ↔ _
  rw [View.set_slice_whole, Rect.mem_set_unit]
  exact Iff.rfl

/-- Every index of window 7's array is in some point's block: row `r` is in block `r / 4096`. -/
theorem covered3_7 (i : S524288x64.Idx) :
    ∃ t : Fin cfg3.N, (cfg3.win 7).flush t = true ∧ i ∈ ((cfg3.win 7).blk t).view.set := by
  have hi0 : (i 0).val < 524288 := (i 0).isLt
  have hi1 : (i 1).val < 64 := (i 1).isLt
  obtain ⟨t, ht⟩ : ∃ t : Fin cfg3.N, t.val = (i 0).val / 4096 := ⟨⟨(i 0).val / 4096, by rw [show cfg3.N = 128 from N_3]; omega⟩, rfl⟩
  obtain ⟨e0, e1⟩ := (idx_facts3 t).2.2.2.2.2.2.2.1
  refine ⟨t, flush3_7 t, ?_⟩
  rw [mem_blk3_7]
  intro a
  match a with
  | ⟨0, _⟩ => show win3_7.index t (0 : Fin 2) * 4096 ≤ (i 0).val ∧ (i 0).val < win3_7.index t (0 : Fin 2) * 4096 + 4096; rw [e0]; omega
  | ⟨1, _⟩ => show win3_7.index t (1 : Fin 2) * 64 ≤ (i 1).val ∧ (i 1).val < win3_7.index t (1 : Fin 2) * 64 + 64; rw [e1]; omega

/-- Window 7's array after the region is `G3_7` of the input arrays as the region finds them. -/
theorem arr3_7 (c : Dev nD) :
    (dat3 (F := Ideal) V c).arrAt 7 cfg3.N = G3_7 (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 7 (G3_7 (V c (Pipeline.arrRef spec3 0)) (V c (Pipeline.arrRef spec3 1)) (V c (Pipeline.arrRef spec3 2)) (V c (Pipeline.arrRef spec3 3)) (V c (Pipeline.arrRef spec3 4))) (fun t _ => flushed3_7_eq V c t) covered3_7

set_option maxHeartbeats 1000000 in
/-- What point `t` writes back to window 8's array is block `t` of `G3_8` of the input arrays. -/
theorem flushed3_8_eq (c : Dev nD) (t : Fin cfg3.N) :
    (dat3 (F := Ideal) V c).flushed 8 t = ((cfg3.win 8).blk t).view.read (Elt Ideal) (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 8).cut (grid3.coords t) ((dat3 V c).after 8 t) = _
  rw [after3_8]
  unfold out3_8
  rw [View.canon_unit_zero hz3]
  simp only [View.ld_unit_zero (S := S4096x64) hz3, View.ld_unit_zero (S := S64x64) hz3, View.ld_unit_zero (S := S1x64) hz3]
  generalize hP : k3_pay3 (iblk3 V c 0 t) (iblk3 V c 1 t) (iblk3 V c 2 t) (iblk3 V c 3 t) (iblk3 V c 4 t) (iblk3 V c 5 t) = P
  funext j
  obtain ⟨p, q, rfl⟩ : ∃ (p : Fin 4096) (q : Fin 64), j = ix2 p q := ⟨j 0, j 1, eq_ix2 j⟩
  show P (ix2 p q) = (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (((cfg3.win 8).blk t).view.emb (ix2 p q))
  rw [← hP, emb_blk3_8]
  exact msg3_apply V c t p q

/-- An index of window 8's array is in point `t`'s block iff each coordinate is in the block's range on its axis. -/
theorem mem_blk3_8 (t : Fin cfg3.N) (i : S524288x64.Idx) :
    i ∈ ((cfg3.win 8).blk t).view.set ↔ ∀ a : Fin 2, win3_8.index t a * S4096x64.size a ≤ (i a).val ∧ (i a).val < win3_8.index t a * S4096x64.size a + S4096x64.size a := by
  show i ∈ ((View.whole (Pipeline.arrRef spec3 8)).slice (win3_8.rect t)).set ↔ _
  rw [View.set_slice_whole, Rect.mem_set_unit]
  exact Iff.rfl

/-- Every index of window 8's array is in some point's block: row `r` is in block `r / 4096`. -/
theorem covered3_8 (i : S524288x64.Idx) :
    ∃ t : Fin cfg3.N, (cfg3.win 8).flush t = true ∧ i ∈ ((cfg3.win 8).blk t).view.set := by
  have hi0 : (i 0).val < 524288 := (i 0).isLt
  have hi1 : (i 1).val < 64 := (i 1).isLt
  obtain ⟨t, ht⟩ : ∃ t : Fin cfg3.N, t.val = (i 0).val / 4096 := ⟨⟨(i 0).val / 4096, by rw [show cfg3.N = 128 from N_3]; omega⟩, rfl⟩
  obtain ⟨e0, e1⟩ := (idx_facts3 t).2.2.2.2.2.2.2.2
  refine ⟨t, flush3_8 t, ?_⟩
  rw [mem_blk3_8]
  intro a
  match a with
  | ⟨0, _⟩ => show win3_8.index t (0 : Fin 2) * 4096 ≤ (i 0).val ∧ (i 0).val < win3_8.index t (0 : Fin 2) * 4096 + 4096; rw [e0]; omega
  | ⟨1, _⟩ => show win3_8.index t (1 : Fin 2) * 64 ≤ (i 1).val ∧ (i 1).val < win3_8.index t (1 : Fin 2) * 64 + 64; rw [e1]; omega

/-- Window 8's array after the region is `G3_8` of the input arrays as the region finds them. -/
theorem arr3_8 (c : Dev nD) :
    (dat3 (F := Ideal) V c).arrAt 8 cfg3.N = G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 8 (G3_8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (fun t _ => flushed3_8_eq V c t) covered3_8

end Cert.KernelIdeal.Hand
-- ==== Proof.KI.V4.lean ====
import proofs.«142356_j74423193305351_1_alg».proof.Proof.KI.R4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: batch-norm, relu and residual, index by index -/

/-- The node array region 4 leaves, as one function of the arrays it reads: at row p and column q,
    old(p, q) + max (gamma(q) * (new(p, q) - mean(q)) * rsqrt (var(q) + eps) + beta(q)) 0, the four
    statistics being single rows read at column q, eps the body's literal word, and the products and
    sums grouped as the body computes them. -/
def G4_6 (x : Vec Ideal S32768x64 .f32) (mu : Vec Ideal S1x64 .f32) (va : Vec Ideal S1x64 .f32) (ga : Vec Ideal S1x64 .f32) (be : Vec Ideal S1x64 .f32) (o : Vec Ideal S32768x64 .f32) : Vec Ideal S32768x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

/-- The same at an index given by its coordinates. -/
theorem G4_6_apply (x : Vec Ideal S32768x64 .f32) (mu : Vec Ideal S1x64 .f32) (va : Vec Ideal S1x64 .f32) (ga : Vec Ideal S1x64 .f32) (be : Vec Ideal S1x64 .f32) (o : Vec Ideal S32768x64 .f32) (p : Fin 32768) (q : Fin 64) :
    G4_6 x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-! ## The body's payload at an index -/

/-- The body's stored value at row p, column q of a block, from the six loaded blocks: every operation
    of the body is pointwise except the four broadcasts of a single row over the rows of the block, each
    of which reads its row at column q; the zero constant is the real zero. -/
theorem pay4_apply (x0 : Vec Ideal S8192x64 .f32) (x1 : Vec Ideal S1x64 .f32) (x2 : Vec Ideal S1x64 .f32) (x3 : Vec Ideal S1x64 .f32) (x4 : Vec Ideal S1x64 .f32) (x5 : Vec Ideal S8192x64 .f32) (p : Fin 8192) (q : Fin 64) :
    k4_pay1 (F := Ideal) x0 x1 x2 x3 x4 x5 (ix2 p q)
      = x5 (ix2 p q) + max (((x3 (ix2 0 q) * (x0 (ix2 p q) - x1 (ix2 0 q))) * Ideal.rsqrt (x2 (ix2 0 q) + Ideal.ofBits .f32 0x3727C5AC#32)) + x4 (ix2 0 q)) 0 := by
  unfold k4_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  show x5 (ix2 p q) + max (((x3 (ix2 0 q) * (x0 (ix2 p q) - x1 (ix2 0 q))) * Ideal.rsqrt (x2 (ix2 0 q) + Ideal.ofBits .f32 0x3727C5AC#32)) + x4 (ix2 0 q)) (Ideal.ofBits .f32 0x00000000#32) = _
  rw [Ideal.ofBits_zero_f32]

/-! ## From blocks to the array -/

/-- The zero offsets of a whole-block access, as the constant function. -/
theorem hz4 : (![0, 0] : Fin 2 → Nat) = fun _ => 0 := funext fun a => by fin_cases a <;> rfl

/-- The printed index maps, decided over the grid: the two row-block inputs and the output are at block
    (t, 0) at point t, and the four single-row inputs are at block (0, 0) at every point. -/
theorem idx_facts4 : ∀ t : Fin cfg4.N,
    win4_6.index t (0 : Fin 2) = t.val ∧ win4_6.index t (1 : Fin 2) = 0
    ∧ win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Where a block puts its elements in its array: a block's coordinate is the block index times the block
    size plus the coordinate inside the block. The output's block at point t puts row p, column q at row
    t * 8192 + p, column q; -/
theorem emb4_6 (t : Fin cfg4.N) (p : Fin 8192) (q : Fin 64) (h : t.val * 8192 + p.val < 32768) :
    ((cfg4.win 6).blk t).view.emb (ix2 p q) = ix2 (⟨t.val * 8192 + p.val, h⟩ : Fin 32768) q := by
  obtain ⟨e6a, e6b, -⟩ := idx_facts4 t
  funext a; apply Fin.ext
  match a with
  | ⟨0, _⟩ => show win4_6.index t (0 : Fin 2) * 8192 + 1 * p.val = t.val * 8192 + p.val; omega
  | ⟨1, _⟩ => show win4_6.index t (1 : Fin 2) * 64 + 1 * q.val = q.val; omega

/-- so do the blocks of the two row-block inputs; -/
theorem emb4_0 (t : Fin cfg4.N) (p : Fin 8192) (q : Fin 64) (h : t.val * 8192 + p.val < 32768) :
    ((cfg4.win 0).blk t).view.emb (ix2 p q) = ix2 (⟨t.val * 8192 + p.val, h⟩ : Fin 32768) q := by
  obtain ⟨-, -, e0a, e0b, -⟩ := idx_facts4 t
  funext a; apply Fin.ext
  match a with
  | ⟨0, _⟩ => show win4_0.index t (0 : Fin 2) * 8192 + 1 * p.val = t.val * 8192 + p.val; omega
  | ⟨1, _⟩ => show win4_0.index t (1 : Fin 2) * 64 + 1 * q.val = q.val; omega

theorem emb4_5 (t : Fin cfg4.N) (p : Fin 8192) (q : Fin 64) (h : t.val * 8192 + p.val < 32768) :
    ((cfg4.win 5).blk t).view.emb (ix2 p q) = ix2 (⟨t.val * 8192 + p.val, h⟩ : Fin 32768) q := by
  obtain ⟨-, -, -, -, e5a, e5b, -⟩ := idx_facts4 t
  funext a; apply Fin.ext
  match a with
  | ⟨0, _⟩ => show win4_5.index t (0 : Fin 2) * 8192 + 1 * p.val = t.val * 8192 + p.val; omega
  | ⟨1, _⟩ => show win4_5.index t (1 : Fin 2) * 64 + 1 * q.val = q.val; omega

/-- and each single-row input's block is its whole array at every point. -/
theorem emb4_1 (t : Fin cfg4.N) (q : Fin 64) : ((cfg4.win 1).blk t).view.emb (ix2 (0 : Fin 1) q) = ix2 (0 : Fin 1) q := by
  obtain ⟨-, -, -, -, -, -, e1a, e1b, -⟩ := idx_facts4 t
  funext a; apply Fin.ext
  match a with
  | ⟨0, _⟩ => show win4_1.index t (0 : Fin 2) * 1 + 1 * 0 = 0; omega
  | ⟨1, _⟩ => show win4_1.index t (1 : Fin 2) * 64 + 1 * q.val = q.val; omega

theorem emb4_2 (t : Fin cfg4.N) (q : Fin 64) : ((cfg4.win 2).blk t).view.emb (ix2 (0 : Fin 1) q) = ix2 (0 : Fin 1) q := by
  obtain ⟨-, -, -, -, -, -, -, -, e2a, e2b, -⟩ := idx_facts4 t
  funext a; apply Fin.ext
  match a with
  | ⟨0, _⟩ => show win4_2.index t (0 : Fin 2) * 1 + 1 * 0 = 0; omega
  | ⟨1, _⟩ => show win4_2.index t (1 : Fin 2) * 64 + 1 * q.val = q.val; omega

theorem emb4_3 (t : Fin cfg4.N) (q : Fin 64) : ((cfg4.win 3).blk t).view.emb (ix2 (0 : Fin 1) q) = ix2 (0 : Fin 1) q := by
  obtain ⟨-, -, -, -, -, -, -, -, -, -, e3a, e3b, -⟩ := idx_facts4 t
  funext a; apply Fin.ext
  match a with
  | ⟨0, _⟩ => show win4_3.index t (0 : Fin 2) * 1 + 1 * 0 = 0; omega
  | ⟨1, _⟩ => show win4_3.index t (1 : Fin 2) * 64 + 1 * q.val = q.val; omega

theorem emb4_4 (t : Fin cfg4.N) (q : Fin 64) : ((cfg4.win 4).blk t).view.emb (ix2 (0 : Fin 1) q) = ix2 (0 : Fin 1) q := by
  obtain ⟨-, -, -, -, -, -, -, -, -, -, -, -, e4a, e4b⟩ := idx_facts4 t
  funext a; apply Fin.ext
  match a with
  | ⟨0, _⟩ => show win4_4.index t (0 : Fin 2) * 1 + 1 * 0 = 0; omega
  | ⟨1, _⟩ => show win4_4.index t (1 : Fin 2) * 64 + 1 * q.val = q.val; omega

/-- The formula read through embeddings: when the two row-block inputs and the output are read at one and
    the same element (r, q) of their arrays and the single-row inputs at column q, the body's value there is
    the specification's. Stated over arrays of literal shapes. -/
theorem G4_6_at (A0 : Vec Ideal S32768x64 .f32) (A1 : Vec Ideal S1x64 .f32) (A2 : Vec Ideal S1x64 .f32) (A3 : Vec Ideal S1x64 .f32) (A4 : Vec Ideal S1x64 .f32) (A5 : Vec Ideal S32768x64 .f32)
    (e0 e5 e6 : S32768x64.Idx) (e1 e2 e3 e4 : S1x64.Idx) (r : Fin 32768) (q : Fin 64)
    (h0 : e0 = ix2 r q) (h1 : e1 = ix2 (0 : Fin 1) q) (h2 : e2 = ix2 (0 : Fin 1) q) (h3 : e3 = ix2 (0 : Fin 1) q) (h4 : e4 = ix2 (0 : Fin 1) q) (h5 : e5 = ix2 r q) (h6 : e6 = ix2 r q) :
    A5 e5 + max (((A3 e3 * (A0 e0 - A1 e1)) * Ideal.rsqrt (A2 e2 + Ideal.ofBits .f32 0x3727C5AC#32)) + A4 e4) 0 = G4_6 A0 A1 A2 A3 A4 A5 e6 := by
  subst h0 h1 h2 h3 h4 h5 h6
  rfl

-- the TensorCore's buffer contents when the region is entered, at the ideal instance
variable (V : (c : Dev nD) → (b : Ref sig .tc) → Buf (Elt Ideal) ((c : Thread nD τ).loc b))

set_option maxHeartbeats 1000000 in
/-- What point t writes back is block t of G4_6 of the arrays as the region finds them: the payload at
    row p, column q of the block reads the row-block inputs at row t * 8192 + p of their arrays, where
    the output's block puts that element, and the single-row inputs at column q. -/
theorem flushed4_6_eq (c : Dev nD) (t : Fin cfg4.N) :
    (dat4 (F := Ideal) V c).flushed 6 t = ((cfg4.win 6).blk t).view.read (Elt Ideal)
      (G4_6 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz4]
  simp only [View.ld_unit_zero (S := S8192x64) hz4, View.ld_unit_zero (S := S1x64) hz4]
  have ht : t.val < 4 := lt_of_lt_of_eq t.isLt N_4
  funext j
  obtain ⟨p, q, rfl⟩ : ∃ (p : Fin 8192) (q : Fin 64), j = ix2 p q := ⟨j 0, j 1, eq_ix2 j⟩
  refine (pay4_apply (iblk4 V c 0 t) (iblk4 V c 1 t) (iblk4 V c 2 t) (iblk4 V c 3 t) (iblk4 V c 4 t) (iblk4 V c 5 t) p q).trans ?_
  have hlt : t.val * 8192 + p.val < 32768 := by have := p.isLt; omega
  exact G4_6_at (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    _ _ _ _ _ _ _ ⟨t.val * 8192 + p.val, hlt⟩ q
    (emb4_0 t p q hlt) (emb4_1 t q) (emb4_2 t q) (emb4_3 t q) (emb4_4 t q) (emb4_5 t p q hlt) (emb4_6 t p q hlt)

/-- The output's blocks tile the array: the element at row r, column q is element (r % 8192, q) of the
    block of point r / 8192. -/
theorem covered4_6 (i : S32768x64.Idx) :
    ∃ t : Fin cfg4.N, (cfg4.win 6).flush t = true ∧ i ∈ ((cfg4.win 6).blk t).view.set := by
  have hi0 : (i 0).val < 32768 := idx2_lt0 i
  have hq : (i 1).val < 64 := idx2_lt1 i
  have hN : grid4.N = 4 := N_4
  have hlt : (i 0).val / 8192 < grid4.N := by omega
  have hp : (i 0).val % 8192 < 8192 := Nat.mod_lt _ (by decide)
  have hr : (i 0).val / 8192 * 8192 + (i 0).val % 8192 < 32768 := by omega
  obtain ⟨t, p, q, e⟩ : ∃ (t : Fin cfg4.N) (p : Fin 8192) (q : Fin 64), ((cfg4.win 6).blk t).view.emb (ix2 p q) = i := by
    refine ⟨⟨(i 0).val / 8192, hlt⟩, ⟨(i 0).val % 8192, hp⟩, ⟨(i 1).val, hq⟩, ?_⟩
    rw [emb4_6 ⟨(i 0).val / 8192, hlt⟩ ⟨(i 0).val % 8192, hp⟩ ⟨(i 1).val, hq⟩ hr]
    funext a; apply Fin.ext
    match a with
    | ⟨0, _⟩ => show (i 0).val / 8192 * 8192 + (i 0).val % 8192 = (i 0).val; omega
    | ⟨1, _⟩ => rfl
  subst e
  exact ⟨t, flush4_6 t, View.emb_mem_set _ _⟩

/-- THE ARRAY region 4 leaves: G4_6 of the arrays it reads, as the region finds them. -/
theorem arr4_6 (c : Dev nD) : (dat4 (F := Ideal) V c).arrAt 6 cfg4.N
    = G4_6 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 _ (fun t _ => flushed4_6_eq V c t) covered4_6

end Cert.KernelIdeal.Hand
-- ==== Proof.KI.V5.lean ====
import proofs.«142356_j74423193305351_1_alg».proof.Proof.KI.R5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: batch-norm, relu and residual, index by index -/

/-- The node array region 5 leaves, as one function of the arrays it reads: at row p and column q,
    old(p, q) + max (gamma(q) * (new(p, q) - mean(q)) * rsqrt (var(q) + eps) + beta(q)) 0, the four
    statistics being single rows read at column q, eps the body's literal word, and the products and
    sums grouped as the body computes them. -/
def G5_6 (x : Vec Ideal S524288x64 .f32) (mu : Vec Ideal S1x64 .f32) (va : Vec Ideal S1x64 .f32) (ga : Vec Ideal S1x64 .f32) (be : Vec Ideal S1x64 .f32) (o : Vec Ideal S524288x64 .f32) : Vec Ideal S524288x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

/-- The same at an index given by its coordinates. -/
theorem G5_6_apply (x : Vec Ideal S524288x64 .f32) (mu : Vec Ideal S1x64 .f32) (va : Vec Ideal S1x64 .f32) (ga : Vec Ideal S1x64 .f32) (be : Vec Ideal S1x64 .f32) (o : Vec Ideal S524288x64 .f32) (p : Fin 524288) (q : Fin 64) :
    G5_6 x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-! ## The body's payload at an index -/

/-- The body's stored value at row p, column q of a block, from the six loaded blocks: every operation
    of the body is pointwise except the four broadcasts of a single row over the rows of the block, each
    of which reads its row at column q; the zero constant is the real zero. -/
theorem pay5_apply (x0 : Vec Ideal S8192x64 .f32) (x1 : Vec Ideal S1x64 .f32) (x2 : Vec Ideal S1x64 .f32) (x3 : Vec Ideal S1x64 .f32) (x4 : Vec Ideal S1x64 .f32) (x5 : Vec Ideal S8192x64 .f32) (p : Fin 8192) (q : Fin 64) :
    k5_pay1 (F := Ideal) x0 x1 x2 x3 x4 x5 (ix2 p q)
      = x5 (ix2 p q) + max (((x3 (ix2 0 q) * (x0 (ix2 p q) - x1 (ix2 0 q))) * Ideal.rsqrt (x2 (ix2 0 q) + Ideal.ofBits .f32 0x3727C5AC#32)) + x4 (ix2 0 q)) 0 := by
  unfold k5_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  show x5 (ix2 p q) + max (((x3 (ix2 0 q) * (x0 (ix2 p q) - x1 (ix2 0 q))) * Ideal.rsqrt (x2 (ix2 0 q) + Ideal.ofBits .f32 0x3727C5AC#32)) + x4 (ix2 0 q)) (Ideal.ofBits .f32 0x00000000#32) = _
  rw [Ideal.ofBits_zero_f32]

/-! ## From blocks to the array -/

/-- The zero offsets of a whole-block access, as the constant function. -/
theorem hz5 : (![0, 0] : Fin 2 → Nat) = fun _ => 0 := funext fun a => by fin_cases a <;> rfl

/-- The printed index maps, decided over the grid: the two row-block inputs and the output are at block
    (t, 0) at point t, and the four single-row inputs are at block (0, 0) at every point. -/
theorem idx_facts5 : ∀ t : Fin cfg5.N,
    win5_6.index t (0 : Fin 2) = t.val ∧ win5_6.index t (1 : Fin 2) = 0
    ∧ win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Where a block puts its elements in its array: a block's coordinate is the block index times the block
    size plus the coordinate inside the block. The output's block at point t puts row p, column q at row
    t * 8192 + p, column q; -/
theorem emb5_6 (t : Fin cfg5.N) (p : Fin 8192) (q : Fin 64) (h : t.val * 8192 + p.val < 524288) :
    ((cfg5.win 6).blk t).view.emb (ix2 p q) = ix2 (⟨t.val * 8192 + p.val, h⟩ : Fin 524288) q := by
  obtain ⟨e6a, e6b, -⟩ := idx_facts5 t
  funext a; apply Fin.ext
  match a with
  | ⟨0, _⟩ => show win5_6.index t (0 : Fin 2) * 8192 + 1 * p.val = t.val * 8192 + p.val; omega
  | ⟨1, _⟩ => show win5_6.index t (1 : Fin 2) * 64 + 1 * q.val = q.val; omega

/-- so do the blocks of the two row-block inputs; -/
theorem emb5_0 (t : Fin cfg5.N) (p : Fin 8192) (q : Fin 64) (h : t.val * 8192 + p.val < 524288) :
    ((cfg5.win 0).blk t).view.emb (ix2 p q) = ix2 (⟨t.val * 8192 + p.val, h⟩ : Fin 524288) q := by
  obtain ⟨-, -, e0a, e0b, -⟩ := idx_facts5 t
  funext a; apply Fin.ext
  match a with
  | ⟨0, _⟩ => show win5_0.index t (0 : Fin 2) * 8192 + 1 * p.val = t.val * 8192 + p.val; omega
  | ⟨1, _⟩ => show win5_0.index t (1 : Fin 2) * 64 + 1 * q.val = q.val; omega

theorem emb5_5 (t : Fin cfg5.N) (p : Fin 8192) (q : Fin 64) (h : t.val * 8192 + p.val < 524288) :
    ((cfg5.win 5).blk t).view.emb (ix2 p q) = ix2 (⟨t.val * 8192 + p.val, h⟩ : Fin 524288) q := by
  obtain ⟨-, -, -, -, e5a, e5b, -⟩ := idx_facts5 t
  funext a; apply Fin.ext
  match a with
  | ⟨0, _⟩ => show win5_5.index t (0 : Fin 2) * 8192 + 1 * p.val = t.val * 8192 + p.val; omega
  | ⟨1, _⟩ => show win5_5.index t (1 : Fin 2) * 64 + 1 * q.val = q.val; omega

/-- and each single-row input's block is its whole array at every point. -/
theorem emb5_1 (t : Fin cfg5.N) (q : Fin 64) : ((cfg5.win 1).blk t).view.emb (ix2 (0 : Fin 1) q) = ix2 (0 : Fin 1) q := by
  obtain ⟨-, -, -, -, -, -, e1a, e1b, -⟩ := idx_facts5 t
  funext a; apply Fin.ext
  match a with
  | ⟨0, _⟩ => show win5_1.index t (0 : Fin 2) * 1 + 1 * 0 = 0; omega
  | ⟨1, _⟩ => show win5_1.index t (1 : Fin 2) * 64 + 1 * q.val = q.val; omega

theorem emb5_2 (t : Fin cfg5.N) (q : Fin 64) : ((cfg5.win 2).blk t).view.emb (ix2 (0 : Fin 1) q) = ix2 (0 : Fin 1) q := by
  obtain ⟨-, -, -, -, -, -, -, -, e2a, e2b, -⟩ := idx_facts5 t
  funext a; apply Fin.ext
  match a with
  | ⟨0, _⟩ => show win5_2.index t (0 : Fin 2) * 1 + 1 * 0 = 0; omega
  | ⟨1, _⟩ => show win5_2.index t (1 : Fin 2) * 64 + 1 * q.val = q.val; omega

theorem emb5_3 (t : Fin cfg5.N) (q : Fin 64) : ((cfg5.win 3).blk t).view.emb (ix2 (0 : Fin 1) q) = ix2 (0 : Fin 1) q := by
  obtain ⟨-, -, -, -, -, -, -, -, -, -, e3a, e3b, -⟩ := idx_facts5 t
  funext a; apply Fin.ext
  match a with
  | ⟨0, _⟩ => show win5_3.index t (0 : Fin 2) * 1 + 1 * 0 = 0; omega
  | ⟨1, _⟩ => show win5_3.index t (1 : Fin 2) * 64 + 1 * q.val = q.val; omega

theorem emb5_4 (t : Fin cfg5.N) (q : Fin 64) : ((cfg5.win 4).blk t).view.emb (ix2 (0 : Fin 1) q) = ix2 (0 : Fin 1) q := by
  obtain ⟨-, -, -, -, -, -, -, -, -, -, -, -, e4a, e4b⟩ := idx_facts5 t
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- The formula read through embeddings: when the two row-block inputs and the output are read at one and
    the same element (r, q) of their arrays and the single-row inputs at column q, the body's value there is
    the specification's. Stated over arrays of literal shapes. -/
theorem G5_6_at (A0 : Vec Ideal S524288x64 .f32) (A1 : Vec Ideal S1x64 .f32) (A2 : Vec Ideal S1x64 .f32) (A3 : Vec Ideal S1x64 .f32) (A4 : Vec Ideal S1x64 .f32) (A5 : Vec Ideal S524288x64 .f32)
    (e0 e5 e6 : S524288x64.Idx) (e1 e2 e3 e4 : S1x64.Idx) (r : Fin 524288) (q : Fin 64)
    (h0 : e0 = ix2 r q) (h1 : e1 = ix2 (0 : Fin 1) q) (h2 : e2 = ix2 (0 : Fin 1) q) (h3 : e3 = ix2 (0 : Fin 1) q) (h4 : e4 = ix2 (0 : Fin 1) q) (h5 : e5 = ix2 r q) (h6 : e6 = ix2 r q) :
    A5 e5 + max (((A3 e3 * (A0 e0 - A1 e1)) * Ideal.rsqrt (A2 e2 + Ideal.ofBits .f32 0x3727C5AC#32)) + A4 e4) 0 = G5_6 A0 A1 A2 A3 A4 A5 e6 := by
  subst h0 h1 h2 h3 h4 h5 h6
  rfl

-- the TensorCore's buffer contents when the region is entered, at the ideal instance
variable (V : (c : Dev nD) → (b : Ref sig .tc) → Buf (Elt Ideal) ((c : Thread nD τ).loc b))

set_option maxHeartbeats 1000000 in
/-- What point t writes back is block t of G5_6 of the arrays as the region finds them: the payload at
    row p, column q of the block reads the row-block inputs at row t * 8192 + p of their arrays, where
    the output's block puts that element, and the single-row inputs at column q. -/
theorem flushed5_6_eq (c : Dev nD) (t : Fin cfg5.N) :
    (dat5 (F := Ideal) V c).flushed 6 t = ((cfg5.win 6).blk t).view.read (Elt Ideal)
      (G5_6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S8192x64) hz5, View.ld_unit_zero (S := S1x64) hz5]
  have ht : t.val < 64 := lt_of_lt_of_eq t.isLt N_5
  funext j
  obtain ⟨p, q, rfl⟩ : ∃ (p : Fin 8192) (q : Fin 64), j = ix2 p q := ⟨j 0, j 1, eq_ix2 j⟩
  refine (pay5_apply (iblk5 V c 0 t) (iblk5 V c 1 t) (iblk5 V c 2 t) (iblk5 V c 3 t) (iblk5 V c 4 t) (iblk5 V c 5 t) p q).trans ?_
  have hlt : t.val * 8192 + p.val < 524288 := by have := p.isLt; omega
  exact G5_6_at (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
    _ _ _ _ _ _ _ ⟨t.val * 8192 + p.val, hlt⟩ q
    (emb5_0 t p q hlt) (emb5_1 t q) (emb5_2 t q) (emb5_3 t q) (emb5_4 t q) (emb5_5 t p q hlt) (emb5_6 t p q hlt)

/-- The output's blocks tile the array: the element at row r, column q is element (r % 8192, q) of the
    block of point r / 8192. -/
theorem covered5_6 (i : S524288x64.Idx) :
    ∃ t : Fin cfg5.N, (cfg5.win 6).flush t = true ∧ i ∈ ((cfg5.win 6).blk t).view.set := by
  have hi0 : (i 0).val < 524288 := idx2_lt0 i
  have hq : (i 1).val < 64 := idx2_lt1 i
  have hN : grid5.N = 64 := N_5
  have hlt : (i 0).val / 8192 < grid5.N := by omega
  have hp : (i 0).val % 8192 < 8192 := Nat.mod_lt _ (by decide)
  have hr : (i 0).val / 8192 * 8192 + (i 0).val % 8192 < 524288 := by omega
  obtain ⟨t, p, q, e⟩ : ∃ (t : Fin cfg5.N) (p : Fin 8192) (q : Fin 64), ((cfg5.win 6).blk t).view.emb (ix2 p q) = i := by
    refine ⟨⟨(i 0).val / 8192, hlt⟩, ⟨(i 0).val % 8192, hp⟩, ⟨(i 1).val, hq⟩, ?_⟩
    rw [emb5_6 ⟨(i 0).val / 8192, hlt⟩ ⟨(i 0).val % 8192, hp⟩ ⟨(i 1).val, hq⟩ hr]
    funext a; apply Fin.ext
    match a with
    | ⟨0, _⟩ => show (i 0).val / 8192 * 8192 + (i 0).val % 8192 = (i 0).val; omega
    | ⟨1, _⟩ => rfl
  subst e
  exact ⟨t, flush5_6 t, View.emb_mem_set _ _⟩

/-- THE ARRAY region 5 leaves: G5_6 of the arrays it reads, as the region finds them. -/
theorem arr5_6 (c : Dev nD) : (dat5 (F := Ideal) V c).arrAt 6 cfg5.N
    = G5_6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_6_eq V c t) covered5_6

end Cert.KernelIdeal.Hand
-- ==== Proof.KI.V6.lean ====
import proofs.«142356_j74423193305351_1_alg».proof.Proof.KI.R6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # REGION 6 at the ideal values: the output array as one function of the three input arrays -/

/-- The linear layer, index by index: row `i 0` of x against column `i 1` of W, summed over the 64 input features, plus
    the bias at that column. -/
def G6_3 (x : Vec Ideal S32768x64 .f32) (W : Vec Ideal S64x256 .f32) (b : Vec Ideal S1x256 .f32) : Vec Ideal S32768x256 .f32 :=
  fun i => (∑ k : Fin 64, x (ix2 (i 0) k) * W (ix2 k (i 1))) + b (ix2 (0 : Fin 1) (i 1))

/-! ## The body's payload at an index -/

/-- The matrix unit's contraction index is its one coordinate; the left operand is read at (row, k) -/
theorem lhs_dot6_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_dot6_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
/-- and the right operand at (k, column). -/
theorem rhs_dot6_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_dot6_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The block product into the zero accumulator, at (p, q): the sum over the 64 features of the products. -/
theorem matmul6_apply (A : FVec Ideal S4096x64 .bf16) (B : FVec Ideal S64x256 .bf16) (p : Fin 4096) (q : Fin 256) :
    FloatOps.matmul dot_S4096x64_S64x256_S4096x256_1_0_0_1_n_n none A B (constant (F := Ideal) S4096x256 .f32 0x00000000#32) (ix2 p q)
      = ∑ k : Fin 64, A (ix2 p k) * B (ix2 k q) := by
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k := funext fun a => Fin.ext (by
    match a with
    | ⟨0, _⟩ => exact lhs_dot6_0 _ _
    | ⟨1, _⟩ => exact (lhs_dot6_1 _ _).trans hk)
  have er : dot_S4096x64_S64x256_S4096x256_1_0_0_1_n_n.rhsIdx (ix2 p q) ((contrEquiv1 dot_S4096x64_S64x256_S4096x256_1_0_0_1_n_n 64 rfl rfl).symm k) = ix2 k q := funext fun a => Fin.ext (by
    match a with
    | ⟨0, _⟩ => exact (rhs_dot6_0 _ _).trans hk
    | ⟨1, _⟩ => exact rhs_dot6_1 _ _)
  rw [el, er]

/-- The body's payload at (p, q): the casts to the matrix unit's type are the identity at the ideal values, the bias row
    is broadcast over the rows. -/
theorem pay6_apply (x0 : Vec Ideal S4096x64 .f32) (x1 : Vec Ideal S64x256 .f32) (x2 : Vec Ideal S1x256 .f32) (p : Fin 4096) (q : Fin 256) :
    k6_pay1 x0 x1 x2 (ix2 p q) = (∑ k : Fin 64, x0 (ix2 p k) * x1 (ix2 k q)) + x2 (ix2 (0 : Fin 1) q) := by
  unfold k6_pay1
  simp only [matmul, shapeCast_self]
  rw [addf_apply, matmul6_apply, broadcastTo_1b_ab_apply]
  rfl

/-! ## From blocks to the array -/

variable (V : (c : Dev nD) → (b : Ref sig .tc) → Buf (Elt Ideal) ((c : Thread nD τ).loc b))

theorem hz6 : (![0, 0] : Fin 2 → Nat) = fun _ => 0 := funext fun a => by fin_cases a <;> rfl

/-- The index maps over the grid: the row block of x moves with the output's row block, which is the point's number; the
    weight and the bias stay at their one block; every block's column index is 0. -/
theorem idx_facts6 : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

-- each block read is compared with the array read through the window's index map: the buffers' types are looked up in
-- the program's table of buffers, which is long
set_option maxHeartbeats 1000000 in
/-- What point `t` writes back is block `t` of the linear layer of the arrays as the region finds them. -/
theorem flushed6_3_eq (c : Dev nD) (t : Fin cfg6.N) :
    (dat6 (F := Ideal) V c).flushed 3 t = ((cfg6.win 3).blk t).view.read (Elt Ideal)
      (G6_3 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S4096x64) hz6, View.ld_unit_zero (S := S64x256) hz6, View.ld_unit_zero (S := S1x256) hz6]
  obtain ⟨e0, e1, e2, e3, e4, e5, e6, e7⟩ := idx_facts6 t
  funext j
  obtain ⟨p, q, rfl⟩ : ∃ (p : Fin 4096) (q : Fin 256), j = ix2 p q := ⟨j 0, j 1, eq_ix2 j⟩
  show k6_pay1 (iblk6 V c 0 t) (iblk6 V c 1 t) (iblk6 V c 2 t) (ix2 p q)
    = G6_3 (V c (Pipeline.arrRef spec6 0)) (V c (Pipeline.arrRef spec6 1)) (V c (Pipeline.arrRef spec6 2)) (((cfg6.win 3).blk t).view.emb (ix2 p q))
  rw [pay6_apply]
  unfold G6_3
  have hx : ∀ k : Fin 64, iblk6 V c 0 t (ix2 p k) = V c (Pipeline.arrRef spec6 0) (ix2 ((((cfg6.win 3).blk t).view.emb (ix2 p q)) 0) k) := fun k => by
    show V c (Pipeline.arrRef spec6 0) (((cfg6.win 0).blk t).view.emb (ix2 p k)) = _
    refine congrArg (V c (Pipeline.arrRef spec6 0)) (funext fun a => Fin.ext ?_)
    match a with
    | ⟨0, _⟩ => show win6_0.index t (0 : Fin 2) * 4096 + 1 * p.val = win6_3.index t (0 : Fin 2) * 4096 + 1 * p.val; omega
    | ⟨1, _⟩ => show win6_0.index t (1 : Fin 2) * 64 + 1 * k.val = k.val; omega
  have hw : ∀ k : Fin 64, iblk6 V c 1 t (ix2 k q) = V c (Pipeline.arrRef spec6 1) (ix2 k ((((cfg6.win 3).blk t).view.emb (ix2 p q)) 1)) := fun k => by
    show V c (Pipeline.arrRef spec6 1) (((cfg6.win 1).blk t).view.emb (ix2 k q)) = _
    refine congrArg (V c (Pipeline.arrRef spec6 1)) (funext fun a => Fin.ext ?_)
    match a with
    | ⟨0, _⟩ => show win6_1.index t (0 : Fin 2) * 64 + 1 * k.val = k.val; omega
    | ⟨1, _⟩ => show win6_1.index t (1 : Fin 2) * 256 + 1 * q.val = win6_3.index t (1 : Fin 2) * 256 + 1 * q.val; omega
  have hb : iblk6 V c 2 t (ix2 (0 : Fin 1) q) = V c (Pipeline.arrRef spec6 2) (ix2 (0 : Fin 1) ((((cfg6.win 3).blk t).view.emb (ix2 p q)) 1)) := by
    show V c (Pipeline.arrRef spec6 2) (((cfg6.win 2).blk t).view.emb (ix2 (0 : Fin 1) q)) = _
    refine congrArg (V c (Pipeline.arrRef spec6 2)) (funext fun a => Fin.ext ?_)
    match a with
    | ⟨0, _⟩ => show win6_2.index t (0 : Fin 2) * 1 + 1 * 0 = 0; omega
    | ⟨1, _⟩ => show win6_2.index t (1 : Fin 2) * 256 + 1 * q.val = win6_3.index t (1 : Fin 2) * 256 + 1 * q.val; omega
  rw [hb]
  exact congrArg (· + _) (Finset.sum_congr rfl fun k _ => by rw [hx k, hw k])

/-- An index of the output array is in point `t`'s block iff each coordinate is in the block's range on its axis. -/
theorem mem_blk6_3 (t : Fin cfg6.N) (i : S32768x256.Idx) :
    i ∈ ((cfg6.win 3).blk t).view.set ↔ ∀ a : Fin 2, win6_3.index t a * S4096x256.size a ≤ (i a).val ∧ (i a).val < win6_3.index t a * S4096x256.size a + S4096x256.size a := by
  show i ∈ ((View.whole (Pipeline.arrRef spec6 3)).slice (win6_3.rect t)).set ↔ _
  rw [View.set_slice_whole, Rect.mem_set_unit]
  exact Iff.rfl

/-- Every index of the output array is in some point's block: row r is in block r / 4096. -/
theorem covered6_3 (i : S32768x256.Idx) : ∃ t : Fin cfg6.N, (cfg6.win 3).flush t = true ∧ i ∈ ((cfg6.win 3).blk t).view.set := by
  have hi0 : (i 0).val < 32768 := (i 0).isLt
  have hi1 : (i 1).val < 256 := (i 1).isLt
  have hN : (i 0).val / 4096 < cfg6.N := by rw [show cfg6.N = 8 from N_6]; omega
  obtain ⟨e0, e1, e2, e3, e4, e5, e6, e7⟩ := idx_facts6 ⟨(i 0).val / 4096, hN⟩
  have e6' : win6_3.index ⟨(i 0).val / 4096, hN⟩ (0 : Fin 2) = (i 0).val / 4096 := e6
  refine ⟨⟨(i 0).val / 4096, hN⟩, flush6_3 _, ?_⟩
  rw [mem_blk6_3]
  intro a
  match a with
  | ⟨0, _⟩ => show win6_3.index ⟨(i 0).val / 4096, hN⟩ (0 : Fin 2) * 4096 ≤ (i 0).val ∧ (i 0).val < win6_3.index ⟨(i 0).val / 4096, hN⟩ (0 : Fin 2) * 4096 + 4096; omega
  | ⟨1, _⟩ => show win6_3.index ⟨(i 0).val / 4096, hN⟩ (1 : Fin 2) * 256 ≤ (i 1).val ∧ (i 1).val < win6_3.index ⟨(i 0).val / 4096, hN⟩ (1 : Fin 2) * 256 + 256; omega

/-- THE OUTPUT ARRAY after the region: the linear layer of the three input arrays as the region finds them. -/
theorem arr6_3 (c : Dev nD) : (dat6 (F := Ideal) V c).arrAt 3 cfg6.N
    = G6_3 (V c (Pipeline.arrRef spec6 0)) (V c (Pipeline.arrRef spec6 1)) (V c (Pipeline.arrRef spec6 2)) :=
  (dat6 V c).arrAt_eq_of_cover 3 _ (fun t _ => flushed6_3_eq V c t) (covered6_3)

end Cert.KernelIdeal.Hand

end
-- ==== Proof.KI.V7.lean ====
import proofs.«142356_j74423193305351_1_alg».proof.Proof.KI.R7
import Idealize.ShloMosaic.Lib.Pipeline.Value
import Idealize.ShloMosaic.Lib.ValueIdx
import Idealize.ShloMosaic.Lib.ValueLayout
import Idealize.ShloMosaic.PureOps.Ideal.Laws

/-! # Region 7 of @main (the edge update): its three output arrays as functions of its input arrays, at the ideal values

With `x` the edge features (524288 × 64), `W` the weights (64 × 64), `b` the bias row (1 × 64) and `d`, `g`, `u` the
gathered node arrays (524288 × 64 each), the region leaves, at every index `(r, q)`,

* the pre-activation `ê(r, q) = ((Σ_k x(r, k) · W(k, q) + b(0, q)) + d(r, q)) + g(r, q)`,
* the gate `σ(ê(r, q))`, and
* the gated message `σ(ê(r, q)) · u(r, q)`.

The body computes exactly this on each block of 4096 rows (at the ideal values the casts to bf16 are the identity and
the matrix unit's product is the plain sum), block `t` is rows `4096·t … 4096·t + 4095` of every blocked array, and the
128 blocks tile the 524288 rows. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification -/

/-- The pre-activation `ê = x·W + b + d + g`, index by index, the sums grouped as the body adds them. -/
def ehat7 (x : Vec Ideal S524288x64 .f32) (W : Vec Ideal S64x64 .f32) (b : Vec Ideal S1x64 .f32)
    (d g : Vec Ideal S524288x64 .f32) : Vec Ideal S524288x64 .f32 :=
  fun i => (((∑ k : Fin 64, x (ix2 (i 0) k) * W (ix2 k (i 1))) + b (ix2 (0 : Fin 1) (i 1))) + d i) + g i

/-- Output window 6's array: the pre-activation. -/
def G7_6 (x : Vec Ideal S524288x64 .f32) (W : Vec Ideal S64x64 .f32) (b : Vec Ideal S1x64 .f32)
    (d g : Vec Ideal S524288x64 .f32) : Vec Ideal S524288x64 .f32 :=
  ehat7 x W b d g

/-- Output window 7's array: the gate, the logistic function of the pre-activation. -/
def G7_7 (x : Vec Ideal S524288x64 .f32) (W : Vec Ideal S64x64 .f32) (b : Vec Ideal S1x64 .f32)
    (d g : Vec Ideal S524288x64 .f32) : Vec Ideal S524288x64 .f32 :=
  fun i => Ideal.logistic (ehat7 x W b d g i)

/-- Output window 8's array: the gate times the third gathered array. -/
def G7_8 (x : Vec Ideal S524288x64 .f32) (W : Vec Ideal S64x64 .f32) (b : Vec Ideal S1x64 .f32)
    (d g u : Vec Ideal S524288x64 .f32) : Vec Ideal S524288x64 .f32 :=
  fun i => Ideal.logistic (ehat7 x W b d g i) * u i

/-- The pre-activation at an index given by its coordinates. -/
theorem ehat7_ix2 (x : Vec Ideal S524288x64 .f32) (W : Vec Ideal S64x64 .f32) (b : Vec Ideal S1x64 .f32)
    (d g : Vec Ideal S524288x64 .f32) (r : Fin 524288) (q : Fin 64) :
    ehat7 x W b d g (ix2 r q)
      = (((∑ k : Fin 64, x (ix2 r k) * W (ix2 k q)) + b (ix2 (0 : Fin 1) q)) + d (ix2 r q)) + g (ix2 r q) := rfl

/-! ## The body's payloads at an index -/

/-- The matrix product of a 4096 × 64 block by the 64 × 64 weights into the zero accumulator, at `(p, q)`: the sum
    over the contracted coordinate of the products of the entries. -/
theorem matmul7_apply (A : FVec Ideal S4096x64 .bf16) (B : FVec Ideal S64x64 .bf16) (p : Fin 4096) (q : Fin 64) :
    matmul dot_S4096x64_S64x64_S4096x64_1_0_0_1_n_n none A B (constant (F := Ideal) S4096x64 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 p q) ((contrEquiv1 _ 64 rfl rfl).symm c) = ix2 p c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 p q) ((contrEquiv1 _ 64 rfl rfl).symm c) = ix2 c q := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- The first payload (the pre-activation of a block) at `(p, q)`: the casts are the identity, the bias row is read
    at its one row, the sums are the extended reals'. -/
theorem k7_pay1_apply (x0 : Vec Ideal S4096x64 .f32) (x1 : Vec Ideal S64x64 .f32) (x2 : Vec Ideal S1x64 .f32)
    (x3 x4 : Vec Ideal S4096x64 .f32) (p : Fin 4096) (q : Fin 64) :
    k7_pay1 x0 x1 x2 x3 x4 (ix2 p q)
      = (((∑ k : Fin 64, x0 (ix2 p k) * x1 (ix2 k q)) + x2 (ix2 (0 : Fin 1) q)) + x3 (ix2 p q)) + x4 (ix2 p q) := by
  unfold k7_pay1
  simp only [shapeCast_self]
  rw [addf_apply, addf_apply, addf_apply, broadcastTo_1b_ab_apply, matmul7_apply]
  rfl

/-- The second payload is the logistic function of the first, elementwise. -/
theorem k7_pay2_apply (x0 : Vec Ideal S4096x64 .f32) (x1 : Vec Ideal S64x64 .f32) (x2 : Vec Ideal S1x64 .f32)
    (x3 x4 : Vec Ideal S4096x64 .f32) (j : S4096x64.Idx) :
    k7_pay2 x0 x1 x2 x3 x4 j = Ideal.logistic (k7_pay1 x0 x1 x2 x3 x4 j) := rfl

/-- The third payload is the second times the sixth block, elementwise. -/
theorem k7_pay3_apply (x0 : Vec Ideal S4096x64 .f32) (x1 : Vec Ideal S64x64 .f32) (x2 : Vec Ideal S1x64 .f32)
    (x3 x4 x5 : Vec Ideal S4096x64 .f32) (j : S4096x64.Idx) :
    k7_pay3 x0 x1 x2 x3 x4 x5 j = Ideal.logistic (k7_pay1 x0 x1 x2 x3 x4 j) * x5 j := by
  unfold k7_pay3
  simp only [shapeCast_self]
  rfl

/-! ## Block `t` is rows `4096·t … 4096·t + 4095` -/

variable (V : (c : Dev nD) → (b : Ref sig .tc) → Buf (Elt Ideal) ((c : Thread nD τ).loc b))

theorem hz7 : (![0, 0] : Fin 2 → Nat) = fun _ => 0 := funext fun a => by fin_cases a <;> rfl

/-- The printed index maps over the grid: the seven blocked windows are at block `(t, 0)`, the weights and the bias row
    at block `(0, 0)`. -/
theorem idx_facts7 : ∀ t : Fin cfg7.N,
    (win7_0.index t (0 : Fin 2) = t.val ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = t.val ∧ win7_3.index t (1 : Fin 2) = 0)
    ∧ (win7_4.index t (0 : Fin 2) = t.val ∧ win7_4.index t (1 : Fin 2) = 0)
    ∧ (win7_5.index t (0 : Fin 2) = t.val ∧ win7_5.index t (1 : Fin 2) = 0)
    ∧ (win7_6.index t (0 : Fin 2) = t.val ∧ win7_6.index t (1 : Fin 2) = 0)
    ∧ (win7_7.index t (0 : Fin 2) = t.val ∧ win7_7.index t (1 : Fin 2) = 0)
    ∧ (win7_8.index t (0 : Fin 2) = t.val ∧ win7_8.index t (1 : Fin 2) = 0) :=
  (by decide +kernel : ∀ t : Fin grid7.N, _)

/-- Row `p` of block `t`, as a row of the whole array. -/
def row7 (t : Fin cfg7.N) (p : Fin 4096) : Fin 524288 :=
  ⟨4096 * t.val + p.val, by have ht : t.val < 128 := N_7 ▸ t.isLt; have hp := p.isLt; omega⟩

/-- Window 0's block at `t` sits in its array at rows `4096·t + p`, all 64 columns. -/
theorem emb_blk7_0 (t : Fin cfg7.N) (p : Fin 4096) (q : Fin 64) :
    ((cfg7.win 0).blk t).view.emb (ix2 p q) = ix2 (row7 t p) q := by
  obtain ⟨e0, e1⟩ := (idx_facts7 t).1
  funext a; apply Fin.ext
  match a with
  | ⟨0, _⟩ => show win7_0.index t (0 : Fin 2) * 4096 + 1 * p.val = 4096 * t.val + p.val; rw [e0]; omega
  | ⟨1, _⟩ => show win7_0.index t (1 : Fin 2) * 64 + 1 * q.val = q.val; rw [e1]; omega
/-- Window 3's block at `t` sits in its array at rows `4096·t + p`, all 64 columns. -/
theorem emb_blk7_3 (t : Fin cfg7.N) (p : Fin 4096) (q : Fin 64) :
    ((cfg7.win 3).blk t).view.emb (ix2 p q) = ix2 (row7 t p) q := by
  obtain ⟨e0, e1⟩ := (idx_facts7 t).2.2.2.1
  funext a; apply Fin.ext
  match a with
  | ⟨0, _⟩ => show win7_3.index t (0 : Fin 2) * 4096 + 1 * p.val = 4096 * t.val + p.val; rw [e0]; omega
  | ⟨1, _⟩ => show win7_3.index t (1 : Fin 2) * 64 + 1 * q.val = q.val; rw [e1]; omega
/-- Window 4's block at `t` sits in its array at rows `4096·t + p`, all 64 columns. -/
theorem emb_blk7_4 (t : Fin cfg7.N) (p : Fin 4096) (q : Fin 64) :
    ((cfg7.win 4).blk t).view.emb (ix2 p q) = ix2 (row7 t p) q := by
  obtain ⟨e0, e1⟩ := (idx_facts7 t).2.2.2.2.1
  funext a; apply Fin.ext
  match a with
  | ⟨0, _⟩ => show win7_4.index t (0 : Fin 2) * 4096 + 1 * p.val = 4096 * t.val + p.val; rw [e0]; omega
  | ⟨1, _⟩ => show win7_4.index t (1 : Fin 2) * 64 + 1 * q.val = q.val; rw [e1]; omega
/-- Window 5's block at `t` sits in its array at rows `4096·t + p`, all 64 columns. -/
theorem emb_blk7_5 (t : Fin cfg7.N) (p : Fin 4096) (q : Fin 64) :
    ((cfg7.win 5).blk t).view.emb (ix2 p q) = ix2 (row7 t p) q := by
  obtain ⟨e0, e1⟩ := (idx_facts7 t).2.2.2.2.2.1
  funext a; apply Fin.ext
  match a with
  | ⟨0, _⟩ => show win7_5.index t (0 : Fin 2) * 4096 + 1 * p.val = 4096 * t.val + p.val; rw [e0]; omega
  | ⟨1, _⟩ => show win7_5.index t (1 : Fin 2) * 64 + 1 * q.val = q.val; rw [e1]; omega
/-- Window 6's block at `t` sits in its array at rows `4096·t + p`, all 64 columns. -/
theorem emb_blk7_6 (t : Fin cfg7.N) (p : Fin 4096) (q : Fin 64) :
    ((cfg7.win 6).blk t).view.emb (ix2 p q) = ix2 (row7 t p) q := by
  obtain ⟨e0, e1⟩ := (idx_facts7 t).2.2.2.2.2.2.1
  funext a; apply Fin.ext
  match a with
  | ⟨0, _⟩ => show win7_6.index t (0 : Fin 2) * 4096 + 1 * p.val = 4096 * t.val + p.val; rw [e0]; omega
  | ⟨1, _⟩ => show win7_6.index t (1 : Fin 2) * 64 + 1 * q.val = q.val; rw [e1]; omega
/-- Window 7's block at `t` sits in its array at rows `4096·t + p`, all 64 columns. -/
theorem emb_blk7_7 (t : Fin cfg7.N) (p : Fin 4096) (q : Fin 64) :
    ((cfg7.win 7).blk t).view.emb (ix2 p q) = ix2 (row7 t p) q := by
  obtain ⟨e0, e1⟩ := (idx_facts7 t).2.2.2.2.2.2.2.1
  funext a; apply Fin.ext
  match a with
  | ⟨0, _⟩ => show win7_7.index t (0 : Fin 2) * 4096 + 1 * p.val = 4096 * t.val + p.val; rw [e0]; omega
  | ⟨1, _⟩ => show win7_7.index t (1 : Fin 2) * 64 + 1 * q.val = q.val; rw [e1]; omega
/-- Window 8's block at `t` sits in its array at rows `4096·t + p`, all 64 columns. -/
theorem emb_blk7_8 (t : Fin cfg7.N) (p : Fin 4096) (q : Fin 64) :
    ((cfg7.win 8).blk t).view.emb (ix2 p q) = ix2 (row7 t p) q := by
  obtain ⟨e0, e1⟩ := (idx_facts7 t).2.2.2.2.2.2.2.2
  funext a; apply Fin.ext
  match a with
  | ⟨0, _⟩ => show win7_8.index t (0 : Fin 2) * 4096 + 1 * p.val = 4096 * t.val + p.val; rw [e0]; omega
  | ⟨1, _⟩ => show win7_8.index t (1 : Fin 2) * 64 + 1 * q.val = q.val; rw [e1]; omega
/-- The weights' block is the whole array at every point. -/
theorem emb_blk7_1 (t : Fin cfg7.N) (k : Fin 64) (q : Fin 64) :
    ((cfg7.win 1).blk t).view.emb (ix2 k q) = ix2 k q := by
  obtain ⟨e0, e1⟩ := (idx_facts7 t).2.1
  funext a; apply Fin.ext
  match a with
  | ⟨0, _⟩ => show win7_1.index t (0 : Fin 2) * 64 + 1 * k.val = k.val; rw [e0]; omega
  | ⟨1, _⟩ => show win7_1.index t (1 : Fin 2) * 64 + 1 * q.val = q.val; rw [e1]; omega
/-- The bias row's block is the whole array at every point. -/
theorem emb_blk7_2 (t : Fin cfg7.N) (z : Fin 1) (q : Fin 64) :
    ((cfg7.win 2).blk t).view.emb (ix2 z q) = ix2 z q := by
  obtain ⟨e0, e1⟩ := (idx_facts7 t).2.2.1
  funext a; apply Fin.ext
  match a with
  | ⟨0, _⟩ => show win7_2.index t (0 : Fin 2) * 1 + 1 * z.val = z.val; rw [e0]; omega
  | ⟨1, _⟩ => show win7_2.index t (1 : Fin 2) * 64 + 1 * q.val = q.val; rw [e1]; omega

/-! ## Each input block read off its array -/

theorem iblk7_0_apply (c : Dev nD) (t : Fin cfg7.N) (p : Fin 4096) (q : Fin 64) :
    iblk7 V c 0 t (ix2 p q) = V c (Pipeline.arrRef spec7 0) (ix2 (row7 t p) q) := by
  show V c (Pipeline.arrRef spec7 0) (((cfg7.win 0).blk t).view.emb (ix2 p q)) = _
  rw [emb_blk7_0]
theorem iblk7_3_apply (c : Dev nD) (t : Fin cfg7.N) (p : Fin 4096) (q : Fin 64) :
    iblk7 V c 3 t (ix2 p q) = V c (Pipeline.arrRef spec7 3) (ix2 (row7 t p) q) := by
  show V c (Pipeline.arrRef spec7 3) (((cfg7.win 3).blk t).view.emb (ix2 p q)) = _
  rw [emb_blk7_3]
theorem iblk7_4_apply (c : Dev nD) (t : Fin cfg7.N) (p : Fin 4096) (q : Fin 64) :
    iblk7 V c 4 t (ix2 p q) = V c (Pipeline.arrRef spec7 4) (ix2 (row7 t p) q) := by
  show V c (Pipeline.arrRef spec7 4) (((cfg7.win 4).blk t).view.emb (ix2 p q)) = _
  rw [emb_blk7_4]
theorem iblk7_5_apply (c : Dev nD) (t : Fin cfg7.N) (p : Fin 4096) (q : Fin 64) :
    iblk7 V c 5 t (ix2 p q) = V c (Pipeline.arrRef spec7 5) (ix2 (row7 t p) q) := by
  show V c (Pipeline.arrRef spec7 5) (((cfg7.win 5).blk t).view.emb (ix2 p q)) = _
  rw [emb_blk7_5]
theorem iblk7_1_apply (c : Dev nD) (t : Fin cfg7.N) (k : Fin 64) (q : Fin 64) :
    iblk7 V c 1 t (ix2 k q) = V c (Pipeline.arrRef spec7 1) (ix2 k q) := by
  show V c (Pipeline.arrRef spec7 1) (((cfg7.win 1).blk t).view.emb (ix2 k q)) = _
  rw [emb_blk7_1]
theorem iblk7_2_apply (c : Dev nD) (t : Fin cfg7.N) (z : Fin 1) (q : Fin 64) :
    iblk7 V c 2 t (ix2 z q) = V c (Pipeline.arrRef spec7 2) (ix2 z q) := by
  show V c (Pipeline.arrRef spec7 2) (((cfg7.win 2).blk t).view.emb (ix2 z q)) = _
  rw [emb_blk7_2]

/-- The pre-activation payload of the blocks at `t`, at `(p, q)`, is the pre-activation of the arrays at row
    `4096·t + p`, column `q`. -/
theorem pre7_apply (c : Dev nD) (t : Fin cfg7.N) (p : Fin 4096) (q : Fin 64) :
    k7_pay1 (iblk7 V c 0 t) (iblk7 V c 1 t) (iblk7 V c 2 t) (iblk7 V c 3 t) (iblk7 V c 4 t) (ix2 p q)
      = ehat7 (V c (Pipeline.arrRef spec7 0)) (V c (Pipeline.arrRef spec7 1)) (V c (Pipeline.arrRef spec7 2))
          (V c (Pipeline.arrRef spec7 3)) (V c (Pipeline.arrRef spec7 4)) (ix2 (row7 t p) q) := by
  rw [k7_pay1_apply, ehat7_ix2]
  simp only [iblk7_0_apply, iblk7_1_apply, iblk7_2_apply, iblk7_3_apply, iblk7_4_apply]

/-- The gate payload of the blocks at `t`, at `(p, q)`, is the gate of the arrays at row `4096·t + p`, column `q`. -/
theorem gate7_apply (c : Dev nD) (t : Fin cfg7.N) (p : Fin 4096) (q : Fin 64) :
    k7_pay2 (iblk7 V c 0 t) (iblk7 V c 1 t) (iblk7 V c 2 t) (iblk7 V c 3 t) (iblk7 V c 4 t) (ix2 p q) = G7_7 (V c (Pipeline.arrRef spec7 0)) (V c (Pipeline.arrRef spec7 1)) (V c (Pipeline.arrRef spec7 2)) (V c (Pipeline.arrRef spec7 3)) (V c (Pipeline.arrRef spec7 4)) (ix2 (row7 t p) q) := by
  unfold G7_7
  rw [k7_pay2_apply, pre7_apply]

/-- The message payload of the blocks at `t`, at `(p, q)`, is the gated message of the arrays at row `4096·t + p`,
    column `q`. -/
theorem msg7_apply (c : Dev nD) (t : Fin cfg7.N) (p : Fin 4096) (q : Fin 64) :
    k7_pay3 (iblk7 V c 0 t) (iblk7 V c 1 t) (iblk7 V c 2 t) (iblk7 V c 3 t) (iblk7 V c 4 t) (iblk7 V c 5 t) (ix2 p q) = G7_8 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (ix2 (row7 t p) q) := by
  unfold G7_8
  rw [k7_pay3_apply, pre7_apply, iblk7_5_apply]

/-! ## What each point writes back, and the arrays after the region -/

set_option maxHeartbeats 1000000 in
/-- What point `t` writes back to window 6's array is block `t` of `G7_6` of the input arrays. -/
theorem flushed7_6_eq (c : Dev nD) (t : Fin cfg7.N) :
    (dat7 (F := Ideal) V c).flushed 6 t = ((cfg7.win 6).blk t).view.read (Elt Ideal) (G7_6 (V c (Pipeline.arrRef spec7 0)) (V c (Pipeline.arrRef spec7 1)) (V c (Pipeline.arrRef spec7 2)) (V c (Pipeline.arrRef spec7 3)) (V c (Pipeline.arrRef spec7 4))) := by
  show (cfg7.win 6).cut (grid7.coords t) ((dat7 V c).after 6 t) = _
  rw [after7_6]
  unfold out7_6
  rw [View.canon_unit_zero hz7]
  simp only [View.ld_unit_zero (S := S4096x64) hz7, View.ld_unit_zero (S := S64x64) hz7, View.ld_unit_zero (S := S1x64) hz7]
  generalize hP : k7_pay1 (iblk7 V c 0 t) (iblk7 V c 1 t) (iblk7 V c 2 t) (iblk7 V c 3 t) (iblk7 V c 4 t) = P
  funext j
  obtain ⟨p, q, rfl⟩ : ∃ (p : Fin 4096) (q : Fin 64), j = ix2 p q := ⟨j 0, j 1, eq_ix2 j⟩
  show P (ix2 p q) = (G7_6 (V c (Pipeline.arrRef spec7 0)) (V c (Pipeline.arrRef spec7 1)) (V c (Pipeline.arrRef spec7 2)) (V c (Pipeline.arrRef spec7 3)) (V c (Pipeline.arrRef spec7 4))) (((cfg7.win 6).blk t).view.emb (ix2 p q))
  rw [← hP, emb_blk7_6]
  exact pre7_apply V c t p q

/-- An index of window 6's array is in point `t`'s block iff each coordinate is in the block's range on its axis. -/
theorem mem_blk7_6 (t : Fin cfg7.N) (i : S524288x64.Idx) :
    i ∈ ((cfg7.win 6).blk t).view.set ↔ ∀ a : Fin 2, win7_6.index t a * S4096x64.size a ≤ (i a).val ∧ (i a).val < win7_6.index t a * S4096x64.size a + S4096x64.size a := by
  show i ∈ ((View.whole (Pipeline.arrRef spec7 6)).slice (win7_6.rect t)).set ↔ _
  rw [View.set_slice_whole, Rect.mem_set_unit]
  exact Iff.rfl

/-- Every index of window 6's array is in some point's block: row `r` is in block `r / 4096`. -/
theorem covered7_6 (i : S524288x64.Idx) :
    ∃ t : Fin cfg7.N, (cfg7.win 6).flush t = true ∧ i ∈ ((cfg7.win 6).blk t).view.set := by
  have hi0 : (i 0).val < 524288 := (i 0).isLt
  have hi1 : (i 1).val < 64 := (i 1).isLt
  obtain ⟨t, ht⟩ : ∃ t : Fin cfg7.N, t.val = (i 0).val / 4096 := ⟨⟨(i 0).val / 4096, by rw [show cfg7.N = 128 from N_7]; omega⟩, rfl⟩
  obtain ⟨e0, e1⟩ := (idx_facts7 t).2.2.2.2.2.2.1
  refine ⟨t, flush7_6 t, ?_⟩
  rw [mem_blk7_6]
  intro a
  match a with
  | ⟨0, _⟩ => show win7_6.index t (0 : Fin 2) * 4096 ≤ (i 0).val ∧ (i 0).val < win7_6.index t (0 : Fin 2) * 4096 + 4096; rw [e0]; omega
  | ⟨1, _⟩ => show win7_6.index t (1 : Fin 2) * 64 ≤ (i 1).val ∧ (i 1).val < win7_6.index t (1 : Fin 2) * 64 + 64; rw [e1]; omega

/-- Window 6's array after the region is `G7_6` of the input arrays as the region finds them. -/
theorem arr7_6 (c : Dev nD) :
    (dat7 (F := Ideal) V c).arrAt 6 cfg7.N = G7_6 (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 6 (G7_6 (V c (Pipeline.arrRef spec7 0)) (V c (Pipeline.arrRef spec7 1)) (V c (Pipeline.arrRef spec7 2)) (V c (Pipeline.arrRef spec7 3)) (V c (Pipeline.arrRef spec7 4))) (fun t _ => flushed7_6_eq V c t) covered7_6

set_option maxHeartbeats 1000000 in
/-- What point `t` writes back to window 7's array is block `t` of `G7_7` of the input arrays. -/
theorem flushed7_7_eq (c : Dev nD) (t : Fin cfg7.N) :
    (dat7 (F := Ideal) V c).flushed 7 t = ((cfg7.win 7).blk t).view.read (Elt Ideal) (G7_7 (V c (Pipeline.arrRef spec7 0)) (V c (Pipeline.arrRef spec7 1)) (V c (Pipeline.arrRef spec7 2)) (V c (Pipeline.arrRef spec7 3)) (V c (Pipeline.arrRef spec7 4))) := by
  show (cfg7.win 7).cut (grid7.coords t) ((dat7 V c).after 7 t) = _
  rw [after7_7]
  unfold out7_7
  rw [View.canon_unit_zero hz7]
  simp only [View.ld_unit_zero (S := S4096x64) hz7, View.ld_unit_zero (S := S64x64) hz7, View.ld_unit_zero (S := S1x64) hz7]
  generalize hP : k7_pay2 (iblk7 V c 0 t) (iblk7 V c 1 t) (iblk7 V c 2 t) (iblk7 V c 3 t) (iblk7 V c 4 t) = P
  funext j
  obtain ⟨p, q, rfl⟩ : ∃ (p : Fin 4096) (q : Fin 64), j = ix2 p q := ⟨j 0, j 1, eq_ix2 j⟩
  show P (ix2 p q) = (G7_7 (V c (Pipeline.arrRef spec7 0)) (V c (Pipeline.arrRef spec7 1)) (V c (Pipeline.arrRef spec7 2)) (V c (Pipeline.arrRef spec7 3)) (V c (Pipeline.arrRef spec7 4))) (((cfg7.win 7).blk t).view.emb (ix2 p q))
  rw [← hP, emb_blk7_7]
  exact gate7_apply V c t p q

/-- An index of window 7's array is in point `t`'s block iff each coordinate is in the block's range on its axis. -/
theorem mem_blk7_7 (t : Fin cfg7.N) (i : S524288x64.Idx) :
    i ∈ ((cfg7.win 7).blk t).view.set ↔ ∀ a : Fin 2, win7_7.index t a * S4096x64.size a ≤ (i a).val ∧ (i a).val < win7_7.index t a * S4096x64.size a + S4096x64.size a := by
  show i ∈ ((View.whole (Pipeline.arrRef spec7 7)).slice (win7_7.rect t)).set ↔ _
  rw [View.set_slice_whole, Rect.mem_set_unit]
  exact Iff.rfl

/-- Every index of window 7's array is in some point's block: row `r` is in block `r / 4096`. -/
theorem covered7_7 (i : S524288x64.Idx) :
    ∃ t : Fin cfg7.N, (cfg7.win 7).flush t = true ∧ i ∈ ((cfg7.win 7).blk t).view.set := by
  have hi0 : (i 0).val < 524288 := (i 0).isLt
  have hi1 : (i 1).val < 64 := (i 1).isLt
  obtain ⟨t, ht⟩ : ∃ t : Fin cfg7.N, t.val = (i 0).val / 4096 := ⟨⟨(i 0).val / 4096, by rw [show cfg7.N = 128 from N_7]; omega⟩, rfl⟩
  obtain ⟨e0, e1⟩ := (idx_facts7 t).2.2.2.2.2.2.2.1
  refine ⟨t, flush7_7 t, ?_⟩
  rw [mem_blk7_7]
  intro a
  match a with
  | ⟨0, _⟩ => show win7_7.index t (0 : Fin 2) * 4096 ≤ (i 0).val ∧ (i 0).val < win7_7.index t (0 : Fin 2) * 4096 + 4096; rw [e0]; omega
  | ⟨1, _⟩ => show win7_7.index t (1 : Fin 2) * 64 ≤ (i 1).val ∧ (i 1).val < win7_7.index t (1 : Fin 2) * 64 + 64; rw [e1]; omega

/-- Window 7's array after the region is `G7_7` of the input arrays as the region finds them. -/
theorem arr7_7 (c : Dev nD) :
    (dat7 (F := Ideal) V c).arrAt 7 cfg7.N = G7_7 (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 7 (G7_7 (V c (Pipeline.arrRef spec7 0)) (V c (Pipeline.arrRef spec7 1)) (V c (Pipeline.arrRef spec7 2)) (V c (Pipeline.arrRef spec7 3)) (V c (Pipeline.arrRef spec7 4))) (fun t _ => flushed7_7_eq V c t) covered7_7

set_option maxHeartbeats 1000000 in
/-- What point `t` writes back to window 8's array is block `t` of `G7_8` of the input arrays. -/
theorem flushed7_8_eq (c : Dev nD) (t : Fin cfg7.N) :
    (dat7 (F := Ideal) V c).flushed 8 t = ((cfg7.win 8).blk t).view.read (Elt Ideal) (G7_8 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) := by
  show (cfg7.win 8).cut (grid7.coords t) ((dat7 V c).after 8 t) = _
  rw [after7_8]
  unfold out7_8
  rw [View.canon_unit_zero hz7]
  simp only [View.ld_unit_zero (S := S4096x64) hz7, View.ld_unit_zero (S := S64x64) hz7, View.ld_unit_zero (S := S1x64) hz7]
  generalize hP : k7_pay3 (iblk7 V c 0 t) (iblk7 V c 1 t) (iblk7 V c 2 t) (iblk7 V c 3 t) (iblk7 V c 4 t) (iblk7 V c 5 t) = P
  funext j
  obtain ⟨p, q, rfl⟩ : ∃ (p : Fin 4096) (q : Fin 64), j = ix2 p q := ⟨j 0, j 1, eq_ix2 j⟩
  show P (ix2 p q) = (G7_8 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) (((cfg7.win 8).blk t).view.emb (ix2 p q))
  rw [← hP, emb_blk7_8]
  exact msg7_apply V c t p q

/-- An index of window 8's array is in point `t`'s block iff each coordinate is in the block's range on its axis. -/
theorem mem_blk7_8 (t : Fin cfg7.N) (i : S524288x64.Idx) :
    i ∈ ((cfg7.win 8).blk t).view.set ↔ ∀ a : Fin 2, win7_8.index t a * S4096x64.size a ≤ (i a).val ∧ (i a).val < win7_8.index t a * S4096x64.size a + S4096x64.size a := by
  show i ∈ ((View.whole (Pipeline.arrRef spec7 8)).slice (win7_8.rect t)).set ↔ _
  rw [View.set_slice_whole, Rect.mem_set_unit]
  exact Iff.rfl

/-- Every index of window 8's array is in some point's block: row `r` is in block `r / 4096`. -/
theorem covered7_8 (i : S524288x64.Idx) :
    ∃ t : Fin cfg7.N, (cfg7.win 8).flush t = true ∧ i ∈ ((cfg7.win 8).blk t).view.set := by
  have hi0 : (i 0).val < 524288 := (i 0).isLt
  have hi1 : (i 1).val < 64 := (i 1).isLt
  obtain ⟨t, ht⟩ : ∃ t : Fin cfg7.N, t.val = (i 0).val / 4096 := ⟨⟨(i 0).val / 4096, by rw [show cfg7.N = 128 from N_7]; omega⟩, rfl⟩
  obtain ⟨e0, e1⟩ := (idx_facts7 t).2.2.2.2.2.2.2.2
  refine ⟨t, flush7_8 t, ?_⟩
  rw [mem_blk7_8]
  intro a
  match a with
  | ⟨0, _⟩ => show win7_8.index t (0 : Fin 2) * 4096 ≤ (i 0).val ∧ (i 0).val < win7_8.index t (0 : Fin 2) * 4096 + 4096; rw [e0]; omega
  | ⟨1, _⟩ => show win7_8.index t (1 : Fin 2) * 64 ≤ (i 1).val ∧ (i 1).val < win7_8.index t (1 : Fin 2) * 64 + 64; rw [e1]; omega

/-- Window 8's array after the region is `G7_8` of the input arrays as the region finds them. -/
theorem arr7_8 (c : Dev nD) :
    (dat7 (F := Ideal) V c).arrAt 8 cfg7.N = G7_8 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) :=
  (dat7 (F := Ideal) V c).arrAt_eq_of_cover 8 (G7_8 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5))) (fun t _ => flushed7_8_eq V c t) covered7_8

end Cert.KernelIdeal.Hand
-- ==== Proof.KI.V8.lean ====
import proofs.«142356_j74423193305351_1_alg».proof.Proof.KI.R8
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: batch-norm, relu and residual, index by index -/

/-- The node array region 8 leaves, as one function of the arrays it reads: at row p and column q,
    old(p, q) + max (gamma(q) * (new(p, q) - mean(q)) * rsqrt (var(q) + eps) + beta(q)) 0, the four
    statistics being single rows read at column q, eps the body's literal word, and the products and
    sums grouped as the body computes them. -/
def G8_6 (x : Vec Ideal S32768x64 .f32) (mu : Vec Ideal S1x64 .f32) (va : Vec Ideal S1x64 .f32) (ga : Vec Ideal S1x64 .f32) (be : Vec Ideal S1x64 .f32) (o : Vec Ideal S32768x64 .f32) : Vec Ideal S32768x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

/-- The same at an index given by its coordinates. -/
theorem G8_6_apply (x : Vec Ideal S32768x64 .f32) (mu : Vec Ideal S1x64 .f32) (va : Vec Ideal S1x64 .f32) (ga : Vec Ideal S1x64 .f32) (be : Vec Ideal S1x64 .f32) (o : Vec Ideal S32768x64 .f32) (p : Fin 32768) (q : Fin 64) :
    G8_6 x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-! ## The body's payload at an index -/

/-- The body's stored value at row p, column q of a block, from the six loaded blocks: every operation
    of the body is pointwise except the four broadcasts of a single row over the rows of the block, each
    of which reads its row at column q; the zero constant is the real zero. -/
theorem pay8_apply (x0 : Vec Ideal S8192x64 .f32) (x1 : Vec Ideal S1x64 .f32) (x2 : Vec Ideal S1x64 .f32) (x3 : Vec Ideal S1x64 .f32) (x4 : Vec Ideal S1x64 .f32) (x5 : Vec Ideal S8192x64 .f32) (p : Fin 8192) (q : Fin 64) :
    k8_pay1 (F := Ideal) x0 x1 x2 x3 x4 x5 (ix2 p q)
      = x5 (ix2 p q) + max (((x3 (ix2 0 q) * (x0 (ix2 p q) - x1 (ix2 0 q))) * Ideal.rsqrt (x2 (ix2 0 q) + Ideal.ofBits .f32 0x3727C5AC#32)) + x4 (ix2 0 q)) 0 := by
  unfold k8_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  show x5 (ix2 p q) + max (((x3 (ix2 0 q) * (x0 (ix2 p q) - x1 (ix2 0 q))) * Ideal.rsqrt (x2 (ix2 0 q) + Ideal.ofBits .f32 0x3727C5AC#32)) + x4 (ix2 0 q)) (Ideal.ofBits .f32 0x00000000#32) = _
  rw [Ideal.ofBits_zero_f32]

/-! ## From blocks to the array -/

/-- The zero offsets of a whole-block access, as the constant function. -/
theorem hz8 : (![0, 0] : Fin 2 → Nat) = fun _ => 0 := funext fun a => by fin_cases a <;> rfl

/-- The printed index maps, decided over the grid: the two row-block inputs and the output are at block
    (t, 0) at point t, and the four single-row inputs are at block (0, 0) at every point. -/
theorem idx_facts8 : ∀ t : Fin cfg8.N,
    win8_6.index t (0 : Fin 2) = t.val ∧ win8_6.index t (1 : Fin 2) = 0
    ∧ win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Where a block puts its elements in its array: a block's coordinate is the block index times the block
    size plus the coordinate inside the block. The output's block at point t puts row p, column q at row
    t * 8192 + p, column q; -/
theorem emb8_6 (t : Fin cfg8.N) (p : Fin 8192) (q : Fin 64) (h : t.val * 8192 + p.val < 32768) :
    ((cfg8.win 6).blk t).view.emb (ix2 p q) = ix2 (⟨t.val * 8192 + p.val, h⟩ : Fin 32768) q := by
  obtain ⟨e6a, e6b, -⟩ := idx_facts8 t
  funext a; apply Fin.ext
  match a with
  | ⟨0, _⟩ => show win8_6.index t (0 : Fin 2) * 8192 + 1 * p.val = t.val * 8192 + p.val; omega
  | ⟨1, _⟩ => show win8_6.index t (1 : Fin 2) * 64 + 1 * q.val = q.val; omega

/-- so do the blocks of the two row-block inputs; -/
theorem emb8_0 (t : Fin cfg8.N) (p : Fin 8192) (q : Fin 64) (h : t.val * 8192 + p.val < 32768) :
    ((cfg8.win 0).blk t).view.emb (ix2 p q) = ix2 (⟨t.val * 8192 + p.val, h⟩ : Fin 32768) q := by
  obtain ⟨-, -, e0a, e0b, -⟩ := idx_facts8 t
  funext a; apply Fin.ext
  match a with
  | ⟨0, _⟩ => show win8_0.index t (0 : Fin 2) * 8192 + 1 * p.val = t.val * 8192 + p.val; omega
  | ⟨1, _⟩ => show win8_0.index t (1 : Fin 2) * 64 + 1 * q.val = q.val; omega

theorem emb8_5 (t : Fin cfg8.N) (p : Fin 8192) (q : Fin 64) (h : t.val * 8192 + p.val < 32768) :
    ((cfg8.win 5).blk t).view.emb (ix2 p q) = ix2 (⟨t.val * 8192 + p.val, h⟩ : Fin 32768) q := by
  obtain ⟨-, -, -, -, e5a, e5b, -⟩ := idx_facts8 t
  funext a; apply Fin.ext
  match a with
  | ⟨0, _⟩ => show win8_5.index t (0 : Fin 2) * 8192 + 1 * p.val = t.val * 8192 + p.val; omega
  | ⟨1, _⟩ => show win8_5.index t (1 : Fin 2) * 64 + 1 * q.val = q.val; omega

/-- and each single-row input's block is its whole array at every point. -/
theorem emb8_1 (t : Fin cfg8.N) (q : Fin 64) : ((cfg8.win 1).blk t).view.emb (ix2 (0 : Fin 1) q) = ix2 (0 : Fin 1) q := by
  obtain ⟨-, -, -, -, -, -, e1a, e1b, -⟩ := idx_facts8 t
  funext a; apply Fin.ext
  match a with
  | ⟨0, _⟩ => show win8_1.index t (0 : Fin 2) * 1 + 1 * 0 = 0; omega
  | ⟨1, _⟩ => show win8_1.index t (1 : Fin 2) * 64 + 1 * q.val = q.val; omega

theorem emb8_2 (t : Fin cfg8.N) (q : Fin 64) : ((cfg8.win 2).blk t).view.emb (ix2 (0 : Fin 1) q) = ix2 (0 : Fin 1) q := by
  obtain ⟨-, -, -, -, -, -, -, -, e2a, e2b, -⟩ := idx_facts8 t
  funext a; apply Fin.ext
  match a with
  | ⟨0, _⟩ => show win8_2.index t (0 : Fin 2) * 1 + 1 * 0 = 0; omega
  | ⟨1, _⟩ => show win8_2.index t (1 : Fin 2) * 64 + 1 * q.val = q.val; omega

theorem emb8_3 (t : Fin cfg8.N) (q : Fin 64) : ((cfg8.win 3).blk t).view.emb (ix2 (0 : Fin 1) q) = ix2 (0 : Fin 1) q := by
  obtain ⟨-, -, -, -, -, -, -, -, -, -, e3a, e3b, -⟩ := idx_facts8 t
  funext a; apply Fin.ext
  match a with
  | ⟨0, _⟩ => show win8_3.index t (0 : Fin 2) * 1 + 1 * 0 = 0; omega
  | ⟨1, _⟩ => show win8_3.index t (1 : Fin 2) * 64 + 1 * q.val = q.val; omega

theorem emb8_4 (t : Fin cfg8.N) (q : Fin 64) : ((cfg8.win 4).blk t).view.emb (ix2 (0 : Fin 1) q) = ix2 (0 : Fin 1) q := by
  obtain ⟨-, -, -, -, -, -, -, -, -, -, -, -, e4a, e4b⟩ := idx_facts8 t
  funext a; apply Fin.ext
  match a with
  | ⟨0, _⟩ => show win8_4.index t (0 : Fin 2) * 1 + 1 * 0 = 0; omega
  | ⟨1, _⟩ => show win8_4.index t (1 : Fin 2) * 64 + 1 * q.val = q.val; omega

/-- The formula read through embeddings: when the two row-block inputs and the output are read at one and
    the same element (r, q) of their arrays and the single-row inputs at column q, the body's value there is
    the specification's. Stated over arrays of literal shapes. -/
theorem G8_6_at (A0 : Vec Ideal S32768x64 .f32) (A1 : Vec Ideal S1x64 .f32) (A2 : Vec Ideal S1x64 .f32) (A3 : Vec Ideal S1x64 .f32) (A4 : Vec Ideal S1x64 .f32) (A5 : Vec Ideal S32768x64 .f32)
    (e0 e5 e6 : S32768x64.Idx) (e1 e2 e3 e4 : S1x64.Idx) (r : Fin 32768) (q : Fin 64)
    (h0 : e0 = ix2 r q) (h1 : e1 = ix2 (0 : Fin 1) q) (h2 : e2 = ix2 (0 : Fin 1) q) (h3 : e3 = ix2 (0 : Fin 1) q) (h4 : e4 = ix2 (0 : Fin 1) q) (h5 : e5 = ix2 r q) (h6 : e6 = ix2 r q) :
    A5 e5 + max (((A3 e3 * (A0 e0 - A1 e1)) * Ideal.rsqrt (A2 e2 + Ideal.ofBits .f32 0x3727C5AC#32)) + A4 e4) 0 = G8_6 A0 A1 A2 A3 A4 A5 e6 := by
  subst h0 h1 h2 h3 h4 h5 h6
  rfl

-- the TensorCore's buffer contents when the region is entered, at the ideal instance
variable (V : (c : Dev nD) → (b : Ref sig .tc) → Buf (Elt Ideal) ((c : Thread nD τ).loc b))

set_option maxHeartbeats 1000000 in
/-- What point t writes back is block t of G8_6 of the arrays as the region finds them: the payload at
    row p, column q of the block reads the row-block inputs at row t * 8192 + p of their arrays, where
    the output's block puts that element, and the single-row inputs at column q. -/
theorem flushed8_6_eq (c : Dev nD) (t : Fin cfg8.N) :
    (dat8 (F := Ideal) V c).flushed 6 t = ((cfg8.win 6).blk t).view.read (Elt Ideal)
      (G8_6 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz8]
  simp only [View.ld_unit_zero (S := S8192x64) hz8, View.ld_unit_zero (S := S1x64) hz8]
  have ht : t.val < 4 := lt_of_lt_of_eq t.isLt N_8
  funext j
  obtain ⟨p, q, rfl⟩ : ∃ (p : Fin 8192) (q : Fin 64), j = ix2 p q := ⟨j 0, j 1, eq_ix2 j⟩
  refine (pay8_apply (iblk8 V c 0 t) (iblk8 V c 1 t) (iblk8 V c 2 t) (iblk8 V c 3 t) (iblk8 V c 4 t) (iblk8 V c 5 t) p q).trans ?_
  have hlt : t.val * 8192 + p.val < 32768 := by have := p.isLt; omega
  exact G8_6_at (V c (Pipeline.arrRef spec8 0)) (V c (Pipeline.arrRef spec8 1)) (V c (Pipeline.arrRef spec8 2)) (V c (Pipeline.arrRef spec8 3)) (V c (Pipeline.arrRef spec8 4)) (V c (Pipeline.arrRef spec8 5))
    _ _ _ _ _ _ _ ⟨t.val * 8192 + p.val, hlt⟩ q
    (emb8_0 t p q hlt) (emb8_1 t q) (emb8_2 t q) (emb8_3 t q) (emb8_4 t q) (emb8_5 t p q hlt) (emb8_6 t p q hlt)

/-- The output's blocks tile the array: the element at row r, column q is element (r % 8192, q) of the
    block of point r / 8192. -/
theorem covered8_6 (i : S32768x64.Idx) :
    ∃ t : Fin cfg8.N, (cfg8.win 6).flush t = true ∧ i ∈ ((cfg8.win 6).blk t).view.set := by
  have hi0 : (i 0).val < 32768 := idx2_lt0 i
  have hq : (i 1).val < 64 := idx2_lt1 i
  have hN : grid8.N = 4 := N_8
  have hlt : (i 0).val / 8192 < grid8.N := by omega
  have hp : (i 0).val % 8192 < 8192 := Nat.mod_lt _ (by decide)
  have hr : (i 0).val / 8192 * 8192 + (i 0).val % 8192 < 32768 := by omega
  obtain ⟨t, p, q, e⟩ : ∃ (t : Fin cfg8.N) (p : Fin 8192) (q : Fin 64), ((cfg8.win 6).blk t).view.emb (ix2 p q) = i := by
    refine ⟨⟨(i 0).val / 8192, hlt⟩, ⟨(i 0).val % 8192, hp⟩, ⟨(i 1).val, hq⟩, ?_⟩
    rw [emb8_6 ⟨(i 0).val / 8192, hlt⟩ ⟨(i 0).val % 8192, hp⟩ ⟨(i 1).val, hq⟩ hr]
    funext a; apply Fin.ext
    match a with
    | ⟨0, _⟩ => show (i 0).val / 8192 * 8192 + (i 0).val % 8192 = (i 0).val; omega
    | ⟨1, _⟩ => rfl
  subst e
  exact ⟨t, flush8_6 t, View.emb_mem_set _ _⟩

/-- THE ARRAY region 8 leaves: G8_6 of the arrays it reads, as the region finds them. -/
theorem arr8_6 (c : Dev nD) : (dat8 (F := Ideal) V c).arrAt 6 cfg8.N
    = G8_6 (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  (dat8 V c).arrAt_eq_of_cover 6 _ (fun t _ => flushed8_6_eq V c t) covered8_6

end Cert.KernelIdeal.Hand
-- ==== Proof.KI.V9.lean ====
import proofs.«142356_j74423193305351_1_alg».proof.Proof.KI.R9
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: batch-norm, relu and residual, index by index -/

/-- The node array region 9 leaves, as one function of the arrays it reads: at row p and column q,
    old(p, q) + max (gamma(q) * (new(p, q) - mean(q)) * rsqrt (var(q) + eps) + beta(q)) 0, the four
    statistics being single rows read at column q, eps the body's literal word, and the products and
    sums grouped as the body computes them. -/
def G9_6 (x : Vec Ideal S524288x64 .f32) (mu : Vec Ideal S1x64 .f32) (va : Vec Ideal S1x64 .f32) (ga : Vec Ideal S1x64 .f32) (be : Vec Ideal S1x64 .f32) (o : Vec Ideal S524288x64 .f32) : Vec Ideal S524288x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

/-- The same at an index given by its coordinates. -/
theorem G9_6_apply (x : Vec Ideal S524288x64 .f32) (mu : Vec Ideal S1x64 .f32) (va : Vec Ideal S1x64 .f32) (ga : Vec Ideal S1x64 .f32) (be : Vec Ideal S1x64 .f32) (o : Vec Ideal S524288x64 .f32) (p : Fin 524288) (q : Fin 64) :
    G9_6 x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-! ## The body's payload at an index -/

/-- The body's stored value at row p, column q of a block, from the six loaded blocks: every operation
    of the body is pointwise except the four broadcasts of a single row over the rows of the block, each
    of which reads its row at column q; the zero constant is the real zero. -/
theorem pay9_apply (x0 : Vec Ideal S8192x64 .f32) (x1 : Vec Ideal S1x64 .f32) (x2 : Vec Ideal S1x64 .f32) (x3 : Vec Ideal S1x64 .f32) (x4 : Vec Ideal S1x64 .f32) (x5 : Vec Ideal S8192x64 .f32) (p : Fin 8192) (q : Fin 64) :
    k9_pay1 (F := Ideal) x0 x1 x2 x3 x4 x5 (ix2 p q)
      = x5 (ix2 p q) + max (((x3 (ix2 0 q) * (x0 (ix2 p q) - x1 (ix2 0 q))) * Ideal.rsqrt (x2 (ix2 0 q) + Ideal.ofBits .f32 0x3727C5AC#32)) + x4 (ix2 0 q)) 0 := by
  unfold k9_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  show x5 (ix2 p q) + max (((x3 (ix2 0 q) * (x0 (ix2 p q) - x1 (ix2 0 q))) * Ideal.rsqrt (x2 (ix2 0 q) + Ideal.ofBits .f32 0x3727C5AC#32)) + x4 (ix2 0 q)) (Ideal.ofBits .f32 0x00000000#32) = _
  rw [Ideal.ofBits_zero_f32]

/-! ## From blocks to the array -/

/-- The zero offsets of a whole-block access, as the constant function. -/
theorem hz9 : (![0, 0] : Fin 2 → Nat) = fun _ => 0 := funext fun a => by fin_cases a <;> rfl

/-- The printed index maps, decided over the grid: the two row-block inputs and the output are at block
    (t, 0) at point t, and the four single-row inputs are at block (0, 0) at every point. -/
theorem idx_facts9 : ∀ t : Fin cfg9.N,
    win9_6.index t (0 : Fin 2) = t.val ∧ win9_6.index t (1 : Fin 2) = 0
    ∧ win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- Where a block puts its elements in its array: a block's coordinate is the block index times the block
    size plus the coordinate inside the block. The output's block at point t puts row p, column q at row
    t * 8192 + p, column q; -/
theorem emb9_6 (t : Fin cfg9.N) (p : Fin 8192) (q : Fin 64) (h : t.val * 8192 + p.val < 524288) :
    ((cfg9.win 6).blk t).view.emb (ix2 p q) = ix2 (⟨t.val * 8192 + p.val, h⟩ : Fin 524288) q := by
  obtain ⟨e6a, e6b, -⟩ := idx_facts9 t
  funext a; apply Fin.ext
  match a with
  | ⟨0, _⟩ => show win9_6.index t (0 : Fin 2) * 8192 + 1 * p.val = t.val * 8192 + p.val; omega
  | ⟨1, _⟩ => show win9_6.index t (1 : Fin 2) * 64 + 1 * q.val = q.val; omega

/-- so do the blocks of the two row-block inputs; -/
theorem emb9_0 (t : Fin cfg9.N) (p : Fin 8192) (q : Fin 64) (h : t.val * 8192 + p.val < 524288) :
    ((cfg9.win 0).blk t).view.emb (ix2 p q) = ix2 (⟨t.val * 8192 + p.val, h⟩ : Fin 524288) q := by
  obtain ⟨-, -, e0a, e0b, -⟩ := idx_facts9 t
  funext a; apply Fin.ext
  match a with
  | ⟨0, _⟩ => show win9_0.index t (0 : Fin 2) * 8192 + 1 * p.val = t.val * 8192 + p.val; omega
  | ⟨1, _⟩ => show win9_0.index t (1 : Fin 2) * 64 + 1 * q.val = q.val; omega

theorem emb9_5 (t : Fin cfg9.N) (p : Fin 8192) (q : Fin 64) (h : t.val * 8192 + p.val < 524288) :
    ((cfg9.win 5).blk t).view.emb (ix2 p q) = ix2 (⟨t.val * 8192 + p.val, h⟩ : Fin 524288) q := by
  obtain ⟨-, -, -, -, e5a, e5b, -⟩ := idx_facts9 t
  funext a; apply Fin.ext
  match a with
  | ⟨0, _⟩ => show win9_5.index t (0 : Fin 2) * 8192 + 1 * p.val = t.val * 8192 + p.val; omega
  | ⟨1, _⟩ => show win9_5.index t (1 : Fin 2) * 64 + 1 * q.val = q.val; omega

/-- and each single-row input's block is its whole array at every point. -/
theorem emb9_1 (t : Fin cfg9.N) (q : Fin 64) : ((cfg9.win 1).blk t).view.emb (ix2 (0 : Fin 1) q) = ix2 (0 : Fin 1) q := by
  obtain ⟨-, -, -, -, -, -, e1a, e1b, -⟩ := idx_facts9 t
  funext a; apply Fin.ext
  match a with
  | ⟨0, _⟩ => show win9_1.index t (0 : Fin 2) * 1 + 1 * 0 = 0; omega
  | ⟨1, _⟩ => show win9_1.index t (1 : Fin 2) * 64 + 1 * q.val = q.val; omega

theorem emb9_2 (t : Fin cfg9.N) (q : Fin 64) : ((cfg9.win 2).blk t).view.emb (ix2 (0 : Fin 1) q) = ix2 (0 : Fin 1) q := by
  obtain ⟨-, -, -, -, -, -, -, -, e2a, e2b, -⟩ := idx_facts9 t
  funext a; apply Fin.ext
  match a with
  | ⟨0, _⟩ => show win9_2.index t (0 : Fin 2) * 1 + 1 * 0 = 0; omega
  | ⟨1, _⟩ => show win9_2.index t (1 : Fin 2) * 64 + 1 * q.val = q.val; omega

theorem emb9_3 (t : Fin cfg9.N) (q : Fin 64) : ((cfg9.win 3).blk t).view.emb (ix2 (0 : Fin 1) q) = ix2 (0 : Fin 1) q := by
  obtain ⟨-, -, -, -, -, -, -, -, -, -, e3a, e3b, -⟩ := idx_facts9 t
  funext a; apply Fin.ext
  match a with
  | ⟨0, _⟩ => show win9_3.index t (0 : Fin 2) * 1 + 1 * 0 = 0; omega
  | ⟨1, _⟩ => show win9_3.index t (1 : Fin 2) * 64 + 1 * q.val = q.val; omega

theorem emb9_4 (t : Fin cfg9.N) (q : Fin 64) : ((cfg9.win 4).blk t).view.emb (ix2 (0 : Fin 1) q) = ix2 (0 : Fin 1) q := by
  obtain ⟨-, -, -, -, -, -, -, -, -, -, -, -, e4a, e4b⟩ := idx_facts9 t
  funext a; apply Fin.ext
  match a with
  | ⟨0, _⟩ => show win9_4.index t (0 : Fin 2) * 1 + 1 * 0 = 0; omega
  | ⟨1, _⟩ => show win9_4.index t (1 : Fin 2) * 64 + 1 * q.val = q.val; omega

/-- The formula read through embeddings: when the two row-block inputs and the output are read at one and
    the same element (r, q) of their arrays and the single-row inputs at column q, the body's value there is
    the specification's. Stated over arrays of literal shapes. -/
theorem G9_6_at (A0 : Vec Ideal S524288x64 .f32) (A1 : Vec Ideal S1x64 .f32) (A2 : Vec Ideal S1x64 .f32) (A3 : Vec Ideal S1x64 .f32) (A4 : Vec Ideal S1x64 .f32) (A5 : Vec Ideal S524288x64 .f32)
    (e0 e5 e6 : S524288x64.Idx) (e1 e2 e3 e4 : S1x64.Idx) (r : Fin 524288) (q : Fin 64)
    (h0 : e0 = ix2 r q) (h1 : e1 = ix2 (0 : Fin 1) q) (h2 : e2 = ix2 (0 : Fin 1) q) (h3 : e3 = ix2 (0 : Fin 1) q) (h4 : e4 = ix2 (0 : Fin 1) q) (h5 : e5 = ix2 r q) (h6 : e6 = ix2 r q) :
    A5 e5 + max (((A3 e3 * (A0 e0 - A1 e1)) * Ideal.rsqrt (A2 e2 + Ideal.ofBits .f32 0x3727C5AC#32)) + A4 e4) 0 = G9_6 A0 A1 A2 A3 A4 A5 e6 := by
  subst h0 h1 h2 h3 h4 h5 h6
  rfl

-- the TensorCore's buffer contents when the region is entered, at the ideal instance
variable (V : (c : Dev nD) → (b : Ref sig .tc) → Buf (Elt Ideal) ((c : Thread nD τ).loc b))

set_option maxHeartbeats 1000000 in
/-- What point t writes back is block t of G9_6 of the arrays as the region finds them: the payload at
    row p, column q of the block reads the row-block inputs at row t * 8192 + p of their arrays, where
    the output's block puts that element, and the single-row inputs at column q. -/
theorem flushed9_6_eq (c : Dev nD) (t : Fin cfg9.N) :
    (dat9 (F := Ideal) V c).flushed 6 t = ((cfg9.win 6).blk t).view.read (Elt Ideal)
      (G9_6 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))) := by
  show (cfg9.win 6).cut (grid9.coords t) ((dat9 V c).after 6 t) = _
  rw [after9_6]
  unfold out9_6
  rw [View.canon_unit_zero hz9]
  simp only [View.ld_unit_zero (S := S8192x64) hz9, View.ld_unit_zero (S := S1x64) hz9]
  have ht : t.val < 64 := lt_of_lt_of_eq t.isLt N_9
  funext j
  obtain ⟨p, q, rfl⟩ : ∃ (p : Fin 8192) (q : Fin 64), j = ix2 p q := ⟨j 0, j 1, eq_ix2 j⟩
  refine (pay9_apply (iblk9 V c 0 t) (iblk9 V c 1 t) (iblk9 V c 2 t) (iblk9 V c 3 t) (iblk9 V c 4 t) (iblk9 V c 5 t) p q).trans ?_
  have hlt : t.val * 8192 + p.val < 524288 := by have := p.isLt; omega
  exact G9_6_at (V c (Pipeline.arrRef spec9 0)) (V c (Pipeline.arrRef spec9 1)) (V c (Pipeline.arrRef spec9 2)) (V c (Pipeline.arrRef spec9 3)) (V c (Pipeline.arrRef spec9 4)) (V c (Pipeline.arrRef spec9 5))
    _ _ _ _ _ _ _ ⟨t.val * 8192 + p.val, hlt⟩ q
    (emb9_0 t p q hlt) (emb9_1 t q) (emb9_2 t q) (emb9_3 t q) (emb9_4 t q) (emb9_5 t p q hlt) (emb9_6 t p q hlt)

/-- The output's blocks tile the array: the element at row r, column q is element (r % 8192, q) of the
    block of point r / 8192. -/
theorem covered9_6 (i : S524288x64.Idx) :
    ∃ t : Fin cfg9.N, (cfg9.win 6).flush t = true ∧ i ∈ ((cfg9.win 6).blk t).view.set := by
  have hi0 : (i 0).val < 524288 := idx2_lt0 i
  have hq : (i 1).val < 64 := idx2_lt1 i
  have hN : grid9.N = 64 := N_9
  have hlt : (i 0).val / 8192 < grid9.N := by omega
  have hp : (i 0).val % 8192 < 8192 := Nat.mod_lt _ (by decide)
  have hr : (i 0).val / 8192 * 8192 + (i 0).val % 8192 < 524288 := by omega
  obtain ⟨t, p, q, e⟩ : ∃ (t : Fin cfg9.N) (p : Fin 8192) (q : Fin 64), ((cfg9.win 6).blk t).view.emb (ix2 p q) = i := by
    refine ⟨⟨(i 0).val / 8192, hlt⟩, ⟨(i 0).val % 8192, hp⟩, ⟨(i 1).val, hq⟩, ?_⟩
    rw [emb9_6 ⟨(i 0).val / 8192, hlt⟩ ⟨(i 0).val % 8192, hp⟩ ⟨(i 1).val, hq⟩ hr]
    funext a; apply Fin.ext
    match a with
    | ⟨0, _⟩ => show (i 0).val / 8192 * 8192 + (i 0).val % 8192 = (i 0).val; omega
    | ⟨1, _⟩ => rfl
  subst e
  exact ⟨t, flush9_6 t, View.emb_mem_set _ _⟩

/-- THE ARRAY region 9 leaves: G9_6 of the arrays it reads, as the region finds them. -/
theorem arr9_6 (c : Dev nD) : (dat9 (F := Ideal) V c).arrAt 6 cfg9.N
    = G9_6 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) :=
  (dat9 V c).arrAt_eq_of_cover 6 _ (fun t _ => flushed9_6_eq V c t) covered9_6

end Cert.KernelIdeal.Hand
-- ==== Proof.KI.V10.lean ====
import proofs.«142356_j74423193305351_1_alg».proof.Proof.KI.R10
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # REGION 10 at the ideal values: the output array as one function of the three input arrays -/

/-- The linear layer, index by index: row `i 0` of x against column `i 1` of W, summed over the 64 input features, plus
    the bias at that column. -/
def G10_3 (x : Vec Ideal S32768x64 .f32) (W : Vec Ideal S64x256 .f32) (b : Vec Ideal S1x256 .f32) : Vec Ideal S32768x256 .f32 :=
  fun i => (∑ k : Fin 64, x (ix2 (i 0) k) * W (ix2 k (i 1))) + b (ix2 (0 : Fin 1) (i 1))

/-! ## The body's payload at an index -/

/-- The matrix unit's contraction index is its one coordinate; the left operand is read at (row, k) -/
theorem lhs_dot10_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_dot10_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
/-- and the right operand at (k, column). -/
theorem rhs_dot10_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_dot10_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The block product into the zero accumulator, at (p, q): the sum over the 64 features of the products. -/
theorem matmul10_apply (A : FVec Ideal S4096x64 .bf16) (B : FVec Ideal S64x256 .bf16) (p : Fin 4096) (q : Fin 256) :
    FloatOps.matmul dot_S4096x64_S64x256_S4096x256_1_0_0_1_n_n none A B (constant (F := Ideal) S4096x256 .f32 0x00000000#32) (ix2 p q)
      = ∑ k : Fin 64, A (ix2 p k) * B (ix2 k q) := by
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k := funext fun a => Fin.ext (by
    match a with
    | ⟨0, _⟩ => exact lhs_dot10_0 _ _
    | ⟨1, _⟩ => exact (lhs_dot10_1 _ _).trans hk)
  have er : dot_S4096x64_S64x256_S4096x256_1_0_0_1_n_n.rhsIdx (ix2 p q) ((contrEquiv1 dot_S4096x64_S64x256_S4096x256_1_0_0_1_n_n 64 rfl rfl).symm k) = ix2 k q := funext fun a => Fin.ext (by
    match a with
    | ⟨0, _⟩ => exact (rhs_dot10_0 _ _).trans hk
    | ⟨1, _⟩ => exact rhs_dot10_1 _ _)
  rw [el, er]

/-- The body's payload at (p, q): the casts to the matrix unit's type are the identity at the ideal values, the bias row
    is broadcast over the rows. -/
theorem pay10_apply (x0 : Vec Ideal S4096x64 .f32) (x1 : Vec Ideal S64x256 .f32) (x2 : Vec Ideal S1x256 .f32) (p : Fin 4096) (q : Fin 256) :
    k10_pay1 x0 x1 x2 (ix2 p q) = (∑ k : Fin 64, x0 (ix2 p k) * x1 (ix2 k q)) + x2 (ix2 (0 : Fin 1) q) := by
  unfold k10_pay1
  simp only [matmul, shapeCast_self]
  rw [addf_apply, matmul10_apply, broadcastTo_1b_ab_apply]
  rfl

/-! ## From blocks to the array -/

variable (V : (c : Dev nD) → (b : Ref sig .tc) → Buf (Elt Ideal) ((c : Thread nD τ).loc b))

theorem hz10 : (![0, 0] : Fin 2 → Nat) = fun _ => 0 := funext fun a => by fin_cases a <;> rfl

/-- The index maps over the grid: the row block of x moves with the output's row block, which is the point's number; the
    weight and the bias stay at their one block; every block's column index is 0. -/
theorem idx_facts10 : ∀ t : Fin cfg10.N, win10_0.index t (0 : Fin 2) = win10_3.index t (0 : Fin 2)
    ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

-- each block read is compared with the array read through the window's index map: the buffers' types are looked up in
-- the program's table of buffers, which is long
set_option maxHeartbeats 1000000 in
/-- What point `t` writes back is block `t` of the linear layer of the arrays as the region finds them. -/
theorem flushed10_3_eq (c : Dev nD) (t : Fin cfg10.N) :
    (dat10 (F := Ideal) V c).flushed 3 t = ((cfg10.win 3).blk t).view.read (Elt Ideal)
      (G10_3 (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz10]
  simp only [View.ld_unit_zero (S := S4096x64) hz10, View.ld_unit_zero (S := S64x256) hz10, View.ld_unit_zero (S := S1x256) hz10]
  obtain ⟨e0, e1, e2, e3, e4, e5, e6, e7⟩ := idx_facts10 t
  funext j
  obtain ⟨p, q, rfl⟩ : ∃ (p : Fin 4096) (q : Fin 256), j = ix2 p q := ⟨j 0, j 1, eq_ix2 j⟩
  show k10_pay1 (iblk10 V c 0 t) (iblk10 V c 1 t) (iblk10 V c 2 t) (ix2 p q)
    = G10_3 (V c (Pipeline.arrRef spec10 0)) (V c (Pipeline.arrRef spec10 1)) (V c (Pipeline.arrRef spec10 2)) (((cfg10.win 3).blk t).view.emb (ix2 p q))
  rw [pay10_apply]
  unfold G10_3
  have hx : ∀ k : Fin 64, iblk10 V c 0 t (ix2 p k) = V c (Pipeline.arrRef spec10 0) (ix2 ((((cfg10.win 3).blk t).view.emb (ix2 p q)) 0) k) := fun k => by
    show V c (Pipeline.arrRef spec10 0) (((cfg10.win 0).blk t).view.emb (ix2 p k)) = _
    refine congrArg (V c (Pipeline.arrRef spec10 0)) (funext fun a => Fin.ext ?_)
    match a with
    | ⟨0, _⟩ => show win10_0.index t (0 : Fin 2) * 4096 + 1 * p.val = win10_3.index t (0 : Fin 2) * 4096 + 1 * p.val; omega
    | ⟨1, _⟩ => show win10_0.index t (1 : Fin 2) * 64 + 1 * k.val = k.val; omega
  have hw : ∀ k : Fin 64, iblk10 V c 1 t (ix2 k q) = V c (Pipeline.arrRef spec10 1) (ix2 k ((((cfg10.win 3).blk t).view.emb (ix2 p q)) 1)) := fun k => by
    show V c (Pipeline.arrRef spec10 1) (((cfg10.win 1).blk t).view.emb (ix2 k q)) = _
    refine congrArg (V c (Pipeline.arrRef spec10 1)) (funext fun a => Fin.ext ?_)
    match a with
    | ⟨0, _⟩ => show win10_1.index t (0 : Fin 2) * 64 + 1 * k.val = k.val; omega
    | ⟨1, _⟩ => show win10_1.index t (1 : Fin 2) * 256 + 1 * q.val = win10_3.index t (1 : Fin 2) * 256 + 1 * q.val; omega
  have hb : iblk10 V c 2 t (ix2 (0 : Fin 1) q) = V c (Pipeline.arrRef spec10 2) (ix2 (0 : Fin 1) ((((cfg10.win 3).blk t).view.emb (ix2 p q)) 1)) := by
    show V c (Pipeline.arrRef spec10 2) (((cfg10.win 2).blk t).view.emb (ix2 (0 : Fin 1) q)) = _
    refine congrArg (V c (Pipeline.arrRef spec10 2)) (funext fun a => Fin.ext ?_)
    match a with
    | ⟨0, _⟩ => show win10_2.index t (0 : Fin 2) * 1 + 1 * 0 = 0; omega
    | ⟨1, _⟩ => show win10_2.index t (1 : Fin 2) * 256 + 1 * q.val = win10_3.index t (1 : Fin 2) * 256 + 1 * q.val; omega
  rw [hb]
  exact congrArg (· + _) (Finset.sum_congr rfl fun k _ => by rw [hx k, hw k])

/-- An index of the output array is in point `t`'s block iff each coordinate is in the block's range on its axis. -/
theorem mem_blk10_3 (t : Fin cfg10.N) (i : S32768x256.Idx) :
    i ∈ ((cfg10.win 3).blk t).view.set ↔ ∀ a : Fin 2, win10_3.index t a * S4096x256.size a ≤ (i a).val ∧ (i a).val < win10_3.index t a * S4096x256.size a + S4096x256.size a := by
  show i ∈ ((View.whole (Pipeline.arrRef spec10 3)).slice (win10_3.rect t)).set ↔ _
  rw [View.set_slice_whole, Rect.mem_set_unit]
  exact Iff.rfl

/-- Every index of the output array is in some point's block: row r is in block r / 4096. -/
theorem covered10_3 (i : S32768x256.Idx) : ∃ t : Fin cfg10.N, (cfg10.win 3).flush t = true ∧ i ∈ ((cfg10.win 3).blk t).view.set := by
  have hi0 : (i 0).val < 32768 := (i 0).isLt
  have hi1 : (i 1).val < 256 := (i 1).isLt
  have hN : (i 0).val / 4096 < cfg10.N := by rw [show cfg10.N = 8 from N_10]; omega
  obtain ⟨e0, e1, e2, e3, e4, e5, e6, e7⟩ := idx_facts10 ⟨(i 0).val / 4096, hN⟩
  have e6' : win10_3.index ⟨(i 0).val / 4096, hN⟩ (0 : Fin 2) = (i 0).val / 4096 := e6
  refine ⟨⟨(i 0).val / 4096, hN⟩, flush10_3 _, ?_⟩
  rw [mem_blk10_3]
  intro a
  match a with
  | ⟨0, _⟩ => show win10_3.index ⟨(i 0).val / 4096, hN⟩ (0 : Fin 2) * 4096 ≤ (i 0).val ∧ (i 0).val < win10_3.index ⟨(i 0).val / 4096, hN⟩ (0 : Fin 2) * 4096 + 4096; omega
  | ⟨1, _⟩ => show win10_3.index ⟨(i 0).val / 4096, hN⟩ (1 : Fin 2) * 256 ≤ (i 1).val ∧ (i 1).val < win10_3.index ⟨(i 0).val / 4096, hN⟩ (1 : Fin 2) * 256 + 256; omega

/-- THE OUTPUT ARRAY after the region: the linear layer of the three input arrays as the region finds them. -/
theorem arr10_3 (c : Dev nD) : (dat10 (F := Ideal) V c).arrAt 3 cfg10.N
    = G10_3 (V c (Pipeline.arrRef spec10 0)) (V c (Pipeline.arrRef spec10 1)) (V c (Pipeline.arrRef spec10 2)) :=
  (dat10 V c).arrAt_eq_of_cover 3 _ (fun t _ => flushed10_3_eq V c t) (covered10_3)

end Cert.KernelIdeal.Hand

end
-- ==== Proof.KI.V11.lean ====
import proofs.«142356_j74423193305351_1_alg».proof.Proof.KI.R11
import Idealize.ShloMosaic.Lib.Pipeline.Value
import Idealize.ShloMosaic.Lib.ValueIdx
import Idealize.ShloMosaic.Lib.ValueLayout
import Idealize.ShloMosaic.PureOps.Ideal.Laws

/-! # Region 11 of @main (the edge update): its three output arrays as functions of its input arrays, at the ideal values

With `x` the edge features (524288 × 64), `W` the weights (64 × 64), `b` the bias row (1 × 64) and `d`, `g`, `u` the
gathered node arrays (524288 × 64 each), the region leaves, at every index `(r, q)`,

* the pre-activation `ê(r, q) = ((Σ_k x(r, k) · W(k, q) + b(0, q)) + d(r, q)) + g(r, q)`,
* the gate `σ(ê(r, q))`, and
* the gated message `σ(ê(r, q)) · u(r, q)`.

The body computes exactly this on each block of 4096 rows (at the ideal values the casts to bf16 are the identity and
the matrix unit's product is the plain sum), block `t` is rows `4096·t … 4096·t + 4095` of every blocked array, and the
128 blocks tile the 524288 rows. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification -/

/-- The pre-activation `ê = x·W + b + d + g`, index by index, the sums grouped as the body adds them. -/
def ehat11 (x : Vec Ideal S524288x64 .f32) (W : Vec Ideal S64x64 .f32) (b : Vec Ideal S1x64 .f32)
    (d g : Vec Ideal S524288x64 .f32) : Vec Ideal S524288x64 .f32 :=
  fun i => (((∑ k : Fin 64, x (ix2 (i 0) k) * W (ix2 k (i 1))) + b (ix2 (0 : Fin 1) (i 1))) + d i) + g i

/-- Output window 6's array: the pre-activation. -/
def G11_6 (x : Vec Ideal S524288x64 .f32) (W : Vec Ideal S64x64 .f32) (b : Vec Ideal S1x64 .f32)
    (d g : Vec Ideal S524288x64 .f32) : Vec Ideal S524288x64 .f32 :=
  ehat11 x W b d g

/-- Output window 7's array: the gate, the logistic function of the pre-activation. -/
def G11_7 (x : Vec Ideal S524288x64 .f32) (W : Vec Ideal S64x64 .f32) (b : Vec Ideal S1x64 .f32)
    (d g : Vec Ideal S524288x64 .f32) : Vec Ideal S524288x64 .f32 :=
  fun i => Ideal.logistic (ehat11 x W b d g i)

/-- Output window 8's array: the gate times the third gathered array. -/
def G11_8 (x : Vec Ideal S524288x64 .f32) (W : Vec Ideal S64x64 .f32) (b : Vec Ideal S1x64 .f32)
    (d g u : Vec Ideal S524288x64 .f32) : Vec Ideal S524288x64 .f32 :=
  fun i => Ideal.logistic (ehat11 x W b d g i) * u i

/-- The pre-activation at an index given by its coordinates. -/
theorem ehat11_ix2 (x : Vec Ideal S524288x64 .f32) (W : Vec Ideal S64x64 .f32) (b : Vec Ideal S1x64 .f32)
    (d g : Vec Ideal S524288x64 .f32) (r : Fin 524288) (q : Fin 64) :
    ehat11 x W b d g (ix2 r q)
      = (((∑ k : Fin 64, x (ix2 r k) * W (ix2 k q)) + b (ix2 (0 : Fin 1) q)) + d (ix2 r q)) + g (ix2 r q) := rfl

/-! ## The body's payloads at an index -/

/-- The matrix product of a 4096 × 64 block by the 64 × 64 weights into the zero accumulator, at `(p, q)`: the sum
    over the contracted coordinate of the products of the entries. -/
theorem matmul11_apply (A : FVec Ideal S4096x64 .bf16) (B : FVec Ideal S64x64 .bf16) (p : Fin 4096) (q : Fin 64) :
    matmul dot_S4096x64_S64x64_S4096x64_1_0_0_1_n_n none A B (constant (F := Ideal) S4096x64 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 p q) ((contrEquiv1 _ 64 rfl rfl).symm c) = ix2 p c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 p q) ((contrEquiv1 _ 64 rfl rfl).symm c) = ix2 c q := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- The first payload (the pre-activation of a block) at `(p, q)`: the casts are the identity, the bias row is read
    at its one row, the sums are the extended reals'. -/
theorem k11_pay1_apply (x0 : Vec Ideal S4096x64 .f32) (x1 : Vec Ideal S64x64 .f32) (x2 : Vec Ideal S1x64 .f32)
    (x3 x4 : Vec Ideal S4096x64 .f32) (p : Fin 4096) (q : Fin 64) :
    k11_pay1 x0 x1 x2 x3 x4 (ix2 p q)
      = (((∑ k : Fin 64, x0 (ix2 p k) * x1 (ix2 k q)) + x2 (ix2 (0 : Fin 1) q)) + x3 (ix2 p q)) + x4 (ix2 p q) := by
  unfold k11_pay1
  simp only [shapeCast_self]
  rw [addf_apply, addf_apply, addf_apply, broadcastTo_1b_ab_apply, matmul11_apply]
  rfl

/-- The second payload is the logistic function of the first, elementwise. -/
theorem k11_pay2_apply (x0 : Vec Ideal S4096x64 .f32) (x1 : Vec Ideal S64x64 .f32) (x2 : Vec Ideal S1x64 .f32)
    (x3 x4 : Vec Ideal S4096x64 .f32) (j : S4096x64.Idx) :
    k11_pay2 x0 x1 x2 x3 x4 j = Ideal.logistic (k11_pay1 x0 x1 x2 x3 x4 j) := rfl

/-- The third payload is the second times the sixth block, elementwise. -/
theorem k11_pay3_apply (x0 : Vec Ideal S4096x64 .f32) (x1 : Vec Ideal S64x64 .f32) (x2 : Vec Ideal S1x64 .f32)
    (x3 x4 x5 : Vec Ideal S4096x64 .f32) (j : S4096x64.Idx) :
    k11_pay3 x0 x1 x2 x3 x4 x5 j = Ideal.logistic (k11_pay1 x0 x1 x2 x3 x4 j) * x5 j := by
  unfold k11_pay3
  simp only [shapeCast_self]
  rfl

/-! ## Block `t` is rows `4096·t … 4096·t + 4095` -/

variable (V : (c : Dev nD) → (b : Ref sig .tc) → Buf (Elt Ideal) ((c : Thread nD τ).loc b))

theorem hz11 : (![0, 0] : Fin 2 → Nat) = fun _ => 0 := funext fun a => by fin_cases a <;> rfl

/-- The printed index maps over the grid: the seven blocked windows are at block `(t, 0)`, the weights and the bias row
    at block `(0, 0)`. -/
theorem idx_facts11 : ∀ t : Fin cfg11.N,
    (win11_0.index t (0 : Fin 2) = t.val ∧ win11_0.index t (1 : Fin 2) = 0)
    ∧ (win11_1.index t (0 : Fin 2) = 0 ∧ win11_1.index t (1 : Fin 2) = 0)
    ∧ (win11_2.index t (0 : Fin 2) = 0 ∧ win11_2.index t (1 : Fin 2) = 0)
    ∧ (win11_3.index t (0 : Fin 2) = t.val ∧ win11_3.index t (1 : Fin 2) = 0)
    ∧ (win11_4.index t (0 : Fin 2) = t.val ∧ win11_4.index t (1 : Fin 2) = 0)
    ∧ (win11_5.index t (0 : Fin 2) = t.val ∧ win11_5.index t (1 : Fin 2) = 0)
    ∧ (win11_6.index t (0 : Fin 2) = t.val ∧ win11_6.index t (1 : Fin 2) = 0)
    ∧ (win11_7.index t (0 : Fin 2) = t.val ∧ win11_7.index t (1 : Fin 2) = 0)
    ∧ (win11_8.index t (0 : Fin 2) = t.val ∧ win11_8.index t (1 : Fin 2) = 0) :=
  (by decide +kernel : ∀ t : Fin grid11.N, _)

/-- Row `p` of block `t`, as a row of the whole array. -/
def row11 (t : Fin cfg11.N) (p : Fin 4096) : Fin 524288 :=
  ⟨4096 * t.val + p.val, by have ht : t.val < 128 := N_11 ▸ t.isLt; have hp := p.isLt; omega⟩

/-- Window 0's block at `t` sits in its array at rows `4096·t + p`, all 64 columns. -/
theorem emb_blk11_0 (t : Fin cfg11.N) (p : Fin 4096) (q : Fin 64) :
    ((cfg11.win 0).blk t).view.emb (ix2 p q) = ix2 (row11 t p) q := by
  obtain ⟨e0, e1⟩ := (idx_facts11 t).1
  funext a; apply Fin.ext
  match a with
  | ⟨0, _⟩ => show win11_0.index t (0 : Fin 2) * 4096 + 1 * p.val = 4096 * t.val + p.val; rw [e0]; omega
  | ⟨1, _⟩ => show win11_0.index t (1 : Fin 2) * 64 + 1 * q.val = q.val; rw [e1]; omega
/-- Window 3's block at `t` sits in its array at rows `4096·t + p`, all 64 columns. -/
theorem emb_blk11_3 (t : Fin cfg11.N) (p : Fin 4096) (q : Fin 64) :
    ((cfg11.win 3).blk t).view.emb (ix2 p q) = ix2 (row11 t p) q := by
  obtain ⟨e0, e1⟩ := (idx_facts11 t).2.2.2.1
  funext a; apply Fin.ext
  match a with
  | ⟨0, _⟩ => show win11_3.index t (0 : Fin 2) * 4096 + 1 * p.val = 4096 * t.val + p.val; rw [e0]; omega
  | ⟨1, _⟩ => show win11_3.index t (1 : Fin 2) * 64 + 1 * q.val = q.val; rw [e1]; omega
/-- Window 4's block at `t` sits in its array at rows `4096·t + p`, all 64 columns. -/
theorem emb_blk11_4 (t : Fin cfg11.N) (p : Fin 4096) (q : Fin 64) :
    ((cfg11.win 4).blk t).view.emb (ix2 p q) = ix2 (row11 t p) q := by
  obtain ⟨e0, e1⟩ := (idx_facts11 t).2.2.2.2.1
  funext a; apply Fin.ext
  match a with
  | ⟨0, _⟩ => show win11_4.index t (0 : Fin 2) * 4096 + 1 * p.val = 4096 * t.val + p.val; rw [e0]; omega
  | ⟨1, _⟩ => show win11_4.index t (1 : Fin 2) * 64 + 1 * q.val = q.val; rw [e1]; omega
/-- Window 5's block at `t` sits in its array at rows `4096·t + p`, all 64 columns. -/
theorem emb_blk11_5 (t : Fin cfg11.N) (p : Fin 4096) (q : Fin 64) :
    ((cfg11.win 5).blk t).view.emb (ix2 p q) = ix2 (row11 t p) q := by
  obtain ⟨e0, e1⟩ := (idx_facts11 t).2.2.2.2.2.1
  funext a; apply Fin.ext
  match a with
  | ⟨0, _⟩ => show win11_5.index t (0 : Fin 2) * 4096 + 1 * p.val = 4096 * t.val + p.val; rw [e0]; omega
  | ⟨1, _⟩ => show win11_5.index t (1 : Fin 2) * 64 + 1 * q.val = q.val; rw [e1]; omega
/-- Window 6's block at `t` sits in its array at rows `4096·t + p`, all 64 columns. -/
theorem emb_blk11_6 (t : Fin cfg11.N) (p : Fin 4096) (q : Fin 64) :
    ((cfg11.win 6).blk t).view.emb (ix2 p q) = ix2 (row11 t p) q := by
  obtain ⟨e0, e1⟩ := (idx_facts11 t).2.2.2.2.2.2.1
  funext a; apply Fin.ext
  match a with
  | ⟨0, _⟩ => show win11_6.index t (0 : Fin 2) * 4096 + 1 * p.val = 4096 * t.val + p.val; rw [e0]; omega
  | ⟨1, _⟩ => show win11_6.index t (1 : Fin 2) * 64 + 1 * q.val = q.val; rw [e1]; omega
/-- Window 7's block at `t` sits in its array at rows `4096·t + p`, all 64 columns. -/
theorem emb_blk11_7 (t : Fin cfg11.N) (p : Fin 4096) (q : Fin 64) :
    ((cfg11.win 7).blk t).view.emb (ix2 p q) = ix2 (row11 t p) q := by
  obtain ⟨e0, e1⟩ := (idx_facts11 t).2.2.2.2.2.2.2.1
  funext a; apply Fin.ext
  match a with
  | ⟨0, _⟩ => show win11_7.index t (0 : Fin 2) * 4096 + 1 * p.val = 4096 * t.val + p.val; rw [e0]; omega
  | ⟨1, _⟩ => show win11_7.index t (1 : Fin 2) * 64 + 1 * q.val = q.val; rw [e1]; omega
/-- Window 8's block at `t` sits in its array at rows `4096·t + p`, all 64 columns. -/
theorem emb_blk11_8 (t : Fin cfg11.N) (p : Fin 4096) (q : Fin 64) :
    ((cfg11.win 8).blk t).view.emb (ix2 p q) = ix2 (row11 t p) q := by
  obtain ⟨e0, e1⟩ := (idx_facts11 t).2.2.2.2.2.2.2.2
  funext a; apply Fin.ext
  match a with
  | ⟨0, _⟩ => show win11_8.index t (0 : Fin 2) * 4096 + 1 * p.val = 4096 * t.val + p.val; rw [e0]; omega
  | ⟨1, _⟩ => show win11_8.index t (1 : Fin 2) * 64 + 1 * q.val = q.val; rw [e1]; omega
/-- The weights' block is the whole array at every point. -/
theorem emb_blk11_1 (t : Fin cfg11.N) (k : Fin 64) (q : Fin 64) :
    ((cfg11.win 1).blk t).view.emb (ix2 k q) = ix2 k q := by
  obtain ⟨e0, e1⟩ := (idx_facts11 t).2.1
  funext a; apply Fin.ext
  match a with
  | ⟨0, _⟩ => show win11_1.index t (0 : Fin 2) * 64 + 1 * k.val = k.val; rw [e0]; omega
  | ⟨1, _⟩ => show win11_1.index t (1 : Fin 2) * 64 + 1 * q.val = q.val; rw [e1]; omega
/-- The bias row's block is the whole array at every point. -/
theorem emb_blk11_2 (t : Fin cfg11.N) (z : Fin 1) (q : Fin 64) :
    ((cfg11.win 2).blk t).view.emb (ix2 z q) = ix2 z q := by
  obtain ⟨e0, e1⟩ := (idx_facts11 t).2.2.1
  funext a; apply Fin.ext
  match a with
  | ⟨0, _⟩ => show win11_2.index t (0 : Fin 2) * 1 + 1 * z.val = z.val; rw [e0]; omega
  | ⟨1, _⟩ => show win11_2.index t (1 : Fin 2) * 64 + 1 * q.val = q.val; rw [e1]; omega

/-! ## Each input block read off its array -/

theorem iblk11_0_apply (c : Dev nD) (t : Fin cfg11.N) (p : Fin 4096) (q : Fin 64) :
    iblk11 V c 0 t (ix2 p q) = V c (Pipeline.arrRef spec11 0) (ix2 (row11 t p) q) := by
  show V c (Pipeline.arrRef spec11 0) (((cfg11.win 0).blk t).view.emb (ix2 p q)) = _
  rw [emb_blk11_0]
theorem iblk11_3_apply (c : Dev nD) (t : Fin cfg11.N) (p : Fin 4096) (q : Fin 64) :
    iblk11 V c 3 t (ix2 p q) = V c (Pipeline.arrRef spec11 3) (ix2 (row11 t p) q) := by
  show V c (Pipeline.arrRef spec11 3) (((cfg11.win 3).blk t).view.emb (ix2 p q)) = _
  rw [emb_blk11_3]
theorem iblk11_4_apply (c : Dev nD) (t : Fin cfg11.N) (p : Fin 4096) (q : Fin 64) :
    iblk11 V c 4 t (ix2 p q) = V c (Pipeline.arrRef spec11 4) (ix2 (row11 t p) q) := by
  show V c (Pipeline.arrRef spec11 4) (((cfg11.win 4).blk t).view.emb (ix2 p q)) = _
  rw [emb_blk11_4]
theorem iblk11_5_apply (c : Dev nD) (t : Fin cfg11.N) (p : Fin 4096) (q : Fin 64) :
    iblk11 V c 5 t (ix2 p q) = V c (Pipeline.arrRef spec11 5) (ix2 (row11 t p) q) := by
  show V c (Pipeline.arrRef spec11 5) (((cfg11.win 5).blk t).view.emb (ix2 p q)) = _
  rw [emb_blk11_5]
theorem iblk11_1_apply (c : Dev nD) (t : Fin cfg11.N) (k : Fin 64) (q : Fin 64) :
    iblk11 V c 1 t (ix2 k q) = V c (Pipeline.arrRef spec11 1) (ix2 k q) := by
  show V c (Pipeline.arrRef spec11 1) (((cfg11.win 1).blk t).view.emb (ix2 k q)) = _
  rw [emb_blk11_1]
theorem iblk11_2_apply (c : Dev nD) (t : Fin cfg11.N) (z : Fin 1) (q : Fin 64) :
    iblk11 V c 2 t (ix2 z q) = V c (Pipeline.arrRef spec11 2) (ix2 z q) := by
  show V c (Pipeline.arrRef spec11 2) (((cfg11.win 2).blk t).view.emb (ix2 z q)) = _
  rw [emb_blk11_2]

/-- The pre-activation payload of the blocks at `t`, at `(p, q)`, is the pre-activation of the arrays at row
    `4096·t + p`, column `q`. -/
theorem pre11_apply (c : Dev nD) (t : Fin cfg11.N) (p : Fin 4096) (q : Fin 64) :
    k11_pay1 (iblk11 V c 0 t) (iblk11 V c 1 t) (iblk11 V c 2 t) (iblk11 V c 3 t) (iblk11 V c 4 t) (ix2 p q)
      = ehat11 (V c (Pipeline.arrRef spec11 0)) (V c (Pipeline.arrRef spec11 1)) (V c (Pipeline.arrRef spec11 2))
          (V c (Pipeline.arrRef spec11 3)) (V c (Pipeline.arrRef spec11 4)) (ix2 (row11 t p) q) := by
  rw [k11_pay1_apply, ehat11_ix2]
  simp only [iblk11_0_apply, iblk11_1_apply, iblk11_2_apply, iblk11_3_apply, iblk11_4_apply]

/-- The gate payload of the blocks at `t`, at `(p, q)`, is the gate of the arrays at row `4096·t + p`, column `q`. -/
theorem gate11_apply (c : Dev nD) (t : Fin cfg11.N) (p : Fin 4096) (q : Fin 64) :
    k11_pay2 (iblk11 V c 0 t) (iblk11 V c 1 t) (iblk11 V c 2 t) (iblk11 V c 3 t) (iblk11 V c 4 t) (ix2 p q) = G11_7 (V c (Pipeline.arrRef spec11 0)) (V c (Pipeline.arrRef spec11 1)) (V c (Pipeline.arrRef spec11 2)) (V c (Pipeline.arrRef spec11 3)) (V c (Pipeline.arrRef spec11 4)) (ix2 (row11 t p) q) := by
  unfold G11_7
  rw [k11_pay2_apply, pre11_apply]

/-- The message payload of the blocks at `t`, at `(p, q)`, is the gated message of the arrays at row `4096·t + p`,
    column `q`. -/
theorem msg11_apply (c : Dev nD) (t : Fin cfg11.N) (p : Fin 4096) (q : Fin 64) :
    k11_pay3 (iblk11 V c 0 t) (iblk11 V c 1 t) (iblk11 V c 2 t) (iblk11 V c 3 t) (iblk11 V c 4 t) (iblk11 V c 5 t) (ix2 p q) = G11_8 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (ix2 (row11 t p) q) := by
  unfold G11_8
  rw [k11_pay3_apply, pre11_apply, iblk11_5_apply]

/-! ## What each point writes back, and the arrays after the region -/

set_option maxHeartbeats 1000000 in
/-- What point `t` writes back to window 6's array is block `t` of `G11_6` of the input arrays. -/
theorem flushed11_6_eq (c : Dev nD) (t : Fin cfg11.N) :
    (dat11 (F := Ideal) V c).flushed 6 t = ((cfg11.win 6).blk t).view.read (Elt Ideal) (G11_6 (V c (Pipeline.arrRef spec11 0)) (V c (Pipeline.arrRef spec11 1)) (V c (Pipeline.arrRef spec11 2)) (V c (Pipeline.arrRef spec11 3)) (V c (Pipeline.arrRef spec11 4))) := by
  show (cfg11.win 6).cut (grid11.coords t) ((dat11 V c).after 6 t) = _
  rw [after11_6]
  unfold out11_6
  rw [View.canon_unit_zero hz11]
  simp only [View.ld_unit_zero (S := S4096x64) hz11, View.ld_unit_zero (S := S64x64) hz11, View.ld_unit_zero (S := S1x64) hz11]
  generalize hP : k11_pay1 (iblk11 V c 0 t) (iblk11 V c 1 t) (iblk11 V c 2 t) (iblk11 V c 3 t) (iblk11 V c 4 t) = P
  funext j
  obtain ⟨p, q, rfl⟩ : ∃ (p : Fin 4096) (q : Fin 64), j = ix2 p q := ⟨j 0, j 1, eq_ix2 j⟩
  show P (ix2 p q) = (G11_6 (V c (Pipeline.arrRef spec11 0)) (V c (Pipeline.arrRef spec11 1)) (V c (Pipeline.arrRef spec11 2)) (V c (Pipeline.arrRef spec11 3)) (V c (Pipeline.arrRef spec11 4))) (((cfg11.win 6).blk t).view.emb (ix2 p q))
  rw [← hP, emb_blk11_6]
  exact pre11_apply V c t p q

/-- An index of window 6's array is in point `t`'s block iff each coordinate is in the block's range on its axis. -/
theorem mem_blk11_6 (t : Fin cfg11.N) (i : S524288x64.Idx) :
    i ∈ ((cfg11.win 6).blk t).view.set ↔ ∀ a : Fin 2, win11_6.index t a * S4096x64.size a ≤ (i a).val ∧ (i a).val < win11_6.index t a * S4096x64.size a + S4096x64.size a := by
  show i ∈ ((View.whole (Pipeline.arrRef spec11 6)).slice (win11_6.rect t)).set ↔ _
  rw [View.set_slice_whole, Rect.mem_set_unit]
  exact Iff.rfl

/-- Every index of window 6's array is in some point's block: row `r` is in block `r / 4096`. -/
theorem covered11_6 (i : S524288x64.Idx) :
    ∃ t : Fin cfg11.N, (cfg11.win 6).flush t = true ∧ i ∈ ((cfg11.win 6).blk t).view.set := by
  have hi0 : (i 0).val < 524288 := (i 0).isLt
  have hi1 : (i 1).val < 64 := (i 1).isLt
  obtain ⟨t, ht⟩ : ∃ t : Fin cfg11.N, t.val = (i 0).val / 4096 := ⟨⟨(i 0).val / 4096, by rw [show cfg11.N = 128 from N_11]; omega⟩, rfl⟩
  obtain ⟨e0, e1⟩ := (idx_facts11 t).2.2.2.2.2.2.1
  refine ⟨t, flush11_6 t, ?_⟩
  rw [mem_blk11_6]
  intro a
  match a with
  | ⟨0, _⟩ => show win11_6.index t (0 : Fin 2) * 4096 ≤ (i 0).val ∧ (i 0).val < win11_6.index t (0 : Fin 2) * 4096 + 4096; rw [e0]; omega
  | ⟨1, _⟩ => show win11_6.index t (1 : Fin 2) * 64 ≤ (i 1).val ∧ (i 1).val < win11_6.index t (1 : Fin 2) * 64 + 64; rw [e1]; omega

/-- Window 6's array after the region is `G11_6` of the input arrays as the region finds them. -/
theorem arr11_6 (c : Dev nD) :
    (dat11 (F := Ideal) V c).arrAt 6 cfg11.N = G11_6 (V c (Pipeline.arrRef spec11 0)) (V c (Pipeline.arrRef spec11 1)) (V c (Pipeline.arrRef spec11 2)) (V c (Pipeline.arrRef spec11 3)) (V c (Pipeline.arrRef spec11 4)) :=
  (dat11 (F := Ideal) V c).arrAt_eq_of_cover 6 (G11_6 (V c (Pipeline.arrRef spec11 0)) (V c (Pipeline.arrRef spec11 1)) (V c (Pipeline.arrRef spec11 2)) (V c (Pipeline.arrRef spec11 3)) (V c (Pipeline.arrRef spec11 4))) (fun t _ => flushed11_6_eq V c t) covered11_6

set_option maxHeartbeats 1000000 in
/-- What point `t` writes back to window 7's array is block `t` of `G11_7` of the input arrays. -/
theorem flushed11_7_eq (c : Dev nD) (t : Fin cfg11.N) :
    (dat11 (F := Ideal) V c).flushed 7 t = ((cfg11.win 7).blk t).view.read (Elt Ideal) (G11_7 (V c (Pipeline.arrRef spec11 0)) (V c (Pipeline.arrRef spec11 1)) (V c (Pipeline.arrRef spec11 2)) (V c (Pipeline.arrRef spec11 3)) (V c (Pipeline.arrRef spec11 4))) := by
  show (cfg11.win 7).cut (grid11.coords t) ((dat11 V c).after 7 t) = _
  rw [after11_7]
  unfold out11_7
  rw [View.canon_unit_zero hz11]
  simp only [View.ld_unit_zero (S := S4096x64) hz11, View.ld_unit_zero (S := S64x64) hz11, View.ld_unit_zero (S := S1x64) hz11]
  generalize hP : k11_pay2 (iblk11 V c 0 t) (iblk11 V c 1 t) (iblk11 V c 2 t) (iblk11 V c 3 t) (iblk11 V c 4 t) = P
  funext j
  obtain ⟨p, q, rfl⟩ : ∃ (p : Fin 4096) (q : Fin 64), j = ix2 p q := ⟨j 0, j 1, eq_ix2 j⟩
  show P (ix2 p q) = (G11_7 (V c (Pipeline.arrRef spec11 0)) (V c (Pipeline.arrRef spec11 1)) (V c (Pipeline.arrRef spec11 2)) (V c (Pipeline.arrRef spec11 3)) (V c (Pipeline.arrRef spec11 4))) (((cfg11.win 7).blk t).view.emb (ix2 p q))
  rw [← hP, emb_blk11_7]
  exact gate11_apply V c t p q

/-- An index of window 7's array is in point `t`'s block iff each coordinate is in the block's range on its axis. -/
theorem mem_blk11_7 (t : Fin cfg11.N) (i : S524288x64.Idx) :
    i ∈ ((cfg11.win 7).blk t).view.set ↔ ∀ a : Fin 2, win11_7.index t a * S4096x64.size a ≤ (i a).val ∧ (i a).val < win11_7.index t a * S4096x64.size a + S4096x64.size a := by
  show i ∈ ((View.whole (Pipeline.arrRef spec11 7)).slice (win11_7.rect t)).set ↔ _
  rw [View.set_slice_whole, Rect.mem_set_unit]
  exact Iff.rfl

/-- Every index of window 7's array is in some point's block: row `r` is in block `r / 4096`. -/
theorem covered11_7 (i : S524288x64.Idx) :
    ∃ t : Fin cfg11.N, (cfg11.win 7).flush t = true ∧ i ∈ ((cfg11.win 7).blk t).view.set := by
  have hi0 : (i 0).val < 524288 := (i 0).isLt
  have hi1 : (i 1).val < 64 := (i 1).isLt
  obtain ⟨t, ht⟩ : ∃ t : Fin cfg11.N, t.val = (i 0).val / 4096 := ⟨⟨(i 0).val / 4096, by rw [show cfg11.N = 128 from N_11]; omega⟩, rfl⟩
  obtain ⟨e0, e1⟩ := (idx_facts11 t).2.2.2.2.2.2.2.1
  refine ⟨t, flush11_7 t, ?_⟩
  rw [mem_blk11_7]
  intro a
  match a with
  | ⟨0, _⟩ => show win11_7.index t (0 : Fin 2) * 4096 ≤ (i 0).val ∧ (i 0).val < win11_7.index t (0 : Fin 2) * 4096 + 4096; rw [e0]; omega
  | ⟨1, _⟩ => show win11_7.index t (1 : Fin 2) * 64 ≤ (i 1).val ∧ (i 1).val < win11_7.index t (1 : Fin 2) * 64 + 64; rw [e1]; omega

/-- Window 7's array after the region is `G11_7` of the input arrays as the region finds them. -/
theorem arr11_7 (c : Dev nD) :
    (dat11 (F := Ideal) V c).arrAt 7 cfg11.N = G11_7 (V c (Pipeline.arrRef spec11 0)) (V c (Pipeline.arrRef spec11 1)) (V c (Pipeline.arrRef spec11 2)) (V c (Pipeline.arrRef spec11 3)) (V c (Pipeline.arrRef spec11 4)) :=
  (dat11 (F := Ideal) V c).arrAt_eq_of_cover 7 (G11_7 (V c (Pipeline.arrRef spec11 0)) (V c (Pipeline.arrRef spec11 1)) (V c (Pipeline.arrRef spec11 2)) (V c (Pipeline.arrRef spec11 3)) (V c (Pipeline.arrRef spec11 4))) (fun t _ => flushed11_7_eq V c t) covered11_7

set_option maxHeartbeats 1000000 in
/-- What point `t` writes back to window 8's array is block `t` of `G11_8` of the input arrays. -/
theorem flushed11_8_eq (c : Dev nD) (t : Fin cfg11.N) :
    (dat11 (F := Ideal) V c).flushed 8 t = ((cfg11.win 8).blk t).view.read (Elt Ideal) (G11_8 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) := by
  show (cfg11.win 8).cut (grid11.coords t) ((dat11 V c).after 8 t) = _
  rw [after11_8]
  unfold out11_8
  rw [View.canon_unit_zero hz11]
  simp only [View.ld_unit_zero (S := S4096x64) hz11, View.ld_unit_zero (S := S64x64) hz11, View.ld_unit_zero (S := S1x64) hz11]
  generalize hP : k11_pay3 (iblk11 V c 0 t) (iblk11 V c 1 t) (iblk11 V c 2 t) (iblk11 V c 3 t) (iblk11 V c 4 t) (iblk11 V c 5 t) = P
  funext j
  obtain ⟨p, q, rfl⟩ : ∃ (p : Fin 4096) (q : Fin 64), j = ix2 p q := ⟨j 0, j 1, eq_ix2 j⟩
  show P (ix2 p q) = (G11_8 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) (((cfg11.win 8).blk t).view.emb (ix2 p q))
  rw [← hP, emb_blk11_8]
  exact msg11_apply V c t p q

/-- An index of window 8's array is in point `t`'s block iff each coordinate is in the block's range on its axis. -/
theorem mem_blk11_8 (t : Fin cfg11.N) (i : S524288x64.Idx) :
    i ∈ ((cfg11.win 8).blk t).view.set ↔ ∀ a : Fin 2, win11_8.index t a * S4096x64.size a ≤ (i a).val ∧ (i a).val < win11_8.index t a * S4096x64.size a + S4096x64.size a := by
  show i ∈ ((View.whole (Pipeline.arrRef spec11 8)).slice (win11_8.rect t)).set ↔ _
  rw [View.set_slice_whole, Rect.mem_set_unit]
  exact Iff.rfl

/-- Every index of window 8's array is in some point's block: row `r` is in block `r / 4096`. -/
theorem covered11_8 (i : S524288x64.Idx) :
    ∃ t : Fin cfg11.N, (cfg11.win 8).flush t = true ∧ i ∈ ((cfg11.win 8).blk t).view.set := by
  have hi0 : (i 0).val < 524288 := (i 0).isLt
  have hi1 : (i 1).val < 64 := (i 1).isLt
  obtain ⟨t, ht⟩ : ∃ t : Fin cfg11.N, t.val = (i 0).val / 4096 := ⟨⟨(i 0).val / 4096, by rw [show cfg11.N = 128 from N_11]; omega⟩, rfl⟩
  obtain ⟨e0, e1⟩ := (idx_facts11 t).2.2.2.2.2.2.2.2
  refine ⟨t, flush11_8 t, ?_⟩
  rw [mem_blk11_8]
  intro a
  match a with
  | ⟨0, _⟩ => show win11_8.index t (0 : Fin 2) * 4096 ≤ (i 0).val ∧ (i 0).val < win11_8.index t (0 : Fin 2) * 4096 + 4096; rw [e0]; omega
  | ⟨1, _⟩ => show win11_8.index t (1 : Fin 2) * 64 ≤ (i 1).val ∧ (i 1).val < win11_8.index t (1 : Fin 2) * 64 + 64; rw [e1]; omega

/-- Window 8's array after the region is `G11_8` of the input arrays as the region finds them. -/
theorem arr11_8 (c : Dev nD) :
    (dat11 (F := Ideal) V c).arrAt 8 cfg11.N = G11_8 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) :=
  (dat11 (F := Ideal) V c).arrAt_eq_of_cover 8 (G11_8 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5))) (fun t _ => flushed11_8_eq V c t) covered11_8

end Cert.KernelIdeal.Hand
-- ==== Proof.KI.V12.lean ====
import proofs.«142356_j74423193305351_1_alg».proof.Proof.KI.R12
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The specification: batch-norm, relu and residual, index by index -/

/-- The node array region 12 leaves, as one function of the arrays it reads: at row p and column q,
    old(p, q) + max (gamma(q) * (new(p, q) - mean(q)) * rsqrt (var(q) + eps) + beta(q)) 0, the four
    statistics being single rows read at column q, eps the body's literal word, and the products and
    sums grouped as the body computes them. -/
def G12_6 (x : Vec Ideal S32768x64 .f32) (mu : Vec Ideal S1x64 .f32) (va : Vec Ideal S1x64 .f32) (ga : Vec Ideal S1x64 .f32) (be : Vec Ideal S1x64 .f32) (o : Vec Ideal S32768x64 .f32) : Vec Ideal S32768x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

/-- The same at an index given by its coordinates. -/
theorem G12_6_apply (x : Vec Ideal S32768x64 .f32) (mu : Vec Ideal S1x64 .f32) (va : Vec Ideal S1x64 .f32) (ga : Vec Ideal S1x64 .f32) (be : Vec Ideal S1x64 .f32) (o : Vec Ideal S32768x64 .f32) (p : Fin 32768) (q : Fin 64) :
    G12_6 x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-! ## The body's payload at an index -/

/-- The body's stored value at row p, column q of a block, from the six loaded blocks: every operation
    of the body is pointwise except the four broadcasts of a single row over the rows of the block, each
    of which reads its row at column q; the zero constant is the real zero. -/
theorem pay12_apply (x0 : Vec Ideal S8192x64 .f32) (x1 : Vec Ideal S1x64 .f32) (x2 : Vec Ideal S1x64 .f32) (x3 : Vec Ideal S1x64 .f32) (x4 : Vec Ideal S1x64 .f32) (x5 : Vec Ideal S8192x64 .f32) (p : Fin 8192) (q : Fin 64) :
    k12_pay1 (F := Ideal) x0 x1 x2 x3 x4 x5 (ix2 p q)
      = x5 (ix2 p q) + max (((x3 (ix2 0 q) * (x0 (ix2 p q) - x1 (ix2 0 q))) * Ideal.rsqrt (x2 (ix2 0 q) + Ideal.ofBits .f32 0x3727C5AC#32)) + x4 (ix2 0 q)) 0 := by
  unfold k12_pay1
  simp only [shapeCast_self]
  rw [addf_apply, maximumf_apply, addf_apply, mulf_apply, mulf_apply, subf_apply]
  rw [broadcastTo_1b_ab_apply, broadcastTo_1b_ab_apply, broadcastTo_1b_ab_apply, broadcastTo_1b_ab_apply]
  show x5 (ix2 p q) + max (((x3 (ix2 0 q) * (x0 (ix2 p q) - x1 (ix2 0 q))) * Ideal.rsqrt (x2 (ix2 0 q) + Ideal.ofBits .f32 0x3727C5AC#32)) + x4 (ix2 0 q)) (Ideal.ofBits .f32 0x00000000#32) = _
  rw [Ideal.ofBits_zero_f32]

/-! ## From blocks to the array -/

/-- The zero offsets of a whole-block access, as the constant function. -/
theorem hz12 : (![0, 0] : Fin 2 → Nat) = fun _ => 0 := funext fun a => by fin_cases a <;> rfl

/-- The printed index maps, decided over the grid: the two row-block inputs and the output are at block
    (t, 0) at point t, and the four single-row inputs are at block (0, 0) at every point. -/
theorem idx_facts12 : ∀ t : Fin cfg12.N,
    win12_6.index t (0 : Fin 2) = t.val ∧ win12_6.index t (1 : Fin 2) = 0
    ∧ win12_0.index t (0 : Fin 2) = t.val ∧ win12_0.index t (1 : Fin 2) = 0
    ∧ win12_5.index t (0 : Fin 2) = t.val ∧ win12_5.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- Where a block puts its elements in its array: a block's coordinate is the block index times the block
    size plus the coordinate inside the block. The output's block at point t puts row p, column q at row
    t * 8192 + p, column q; -/
theorem emb12_6 (t : Fin cfg12.N) (p : Fin 8192) (q : Fin 64) (h : t.val * 8192 + p.val < 32768) :
    ((cfg12.win 6).blk t).view.emb (ix2 p q) = ix2 (⟨t.val * 8192 + p.val, h⟩ : Fin 32768) q := by
  obtain ⟨e6a, e6b, -⟩ := idx_facts12 t
  funext a; apply Fin.ext
  match a with
  | ⟨0, _⟩ => show win12_6.index t (0 : Fin 2) * 8192 + 1 * p.val = t.val * 8192 + p.val; omega
  | ⟨1, _⟩ => show win12_6.index t (1 : Fin 2) * 64 + 1 * q.val = q.val; omega

/-- so do the blocks of the two row-block inputs; -/
theorem emb12_0 (t : Fin cfg12.N) (p : Fin 8192) (q : Fin 64) (h : t.val * 8192 + p.val < 32768) :
    ((cfg12.win 0).blk t).view.emb (ix2 p q) = ix2 (⟨t.val * 8192 + p.val, h⟩ : Fin 32768) q := by
  obtain ⟨-, -, e0a, e0b, -⟩ := idx_facts12 t
  funext a; apply Fin.ext
  match a with
  | ⟨0, _⟩ => show win12_0.index t (0 : Fin 2) * 8192 + 1 * p.val = t.val * 8192 + p.val; omega
  | ⟨1, _⟩ => show win12_0.index t (1 : Fin 2) * 64 + 1 * q.val = q.val; omega

theorem emb12_5 (t : Fin cfg12.N) (p : Fin 8192) (q : Fin 64) (h : t.val * 8192 + p.val < 32768) :
    ((cfg12.win 5).blk t).view.emb (ix2 p q) = ix2 (⟨t.val * 8192 + p.val, h⟩ : Fin 32768) q := by
  obtain ⟨-, -, -, -, e5a, e5b, -⟩ := idx_facts12 t
  funext a; apply Fin.ext
  match a with
  | ⟨0, _⟩ => show win12_5.index t (0 : Fin 2) * 8192 + 1 * p.val = t.val * 8192 + p.val; omega
  | ⟨1, _⟩ => show win12_5.index t (1 : Fin 2) * 64 + 1 * q.val = q.val; omega

/-- and each single-row input's block is its whole array at every point. -/
theorem emb12_1 (t : Fin cfg12.N) (q : Fin 64) : ((cfg12.win 1).blk t).view.emb (ix2 (0 : Fin 1) q) = ix2 (0 : Fin 1) q := by
  obtain ⟨-, -, -, -, -, -, e1a, e1b, -⟩ := idx_facts12 t
  funext a; apply Fin.ext
  match a with
  | ⟨0, _⟩ => show win12_1.index t (0 : Fin 2) * 1 + 1 * 0 = 0; omega
  | ⟨1, _⟩ => show win12_1.index t (1 : Fin 2) * 64 + 1 * q.val = q.val; omega

theorem emb12_2 (t : Fin cfg12.N) (q : Fin 64) : ((cfg12.win 2).blk t).view.emb (ix2 (0 : Fin 1) q) = ix2 (0 : Fin 1) q := by
  obtain ⟨-, -, -, -, -, -, -, -, e2a, e2b, -⟩ := idx_facts12 t
  funext a; apply Fin.ext
  match a with
  | ⟨0, _⟩ => show win12_2.index t (0 : Fin 2) * 1 + 1 * 0 = 0; omega
  | ⟨1, _⟩ => show win12_2.index t (1 : Fin 2) * 64 + 1 * q.val = q.val; omega

theorem emb12_3 (t : Fin cfg12.N) (q : Fin 64) : ((cfg12.win 3).blk t).view.emb (ix2 (0 : Fin 1) q) = ix2 (0 : Fin 1) q := by
  obtain ⟨-, -, -, -, -, -, -, -, -, -, e3a, e3b, -⟩ := idx_facts12 t
  funext a; apply Fin.ext
  match a with
  | ⟨0, _⟩ => show win12_3.index t (0 : Fin 2) * 1 + 1 * 0 = 0; omega
  | ⟨1, _⟩ => show win12_3.index t (1 : Fin 2) * 64 + 1 * q.val = q.val; omega

theorem emb12_4 (t : Fin cfg12.N) (q : Fin 64) : ((cfg12.win 4).blk t).view.emb (ix2 (0 : Fin 1) q) = ix2 (0 : Fin 1) q := by
  obtain ⟨-, -, -, -, -, -, -, -, -, -, -, -, e4a, e4b⟩ := idx_facts12 t
  funext a; apply Fin.ext
  match a with
  | ⟨0, _⟩ => show win12_4.index t (0 : Fin 2) * 1 + 1 * 0 = 0; omega
  | ⟨1, _⟩ => show win12_4.index t (1 : Fin 2) * 64 + 1 * q.val = q.val; omega

/-- The formula read through embeddings: when the two row-block inputs and the output are read at one and
    the same element (r, q) of their arrays and the single-row inputs at column q, the body's value there is
    the specification's. Stated over arrays of literal shapes. -/
theorem G12_6_at (A0 : Vec Ideal S32768x64 .f32) (A1 : Vec Ideal S1x64 .f32) (A2 : Vec Ideal S1x64 .f32) (A3 : Vec Ideal S1x64 .f32) (A4 : Vec Ideal S1x64 .f32) (A5 : Vec Ideal S32768x64 .f32)
    (e0 e5 e6 : S32768x64.Idx) (e1 e2 e3 e4 : S1x64.Idx) (r : Fin 32768) (q : Fin 64)
    (h0 : e0 = ix2 r q) (h1 : e1 = ix2 (0 : Fin 1) q) (h2 : e2 = ix2 (0 : Fin 1) q) (h3 : e3 = ix2 (0 : Fin 1) q) (h4 : e4 = ix2 (0 : Fin 1) q) (h5 : e5 = ix2 r q) (h6 : e6 = ix2 r q) :
    A5 e5 + max (((A3 e3 * (A0 e0 - A1 e1)) * Ideal.rsqrt (A2 e2 + Ideal.ofBits .f32 0x3727C5AC#32)) + A4 e4) 0 = G12_6 A0 A1 A2 A3 A4 A5 e6 := by
  subst h0 h1 h2 h3 h4 h5 h6
  rfl

-- the TensorCore's buffer contents when the region is entered, at the ideal instance
variable (V : (c : Dev nD) → (b : Ref sig .tc) → Buf (Elt Ideal) ((c : Thread nD τ).loc b))

set_option maxHeartbeats 1000000 in
/-- What point t writes back is block t of G12_6 of the arrays as the region finds them: the payload at
    row p, column q of the block reads the row-block inputs at row t * 8192 + p of their arrays, where
    the output's block puts that element, and the single-row inputs at column q. -/
theorem flushed12_6_eq (c : Dev nD) (t : Fin cfg12.N) :
    (dat12 (F := Ideal) V c).flushed 6 t = ((cfg12.win 6).blk t).view.read (Elt Ideal)
      (G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))) := by
  show (cfg12.win 6).cut (grid12.coords t) ((dat12 V c).after 6 t) = _
  rw [after12_6]
  unfold out12_6
  rw [View.canon_unit_zero hz12]
  simp only [View.ld_unit_zero (S := S8192x64) hz12, View.ld_unit_zero (S := S1x64) hz12]
  have ht : t.val < 4 := lt_of_lt_of_eq t.isLt N_12
  funext j
  obtain ⟨p, q, rfl⟩ : ∃ (p : Fin 8192) (q : Fin 64), j = ix2 p q := ⟨j 0, j 1, eq_ix2 j⟩
  refine (pay12_apply (iblk12 V c 0 t) (iblk12 V c 1 t) (iblk12 V c 2 t) (iblk12 V c 3 t) (iblk12 V c 4 t) (iblk12 V c 5 t) p q).trans ?_
  have hlt : t.val * 8192 + p.val < 32768 := by have := p.isLt; omega
  exact G12_6_at (V c (Pipeline.arrRef spec12 0)) (V c (Pipeline.arrRef spec12 1)) (V c (Pipeline.arrRef spec12 2)) (V c (Pipeline.arrRef spec12 3)) (V c (Pipeline.arrRef spec12 4)) (V c (Pipeline.arrRef spec12 5))
    _ _ _ _ _ _ _ ⟨t.val * 8192 + p.val, hlt⟩ q
    (emb12_0 t p q hlt) (emb12_1 t q) (emb12_2 t q) (emb12_3 t q) (emb12_4 t q) (emb12_5 t p q hlt) (emb12_6 t p q hlt)

/-- The output's blocks tile the array: the element at row r, column q is element (r % 8192, q) of the
    block of point r / 8192. -/
theorem covered12_6 (i : S32768x64.Idx) :
    ∃ t : Fin cfg12.N, (cfg12.win 6).flush t = true ∧ i ∈ ((cfg12.win 6).blk t).view.set := by
  have hi0 : (i 0).val < 32768 := idx2_lt0 i
  have hq : (i 1).val < 64 := idx2_lt1 i
  have hN : grid12.N = 4 := N_12
  have hlt : (i 0).val / 8192 < grid12.N := by omega
  have hp : (i 0).val % 8192 < 8192 := Nat.mod_lt _ (by decide)
  have hr : (i 0).val / 8192 * 8192 + (i 0).val % 8192 < 32768 := by omega
  obtain ⟨t, p, q, e⟩ : ∃ (t : Fin cfg12.N) (p : Fin 8192) (q : Fin 64), ((cfg12.win 6).blk t).view.emb (ix2 p q) = i := by
    refine ⟨⟨(i 0).val / 8192, hlt⟩, ⟨(i 0).val % 8192, hp⟩, ⟨(i 1).val, hq⟩, ?_⟩
    rw [emb12_6 ⟨(i 0).val / 8192, hlt⟩ ⟨(i 0).val % 8192, hp⟩ ⟨(i 1).val, hq⟩ hr]
    funext a; apply Fin.ext
    match a with
    | ⟨0, _⟩ => show (i 0).val / 8192 * 8192 + (i 0).val % 8192 = (i 0).val; omega
    | ⟨1, _⟩ => rfl
  subst e
  exact ⟨t, flush12_6 t, View.emb_mem_set _ _⟩

/-- THE ARRAY region 12 leaves: G12_6 of the arrays it reads, as the region finds them. -/
theorem arr12_6 (c : Dev nD) : (dat12 (F := Ideal) V c).arrAt 6 cfg12.N
    = G12_6 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) :=
  (dat12 V c).arrAt_eq_of_cover 6 _ (fun t _ => flushed12_6_eq V c t) covered12_6

end Cert.KernelIdeal.Hand
-- ==== Proof.KI.V14.lean ====
import proofs.«142356_j74423193305351_1_alg».proof.Proof.KI.R14
import Idealize.ShloMosaic.Lib.Pipeline.Value
import Idealize.ShloMosaic.Lib.ValueIdx
import Idealize.ShloMosaic.Lib.ValueLayout
import Idealize.ShloMosaic.PureOps.Ideal.Laws

/-! # Region 14 at the ideal values: the output array as one function of the input arrays

The head is `relu (relu (x W₁ + b₁) W₂ + b₂) W₃ + b₃`. At the ideal values the format changes to the
sixteen-bit format are the identity, each product into the zero accumulator is the plain sum over the
contracted coordinate, and a bias row broadcast over the rows reads its one row. The grid has one point
and every window is its whole array, so the one write-back covers the output array. -/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The specification -/

/-- The first hidden layer at row `r`, unit `j`: `max (∑ₖ x[r,k] · W₁[k,j] + b₁[0,j]) 0`. -/
def H14_1 (x : Vec Ideal S256x82 .f32) (W1 : Vec Ideal S82x256 .f32) (b1 : Vec Ideal S1x256 .f32) (r j : Fin 256) : EReal :=
  max ((∑ k : Fin 82, (x (ix2 r k) : EReal) * (W1 (ix2 k j) : EReal)) + (b1 (ix2 (0 : Fin 1) j) : EReal)) 0

/-- The second hidden layer at row `r`, unit `j`: `max (∑ₖ h₁[r,k] · W₂[k,j] + b₂[0,j]) 0`. -/
def H14_2 (x : Vec Ideal S256x82 .f32) (W1 : Vec Ideal S82x256 .f32) (b1 : Vec Ideal S1x256 .f32)
    (W2 : Vec Ideal S256x256 .f32) (b2 : Vec Ideal S1x256 .f32) (r j : Fin 256) : EReal :=
  max ((∑ k : Fin 256, H14_1 x W1 b1 r k * (W2 (ix2 k j) : EReal)) + (b2 (ix2 (0 : Fin 1) j) : EReal)) 0

/-- The head's output: at row `r` (its one column), `∑ₖ h₂[r,k] · W₃[k,0] + b₃[0,0]`. -/
def G14_7 (x : Vec Ideal S256x82 .f32) (W1 : Vec Ideal S82x256 .f32) (b1 : Vec Ideal S1x256 .f32)
    (W2 : Vec Ideal S256x256 .f32) (b2 : Vec Ideal S1x256 .f32) (W3 : Vec Ideal S256x1 .f32) (b3 : Vec Ideal S1x1 .f32) :
    Vec Ideal S256x1 .f32 := fun i =>
  (∑ k : Fin 256, H14_2 x W1 b1 W2 b2 (i 0) k * (W3 (ix2 k (0 : Fin 1)) : EReal)) + (b3 (ix2 (0 : Fin 1) (0 : Fin 1)) : EReal)

/-! ## A product into the zero accumulator, read at an index -/

/-- The product of an m×k by a k×n matrix (contracting the left operand's columns with the right operand's rows) into
    the zero accumulator, read at `(a, b)`, is the sum over the contracted coordinate of the entries' products. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's product at an index. -/
theorem mm14_1_apply (A : FVec Ideal S256x82 .bf16) (B : FVec Ideal S82x256 .bf16) (r j : Fin 256) :
    matmul dot_S256x82_S82x256_S256x256_1_0_0_1_n_n none A B (constant (F := Ideal) S256x256 .f32 0x00000000#32) (ix2 r j)
      = ∑ k : Fin 82, A (ix2 r k) * B (ix2 k j) :=
  matmul_plain_zero_apply _ none A B r j

/-- The second layer's product at an index. -/
theorem mm14_2_apply (A : FVec Ideal S256x256 .bf16) (B : FVec Ideal S256x256 .bf16) (r j : Fin 256) :
    matmul dot_S256x256_S256x256_S256x256_1_0_0_1_n_n none A B (constant (F := Ideal) S256x256 .f32 0x00000000#32) (ix2 r j)
      = ∑ k : Fin 256, A (ix2 r k) * B (ix2 k j) :=
  matmul_plain_zero_apply _ none A B r j

/-- The third layer's product at an index. -/
theorem mm14_3_apply (A : FVec Ideal S256x256 .bf16) (B : FVec Ideal S256x1 .bf16) (r : Fin 256) (j : Fin 1) :
    matmul dot_S256x256_S256x1_S256x1_1_0_0_1_n_n none A B (constant (F := Ideal) S256x1 .f32 0x00000000#32) (ix2 r j)
      = ∑ k : Fin 256, A (ix2 r k) * B (ix2 k j) :=
  matmul_plain_zero_apply _ none A B r j

/-! ## The body's payload at an index -/

/-- The zero word is the extended real zero. -/
theorem zero14 : (Scalar.ofBits (F := Ideal) .f32 0x00000000#32 : EReal) = 0 := Ideal.ofBits_zero_f32

/-- The specification at row `r`. -/
theorem G14_7_apply (x : Vec Ideal S256x82 .f32) (W1 : Vec Ideal S82x256 .f32) (b1 : Vec Ideal S1x256 .f32)
    (W2 : Vec Ideal S256x256 .f32) (b2 : Vec Ideal S1x256 .f32) (W3 : Vec Ideal S256x1 .f32) (b3 : Vec Ideal S1x1 .f32)
    (r : Fin 256) (c : Fin 1) :
    G14_7 x W1 b1 W2 b2 W3 b3 (ix2 r c)
      = (∑ k : Fin 256, H14_2 x W1 b1 W2 b2 r k * (W3 (ix2 k (0 : Fin 1)) : EReal)) + (b3 (ix2 (0 : Fin 1) (0 : Fin 1)) : EReal) := rfl

/-- The payload at row `r`: the specification there. -/
theorem pay14_apply (x0 : Vec Ideal S256x82 .f32) (x1 : Vec Ideal S82x256 .f32) (x2 : Vec Ideal S1x256 .f32)
    (x3 : Vec Ideal S256x256 .f32) (x4 : Vec Ideal S1x256 .f32) (x5 : Vec Ideal S256x1 .f32) (x6 : Vec Ideal S1x1 .f32)
    (r : Fin 256) (c : Fin 1) :
    k14_pay1 x0 x1 x2 x3 x4 x5 x6 (ix2 r c) = G14_7 x0 x1 x2 x3 x4 x5 x6 (ix2 r c) := by
  obtain rfl : c = 0 := Subsingleton.elim _ _
  rw [G14_7_apply]
  unfold k14_pay1
  simp only [shapeCast_self]
  rw [addf_apply, mm14_3_apply, broadcastTo_1b_ab_apply]
  refine congrArg (· + _) (Finset.sum_congr rfl fun k _ => ?_)
  rw [truncf_apply, truncf_apply, maximumf_apply, broadcast_apply, addf_apply, mm14_2_apply, broadcastTo_1b_ab_apply, zero14]
  unfold H14_2
  refine congrArg (· * _) (congrArg (max · 0) (congrArg (· + _) (Finset.sum_congr rfl fun k' _ => ?_)))
  rw [truncf_apply, truncf_apply, maximumf_apply, broadcast_apply, addf_apply, mm14_1_apply, broadcastTo_1b_ab_apply]
  unfold H14_1
  refine congrArg (· * _) (congrArg (max · 0) (congrArg (· + _) (Finset.sum_congr rfl fun k'' _ => ?_)))
  rw [truncf_apply, truncf_apply]

/-- The payload is the specification. -/
theorem pay14_eq (x0 : Vec Ideal S256x82 .f32) (x1 : Vec Ideal S82x256 .f32) (x2 : Vec Ideal S1x256 .f32)
    (x3 : Vec Ideal S256x256 .f32) (x4 : Vec Ideal S1x256 .f32) (x5 : Vec Ideal S256x1 .f32) (x6 : Vec Ideal S1x1 .f32) :
    k14_pay1 x0 x1 x2 x3 x4 x5 x6 = G14_7 x0 x1 x2 x3 x4 x5 x6 := by
  funext i
  obtain ⟨r, c, rfl⟩ : ∃ (r : Fin 256) (c : Fin 1), i = ix2 r c := ⟨i 0, i 1, eq_ix2 i⟩
  exact pay14_apply x0 x1 x2 x3 x4 x5 x6 r c

/-! ## From the one block to the array -/

section Arrays

variable (V : (c : Dev nD) → (b : Ref sig .tc) → Buf (Elt Ideal) ((c : Thread nD τ).loc b))

theorem hz14 : (![0, 0] : Fin 2 → Nat) = fun _ => 0 := funext fun a => by fin_cases a <;> rfl

/-- The printed index maps, decided over the grid: every window's block index is zero on both axes. -/
theorem idx_facts14 : ∀ t : Fin cfg14.N,
    win14_0.index t (0 : Fin 2) = 0 ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = 0 ∧ win14_7.index t (1 : Fin 2) = 0 :=
  (by decide +kernel : ∀ t : Fin grid14.N, _)

/-- Window 0's block at the point is its whole array. -/
theorem iblk14_0_eq (c : Dev nD) (t : Fin cfg14.N) :
    (iblk14 V c 0 t : Vec Ideal S256x82 .f32) = (V c (Pipeline.arrRef spec14 0) : Vec Ideal S256x82 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_v277 (((cfg14.win 0).blk t).view.emb j) = V c main_v277 j
  refine congrArg (V c main_v277) (funext fun a => Fin.ext ?_)
  match a with
  | ⟨0, _⟩ => show win14_0.index t (0 : Fin 2) * 256 + 1 * (j 0).val = (j 0).val; omega
  | ⟨1, _⟩ => show win14_0.index t (1 : Fin 2) * 82 + 1 * (j 1).val = (j 1).val; omega

/-- Window 1's block at the point is its whole array. -/
theorem iblk14_1_eq (c : Dev nD) (t : Fin cfg14.N) :
    (iblk14 V c 1 t : Vec Ideal S82x256 .f32) = (V c (Pipeline.arrRef spec14 1) : Vec Ideal S82x256 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_arg25 (((cfg14.win 1).blk t).view.emb j) = V c main_arg25 j
  refine congrArg (V c main_arg25) (funext fun a => Fin.ext ?_)
  match a with
  | ⟨0, _⟩ => show win14_1.index t (0 : Fin 2) * 82 + 1 * (j 0).val = (j 0).val; omega
  | ⟨1, _⟩ => show win14_1.index t (1 : Fin 2) * 256 + 1 * (j 1).val = (j 1).val; omega

/-- Window 2's block at the point is its whole array. -/
theorem iblk14_2_eq (c : Dev nD) (t : Fin cfg14.N) :
    (iblk14 V c 2 t : Vec Ideal S1x256 .f32) = (V c (Pipeline.arrRef spec14 2) : Vec Ideal S1x256 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_v278 (((cfg14.win 2).blk t).view.emb j) = V c main_v278 j
  refine congrArg (V c main_v278) (funext fun a => Fin.ext ?_)
  match a with
  | ⟨0, _⟩ => show win14_2.index t (0 : Fin 2) * 1 + 1 * (j 0).val = (j 0).val; omega
  | ⟨1, _⟩ => show win14_2.index t (1 : Fin 2) * 256 + 1 * (j 1).val = (j 1).val; omega

/-- Window 3's block at the point is its whole array. -/
theorem iblk14_3_eq (c : Dev nD) (t : Fin cfg14.N) :
    (iblk14 V c 3 t : Vec Ideal S256x256 .f32) = (V c (Pipeline.arrRef spec14 3) : Vec Ideal S256x256 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_arg27 (((cfg14.win 3).blk t).view.emb j) = V c main_arg27 j
  refine congrArg (V c main_arg27) (funext fun a => Fin.ext ?_)
  match a with
  | ⟨0, _⟩ => show win14_3.index t (0 : Fin 2) * 256 + 1 * (j 0).val = (j 0).val; omega
  | ⟨1, _⟩ => show win14_3.index t (1 : Fin 2) * 256 + 1 * (j 1).val = (j 1).val; omega

/-- Window 4's block at the point is its whole array. -/
theorem iblk14_4_eq (c : Dev nD) (t : Fin cfg14.N) :
    (iblk14 V c 4 t : Vec Ideal S1x256 .f32) = (V c (Pipeline.arrRef spec14 4) : Vec Ideal S1x256 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_v279 (((cfg14.win 4).blk t).view.emb j) = V c main_v279 j
  refine congrArg (V c main_v279) (funext fun a => Fin.ext ?_)
  match a with
  | ⟨0, _⟩ => show win14_4.index t (0 : Fin 2) * 1 + 1 * (j 0).val = (j 0).val; omega
  | ⟨1, _⟩ => show win14_4.index t (1 : Fin 2) * 256 + 1 * (j 1).val = (j 1).val; omega

/-- Window 5's block at the point is its whole array. -/
theorem iblk14_5_eq (c : Dev nD) (t : Fin cfg14.N) :
    (iblk14 V c 5 t : Vec Ideal S256x1 .f32) = (V c (Pipeline.arrRef spec14 5) : Vec Ideal S256x1 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_arg29 (((cfg14.win 5).blk t).view.emb j) = V c main_arg29 j
  refine congrArg (V c main_arg29) (funext fun a => Fin.ext ?_)
  match a with
  | ⟨0, _⟩ => show win14_5.index t (0 : Fin 2) * 256 + 1 * (j 0).val = (j 0).val; omega
  | ⟨1, _⟩ => show win14_5.index t (1 : Fin 2) * 1 + 1 * (j 1).val = (j 1).val; omega

/-- Window 6's block at the point is its whole array. -/
theorem iblk14_6_eq (c : Dev nD) (t : Fin cfg14.N) :
    (iblk14 V c 6 t : Vec Ideal S1x1 .f32) = (V c (Pipeline.arrRef spec14 6) : Vec Ideal S1x1 .f32) := by
  obtain ⟨e0a, e0b, e1a, e1b, e2a, e2b, e3a, e3b, e4a, e4b, e5a, e5b, e6a, e6b, e7a, e7b⟩ := idx_facts14 t
  funext j
  unfold iblk14
  rw [View.read_apply]
  show V c main_v280 (((cfg14.win 6).blk t).view.emb j) = V c main_v280 j
  refine congrArg (V c main_v280) (funext fun a => Fin.ext ?_)
  match a with
  | ⟨0, _⟩ => show win14_6.index t (0 : Fin 2) * 1 + 1 * (j 0).val = (j 0).val; omega
  | ⟨1, _⟩ => show win14_6.index t (1 : Fin 2) * 1 + 1 * (j 1).val = (j 1).val; omega

set_option maxHeartbeats 4000000 in
/-- What the one point writes back is the block of `G14_7` of the input arrays as the region finds them. -/
theorem flushed14_7_eq (c : Dev nD) (t : Fin cfg14.N) :
    (dat14 (F := Ideal) V c).flushed 7 t
      = ((cfg14.win 7).blk t).view.read (Elt Ideal) (G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6))) := by
  show (cfg14.win 7).cut (grid14.coords t) ((dat14 V c).after 7 t) = _
  rw [after14_7]
  unfold out14_7
  rw [View.canon_unit_zero hz14]
  simp only [View.ld_unit_zero (S := S256x82) hz14, View.ld_unit_zero (S := S82x256) hz14, View.ld_unit_zero (S := S1x256) hz14,
    View.ld_unit_zero (S := S256x256) hz14, View.ld_unit_zero (S := S256x1) hz14, View.ld_unit_zero (S := S1x1) hz14]
  rw [iblk14_0_eq, iblk14_1_eq, iblk14_2_eq, iblk14_3_eq, iblk14_4_eq, iblk14_5_eq, iblk14_6_eq, pay14_eq]
  obtain ⟨e0a, e0b, e1a, e1b, e2a, e2b, e3a, e3b, e4a, e4b, e5a, e5b, e6a, e6b, e7a, e7b⟩ := idx_facts14 t
  funext j
  show G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) j
    = G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) (((cfg14.win 7).blk t).view.emb j)
  refine congrArg (G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6))) (funext fun a => Fin.ext ?_)
  match a with
  | ⟨0, _⟩ => show (j 0).val = win14_7.index t (0 : Fin 2) * 256 + 1 * (j 0).val; omega
  | ⟨1, _⟩ => show (j 1).val = win14_7.index t (1 : Fin 2) * 1 + 1 * (j 1).val; omega

/-- An index of the output array is in the point's block iff each coordinate is in the block's range on its axis. -/
theorem mem_blk14_7 (t : Fin cfg14.N) (i : S256x1.Idx) :
    i ∈ ((cfg14.win 7).blk t).view.set ↔ ∀ a : Fin 2, win14_7.index t a * S256x1.size a ≤ (i a).val ∧ (i a).val < win14_7.index t a * S256x1.size a + S256x1.size a := by
  show i ∈ ((View.whole main_v281).slice (win14_7.rect t)).set ↔ _
  rw [View.set_slice_whole, Rect.mem_set_unit]
  exact Iff.rfl

/-- THE ARRAY after the region: `G14_7` of the input arrays as the region finds them. -/
theorem arr14_7 (c : Dev nD) :
    (dat14 (F := Ideal) V c).arrAt 7 cfg14.N = G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)) :=
  (dat14 (F := Ideal) V c).arrAt_eq_of_cover 7 (G14_7 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (V c (Pipeline.arrRef spec14 6)))
    (fun t _ => flushed14_7_eq V c t) fun i => by
      have hN : 0 < cfg14.N := by decide
      refine ⟨⟨0, hN⟩, flush14_7 _, ?_⟩
      rw [mem_blk14_7]
      obtain ⟨e0a, e0b, e1a, e1b, e2a, e2b, e3a, e3b, e4a, e4b, e5a, e5b, e6a, e6b, e7a, e7b⟩ := idx_facts14 ⟨0, hN⟩
      have h0 : (i 0).val < 256 := (i 0).isLt
      have h1 : (i 1).val < 1 := (i 1).isLt
      intro a
      match a with
      | ⟨0, _⟩ => show win14_7.index ⟨0, hN⟩ (0 : Fin 2) * 256 ≤ (i 0).val ∧ (i 0).val < win14_7.index ⟨0, hN⟩ (0 : Fin 2) * 256 + 256; omega
      | ⟨1, _⟩ => show win14_7.index ⟨0, hN⟩ (1 : Fin 2) * 1 ≤ (i 1).val ∧ (i 1).val < win14_7.index ⟨0, hN⟩ (1 : Fin 2) * 1 + 1; omega

end Arrays

end Cert.KernelIdeal.Hand

end
-- ==== Proof.BR.KStages.lean ====
import proofs.«142356_j74423193305351_1_alg».proof.Proof.KI.Run
import proofs.«142356_j74423193305351_1_alg».proof.Proof.KI.V0
import proofs.«142356_j74423193305351_1_alg».proof.Proof.KI.V1
import proofs.«142356_j74423193305351_1_alg».proof.Proof.KI.V2
import proofs.«142356_j74423193305351_1_alg».proof.Proof.KI.V3
import proofs.«142356_j74423193305351_1_alg».proof.Proof.KI.V4
import proofs.«142356_j74423193305351_1_alg».proof.Proof.KI.V5
import proofs.«142356_j74423193305351_1_alg».proof.Proof.KI.V6
import proofs.«142356_j74423193305351_1_alg».proof.Proof.KI.V7
import proofs.«142356_j74423193305351_1_alg».proof.Proof.KI.V8
import proofs.«142356_j74423193305351_1_alg».proof.Proof.KI.V9
import proofs.«142356_j74423193305351_1_alg».proof.Proof.KI.V10
import proofs.«142356_j74423193305351_1_alg».proof.Proof.KI.V11
import proofs.«142356_j74423193305351_1_alg».proof.Proof.KI.V12
import proofs.«142356_j74423193305351_1_alg».proof.Proof.KI.V14

/-! # The kernel program's stage valuations, read at the buffers the bridge consumes

The run leaves, after each of @main's 42 items, one valuation of the buffers (`W1` … `W42`). Three kinds of fact about
them, at the ideal values: an item leaves every buffer it does not write as it was (`WJ_of`; `WJ_launch` down to the
launch memory); a region's output array is the region's whole-array function of its input arrays at the region's entry
(`WX_<array>`); and the particular buffers the bridge reads are unchanged between the stages named
(`WHI_eq_WLO_<array>`, `WHI_eq_launch_<array>`). -/

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ)

/-! ## An item leaves what it does not write -/

theorem W1_of (c : Dev nD) (r : Ref sig .tc) (h : r ∉ hostOps0_W) : W1 m c (Proc.devRef .tc r) = m (c, Proc.devRef .tc r) :=
  GenP.V1_of m c r h
theorem W2_of (c : Dev nD) (r : Ref sig .tc) (h : r ∉ ([main_v1] : List (Ref sig .tc))) : W2 m c (Proc.devRef .tc r) = W1 m c (Proc.devRef .tc r) :=
  (congrFun (V2_eq m c) _).symm.trans ((GenP.V2_of m (outs m) c r h).trans (congrFun (V1_eq m c) _))
theorem W3_of (c : Dev nD) (r : Ref sig .tc) (h : r ∉ hostOps1_W) : W3 m c (Proc.devRef .tc r) = W2 m c (Proc.devRef .tc r) :=
  (congrFun (V3_eq m c) _).symm.trans ((GenP.V3_of m (outs m) c r h).trans (congrFun (V2_eq m c) _))
theorem W4_of (c : Dev nD) (r : Ref sig .tc) (h : r ∉ ([main_v3] : List (Ref sig .tc))) : W4 m c (Proc.devRef .tc r) = W3 m c (Proc.devRef .tc r) :=
  (congrFun (V4_eq m c) _).symm.trans ((GenP.V4_of m (outs m) c r h).trans (congrFun (V3_eq m c) _))
theorem W5_of (c : Dev nD) (r : Ref sig .tc) (h : r ∉ hostOps2_W) : W5 m c (Proc.devRef .tc r) = W4 m c (Proc.devRef .tc r) :=
  (congrFun (V5_eq m c) _).symm.trans ((GenP.V5_of m (outs m) c r h).trans (congrFun (V4_eq m c) _))
theorem W6_of (c : Dev nD) (r : Ref sig .tc) (h : r ∉ ([main_v23] : List (Ref sig .tc))) : W6 m c (Proc.devRef .tc r) = W5 m c (Proc.devRef .tc r) :=
  (congrFun (V6_eq m c) _).symm.trans ((GenP.V6_of m (outs m) c r h).trans (congrFun (V5_eq m c) _))
theorem W7_of (c : Dev nD) (r : Ref sig .tc) (h : r ∉ hostOps3_W) : W7 m c (Proc.devRef .tc r) = W6 m c (Proc.devRef .tc r) :=
  (congrFun (V7_eq m c) _).symm.trans ((GenP.V7_of m (outs m) c r h).trans (congrFun (V6_eq m c) _))
theorem W8_of (c : Dev nD) (r : Ref sig .tc) (h : r ∉ ([main_v54_0, main_v54_1, main_v54_2] : List (Ref sig .tc))) : W8 m c (Proc.devRef .tc r) = W7 m c (Proc.devRef .tc r) :=
  (congrFun (V8_eq m c) _).symm.trans ((GenP.V8_of m (outs m) c r h).trans (congrFun (V7_eq m c) _))
theorem W9_of (c : Dev nD) (r : Ref sig .tc) (h : r ∉ hostOps4_W) : W9 m c (Proc.devRef .tc r) = W8 m c (Proc.devRef .tc r) :=
  (congrFun (V9_eq m c) _).symm.trans ((GenP.V9_of m (outs m) c r h).trans (congrFun (V8_eq m c) _))
theorem W10_of (c : Dev nD) (r : Ref sig .tc) (h : r ∉ hostOps4_1_W) : W10 m c (Proc.devRef .tc r) = W9 m c (Proc.devRef .tc r) :=
  (congrFun (V10_eq m c) _).symm.trans ((GenP.V10_of m (outs m) c r h).trans (congrFun (V9_eq m c) _))
theorem W11_of (c : Dev nD) (r : Ref sig .tc) (h : r ∉ hostOps4_2_W) : W11 m c (Proc.devRef .tc r) = W10 m c (Proc.devRef .tc r) :=
  (congrFun (V11_eq m c) _).symm.trans ((GenP.V11_of m (outs m) c r h).trans (congrFun (V10_eq m c) _))
theorem W12_of (c : Dev nD) (r : Ref sig .tc) (h : r ∉ ([main_v77] : List (Ref sig .tc))) : W12 m c (Proc.devRef .tc r) = W11 m c (Proc.devRef .tc r) :=
  (congrFun (V12_eq m c) _).symm.trans ((GenP.V12_of m (outs m) c r h).trans (congrFun (V11_eq m c) _))
theorem W13_of (c : Dev nD) (r : Ref sig .tc) (h : r ∉ hostOps5_W) : W13 m c (Proc.devRef .tc r) = W12 m c (Proc.devRef .tc r) :=
  (congrFun (V13_eq m c) _).symm.trans ((GenP.V13_of m (outs m) c r h).trans (congrFun (V12_eq m c) _))
theorem W14_of (c : Dev nD) (r : Ref sig .tc) (h : r ∉ hostOps5_1_W) : W14 m c (Proc.devRef .tc r) = W13 m c (Proc.devRef .tc r) :=
  (congrFun (V14_eq m c) _).symm.trans ((GenP.V14_of m (outs m) c r h).trans (congrFun (V13_eq m c) _))
theorem W15_of (c : Dev nD) (r : Ref sig .tc) (h : r ∉ hostOps5_2_W) : W15 m c (Proc.devRef .tc r) = W14 m c (Proc.devRef .tc r) :=
  (congrFun (V15_eq m c) _).symm.trans ((GenP.V15_of m (outs m) c r h).trans (congrFun (V14_eq m c) _))
theorem W16_of (c : Dev nD) (r : Ref sig .tc) (h : r ∉ ([main_v90] : List (Ref sig .tc))) : W16 m c (Proc.devRef .tc r) = W15 m c (Proc.devRef .tc r) :=
  (congrFun (V16_eq m c) _).symm.trans ((GenP.V16_of m (outs m) c r h).trans (congrFun (V15_eq m c) _))
theorem W17_of (c : Dev nD) (r : Ref sig .tc) (h : r ∉ hostOps6_W) : W17 m c (Proc.devRef .tc r) = W16 m c (Proc.devRef .tc r) :=
  (congrFun (V17_eq m c) _).symm.trans ((GenP.V17_of m (outs m) c r h).trans (congrFun (V16_eq m c) _))
theorem W18_of (c : Dev nD) (r : Ref sig .tc) (h : r ∉ ([main_v110] : List (Ref sig .tc))) : W18 m c (Proc.devRef .tc r) = W17 m c (Proc.devRef .tc r) :=
  (congrFun (V18_eq m c) _).symm.trans ((GenP.V18_of m (outs m) c r h).trans (congrFun (V17_eq m c) _))
theorem W19_of (c : Dev nD) (r : Ref sig .tc) (h : r ∉ hostOps7_W) : W19 m c (Proc.devRef .tc r) = W18 m c (Proc.devRef .tc r) :=
  (congrFun (V19_eq m c) _).symm.trans ((GenP.V19_of m (outs m) c r h).trans (congrFun (V18_eq m c) _))
theorem W20_of (c : Dev nD) (r : Ref sig .tc) (h : r ∉ ([main_v141_0, main_v141_1, main_v141_2] : List (Ref sig .tc))) : W20 m c (Proc.devRef .tc r) = W19 m c (Proc.devRef .tc r) :=
  (congrFun (V20_eq m c) _).symm.trans ((GenP.V20_of m (outs m) c r h).trans (congrFun (V19_eq m c) _))
theorem W21_of (c : Dev nD) (r : Ref sig .tc) (h : r ∉ hostOps8_W) : W21 m c (Proc.devRef .tc r) = W20 m c (Proc.devRef .tc r) :=
  (congrFun (V21_eq m c) _).symm.trans ((GenP.V21_of m (outs m) c r h).trans (congrFun (V20_eq m c) _))
theorem W22_of (c : Dev nD) (r : Ref sig .tc) (h : r ∉ hostOps8_1_W) : W22 m c (Proc.devRef .tc r) = W21 m c (Proc.devRef .tc r) :=
  (congrFun (V22_eq m c) _).symm.trans ((GenP.V22_of m (outs m) c r h).trans (congrFun (V21_eq m c) _))
theorem W23_of (c : Dev nD) (r : Ref sig .tc) (h : r ∉ hostOps8_2_W) : W23 m c (Proc.devRef .tc r) = W22 m c (Proc.devRef .tc r) :=
  (congrFun (V23_eq m c) _).symm.trans ((GenP.V23_of m (outs m) c r h).trans (congrFun (V22_eq m c) _))
theorem W24_of (c : Dev nD) (r : Ref sig .tc) (h : r ∉ ([main_v164] : List (Ref sig .tc))) : W24 m c (Proc.devRef .tc r) = W23 m c (Proc.devRef .tc r) :=
  (congrFun (V24_eq m c) _).symm.trans ((GenP.V24_of m (outs m) c r h).trans (congrFun (V23_eq m c) _))
theorem W25_of (c : Dev nD) (r : Ref sig .tc) (h : r ∉ hostOps9_W) : W25 m c (Proc.devRef .tc r) = W24 m c (Proc.devRef .tc r) :=
  (congrFun (V25_eq m c) _).symm.trans ((GenP.V25_of m (outs m) c r h).trans (congrFun (V24_eq m c) _))
theorem W26_of (c : Dev nD) (r : Ref sig .tc) (h : r ∉ hostOps9_1_W) : W26 m c (Proc.devRef .tc r) = W25 m c (Proc.devRef .tc r) :=
  (congrFun (V26_eq m c) _).symm.trans ((GenP.V26_of m (outs m) c r h).trans (congrFun (V25_eq m c) _))
theorem W27_of (c : Dev nD) (r : Ref sig .tc) (h : r ∉ hostOps9_2_W) : W27 m c (Proc.devRef .tc r) = W26 m c (Proc.devRef .tc r) :=
  (congrFun (V27_eq m c) _).symm.trans ((GenP.V27_of m (outs m) c r h).trans (congrFun (V26_eq m c) _))
theorem W28_of (c : Dev nD) (r : Ref sig .tc) (h : r ∉ ([main_v177] : List (Ref sig .tc))) : W28 m c (Proc.devRef .tc r) = W27 m c (Proc.devRef .tc r) :=
  (congrFun (V28_eq m c) _).symm.trans ((GenP.V28_of m (outs m) c r h).trans (congrFun (V27_eq m c) _))
theorem W29_of (c : Dev nD) (r : Ref sig .tc) (h : r ∉ hostOps10_W) : W29 m c (Proc.devRef .tc r) = W28 m c (Proc.devRef .tc r) :=
  (congrFun (V29_eq m c) _).symm.trans ((GenP.V29_of m (outs m) c r h).trans (congrFun (V28_eq m c) _))
theorem W30_of (c : Dev nD) (r : Ref sig .tc) (h : r ∉ ([main_v197] : List (Ref sig .tc))) : W30 m c (Proc.devRef .tc r) = W29 m c (Proc.devRef .tc r) :=
  (congrFun (V30_eq m c) _).symm.trans ((GenP.V30_of m (outs m) c r h).trans (congrFun (V29_eq m c) _))
theorem W31_of (c : Dev nD) (r : Ref sig .tc) (h : r ∉ hostOps11_W) : W31 m c (Proc.devRef .tc r) = W30 m c (Proc.devRef .tc r) :=
  (congrFun (V31_eq m c) _).symm.trans ((GenP.V31_of m (outs m) c r h).trans (congrFun (V30_eq m c) _))
theorem W32_of (c : Dev nD) (r : Ref sig .tc) (h : r ∉ ([main_v228_0, main_v228_1, main_v228_2] : List (Ref sig .tc))) : W32 m c (Proc.devRef .tc r) = W31 m c (Proc.devRef .tc r) :=
  (congrFun (V32_eq m c) _).symm.trans ((GenP.V32_of m (outs m) c r h).trans (congrFun (V31_eq m c) _))
theorem W33_of (c : Dev nD) (r : Ref sig .tc) (h : r ∉ hostOps12_W) : W33 m c (Proc.devRef .tc r) = W32 m c (Proc.devRef .tc r) :=
  (congrFun (V33_eq m c) _).symm.trans ((GenP.V33_of m (outs m) c r h).trans (congrFun (V32_eq m c) _))
theorem W34_of (c : Dev nD) (r : Ref sig .tc) (h : r ∉ hostOps12_1_W) : W34 m c (Proc.devRef .tc r) = W33 m c (Proc.devRef .tc r) :=
  (congrFun (V34_eq m c) _).symm.trans ((GenP.V34_of m (outs m) c r h).trans (congrFun (V33_eq m c) _))
theorem W35_of (c : Dev nD) (r : Ref sig .tc) (h : r ∉ hostOps12_2_W) : W35 m c (Proc.devRef .tc r) = W34 m c (Proc.devRef .tc r) :=
  (congrFun (V35_eq m c) _).symm.trans ((GenP.V35_of m (outs m) c r h).trans (congrFun (V34_eq m c) _))
theorem W36_of (c : Dev nD) (r : Ref sig .tc) (h : r ∉ ([main_v251] : List (Ref sig .tc))) : W36 m c (Proc.devRef .tc r) = W35 m c (Proc.devRef .tc r) :=
  (congrFun (V36_eq m c) _).symm.trans ((GenP.V36_of m (outs m) c r h).trans (congrFun (V35_eq m c) _))
theorem W37_of (c : Dev nD) (r : Ref sig .tc) (h : r ∉ hostOps13_W) : W37 m c (Proc.devRef .tc r) = W36 m c (Proc.devRef .tc r) :=
  (congrFun (V37_eq m c) _).symm.trans ((GenP.V37_of m (outs m) c r h).trans (congrFun (V36_eq m c) _))
theorem W38_of (c : Dev nD) (r : Ref sig .tc) (h : r ∉ hostOps13_1_W) : W38 m c (Proc.devRef .tc r) = W37 m c (Proc.devRef .tc r) :=
  (congrFun (V38_eq m c) _).symm.trans ((GenP.V38_of m (outs m) c r h).trans (congrFun (V37_eq m c) _))
theorem W39_of (c : Dev nD) (r : Ref sig .tc) (h : r ∉ hostOps13_2_W) : W39 m c (Proc.devRef .tc r) = W38 m c (Proc.devRef .tc r) :=
  (congrFun (V39_eq m c) _).symm.trans ((GenP.V39_of m (outs m) c r h).trans (congrFun (V38_eq m c) _))
theorem W40_of (c : Dev nD) (r : Ref sig .tc) (h : r ∉ ([main_v264] : List (Ref sig .tc))) : W40 m c (Proc.devRef .tc r) = W39 m c (Proc.devRef .tc r) :=
  (congrFun (V40_eq m c) _).symm.trans ((GenP.V40_of m (outs m) c r h).trans (congrFun (V39_eq m c) _))
theorem W41_of (c : Dev nD) (r : Ref sig .tc) (h : r ∉ hostOps14_W) : W41 m c (Proc.devRef .tc r) = W40 m c (Proc.devRef .tc r) :=
  (congrFun (V41_eq m c) _).symm.trans ((GenP.V41_of m (outs m) c r h).trans (congrFun (V40_eq m c) _))
theorem W42_of (c : Dev nD) (r : Ref sig .tc) (h : r ∉ ([main_v281] : List (Ref sig .tc))) : W42 m c (Proc.devRef .tc r) = W41 m c (Proc.devRef .tc r) :=
  (congrFun (V42_eq m c) _).symm.trans ((GenP.V42_of m (outs m) c r h).trans (congrFun (V41_eq m c) _))

/-! ## Down to the launch memory: a buffer no item up to J writes -/

/-- The references items 1 … 1 write. -/
abbrev wr1 : List (Ref sig .tc) := hostOps0_W
theorem W1_launch (c : Dev nD) (r : Ref sig .tc) (h : r ∉ wr1) : W1 m c (Proc.devRef .tc r) = m (c, Proc.devRef .tc r) := W1_of m c r h
/-- The references items 1 … 2 write. -/
abbrev wr2 : List (Ref sig .tc) := ([main_v1] : List (Ref sig .tc)) ++ wr1
theorem W2_launch (c : Dev nD) (r : Ref sig .tc) (h : r ∉ wr2) : W2 m c (Proc.devRef .tc r) = m (c, Proc.devRef .tc r) :=
  (W2_of m c r fun hm => h (List.mem_append_left _ hm)).trans (W1_launch m c r fun hm => h (List.mem_append_right _ hm))
/-- The references items 1 … 3 write. -/
abbrev wr3 : List (Ref sig .tc) := hostOps1_W ++ wr2
theorem W3_launch (c : Dev nD) (r : Ref sig .tc) (h : r ∉ wr3) : W3 m c (Proc.devRef .tc r) = m (c, Proc.devRef .tc r) :=
  (W3_of m c r fun hm => h (List.mem_append_left _ hm)).trans (W2_launch m c r fun hm => h (List.mem_append_right _ hm))
/-- The references items 1 … 4 write. -/
abbrev wr4 : List (Ref sig .tc) := ([main_v3] : List (Ref sig .tc)) ++ wr3
theorem W4_launch (c : Dev nD) (r : Ref sig .tc) (h : r ∉ wr4) : W4 m c (Proc.devRef .tc r) = m (c, Proc.devRef .tc r) :=
  (W4_of m c r fun hm => h (List.mem_append_left _ hm)).trans (W3_launch m c r fun hm => h (List.mem_append_right _ hm))
/-- The references items 1 … 5 write. -/
abbrev wr5 : List (Ref sig .tc) := hostOps2_W ++ wr4
theorem W5_launch (c : Dev nD) (r : Ref sig .tc) (h : r ∉ wr5) : W5 m c (Proc.devRef .tc r) = m (c, Proc.devRef .tc r) :=
  (W5_of m c r fun hm => h (List.mem_append_left _ hm)).trans (W4_launch m c r fun hm => h (List.mem_append_right _ hm))
/-- The references items 1 … 6 write. -/
abbrev wr6 : List (Ref sig .tc) := ([main_v23] : List (Ref sig .tc)) ++ wr5
theorem W6_launch (c : Dev nD) (r : Ref sig .tc) (h : r ∉ wr6) : W6 m c (Proc.devRef .tc r) = m (c, Proc.devRef .tc r) :=
  (W6_of m c r fun hm => h (List.mem_append_left _ hm)).trans (W5_launch m c r fun hm => h (List.mem_append_right _ hm))
/-- The references items 1 … 7 write. -/
abbrev wr7 : List (Ref sig .tc) := hostOps3_W ++ wr6
theorem W7_launch (c : Dev nD) (r : Ref sig .tc) (h : r ∉ wr7) : W7 m c (Proc.devRef .tc r) = m (c, Proc.devRef .tc r) :=
  (W7_of m c r fun hm => h (List.mem_append_left _ hm)).trans (W6_launch m c r fun hm => h (List.mem_append_right _ hm))
/-- The references items 1 … 8 write. -/
abbrev wr8 : List (Ref sig .tc) := ([main_v54_0, main_v54_1, main_v54_2] : List (Ref sig .tc)) ++ wr7
theorem W8_launch (c : Dev nD) (r : Ref sig .tc) (h : r ∉ wr8) : W8 m c (Proc.devRef .tc r) = m (c, Proc.devRef .tc r) :=
  (W8_of m c r fun hm => h (List.mem_append_left _ hm)).trans (W7_launch m c r fun hm => h (List.mem_append_right _ hm))
/-- The references items 1 … 9 write. -/
abbrev wr9 : List (Ref sig .tc) := hostOps4_W ++ wr8
theorem W9_launch (c : Dev nD) (r : Ref sig .tc) (h : r ∉ wr9) : W9 m c (Proc.devRef .tc r) = m (c, Proc.devRef .tc r) :=
  (W9_of m c r fun hm => h (List.mem_append_left _ hm)).trans (W8_launch m c r fun hm => h (List.mem_append_right _ hm))
/-- The references items 1 … 10 write. -/
abbrev wr10 : List (Ref sig .tc) := hostOps4_1_W ++ wr9
theorem W10_launch (c : Dev nD) (r : Ref sig .tc) (h : r ∉ wr10) : W10 m c (Proc.devRef .tc r) = m (c, Proc.devRef .tc r) :=
  (W10_of m c r fun hm => h (List.mem_append_left _ hm)).trans (W9_launch m c r fun hm => h (List.mem_append_right _ hm))
/-- The references items 1 … 11 write. -/
abbrev wr11 : List (Ref sig .tc) := hostOps4_2_W ++ wr10
theorem W11_launch (c : Dev nD) (r : Ref sig .tc) (h : r ∉ wr11) : W11 m c (Proc.devRef .tc r) = m (c, Proc.devRef .tc r) :=
  (W11_of m c r fun hm => h (List.mem_append_left _ hm)).trans (W10_launch m c r fun hm => h (List.mem_append_right _ hm))
/-- The references items 1 … 12 write. -/
abbrev wr12 : List (Ref sig .tc) := ([main_v77] : List (Ref sig .tc)) ++ wr11
theorem W12_launch (c : Dev nD) (r : Ref sig .tc) (h : r ∉ wr12) : W12 m c (Proc.devRef .tc r) = m (c, Proc.devRef .tc r) :=
  (W12_of m c r fun hm => h (List.mem_append_left _ hm)).trans (W11_launch m c r fun hm => h (List.mem_append_right _ hm))
/-- The references items 1 … 13 write. -/
abbrev wr13 : List (Ref sig .tc) := hostOps5_W ++ wr12
theorem W13_launch (c : Dev nD) (r : Ref sig .tc) (h : r ∉ wr13) : W13 m c (Proc.devRef .tc r) = m (c, Proc.devRef .tc r) :=
  (W13_of m c r fun hm => h (List.mem_append_left _ hm)).trans (W12_launch m c r fun hm => h (List.mem_append_right _ hm))
/-- The references items 1 … 14 write. -/
abbrev wr14 : List (Ref sig .tc) := hostOps5_1_W ++ wr13
theorem W14_launch (c : Dev nD) (r : Ref sig .tc) (h : r ∉ wr14) : W14 m c (Proc.devRef .tc r) = m (c, Proc.devRef .tc r) :=
  (W14_of m c r fun hm => h (List.mem_append_left _ hm)).trans (W13_launch m c r fun hm => h (List.mem_append_right _ hm))
/-- The references items 1 … 15 write. -/
abbrev wr15 : List (Ref sig .tc) := hostOps5_2_W ++ wr14
theorem W15_launch (c : Dev nD) (r : Ref sig .tc) (h : r ∉ wr15) : W15 m c (Proc.devRef .tc r) = m (c, Proc.devRef .tc r) :=
  (W15_of m c r fun hm => h (List.mem_append_left _ hm)).trans (W14_launch m c r fun hm => h (List.mem_append_right _ hm))
/-- The references items 1 … 16 write. -/
abbrev wr16 : List (Ref sig .tc) := ([main_v90] : List (Ref sig .tc)) ++ wr15
theorem W16_launch (c : Dev nD) (r : Ref sig .tc) (h : r ∉ wr16) : W16 m c (Proc.devRef .tc r) = m (c, Proc.devRef .tc r) :=
  (W16_of m c r fun hm => h (List.mem_append_left _ hm)).trans (W15_launch m c r fun hm => h (List.mem_append_right _ hm))
/-- The references items 1 … 17 write. -/
abbrev wr17 : List (Ref sig .tc) := hostOps6_W ++ wr16
theorem W17_launch (c : Dev nD) (r : Ref sig .tc) (h : r ∉ wr17) : W17 m c (Proc.devRef .tc r) = m (c, Proc.devRef .tc r) :=
  (W17_of m c r fun hm => h (List.mem_append_left _ hm)).trans (W16_launch m c r fun hm => h (List.mem_append_right _ hm))
/-- The references items 1 … 18 write. -/
abbrev wr18 : List (Ref sig .tc) := ([main_v110] : List (Ref sig .tc)) ++ wr17
theorem W18_launch (c : Dev nD) (r : Ref sig .tc) (h : r ∉ wr18) : W18 m c (Proc.devRef .tc r) = m (c, Proc.devRef .tc r) :=
  (W18_of m c r fun hm => h (List.mem_append_left _ hm)).trans (W17_launch m c r fun hm => h (List.mem_append_right _ hm))
/-- The references items 1 … 19 write. -/
abbrev wr19 : List (Ref sig .tc) := hostOps7_W ++ wr18
theorem W19_launch (c : Dev nD) (r : Ref sig .tc) (h : r ∉ wr19) : W19 m c (Proc.devRef .tc r) = m (c, Proc.devRef .tc r) :=
  (W19_of m c r fun hm => h (List.mem_append_left _ hm)).trans (W18_launch m c r fun hm => h (List.mem_append_right _ hm))
/-- The references items 1 … 20 write. -/
abbrev wr20 : List (Ref sig .tc) := ([main_v141_0, main_v141_1, main_v141_2] : List (Ref sig .tc)) ++ wr19
theorem W20_launch (c : Dev nD) (r : Ref sig .tc) (h : r ∉ wr20) : W20 m c (Proc.devRef .tc r) = m (c, Proc.devRef .tc r) :=
  (W20_of m c r fun hm => h (List.mem_append_left _ hm)).trans (W19_launch m c r fun hm => h (List.mem_append_right _ hm))
/-- The references items 1 … 21 write. -/
abbrev wr21 : List (Ref sig .tc) := hostOps8_W ++ wr20
theorem W21_launch (c : Dev nD) (r : Ref sig .tc) (h : r ∉ wr21) : W21 m c (Proc.devRef .tc r) = m (c, Proc.devRef .tc r) :=
  (W21_of m c r fun hm => h (List.mem_append_left _ hm)).trans (W20_launch m c r fun hm => h (List.mem_append_right _ hm))
/-- The references items 1 … 22 write. -/
abbrev wr22 : List (Ref sig .tc) := hostOps8_1_W ++ wr21
theorem W22_launch (c : Dev nD) (r : Ref sig .tc) (h : r ∉ wr22) : W22 m c (Proc.devRef .tc r) = m (c, Proc.devRef .tc r) :=
  (W22_of m c r fun hm => h (List.mem_append_left _ hm)).trans (W21_launch m c r fun hm => h (List.mem_append_right _ hm))
/-- The references items 1 … 23 write. -/
abbrev wr23 : List (Ref sig .tc) := hostOps8_2_W ++ wr22
theorem W23_launch (c : Dev nD) (r : Ref sig .tc) (h : r ∉ wr23) : W23 m c (Proc.devRef .tc r) = m (c, Proc.devRef .tc r) :=
  (W23_of m c r fun hm => h (List.mem_append_left _ hm)).trans (W22_launch m c r fun hm => h (List.mem_append_right _ hm))
/-- The references items 1 … 24 write. -/
abbrev wr24 : List (Ref sig .tc) := ([main_v164] : List (Ref sig .tc)) ++ wr23
theorem W24_launch (c : Dev nD) (r : Ref sig .tc) (h : r ∉ wr24) : W24 m c (Proc.devRef .tc r) = m (c, Proc.devRef .tc r) :=
  (W24_of m c r fun hm => h (List.mem_append_left _ hm)).trans (W23_launch m c r fun hm => h (List.mem_append_right _ hm))
/-- The references items 1 … 25 write. -/
abbrev wr25 : List (Ref sig .tc) := hostOps9_W ++ wr24
theorem W25_launch (c : Dev nD) (r : Ref sig .tc) (h : r ∉ wr25) : W25 m c (Proc.devRef .tc r) = m (c, Proc.devRef .tc r) :=
  (W25_of m c r fun hm => h (List.mem_append_left _ hm)).trans (W24_launch m c r fun hm => h (List.mem_append_right _ hm))
/-- The references items 1 … 26 write. -/
abbrev wr26 : List (Ref sig .tc) := hostOps9_1_W ++ wr25
theorem W26_launch (c : Dev nD) (r : Ref sig .tc) (h : r ∉ wr26) : W26 m c (Proc.devRef .tc r) = m (c, Proc.devRef .tc r) :=
  (W26_of m c r fun hm => h (List.mem_append_left _ hm)).trans (W25_launch m c r fun hm => h (List.mem_append_right _ hm))
/-- The references items 1 … 27 write. -/
abbrev wr27 : List (Ref sig .tc) := hostOps9_2_W ++ wr26
theorem W27_launch (c : Dev nD) (r : Ref sig .tc) (h : r ∉ wr27) : W27 m c (Proc.devRef .tc r) = m (c, Proc.devRef .tc r) :=
  (W27_of m c r fun hm => h (List.mem_append_left _ hm)).trans (W26_launch m c r fun hm => h (List.mem_append_right _ hm))
/-- The references items 1 … 28 write. -/
abbrev wr28 : List (Ref sig .tc) := ([main_v177] : List (Ref sig .tc)) ++ wr27
theorem W28_launch (c : Dev nD) (r : Ref sig .tc) (h : r ∉ wr28) : W28 m c (Proc.devRef .tc r) = m (c, Proc.devRef .tc r) :=
  (W28_of m c r fun hm => h (List.mem_append_left _ hm)).trans (W27_launch m c r fun hm => h (List.mem_append_right _ hm))
/-- The references items 1 … 29 write. -/
abbrev wr29 : List (Ref sig .tc) := hostOps10_W ++ wr28
theorem W29_launch (c : Dev nD) (r : Ref sig .tc) (h : r ∉ wr29) : W29 m c (Proc.devRef .tc r) = m (c, Proc.devRef .tc r) :=
  (W29_of m c r fun hm => h (List.mem_append_left _ hm)).trans (W28_launch m c r fun hm => h (List.mem_append_right _ hm))
/-- The references items 1 … 30 write. -/
abbrev wr30 : List (Ref sig .tc) := ([main_v197] : List (Ref sig .tc)) ++ wr29
theorem W30_launch (c : Dev nD) (r : Ref sig .tc) (h : r ∉ wr30) : W30 m c (Proc.devRef .tc r) = m (c, Proc.devRef .tc r) :=
  (W30_of m c r fun hm => h (List.mem_append_left _ hm)).trans (W29_launch m c r fun hm => h (List.mem_append_right _ hm))
/-- The references items 1 … 31 write. -/
abbrev wr31 : List (Ref sig .tc) := hostOps11_W ++ wr30
theorem W31_launch (c : Dev nD) (r : Ref sig .tc) (h : r ∉ wr31) : W31 m c (Proc.devRef .tc r) = m (c, Proc.devRef .tc r) :=
  (W31_of m c r fun hm => h (List.mem_append_left _ hm)).trans (W30_launch m c r fun hm => h (List.mem_append_right _ hm))
/-- The references items 1 … 32 write. -/
abbrev wr32 : List (Ref sig .tc) := ([main_v228_0, main_v228_1, main_v228_2] : List (Ref sig .tc)) ++ wr31
theorem W32_launch (c : Dev nD) (r : Ref sig .tc) (h : r ∉ wr32) : W32 m c (Proc.devRef .tc r) = m (c, Proc.devRef .tc r) :=
  (W32_of m c r fun hm => h (List.mem_append_left _ hm)).trans (W31_launch m c r fun hm => h (List.mem_append_right _ hm))
/-- The references items 1 … 33 write. -/
abbrev wr33 : List (Ref sig .tc) := hostOps12_W ++ wr32
theorem W33_launch (c : Dev nD) (r : Ref sig .tc) (h : r ∉ wr33) : W33 m c (Proc.devRef .tc r) = m (c, Proc.devRef .tc r) :=
  (W33_of m c r fun hm => h (List.mem_append_left _ hm)).trans (W32_launch m c r fun hm => h (List.mem_append_right _ hm))
/-- The references items 1 … 34 write. -/
abbrev wr34 : List (Ref sig .tc) := hostOps12_1_W ++ wr33
theorem W34_launch (c : Dev nD) (r : Ref sig .tc) (h : r ∉ wr34) : W34 m c (Proc.devRef .tc r) = m (c, Proc.devRef .tc r) :=
  (W34_of m c r fun hm => h (List.mem_append_left _ hm)).trans (W33_launch m c r fun hm => h (List.mem_append_right _ hm))
/-- The references items 1 … 35 write. -/
abbrev wr35 : List (Ref sig .tc) := hostOps12_2_W ++ wr34
theorem W35_launch (c : Dev nD) (r : Ref sig .tc) (h : r ∉ wr35) : W35 m c (Proc.devRef .tc r) = m (c, Proc.devRef .tc r) :=
  (W35_of m c r fun hm => h (List.mem_append_left _ hm)).trans (W34_launch m c r fun hm => h (List.mem_append_right _ hm))
/-- The references items 1 … 36 write. -/
abbrev wr36 : List (Ref sig .tc) := ([main_v251] : List (Ref sig .tc)) ++ wr35
theorem W36_launch (c : Dev nD) (r : Ref sig .tc) (h : r ∉ wr36) : W36 m c (Proc.devRef .tc r) = m (c, Proc.devRef .tc r) :=
  (W36_of m c r fun hm => h (List.mem_append_left _ hm)).trans (W35_launch m c r fun hm => h (List.mem_append_right _ hm))
/-- The references items 1 … 37 write. -/
abbrev wr37 : List (Ref sig .tc) := hostOps13_W ++ wr36
theorem W37_launch (c : Dev nD) (r : Ref sig .tc) (h : r ∉ wr37) : W37 m c (Proc.devRef .tc r) = m (c, Proc.devRef .tc r) :=
  (W37_of m c r fun hm => h (List.mem_append_left _ hm)).trans (W36_launch m c r fun hm => h (List.mem_append_right _ hm))
/-- The references items 1 … 38 write. -/
abbrev wr38 : List (Ref sig .tc) := hostOps13_1_W ++ wr37
theorem W38_launch (c : Dev nD) (r : Ref sig .tc) (h : r ∉ wr38) : W38 m c (Proc.devRef .tc r) = m (c, Proc.devRef .tc r) :=
  (W38_of m c r fun hm => h (List.mem_append_left _ hm)).trans (W37_launch m c r fun hm => h (List.mem_append_right _ hm))
/-- The references items 1 … 39 write. -/
abbrev wr39 : List (Ref sig .tc) := hostOps13_2_W ++ wr38
theorem W39_launch (c : Dev nD) (r : Ref sig .tc) (h : r ∉ wr39) : W39 m c (Proc.devRef .tc r) = m (c, Proc.devRef .tc r) :=
  (W39_of m c r fun hm => h (List.mem_append_left _ hm)).trans (W38_launch m c r fun hm => h (List.mem_append_right _ hm))
/-- The references items 1 … 40 write. -/
abbrev wr40 : List (Ref sig .tc) := ([main_v264] : List (Ref sig .tc)) ++ wr39
theorem W40_launch (c : Dev nD) (r : Ref sig .tc) (h : r ∉ wr40) : W40 m c (Proc.devRef .tc r) = m (c, Proc.devRef .tc r) :=
  (W40_of m c r fun hm => h (List.mem_append_left _ hm)).trans (W39_launch m c r fun hm => h (List.mem_append_right _ hm))
/-- The references items 1 … 41 write. -/
abbrev wr41 : List (Ref sig .tc) := hostOps14_W ++ wr40
theorem W41_launch (c : Dev nD) (r : Ref sig .tc) (h : r ∉ wr41) : W41 m c (Proc.devRef .tc r) = m (c, Proc.devRef .tc r) :=
  (W41_of m c r fun hm => h (List.mem_append_left _ hm)).trans (W40_launch m c r fun hm => h (List.mem_append_right _ hm))
/-- The references items 1 … 42 write. -/
abbrev wr42 : List (Ref sig .tc) := ([main_v281] : List (Ref sig .tc)) ++ wr41
theorem W42_launch (c : Dev nD) (r : Ref sig .tc) (h : r ∉ wr42) : W42 m c (Proc.devRef .tc r) = m (c, Proc.devRef .tc r) :=
  (W42_of m c r fun hm => h (List.mem_append_left _ hm)).trans (W41_launch m c r fun hm => h (List.mem_append_right _ hm))

/-! ## The regions' output arrays as functions of their entry arrays -/

/-- Region 0's output `main_v1`: its whole-array function of the arrays the region finds. -/
theorem W2_v1 (c : Dev nD) : W2 m c (Proc.devRef .tc main_v1) = G0_3 (W1 m c (Proc.devRef .tc main_arg0)) (W1 m c (Proc.devRef .tc main_arg7)) (W1 m c (Proc.devRef .tc main_v0)) :=
  (hF0 m c 3).symm.trans (arr0_3 (fun c b => W1 m c b) c)
/-- Region 1's output `main_v3`: its whole-array function of the arrays the region finds. -/
theorem W4_v3 (c : Dev nD) : W4 m c (Proc.devRef .tc main_v3) = G1_3 (W3 m c (Proc.devRef .tc main_arg1)) (W3 m c (Proc.devRef .tc main_arg9)) (W3 m c (Proc.devRef .tc main_v2)) :=
  (hF1 m c 3).symm.trans (arr1_3 (fun c b => W3 m c b) c)
/-- Region 2's output `main_v23`: its whole-array function of the arrays the region finds. -/
theorem W6_v23 (c : Dev nD) : W6 m c (Proc.devRef .tc main_v23) = G2_3 (W5 m c (Proc.devRef .tc main_v1)) (W5 m c (Proc.devRef .tc main_v12)) (W5 m c (Proc.devRef .tc main_v22)) :=
  (hF2 m c 3).symm.trans (arr2_3 (fun c b => W5 m c b) c)
/-- Region 3's output `main_v54_0`: its whole-array function of the arrays the region finds. -/
theorem W8_v54_0 (c : Dev nD) : W8 m c (Proc.devRef .tc main_v54_0) = G3_6 (W7 m c (Proc.devRef .tc main_v3)) (W7 m c (Proc.devRef .tc main_v50)) (W7 m c (Proc.devRef .tc main_v53)) (W7 m c (Proc.devRef .tc main_v34)) (W7 m c (Proc.devRef .tc main_v41)) :=
  (hF3 m c 6).symm.trans (arr3_6 (fun c b => W7 m c b) c)
/-- Region 3's output `main_v54_1`: its whole-array function of the arrays the region finds. -/
theorem W8_v54_1 (c : Dev nD) : W8 m c (Proc.devRef .tc main_v54_1) = G3_7 (W7 m c (Proc.devRef .tc main_v3)) (W7 m c (Proc.devRef .tc main_v50)) (W7 m c (Proc.devRef .tc main_v53)) (W7 m c (Proc.devRef .tc main_v34)) (W7 m c (Proc.devRef .tc main_v41)) :=
  (hF3 m c 7).symm.trans (arr3_7 (fun c b => W7 m c b) c)
/-- Region 3's output `main_v54_2`: its whole-array function of the arrays the region finds. -/
theorem W8_v54_2 (c : Dev nD) : W8 m c (Proc.devRef .tc main_v54_2) = G3_8 (W7 m c (Proc.devRef .tc main_v3)) (W7 m c (Proc.devRef .tc main_v50)) (W7 m c (Proc.devRef .tc main_v53)) (W7 m c (Proc.devRef .tc main_v34)) (W7 m c (Proc.devRef .tc main_v41)) (W7 m c (Proc.devRef .tc main_v48)) :=
  (hF3 m c 8).symm.trans (arr3_8 (fun c b => W7 m c b) c)
/-- Region 4's output `main_v77`: its whole-array function of the arrays the region finds. -/
theorem W12_v77 (c : Dev nD) : W12 m c (Proc.devRef .tc main_v77) = G4_6 (W11 m c (Proc.devRef .tc main_v64)) (W11 m c (Proc.devRef .tc main_v73)) (W11 m c (Proc.devRef .tc main_v74)) (W11 m c (Proc.devRef .tc main_v75)) (W11 m c (Proc.devRef .tc main_v76)) (W11 m c (Proc.devRef .tc main_v1)) :=
  (hF4 m c 6).symm.trans (arr4_6 (fun c b => W11 m c b) c)
/-- Region 5's output `main_v90`: its whole-array function of the arrays the region finds. -/
theorem W16_v90 (c : Dev nD) : W16 m c (Proc.devRef .tc main_v90) = G5_6 (W15 m c (Proc.devRef .tc main_v54_0)) (W15 m c (Proc.devRef .tc main_v86)) (W15 m c (Proc.devRef .tc main_v87)) (W15 m c (Proc.devRef .tc main_v88)) (W15 m c (Proc.devRef .tc main_v89)) (W15 m c (Proc.devRef .tc main_v3)) :=
  (hF5 m c 6).symm.trans (arr5_6 (fun c b => W15 m c b) c)
/-- Region 6's output `main_v110`: its whole-array function of the arrays the region finds. -/
theorem W18_v110 (c : Dev nD) : W18 m c (Proc.devRef .tc main_v110) = G6_3 (W17 m c (Proc.devRef .tc main_v77)) (W17 m c (Proc.devRef .tc main_v99)) (W17 m c (Proc.devRef .tc main_v109)) :=
  (hF6 m c 3).symm.trans (arr6_3 (fun c b => W17 m c b) c)
/-- Region 7's output `main_v141_0`: its whole-array function of the arrays the region finds. -/
theorem W20_v141_0 (c : Dev nD) : W20 m c (Proc.devRef .tc main_v141_0) = G7_6 (W19 m c (Proc.devRef .tc main_v90)) (W19 m c (Proc.devRef .tc main_v137)) (W19 m c (Proc.devRef .tc main_v140)) (W19 m c (Proc.devRef .tc main_v121)) (W19 m c (Proc.devRef .tc main_v128)) :=
  (hF7 m c 6).symm.trans (arr7_6 (fun c b => W19 m c b) c)
/-- Region 7's output `main_v141_1`: its whole-array function of the arrays the region finds. -/
theorem W20_v141_1 (c : Dev nD) : W20 m c (Proc.devRef .tc main_v141_1) = G7_7 (W19 m c (Proc.devRef .tc main_v90)) (W19 m c (Proc.devRef .tc main_v137)) (W19 m c (Proc.devRef .tc main_v140)) (W19 m c (Proc.devRef .tc main_v121)) (W19 m c (Proc.devRef .tc main_v128)) :=
  (hF7 m c 7).symm.trans (arr7_7 (fun c b => W19 m c b) c)
/-- Region 7's output `main_v141_2`: its whole-array function of the arrays the region finds. -/
theorem W20_v141_2 (c : Dev nD) : W20 m c (Proc.devRef .tc main_v141_2) = G7_8 (W19 m c (Proc.devRef .tc main_v90)) (W19 m c (Proc.devRef .tc main_v137)) (W19 m c (Proc.devRef .tc main_v140)) (W19 m c (Proc.devRef .tc main_v121)) (W19 m c (Proc.devRef .tc main_v128)) (W19 m c (Proc.devRef .tc main_v135)) :=
  (hF7 m c 8).symm.trans (arr7_8 (fun c b => W19 m c b) c)
/-- Region 8's output `main_v164`: its whole-array function of the arrays the region finds. -/
theorem W24_v164 (c : Dev nD) : W24 m c (Proc.devRef .tc main_v164) = G8_6 (W23 m c (Proc.devRef .tc main_v151)) (W23 m c (Proc.devRef .tc main_v160)) (W23 m c (Proc.devRef .tc main_v161)) (W23 m c (Proc.devRef .tc main_v162)) (W23 m c (Proc.devRef .tc main_v163)) (W23 m c (Proc.devRef .tc main_v77)) :=
  (hF8 m c 6).symm.trans (arr8_6 (fun c b => W23 m c b) c)
/-- Region 9's output `main_v177`: its whole-array function of the arrays the region finds. -/
theorem W28_v177 (c : Dev nD) : W28 m c (Proc.devRef .tc main_v177) = G9_6 (W27 m c (Proc.devRef .tc main_v141_0)) (W27 m c (Proc.devRef .tc main_v173)) (W27 m c (Proc.devRef .tc main_v174)) (W27 m c (Proc.devRef .tc main_v175)) (W27 m c (Proc.devRef .tc main_v176)) (W27 m c (Proc.devRef .tc main_v90)) :=
  (hF9 m c 6).symm.trans (arr9_6 (fun c b => W27 m c b) c)
/-- Region 10's output `main_v197`: its whole-array function of the arrays the region finds. -/
theorem W30_v197 (c : Dev nD) : W30 m c (Proc.devRef .tc main_v197) = G10_3 (W29 m c (Proc.devRef .tc main_v164)) (W29 m c (Proc.devRef .tc main_v186)) (W29 m c (Proc.devRef .tc main_v196)) :=
  (hF10 m c 3).symm.trans (arr10_3 (fun c b => W29 m c b) c)
/-- Region 11's output `main_v228_0`: its whole-array function of the arrays the region finds. -/
theorem W32_v228_0 (c : Dev nD) : W32 m c (Proc.devRef .tc main_v228_0) = G11_6 (W31 m c (Proc.devRef .tc main_v177)) (W31 m c (Proc.devRef .tc main_v224)) (W31 m c (Proc.devRef .tc main_v227)) (W31 m c (Proc.devRef .tc main_v208)) (W31 m c (Proc.devRef .tc main_v215)) :=
  (hF11 m c 6).symm.trans (arr11_6 (fun c b => W31 m c b) c)
/-- Region 11's output `main_v228_1`: its whole-array function of the arrays the region finds. -/
theorem W32_v228_1 (c : Dev nD) : W32 m c (Proc.devRef .tc main_v228_1) = G11_7 (W31 m c (Proc.devRef .tc main_v177)) (W31 m c (Proc.devRef .tc main_v224)) (W31 m c (Proc.devRef .tc main_v227)) (W31 m c (Proc.devRef .tc main_v208)) (W31 m c (Proc.devRef .tc main_v215)) :=
  (hF11 m c 7).symm.trans (arr11_7 (fun c b => W31 m c b) c)
/-- Region 11's output `main_v228_2`: its whole-array function of the arrays the region finds. -/
theorem W32_v228_2 (c : Dev nD) : W32 m c (Proc.devRef .tc main_v228_2) = G11_8 (W31 m c (Proc.devRef .tc main_v177)) (W31 m c (Proc.devRef .tc main_v224)) (W31 m c (Proc.devRef .tc main_v227)) (W31 m c (Proc.devRef .tc main_v208)) (W31 m c (Proc.devRef .tc main_v215)) (W31 m c (Proc.devRef .tc main_v222)) :=
  (hF11 m c 8).symm.trans (arr11_8 (fun c b => W31 m c b) c)
/-- Region 12's output `main_v251`: its whole-array function of the arrays the region finds. -/
theorem W36_v251 (c : Dev nD) : W36 m c (Proc.devRef .tc main_v251) = G12_6 (W35 m c (Proc.devRef .tc main_v238)) (W35 m c (Proc.devRef .tc main_v247)) (W35 m c (Proc.devRef .tc main_v248)) (W35 m c (Proc.devRef .tc main_v249)) (W35 m c (Proc.devRef .tc main_v250)) (W35 m c (Proc.devRef .tc main_v164)) :=
  (hF12 m c 6).symm.trans (arr12_6 (fun c b => W35 m c b) c)
/-- Region 14's output `main_v281`: its whole-array function of the arrays the region finds. -/
theorem W42_v281 (c : Dev nD) : W42 m c (Proc.devRef .tc main_v281) = G14_7 (W41 m c (Proc.devRef .tc main_v277)) (W41 m c (Proc.devRef .tc main_arg25)) (W41 m c (Proc.devRef .tc main_v278)) (W41 m c (Proc.devRef .tc main_arg27)) (W41 m c (Proc.devRef .tc main_v279)) (W41 m c (Proc.devRef .tc main_arg29)) (W41 m c (Proc.devRef .tc main_v280)) :=
  (hF14 m c 7).symm.trans (arr14_7 (fun c b => W41 m c b) c)

/-! ## The buffers the bridge reads, unchanged between the stages named -/

theorem W2_eq_launch_arg1 (c : Dev nD) : W2 m c (Proc.devRef .tc main_arg1) = m (c, Proc.devRef .tc main_arg1) :=
  W2_launch m c main_arg1 (by decide +kernel)
theorem W2_eq_launch_arg9 (c : Dev nD) : W2 m c (Proc.devRef .tc main_arg9) = m (c, Proc.devRef .tc main_arg9) :=
  W2_launch m c main_arg9 (by decide +kernel)
theorem W2_eq_launch_arg10 (c : Dev nD) : W2 m c (Proc.devRef .tc main_arg10) = m (c, Proc.devRef .tc main_arg10) :=
  W2_launch m c main_arg10 (by decide +kernel)
theorem W4_eq_W2_v1 (c : Dev nD) : W4 m c (Proc.devRef .tc main_v1) = W2 m c (Proc.devRef .tc main_v1) :=
  (W4_of m c main_v1 (by decide)).trans ((W3_of m c main_v1 (by decide)))
theorem W4_eq_launch_arg11 (c : Dev nD) : W4 m c (Proc.devRef .tc main_arg11) = m (c, Proc.devRef .tc main_arg11) :=
  W4_launch m c main_arg11 (by decide +kernel)
theorem W4_eq_launch_arg12 (c : Dev nD) : W4 m c (Proc.devRef .tc main_arg12) = m (c, Proc.devRef .tc main_arg12) :=
  W4_launch m c main_arg12 (by decide +kernel)
theorem W4_eq_launch_arg13 (c : Dev nD) : W4 m c (Proc.devRef .tc main_arg13) = m (c, Proc.devRef .tc main_arg13) :=
  W4_launch m c main_arg13 (by decide +kernel)
theorem W4_eq_launch_arg14 (c : Dev nD) : W4 m c (Proc.devRef .tc main_arg14) = m (c, Proc.devRef .tc main_arg14) :=
  W4_launch m c main_arg14 (by decide +kernel)
theorem W4_eq_launch_arg17 (c : Dev nD) : W4 m c (Proc.devRef .tc main_arg17) = m (c, Proc.devRef .tc main_arg17) :=
  W4_launch m c main_arg17 (by decide +kernel)
theorem W4_eq_launch_arg18 (c : Dev nD) : W4 m c (Proc.devRef .tc main_arg18) = m (c, Proc.devRef .tc main_arg18) :=
  W4_launch m c main_arg18 (by decide +kernel)
theorem W4_eq_launch_arg19 (c : Dev nD) : W4 m c (Proc.devRef .tc main_arg19) = m (c, Proc.devRef .tc main_arg19) :=
  W4_launch m c main_arg19 (by decide +kernel)
theorem W4_eq_launch_arg20 (c : Dev nD) : W4 m c (Proc.devRef .tc main_arg20) = m (c, Proc.devRef .tc main_arg20) :=
  W4_launch m c main_arg20 (by decide +kernel)
theorem W6_eq_W4_v3 (c : Dev nD) : W6 m c (Proc.devRef .tc main_v3) = W4 m c (Proc.devRef .tc main_v3) :=
  (W6_of m c main_v3 (by decide)).trans ((W5_of m c main_v3 (by decide)))
theorem W6_eq_launch_arg2 (c : Dev nD) : W6 m c (Proc.devRef .tc main_arg2) = m (c, Proc.devRef .tc main_arg2) :=
  W6_launch m c main_arg2 (by decide +kernel)
theorem W6_eq_launch_arg3 (c : Dev nD) : W6 m c (Proc.devRef .tc main_arg3) = m (c, Proc.devRef .tc main_arg3) :=
  W6_launch m c main_arg3 (by decide +kernel)
theorem W6_eq_launch_arg15 (c : Dev nD) : W6 m c (Proc.devRef .tc main_arg15) = m (c, Proc.devRef .tc main_arg15) :=
  W6_launch m c main_arg15 (by decide +kernel)
theorem W6_eq_launch_arg16 (c : Dev nD) : W6 m c (Proc.devRef .tc main_arg16) = m (c, Proc.devRef .tc main_arg16) :=
  W6_launch m c main_arg16 (by decide +kernel)
theorem W8_eq_W7_v24 (c : Dev nD) : W8 m c (Proc.devRef .tc main_v24) = W7 m c (Proc.devRef .tc main_v24) :=
  (W8_of m c main_v24 (by decide))
theorem W8_eq_W2_v1 (c : Dev nD) : W8 m c (Proc.devRef .tc main_v1) = W2 m c (Proc.devRef .tc main_v1) :=
  (W8_of m c main_v1 (by decide)).trans ((W7_of m c main_v1 (by decide)).trans ((W6_of m c main_v1 (by decide)).trans ((W5_of m c main_v1 (by decide)).trans ((W4_of m c main_v1 (by decide)).trans ((W3_of m c main_v1 (by decide)))))))
theorem W8_eq_launch_arg3 (c : Dev nD) : W8 m c (Proc.devRef .tc main_arg3) = m (c, Proc.devRef .tc main_arg3) :=
  W8_launch m c main_arg3 (by decide +kernel)
theorem W8_eq_launch_arg21 (c : Dev nD) : W8 m c (Proc.devRef .tc main_arg21) = m (c, Proc.devRef .tc main_arg21) :=
  W8_launch m c main_arg21 (by decide +kernel)
theorem W8_eq_launch_arg22 (c : Dev nD) : W8 m c (Proc.devRef .tc main_arg22) = m (c, Proc.devRef .tc main_arg22) :=
  W8_launch m c main_arg22 (by decide +kernel)
theorem W12_eq_W8_v54_0 (c : Dev nD) : W12 m c (Proc.devRef .tc main_v54_0) = W8 m c (Proc.devRef .tc main_v54_0) :=
  (W12_of m c main_v54_0 (by decide)).trans ((W11_of m c main_v54_0 (by decide)).trans ((W10_of m c main_v54_0 (by decide)).trans ((W9_of m c main_v54_0 (by decide)))))
theorem W12_eq_W4_v3 (c : Dev nD) : W12 m c (Proc.devRef .tc main_v3) = W4 m c (Proc.devRef .tc main_v3) :=
  (W12_of m c main_v3 (by decide)).trans ((W11_of m c main_v3 (by decide)).trans ((W10_of m c main_v3 (by decide)).trans ((W9_of m c main_v3 (by decide)).trans ((W8_of m c main_v3 (by decide)).trans ((W7_of m c main_v3 (by decide)).trans ((W6_of m c main_v3 (by decide)).trans ((W5_of m c main_v3 (by decide)))))))))
theorem W12_eq_launch_arg23 (c : Dev nD) : W12 m c (Proc.devRef .tc main_arg23) = m (c, Proc.devRef .tc main_arg23) :=
  W12_launch m c main_arg23 (by decide +kernel)
theorem W12_eq_launch_arg24 (c : Dev nD) : W12 m c (Proc.devRef .tc main_arg24) = m (c, Proc.devRef .tc main_arg24) :=
  W12_launch m c main_arg24 (by decide +kernel)
theorem W16_eq_W12_v77 (c : Dev nD) : W16 m c (Proc.devRef .tc main_v77) = W12 m c (Proc.devRef .tc main_v77) :=
  (W16_of m c main_v77 (by decide)).trans ((W15_of m c main_v77 (by decide)).trans ((W14_of m c main_v77 (by decide)).trans ((W13_of m c main_v77 (by decide)))))
theorem W16_eq_launch_arg11 (c : Dev nD) : W16 m c (Proc.devRef .tc main_arg11) = m (c, Proc.devRef .tc main_arg11) :=
  W16_launch m c main_arg11 (by decide +kernel)
theorem W16_eq_launch_arg12 (c : Dev nD) : W16 m c (Proc.devRef .tc main_arg12) = m (c, Proc.devRef .tc main_arg12) :=
  W16_launch m c main_arg12 (by decide +kernel)
theorem W16_eq_launch_arg13 (c : Dev nD) : W16 m c (Proc.devRef .tc main_arg13) = m (c, Proc.devRef .tc main_arg13) :=
  W16_launch m c main_arg13 (by decide +kernel)
theorem W16_eq_launch_arg14 (c : Dev nD) : W16 m c (Proc.devRef .tc main_arg14) = m (c, Proc.devRef .tc main_arg14) :=
  W16_launch m c main_arg14 (by decide +kernel)
theorem W16_eq_launch_arg17 (c : Dev nD) : W16 m c (Proc.devRef .tc main_arg17) = m (c, Proc.devRef .tc main_arg17) :=
  W16_launch m c main_arg17 (by decide +kernel)
theorem W16_eq_launch_arg18 (c : Dev nD) : W16 m c (Proc.devRef .tc main_arg18) = m (c, Proc.devRef .tc main_arg18) :=
  W16_launch m c main_arg18 (by decide +kernel)
theorem W16_eq_launch_arg19 (c : Dev nD) : W16 m c (Proc.devRef .tc main_arg19) = m (c, Proc.devRef .tc main_arg19) :=
  W16_launch m c main_arg19 (by decide +kernel)
theorem W16_eq_launch_arg20 (c : Dev nD) : W16 m c (Proc.devRef .tc main_arg20) = m (c, Proc.devRef .tc main_arg20) :=
  W16_launch m c main_arg20 (by decide +kernel)
theorem W18_eq_W16_v90 (c : Dev nD) : W18 m c (Proc.devRef .tc main_v90) = W16 m c (Proc.devRef .tc main_v90) :=
  (W18_of m c main_v90 (by decide)).trans ((W17_of m c main_v90 (by decide)))
theorem W18_eq_launch_arg2 (c : Dev nD) : W18 m c (Proc.devRef .tc main_arg2) = m (c, Proc.devRef .tc main_arg2) :=
  W18_launch m c main_arg2 (by decide +kernel)
theorem W18_eq_launch_arg3 (c : Dev nD) : W18 m c (Proc.devRef .tc main_arg3) = m (c, Proc.devRef .tc main_arg3) :=
  W18_launch m c main_arg3 (by decide +kernel)
theorem W18_eq_launch_arg15 (c : Dev nD) : W18 m c (Proc.devRef .tc main_arg15) = m (c, Proc.devRef .tc main_arg15) :=
  W18_launch m c main_arg15 (by decide +kernel)
theorem W18_eq_launch_arg16 (c : Dev nD) : W18 m c (Proc.devRef .tc main_arg16) = m (c, Proc.devRef .tc main_arg16) :=
  W18_launch m c main_arg16 (by decide +kernel)
theorem W20_eq_W19_v111 (c : Dev nD) : W20 m c (Proc.devRef .tc main_v111) = W19 m c (Proc.devRef .tc main_v111) :=
  (W20_of m c main_v111 (by decide))
theorem W20_eq_W12_v77 (c : Dev nD) : W20 m c (Proc.devRef .tc main_v77) = W12 m c (Proc.devRef .tc main_v77) :=
  (W20_of m c main_v77 (by decide)).trans ((W19_of m c main_v77 (by decide)).trans ((W18_of m c main_v77 (by decide)).trans ((W17_of m c main_v77 (by decide)).trans ((W16_of m c main_v77 (by decide)).trans ((W15_of m c main_v77 (by decide)).trans ((W14_of m c main_v77 (by decide)).trans ((W13_of m c main_v77 (by decide)))))))))
theorem W20_eq_launch_arg3 (c : Dev nD) : W20 m c (Proc.devRef .tc main_arg3) = m (c, Proc.devRef .tc main_arg3) :=
  W20_launch m c main_arg3 (by decide +kernel)
theorem W20_eq_launch_arg21 (c : Dev nD) : W20 m c (Proc.devRef .tc main_arg21) = m (c, Proc.devRef .tc main_arg21) :=
  W20_launch m c main_arg21 (by decide +kernel)
theorem W20_eq_launch_arg22 (c : Dev nD) : W20 m c (Proc.devRef .tc main_arg22) = m (c, Proc.devRef .tc main_arg22) :=
  W20_launch m c main_arg22 (by decide +kernel)
theorem W24_eq_W20_v141_0 (c : Dev nD) : W24 m c (Proc.devRef .tc main_v141_0) = W20 m c (Proc.devRef .tc main_v141_0) :=
  (W24_of m c main_v141_0 (by decide)).trans ((W23_of m c main_v141_0 (by decide)).trans ((W22_of m c main_v141_0 (by decide)).trans ((W21_of m c main_v141_0 (by decide)))))
theorem W24_eq_W16_v90 (c : Dev nD) : W24 m c (Proc.devRef .tc main_v90) = W16 m c (Proc.devRef .tc main_v90) :=
  (W24_of m c main_v90 (by decide)).trans ((W23_of m c main_v90 (by decide)).trans ((W22_of m c main_v90 (by decide)).trans ((W21_of m c main_v90 (by decide)).trans ((W20_of m c main_v90 (by decide)).trans ((W19_of m c main_v90 (by decide)).trans ((W18_of m c main_v90 (by decide)).trans ((W17_of m c main_v90 (by decide)))))))))
theorem W24_eq_launch_arg23 (c : Dev nD) : W24 m c (Proc.devRef .tc main_arg23) = m (c, Proc.devRef .tc main_arg23) :=
  W24_launch m c main_arg23 (by decide +kernel)
theorem W24_eq_launch_arg24 (c : Dev nD) : W24 m c (Proc.devRef .tc main_arg24) = m (c, Proc.devRef .tc main_arg24) :=
  W24_launch m c main_arg24 (by decide +kernel)
theorem W28_eq_W24_v164 (c : Dev nD) : W28 m c (Proc.devRef .tc main_v164) = W24 m c (Proc.devRef .tc main_v164) :=
  (W28_of m c main_v164 (by decide)).trans ((W27_of m c main_v164 (by decide)).trans ((W26_of m c main_v164 (by decide)).trans ((W25_of m c main_v164 (by decide)))))
theorem W28_eq_launch_arg11 (c : Dev nD) : W28 m c (Proc.devRef .tc main_arg11) = m (c, Proc.devRef .tc main_arg11) :=
  W28_launch m c main_arg11 (by decide +kernel)
theorem W28_eq_launch_arg12 (c : Dev nD) : W28 m c (Proc.devRef .tc main_arg12) = m (c, Proc.devRef .tc main_arg12) :=
  W28_launch m c main_arg12 (by decide +kernel)
theorem W28_eq_launch_arg13 (c : Dev nD) : W28 m c (Proc.devRef .tc main_arg13) = m (c, Proc.devRef .tc main_arg13) :=
  W28_launch m c main_arg13 (by decide +kernel)
theorem W28_eq_launch_arg14 (c : Dev nD) : W28 m c (Proc.devRef .tc main_arg14) = m (c, Proc.devRef .tc main_arg14) :=
  W28_launch m c main_arg14 (by decide +kernel)
theorem W28_eq_launch_arg17 (c : Dev nD) : W28 m c (Proc.devRef .tc main_arg17) = m (c, Proc.devRef .tc main_arg17) :=
  W28_launch m c main_arg17 (by decide +kernel)
theorem W28_eq_launch_arg18 (c : Dev nD) : W28 m c (Proc.devRef .tc main_arg18) = m (c, Proc.devRef .tc main_arg18) :=
  W28_launch m c main_arg18 (by decide +kernel)
theorem W28_eq_launch_arg19 (c : Dev nD) : W28 m c (Proc.devRef .tc main_arg19) = m (c, Proc.devRef .tc main_arg19) :=
  W28_launch m c main_arg19 (by decide +kernel)
theorem W28_eq_launch_arg20 (c : Dev nD) : W28 m c (Proc.devRef .tc main_arg20) = m (c, Proc.devRef .tc main_arg20) :=
  W28_launch m c main_arg20 (by decide +kernel)
theorem W30_eq_W28_v177 (c : Dev nD) : W30 m c (Proc.devRef .tc main_v177) = W28 m c (Proc.devRef .tc main_v177) :=
  (W30_of m c main_v177 (by decide)).trans ((W29_of m c main_v177 (by decide)))
theorem W30_eq_launch_arg2 (c : Dev nD) : W30 m c (Proc.devRef .tc main_arg2) = m (c, Proc.devRef .tc main_arg2) :=
  W30_launch m c main_arg2 (by decide +kernel)
theorem W30_eq_launch_arg3 (c : Dev nD) : W30 m c (Proc.devRef .tc main_arg3) = m (c, Proc.devRef .tc main_arg3) :=
  W30_launch m c main_arg3 (by decide +kernel)
theorem W30_eq_launch_arg15 (c : Dev nD) : W30 m c (Proc.devRef .tc main_arg15) = m (c, Proc.devRef .tc main_arg15) :=
  W30_launch m c main_arg15 (by decide +kernel)
theorem W30_eq_launch_arg16 (c : Dev nD) : W30 m c (Proc.devRef .tc main_arg16) = m (c, Proc.devRef .tc main_arg16) :=
  W30_launch m c main_arg16 (by decide +kernel)
theorem W32_eq_W31_v198 (c : Dev nD) : W32 m c (Proc.devRef .tc main_v198) = W31 m c (Proc.devRef .tc main_v198) :=
  (W32_of m c main_v198 (by decide))
theorem W32_eq_W24_v164 (c : Dev nD) : W32 m c (Proc.devRef .tc main_v164) = W24 m c (Proc.devRef .tc main_v164) :=
  (W32_of m c main_v164 (by decide)).trans ((W31_of m c main_v164 (by decide)).trans ((W30_of m c main_v164 (by decide)).trans ((W29_of m c main_v164 (by decide)).trans ((W28_of m c main_v164 (by decide)).trans ((W27_of m c main_v164 (by decide)).trans ((W26_of m c main_v164 (by decide)).trans ((W25_of m c main_v164 (by decide)))))))))
theorem W32_eq_launch_arg3 (c : Dev nD) : W32 m c (Proc.devRef .tc main_arg3) = m (c, Proc.devRef .tc main_arg3) :=
  W32_launch m c main_arg3 (by decide +kernel)
theorem W32_eq_launch_arg21 (c : Dev nD) : W32 m c (Proc.devRef .tc main_arg21) = m (c, Proc.devRef .tc main_arg21) :=
  W32_launch m c main_arg21 (by decide +kernel)
theorem W32_eq_launch_arg22 (c : Dev nD) : W32 m c (Proc.devRef .tc main_arg22) = m (c, Proc.devRef .tc main_arg22) :=
  W32_launch m c main_arg22 (by decide +kernel)
theorem W40_eq_W36_v251 (c : Dev nD) : W40 m c (Proc.devRef .tc main_v251) = W36 m c (Proc.devRef .tc main_v251) :=
  (W40_of m c main_v251 (by decide)).trans ((W39_of m c main_v251 (by decide)).trans ((W38_of m c main_v251 (by decide)).trans ((W37_of m c main_v251 (by decide)))))
theorem W40_eq_launch_arg4 (c : Dev nD) : W40 m c (Proc.devRef .tc main_arg4) = m (c, Proc.devRef .tc main_arg4) :=
  W40_launch m c main_arg4 (by decide +kernel)
theorem W40_eq_launch_arg5 (c : Dev nD) : W40 m c (Proc.devRef .tc main_arg5) = m (c, Proc.devRef .tc main_arg5) :=
  W40_launch m c main_arg5 (by decide +kernel)
theorem W40_eq_launch_arg6 (c : Dev nD) : W40 m c (Proc.devRef .tc main_arg6) = m (c, Proc.devRef .tc main_arg6) :=
  W40_launch m c main_arg6 (by decide +kernel)
theorem W40_eq_launch_arg25 (c : Dev nD) : W40 m c (Proc.devRef .tc main_arg25) = m (c, Proc.devRef .tc main_arg25) :=
  W40_launch m c main_arg25 (by decide +kernel)
theorem W40_eq_launch_arg26 (c : Dev nD) : W40 m c (Proc.devRef .tc main_arg26) = m (c, Proc.devRef .tc main_arg26) :=
  W40_launch m c main_arg26 (by decide +kernel)
theorem W40_eq_launch_arg27 (c : Dev nD) : W40 m c (Proc.devRef .tc main_arg27) = m (c, Proc.devRef .tc main_arg27) :=
  W40_launch m c main_arg27 (by decide +kernel)
theorem W40_eq_launch_arg28 (c : Dev nD) : W40 m c (Proc.devRef .tc main_arg28) = m (c, Proc.devRef .tc main_arg28) :=
  W40_launch m c main_arg28 (by decide +kernel)
theorem W40_eq_launch_arg29 (c : Dev nD) : W40 m c (Proc.devRef .tc main_arg29) = m (c, Proc.devRef .tc main_arg29) :=
  W40_launch m c main_arg29 (by decide +kernel)
theorem W40_eq_launch_arg30 (c : Dev nD) : W40 m c (Proc.devRef .tc main_arg30) = m (c, Proc.devRef .tc main_arg30) :=
  W40_launch m c main_arg30 (by decide +kernel)

end Cert.KernelIdeal.Hand

end
-- ==== Proof.BR.RefArgs.lean ====
/-
  The reference's arguments through its staged run: no operation of any chunk writes an argument of @main (each writes
  its one result buffer, which is none of the thirty-one argument buffers), so at every stage an argument's buffer holds
  what the launch memory held.
-/
import proofs.«142356_j74423193305351_1_alg».proof.Proof.BR.RefStages
import proofs.«142356_j74423193305351_1_alg».proof.Proof.RI.Facts0
import proofs.«142356_j74423193305351_1_alg».proof.Proof.RI.Facts1
import proofs.«142356_j74423193305351_1_alg».proof.Proof.RI.Facts2
import proofs.«142356_j74423193305351_1_alg».proof.Proof.RI.Facts3

noncomputable section

namespace Cert.Bridge

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

/-- At launch an argument's buffer holds the launch memory. -/
theorem Q0_arg (m' : (ℓ : Loc nD τ sig) → Buf (Elt F) ℓ) (c : Dev nD) {r : Ref sig .tc} (hr : IsArg r) :
    Q0 m' c (Proc.devRef .tc r) = m' (c, Proc.devRef .tc r) := rfl
/-- After chunks 0 … 0 an argument's buffer still holds the launch memory. -/
theorem Q1_arg (m' : (ℓ : Loc nD τ sig) → Buf (Elt F) ℓ) (c : Dev nD) {r : Ref sig .tc} (hr : IsArg r) :
    Q1 m' c (Proc.devRef .tc r) = m' (c, Proc.devRef .tc r) :=
  (after_of_forall_not_mem rops0 (Q0 m' c) (rops0_keep hr)).trans (Q0_arg m' c hr)
/-- After chunks 0 … 1 an argument's buffer still holds the launch memory. -/
theorem Q2_arg (m' : (ℓ : Loc nD τ sig) → Buf (Elt F) ℓ) (c : Dev nD) {r : Ref sig .tc} (hr : IsArg r) :
    Q2 m' c (Proc.devRef .tc r) = m' (c, Proc.devRef .tc r) :=
  (after_of_forall_not_mem rops1 (Q1 m' c) (rops1_keep hr)).trans (Q1_arg m' c hr)
/-- After chunks 0 … 2 an argument's buffer still holds the launch memory. -/
theorem Q3_arg (m' : (ℓ : Loc nD τ sig) → Buf (Elt F) ℓ) (c : Dev nD) {r : Ref sig .tc} (hr : IsArg r) :
    Q3 m' c (Proc.devRef .tc r) = m' (c, Proc.devRef .tc r) :=
  (after_of_forall_not_mem rops2 (Q2 m' c) (rops2_keep hr)).trans (Q2_arg m' c hr)
/-- After chunks 0 … 3 an argument's buffer still holds the launch memory. -/
theorem Q4_arg (m' : (ℓ : Loc nD τ sig) → Buf (Elt F) ℓ) (c : Dev nD) {r : Ref sig .tc} (hr : IsArg r) :
    Q4 m' c (Proc.devRef .tc r) = m' (c, Proc.devRef .tc r) :=
  (after_of_forall_not_mem rops3 (Q3 m' c) (rops3_keep hr)).trans (Q3_arg m' c hr)
/-- After chunks 0 … 4 an argument's buffer still holds the launch memory. -/
theorem Q5_arg (m' : (ℓ : Loc nD τ sig) → Buf (Elt F) ℓ) (c : Dev nD) {r : Ref sig .tc} (hr : IsArg r) :
    Q5 m' c (Proc.devRef .tc r) = m' (c, Proc.devRef .tc r) :=
  (after_of_forall_not_mem rops4 (Q4 m' c) (rops4_keep hr)).trans (Q4_arg m' c hr)
/-- After chunks 0 … 5 an argument's buffer still holds the launch memory. -/
theorem Q6_arg (m' : (ℓ : Loc nD τ sig) → Buf (Elt F) ℓ) (c : Dev nD) {r : Ref sig .tc} (hr : IsArg r) :
    Q6 m' c (Proc.devRef .tc r) = m' (c, Proc.devRef .tc r) :=
  (after_of_forall_not_mem rops5 (Q5 m' c) (rops5_keep hr)).trans (Q5_arg m' c hr)
/-- After chunks 0 … 6 an argument's buffer still holds the launch memory. -/
theorem Q7_arg (m' : (ℓ : Loc nD τ sig) → Buf (Elt F) ℓ) (c : Dev nD) {r : Ref sig .tc} (hr : IsArg r) :
    Q7 m' c (Proc.devRef .tc r) = m' (c, Proc.devRef .tc r) :=
  (after_of_forall_not_mem rops6 (Q6 m' c) (rops6_keep hr)).trans (Q6_arg m' c hr)
/-- After chunks 0 … 7 an argument's buffer still holds the launch memory. -/
theorem Q8_arg (m' : (ℓ : Loc nD τ sig) → Buf (Elt F) ℓ) (c : Dev nD) {r : Ref sig .tc} (hr : IsArg r) :
    Q8 m' c (Proc.devRef .tc r) = m' (c, Proc.devRef .tc r) :=
  (after_of_forall_not_mem rops7 (Q7 m' c) (rops7_keep hr)).trans (Q7_arg m' c hr)
/-- After chunks 0 … 8 an argument's buffer still holds the launch memory. -/
theorem Q9_arg (m' : (ℓ : Loc nD τ sig) → Buf (Elt F) ℓ) (c : Dev nD) {r : Ref sig .tc} (hr : IsArg r) :
    Q9 m' c (Proc.devRef .tc r) = m' (c, Proc.devRef .tc r) :=
  (after_of_forall_not_mem rops8 (Q8 m' c) (rops8_keep hr)).trans (Q8_arg m' c hr)
/-- After chunks 0 … 9 an argument's buffer still holds the launch memory. -/
theorem Q10_arg (m' : (ℓ : Loc nD τ sig) → Buf (Elt F) ℓ) (c : Dev nD) {r : Ref sig .tc} (hr : IsArg r) :
    Q10 m' c (Proc.devRef .tc r) = m' (c, Proc.devRef .tc r) :=
  (after_of_forall_not_mem rops9 (Q9 m' c) (rops9_keep hr)).trans (Q9_arg m' c hr)
/-- After chunks 0 … 10 an argument's buffer still holds the launch memory. -/
theorem Q11_arg (m' : (ℓ : Loc nD τ sig) → Buf (Elt F) ℓ) (c : Dev nD) {r : Ref sig .tc} (hr : IsArg r) :
    Q11 m' c (Proc.devRef .tc r) = m' (c, Proc.devRef .tc r) :=
  (after_of_forall_not_mem rops10 (Q10 m' c) (rops10_keep hr)).trans (Q10_arg m' c hr)
/-- After chunks 0 … 11 an argument's buffer still holds the launch memory. -/
theorem Q12_arg (m' : (ℓ : Loc nD τ sig) → Buf (Elt F) ℓ) (c : Dev nD) {r : Ref sig .tc} (hr : IsArg r) :
    Q12 m' c (Proc.devRef .tc r) = m' (c, Proc.devRef .tc r) :=
  (after_of_forall_not_mem rops11 (Q11 m' c) (rops11_keep hr)).trans (Q11_arg m' c hr)
/-- After chunks 0 … 12 an argument's buffer still holds the launch memory. -/
theorem Q13_arg (m' : (ℓ : Loc nD τ sig) → Buf (Elt F) ℓ) (c : Dev nD) {r : Ref sig .tc} (hr : IsArg r) :
    Q13 m' c (Proc.devRef .tc r) = m' (c, Proc.devRef .tc r) :=
  (after_of_forall_not_mem rops12 (Q12 m' c) (rops12_keep hr)).trans (Q12_arg m' c hr)
/-- After chunks 0 … 13 an argument's buffer still holds the launch memory. -/
theorem Q14_arg (m' : (ℓ : Loc nD τ sig) → Buf (Elt F) ℓ) (c : Dev nD) {r : Ref sig .tc} (hr : IsArg r) :
    Q14 m' c (Proc.devRef .tc r) = m' (c, Proc.devRef .tc r) :=
  (after_of_forall_not_mem rops13 (Q13 m' c) (rops13_keep hr)).trans (Q13_arg m' c hr)
/-- After chunks 0 … 14 an argument's buffer still holds the launch memory. -/
theorem Q15_arg (m' : (ℓ : Loc nD τ sig) → Buf (Elt F) ℓ) (c : Dev nD) {r : Ref sig .tc} (hr : IsArg r) :
    Q15 m' c (Proc.devRef .tc r) = m' (c, Proc.devRef .tc r) :=
  (after_of_forall_not_mem rops14 (Q14 m' c) (rops14_keep hr)).trans (Q14_arg m' c hr)
/-- After chunks 0 … 15 an argument's buffer still holds the launch memory. -/
theorem Q16_arg (m' : (ℓ : Loc nD τ sig) → Buf (Elt F) ℓ) (c : Dev nD) {r : Ref sig .tc} (hr : IsArg r) :
    Q16 m' c (Proc.devRef .tc r) = m' (c, Proc.devRef .tc r) :=
  (after_of_forall_not_mem rops15 (Q15 m' c) (rops15_keep hr)).trans (Q15_arg m' c hr)
/-- After chunks 0 … 16 an argument's buffer still holds the launch memory. -/
theorem Q17_arg (m' : (ℓ : Loc nD τ sig) → Buf (Elt F) ℓ) (c : Dev nD) {r : Ref sig .tc} (hr : IsArg r) :
    Q17 m' c (Proc.devRef .tc r) = m' (c, Proc.devRef .tc r) :=
  (after_of_forall_not_mem rops16 (Q16 m' c) (rops16_keep hr)).trans (Q16_arg m' c hr)
/-- After chunks 0 … 17 an argument's buffer still holds the launch memory. -/
theorem Q18_arg (m' : (ℓ : Loc nD τ sig) → Buf (Elt F) ℓ) (c : Dev nD) {r : Ref sig .tc} (hr : IsArg r) :
    Q18 m' c (Proc.devRef .tc r) = m' (c, Proc.devRef .tc r) :=
  (after_of_forall_not_mem rops17 (Q17 m' c) (rops17_keep hr)).trans (Q17_arg m' c hr)

end Cert.Bridge

end
-- ==== Proof.BR.EdgeMath.lean ====
import proofs.«142356_j74423193305351_1_alg».proof.Proof.Gen.ReferenceIdeal
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

/-! # The edge update, index by index

For an edge `i` with source `s` and destination `t`, and a feature column `c`, the gated graph convolution's edge update
is `ê(i,c) = (Σ_k e(i,k)·C(k,c) + b(c)) + D(s,c) + E(t,c)`, the gate is `σ(ê)` and the message is `σ(ê)·B(s,c)`.
This file states these three arrays as functions of the edge features, the weight matrix, the bias row and the three
gathered node arrays, and reads the reference's host operations at an index: its matrix product is the same sum over
the 64 input features, its bias broadcast reads the bias at the column, and its spelt-out sigmoid
`1 / (1 + exp (-x))` is the logistic function by definition. The node rows an edge reads (`rowGather`) are named here once, for both programs. -/

noncomputable section

namespace Cert.Bridge

open Idealize.ShloMosaic Idealize.ShloMosaic.ValueIdx
open scoped BigOperators

/-- The shape of the edge arrays, of the square weight matrix, of the bias row and of the flat bias. -/
abbrev SEdge : Shape := ⟨2, ![524288, 64]⟩
abbrev SSq : Shape := ⟨2, ![64, 64]⟩
abbrev SRow : Shape := ⟨2, ![1, 64]⟩
abbrev SFlat : Shape := ⟨1, ![64]⟩

/-- The pre-activation `ê`: the edge's linear layer plus the two gathered node terms, in the order the sums are taken. -/
def edgeHat (e : Vec Ideal SEdge .f32) (cw : Vec Ideal SSq .f32) (cb : Vec Ideal SRow .f32) (d g : Vec Ideal SEdge .f32) :
    Vec Ideal SEdge .f32 :=
  fun i => (((∑ k : Fin 64, e (ix2 (i 0) k) * cw (ix2 k (i 1))) + cb (ix2 (0 : Fin 1) (i 1))) + d i) + g i

/-- The gate `σ(ê)`. -/
def edgeGate (e : Vec Ideal SEdge .f32) (cw : Vec Ideal SSq .f32) (cb : Vec Ideal SRow .f32) (d g : Vec Ideal SEdge .f32) :
    Vec Ideal SEdge .f32 :=
  fun i => Ideal.logistic (edgeHat e cw cb d g i)

/-- The gated message `σ(ê)·B[src]`. -/
def edgeMsg (e : Vec Ideal SEdge .f32) (cw : Vec Ideal SSq .f32) (cb : Vec Ideal SRow .f32) (d g u : Vec Ideal SEdge .f32) :
    Vec Ideal SEdge .f32 :=
  fun i => Ideal.logistic (edgeHat e cw cb d g i) * u i

/-! ## The reference's matrix product at an index -/

open Cert.ReferenceIdeal Cert.ReferenceIdeal.Gen in
theorem lhs_dotE_0 (i : SEdge.Idx) (q : dot_S524288x64_S64x64_S524288x64_1_0_0_1_n_n.contr.Idx) :
    (dot_S524288x64_S64x64_S524288x64_1_0_0_1_n_n.lhsIdx i q 0).val = (i 0).val := by
  unfold DotDims.lhsIdx
  rw [dif_neg (show ¬(0 : Fin S524288x64.rank) ∈ dot_S524288x64_S64x64_S524288x64_1_0_0_1_n_n.lhsBatch by decide), dif_pos (show (0 : Fin S524288x64.rank) ∈ dot_S524288x64_S64x64_S524288x64_1_0_0_1_n_n.lhsNonContracting by decide)]
  rfl
open Cert.ReferenceIdeal Cert.ReferenceIdeal.Gen in
theorem lhs_dotE_1 (i : SEdge.Idx) (q : dot_S524288x64_S64x64_S524288x64_1_0_0_1_n_n.contr.Idx) :
    (dot_S524288x64_S64x64_S524288x64_1_0_0_1_n_n.lhsIdx i q 1).val = (q ⟨0, by decide⟩).val :=
  dot_S524288x64_S64x64_S524288x64_1_0_0_1_n_n.lhsIdx_val_of_single rfl i q
open Cert.ReferenceIdeal Cert.ReferenceIdeal.Gen in
theorem rhs_dotE_0 (i : SEdge.Idx) (q : dot_S524288x64_S64x64_S524288x64_1_0_0_1_n_n.contr.Idx) :
    (dot_S524288x64_S64x64_S524288x64_1_0_0_1_n_n.rhsIdx i q 0).val = (q ⟨0, by decide⟩).val :=
  dot_S524288x64_S64x64_S524288x64_1_0_0_1_n_n.rhsIdx_val_of_single rfl i q
open Cert.ReferenceIdeal Cert.ReferenceIdeal.Gen in
theorem rhs_dotE_1 (i : SEdge.Idx) (q : dot_S524288x64_S64x64_S524288x64_1_0_0_1_n_n.contr.Idx) :
    (dot_S524288x64_S64x64_S524288x64_1_0_0_1_n_n.rhsIdx i q 1).val = (i 1).val := by
  unfold DotDims.rhsIdx
  rw [dif_neg (show ¬(1 : Fin S64x64.rank) ∈ dot_S524288x64_S64x64_S524288x64_1_0_0_1_n_n.rhsBatch by decide), dif_pos (show (1 : Fin S64x64.rank) ∈ dot_S524288x64_S64x64_S524288x64_1_0_0_1_n_n.rhsNonContracting by decide)]
  rfl

open Cert.ReferenceIdeal Cert.ReferenceIdeal.Gen in
/-- The host's product of the edge features with the weight matrix, at edge `p` and column `q`: the sum over the 64
    input features of the products. -/
theorem dotE_apply (l : FVec Ideal SEdge .f32) (r : FVec Ideal SSq .f32) (p : Fin 524288) (q : Fin 64) :
    Host.dotGeneral dot_S524288x64_S64x64_S524288x64_1_0_0_1_n_n none l r (ix2 p q)
      = ∑ k : Fin 64, l (ix2 p k) * r (ix2 k q) := by
  show FloatOps.dotGeneral dot_S524288x64_S64x64_S524288x64_1_0_0_1_n_n none _ l r (ix2 p q) = _
  rw [Ideal.dotGeneral_apply, ← Equiv.sum_comp (contrEquiv1 dot_S524288x64_S64x64_S524288x64_1_0_0_1_n_n 64 rfl rfl).symm]
  refine Finset.sum_congr rfl fun k _ => ?_
  have hk := contrEquiv1_symm_val dot_S524288x64_S64x64_S524288x64_1_0_0_1_n_n 64 rfl rfl k
  have el : dot_S524288x64_S64x64_S524288x64_1_0_0_1_n_n.lhsIdx (ix2 p q) ((contrEquiv1 dot_S524288x64_S64x64_S524288x64_1_0_0_1_n_n 64 rfl rfl).symm k) = ix2 p k := funext fun a => Fin.ext (by
    match a with
    | ⟨0, _⟩ => exact lhs_dotE_0 _ _
    | ⟨1, _⟩ => exact (lhs_dotE_1 _ _).trans hk)
  have er : dot_S524288x64_S64x64_S524288x64_1_0_0_1_n_n.rhsIdx (ix2 p q) ((contrEquiv1 dot_S524288x64_S64x64_S524288x64_1_0_0_1_n_n 64 rfl rfl).symm k) = ix2 k q := funext fun a => Fin.ext (by
    match a with
    | ⟨0, _⟩ => exact (rhs_dotE_0 _ _).trans hk
    | ⟨1, _⟩ => exact rhs_dotE_1 _ _)
  rw [el, er]

/-! ## The bias at an index: the reference broadcasts the flat bias along the rows, the kernel reads its one-row cast -/

/-- The flat bias laid as one row and then along every edge reads the bias at the column. -/
theorem biasR_apply {α : Type} (v : SFlat.Idx → α) (h1 : SFlat.BroadcastsInDim SRow ![1]) (h2 : SRow.BroadcastsInDim SEdge ![0, 1])
    (p : Fin 524288) (q : Fin 64) :
    broadcastInDim SEdge ![0, 1] h2 (broadcastInDim SRow ![1] h1 v) (ix2 p q) = v (ix1 q) := by
  rw [broadcastInDim_apply ![0, 1] h2 _ (ix2 p q) (ix2 (0 : Fin 1) q) (fun a => by
    match a with
    | ⟨0, _⟩ => rfl
    | ⟨1, _⟩ => rfl)]
  exact broadcastInDim_apply ![1] h1 v (ix2 (0 : Fin 1) q) (ix1 q) (fun a => by
    match a with
    | ⟨0, _⟩ => rfl)

/-! ## The sigmoid spelt out is the logistic function -/

/-- `1 / (1 + exp (-x))` with both ones the word of `1.0`: the logistic function, by its definition. -/
theorem sigmoid_spelt (x : EReal) :
    Ideal.div (Ideal.ofBits .f32 0x3F800000#32) (Ideal.ofBits .f32 0x3F800000#32 + Ideal.exp (-x)) = Ideal.logistic x := by
  rw [Ideal.ofBits_one_f32]; rfl

/-! ## The gathered node rows -/

section Gather
open Cert.ReferenceIdeal Cert.ReferenceIdeal.Gen
variable {F : FTy → Type} [FloatOps F]

/-- A node index made non-negative (an index below zero counts from the end, 32768 nodes), as a column of start
    indices. -/
def normIdx (a : IVec S524288 32) : IVec S524288x1 32 :=
  broadcastInDim S524288x1 ![0] bcast_S524288_S524288x1_0
    (select (cmpi .slt a (broadcastInDim S524288 ![] bcast_S_S524288 (constantI S_ 32 0#32)))
      (addi a (broadcastInDim S524288 ![] bcast_S_S524288 (constantI S_ 32 32768#32))) a)

/-- The rows of a node array at the edges' node indices: one row of 64 features per edge. -/
def rowGather (x : Vec F S32768x64 .f32) (a : IVec S524288 32) : Vec F S524288x64 .f32 :=
  Host.gather gather_S32768x64_S524288x1_S524288x64_1_0_n_n_0_1_164 x (normIdx a)

end Gather

/-! ## The three arrays against the host's operations -/

open Cert.ReferenceIdeal Cert.ReferenceIdeal.Gen in
/-- The pre-activation is the host's chain: the product with the weight matrix, plus the bias laid along the edges, plus
    the two gathered node arrays, in that order. The kernel reads the bias through its one-row cast. -/
theorem edgeHat_eq (e : FVec Ideal SEdge .f32) (cw : FVec Ideal SSq .f32) (cbv : FVec Ideal SFlat .f32) (d g : FVec Ideal SEdge .f32)
    (hc : SFlat.ShapeCasts SRow) (h1 : SFlat.BroadcastsInDim SRow ![1]) (h2 : SRow.BroadcastsInDim SEdge ![0, 1]) :
    edgeHat e cw (shapeCast SRow cbv hc) d g
      = addf (F := Ideal) (addf (F := Ideal) (addf (F := Ideal) (Host.dotGeneral (F := Ideal) dot_S524288x64_S64x64_S524288x64_1_0_0_1_n_n none e cw)
          (broadcastInDim SEdge ![0, 1] h2 (broadcastInDim SRow ![1] h1 cbv))) d) g := by
  funext i
  obtain ⟨p, q, rfl⟩ : ∃ (p : Fin 524288) (q : Fin 64), i = ix2 p q := ⟨i 0, i 1, eq_ix2 i⟩
  show (((∑ k : Fin 64, e (ix2 p k) * cw (ix2 k q)) + shapeCast SRow cbv hc (ix2 (0 : Fin 1) q)) + d (ix2 p q)) + g (ix2 p q)
    = ((Host.dotGeneral (F := Ideal) dot_S524288x64_S64x64_S524288x64_1_0_0_1_n_n none e cw (ix2 p q)
        + broadcastInDim SEdge ![0, 1] h2 (broadcastInDim SRow ![1] h1 cbv) (ix2 p q)) + d (ix2 p q)) + g (ix2 p q)
  rw [dotE_apply, biasR_apply, shapeCast_a_1a_apply]

/-- The gate is the host's spelt-out sigmoid of the pre-activation. -/
theorem edgeGate_eq (e : FVec Ideal SEdge .f32) (cw : FVec Ideal SSq .f32) (cb : FVec Ideal SRow .f32) (d g x : FVec Ideal SEdge .f32)
    (h0 : (⟨0, ![]⟩ : Shape).BroadcastsInDim SEdge ![]) (hx : edgeHat e cw cb d g = x) :
    edgeGate e cw cb d g
      = Host.divf (F := Ideal) (broadcastInDim SEdge ![] h0 (constant (F := Ideal) ⟨0, ![]⟩ .f32 0x3F800000#32))
          (addf (F := Ideal) (broadcastInDim SEdge ![] h0 (constant (F := Ideal) ⟨0, ![]⟩ .f32 0x3F800000#32))
            (Host.exp (F := Ideal) (Host.negf (F := Ideal) x))) := by
  subst hx
  funext i
  show Ideal.logistic (edgeHat e cw cb d g i)
    = Ideal.div (Ideal.ofBits .f32 0x3F800000#32) (Ideal.ofBits .f32 0x3F800000#32 + Ideal.exp (-(edgeHat e cw cb d g i)))
  exact (sigmoid_spelt _).symm

/-- The message is the host's product of the gate with the gathered node array. -/
theorem edgeMsg_eq (e : FVec Ideal SEdge .f32) (cw : FVec Ideal SSq .f32) (cb : FVec Ideal SRow .f32) (d g u s : FVec Ideal SEdge .f32)
    (hs : edgeGate e cw cb d g = s) : edgeMsg e cw cb d g u = mulf (F := Ideal) s u := by
  subst hs
  rfl

end Cert.Bridge

end
-- ==== Proof.BR.FinalBase.lean ====
import proofs.«142356_j74423193305351_1_alg».proof.Proof.BR.KStages
import proofs.«142356_j74423193305351_1_alg».proof.Proof.BR.RefStages
import proofs.«142356_j74423193305351_1_alg».proof.Proof.BR.RefArgs
import proofs.«142356_j74423193305351_1_alg».proof.Proof.BR.EdgeMath

/-! # The chain of the steps: what every link uses

Both programs compute, from the same thirty-one arguments, the node and edge embeddings, then three times a layer —
the four linear maps of the node features, the edge update (pre-activation, gate, message), the aggregation of the
messages at the destination nodes, the batch norm with residual of the node features and that of the edge features —,
then the readout and the MLP head. The kernel's run is read at its stage valuations `W1 … W42`, the reference's at
`Q0 … Q18`. Here: the agreement of the arguments, each stage valuation one step unfolded, and the edge update's
functions under their two names. -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The arguments agree -/

/-- The two launch memories hold the same thirty-one arguments on core `c`: the hypothesis as the claim spells it. -/
abbrev AgreeConj : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
  ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
  ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
  ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)

set_option maxHeartbeats 8000000 in
/-- The same agreement, one field per argument, each in the form the links use: core `c`'s launch buffer of the kernel's
    argument is the reference's launch memory at its argument. -/
structure Agree : Prop where
  a0 : Cert.KernelIdeal.GenP.V0 m c (Proc.devRef .tc Cert.KernelIdeal.main_arg0) = m' (c, (Proc.devRef .tc Cert.ReferenceIdeal.main_arg0))
  a1 : Cert.KernelIdeal.GenP.V0 m c (Proc.devRef .tc Cert.KernelIdeal.main_arg1) = m' (c, (Proc.devRef .tc Cert.ReferenceIdeal.main_arg1))
  a2 : Cert.KernelIdeal.GenP.V0 m c (Proc.devRef .tc Cert.KernelIdeal.main_arg2) = m' (c, (Proc.devRef .tc Cert.ReferenceIdeal.main_arg2))
  a3 : Cert.KernelIdeal.GenP.V0 m c (Proc.devRef .tc Cert.KernelIdeal.main_arg3) = m' (c, (Proc.devRef .tc Cert.ReferenceIdeal.main_arg3))
  a4 : Cert.KernelIdeal.GenP.V0 m c (Proc.devRef .tc Cert.KernelIdeal.main_arg4) = m' (c, (Proc.devRef .tc Cert.ReferenceIdeal.main_arg4))
  a5 : Cert.KernelIdeal.GenP.V0 m c (Proc.devRef .tc Cert.KernelIdeal.main_arg5) = m' (c, (Proc.devRef .tc Cert.ReferenceIdeal.main_arg5))
  a6 : Cert.KernelIdeal.GenP.V0 m c (Proc.devRef .tc Cert.KernelIdeal.main_arg6) = m' (c, (Proc.devRef .tc Cert.ReferenceIdeal.main_arg6))
  a7 : Cert.KernelIdeal.GenP.V0 m c (Proc.devRef .tc Cert.KernelIdeal.main_arg7) = m' (c, (Proc.devRef .tc Cert.ReferenceIdeal.main_arg7))
  a8 : Cert.KernelIdeal.GenP.V0 m c (Proc.devRef .tc Cert.KernelIdeal.main_arg8) = m' (c, (Proc.devRef .tc Cert.ReferenceIdeal.main_arg8))
  a9 : Cert.KernelIdeal.GenP.V0 m c (Proc.devRef .tc Cert.KernelIdeal.main_arg9) = m' (c, (Proc.devRef .tc Cert.ReferenceIdeal.main_arg9))
  a10 : Cert.KernelIdeal.GenP.V0 m c (Proc.devRef .tc Cert.KernelIdeal.main_arg10) = m' (c, (Proc.devRef .tc Cert.ReferenceIdeal.main_arg10))
  a11 : Cert.KernelIdeal.GenP.V0 m c (Proc.devRef .tc Cert.KernelIdeal.main_arg11) = m' (c, (Proc.devRef .tc Cert.ReferenceIdeal.main_arg11))
  a12 : Cert.KernelIdeal.GenP.V0 m c (Proc.devRef .tc Cert.KernelIdeal.main_arg12) = m' (c, (Proc.devRef .tc Cert.ReferenceIdeal.main_arg12))
  a13 : Cert.KernelIdeal.GenP.V0 m c (Proc.devRef .tc Cert.KernelIdeal.main_arg13) = m' (c, (Proc.devRef .tc Cert.ReferenceIdeal.main_arg13))
  a14 : Cert.KernelIdeal.GenP.V0 m c (Proc.devRef .tc Cert.KernelIdeal.main_arg14) = m' (c, (Proc.devRef .tc Cert.ReferenceIdeal.main_arg14))
  a15 : Cert.KernelIdeal.GenP.V0 m c (Proc.devRef .tc Cert.KernelIdeal.main_arg15) = m' (c, (Proc.devRef .tc Cert.ReferenceIdeal.main_arg15))
  a16 : Cert.KernelIdeal.GenP.V0 m c (Proc.devRef .tc Cert.KernelIdeal.main_arg16) = m' (c, (Proc.devRef .tc Cert.ReferenceIdeal.main_arg16))
  a17 : Cert.KernelIdeal.GenP.V0 m c (Proc.devRef .tc Cert.KernelIdeal.main_arg17) = m' (c, (Proc.devRef .tc Cert.ReferenceIdeal.main_arg17))
  a18 : Cert.KernelIdeal.GenP.V0 m c (Proc.devRef .tc Cert.KernelIdeal.main_arg18) = m' (c, (Proc.devRef .tc Cert.ReferenceIdeal.main_arg18))
  a19 : Cert.KernelIdeal.GenP.V0 m c (Proc.devRef .tc Cert.KernelIdeal.main_arg19) = m' (c, (Proc.devRef .tc Cert.ReferenceIdeal.main_arg19))
  a20 : Cert.KernelIdeal.GenP.V0 m c (Proc.devRef .tc Cert.KernelIdeal.main_arg20) = m' (c, (Proc.devRef .tc Cert.ReferenceIdeal.main_arg20))
  a21 : Cert.KernelIdeal.GenP.V0 m c (Proc.devRef .tc Cert.KernelIdeal.main_arg21) = m' (c, (Proc.devRef .tc Cert.ReferenceIdeal.main_arg21))
  a22 : Cert.KernelIdeal.GenP.V0 m c (Proc.devRef .tc Cert.KernelIdeal.main_arg22) = m' (c, (Proc.devRef .tc Cert.ReferenceIdeal.main_arg22))
  a23 : Cert.KernelIdeal.GenP.V0 m c (Proc.devRef .tc Cert.KernelIdeal.main_arg23) = m' (c, (Proc.devRef .tc Cert.ReferenceIdeal.main_arg23))
  a24 : Cert.KernelIdeal.GenP.V0 m c (Proc.devRef .tc Cert.KernelIdeal.main_arg24) = m' (c, (Proc.devRef .tc Cert.ReferenceIdeal.main_arg24))
  a25 : Cert.KernelIdeal.GenP.V0 m c (Proc.devRef .tc Cert.KernelIdeal.main_arg25) = m' (c, (Proc.devRef .tc Cert.ReferenceIdeal.main_arg25))
  a26 : Cert.KernelIdeal.GenP.V0 m c (Proc.devRef .tc Cert.KernelIdeal.main_arg26) = m' (c, (Proc.devRef .tc Cert.ReferenceIdeal.main_arg26))
  a27 : Cert.KernelIdeal.GenP.V0 m c (Proc.devRef .tc Cert.KernelIdeal.main_arg27) = m' (c, (Proc.devRef .tc Cert.ReferenceIdeal.main_arg27))
  a28 : Cert.KernelIdeal.GenP.V0 m c (Proc.devRef .tc Cert.KernelIdeal.main_arg28) = m' (c, (Proc.devRef .tc Cert.ReferenceIdeal.main_arg28))
  a29 : Cert.KernelIdeal.GenP.V0 m c (Proc.devRef .tc Cert.KernelIdeal.main_arg29) = m' (c, (Proc.devRef .tc Cert.ReferenceIdeal.main_arg29))
  a30 : Cert.KernelIdeal.GenP.V0 m c (Proc.devRef .tc Cert.KernelIdeal.main_arg30) = m' (c, (Proc.devRef .tc Cert.ReferenceIdeal.main_arg30))

theorem agree_0 (h : Agree m m' c) : Cert.KernelIdeal.GenP.V0 m c (Proc.devRef .tc Cert.KernelIdeal.main_arg0) = m' (c, (Proc.devRef .tc Cert.ReferenceIdeal.main_arg0)) := h.a0
theorem agree_1 (h : Agree m m' c) : Cert.KernelIdeal.GenP.V0 m c (Proc.devRef .tc Cert.KernelIdeal.main_arg1) = m' (c, (Proc.devRef .tc Cert.ReferenceIdeal.main_arg1)) := h.a1
theorem agree_2 (h : Agree m m' c) : Cert.KernelIdeal.GenP.V0 m c (Proc.devRef .tc Cert.KernelIdeal.main_arg2) = m' (c, (Proc.devRef .tc Cert.ReferenceIdeal.main_arg2)) := h.a2
theorem agree_3 (h : Agree m m' c) : Cert.KernelIdeal.GenP.V0 m c (Proc.devRef .tc Cert.KernelIdeal.main_arg3) = m' (c, (Proc.devRef .tc Cert.ReferenceIdeal.main_arg3)) := h.a3
theorem agree_4 (h : Agree m m' c) : Cert.KernelIdeal.GenP.V0 m c (Proc.devRef .tc Cert.KernelIdeal.main_arg4) = m' (c, (Proc.devRef .tc Cert.ReferenceIdeal.main_arg4)) := h.a4
theorem agree_5 (h : Agree m m' c) : Cert.KernelIdeal.GenP.V0 m c (Proc.devRef .tc Cert.KernelIdeal.main_arg5) = m' (c, (Proc.devRef .tc Cert.ReferenceIdeal.main_arg5)) := h.a5
theorem agree_6 (h : Agree m m' c) : Cert.KernelIdeal.GenP.V0 m c (Proc.devRef .tc Cert.KernelIdeal.main_arg6) = m' (c, (Proc.devRef .tc Cert.ReferenceIdeal.main_arg6)) := h.a6
theorem agree_7 (h : Agree m m' c) : Cert.KernelIdeal.GenP.V0 m c (Proc.devRef .tc Cert.KernelIdeal.main_arg7) = m' (c, (Proc.devRef .tc Cert.ReferenceIdeal.main_arg7)) := h.a7
theorem agree_8 (h : Agree m m' c) : Cert.KernelIdeal.GenP.V0 m c (Proc.devRef .tc Cert.KernelIdeal.main_arg8) = m' (c, (Proc.devRef .tc Cert.ReferenceIdeal.main_arg8)) := h.a8
theorem agree_9 (h : Agree m m' c) : Cert.KernelIdeal.GenP.V0 m c (Proc.devRef .tc Cert.KernelIdeal.main_arg9) = m' (c, (Proc.devRef .tc Cert.ReferenceIdeal.main_arg9)) := h.a9
theorem agree_10 (h : Agree m m' c) : Cert.KernelIdeal.GenP.V0 m c (Proc.devRef .tc Cert.KernelIdeal.main_arg10) = m' (c, (Proc.devRef .tc Cert.ReferenceIdeal.main_arg10)) := h.a10
theorem agree_11 (h : Agree m m' c) : Cert.KernelIdeal.GenP.V0 m c (Proc.devRef .tc Cert.KernelIdeal.main_arg11) = m' (c, (Proc.devRef .tc Cert.ReferenceIdeal.main_arg11)) := h.a11
theorem agree_12 (h : Agree m m' c) : Cert.KernelIdeal.GenP.V0 m c (Proc.devRef .tc Cert.KernelIdeal.main_arg12) = m' (c, (Proc.devRef .tc Cert.ReferenceIdeal.main_arg12)) := h.a12
theorem agree_13 (h : Agree m m' c) : Cert.KernelIdeal.GenP.V0 m c (Proc.devRef .tc Cert.KernelIdeal.main_arg13) = m' (c, (Proc.devRef .tc Cert.ReferenceIdeal.main_arg13)) := h.a13
theorem agree_14 (h : Agree m m' c) : Cert.KernelIdeal.GenP.V0 m c (Proc.devRef .tc Cert.KernelIdeal.main_arg14) = m' (c, (Proc.devRef .tc Cert.ReferenceIdeal.main_arg14)) := h.a14
theorem agree_15 (h : Agree m m' c) : Cert.KernelIdeal.GenP.V0 m c (Proc.devRef .tc Cert.KernelIdeal.main_arg15) = m' (c, (Proc.devRef .tc Cert.ReferenceIdeal.main_arg15)) := h.a15
theorem agree_16 (h : Agree m m' c) : Cert.KernelIdeal.GenP.V0 m c (Proc.devRef .tc Cert.KernelIdeal.main_arg16) = m' (c, (Proc.devRef .tc Cert.ReferenceIdeal.main_arg16)) := h.a16
theorem agree_17 (h : Agree m m' c) : Cert.KernelIdeal.GenP.V0 m c (Proc.devRef .tc Cert.KernelIdeal.main_arg17) = m' (c, (Proc.devRef .tc Cert.ReferenceIdeal.main_arg17)) := h.a17
theorem agree_18 (h : Agree m m' c) : Cert.KernelIdeal.GenP.V0 m c (Proc.devRef .tc Cert.KernelIdeal.main_arg18) = m' (c, (Proc.devRef .tc Cert.ReferenceIdeal.main_arg18)) := h.a18
theorem agree_19 (h : Agree m m' c) : Cert.KernelIdeal.GenP.V0 m c (Proc.devRef .tc Cert.KernelIdeal.main_arg19) = m' (c, (Proc.devRef .tc Cert.ReferenceIdeal.main_arg19)) := h.a19
theorem agree_20 (h : Agree m m' c) : Cert.KernelIdeal.GenP.V0 m c (Proc.devRef .tc Cert.KernelIdeal.main_arg20) = m' (c, (Proc.devRef .tc Cert.ReferenceIdeal.main_arg20)) := h.a20
theorem agree_21 (h : Agree m m' c) : Cert.KernelIdeal.GenP.V0 m c (Proc.devRef .tc Cert.KernelIdeal.main_arg21) = m' (c, (Proc.devRef .tc Cert.ReferenceIdeal.main_arg21)) := h.a21
theorem agree_22 (h : Agree m m' c) : Cert.KernelIdeal.GenP.V0 m c (Proc.devRef .tc Cert.KernelIdeal.main_arg22) = m' (c, (Proc.devRef .tc Cert.ReferenceIdeal.main_arg22)) := h.a22
theorem agree_23 (h : Agree m m' c) : Cert.KernelIdeal.GenP.V0 m c (Proc.devRef .tc Cert.KernelIdeal.main_arg23) = m' (c, (Proc.devRef .tc Cert.ReferenceIdeal.main_arg23)) := h.a23
theorem agree_24 (h : Agree m m' c) : Cert.KernelIdeal.GenP.V0 m c (Proc.devRef .tc Cert.KernelIdeal.main_arg24) = m' (c, (Proc.devRef .tc Cert.ReferenceIdeal.main_arg24)) := h.a24
theorem agree_25 (h : Agree m m' c) : Cert.KernelIdeal.GenP.V0 m c (Proc.devRef .tc Cert.KernelIdeal.main_arg25) = m' (c, (Proc.devRef .tc Cert.ReferenceIdeal.main_arg25)) := h.a25
theorem agree_26 (h : Agree m m' c) : Cert.KernelIdeal.GenP.V0 m c (Proc.devRef .tc Cert.KernelIdeal.main_arg26) = m' (c, (Proc.devRef .tc Cert.ReferenceIdeal.main_arg26)) := h.a26
theorem agree_27 (h : Agree m m' c) : Cert.KernelIdeal.GenP.V0 m c (Proc.devRef .tc Cert.KernelIdeal.main_arg27) = m' (c, (Proc.devRef .tc Cert.ReferenceIdeal.main_arg27)) := h.a27
theorem agree_28 (h : Agree m m' c) : Cert.KernelIdeal.GenP.V0 m c (Proc.devRef .tc Cert.KernelIdeal.main_arg28) = m' (c, (Proc.devRef .tc Cert.ReferenceIdeal.main_arg28)) := h.a28
theorem agree_29 (h : Agree m m' c) : Cert.KernelIdeal.GenP.V0 m c (Proc.devRef .tc Cert.KernelIdeal.main_arg29) = m' (c, (Proc.devRef .tc Cert.ReferenceIdeal.main_arg29)) := h.a29
theorem agree_30 (h : Agree m m' c) : Cert.KernelIdeal.GenP.V0 m c (Proc.devRef .tc Cert.KernelIdeal.main_arg30) = m' (c, (Proc.devRef .tc Cert.ReferenceIdeal.main_arg30)) := h.a30

set_option maxHeartbeats 8000000 in
/-- The claim's hypothesis gives the fields: each conjunct, turned round. -/
theorem Agree.of_conj (h : AgreeConj m m' c) : Agree m m' c :=
  ⟨h.1.symm,
   h.2.1.symm,
   h.2.2.1.symm,
   h.2.2.2.1.symm,
   h.2.2.2.2.1.symm,
   h.2.2.2.2.2.1.symm,
   h.2.2.2.2.2.2.1.symm,
   h.2.2.2.2.2.2.2.1.symm,
   h.2.2.2.2.2.2.2.2.1.symm,
   h.2.2.2.2.2.2.2.2.2.1.symm,
   h.2.2.2.2.2.2.2.2.2.2.1.symm,
   h.2.2.2.2.2.2.2.2.2.2.2.1.symm,
   h.2.2.2.2.2.2.2.2.2.2.2.2.1.symm,
   h.2.2.2.2.2.2.2.2.2.2.2.2.2.1.symm,
   h.2.2.2.2.2.2.2.2.2.2.2.2.2.2.1.symm,
   h.2.2.2.2.2.2.2.2.2.2.2.2.2.2.2.1.symm,
   h.2.2.2.2.2.2.2.2.2.2.2.2.2.2.2.2.1.symm,
   h.2.2.2.2.2.2.2.2.2.2.2.2.2.2.2.2.2.1.symm,
   h.2.2.2.2.2.2.2.2.2.2.2.2.2.2.2.2.2.2.1.symm,
   h.2.2.2.2.2.2.2.2.2.2.2.2.2.2.2.2.2.2.2.1.symm,
   h.2.2.2.2.2.2.2.2.2.2.2.2.2.2.2.2.2.2.2.2.1.symm,
   h.2.2.2.2.2.2.2.2.2.2.2.2.2.2.2.2.2.2.2.2.2.1.symm,
   h.2.2.2.2.2.2.2.2.2.2.2.2.2.2.2.2.2.2.2.2.2.2.1.symm,
   h.2.2.2.2.2.2.2.2.2.2.2.2.2.2.2.2.2.2.2.2.2.2.2.1.symm,
   h.2.2.2.2.2.2.2.2.2.2.2.2.2.2.2.2.2.2.2.2.2.2.2.2.1.symm,
   h.2.2.2.2.2.2.2.2.2.2.2.2.2.2.2.2.2.2.2.2.2.2.2.2.2.1.symm,
   h.2.2.2.2.2.2.2.2.2.2.2.2.2.2.2.2.2.2.2.2.2.2.2.2.2.2.1.symm,
   h.2.2.2.2.2.2.2.2.2.2.2.2.2.2.2.2.2.2.2.2.2.2.2.2.2.2.2.1.symm,
   h.2.2.2.2.2.2.2.2.2.2.2.2.2.2.2.2.2.2.2.2.2.2.2.2.2.2.2.2.1.symm,
   h.2.2.2.2.2.2.2.2.2.2.2.2.2.2.2.2.2.2.2.2.2.2.2.2.2.2.2.2.2.1.symm,
   h.2.2.2.2.2.2.2.2.2.2.2.2.2.2.2.2.2.2.2.2.2.2.2.2.2.2.2.2.2.2.symm⟩

/-! ## The stage valuations, one step unfolded -/

theorem W1_def : Cert.KernelIdeal.Hand.W1 m c = (StableHlo.after (Cert.KernelIdeal.Gen.hostOps0 (F := Ideal)) (Cert.KernelIdeal.GenP.V0 m c)) := rfl
theorem W3_def : Cert.KernelIdeal.Hand.W3 m c = (StableHlo.after (Cert.KernelIdeal.Gen.hostOps1 (F := Ideal)) (Cert.KernelIdeal.Hand.W2 m c)) := rfl
theorem W5_def : Cert.KernelIdeal.Hand.W5 m c = (StableHlo.after (Cert.KernelIdeal.Gen.hostOps2 (F := Ideal)) (Cert.KernelIdeal.Hand.W4 m c)) := rfl
theorem W7_def : Cert.KernelIdeal.Hand.W7 m c = (StableHlo.after (Cert.KernelIdeal.Gen.hostOps3 (F := Ideal)) (Cert.KernelIdeal.Hand.W6 m c)) := rfl
theorem W11_def : Cert.KernelIdeal.Hand.W11 m c = (StableHlo.after (Cert.KernelIdeal.Gen.hostOps4_2 (F := Ideal)) (StableHlo.after (Cert.KernelIdeal.Gen.hostOps4_1 (F := Ideal)) (StableHlo.after (Cert.KernelIdeal.Gen.hostOps4 (F := Ideal)) (Cert.KernelIdeal.Hand.W8 m c)))) := rfl
theorem W15_def : Cert.KernelIdeal.Hand.W15 m c = (StableHlo.after (Cert.KernelIdeal.Gen.hostOps5_2 (F := Ideal)) (StableHlo.after (Cert.KernelIdeal.Gen.hostOps5_1 (F := Ideal)) (StableHlo.after (Cert.KernelIdeal.Gen.hostOps5 (F := Ideal)) (Cert.KernelIdeal.Hand.W12 m c)))) := rfl
theorem W17_def : Cert.KernelIdeal.Hand.W17 m c = (StableHlo.after (Cert.KernelIdeal.Gen.hostOps6 (F := Ideal)) (Cert.KernelIdeal.Hand.W16 m c)) := rfl
theorem W19_def : Cert.KernelIdeal.Hand.W19 m c = (StableHlo.after (Cert.KernelIdeal.Gen.hostOps7 (F := Ideal)) (Cert.KernelIdeal.Hand.W18 m c)) := rfl
theorem W23_def : Cert.KernelIdeal.Hand.W23 m c = (StableHlo.after (Cert.KernelIdeal.Gen.hostOps8_2 (F := Ideal)) (StableHlo.after (Cert.KernelIdeal.Gen.hostOps8_1 (F := Ideal)) (StableHlo.after (Cert.KernelIdeal.Gen.hostOps8 (F := Ideal)) (Cert.KernelIdeal.Hand.W20 m c)))) := rfl
theorem W27_def : Cert.KernelIdeal.Hand.W27 m c = (StableHlo.after (Cert.KernelIdeal.Gen.hostOps9_2 (F := Ideal)) (StableHlo.after (Cert.KernelIdeal.Gen.hostOps9_1 (F := Ideal)) (StableHlo.after (Cert.KernelIdeal.Gen.hostOps9 (F := Ideal)) (Cert.KernelIdeal.Hand.W24 m c)))) := rfl
theorem W29_def : Cert.KernelIdeal.Hand.W29 m c = (StableHlo.after (Cert.KernelIdeal.Gen.hostOps10 (F := Ideal)) (Cert.KernelIdeal.Hand.W28 m c)) := rfl
theorem W31_def : Cert.KernelIdeal.Hand.W31 m c = (StableHlo.after (Cert.KernelIdeal.Gen.hostOps11 (F := Ideal)) (Cert.KernelIdeal.Hand.W30 m c)) := rfl
theorem W35_def : Cert.KernelIdeal.Hand.W35 m c = (StableHlo.after (Cert.KernelIdeal.Gen.hostOps12_2 (F := Ideal)) (StableHlo.after (Cert.KernelIdeal.Gen.hostOps12_1 (F := Ideal)) (StableHlo.after (Cert.KernelIdeal.Gen.hostOps12 (F := Ideal)) (Cert.KernelIdeal.Hand.W32 m c)))) := rfl
theorem W41_def : Cert.KernelIdeal.Hand.W41 m c = (StableHlo.after (Cert.KernelIdeal.Gen.hostOps14 (F := Ideal)) (Cert.KernelIdeal.Hand.W40 m c)) := rfl
theorem Q1_def : Q1 m' c = (StableHlo.after (Cert.ReferenceIdeal.Hand.rops0 (F := Ideal)) (Q0 m' c)) := rfl
theorem Q2_def : Q2 m' c = (StableHlo.after (Cert.ReferenceIdeal.Hand.rops1 (F := Ideal)) (Q1 m' c)) := rfl
theorem Q3_def : Q3 m' c = (StableHlo.after (Cert.ReferenceIdeal.Hand.rops2 (F := Ideal)) (StableHlo.after (Cert.ReferenceIdeal.Hand.rops1 (F := Ideal)) (Q1 m' c))) := rfl
theorem Q4_def : Q4 m' c = (StableHlo.after (Cert.ReferenceIdeal.Hand.rops3 (F := Ideal)) (Q3 m' c)) := rfl
theorem Q5_def : Q5 m' c = (StableHlo.after (Cert.ReferenceIdeal.Hand.rops4 (F := Ideal)) (Q4 m' c)) := rfl
theorem Q6_def : Q6 m' c = (StableHlo.after (Cert.ReferenceIdeal.Hand.rops5 (F := Ideal)) (Q5 m' c)) := rfl
theorem Q7_def : Q7 m' c = (StableHlo.after (Cert.ReferenceIdeal.Hand.rops6 (F := Ideal)) (Q6 m' c)) := rfl
theorem Q8_def : Q8 m' c = (StableHlo.after (Cert.ReferenceIdeal.Hand.rops7 (F := Ideal)) (StableHlo.after (Cert.ReferenceIdeal.Hand.rops6 (F := Ideal)) (Q6 m' c))) := rfl
theorem Q9_def : Q9 m' c = (StableHlo.after (Cert.ReferenceIdeal.Hand.rops8 (F := Ideal)) (Q8 m' c)) := rfl
theorem Q10_def : Q10 m' c = (StableHlo.after (Cert.ReferenceIdeal.Hand.rops9 (F := Ideal)) (Q9 m' c)) := rfl
theorem Q11_def : Q11 m' c = (StableHlo.after (Cert.ReferenceIdeal.Hand.rops10 (F := Ideal)) (Q10 m' c)) := rfl
theorem Q12_def : Q12 m' c = (StableHlo.after (Cert.ReferenceIdeal.Hand.rops11 (F := Ideal)) (Q11 m' c)) := rfl
theorem Q13_def : Q13 m' c = (StableHlo.after (Cert.ReferenceIdeal.Hand.rops12 (F := Ideal)) (StableHlo.after (Cert.ReferenceIdeal.Hand.rops11 (F := Ideal)) (Q11 m' c))) := rfl
theorem Q14_def : Q14 m' c = (StableHlo.after (Cert.ReferenceIdeal.Hand.rops13 (F := Ideal)) (Q13 m' c)) := rfl
theorem Q15_def : Q15 m' c = (StableHlo.after (Cert.ReferenceIdeal.Hand.rops14 (F := Ideal)) (Q14 m' c)) := rfl
theorem Q17_def : Q17 m' c = (StableHlo.after (Cert.ReferenceIdeal.Hand.rops16 (F := Ideal)) (Q16 m' c)) := rfl
theorem Q18_def : Q18 m' c = (StableHlo.after (Cert.ReferenceIdeal.Hand.rops17 (F := Ideal)) (Q17 m' c)) := rfl

/-! ## The edge update's functions under their two names -/

theorem hand_G3_6 : Cert.KernelIdeal.Hand.G3_6 = edgeHat := rfl
theorem hand_G3_7 : Cert.KernelIdeal.Hand.G3_7 = edgeGate := rfl
theorem hand_G3_8 : Cert.KernelIdeal.Hand.G3_8 = edgeMsg := rfl
theorem hand_G7_6 : Cert.KernelIdeal.Hand.G7_6 = edgeHat := rfl
theorem hand_G7_7 : Cert.KernelIdeal.Hand.G7_7 = edgeGate := rfl
theorem hand_G7_8 : Cert.KernelIdeal.Hand.G7_8 = edgeMsg := rfl
theorem hand_G11_6 : Cert.KernelIdeal.Hand.G11_6 = edgeHat := rfl
theorem hand_G11_7 : Cert.KernelIdeal.Hand.G11_7 = edgeGate := rfl
theorem hand_G11_8 : Cert.KernelIdeal.Hand.G11_8 = edgeMsg := rfl

end Cert.Bridge
-- ==== Proof.BR.LinVal.lean ====
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.Bridge

open Idealize.ShloMosaic Idealize.ShloMosaic.ValueIdx Idealize.ShloMosaic.StackMember

/-! # A linear layer as one function of its arrays, and the host's spelling of it read at an index -/

/-- A linear layer, index by index: row `i 0` of x against column `i 1` of W, summed over the `k` input features,
    plus the bias row at that column. -/
def lin {m k n : ℕ} (x : (⟨2, ![m, k]⟩ : Shape).Idx → EReal) (W : (⟨2, ![k, n]⟩ : Shape).Idx → EReal)
    (b : (⟨2, ![1, n]⟩ : Shape).Idx → EReal) : (⟨2, ![m, n]⟩ : Shape).Idx → EReal :=
  fun i => (∑ c : Fin k, x (ix2 (i 0) c) * W (ix2 c (i 1))) + b (ix2 (0 : Fin 1) (i 1))

/-- A vector placed as the one row of a matrix by `broadcast_in_dim`, then that row copied to every row: at (p, q) it is
    the vector at q. -/
theorem bias_rows_apply {m n : ℕ} (b : (⟨1, ![n]⟩ : Shape).Idx → EReal)
    (h2 : (⟨1, ![n]⟩ : Shape).BroadcastsInDim ⟨2, ![1, n]⟩ ![1])
    (h1 : (⟨2, ![1, n]⟩ : Shape).BroadcastsInDim ⟨2, ![m, n]⟩ ![0, 1]) (p : Fin m) (q : Fin n) :
    broadcastInDim ⟨2, ![m, n]⟩ ![0, 1] h1 (broadcastInDim ⟨2, ![1, n]⟩ ![1] h2 b) (ix2 p q) = b (ix1 q) := by
  rw [broadcastInDim_apply ![0, 1] h1 _ (ix2 p q) (ix2 (0 : Fin 1) q) (fun a => by
    match a with
    | ⟨0, _⟩ => rfl
    | ⟨1, _⟩ =>
      show q.val = if n = 1 then 0 else q.val
      split
      · have := q.isLt; omega
      · rfl)]
  exact broadcastInDim_apply ![1] h2 b (ix2 (0 : Fin 1) q) (ix1 q) (fun a => by
    match a with
    | ⟨0, _⟩ =>
      show q.val = if n = 1 then 0 else q.val
      split
      · have := q.isLt; omega
      · rfl)

/-- The host's product of an m×k by a k×n matrix plus a bias vector copied over the rows, read at (p, q): the sum over
    the contracted coordinate of the products, plus the bias at q. -/
theorem dot_bias_apply {m k n : ℕ} (D : DotDims ⟨2, ![m, k]⟩ ⟨2, ![k, n]⟩ ⟨2, ![m, n]⟩) (hD : D = DotDims.plain m k n)
    (x : FVec Ideal ⟨2, ![m, k]⟩ .f32) (W : FVec Ideal ⟨2, ![k, n]⟩ .f32) (b : FVec Ideal ⟨1, ![n]⟩ .f32)
    (h2 : (⟨1, ![n]⟩ : Shape).BroadcastsInDim ⟨2, ![1, n]⟩ ![1])
    (h1 : (⟨2, ![1, n]⟩ : Shape).BroadcastsInDim ⟨2, ![m, n]⟩ ![0, 1]) (p : Fin m) (q : Fin n) :
    addf (Host.dotGeneral D none x W) (broadcastInDim ⟨2, ![m, n]⟩ ![0, 1] h1 (broadcastInDim ⟨2, ![1, n]⟩ ![1] h2 b)) (ix2 p q)
      = (∑ c : Fin k, x (ix2 p c) * W (ix2 c q)) + b (ix1 q) := by
  subst hD
  rw [addf_apply, dotGeneral_plain_apply, bias_rows_apply]

/-- The host's 1.0 broadcast and divided by an array, read at an index: the word of 1.0 over the entry. -/
theorem recip_apply {s : Shape} (w : BitVec 32) (hb : (⟨0, ![]⟩ : Shape).BroadcastsInDim s (![] : Fin 0 → Fin s.rank))
    (x : FVec Ideal s .f32) (i : s.Idx) :
    Host.divf (broadcastInDim s ![] hb (constant (F := Ideal) ⟨0, ![]⟩ .f32 w)) x i = Ideal.div (Ideal.ofBits .f32 w) (x i) := rfl

/-! ## Four column blocks of one product -/

/-- Columns `o … o + 63` of a linear layer into 256 columns whose weight and bias are, on those columns, the matrix `P`
    and the vector `p`: the host's product with `P` plus `p` copied over the rows. -/
theorem lin_cols_slice {m : ℕ} (o : ℕ) (x : FVec Ideal ⟨2, ![m, 64]⟩ .f32) (W : FVec Ideal ⟨2, ![64, 256]⟩ .f32)
    (bb : FVec Ideal ⟨2, ![1, 256]⟩ .f32) (P : FVec Ideal ⟨2, ![64, 64]⟩ .f32) (p : FVec Ideal ⟨1, ![64]⟩ .f32)
    (D : DotDims ⟨2, ![m, 64]⟩ ⟨2, ![64, 64]⟩ ⟨2, ![m, 64]⟩) (hD : D = DotDims.plain m 64 64)
    (h2 : (⟨1, ![64]⟩ : Shape).BroadcastsInDim ⟨2, ![1, 64]⟩ ![1])
    (h1 : (⟨2, ![1, 64]⟩ : Shape).BroadcastsInDim ⟨2, ![m, 64]⟩ ![0, 1])
    (hsl : (⟨2, ![m, 256]⟩ : Shape).Slices ![0, o] ⟨2, ![m, 64]⟩)
    (hW : ∀ (c q : Fin 64) (hq : o + q.val < 256), W (ix2 c ⟨o + q.val, hq⟩) = P (ix2 c q))
    (hb : ∀ (q : Fin 64) (hq : o + q.val < 256), bb (ix2 (0 : Fin 1) ⟨o + q.val, hq⟩) = p (ix1 q)) :
    extractStridedSlice ⟨2, ![m, 64]⟩ ![0, o] (lin x W bb) hsl
      = addf (Host.dotGeneral D none x P) (broadcastInDim ⟨2, ![m, 64]⟩ ![0, 1] h1 (broadcastInDim ⟨2, ![1, 64]⟩ ![1] h2 p)) := by
  funext i
  obtain ⟨a, q, rfl⟩ : ∃ (a : Fin m) (q : Fin 64), i = ix2 a q := ⟨i 0, i 1, eq_ix2 i⟩
  rw [slice2_axis1_eq, dot_bias_apply D hD]
  show (∑ c : Fin 64, x (ix2 a c) * W (ix2 c ⟨o + q.val, _⟩)) + bb (ix2 (0 : Fin 1) ⟨o + q.val, _⟩) = _
  rw [hb]
  exact congrArg (· + p (ix1 q)) (Finset.sum_congr rfl fun c _ => by rw [hW])

/-- Four 64×64 matrices side by side: column `pre + q` of the whole is column `q` of the piece whose columns start at `pre`. -/
theorem cat4_cols_apply (A0 A1 A2 A3 : FVec Ideal ⟨2, ![64, 64]⟩ .f32)
    (h : Shape.Concatenates [⟨2, ![64, 64]⟩, ⟨2, ![64, 64]⟩, ⟨2, ![64, 64]⟩, ⟨2, ![64, 64]⟩] ⟨2, ![64, 256]⟩ 1)
    (k : ℕ) (hk : k < 4) (c q : Fin 64) (hq : 64 * k + q.val < 256) :
    concatenate ⟨2, ![64, 256]⟩ 1 [⟨⟨2, ![64, 64]⟩, A0⟩, ⟨⟨2, ![64, 64]⟩, A1⟩, ⟨⟨2, ![64, 64]⟩, A2⟩, ⟨⟨2, ![64, 64]⟩, A3⟩] h (ix2 c ⟨64 * k + q.val, hq⟩)
      = ([A0, A1, A2, A3][k]'hk) (ix2 c q) := by
  have hi : ∀ b : Fin 2, b.cast rfl ≠ (1 : Fin 2) → ((ix2 c q : (⟨2, ![64, 64]⟩ : Shape).Idx) b).val
      = ((ix2 c ⟨64 * k + q.val, hq⟩ : (⟨2, ![64, 256]⟩ : Shape).Idx) (b.cast rfl)).val := fun b hb => by
    match b with
    | ⟨0, _⟩ => rfl
    | ⟨1, _⟩ => exact absurd rfl hb
  match k, hk with
  | 0, _ => exact concatenate_apply_piece (α := EReal) (t := ⟨2, ![64, 256]⟩) (1 : Fin 2) [⟨⟨2, ![64, 64]⟩, A0⟩, ⟨⟨2, ![64, 64]⟩, A1⟩, ⟨⟨2, ![64, 64]⟩, A2⟩, ⟨⟨2, ![64, 64]⟩, A3⟩] h (ix2 c ⟨64 * 0 + q.val, hq⟩) 0 (show 0 < 4 by decide) ⟨2, ![64, 64]⟩ A0 rfl rfl 0 rfl (ix2 c q) hi (by show 0 + q.val = 64 * 0 + q.val; omega)
  | 1, _ => exact concatenate_apply_piece (α := EReal) (t := ⟨2, ![64, 256]⟩) (1 : Fin 2) [⟨⟨2, ![64, 64]⟩, A0⟩, ⟨⟨2, ![64, 64]⟩, A1⟩, ⟨⟨2, ![64, 64]⟩, A2⟩, ⟨⟨2, ![64, 64]⟩, A3⟩] h (ix2 c ⟨64 * 1 + q.val, hq⟩) 1 (show 1 < 4 by decide) ⟨2, ![64, 64]⟩ A1 rfl rfl 64 rfl (ix2 c q) hi (by show 64 + q.val = 64 * 1 + q.val; omega)
  | 2, _ => exact concatenate_apply_piece (α := EReal) (t := ⟨2, ![64, 256]⟩) (1 : Fin 2) [⟨⟨2, ![64, 64]⟩, A0⟩, ⟨⟨2, ![64, 64]⟩, A1⟩, ⟨⟨2, ![64, 64]⟩, A2⟩, ⟨⟨2, ![64, 64]⟩, A3⟩] h (ix2 c ⟨64 * 2 + q.val, hq⟩) 2 (show 2 < 4 by decide) ⟨2, ![64, 64]⟩ A2 rfl rfl 128 rfl (ix2 c q) hi (by show 128 + q.val = 64 * 2 + q.val; omega)
  | 3, _ => exact concatenate_apply_piece (α := EReal) (t := ⟨2, ![64, 256]⟩) (1 : Fin 2) [⟨⟨2, ![64, 64]⟩, A0⟩, ⟨⟨2, ![64, 64]⟩, A1⟩, ⟨⟨2, ![64, 64]⟩, A2⟩, ⟨⟨2, ![64, 64]⟩, A3⟩] h (ix2 c ⟨64 * 3 + q.val, hq⟩) 3 (show 3 < 4 by decide) ⟨2, ![64, 64]⟩ A3 rfl rfl 192 rfl (ix2 c q) hi (by show 192 + q.val = 64 * 3 + q.val; omega)

/-- Four vectors of 64 end to end, then placed as the one row of a matrix: entry `pre + q` is entry `q` of the piece that
    starts at `pre`. -/
theorem cat4_row_apply (a0 a1 a2 a3 : FVec Ideal ⟨1, ![64]⟩ .f32)
    (h : Shape.Concatenates [⟨1, ![64]⟩, ⟨1, ![64]⟩, ⟨1, ![64]⟩, ⟨1, ![64]⟩] ⟨1, ![256]⟩ 0)
    (hs : (⟨1, ![256]⟩ : Shape).ShapeCasts ⟨2, ![1, 256]⟩)
    (k : ℕ) (hk : k < 4) (q : Fin 64) (hq : 64 * k + q.val < 256) :
    shapeCast ⟨2, ![1, 256]⟩ (concatenate ⟨1, ![256]⟩ 0 [⟨⟨1, ![64]⟩, a0⟩, ⟨⟨1, ![64]⟩, a1⟩, ⟨⟨1, ![64]⟩, a2⟩, ⟨⟨1, ![64]⟩, a3⟩] h) hs
        (ix2 (0 : Fin 1) ⟨64 * k + q.val, hq⟩)
      = ([a0, a1, a2, a3][k]'hk) (ix1 q) := by
  rw [shapeCast_a_1a_apply]
  have hi : ∀ b : Fin 1, b.cast rfl ≠ (0 : Fin 1) → ((ix1 q : (⟨1, ![64]⟩ : Shape).Idx) b).val
      = ((ix1 ⟨64 * k + q.val, hq⟩ : (⟨1, ![256]⟩ : Shape).Idx) (b.cast rfl)).val := fun b hb => by
    match b with
    | ⟨0, _⟩ => exact absurd rfl hb
  match k, hk with
  | 0, _ => exact concatenate_apply_piece (α := EReal) (t := ⟨1, ![256]⟩) (0 : Fin 1) [⟨⟨1, ![64]⟩, a0⟩, ⟨⟨1, ![64]⟩, a1⟩, ⟨⟨1, ![64]⟩, a2⟩, ⟨⟨1, ![64]⟩, a3⟩] h (ix1 ⟨64 * 0 + q.val, hq⟩) 0 (show 0 < 4 by decide) ⟨1, ![64]⟩ a0 rfl rfl 0 rfl (ix1 q) hi (by show 0 + q.val = 64 * 0 + q.val; omega)
  | 1, _ => exact concatenate_apply_piece (α := EReal) (t := ⟨1, ![256]⟩) (0 : Fin 1) [⟨⟨1, ![64]⟩, a0⟩, ⟨⟨1, ![64]⟩, a1⟩, ⟨⟨1, ![64]⟩, a2⟩, ⟨⟨1, ![64]⟩, a3⟩] h (ix1 ⟨64 * 1 + q.val, hq⟩) 1 (show 1 < 4 by decide) ⟨1, ![64]⟩ a1 rfl rfl 64 rfl (ix1 q) hi (by show 64 + q.val = 64 * 1 + q.val; omega)
  | 2, _ => exact concatenate_apply_piece (α := EReal) (t := ⟨1, ![256]⟩) (0 : Fin 1) [⟨⟨1, ![64]⟩, a0⟩, ⟨⟨1, ![64]⟩, a1⟩, ⟨⟨1, ![64]⟩, a2⟩, ⟨⟨1, ![64]⟩, a3⟩] h (ix1 ⟨64 * 2 + q.val, hq⟩) 2 (show 2 < 4 by decide) ⟨1, ![64]⟩ a2 rfl rfl 128 rfl (ix1 q) hi (by show 128 + q.val = 64 * 2 + q.val; omega)
  | 3, _ => exact concatenate_apply_piece (α := EReal) (t := ⟨1, ![256]⟩) (0 : Fin 1) [⟨⟨1, ![64]⟩, a0⟩, ⟨⟨1, ![64]⟩, a1⟩, ⟨⟨1, ![64]⟩, a2⟩, ⟨⟨1, ![64]⟩, a3⟩] h (ix1 ⟨64 * 3 + q.val, hq⟩) 3 (show 3 < 4 by decide) ⟨1, ![64]⟩ a3 rfl rfl 192 rfl (ix1 q) hi (by show 192 + q.val = 64 * 3 + q.val; omega)

end Cert.Bridge

end
-- ==== Proof.BR.Embed.lean ====
import proofs.«142356_j74423193305351_1_alg».proof.Proof.Gen.KernelIdeal.Launch
import proofs.«142356_j74423193305351_1_alg».proof.Proof.KI.V0
import proofs.«142356_j74423193305351_1_alg».proof.Proof.KI.V1
import proofs.«142356_j74423193305351_1_alg».proof.Proof.RI.Ops0
import proofs.«142356_j74423193305351_1_alg».proof.Proof.BR.LinVal
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo

/-! # The two embeddings: the kernel's first two regions against the reference's first chunk -/

/-! ## The values, over any arrays -/

/-- The node embedding with its bias vector reshaped to one row is the host's product plus the bias copied over the
    rows. -/
theorem embH_val (x : Vec Ideal Cert.KernelIdeal.S32768x6 .f32) (W : Vec Ideal Cert.KernelIdeal.S6x64 .f32)
    (b : Vec Ideal Cert.KernelIdeal.S64 .f32) :
    Cert.KernelIdeal.Hand.G0_3 x W (shapeCast Cert.KernelIdeal.S1x64 b Cert.KernelIdeal.Gen.shapeCasts_S64_S1x64)
      = addf (F := Ideal) (Host.dotGeneral (F := Ideal) (φ₁ := .f32) (φ₂ := .f32) Cert.ReferenceIdeal.dot_S32768x6_S6x64_S32768x64_1_0_0_1_n_n none x W)
          (broadcastInDim Cert.ReferenceIdeal.S32768x64 ![0, 1] Cert.ReferenceIdeal.Gen.bcast_S1x64_S32768x64_0_1
            (broadcastInDim Cert.ReferenceIdeal.S1x64 ![1] Cert.ReferenceIdeal.Gen.bcast_S64_S1x64_1 b)) := by
  funext i
  obtain ⟨p, q, rfl⟩ : ∃ (p : Fin 32768) (q : Fin 64), i = ix2 p q := ⟨i 0, i 1, eq_ix2 i⟩
  rw [dot_bias_apply Cert.ReferenceIdeal.dot_S32768x6_S6x64_S32768x64_1_0_0_1_n_n rfl]
  show (∑ k : Fin 6, x (ix2 p k) * W (ix2 k q)) + shapeCast _ b _ (ix2 (0 : Fin 1) q) = _
  rw [shapeCast_a_1a_apply]

/-- The edge embedding likewise, the host's quotient of 1.0 by the features in the place of x. -/
theorem embE_val (x : Vec Ideal Cert.KernelIdeal.S524288x2 .f32) (W : Vec Ideal Cert.KernelIdeal.S2x64 .f32)
    (b : Vec Ideal Cert.KernelIdeal.S64 .f32) :
    Cert.KernelIdeal.Hand.G1_3 x W (shapeCast Cert.KernelIdeal.S1x64 b Cert.KernelIdeal.Gen.shapeCasts_S64_S1x64)
      = addf (F := Ideal) (Host.dotGeneral (F := Ideal) (φ₁ := .f32) (φ₂ := .f32) Cert.ReferenceIdeal.dot_S524288x2_S2x64_S524288x64_1_0_0_1_n_n none
            (Host.divf (F := Ideal) (φ := .f32) (broadcastInDim Cert.ReferenceIdeal.S524288x2 ![] Cert.ReferenceIdeal.Gen.bcast_S_S524288x2
              (constant (F := Ideal) Cert.ReferenceIdeal.S_ .f32 0x3F800000#32)) x) W)
          (broadcastInDim Cert.ReferenceIdeal.S524288x64 ![0, 1] Cert.ReferenceIdeal.Gen.bcast_S1x64_S524288x64_0_1
            (broadcastInDim Cert.ReferenceIdeal.S1x64 ![1] Cert.ReferenceIdeal.Gen.bcast_S64_S1x64_1 b)) := by
  funext i
  obtain ⟨p, q, rfl⟩ : ∃ (p : Fin 524288) (q : Fin 64), i = ix2 p q := ⟨i 0, i 1, eq_ix2 i⟩
  rw [dot_bias_apply Cert.ReferenceIdeal.dot_S524288x2_S2x64_S524288x64_1_0_0_1_n_n rfl]
  show (∑ k : Fin 2, Ideal.div (Ideal.ofBits .f32 0x3F800000#32) (x (ix2 p k)) * W (ix2 k q)) + shapeCast _ b _ (ix2 (0 : Fin 1) q) = _
  rw [shapeCast_a_1a_apply]
  rfl

/-! ## The step lemmas, over any two valuations that agree on the arguments read -/

/-- Region 0's array, from the valuation in which the bias has been reshaped, is the reference's h. -/
theorem embH (Wk : Valuation Cert.KernelIdeal.τ Cert.KernelIdeal.sig (Elt Ideal))
    (Qr : Valuation Cert.ReferenceIdeal.τ Cert.ReferenceIdeal.sig (Elt Ideal))
    (h0 : Wk (Proc.devRef .tc Cert.KernelIdeal.main_arg0) = Qr (Proc.devRef .tc Cert.ReferenceIdeal.main_arg0))
    (h7 : Wk (Proc.devRef .tc Cert.KernelIdeal.main_arg7) = Qr (Proc.devRef .tc Cert.ReferenceIdeal.main_arg7))
    (h8 : Wk (Proc.devRef .tc Cert.KernelIdeal.main_arg8) = Qr (Proc.devRef .tc Cert.ReferenceIdeal.main_arg8)) :
    Cert.KernelIdeal.Hand.G0_3 (StableHlo.after (Cert.KernelIdeal.Gen.hostOps0 (F := Ideal)) Wk (Proc.devRef .tc Cert.KernelIdeal.main_arg0))
        (StableHlo.after (Cert.KernelIdeal.Gen.hostOps0 (F := Ideal)) Wk (Proc.devRef .tc Cert.KernelIdeal.main_arg7))
        (StableHlo.after (Cert.KernelIdeal.Gen.hostOps0 (F := Ideal)) Wk (Proc.devRef .tc Cert.KernelIdeal.main_v0))
      = StableHlo.after (Cert.ReferenceIdeal.Hand.rops0 (F := Ideal)) Qr (Proc.devRef .tc Cert.ReferenceIdeal.main_v5) := by
  have e0 : StableHlo.after (Cert.KernelIdeal.Gen.hostOps0 (F := Ideal)) Wk (Proc.devRef .tc Cert.KernelIdeal.main_arg0)
      = Wk (Proc.devRef .tc Cert.KernelIdeal.main_arg0) := by after_results
  have e7 : StableHlo.after (Cert.KernelIdeal.Gen.hostOps0 (F := Ideal)) Wk (Proc.devRef .tc Cert.KernelIdeal.main_arg7)
      = Wk (Proc.devRef .tc Cert.KernelIdeal.main_arg7) := by after_results
  have e8 : (StableHlo.after (Cert.KernelIdeal.Gen.hostOps0 (F := Ideal)) Wk (Proc.devRef .tc Cert.KernelIdeal.main_v0) : Vec Ideal Cert.KernelIdeal.S1x64 .f32)
      = shapeCast Cert.KernelIdeal.S1x64 (Wk (Proc.devRef .tc Cert.KernelIdeal.main_arg8)) Cert.KernelIdeal.Gen.shapeCasts_S64_S1x64 := by
    after_results; rfl
  have er : (StableHlo.after (Cert.ReferenceIdeal.Hand.rops0 (F := Ideal)) Qr (Proc.devRef .tc Cert.ReferenceIdeal.main_v5) : Vec Ideal Cert.ReferenceIdeal.S32768x64 .f32)
      = addf (F := Ideal) (Host.dotGeneral (F := Ideal) (φ₁ := .f32) (φ₂ := .f32) Cert.ReferenceIdeal.dot_S32768x6_S6x64_S32768x64_1_0_0_1_n_n none
            (Qr (Proc.devRef .tc Cert.ReferenceIdeal.main_arg0)) (Qr (Proc.devRef .tc Cert.ReferenceIdeal.main_arg7)))
          (broadcastInDim Cert.ReferenceIdeal.S32768x64 ![0, 1] Cert.ReferenceIdeal.Gen.bcast_S1x64_S32768x64_0_1
            (broadcastInDim Cert.ReferenceIdeal.S1x64 ![1] Cert.ReferenceIdeal.Gen.bcast_S64_S1x64_1
              (Qr (Proc.devRef .tc Cert.ReferenceIdeal.main_arg8)))) := by after_results
  rw [e0, e7, e8, er, h0, h7, h8]
  exact embH_val _ _ _

/-- Region 1's array likewise is the reference's e. -/
theorem embE (Wk : Valuation Cert.KernelIdeal.τ Cert.KernelIdeal.sig (Elt Ideal))
    (Qr : Valuation Cert.ReferenceIdeal.τ Cert.ReferenceIdeal.sig (Elt Ideal))
    (h1 : Wk (Proc.devRef .tc Cert.KernelIdeal.main_arg1) = Qr (Proc.devRef .tc Cert.ReferenceIdeal.main_arg1))
    (h9 : Wk (Proc.devRef .tc Cert.KernelIdeal.main_arg9) = Qr (Proc.devRef .tc Cert.ReferenceIdeal.main_arg9))
    (h10 : Wk (Proc.devRef .tc Cert.KernelIdeal.main_arg10) = Qr (Proc.devRef .tc Cert.ReferenceIdeal.main_arg10)) :
    Cert.KernelIdeal.Hand.G1_3 (StableHlo.after (Cert.KernelIdeal.Gen.hostOps1 (F := Ideal)) Wk (Proc.devRef .tc Cert.KernelIdeal.main_arg1))
        (StableHlo.after (Cert.KernelIdeal.Gen.hostOps1 (F := Ideal)) Wk (Proc.devRef .tc Cert.KernelIdeal.main_arg9))
        (StableHlo.after (Cert.KernelIdeal.Gen.hostOps1 (F := Ideal)) Wk (Proc.devRef .tc Cert.KernelIdeal.main_v2))
      = StableHlo.after (Cert.ReferenceIdeal.Hand.rops0 (F := Ideal)) Qr (Proc.devRef .tc Cert.ReferenceIdeal.main_v9) := by
  have e1 : StableHlo.after (Cert.KernelIdeal.Gen.hostOps1 (F := Ideal)) Wk (Proc.devRef .tc Cert.KernelIdeal.main_arg1)
      = Wk (Proc.devRef .tc Cert.KernelIdeal.main_arg1) := by after_results
  have e9 : StableHlo.after (Cert.KernelIdeal.Gen.hostOps1 (F := Ideal)) Wk (Proc.devRef .tc Cert.KernelIdeal.main_arg9)
      = Wk (Proc.devRef .tc Cert.KernelIdeal.main_arg9) := by after_results
  have e10 : (StableHlo.after (Cert.KernelIdeal.Gen.hostOps1 (F := Ideal)) Wk (Proc.devRef .tc Cert.KernelIdeal.main_v2) : Vec Ideal Cert.KernelIdeal.S1x64 .f32)
      = shapeCast Cert.KernelIdeal.S1x64 (Wk (Proc.devRef .tc Cert.KernelIdeal.main_arg10)) Cert.KernelIdeal.Gen.shapeCasts_S64_S1x64 := by
    after_results; rfl
  have er : (StableHlo.after (Cert.ReferenceIdeal.Hand.rops0 (F := Ideal)) Qr (Proc.devRef .tc Cert.ReferenceIdeal.main_v9) : Vec Ideal Cert.ReferenceIdeal.S524288x64 .f32)
      = addf (F := Ideal) (Host.dotGeneral (F := Ideal) (φ₁ := .f32) (φ₂ := .f32) Cert.ReferenceIdeal.dot_S524288x2_S2x64_S524288x64_1_0_0_1_n_n none
            (Host.divf (F := Ideal) (φ := .f32) (broadcastInDim Cert.ReferenceIdeal.S524288x2 ![] Cert.ReferenceIdeal.Gen.bcast_S_S524288x2
              (constant (F := Ideal) Cert.ReferenceIdeal.S_ .f32 0x3F800000#32)) (Qr (Proc.devRef .tc Cert.ReferenceIdeal.main_arg1)))
            (Qr (Proc.devRef .tc Cert.ReferenceIdeal.main_arg9)))
          (broadcastInDim Cert.ReferenceIdeal.S524288x64 ![0, 1] Cert.ReferenceIdeal.Gen.bcast_S1x64_S524288x64_0_1
            (broadcastInDim Cert.ReferenceIdeal.S1x64 ![1] Cert.ReferenceIdeal.Gen.bcast_S64_S1x64_1
              (Qr (Proc.devRef .tc Cert.ReferenceIdeal.main_arg10)))) := by after_results
  rw [e1, e9, e10, er, h1, h9, h10]
  exact embE_val _ _ _

end Cert.Bridge

end
-- ==== Proof.BR.LinCat.lean ====
import proofs.«142356_j74423193305351_1_alg».proof.Proof.Gen.KernelIdeal.Launch
import proofs.«142356_j74423193305351_1_alg».proof.Proof.Gen.ReferenceIdeal
import proofs.«142356_j74423193305351_1_alg».proof.Proof.BR.LinVal

noncomputable section

namespace Cert.Bridge

open Idealize.ShloMosaic Idealize.ShloMosaic.ValueIdx

/-! # One product into four column blocks against four products: the values, over any arrays -/

/-- Four 64×64 matrices side by side, as the host concatenates them. -/
abbrev cat4 (A B D E : Vec Ideal Cert.KernelIdeal.S64x64 .f32) : Vec Ideal Cert.KernelIdeal.S64x256 .f32 :=
  concatenate Cert.KernelIdeal.S64x256 1 [⟨Cert.KernelIdeal.S64x64, A⟩, ⟨Cert.KernelIdeal.S64x64, B⟩, ⟨Cert.KernelIdeal.S64x64, D⟩, ⟨Cert.KernelIdeal.S64x64, E⟩]
    Cert.KernelIdeal.Gen.concatenates_S64x64_S64x64_S64x64_S64x64_S64x256_d1

/-- Four vectors of 64 end to end, reshaped to one row, as the host does it. -/
abbrev row4 (a b d e : Vec Ideal Cert.KernelIdeal.S64 .f32) : Vec Ideal Cert.KernelIdeal.S1x256 .f32 :=
  shapeCast Cert.KernelIdeal.S1x256 (concatenate Cert.KernelIdeal.S256 0 [⟨Cert.KernelIdeal.S64, a⟩, ⟨Cert.KernelIdeal.S64, b⟩, ⟨Cert.KernelIdeal.S64, d⟩, ⟨Cert.KernelIdeal.S64, e⟩]
    Cert.KernelIdeal.Gen.concatenates_S64_S64_S64_S64_S256_d0) Cert.KernelIdeal.Gen.shapeCasts_S256_S1x256

/-- The reference's spelling of one linear map of h: the host's product plus the bias copied over the rows. -/
abbrev refLin (x : Vec Ideal Cert.ReferenceIdeal.S32768x64 .f32) (P : Vec Ideal Cert.ReferenceIdeal.S64x64 .f32) (p : Vec Ideal Cert.ReferenceIdeal.S64 .f32) :
    Vec Ideal Cert.ReferenceIdeal.S32768x64 .f32 :=
  addf (F := Ideal) (Host.dotGeneral (F := Ideal) (φ₁ := .f32) (φ₂ := .f32) Cert.ReferenceIdeal.dot_S32768x64_S64x64_S32768x64_1_0_0_1_n_n none x P)
    (broadcastInDim Cert.ReferenceIdeal.S32768x64 ![0, 1] Cert.ReferenceIdeal.Gen.bcast_S1x64_S32768x64_0_1
      (broadcastInDim Cert.ReferenceIdeal.S1x64 ![1] Cert.ReferenceIdeal.Gen.bcast_S64_S1x64_1 p))

/-- Layer `l` of a stack of three 64×64 matrices, as the host slices and reshapes it (the same operations in both
    programs: carried as one function). -/
abbrev wsl0 (w : Vec Ideal Cert.KernelIdeal.S3x64x64 .f32) : Vec Ideal Cert.KernelIdeal.S64x64 .f32 :=
  shapeCast Cert.KernelIdeal.S64x64 (extractStridedSlice Cert.KernelIdeal.S1x64x64 ![0, 0, 0] w Cert.KernelIdeal.Gen.slices_S3x64x64_S1x64x64_0_0_0) Cert.KernelIdeal.Gen.shapeCasts_S1x64x64_S64x64
abbrev wsl1 (w : Vec Ideal Cert.KernelIdeal.S3x64x64 .f32) : Vec Ideal Cert.KernelIdeal.S64x64 .f32 :=
  shapeCast Cert.KernelIdeal.S64x64 (extractStridedSlice Cert.KernelIdeal.S1x64x64 ![1, 0, 0] w Cert.KernelIdeal.Gen.slices_S3x64x64_S1x64x64_1_0_0) Cert.KernelIdeal.Gen.shapeCasts_S1x64x64_S64x64
abbrev wsl2 (w : Vec Ideal Cert.KernelIdeal.S3x64x64 .f32) : Vec Ideal Cert.KernelIdeal.S64x64 .f32 :=
  shapeCast Cert.KernelIdeal.S64x64 (extractStridedSlice Cert.KernelIdeal.S1x64x64 ![2, 0, 0] w Cert.KernelIdeal.Gen.slices_S3x64x64_S1x64x64_2_0_0) Cert.KernelIdeal.Gen.shapeCasts_S1x64x64_S64x64
/-- Layer `l` of a stack of three bias vectors, likewise. -/
abbrev bsl0 (b : Vec Ideal Cert.KernelIdeal.S3x64 .f32) : Vec Ideal Cert.KernelIdeal.S64 .f32 :=
  shapeCast Cert.KernelIdeal.S64 (extractStridedSlice Cert.KernelIdeal.S1x64 ![0, 0] b Cert.KernelIdeal.Gen.slices_S3x64_S1x64_0_0) Cert.KernelIdeal.Gen.shapeCasts_S1x64_S64
abbrev bsl1 (b : Vec Ideal Cert.KernelIdeal.S3x64 .f32) : Vec Ideal Cert.KernelIdeal.S64 .f32 :=
  shapeCast Cert.KernelIdeal.S64 (extractStridedSlice Cert.KernelIdeal.S1x64 ![1, 0] b Cert.KernelIdeal.Gen.slices_S3x64_S1x64_1_0) Cert.KernelIdeal.Gen.shapeCasts_S1x64_S64
abbrev bsl2 (b : Vec Ideal Cert.KernelIdeal.S3x64 .f32) : Vec Ideal Cert.KernelIdeal.S64 .f32 :=
  shapeCast Cert.KernelIdeal.S64 (extractStridedSlice Cert.KernelIdeal.S1x64 ![2, 0] b Cert.KernelIdeal.Gen.slices_S3x64_S1x64_2_0) Cert.KernelIdeal.Gen.shapeCasts_S1x64_S64

/-- Column `o + q` of the four matrices side by side, `o` the start of piece `k`. -/
theorem cat4_at (A B D E : Vec Ideal Cert.KernelIdeal.S64x64 .f32) (k : ℕ) (hk : k < 4) (o : ℕ) (ho : o = 64 * k)
    (c q : Fin 64) (hq : o + q.val < 256) :
    cat4 A B D E (ix2 c ⟨o + q.val, hq⟩) = ([A, B, D, E][k]'hk) (ix2 c q) := by
  subst ho
  exact cat4_cols_apply A B D E _ k hk c q hq

/-- Entry `o + q` of the one row of the four vectors end to end. -/
theorem row4_at (a b d e : Vec Ideal Cert.KernelIdeal.S64 .f32) (k : ℕ) (hk : k < 4) (o : ℕ) (ho : o = 64 * k)
    (q : Fin 64) (hq : o + q.val < 256) :
    row4 a b d e (ix2 (0 : Fin 1) ⟨o + q.val, hq⟩) = ([a, b, d, e][k]'hk) (ix1 q) := by
  subst ho
  exact cat4_row_apply a b d e _ _ k hk q hq

/-- The linear layer into 256 columns whose weight is [A | B | D | E] and whose bias is [a | b | d | e]: its four blocks
    of 64 columns are the four products of x with A, B, D, E, each plus its own bias. -/
theorem linear_val (x : Vec Ideal Cert.KernelIdeal.S32768x64 .f32) (A B D E : Vec Ideal Cert.KernelIdeal.S64x64 .f32) (a b d e : Vec Ideal Cert.KernelIdeal.S64 .f32) :
    extractStridedSlice Cert.KernelIdeal.S32768x64 ![0, 0] (lin x (cat4 A B D E) (row4 a b d e)) Cert.KernelIdeal.Gen.slices_S32768x256_S32768x64_0_0 = refLin x A a
    ∧ extractStridedSlice Cert.KernelIdeal.S32768x64 ![0, 64] (lin x (cat4 A B D E) (row4 a b d e)) Cert.KernelIdeal.Gen.slices_S32768x256_S32768x64_0_64 = refLin x B b
    ∧ extractStridedSlice Cert.KernelIdeal.S32768x64 ![0, 128] (lin x (cat4 A B D E) (row4 a b d e)) Cert.KernelIdeal.Gen.slices_S32768x256_S32768x64_0_128 = refLin x D d
    ∧ extractStridedSlice Cert.KernelIdeal.S32768x64 ![0, 192] (lin x (cat4 A B D E) (row4 a b d e)) Cert.KernelIdeal.Gen.slices_S32768x256_S32768x64_0_192 = refLin x E e :=
  ⟨lin_cols_slice 0 x _ _ A a Cert.ReferenceIdeal.dot_S32768x64_S64x64_S32768x64_1_0_0_1_n_n rfl _ _ _
      (fun c q hq => cat4_at A B D E 0 (by decide) 0 rfl c q hq) (fun q hq => row4_at a b d e 0 (by decide) 0 rfl q hq),
   lin_cols_slice 64 x _ _ B b Cert.ReferenceIdeal.dot_S32768x64_S64x64_S32768x64_1_0_0_1_n_n rfl _ _ _
      (fun c q hq => cat4_at A B D E 1 (by decide) 64 rfl c q hq) (fun q hq => row4_at a b d e 1 (by decide) 64 rfl q hq),
   lin_cols_slice 128 x _ _ D d Cert.ReferenceIdeal.dot_S32768x64_S64x64_S32768x64_1_0_0_1_n_n rfl _ _ _
      (fun c q hq => cat4_at A B D E 2 (by decide) 128 rfl c q hq) (fun q hq => row4_at a b d e 2 (by decide) 128 rfl q hq),
   lin_cols_slice 192 x _ _ E e Cert.ReferenceIdeal.dot_S32768x64_S64x64_S32768x64_1_0_0_1_n_n rfl _ _ _
      (fun c q hq => cat4_at A B D E 3 (by decide) 192 rfl c q hq) (fun q hq => row4_at a b d e 3 (by decide) 192 rfl q hq)⟩

end Cert.Bridge

end
-- ==== Proof.BR.Linear0.lean ====
import proofs.«142356_j74423193305351_1_alg».proof.Proof.Gen.KernelIdeal.Launch
import proofs.«142356_j74423193305351_1_alg».proof.Proof.KI.V2
import proofs.«142356_j74423193305351_1_alg».proof.Proof.RI.Ops0
import proofs.«142356_j74423193305351_1_alg».proof.Proof.BR.LinCat
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo

/-! # Layer 0's linear maps: one product into 256 columns, cut into four, against the reference's four products -/

/-! ## What the region finds: h untouched, the four weights side by side, the four biases end to end as one row -/

theorem linear0_kx (Wk : Valuation Cert.KernelIdeal.τ Cert.KernelIdeal.sig (Elt Ideal)) :
    StableHlo.after (Cert.KernelIdeal.Gen.hostOps2 (F := Ideal)) Wk (Proc.devRef .tc Cert.KernelIdeal.main_v1) = Wk (Proc.devRef .tc Cert.KernelIdeal.main_v1) := by after_results
theorem linear0_kW (Wk : Valuation Cert.KernelIdeal.τ Cert.KernelIdeal.sig (Elt Ideal)) :
    (StableHlo.after (Cert.KernelIdeal.Gen.hostOps2 (F := Ideal)) Wk (Proc.devRef .tc Cert.KernelIdeal.main_v12) : Vec Ideal Cert.KernelIdeal.S64x256 .f32)
      = cat4 (wsl0 (Wk (Proc.devRef .tc Cert.KernelIdeal.main_arg11))) (wsl0 (Wk (Proc.devRef .tc Cert.KernelIdeal.main_arg13))) (wsl0 (Wk (Proc.devRef .tc Cert.KernelIdeal.main_arg17))) (wsl0 (Wk (Proc.devRef .tc Cert.KernelIdeal.main_arg19))) := by
  after_results; rfl
theorem linear0_kb (Wk : Valuation Cert.KernelIdeal.τ Cert.KernelIdeal.sig (Elt Ideal)) :
    (StableHlo.after (Cert.KernelIdeal.Gen.hostOps2 (F := Ideal)) Wk (Proc.devRef .tc Cert.KernelIdeal.main_v22) : Vec Ideal Cert.KernelIdeal.S1x256 .f32)
      = row4 (bsl0 (Wk (Proc.devRef .tc Cert.KernelIdeal.main_arg12))) (bsl0 (Wk (Proc.devRef .tc Cert.KernelIdeal.main_arg14))) (bsl0 (Wk (Proc.devRef .tc Cert.KernelIdeal.main_arg18))) (bsl0 (Wk (Proc.devRef .tc Cert.KernelIdeal.main_arg20))) := by
  after_results; rfl

/-! ## The reference's four products read back -/

/-- The reference's A h: the product of h with layer 0 of A's weights plus layer 0 of its bias. -/
theorem linear0_rA (Qr : Valuation Cert.ReferenceIdeal.τ Cert.ReferenceIdeal.sig (Elt Ideal)) :
    (StableHlo.after (Cert.ReferenceIdeal.Hand.rops1 (F := Ideal)) Qr (Proc.devRef .tc Cert.ReferenceIdeal.main_v17) : Vec Ideal Cert.ReferenceIdeal.S32768x64 .f32)
      = refLin (Qr (Proc.devRef .tc Cert.ReferenceIdeal.main_v5)) (wsl0 (Qr (Proc.devRef .tc Cert.ReferenceIdeal.main_arg11))) (bsl0 (Qr (Proc.devRef .tc Cert.ReferenceIdeal.main_arg12))) := by
  after_results_simp; rfl
/-- The reference's B h: the product of h with layer 0 of B's weights plus layer 0 of its bias. -/
theorem linear0_rB (Qr : Valuation Cert.ReferenceIdeal.τ Cert.ReferenceIdeal.sig (Elt Ideal)) :
    (StableHlo.after (Cert.ReferenceIdeal.Hand.rops1 (F := Ideal)) Qr (Proc.devRef .tc Cert.ReferenceIdeal.main_v25) : Vec Ideal Cert.ReferenceIdeal.S32768x64 .f32)
      = refLin (Qr (Proc.devRef .tc Cert.ReferenceIdeal.main_v5)) (wsl0 (Qr (Proc.devRef .tc Cert.ReferenceIdeal.main_arg13))) (bsl0 (Qr (Proc.devRef .tc Cert.ReferenceIdeal.main_arg14))) := by
  after_results_simp; rfl
/-- The reference's D h: the product of h with layer 0 of D's weights plus layer 0 of its bias. -/
theorem linear0_rD (Qr : Valuation Cert.ReferenceIdeal.τ Cert.ReferenceIdeal.sig (Elt Ideal)) :
    (StableHlo.after (Cert.ReferenceIdeal.Hand.rops1 (F := Ideal)) Qr (Proc.devRef .tc Cert.ReferenceIdeal.main_v33) : Vec Ideal Cert.ReferenceIdeal.S32768x64 .f32)
      = refLin (Qr (Proc.devRef .tc Cert.ReferenceIdeal.main_v5)) (wsl0 (Qr (Proc.devRef .tc Cert.ReferenceIdeal.main_arg17))) (bsl0 (Qr (Proc.devRef .tc Cert.ReferenceIdeal.main_arg18))) := by
  after_results_simp; rfl
/-- The reference's E h: the product of h with layer 0 of E's weights plus layer 0 of its bias. -/
theorem linear0_rE (Qr : Valuation Cert.ReferenceIdeal.τ Cert.ReferenceIdeal.sig (Elt Ideal)) :
    (StableHlo.after (Cert.ReferenceIdeal.Hand.rops1 (F := Ideal)) Qr (Proc.devRef .tc Cert.ReferenceIdeal.main_v41) : Vec Ideal Cert.ReferenceIdeal.S32768x64 .f32)
      = refLin (Qr (Proc.devRef .tc Cert.ReferenceIdeal.main_v5)) (wsl0 (Qr (Proc.devRef .tc Cert.ReferenceIdeal.main_arg19))) (bsl0 (Qr (Proc.devRef .tc Cert.ReferenceIdeal.main_arg20))) := by
  after_results_simp; rfl

/-! ## The step -/

/-- The four blocks of 64 columns of the region's array, from the valuation in which the weights and biases have been
    put side by side, are the reference's A h, B h, D h, E h. -/
theorem linear0 (Wk : Valuation Cert.KernelIdeal.τ Cert.KernelIdeal.sig (Elt Ideal)) (Qr : Valuation Cert.ReferenceIdeal.τ Cert.ReferenceIdeal.sig (Elt Ideal))
    (hh : Wk (Proc.devRef .tc Cert.KernelIdeal.main_v1) = Qr (Proc.devRef .tc Cert.ReferenceIdeal.main_v5))
    (h11 : Wk (Proc.devRef .tc Cert.KernelIdeal.main_arg11) = Qr (Proc.devRef .tc Cert.ReferenceIdeal.main_arg11))
    (h12 : Wk (Proc.devRef .tc Cert.KernelIdeal.main_arg12) = Qr (Proc.devRef .tc Cert.ReferenceIdeal.main_arg12))
    (h13 : Wk (Proc.devRef .tc Cert.KernelIdeal.main_arg13) = Qr (Proc.devRef .tc Cert.ReferenceIdeal.main_arg13))
    (h14 : Wk (Proc.devRef .tc Cert.KernelIdeal.main_arg14) = Qr (Proc.devRef .tc Cert.ReferenceIdeal.main_arg14))
    (h17 : Wk (Proc.devRef .tc Cert.KernelIdeal.main_arg17) = Qr (Proc.devRef .tc Cert.ReferenceIdeal.main_arg17))
    (h18 : Wk (Proc.devRef .tc Cert.KernelIdeal.main_arg18) = Qr (Proc.devRef .tc Cert.ReferenceIdeal.main_arg18))
    (h19 : Wk (Proc.devRef .tc Cert.KernelIdeal.main_arg19) = Qr (Proc.devRef .tc Cert.ReferenceIdeal.main_arg19))
    (h20 : Wk (Proc.devRef .tc Cert.KernelIdeal.main_arg20) = Qr (Proc.devRef .tc Cert.ReferenceIdeal.main_arg20)) :
    extractStridedSlice Cert.KernelIdeal.S32768x64 ![0, 0] (Cert.KernelIdeal.Hand.G2_3 (StableHlo.after (Cert.KernelIdeal.Gen.hostOps2 (F := Ideal)) Wk (Proc.devRef .tc Cert.KernelIdeal.main_v1))
        (StableHlo.after (Cert.KernelIdeal.Gen.hostOps2 (F := Ideal)) Wk (Proc.devRef .tc Cert.KernelIdeal.main_v12))
        (StableHlo.after (Cert.KernelIdeal.Gen.hostOps2 (F := Ideal)) Wk (Proc.devRef .tc Cert.KernelIdeal.main_v22))) Cert.KernelIdeal.Gen.slices_S32768x256_S32768x64_0_0
        = StableHlo.after (Cert.ReferenceIdeal.Hand.rops1 (F := Ideal)) Qr (Proc.devRef .tc Cert.ReferenceIdeal.main_v17)
    ∧ extractStridedSlice Cert.KernelIdeal.S32768x64 ![0, 64] (Cert.KernelIdeal.Hand.G2_3 (StableHlo.after (Cert.KernelIdeal.Gen.hostOps2 (F := Ideal)) Wk (Proc.devRef .tc Cert.KernelIdeal.main_v1))
        (StableHlo.after (Cert.KernelIdeal.Gen.hostOps2 (F := Ideal)) Wk (Proc.devRef .tc Cert.KernelIdeal.main_v12))
        (StableHlo.after (Cert.KernelIdeal.Gen.hostOps2 (F := Ideal)) Wk (Proc.devRef .tc Cert.KernelIdeal.main_v22))) Cert.KernelIdeal.Gen.slices_S32768x256_S32768x64_0_64
        = StableHlo.after (Cert.ReferenceIdeal.Hand.rops1 (F := Ideal)) Qr (Proc.devRef .tc Cert.ReferenceIdeal.main_v25)
    ∧ extractStridedSlice Cert.KernelIdeal.S32768x64 ![0, 128] (Cert.KernelIdeal.Hand.G2_3 (StableHlo.after (Cert.KernelIdeal.Gen.hostOps2 (F := Ideal)) Wk (Proc.devRef .tc Cert.KernelIdeal.main_v1))
        (StableHlo.after (Cert.KernelIdeal.Gen.hostOps2 (F := Ideal)) Wk (Proc.devRef .tc Cert.KernelIdeal.main_v12))
        (StableHlo.after (Cert.KernelIdeal.Gen.hostOps2 (F := Ideal)) Wk (Proc.devRef .tc Cert.KernelIdeal.main_v22))) Cert.KernelIdeal.Gen.slices_S32768x256_S32768x64_0_128
        = StableHlo.after (Cert.ReferenceIdeal.Hand.rops1 (F := Ideal)) Qr (Proc.devRef .tc Cert.ReferenceIdeal.main_v33)
    ∧ extractStridedSlice Cert.KernelIdeal.S32768x64 ![0, 192] (Cert.KernelIdeal.Hand.G2_3 (StableHlo.after (Cert.KernelIdeal.Gen.hostOps2 (F := Ideal)) Wk (Proc.devRef .tc Cert.KernelIdeal.main_v1))
        (StableHlo.after (Cert.KernelIdeal.Gen.hostOps2 (F := Ideal)) Wk (Proc.devRef .tc Cert.KernelIdeal.main_v12))
        (StableHlo.after (Cert.KernelIdeal.Gen.hostOps2 (F := Ideal)) Wk (Proc.devRef .tc Cert.KernelIdeal.main_v22))) Cert.KernelIdeal.Gen.slices_S32768x256_S32768x64_0_192
        = StableHlo.after (Cert.ReferenceIdeal.Hand.rops1 (F := Ideal)) Qr (Proc.devRef .tc Cert.ReferenceIdeal.main_v41) := by
  rw [linear0_kx, linear0_kW, linear0_kb, linear0_rA, linear0_rB, linear0_rD, linear0_rE, hh, h11, h12, h13, h14, h17, h18, h19, h20]
  exact linear_val _ _ _ _ _ _ _ _ _

/-! ## The four cuts read back from the host stretch after the region -/

/-- The first block of 64 columns, as the host stretch after the region cuts it out. -/
theorem hostOps3_v24 (W : Valuation Cert.KernelIdeal.τ Cert.KernelIdeal.sig (Elt Ideal)) :
    (StableHlo.after (Cert.KernelIdeal.Gen.hostOps3 (F := Ideal)) W (Proc.devRef .tc Cert.KernelIdeal.main_v24) : Vec Ideal Cert.KernelIdeal.S32768x64 .f32)
      = extractStridedSlice Cert.KernelIdeal.S32768x64 ![0, 0] (W (Proc.devRef .tc Cert.KernelIdeal.main_v23)) Cert.KernelIdeal.Gen.slices_S32768x256_S32768x64_0_0 := by
  after_results_simp
/-- The second block of 64 columns, as the host stretch after the region cuts it out. -/
theorem hostOps3_v25 (W : Valuation Cert.KernelIdeal.τ Cert.KernelIdeal.sig (Elt Ideal)) :
    (StableHlo.after (Cert.KernelIdeal.Gen.hostOps3 (F := Ideal)) W (Proc.devRef .tc Cert.KernelIdeal.main_v25) : Vec Ideal Cert.KernelIdeal.S32768x64 .f32)
      = extractStridedSlice Cert.KernelIdeal.S32768x64 ![0, 64] (W (Proc.devRef .tc Cert.KernelIdeal.main_v23)) Cert.KernelIdeal.Gen.slices_S32768x256_S32768x64_0_64 := by
  after_results_simp
/-- The third block of 64 columns, as the host stretch after the region cuts it out. -/
theorem hostOps3_v26 (W : Valuation Cert.KernelIdeal.τ Cert.KernelIdeal.sig (Elt Ideal)) :
    (StableHlo.after (Cert.KernelIdeal.Gen.hostOps3 (F := Ideal)) W (Proc.devRef .tc Cert.KernelIdeal.main_v26) : Vec Ideal Cert.KernelIdeal.S32768x64 .f32)
      = extractStridedSlice Cert.KernelIdeal.S32768x64 ![0, 128] (W (Proc.devRef .tc Cert.KernelIdeal.main_v23)) Cert.KernelIdeal.Gen.slices_S32768x256_S32768x64_0_128 := by
  after_results_simp
/-- The fourth block of 64 columns, as the host stretch after the region cuts it out. -/
theorem hostOps3_v27 (W : Valuation Cert.KernelIdeal.τ Cert.KernelIdeal.sig (Elt Ideal)) :
    (StableHlo.after (Cert.KernelIdeal.Gen.hostOps3 (F := Ideal)) W (Proc.devRef .tc Cert.KernelIdeal.main_v27) : Vec Ideal Cert.KernelIdeal.S32768x64 .f32)
      = extractStridedSlice Cert.KernelIdeal.S32768x64 ![0, 192] (W (Proc.devRef .tc Cert.KernelIdeal.main_v23)) Cert.KernelIdeal.Gen.slices_S32768x256_S32768x64_0_192 := by
  after_results_simp

end Cert.Bridge

end
-- ==== Proof.BR.Edge0.lean ====
import proofs.«142356_j74423193305351_1_alg».proof.Proof.Gen.KernelIdeal.Launch
import proofs.«142356_j74423193305351_1_alg».proof.Proof.Gen.ReferenceIdeal
import proofs.«142356_j74423193305351_1_alg».proof.Proof.RI.Ops0
import proofs.«142356_j74423193305351_1_alg».proof.Proof.BR.EdgeMath
import Idealize.ShloMosaic.Lib.StableHlo.Run

/-! # The edge update of layer 0: the kernel's region 3 against the reference's chunks 1 and 2

Both programs normalise the edges' source and destination indices, gather the rows of the node arrays `Dh`, `Eh`, `Bh`
at them, and take layer 0's edge weight matrix and bias out of the stacks of three. The kernel then runs its region on
these arrays; the reference goes on with host operations. This file reads each side's operations back to the same
terms over the entry buffers — the gathers and the slices are the same functions of equal operands and are never
opened — and closes with the three equations of the edge update's arrays (pre-activation, gate, message). -/

noncomputable section

namespace Cert.Bridge

open Idealize.ShloMosaic Idealize.ShloMosaic.StableHlo Idealize.ShloMosaic.ValueIdx Idealize.SL.Sem

/-! ## The kernel's host stretch before the region, read back -/

section K
open Cert.KernelIdeal Cert.KernelIdeal.Gen
variable {F : FTy → Type} [FloatOps F]

/-- Layer 0's edge weight matrix, out of the stack of three. -/
def cwOf0 (a : Vec F S3x64x64 .f32) : Vec F S64x64 .f32 :=
  shapeCast S64x64 (extractStridedSlice S1x64x64 ![0, 0, 0] a slices_S3x64x64_S1x64x64_0_0_0) shapeCasts_S1x64x64_S64x64

/-- Layer 0's edge bias, flat, out of the stack of three. -/
def cbOf0 (a : Vec F S3x64 .f32) : Vec F S64 .f32 :=
  shapeCast S64 (extractStridedSlice S1x64 ![0, 0] a slices_S3x64_S1x64_0_0) shapeCasts_S1x64_S64

variable (Wk : Valuation τ sig (Elt F))

/-- The stretch does not write the edge features. -/
theorem ek0_e : StableHlo.after (hostOps3 (F := F)) Wk (Proc.devRef .tc main_v3) = Wk (Proc.devRef .tc main_v3) := by
  after_results_simp
/-- The region's weight window is layer 0's matrix of the stacked argument. -/
theorem ek0_cw : (StableHlo.after (hostOps3 (F := F)) Wk (Proc.devRef .tc main_v50) : Vec F S64x64 .f32)
    = cwOf0 (Wk (Proc.devRef .tc main_arg15)) := by
  after_results_simp <;> rfl
/-- The region's bias window is layer 0's bias of the stacked argument, as one row. -/
theorem ek0_cb : (StableHlo.after (hostOps3 (F := F)) Wk (Proc.devRef .tc main_v53) : Vec F S1x64 .f32)
    = shapeCast S1x64 (cbOf0 (Wk (Proc.devRef .tc main_arg16))) shapeCasts_S64_S1x64 := by
  after_results_simp <;> rfl
/-- The three gathered windows: the rows of `Dh` at the sources, of `Eh` at the destinations, of `Bh` at the sources. -/
theorem ek0_d : (StableHlo.after (hostOps3 (F := F)) Wk (Proc.devRef .tc main_v34) : Vec F S524288x64 .f32)
    = rowGather (StableHlo.after (hostOps3 (F := F)) Wk (Proc.devRef .tc main_v26)) (Wk (Proc.devRef .tc main_arg2)) := by
  after_results_simp <;> rfl
theorem ek0_g : (StableHlo.after (hostOps3 (F := F)) Wk (Proc.devRef .tc main_v41) : Vec F S524288x64 .f32)
    = rowGather (StableHlo.after (hostOps3 (F := F)) Wk (Proc.devRef .tc main_v27)) (Wk (Proc.devRef .tc main_arg3)) := by
  after_results_simp <;> rfl
theorem ek0_u : (StableHlo.after (hostOps3 (F := F)) Wk (Proc.devRef .tc main_v48) : Vec F S524288x64 .f32)
    = rowGather (StableHlo.after (hostOps3 (F := F)) Wk (Proc.devRef .tc main_v25)) (Wk (Proc.devRef .tc main_arg2)) := by
  after_results_simp <;> rfl

end K

/-! ## The reference's two chunks, read back -/

section R
open Cert.ReferenceIdeal Cert.ReferenceIdeal.Gen Cert.ReferenceIdeal.Hand
variable {F : FTy → Type} [FloatOps F]
variable (Qr : Valuation τ sig (Elt F))

/-- The first chunk does not write the index arguments. -/
theorem er0_a2 : StableHlo.after (rops1 (F := F)) Qr (Proc.devRef .tc main_arg2) = Qr (Proc.devRef .tc main_arg2) := by
  after_results_simp
theorem er0_a3 : StableHlo.after (rops1 (F := F)) Qr (Proc.devRef .tc main_arg3) = Qr (Proc.devRef .tc main_arg3) := by
  after_results_simp

/-- The edge's linear layer as the reference computes it: the product with layer 0's matrix plus its bias laid along
    the edges. -/
theorem er0_ce : (StableHlo.after (rops1 (F := F)) Qr (Proc.devRef .tc main_v49) : Vec F S524288x64 .f32)
    = addf (Host.dotGeneral dot_S524288x64_S64x64_S524288x64_1_0_0_1_n_n none (Qr (Proc.devRef .tc main_v9)) (cwOf0 (Qr (Proc.devRef .tc main_arg15))))
        (broadcastInDim S524288x64 ![0, 1] bcast_S1x64_S524288x64_0_1 (broadcastInDim S1x64 ![1] bcast_S64_S1x64_1 (cbOf0 (Qr (Proc.devRef .tc main_arg16))))) := by
  after_results_simp <;> rfl

variable (Q1 : Valuation τ sig (Elt F))

/-- The pre-activation: the linear layer plus the rows of `Dh` at the sources, plus the rows of `Eh` at the
    destinations. -/
theorem er0_hat : (StableHlo.after (rops2 (F := F)) Q1 (Proc.devRef .tc main_v65) : Vec F S524288x64 .f32)
    = addf (addf (Q1 (Proc.devRef .tc main_v49)) (rowGather (Q1 (Proc.devRef .tc main_v33)) (Q1 (Proc.devRef .tc main_arg2))))
        (rowGather (Q1 (Proc.devRef .tc main_v41)) (Q1 (Proc.devRef .tc main_arg3))) := by
  after_results_simp <;> rfl
/-- The gate: one over one plus the exponential of the negated pre-activation. -/
theorem er0_gate : (StableHlo.after (rops2 (F := F)) Q1 (Proc.devRef .tc main_v71) : Vec F S524288x64 .f32)
    = Host.divf (broadcastInDim S524288x64 ![] bcast_S_S524288x64 (constant S_ .f32 0x3F800000#32))
        (addf (broadcastInDim S524288x64 ![] bcast_S_S524288x64 (constant S_ .f32 0x3F800000#32))
          (Host.exp (Host.negf (StableHlo.after (rops2 (F := F)) Q1 (Proc.devRef .tc main_v65))))) := by
  after_results_simp <;> rfl
/-- The message: the gate times the rows of `Bh` at the sources. -/
theorem er0_msg : (StableHlo.after (rops2 (F := F)) Q1 (Proc.devRef .tc main_v79) : Vec F S524288x64 .f32)
    = mulf (StableHlo.after (rops2 (F := F)) Q1 (Proc.devRef .tc main_v71))
        (rowGather (Q1 (Proc.devRef .tc main_v25)) (Q1 (Proc.devRef .tc main_arg2))) := by
  after_results_simp <;> rfl

end R

/-! ## The step -/

section Step

/-- The edge update of layer 0: from a kernel valuation `Wk` at the entry of the host stretch before region 3 and a
    reference valuation `Qr` at the entry of the reference's chunk 1, with the edge features, the edge indices, the
    stacked edge weights and biases equal on the two sides at entry, and the three node arrays `Bh`, `Dh`, `Eh` equal
    after the kernel's stretch and the reference's chunk 1: the region's three outputs, as functions of its input
    arrays after the stretch, are the reference's pre-activation, gate and message after chunk 2. -/
theorem edge_update_0
    (Wk : Valuation Cert.KernelIdeal.τ Cert.KernelIdeal.sig (Elt Ideal))
    (Qr : Valuation Cert.ReferenceIdeal.τ Cert.ReferenceIdeal.sig (Elt Ideal))
    (he : (Wk (Proc.devRef .tc Cert.KernelIdeal.main_v3) : FVec Ideal SEdge .f32) = Qr (Proc.devRef .tc Cert.ReferenceIdeal.main_v9))
    (h2 : (Wk (Proc.devRef .tc Cert.KernelIdeal.main_arg2) : IVec Cert.KernelIdeal.S524288 32) = Qr (Proc.devRef .tc Cert.ReferenceIdeal.main_arg2))
    (h3 : (Wk (Proc.devRef .tc Cert.KernelIdeal.main_arg3) : IVec Cert.KernelIdeal.S524288 32) = Qr (Proc.devRef .tc Cert.ReferenceIdeal.main_arg3))
    (h15 : (Wk (Proc.devRef .tc Cert.KernelIdeal.main_arg15) : FVec Ideal Cert.KernelIdeal.S3x64x64 .f32) = Qr (Proc.devRef .tc Cert.ReferenceIdeal.main_arg15))
    (h16 : (Wk (Proc.devRef .tc Cert.KernelIdeal.main_arg16) : FVec Ideal Cert.KernelIdeal.S3x64 .f32) = Qr (Proc.devRef .tc Cert.ReferenceIdeal.main_arg16))
    (hB : (StableHlo.after (Cert.KernelIdeal.Gen.hostOps3 (F := Ideal)) Wk (Proc.devRef .tc Cert.KernelIdeal.main_v25) : FVec Ideal Cert.KernelIdeal.S32768x64 .f32)
      = StableHlo.after (Cert.ReferenceIdeal.Hand.rops1 (F := Ideal)) Qr (Proc.devRef .tc Cert.ReferenceIdeal.main_v25))
    (hD : (StableHlo.after (Cert.KernelIdeal.Gen.hostOps3 (F := Ideal)) Wk (Proc.devRef .tc Cert.KernelIdeal.main_v26) : FVec Ideal Cert.KernelIdeal.S32768x64 .f32)
      = StableHlo.after (Cert.ReferenceIdeal.Hand.rops1 (F := Ideal)) Qr (Proc.devRef .tc Cert.ReferenceIdeal.main_v33))
    (hE : (StableHlo.after (Cert.KernelIdeal.Gen.hostOps3 (F := Ideal)) Wk (Proc.devRef .tc Cert.KernelIdeal.main_v27) : FVec Ideal Cert.KernelIdeal.S32768x64 .f32)
      = StableHlo.after (Cert.ReferenceIdeal.Hand.rops1 (F := Ideal)) Qr (Proc.devRef .tc Cert.ReferenceIdeal.main_v41)) :
    edgeHat (StableHlo.after (Cert.KernelIdeal.Gen.hostOps3 (F := Ideal)) Wk (Proc.devRef .tc Cert.KernelIdeal.main_v3))
        (StableHlo.after (Cert.KernelIdeal.Gen.hostOps3 (F := Ideal)) Wk (Proc.devRef .tc Cert.KernelIdeal.main_v50))
        (StableHlo.after (Cert.KernelIdeal.Gen.hostOps3 (F := Ideal)) Wk (Proc.devRef .tc Cert.KernelIdeal.main_v53))
        (StableHlo.after (Cert.KernelIdeal.Gen.hostOps3 (F := Ideal)) Wk (Proc.devRef .tc Cert.KernelIdeal.main_v34))
        (StableHlo.after (Cert.KernelIdeal.Gen.hostOps3 (F := Ideal)) Wk (Proc.devRef .tc Cert.KernelIdeal.main_v41))
      = StableHlo.after (Cert.ReferenceIdeal.Hand.rops2 (F := Ideal)) (StableHlo.after (Cert.ReferenceIdeal.Hand.rops1 (F := Ideal)) Qr) (Proc.devRef .tc Cert.ReferenceIdeal.main_v65)
    ∧ edgeGate (StableHlo.after (Cert.KernelIdeal.Gen.hostOps3 (F := Ideal)) Wk (Proc.devRef .tc Cert.KernelIdeal.main_v3))
        (StableHlo.after (Cert.KernelIdeal.Gen.hostOps3 (F := Ideal)) Wk (Proc.devRef .tc Cert.KernelIdeal.main_v50))
        (StableHlo.after (Cert.KernelIdeal.Gen.hostOps3 (F := Ideal)) Wk (Proc.devRef .tc Cert.KernelIdeal.main_v53))
        (StableHlo.after (Cert.KernelIdeal.Gen.hostOps3 (F := Ideal)) Wk (Proc.devRef .tc Cert.KernelIdeal.main_v34))
        (StableHlo.after (Cert.KernelIdeal.Gen.hostOps3 (F := Ideal)) Wk (Proc.devRef .tc Cert.KernelIdeal.main_v41))
      = StableHlo.after (Cert.ReferenceIdeal.Hand.rops2 (F := Ideal)) (StableHlo.after (Cert.ReferenceIdeal.Hand.rops1 (F := Ideal)) Qr) (Proc.devRef .tc Cert.ReferenceIdeal.main_v71)
    ∧ edgeMsg (StableHlo.after (Cert.KernelIdeal.Gen.hostOps3 (F := Ideal)) Wk (Proc.devRef .tc Cert.KernelIdeal.main_v3))
        (StableHlo.after (Cert.KernelIdeal.Gen.hostOps3 (F := Ideal)) Wk (Proc.devRef .tc Cert.KernelIdeal.main_v50))
        (StableHlo.after (Cert.KernelIdeal.Gen.hostOps3 (F := Ideal)) Wk (Proc.devRef .tc Cert.KernelIdeal.main_v53))
        (StableHlo.after (Cert.KernelIdeal.Gen.hostOps3 (F := Ideal)) Wk (Proc.devRef .tc Cert.KernelIdeal.main_v34))
        (StableHlo.after (Cert.KernelIdeal.Gen.hostOps3 (F := Ideal)) Wk (Proc.devRef .tc Cert.KernelIdeal.main_v41))
        (StableHlo.after (Cert.KernelIdeal.Gen.hostOps3 (F := Ideal)) Wk (Proc.devRef .tc Cert.KernelIdeal.main_v48))
      = StableHlo.after (Cert.ReferenceIdeal.Hand.rops2 (F := Ideal)) (StableHlo.after (Cert.ReferenceIdeal.Hand.rops1 (F := Ideal)) Qr) (Proc.devRef .tc Cert.ReferenceIdeal.main_v79) := by
  -- the region's five input arrays after the kernel's stretch, in the reference's terms
  have e0 := (ek0_e (F := Ideal) Wk).trans he
  have e1 : (StableHlo.after (Cert.KernelIdeal.Gen.hostOps3 (F := Ideal)) Wk (Proc.devRef .tc Cert.KernelIdeal.main_v50) : FVec Ideal SSq .f32)
      = cwOf0 (Qr (Proc.devRef .tc Cert.ReferenceIdeal.main_arg15)) := (ek0_cw (F := Ideal) Wk).trans (congrArg cwOf0 h15)
  have e2 : (StableHlo.after (Cert.KernelIdeal.Gen.hostOps3 (F := Ideal)) Wk (Proc.devRef .tc Cert.KernelIdeal.main_v53) : FVec Ideal SRow .f32)
      = shapeCast SRow (cbOf0 (Qr (Proc.devRef .tc Cert.ReferenceIdeal.main_arg16))) Cert.KernelIdeal.Gen.shapeCasts_S64_S1x64 :=
    (ek0_cb (F := Ideal) Wk).trans (congrArg (fun v => shapeCast SRow (cbOf0 v) Cert.KernelIdeal.Gen.shapeCasts_S64_S1x64) h16)
  have e3 : (StableHlo.after (Cert.KernelIdeal.Gen.hostOps3 (F := Ideal)) Wk (Proc.devRef .tc Cert.KernelIdeal.main_v34) : FVec Ideal SEdge .f32)
      = rowGather (StableHlo.after (Cert.ReferenceIdeal.Hand.rops1 (F := Ideal)) Qr (Proc.devRef .tc Cert.ReferenceIdeal.main_v33)) (Qr (Proc.devRef .tc Cert.ReferenceIdeal.main_arg2)) :=
    (ek0_d (F := Ideal) Wk).trans (congrArg₂ rowGather hD h2)
  have e4 : (StableHlo.after (Cert.KernelIdeal.Gen.hostOps3 (F := Ideal)) Wk (Proc.devRef .tc Cert.KernelIdeal.main_v41) : FVec Ideal SEdge .f32)
      = rowGather (StableHlo.after (Cert.ReferenceIdeal.Hand.rops1 (F := Ideal)) Qr (Proc.devRef .tc Cert.ReferenceIdeal.main_v41)) (Qr (Proc.devRef .tc Cert.ReferenceIdeal.main_arg3)) :=
    (ek0_g (F := Ideal) Wk).trans (congrArg₂ rowGather hE h3)
  have e5 : (StableHlo.after (Cert.KernelIdeal.Gen.hostOps3 (F := Ideal)) Wk (Proc.devRef .tc Cert.KernelIdeal.main_v48) : FVec Ideal SEdge .f32)
      = rowGather (StableHlo.after (Cert.ReferenceIdeal.Hand.rops1 (F := Ideal)) Qr (Proc.devRef .tc Cert.ReferenceIdeal.main_v25)) (Qr (Proc.devRef .tc Cert.ReferenceIdeal.main_arg2)) :=
    (ek0_u (F := Ideal) Wk).trans (congrArg₂ rowGather hB h2)
  -- the reference's three results over the same terms
  have q65 := er0_hat (F := Ideal) (StableHlo.after (Cert.ReferenceIdeal.Hand.rops1 (F := Ideal)) Qr)
  rw [er0_ce (F := Ideal) Qr, er0_a2 (F := Ideal) Qr, er0_a3 (F := Ideal) Qr] at q65
  have q71 := er0_gate (F := Ideal) (StableHlo.after (Cert.ReferenceIdeal.Hand.rops1 (F := Ideal)) Qr)
  have q79 := er0_msg (F := Ideal) (StableHlo.after (Cert.ReferenceIdeal.Hand.rops1 (F := Ideal)) Qr)
  rw [er0_a2 (F := Ideal) Qr] at q79
  rw [e0, e1, e2, e3, e4, e5]
  have hhat := (edgeHat_eq _ _ _ _ _ Cert.KernelIdeal.Gen.shapeCasts_S64_S1x64 Cert.ReferenceIdeal.Gen.bcast_S64_S1x64_1 Cert.ReferenceIdeal.Gen.bcast_S1x64_S524288x64_0_1).trans q65.symm
  have hgate := (edgeGate_eq _ _ _ _ _ _ Cert.ReferenceIdeal.Gen.bcast_S_S524288x64 hhat).trans q71.symm
  exact ⟨hhat, hgate, (edgeMsg_eq _ _ _ _ _ _ _ hgate).trans q79.symm⟩

end Step

end Cert.Bridge

end
-- ==== Proof.BR.BnDefs.lean ====
import proofs.«142356_j74423193305351_1_alg».proof.Proof.Gen.KernelIdeal.Launch
import Idealize.ShloMosaic.Lib.Pipeline.Value
import Idealize.ShloMosaic.Lib.ValueIdx
import Idealize.ShloMosaic.Lib.ValueLayout
import Idealize.ShloMosaic.PureOps.Ideal.Laws

/-! # The aggregation and the batch norm as both programs compute them on the host

Both programs compute the aggregated node features by the same host operations (two scatter-adds,
a sum with a small constant, a quotient, a sum), and the statistics of a batch norm (the mean over the
rows, the variance by the mean of squared deviations) by the same host operations again; they are
named here once, for any float values, as functions of the arrays they read, and never opened.
The normalisation, the maximum with zero and the residual sum are pointwise: at the extended reals
the reference's chain of host operations over a row of statistics broadcast over all rows is, index
by index, the expression the kernel's region leaves. -/

noncomputable section

namespace Cert.Bridge

open Idealize.ShloMosaic Idealize.ShloMosaic.TcCoe Idealize.SL.Sem Idealize.ShloMosaic.StableHlo
open Cert.KernelIdeal Cert.KernelIdeal.Gen
open Idealize.ShloMosaic.ValueIdx

variable {F : FTy → Type} [FloatOps F]

/-- The aggregation: the node term plus the scattered messages over the scattered gates plus a small constant. -/
def aggF (numc sigma : FVec F S524288x64 .f32) (ah : FVec F S32768x64 .f32) (dst : IVec S524288 32) : FVec F S32768x64 .f32 :=
  addf ah
    (Host.divf
      (Host.scatterAdd scatter_S32768x64_S524288x1_S524288x64_1_0_0_1
        (broadcastInDim S32768x64 ![] bcast_S_S32768x64 (constant S_ .f32 0x00000000#32))
        (broadcastInDim S524288x1 ![0] bcast_S524288_S524288x1_0 dst) numc)
      (addf
        (Host.scatterAdd scatter_S32768x64_S524288x1_S524288x64_1_0_0_1
          (broadcastInDim S32768x64 ![] bcast_S_S32768x64 (constant S_ .f32 0x00000000#32))
          (broadcastInDim S524288x1 ![0] bcast_S524288_S524288x1_0 dst) sigma)
        (broadcastInDim S32768x64 ![] bcast_S_S32768x64 (constant S_ .f32 0x358637BD#32))))

/-- Row k of a three-row parameter array, as a vector of 64. -/
def rowF0 (a : FVec F S3x64 .f32) : FVec F S64 .f32 :=
  shapeCast S64 (extractStridedSlice S1x64 ![0, 0] a slices_S3x64_S1x64_0_0) shapeCasts_S1x64_S64
def rowF1 (a : FVec F S3x64 .f32) : FVec F S64 .f32 :=
  shapeCast S64 (extractStridedSlice S1x64 ![1, 0] a slices_S3x64_S1x64_1_0) shapeCasts_S1x64_S64
def rowF2 (a : FVec F S3x64 .f32) : FVec F S64 .f32 :=
  shapeCast S64 (extractStridedSlice S1x64 ![2, 0] a slices_S3x64_S1x64_2_0) shapeCasts_S1x64_S64

/-- A vector of 64 as one row. -/
def asRow (v : FVec F S64 .f32) : FVec F S1x64 .f32 := shapeCast S1x64 v shapeCasts_S64_S1x64

/-! ## Arrays of 32768 rows -/

/-- The mean over the rows. -/
def meanN (x : FVec F S32768x64 .f32) : FVec F S64 .f32 :=
  Host.divf (Host.reduceAdd x (constant S_ .f32 0x00000000#32) reducesTo_S32768x64_S64_d0 h_S_)
    (broadcastInDim S64 ![] bcast_S_S64 (constant S_ .f32 0x47000000#32))

/-- The number of rows less the correction, as the variance computes it. -/
def cntN (c : IVec S_ 32) : FVec F S_ .f32 := subf (constant S_ .f32 0x47000000#32) (sitofp .f32 c)

/-- The deviations from the mean, the mean recomputed as the variance does. -/
def devN (x : FVec F S32768x64 .f32) : FVec F S32768x64 .f32 :=
  subf x (broadcastInDim S32768x64 ![0, 1] bcast_S1x64_S32768x64_0_1
    (Host.divf (broadcastInDim S1x64 ![1] bcast_S64_S1x64_1 (Host.reduceAdd x (constant S_ .f32 0x00000000#32) reducesTo_S32768x64_S64_d0 h_S_))
      (broadcastInDim S1x64 ![] bcast_S_S1x64 (constant S_ .f32 0x47000000#32))))

/-- The variance over the rows, with correction c. -/
def varN (x : FVec F S32768x64 .f32) (c : IVec S_ 32) : FVec F S64 .f32 :=
  select (broadcastInDim S64 ![] bcast_S_S64 (cmpf .ogt (cntN (F := F) c) (constant S_ .f32 0x00000000#32)))
    (Host.divf (Host.reduceAdd (mulf (devN x) (devN x)) (constant S_ .f32 0x00000000#32) reducesTo_S32768x64_S64_d0 h_S_)
      (broadcastInDim S64 ![] bcast_S_S64 (cntN (F := F) c)))
    (broadcastInDim S64 ![] bcast_S_S64 (id (constant S_ .f32 0x7FC00000#32)))

/-- A vector of 64 broadcast over all rows. -/
def rowsN (v : FVec F S64 .f32) : FVec F S32768x64 .f32 :=
  broadcastInDim S32768x64 ![0, 1] bcast_S1x64_S32768x64_0_1 (broadcastInDim S1x64 ![1] bcast_S64_S1x64_1 v)

/-- The reference's normalisation, maximum with zero and residual sum, from the statistics and parameters as vectors of 64. -/
def bnRefN (x : FVec F S32768x64 .f32) (mu va ga be : FVec F S64 .f32) (o : FVec F S32768x64 .f32) : FVec F S32768x64 .f32 :=
  addf o
    (maximumf
      (addf
        (mulf (mulf (rowsN ga) (subf x (rowsN mu)))
          (rowsN (Host.rsqrt (addf va (broadcastInDim S64 ![] bcast_S_S64 (constant S_ .f32 0x3727C5AC#32))))))
        (rowsN be))
      (broadcastInDim S32768x64 ![] bcast_S_S32768x64 (constant S_ .f32 0x00000000#32)))

/-- What the kernel's region leaves, from its six input arrays (the four statistics single rows). -/
def GlocN (x : Vec Ideal S32768x64 .f32) (mu : Vec Ideal S1x64 .f32) (va : Vec Ideal S1x64 .f32) (ga : Vec Ideal S1x64 .f32) (be : Vec Ideal S1x64 .f32) (o : Vec Ideal S32768x64 .f32) : Vec Ideal S32768x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

theorem GlocN_apply (x : Vec Ideal S32768x64 .f32) (mu : Vec Ideal S1x64 .f32) (va : Vec Ideal S1x64 .f32) (ga : Vec Ideal S1x64 .f32) (be : Vec Ideal S1x64 .f32) (o : Vec Ideal S32768x64 .f32) (p : Fin 32768) (q : Fin 64) :
    GlocN x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-- A vector of 64 broadcast over all rows reads, at row p and column q, its element q. -/
theorem rowsN_apply {α : Type} (v : S64.Idx → α) (p : Fin 32768) (q : Fin 64) :
    broadcastInDim S32768x64 ![0, 1] bcast_S1x64_S32768x64_0_1 (broadcastInDim S1x64 ![1] bcast_S64_S1x64_1 v) (ix2 p q) = v (ix1 q) := by
  refine (broadcastInDim_apply _ _ _ (ix2 p q) (ix2 (0 : Fin 1) q) fun a => ?_).trans
    (broadcastInDim_apply _ _ v (ix2 (0 : Fin 1) q) (ix1 q) fun a => ?_)
  · match a with
    | ⟨0, _⟩ => rfl
    | ⟨1, _⟩ => rfl
  · match a with
    | ⟨0, _⟩ => rfl

/-- At the extended reals the region's array is the reference's chain, the statistics given as vectors of 64. -/
theorem bnN_pointwise (x o : Vec Ideal S32768x64 .f32) (mu va ga be : Vec Ideal S64 .f32) :
    GlocN x (asRow (F := Ideal) mu) (asRow (F := Ideal) va) (asRow (F := Ideal) ga) (asRow (F := Ideal) be) o
      = bnRefN (F := Ideal) x mu va ga be o := by
  funext i
  obtain ⟨p, q, rfl⟩ : ∃ (p : Fin 32768) (q : Fin 64), i = ix2 p q := ⟨i 0, i 1, eq_ix2 i⟩
  rw [GlocN_apply]
  unfold asRow
  rw [shapeCast_a_1a_apply, shapeCast_a_1a_apply, shapeCast_a_1a_apply, shapeCast_a_1a_apply]
  unfold bnRefN rowsN
  rw [addf_apply, maximumf_apply, addf_apply, mulf_apply, mulf_apply, subf_apply]
  rw [rowsN_apply, rowsN_apply, rowsN_apply, rowsN_apply]
  show _ = o (ix2 p q) + max (((ga (ix1 q) * (x (ix2 p q) - mu (ix1 q))) * Ideal.rsqrt (va (ix1 q) + Ideal.ofBits .f32 0x3727C5AC#32)) + be (ix1 q)) (Ideal.ofBits .f32 0x00000000#32)
  rw [Ideal.ofBits_zero_f32]

/-- The scalar shape broadcasts to the edge arrays' shape. -/
theorem bcast_S_S524288x64 : S_.BroadcastsInDim S524288x64 (![] : Fin 0 → Fin S524288x64.rank) := by decide

/-! ## Arrays of 524288 rows -/

/-- The mean over the rows. -/
def meanE (x : FVec F S524288x64 .f32) : FVec F S64 .f32 :=
  Host.divf (Host.reduceAdd x (constant S_ .f32 0x00000000#32) reducesTo_S524288x64_S64_d0 h_S_)
    (broadcastInDim S64 ![] bcast_S_S64 (constant S_ .f32 0x49000000#32))

/-- The number of rows less the correction, as the variance computes it. -/
def cntE (c : IVec S_ 32) : FVec F S_ .f32 := subf (constant S_ .f32 0x49000000#32) (sitofp .f32 c)

/-- The deviations from the mean, the mean recomputed as the variance does. -/
def devE (x : FVec F S524288x64 .f32) : FVec F S524288x64 .f32 :=
  subf x (broadcastInDim S524288x64 ![0, 1] bcast_S1x64_S524288x64_0_1
    (Host.divf (broadcastInDim S1x64 ![1] bcast_S64_S1x64_1 (Host.reduceAdd x (constant S_ .f32 0x00000000#32) reducesTo_S524288x64_S64_d0 h_S_))
      (broadcastInDim S1x64 ![] bcast_S_S1x64 (constant S_ .f32 0x49000000#32))))

/-- The variance over the rows, with correction c. -/
def varE (x : FVec F S524288x64 .f32) (c : IVec S_ 32) : FVec F S64 .f32 :=
  select (broadcastInDim S64 ![] bcast_S_S64 (cmpf .ogt (cntE (F := F) c) (constant S_ .f32 0x00000000#32)))
    (Host.divf (Host.reduceAdd (mulf (devE x) (devE x)) (constant S_ .f32 0x00000000#32) reducesTo_S524288x64_S64_d0 h_S_)
      (broadcastInDim S64 ![] bcast_S_S64 (cntE (F := F) c)))
    (broadcastInDim S64 ![] bcast_S_S64 (id (constant S_ .f32 0x7FC00000#32)))

/-- A vector of 64 broadcast over all rows. -/
def rowsE (v : FVec F S64 .f32) : FVec F S524288x64 .f32 :=
  broadcastInDim S524288x64 ![0, 1] bcast_S1x64_S524288x64_0_1 (broadcastInDim S1x64 ![1] bcast_S64_S1x64_1 v)

/-- The reference's normalisation, maximum with zero and residual sum, from the statistics and parameters as vectors of 64. -/
def bnRefE (x : FVec F S524288x64 .f32) (mu va ga be : FVec F S64 .f32) (o : FVec F S524288x64 .f32) : FVec F S524288x64 .f32 :=
  addf o
    (maximumf
      (addf
        (mulf (mulf (rowsE ga) (subf x (rowsE mu)))
          (rowsE (Host.rsqrt (addf va (broadcastInDim S64 ![] bcast_S_S64 (constant S_ .f32 0x3727C5AC#32))))))
        (rowsE be))
      (broadcastInDim S524288x64 ![] bcast_S_S524288x64 (constant S_ .f32 0x00000000#32)))

/-- What the kernel's region leaves, from its six input arrays (the four statistics single rows). -/
def GlocE (x : Vec Ideal S524288x64 .f32) (mu : Vec Ideal S1x64 .f32) (va : Vec Ideal S1x64 .f32) (ga : Vec Ideal S1x64 .f32) (be : Vec Ideal S1x64 .f32) (o : Vec Ideal S524288x64 .f32) : Vec Ideal S524288x64 .f32 :=
  fun i => o i + max (((ga (ix2 0 (i 1)) * (x i - mu (ix2 0 (i 1)))) * Ideal.rsqrt (va (ix2 0 (i 1)) + Ideal.ofBits .f32 0x3727C5AC#32)) + be (ix2 0 (i 1))) 0

theorem GlocE_apply (x : Vec Ideal S524288x64 .f32) (mu : Vec Ideal S1x64 .f32) (va : Vec Ideal S1x64 .f32) (ga : Vec Ideal S1x64 .f32) (be : Vec Ideal S1x64 .f32) (o : Vec Ideal S524288x64 .f32) (p : Fin 524288) (q : Fin 64) :
    GlocE x mu va ga be o (ix2 p q) = o (ix2 p q) + max (((ga (ix2 0 q) * (x (ix2 p q) - mu (ix2 0 q))) * Ideal.rsqrt (va (ix2 0 q) + Ideal.ofBits .f32 0x3727C5AC#32)) + be (ix2 0 q)) 0 := rfl

/-- A vector of 64 broadcast over all rows reads, at row p and column q, its element q. -/
theorem rowsE_apply {α : Type} (v : S64.Idx → α) (p : Fin 524288) (q : Fin 64) :
    broadcastInDim S524288x64 ![0, 1] bcast_S1x64_S524288x64_0_1 (broadcastInDim S1x64 ![1] bcast_S64_S1x64_1 v) (ix2 p q) = v (ix1 q) := by
  refine (broadcastInDim_apply _ _ _ (ix2 p q) (ix2 (0 : Fin 1) q) fun a => ?_).trans
    (broadcastInDim_apply _ _ v (ix2 (0 : Fin 1) q) (ix1 q) fun a => ?_)
  · match a with
    | ⟨0, _⟩ => rfl
    | ⟨1, _⟩ => rfl
  · match a with
    | ⟨0, _⟩ => rfl

/-- At the extended reals the region's array is the reference's chain, the statistics given as vectors of 64. -/
theorem bnE_pointwise (x o : Vec Ideal S524288x64 .f32) (mu va ga be : Vec Ideal S64 .f32) :
    GlocE x (asRow (F := Ideal) mu) (asRow (F := Ideal) va) (asRow (F := Ideal) ga) (asRow (F := Ideal) be) o
      = bnRefE (F := Ideal) x mu va ga be o := by
  funext i
  obtain ⟨p, q, rfl⟩ : ∃ (p : Fin 524288) (q : Fin 64), i = ix2 p q := ⟨i 0, i 1, eq_ix2 i⟩
  rw [GlocE_apply]
  unfold asRow
  rw [shapeCast_a_1a_apply, shapeCast_a_1a_apply, shapeCast_a_1a_apply, shapeCast_a_1a_apply]
  unfold bnRefE rowsE
  rw [addf_apply, maximumf_apply, addf_apply, mulf_apply, mulf_apply, subf_apply]
  rw [rowsE_apply, rowsE_apply, rowsE_apply, rowsE_apply]
  show _ = o (ix2 p q) + max (((ga (ix1 q) * (x (ix2 p q) - mu (ix1 q))) * Ideal.rsqrt (va (ix1 q) + Ideal.ofBits .f32 0x3727C5AC#32)) + be (ix1 q)) (Ideal.ofBits .f32 0x00000000#32)
  rw [Ideal.ofBits_zero_f32]

end Cert.Bridge

end
-- ==== Proof.BR.BnL0.lean ====
import proofs.«142356_j74423193305351_1_alg».proof.Proof.BR.BnDefs
import proofs.«142356_j74423193305351_1_alg».proof.Proof.Gen.ReferenceIdeal
import proofs.«142356_j74423193305351_1_alg».proof.Proof.RI.Ops0
import Idealize.ShloMosaic.Lib.StableHlo.Run

/-! # Layer 0: the aggregation and the two batch norms, kernel against reference

For any contents of the kernel's buffers where its host operations before the batch-norm region start, and
any contents of the reference's buffers where the matching stretch of its operations starts: if the arrays
both read agree, the arrays both leave agree. The host operations are read off as the shared functions of
the arrays at the stretch's start; the region's array is the reference's chain index by index. -/

noncomputable section

namespace Cert.Bridge

open Idealize.ShloMosaic Idealize.ShloMosaic.TcCoe Idealize.SL.Sem Idealize.ShloMosaic.StableHlo

variable {F : FTy → Type} [FloatOps F]

/-! ## The kernel's host operations, read at the buffers the regions take -/

section KernelReads
open Cert.KernelIdeal Cert.KernelIdeal.Gen

/-- The aggregated node features. -/
theorem k_hnew_L0 (Wk : Valuation τ sig (Elt F)) :
    StableHlo.after (hostOps4 (F := F)) Wk (Proc.devRef .tc main_v64)
      = aggF (Wk (Proc.devRef .tc main_v54_2)) (Wk (Proc.devRef .tc main_v54_1)) (Wk (Proc.devRef .tc main_v24)) (Wk (Proc.devRef .tc main_arg3)) := by
  after_results_simp; rfl

/-- Their mean over the rows. -/
theorem k_meanh_L0 (Wk : Valuation τ sig (Elt F)) :
    StableHlo.after (hostOps4 (F := F)) Wk (Proc.devRef .tc main_v67)
      = meanN (StableHlo.after (hostOps4 (F := F)) Wk (Proc.devRef .tc main_v64)) := by
  rw [k_hnew_L0]; after_results_simp; rfl

/-- The variance's correction is the constant zero. -/
theorem k_ch_L0 (Wk : Valuation τ sig (Elt F)) :
    StableHlo.after (hostOps4 (F := F)) Wk (Proc.devRef .tc main_c_9) = constantI S_ 32 0#32 := by
  after_results_simp

/-- The old node features and the two parameter arrays are not written. -/
theorem k_oldh_L0 (Wk : Valuation τ sig (Elt F)) :
    StableHlo.after (hostOps4 (F := F)) Wk (Proc.devRef .tc main_v1) = Wk (Proc.devRef .tc main_v1) := by
  after_results_simp
theorem k_gh_L0 (Wk : Valuation τ sig (Elt F)) :
    StableHlo.after (hostOps4 (F := F)) Wk (Proc.devRef .tc main_arg21) = Wk (Proc.devRef .tc main_arg21) := by
  after_results_simp
theorem k_bh_L0 (Wk : Valuation τ sig (Elt F)) :
    StableHlo.after (hostOps4 (F := F)) Wk (Proc.devRef .tc main_arg22) = Wk (Proc.devRef .tc main_arg22) := by
  after_results_simp

/-- The region's six arrays after the variance and the reshapes, from the contents W1 before them. -/
theorem k4_x_L0 (W1 : Valuation τ sig (Elt F)) :
    StableHlo.after (hostOps4_2 (F := F)) (StableHlo.after (hostOps4_1 (F := F)) W1) (Proc.devRef .tc main_v64) = W1 (Proc.devRef .tc main_v64) := by
  after_results_simp
theorem k4_mu_L0 (W1 : Valuation τ sig (Elt F)) :
    StableHlo.after (hostOps4_2 (F := F)) (StableHlo.after (hostOps4_1 (F := F)) W1) (Proc.devRef .tc main_v73) = asRow (W1 (Proc.devRef .tc main_v67)) := by
  after_results_simp; rfl
theorem k4_va_L0 (W1 : Valuation τ sig (Elt F)) :
    StableHlo.after (hostOps4_2 (F := F)) (StableHlo.after (hostOps4_1 (F := F)) W1) (Proc.devRef .tc main_v74)
      = asRow (varN (W1 (Proc.devRef .tc main_v64)) (W1 (Proc.devRef .tc main_c_9))) := by
  after_results_simp; rfl
theorem k4_ga_L0 (W1 : Valuation τ sig (Elt F)) :
    StableHlo.after (hostOps4_2 (F := F)) (StableHlo.after (hostOps4_1 (F := F)) W1) (Proc.devRef .tc main_v75) = asRow (rowF0 (W1 (Proc.devRef .tc main_arg21))) := by
  after_results_simp; rfl
theorem k4_be_L0 (W1 : Valuation τ sig (Elt F)) :
    StableHlo.after (hostOps4_2 (F := F)) (StableHlo.after (hostOps4_1 (F := F)) W1) (Proc.devRef .tc main_v76) = asRow (rowF0 (W1 (Proc.devRef .tc main_arg22))) := by
  after_results_simp; rfl
theorem k4_o_L0 (W1 : Valuation τ sig (Elt F)) :
    StableHlo.after (hostOps4_2 (F := F)) (StableHlo.after (hostOps4_1 (F := F)) W1) (Proc.devRef .tc main_v1) = W1 (Proc.devRef .tc main_v1) := by
  after_results_simp

/-- The edge features' mean over the rows, the correction, and what is not written. -/
theorem k_meane_L0 (Wk : Valuation τ sig (Elt F)) :
    StableHlo.after (hostOps5 (F := F)) Wk (Proc.devRef .tc main_v80) = meanE (Wk (Proc.devRef .tc main_v54_0)) := by
  after_results_simp; rfl
theorem k_ce_L0 (Wk : Valuation τ sig (Elt F)) :
    StableHlo.after (hostOps5 (F := F)) Wk (Proc.devRef .tc main_c_12) = constantI S_ 32 0#32 := by
  after_results_simp
theorem k_ehat_L0 (Wk : Valuation τ sig (Elt F)) :
    StableHlo.after (hostOps5 (F := F)) Wk (Proc.devRef .tc main_v54_0) = Wk (Proc.devRef .tc main_v54_0) := by
  after_results_simp
theorem k_olde_L0 (Wk : Valuation τ sig (Elt F)) :
    StableHlo.after (hostOps5 (F := F)) Wk (Proc.devRef .tc main_v3) = Wk (Proc.devRef .tc main_v3) := by
  after_results_simp
theorem k_ge_L0 (Wk : Valuation τ sig (Elt F)) :
    StableHlo.after (hostOps5 (F := F)) Wk (Proc.devRef .tc main_arg23) = Wk (Proc.devRef .tc main_arg23) := by
  after_results_simp
theorem k_bee_L0 (Wk : Valuation τ sig (Elt F)) :
    StableHlo.after (hostOps5 (F := F)) Wk (Proc.devRef .tc main_arg24) = Wk (Proc.devRef .tc main_arg24) := by
  after_results_simp

theorem k5_x_L0 (W1 : Valuation τ sig (Elt F)) :
    StableHlo.after (hostOps5_2 (F := F)) (StableHlo.after (hostOps5_1 (F := F)) W1) (Proc.devRef .tc main_v54_0) = W1 (Proc.devRef .tc main_v54_0) := by
  after_results_simp
theorem k5_mu_L0 (W1 : Valuation τ sig (Elt F)) :
    StableHlo.after (hostOps5_2 (F := F)) (StableHlo.after (hostOps5_1 (F := F)) W1) (Proc.devRef .tc main_v86) = asRow (W1 (Proc.devRef .tc main_v80)) := by
  after_results_simp; rfl
theorem k5_va_L0 (W1 : Valuation τ sig (Elt F)) :
    StableHlo.after (hostOps5_2 (F := F)) (StableHlo.after (hostOps5_1 (F := F)) W1) (Proc.devRef .tc main_v87)
      = asRow (varE (W1 (Proc.devRef .tc main_v54_0)) (W1 (Proc.devRef .tc main_c_12))) := by
  after_results_simp; rfl
theorem k5_ga_L0 (W1 : Valuation τ sig (Elt F)) :
    StableHlo.after (hostOps5_2 (F := F)) (StableHlo.after (hostOps5_1 (F := F)) W1) (Proc.devRef .tc main_v88) = asRow (rowF0 (W1 (Proc.devRef .tc main_arg23))) := by
  after_results_simp; rfl
theorem k5_be_L0 (W1 : Valuation τ sig (Elt F)) :
    StableHlo.after (hostOps5_2 (F := F)) (StableHlo.after (hostOps5_1 (F := F)) W1) (Proc.devRef .tc main_v89) = asRow (rowF0 (W1 (Proc.devRef .tc main_arg24))) := by
  after_results_simp; rfl
theorem k5_o_L0 (W1 : Valuation τ sig (Elt F)) :
    StableHlo.after (hostOps5_2 (F := F)) (StableHlo.after (hostOps5_1 (F := F)) W1) (Proc.devRef .tc main_v3) = W1 (Proc.devRef .tc main_v3) := by
  after_results_simp

end KernelReads

/-! ## The reference's operations, read at the same functions -/

section ReferenceReads
open Cert.ReferenceIdeal Cert.ReferenceIdeal.Gen Cert.ReferenceIdeal.Hand

theorem r_hnew_L0 (Qr : Valuation τ sig (Elt F)) :
    StableHlo.after (rops3 (F := F)) Qr (Proc.devRef .tc main_v89)
      = aggF (Qr (Proc.devRef .tc main_v79)) (Qr (Proc.devRef .tc main_v71)) (Qr (Proc.devRef .tc main_v17)) (Qr (Proc.devRef .tc main_arg3)) := by
  after_results_simp; rfl

theorem r_outh_L0 (Qr : Valuation τ sig (Elt F)) :
    StableHlo.after (rops4 (F := F)) Qr (Proc.devRef .tc main_v114)
      = bnRefN (Qr (Proc.devRef .tc main_v89)) (meanN (Qr (Proc.devRef .tc main_v89))) (varN (Qr (Proc.devRef .tc main_v89)) (constantI S_ 32 0#32))
          (rowF0 (Qr (Proc.devRef .tc main_arg21))) (rowF0 (Qr (Proc.devRef .tc main_arg22))) (Qr (Proc.devRef .tc main_v5)) := by
  after_results_simp; rfl

theorem r_oute_L0 (Qr : Valuation τ sig (Elt F)) :
    StableHlo.after (rops5 (F := F)) Qr (Proc.devRef .tc main_v139)
      = bnRefE (Qr (Proc.devRef .tc main_v65)) (meanE (Qr (Proc.devRef .tc main_v65))) (varE (Qr (Proc.devRef .tc main_v65)) (constantI S_ 32 0#32))
          (rowF0 (Qr (Proc.devRef .tc main_arg23))) (rowF0 (Qr (Proc.devRef .tc main_arg24))) (Qr (Proc.devRef .tc main_v9)) := by
  after_results_simp; rfl

end ReferenceReads

/-! ## The steps -/

/-- The aggregation: the same host operations on equal operands. -/
theorem agg_L0 (Wk : Valuation Cert.KernelIdeal.τ Cert.KernelIdeal.sig (Elt Ideal)) (Qr : Valuation Cert.ReferenceIdeal.τ Cert.ReferenceIdeal.sig (Elt Ideal))
    (hnumc : (Wk (Proc.devRef .tc Cert.KernelIdeal.main_v54_2) : FVec Ideal Cert.KernelIdeal.S524288x64 .f32) = Qr (Proc.devRef .tc Cert.ReferenceIdeal.main_v79))
    (hsigma : (Wk (Proc.devRef .tc Cert.KernelIdeal.main_v54_1) : FVec Ideal Cert.KernelIdeal.S524288x64 .f32) = Qr (Proc.devRef .tc Cert.ReferenceIdeal.main_v71))
    (hAh : (Wk (Proc.devRef .tc Cert.KernelIdeal.main_v24) : FVec Ideal Cert.KernelIdeal.S32768x64 .f32) = Qr (Proc.devRef .tc Cert.ReferenceIdeal.main_v17))
    (hdst : (Wk (Proc.devRef .tc Cert.KernelIdeal.main_arg3) : IVec Cert.KernelIdeal.S524288 32) = Qr (Proc.devRef .tc Cert.ReferenceIdeal.main_arg3)) :
    (StableHlo.after (Cert.KernelIdeal.Gen.hostOps4 (F := Ideal)) Wk (Proc.devRef .tc Cert.KernelIdeal.main_v64) : FVec Ideal Cert.KernelIdeal.S32768x64 .f32)
      = StableHlo.after (Cert.ReferenceIdeal.Hand.rops3 (F := Ideal)) Qr (Proc.devRef .tc Cert.ReferenceIdeal.main_v89) := by
  rw [k_hnew_L0, r_hnew_L0, hnumc, hsigma, hAh, hdst]

/-- The batch norm of the node features: the statistics are the same functions of equal arrays, the rest is pointwise.
    (The region's array is written GlocN here; it is the function named with the region, by the same text.) -/
theorem bnh_loc_L0 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps4 (F := Ideal)) Wk (Proc.devRef .tc Cert.KernelIdeal.main_v64) : FVec Ideal Cert.KernelIdeal.S32768x64 .f32) = Qr (Proc.devRef .tc Cert.ReferenceIdeal.main_v89))
    (hold : (Wk (Proc.devRef .tc Cert.KernelIdeal.main_v1) : FVec Ideal Cert.KernelIdeal.S32768x64 .f32) = Qr (Proc.devRef .tc Cert.ReferenceIdeal.main_v5))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    GlocN ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v64)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v73)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v74))
        ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v75)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v76)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v1))
      = StableHlo.after (Cert.ReferenceIdeal.Hand.rops4 (F := Ideal)) Qr (Proc.devRef .tc Cert.ReferenceIdeal.main_v114) := by
  rw [k4_x_L0, k4_mu_L0, k4_va_L0, k4_ga_L0, k4_be_L0, k4_o_L0]
  rw [k_meanh_L0, k_ch_L0, k_oldh_L0, k_gh_L0, k_bh_L0]
  rw [hnew, hold, hg, hb, r_outh_L0]
  exact bnN_pointwise _ _ _ _ _ _

/-- The batch norm of the edge features. -/
theorem bne_loc_L0 (Wk : Valuation Cert.KernelIdeal.τ Cert.KernelIdeal.sig (Elt Ideal)) (Qr : Valuation Cert.ReferenceIdeal.τ Cert.ReferenceIdeal.sig (Elt Ideal))
    (hehat : (Wk (Proc.devRef .tc Cert.KernelIdeal.main_v54_0) : FVec Ideal Cert.KernelIdeal.S524288x64 .f32) = Qr (Proc.devRef .tc Cert.ReferenceIdeal.main_v65))
    (hold : (Wk (Proc.devRef .tc Cert.KernelIdeal.main_v3) : FVec Ideal Cert.KernelIdeal.S524288x64 .f32) = Qr (Proc.devRef .tc Cert.ReferenceIdeal.main_v9))
    (hg : (Wk (Proc.devRef .tc Cert.KernelIdeal.main_arg23) : FVec Ideal Cert.KernelIdeal.S3x64 .f32) = Qr (Proc.devRef .tc Cert.ReferenceIdeal.main_arg23))
    (hb : (Wk (Proc.devRef .tc Cert.KernelIdeal.main_arg24) : FVec Ideal Cert.KernelIdeal.S3x64 .f32) = Qr (Proc.devRef .tc Cert.ReferenceIdeal.main_arg24)) :
    GlocE ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v54_0)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v86)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v87))
        ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v88)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v89)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v3))
      = StableHlo.after (Cert.ReferenceIdeal.Hand.rops5 (F := Ideal)) Qr (Proc.devRef .tc Cert.ReferenceIdeal.main_v139) := by
  rw [k5_x_L0, k5_mu_L0, k5_va_L0, k5_ga_L0, k5_be_L0, k5_o_L0]
  rw [k_meane_L0, k_ce_L0, k_ehat_L0, k_olde_L0, k_ge_L0, k_bee_L0]
  rw [hehat, hold, hg, hb, r_oute_L0]
  exact bnE_pointwise _ _ _ _ _ _

end Cert.Bridge

end
-- ==== Proof.BR.BnL1.lean ====
import proofs.«142356_j74423193305351_1_alg».proof.Proof.BR.BnDefs
import proofs.«142356_j74423193305351_1_alg».proof.Proof.Gen.ReferenceIdeal
import proofs.«142356_j74423193305351_1_alg».proof.Proof.RI.Ops1
import Idealize.ShloMosaic.Lib.StableHlo.Run

/-! # Layer 1: the aggregation and the two batch norms, kernel against reference

For any contents of the kernel's buffers where its host operations before the batch-norm region start, and
any contents of the reference's buffers where the matching stretch of its operations starts: if the arrays
both read agree, the arrays both leave agree. The host operations are read off as the shared functions of
the arrays at the stretch's start; the region's array is the reference's chain index by index. -/

noncomputable section

namespace Cert.Bridge

open Idealize.ShloMosaic Idealize.ShloMosaic.TcCoe Idealize.SL.Sem Idealize.ShloMosaic.StableHlo

variable {F : FTy → Type} [FloatOps F]

/-! ## The kernel's host operations, read at the buffers the regions take -/

section KernelReads
open Cert.KernelIdeal Cert.KernelIdeal.Gen

/-- The aggregated node features. -/
theorem k_hnew_L1 (Wk : Valuation τ sig (Elt F)) :
    StableHlo.after (hostOps8 (F := F)) Wk (Proc.devRef .tc main_v151)
      = aggF (Wk (Proc.devRef .tc main_v141_2)) (Wk (Proc.devRef .tc main_v141_1)) (Wk (Proc.devRef .tc main_v111)) (Wk (Proc.devRef .tc main_arg3)) := by
  after_results_simp; rfl

/-- Their mean over the rows. -/
theorem k_meanh_L1 (Wk : Valuation τ sig (Elt F)) :
    StableHlo.after (hostOps8 (F := F)) Wk (Proc.devRef .tc main_v154)
      = meanN (StableHlo.after (hostOps8 (F := F)) Wk (Proc.devRef .tc main_v151)) := by
  rw [k_hnew_L1]; after_results_simp; rfl

/-- The variance's correction is the constant zero. -/
theorem k_ch_L1 (Wk : Valuation τ sig (Elt F)) :
    StableHlo.after (hostOps8 (F := F)) Wk (Proc.devRef .tc main_c_24) = constantI S_ 32 0#32 := by
  after_results_simp

/-- The old node features and the two parameter arrays are not written. -/
theorem k_oldh_L1 (Wk : Valuation τ sig (Elt F)) :
    StableHlo.after (hostOps8 (F := F)) Wk (Proc.devRef .tc main_v77) = Wk (Proc.devRef .tc main_v77) := by
  after_results_simp
theorem k_gh_L1 (Wk : Valuation τ sig (Elt F)) :
    StableHlo.after (hostOps8 (F := F)) Wk (Proc.devRef .tc main_arg21) = Wk (Proc.devRef .tc main_arg21) := by
  after_results_simp
theorem k_bh_L1 (Wk : Valuation τ sig (Elt F)) :
    StableHlo.after (hostOps8 (F := F)) Wk (Proc.devRef .tc main_arg22) = Wk (Proc.devRef .tc main_arg22) := by
  after_results_simp

/-- The region's six arrays after the variance and the reshapes, from the contents W1 before them. -/
theorem k4_x_L1 (W1 : Valuation τ sig (Elt F)) :
    StableHlo.after (hostOps8_2 (F := F)) (StableHlo.after (hostOps8_1 (F := F)) W1) (Proc.devRef .tc main_v151) = W1 (Proc.devRef .tc main_v151) := by
  after_results_simp
theorem k4_mu_L1 (W1 : Valuation τ sig (Elt F)) :
    StableHlo.after (hostOps8_2 (F := F)) (StableHlo.after (hostOps8_1 (F := F)) W1) (Proc.devRef .tc main_v160) = asRow (W1 (Proc.devRef .tc main_v154)) := by
  after_results_simp; rfl
theorem k4_va_L1 (W1 : Valuation τ sig (Elt F)) :
    StableHlo.after (hostOps8_2 (F := F)) (StableHlo.after (hostOps8_1 (F := F)) W1) (Proc.devRef .tc main_v161)
      = asRow (varN (W1 (Proc.devRef .tc main_v151)) (W1 (Proc.devRef .tc main_c_24))) := by
  after_results_simp; rfl
theorem k4_ga_L1 (W1 : Valuation τ sig (Elt F)) :
    StableHlo.after (hostOps8_2 (F := F)) (StableHlo.after (hostOps8_1 (F := F)) W1) (Proc.devRef .tc main_v162) = asRow (rowF1 (W1 (Proc.devRef .tc main_arg21))) := by
  after_results_simp; rfl
theorem k4_be_L1 (W1 : Valuation τ sig (Elt F)) :
    StableHlo.after (hostOps8_2 (F := F)) (StableHlo.after (hostOps8_1 (F := F)) W1) (Proc.devRef .tc main_v163) = asRow (rowF1 (W1 (Proc.devRef .tc main_arg22))) := by
  after_results_simp; rfl
theorem k4_o_L1 (W1 : Valuation τ sig (Elt F)) :
    StableHlo.after (hostOps8_2 (F := F)) (StableHlo.after (hostOps8_1 (F := F)) W1) (Proc.devRef .tc main_v77) = W1 (Proc.devRef .tc main_v77) := by
  after_results_simp

/-- The edge features' mean over the rows, the correction, and what is not written. -/
theorem k_meane_L1 (Wk : Valuation τ sig (Elt F)) :
    StableHlo.after (hostOps9 (F := F)) Wk (Proc.devRef .tc main_v167) = meanE (Wk (Proc.devRef .tc main_v141_0)) := by
  after_results_simp; rfl
theorem k_ce_L1 (Wk : Valuation τ sig (Elt F)) :
    StableHlo.after (hostOps9 (F := F)) Wk (Proc.devRef .tc main_c_27) = constantI S_ 32 0#32 := by
  after_results_simp
theorem k_ehat_L1 (Wk : Valuation τ sig (Elt F)) :
    StableHlo.after (hostOps9 (F := F)) Wk (Proc.devRef .tc main_v141_0) = Wk (Proc.devRef .tc main_v141_0) := by
  after_results_simp
theorem k_olde_L1 (Wk : Valuation τ sig (Elt F)) :
    StableHlo.after (hostOps9 (F := F)) Wk (Proc.devRef .tc main_v90) = Wk (Proc.devRef .tc main_v90) := by
  after_results_simp
theorem k_ge_L1 (Wk : Valuation τ sig (Elt F)) :
    StableHlo.after (hostOps9 (F := F)) Wk (Proc.devRef .tc main_arg23) = Wk (Proc.devRef .tc main_arg23) := by
  after_results_simp
theorem k_bee_L1 (Wk : Valuation τ sig (Elt F)) :
    StableHlo.after (hostOps9 (F := F)) Wk (Proc.devRef .tc main_arg24) = Wk (Proc.devRef .tc main_arg24) := by
  after_results_simp

theorem k5_x_L1 (W1 : Valuation τ sig (Elt F)) :
    StableHlo.after (hostOps9_2 (F := F)) (StableHlo.after (hostOps9_1 (F := F)) W1) (Proc.devRef .tc main_v141_0) = W1 (Proc.devRef .tc main_v141_0) := by
  after_results_simp
theorem k5_mu_L1 (W1 : Valuation τ sig (Elt F)) :
    StableHlo.after (hostOps9_2 (F := F)) (StableHlo.after (hostOps9_1 (F := F)) W1) (Proc.devRef .tc main_v173) = asRow (W1 (Proc.devRef .tc main_v167)) := by
  after_results_simp; rfl
theorem k5_va_L1 (W1 : Valuation τ sig (Elt F)) :
    StableHlo.after (hostOps9_2 (F := F)) (StableHlo.after (hostOps9_1 (F := F)) W1) (Proc.devRef .tc main_v174)
      = asRow (varE (W1 (Proc.devRef .tc main_v141_0)) (W1 (Proc.devRef .tc main_c_27))) := by
  after_results_simp; rfl
theorem k5_ga_L1 (W1 : Valuation τ sig (Elt F)) :
    StableHlo.after (hostOps9_2 (F := F)) (StableHlo.after (hostOps9_1 (F := F)) W1) (Proc.devRef .tc main_v175) = asRow (rowF1 (W1 (Proc.devRef .tc main_arg23))) := by
  after_results_simp; rfl
theorem k5_be_L1 (W1 : Valuation τ sig (Elt F)) :
    StableHlo.after (hostOps9_2 (F := F)) (StableHlo.after (hostOps9_1 (F := F)) W1) (Proc.devRef .tc main_v176) = asRow (rowF1 (W1 (Proc.devRef .tc main_arg24))) := by
  after_results_simp; rfl
theorem k5_o_L1 (W1 : Valuation τ sig (Elt F)) :
    StableHlo.after (hostOps9_2 (F := F)) (StableHlo.after (hostOps9_1 (F := F)) W1) (Proc.devRef .tc main_v90) = W1 (Proc.devRef .tc main_v90) := by
  after_results_simp

end KernelReads

/-! ## The reference's operations, read at the same functions -/

section ReferenceReads
open Cert.ReferenceIdeal Cert.ReferenceIdeal.Gen Cert.ReferenceIdeal.Hand

theorem r_hnew_L1 (Qr : Valuation τ sig (Elt F)) :
    StableHlo.after (rops8 (F := F)) Qr (Proc.devRef .tc main_v219)
      = aggF (Qr (Proc.devRef .tc main_v209)) (Qr (Proc.devRef .tc main_v201)) (Qr (Proc.devRef .tc main_v147)) (Qr (Proc.devRef .tc main_arg3)) := by
  after_results_simp; rfl

theorem r_outh_L1 (Qr : Valuation τ sig (Elt F)) :
    StableHlo.after (rops9 (F := F)) Qr (Proc.devRef .tc main_v244)
      = bnRefN (Qr (Proc.devRef .tc main_v219)) (meanN (Qr (Proc.devRef .tc main_v219))) (varN (Qr (Proc.devRef .tc main_v219)) (constantI S_ 32 0#32))
          (rowF1 (Qr (Proc.devRef .tc main_arg21))) (rowF1 (Qr (Proc.devRef .tc main_arg22))) (Qr (Proc.devRef .tc main_v114)) := by
  after_results_simp; rfl

theorem r_oute_L1 (Qr : Valuation τ sig (Elt F)) :
    StableHlo.after (rops10 (F := F)) Qr (Proc.devRef .tc main_v269)
      = bnRefE (Qr (Proc.devRef .tc main_v195)) (meanE (Qr (Proc.devRef .tc main_v195))) (varE (Qr (Proc.devRef .tc main_v195)) (constantI S_ 32 0#32))
          (rowF1 (Qr (Proc.devRef .tc main_arg23))) (rowF1 (Qr (Proc.devRef .tc main_arg24))) (Qr (Proc.devRef .tc main_v139)) := by
  after_results_simp; rfl

end ReferenceReads

/-! ## The steps -/

/-- The aggregation: the same host operations on equal operands. -/
theorem agg_L1 (Wk : Valuation Cert.KernelIdeal.τ Cert.KernelIdeal.sig (Elt Ideal)) (Qr : Valuation Cert.ReferenceIdeal.τ Cert.ReferenceIdeal.sig (Elt Ideal))
    (hnumc : (Wk (Proc.devRef .tc Cert.KernelIdeal.main_v141_2) : FVec Ideal Cert.KernelIdeal.S524288x64 .f32) = Qr (Proc.devRef .tc Cert.ReferenceIdeal.main_v209))
    (hsigma : (Wk (Proc.devRef .tc Cert.KernelIdeal.main_v141_1) : FVec Ideal Cert.KernelIdeal.S524288x64 .f32) = Qr (Proc.devRef .tc Cert.ReferenceIdeal.main_v201))
    (hAh : (Wk (Proc.devRef .tc Cert.KernelIdeal.main_v111) : FVec Ideal Cert.KernelIdeal.S32768x64 .f32) = Qr (Proc.devRef .tc Cert.ReferenceIdeal.main_v147))
    (hdst : (Wk (Proc.devRef .tc Cert.KernelIdeal.main_arg3) : IVec Cert.KernelIdeal.S524288 32) = Qr (Proc.devRef .tc Cert.ReferenceIdeal.main_arg3)) :
    (StableHlo.after (Cert.KernelIdeal.Gen.hostOps8 (F := Ideal)) Wk (Proc.devRef .tc Cert.KernelIdeal.main_v151) : FVec Ideal Cert.KernelIdeal.S32768x64 .f32)
      = StableHlo.after (Cert.ReferenceIdeal.Hand.rops8 (F := Ideal)) Qr (Proc.devRef .tc Cert.ReferenceIdeal.main_v219) := by
  rw [k_hnew_L1, r_hnew_L1, hnumc, hsigma, hAh, hdst]

/-- The batch norm of the node features: the statistics are the same functions of equal arrays, the rest is pointwise.
    (The region's array is written GlocN here; it is the function named with the region, by the same text.) -/
theorem bnh_loc_L1 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps8 (F := Ideal)) Wk (Proc.devRef .tc Cert.KernelIdeal.main_v151) : FVec Ideal Cert.KernelIdeal.S32768x64 .f32) = Qr (Proc.devRef .tc Cert.ReferenceIdeal.main_v219))
    (hold : (Wk (Proc.devRef .tc Cert.KernelIdeal.main_v77) : FVec Ideal Cert.KernelIdeal.S32768x64 .f32) = Qr (Proc.devRef .tc Cert.ReferenceIdeal.main_v114))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    GlocN ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v151)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v160)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v161))
        ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v162)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v163)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v77))
      = StableHlo.after (Cert.ReferenceIdeal.Hand.rops9 (F := Ideal)) Qr (Proc.devRef .tc Cert.ReferenceIdeal.main_v244) := by
  rw [k4_x_L1, k4_mu_L1, k4_va_L1, k4_ga_L1, k4_be_L1, k4_o_L1]
  rw [k_meanh_L1, k_ch_L1, k_oldh_L1, k_gh_L1, k_bh_L1]
  rw [hnew, hold, hg, hb, r_outh_L1]
  exact bnN_pointwise _ _ _ _ _ _

/-- The batch norm of the edge features. -/
theorem bne_loc_L1 (Wk : Valuation Cert.KernelIdeal.τ Cert.KernelIdeal.sig (Elt Ideal)) (Qr : Valuation Cert.ReferenceIdeal.τ Cert.ReferenceIdeal.sig (Elt Ideal))
    (hehat : (Wk (Proc.devRef .tc Cert.KernelIdeal.main_v141_0) : FVec Ideal Cert.KernelIdeal.S524288x64 .f32) = Qr (Proc.devRef .tc Cert.ReferenceIdeal.main_v195))
    (hold : (Wk (Proc.devRef .tc Cert.KernelIdeal.main_v90) : FVec Ideal Cert.KernelIdeal.S524288x64 .f32) = Qr (Proc.devRef .tc Cert.ReferenceIdeal.main_v139))
    (hg : (Wk (Proc.devRef .tc Cert.KernelIdeal.main_arg23) : FVec Ideal Cert.KernelIdeal.S3x64 .f32) = Qr (Proc.devRef .tc Cert.ReferenceIdeal.main_arg23))
    (hb : (Wk (Proc.devRef .tc Cert.KernelIdeal.main_arg24) : FVec Ideal Cert.KernelIdeal.S3x64 .f32) = Qr (Proc.devRef .tc Cert.ReferenceIdeal.main_arg24)) :
    GlocE ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v141_0)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v173)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v174))
        ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v175)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v176)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v90))
      = StableHlo.after (Cert.ReferenceIdeal.Hand.rops10 (F := Ideal)) Qr (Proc.devRef .tc Cert.ReferenceIdeal.main_v269) := by
  rw [k5_x_L1, k5_mu_L1, k5_va_L1, k5_ga_L1, k5_be_L1, k5_o_L1]
  rw [k_meane_L1, k_ce_L1, k_ehat_L1, k_olde_L1, k_ge_L1, k_bee_L1]
  rw [hehat, hold, hg, hb, r_oute_L1]
  exact bnE_pointwise _ _ _ _ _ _

end Cert.Bridge

end
-- ==== Proof.BR.BnL2.lean ====
import proofs.«142356_j74423193305351_1_alg».proof.Proof.BR.BnDefs
import proofs.«142356_j74423193305351_1_alg».proof.Proof.Gen.ReferenceIdeal
import proofs.«142356_j74423193305351_1_alg».proof.Proof.RI.Ops2
import Idealize.ShloMosaic.Lib.StableHlo.Run

/-! # Layer 2: the aggregation and the two batch norms, kernel against reference

For any contents of the kernel's buffers where its host operations before the batch-norm region start, and
any contents of the reference's buffers where the matching stretch of its operations starts: if the arrays
both read agree, the arrays both leave agree. The host operations are read off as the shared functions of
the arrays at the stretch's start; the region's array is the reference's chain index by index. -/

noncomputable section

namespace Cert.Bridge

open Idealize.ShloMosaic Idealize.ShloMosaic.TcCoe Idealize.SL.Sem Idealize.ShloMosaic.StableHlo

variable {F : FTy → Type} [FloatOps F]

/-! ## The kernel's host operations, read at the buffers the regions take -/

section KernelReads
open Cert.KernelIdeal Cert.KernelIdeal.Gen

/-- The aggregated node features. -/
theorem k_hnew_L2 (Wk : Valuation τ sig (Elt F)) :
    StableHlo.after (hostOps12 (F := F)) Wk (Proc.devRef .tc main_v238)
      = aggF (Wk (Proc.devRef .tc main_v228_2)) (Wk (Proc.devRef .tc main_v228_1)) (Wk (Proc.devRef .tc main_v198)) (Wk (Proc.devRef .tc main_arg3)) := by
  after_results_simp; rfl

/-- Their mean over the rows. -/
theorem k_meanh_L2 (Wk : Valuation τ sig (Elt F)) :
    StableHlo.after (hostOps12 (F := F)) Wk (Proc.devRef .tc main_v241)
      = meanN (StableHlo.after (hostOps12 (F := F)) Wk (Proc.devRef .tc main_v238)) := by
  rw [k_hnew_L2]; after_results_simp; rfl

/-- The variance's correction is the constant zero. -/
theorem k_ch_L2 (Wk : Valuation τ sig (Elt F)) :
    StableHlo.after (hostOps12 (F := F)) Wk (Proc.devRef .tc main_c_39) = constantI S_ 32 0#32 := by
  after_results_simp

/-- The old node features and the two parameter arrays are not written. -/
theorem k_oldh_L2 (Wk : Valuation τ sig (Elt F)) :
    StableHlo.after (hostOps12 (F := F)) Wk (Proc.devRef .tc main_v164) = Wk (Proc.devRef .tc main_v164) := by
  after_results_simp
theorem k_gh_L2 (Wk : Valuation τ sig (Elt F)) :
    StableHlo.after (hostOps12 (F := F)) Wk (Proc.devRef .tc main_arg21) = Wk (Proc.devRef .tc main_arg21) := by
  after_results_simp
theorem k_bh_L2 (Wk : Valuation τ sig (Elt F)) :
    StableHlo.after (hostOps12 (F := F)) Wk (Proc.devRef .tc main_arg22) = Wk (Proc.devRef .tc main_arg22) := by
  after_results_simp

/-- The region's six arrays after the variance and the reshapes, from the contents W1 before them. -/
theorem k4_x_L2 (W1 : Valuation τ sig (Elt F)) :
    StableHlo.after (hostOps12_2 (F := F)) (StableHlo.after (hostOps12_1 (F := F)) W1) (Proc.devRef .tc main_v238) = W1 (Proc.devRef .tc main_v238) := by
  after_results_simp
theorem k4_mu_L2 (W1 : Valuation τ sig (Elt F)) :
    StableHlo.after (hostOps12_2 (F := F)) (StableHlo.after (hostOps12_1 (F := F)) W1) (Proc.devRef .tc main_v247) = asRow (W1 (Proc.devRef .tc main_v241)) := by
  after_results_simp; rfl
theorem k4_va_L2 (W1 : Valuation τ sig (Elt F)) :
    StableHlo.after (hostOps12_2 (F := F)) (StableHlo.after (hostOps12_1 (F := F)) W1) (Proc.devRef .tc main_v248)
      = asRow (varN (W1 (Proc.devRef .tc main_v238)) (W1 (Proc.devRef .tc main_c_39))) := by
  after_results_simp; rfl
theorem k4_ga_L2 (W1 : Valuation τ sig (Elt F)) :
    StableHlo.after (hostOps12_2 (F := F)) (StableHlo.after (hostOps12_1 (F := F)) W1) (Proc.devRef .tc main_v249) = asRow (rowF2 (W1 (Proc.devRef .tc main_arg21))) := by
  after_results_simp; rfl
theorem k4_be_L2 (W1 : Valuation τ sig (Elt F)) :
    StableHlo.after (hostOps12_2 (F := F)) (StableHlo.after (hostOps12_1 (F := F)) W1) (Proc.devRef .tc main_v250) = asRow (rowF2 (W1 (Proc.devRef .tc main_arg22))) := by
  after_results_simp; rfl
theorem k4_o_L2 (W1 : Valuation τ sig (Elt F)) :
    StableHlo.after (hostOps12_2 (F := F)) (StableHlo.after (hostOps12_1 (F := F)) W1) (Proc.devRef .tc main_v164) = W1 (Proc.devRef .tc main_v164) := by
  after_results_simp

/-- The edge features' mean over the rows, the correction, and what is not written. -/
theorem k_meane_L2 (Wk : Valuation τ sig (Elt F)) :
    StableHlo.after (hostOps13 (F := F)) Wk (Proc.devRef .tc main_v254) = meanE (Wk (Proc.devRef .tc main_v228_0)) := by
  after_results_simp; rfl
theorem k_ce_L2 (Wk : Valuation τ sig (Elt F)) :
    StableHlo.after (hostOps13 (F := F)) Wk (Proc.devRef .tc main_c_42) = constantI S_ 32 0#32 := by
  after_results_simp
theorem k_ehat_L2 (Wk : Valuation τ sig (Elt F)) :
    StableHlo.after (hostOps13 (F := F)) Wk (Proc.devRef .tc main_v228_0) = Wk (Proc.devRef .tc main_v228_0) := by
  after_results_simp
theorem k_olde_L2 (Wk : Valuation τ sig (Elt F)) :
    StableHlo.after (hostOps13 (F := F)) Wk (Proc.devRef .tc main_v177) = Wk (Proc.devRef .tc main_v177) := by
  after_results_simp
theorem k_ge_L2 (Wk : Valuation τ sig (Elt F)) :
    StableHlo.after (hostOps13 (F := F)) Wk (Proc.devRef .tc main_arg23) = Wk (Proc.devRef .tc main_arg23) := by
  after_results_simp
theorem k_bee_L2 (Wk : Valuation τ sig (Elt F)) :
    StableHlo.after (hostOps13 (F := F)) Wk (Proc.devRef .tc main_arg24) = Wk (Proc.devRef .tc main_arg24) := by
  after_results_simp

theorem k5_x_L2 (W1 : Valuation τ sig (Elt F)) :
    StableHlo.after (hostOps13_2 (F := F)) (StableHlo.after (hostOps13_1 (F := F)) W1) (Proc.devRef .tc main_v228_0) = W1 (Proc.devRef .tc main_v228_0) := by
  after_results_simp
theorem k5_mu_L2 (W1 : Valuation τ sig (Elt F)) :
    StableHlo.after (hostOps13_2 (F := F)) (StableHlo.after (hostOps13_1 (F := F)) W1) (Proc.devRef .tc main_v260) = asRow (W1 (Proc.devRef .tc main_v254)) := by
  after_results_simp; rfl
theorem k5_va_L2 (W1 : Valuation τ sig (Elt F)) :
    StableHlo.after (hostOps13_2 (F := F)) (StableHlo.after (hostOps13_1 (F := F)) W1) (Proc.devRef .tc main_v261)
      = asRow (varE (W1 (Proc.devRef .tc main_v228_0)) (W1 (Proc.devRef .tc main_c_42))) := by
  after_results_simp; rfl
theorem k5_ga_L2 (W1 : Valuation τ sig (Elt F)) :
    StableHlo.after (hostOps13_2 (F := F)) (StableHlo.after (hostOps13_1 (F := F)) W1) (Proc.devRef .tc main_v262) = asRow (rowF2 (W1 (Proc.devRef .tc main_arg23))) := by
  after_results_simp; rfl
theorem k5_be_L2 (W1 : Valuation τ sig (Elt F)) :
    StableHlo.after (hostOps13_2 (F := F)) (StableHlo.after (hostOps13_1 (F := F)) W1) (Proc.devRef .tc main_v263) = asRow (rowF2 (W1 (Proc.devRef .tc main_arg24))) := by
  after_results_simp; rfl
theorem k5_o_L2 (W1 : Valuation τ sig (Elt F)) :
    StableHlo.after (hostOps13_2 (F := F)) (StableHlo.after (hostOps13_1 (F := F)) W1) (Proc.devRef .tc main_v177) = W1 (Proc.devRef .tc main_v177) := by
  after_results_simp

end KernelReads

/-! ## The reference's operations, read at the same functions -/

section ReferenceReads
open Cert.ReferenceIdeal Cert.ReferenceIdeal.Gen Cert.ReferenceIdeal.Hand

theorem r_hnew_L2 (Qr : Valuation τ sig (Elt F)) :
    StableHlo.after (rops13 (F := F)) Qr (Proc.devRef .tc main_v349)
      = aggF (Qr (Proc.devRef .tc main_v339)) (Qr (Proc.devRef .tc main_v331)) (Qr (Proc.devRef .tc main_v277)) (Qr (Proc.devRef .tc main_arg3)) := by
  after_results_simp; rfl

theorem r_outh_L2 (Qr : Valuation τ sig (Elt F)) :
    StableHlo.after (rops14 (F := F)) Qr (Proc.devRef .tc main_v374)
      = bnRefN (Qr (Proc.devRef .tc main_v349)) (meanN (Qr (Proc.devRef .tc main_v349))) (varN (Qr (Proc.devRef .tc main_v349)) (constantI S_ 32 0#32))
          (rowF2 (Qr (Proc.devRef .tc main_arg21))) (rowF2 (Qr (Proc.devRef .tc main_arg22))) (Qr (Proc.devRef .tc main_v244)) := by
  after_results_simp; rfl

theorem r_oute_L2 (Qr : Valuation τ sig (Elt F)) :
    StableHlo.after (rops15 (F := F)) Qr (Proc.devRef .tc main_v399)
      = bnRefE (Qr (Proc.devRef .tc main_v325)) (meanE (Qr (Proc.devRef .tc main_v325))) (varE (Qr (Proc.devRef .tc main_v325)) (constantI S_ 32 0#32))
          (rowF2 (Qr (Proc.devRef .tc main_arg23))) (rowF2 (Qr (Proc.devRef .tc main_arg24))) (Qr (Proc.devRef .tc main_v269)) := by
  after_results_simp; rfl

end ReferenceReads

/-! ## The steps -/

/-- The aggregation: the same host operations on equal operands. -/
theorem agg_L2 (Wk : Valuation Cert.KernelIdeal.τ Cert.KernelIdeal.sig (Elt Ideal)) (Qr : Valuation Cert.ReferenceIdeal.τ Cert.ReferenceIdeal.sig (Elt Ideal))
    (hnumc : (Wk (Proc.devRef .tc Cert.KernelIdeal.main_v228_2) : FVec Ideal Cert.KernelIdeal.S524288x64 .f32) = Qr (Proc.devRef .tc Cert.ReferenceIdeal.main_v339))
    (hsigma : (Wk (Proc.devRef .tc Cert.KernelIdeal.main_v228_1) : FVec Ideal Cert.KernelIdeal.S524288x64 .f32) = Qr (Proc.devRef .tc Cert.ReferenceIdeal.main_v331))
    (hAh : (Wk (Proc.devRef .tc Cert.KernelIdeal.main_v198) : FVec Ideal Cert.KernelIdeal.S32768x64 .f32) = Qr (Proc.devRef .tc Cert.ReferenceIdeal.main_v277))
    (hdst : (Wk (Proc.devRef .tc Cert.KernelIdeal.main_arg3) : IVec Cert.KernelIdeal.S524288 32) = Qr (Proc.devRef .tc Cert.ReferenceIdeal.main_arg3)) :
    (StableHlo.after (Cert.KernelIdeal.Gen.hostOps12 (F := Ideal)) Wk (Proc.devRef .tc Cert.KernelIdeal.main_v238) : FVec Ideal Cert.KernelIdeal.S32768x64 .f32)
      = StableHlo.after (Cert.ReferenceIdeal.Hand.rops13 (F := Ideal)) Qr (Proc.devRef .tc Cert.ReferenceIdeal.main_v349) := by
  rw [k_hnew_L2, r_hnew_L2, hnumc, hsigma, hAh, hdst]

/-- The batch norm of the node features: the statistics are the same functions of equal arrays, the rest is pointwise.
    (The region's array is written GlocN here; it is the function named with the region, by the same text.) -/
theorem bnh_loc_L2 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps12 (F := Ideal)) Wk (Proc.devRef .tc Cert.KernelIdeal.main_v238) : FVec Ideal Cert.KernelIdeal.S32768x64 .f32) = Qr (Proc.devRef .tc Cert.ReferenceIdeal.main_v349))
    (hold : (Wk (Proc.devRef .tc Cert.KernelIdeal.main_v164) : FVec Ideal Cert.KernelIdeal.S32768x64 .f32) = Qr (Proc.devRef .tc Cert.ReferenceIdeal.main_v244))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    GlocN ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v238)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v247)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v248))
        ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v249)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v250)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v164))
      = StableHlo.after (Cert.ReferenceIdeal.Hand.rops14 (F := Ideal)) Qr (Proc.devRef .tc Cert.ReferenceIdeal.main_v374) := by
  rw [k4_x_L2, k4_mu_L2, k4_va_L2, k4_ga_L2, k4_be_L2, k4_o_L2]
  rw [k_meanh_L2, k_ch_L2, k_oldh_L2, k_gh_L2, k_bh_L2]
  rw [hnew, hold, hg, hb, r_outh_L2]
  exact bnN_pointwise _ _ _ _ _ _

/-- The batch norm of the edge features. -/
theorem bne_loc_L2 (Wk : Valuation Cert.KernelIdeal.τ Cert.KernelIdeal.sig (Elt Ideal)) (Qr : Valuation Cert.ReferenceIdeal.τ Cert.ReferenceIdeal.sig (Elt Ideal))
    (hehat : (Wk (Proc.devRef .tc Cert.KernelIdeal.main_v228_0) : FVec Ideal Cert.KernelIdeal.S524288x64 .f32) = Qr (Proc.devRef .tc Cert.ReferenceIdeal.main_v325))
    (hold : (Wk (Proc.devRef .tc Cert.KernelIdeal.main_v177) : FVec Ideal Cert.KernelIdeal.S524288x64 .f32) = Qr (Proc.devRef .tc Cert.ReferenceIdeal.main_v269))
    (hg : (Wk (Proc.devRef .tc Cert.KernelIdeal.main_arg23) : FVec Ideal Cert.KernelIdeal.S3x64 .f32) = Qr (Proc.devRef .tc Cert.ReferenceIdeal.main_arg23))
    (hb : (Wk (Proc.devRef .tc Cert.KernelIdeal.main_arg24) : FVec Ideal Cert.KernelIdeal.S3x64 .f32) = Qr (Proc.devRef .tc Cert.ReferenceIdeal.main_arg24)) :
    GlocE ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v228_0)) ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v260)) ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v261))
        ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v262)) ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v263)) ((StableHlo.after (Cert.KernelIdeal.Gen.hostOps13_2 (F := Ideal)) (StableHlo.after (Cert.KernelIdeal.Gen.hostOps13_1 (F := Ideal)) (StableHlo.after (Cert.KernelIdeal.Gen.hostOps13 (F := Ideal)) Wk))) (Proc.devRef .tc Cert.KernelIdeal.main_v177))
      = StableHlo.after (Cert.ReferenceIdeal.Hand.rops15 (F := Ideal)) Qr (Proc.devRef .tc Cert.ReferenceIdeal.main_v399) := by
  rw [k5_x_L2, k5_mu_L2, k5_va_L2, k5_ga_L2, k5_be_L2, k5_o_L2]
  rw [k_meane_L2, k_ce_L2, k_ehat_L2, k_olde_L2, k_ge_L2, k_bee_L2]
  rw [hehat, hold, hg, hb, r_oute_L2]
  exact bnE_pointwise _ _ _ _ _ _

end Cert.Bridge

end
-- ==== Proof.BR.BnG.lean ====
import proofs.«142356_j74423193305351_1_alg».proof.Proof.BR.BnL0
import proofs.«142356_j74423193305351_1_alg».proof.Proof.BR.BnL1
import proofs.«142356_j74423193305351_1_alg».proof.Proof.BR.BnL2
import proofs.«142356_j74423193305351_1_alg».proof.Proof.KI.V4
import proofs.«142356_j74423193305351_1_alg».proof.Proof.KI.V5
import proofs.«142356_j74423193305351_1_alg».proof.Proof.KI.V8
import proofs.«142356_j74423193305351_1_alg».proof.Proof.KI.V9
import proofs.«142356_j74423193305351_1_alg».proof.Proof.KI.V12

/-! # The batch-norm steps, the regions' arrays under the names they have with the regions

The functions G4_6, G5_6, G8_6, G9_6 and G12_6 that the regions' value theorems name are, as texts, the
functions GlocN and GlocE of the batch-norm steps; so each step holds with the region's own name. -/

noncomputable section

namespace Cert.Bridge

open Idealize.ShloMosaic Idealize.ShloMosaic.TcCoe Idealize.SL.Sem Idealize.ShloMosaic.StableHlo

theorem G4_6_eq : Cert.KernelIdeal.Hand.G4_6 = GlocN := rfl
theorem G5_6_eq : Cert.KernelIdeal.Hand.G5_6 = GlocE := rfl
theorem G8_6_eq : Cert.KernelIdeal.Hand.G8_6 = GlocN := rfl
theorem G9_6_eq : Cert.KernelIdeal.Hand.G9_6 = GlocE := rfl
theorem G12_6_eq : Cert.KernelIdeal.Hand.G12_6 = GlocN := rfl

/-- Layer 0, the batch norm of the node features. -/
theorem bnh_L0 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps4 (F := Ideal)) Wk (Proc.devRef .tc Cert.KernelIdeal.main_v64) : FVec Ideal Cert.KernelIdeal.S32768x64 .f32) = Qr (Proc.devRef .tc Cert.ReferenceIdeal.main_v89))
    (hold : (Wk (Proc.devRef .tc Cert.KernelIdeal.main_v1) : FVec Ideal Cert.KernelIdeal.S32768x64 .f32) = Qr (Proc.devRef .tc Cert.ReferenceIdeal.main_v5))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    Cert.KernelIdeal.Hand.G4_6 ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v64)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v73)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v74))
        ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v75)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v76)) ((StableHlo.after (Cert.KernelIdeal.Gen.hostOps4_2 (F := Ideal)) (StableHlo.after (Cert.KernelIdeal.Gen.hostOps4_1 (F := Ideal)) (StableHlo.after (Cert.KernelIdeal.Gen.hostOps4 (F := Ideal)) Wk))) (Proc.devRef .tc Cert.KernelIdeal.main_v1))
      = StableHlo.after (Cert.ReferenceIdeal.Hand.rops4 (F := Ideal)) Qr (Proc.devRef .tc Cert.ReferenceIdeal.main_v114) := by
  rw [G4_6_eq]; exact bnh_loc_L0 Wk Qr hnew hold hg hb

/-- Layer 0, the batch norm of the edge features. -/
theorem bne_L0 (Wk : Valuation Cert.KernelIdeal.τ Cert.KernelIdeal.sig (Elt Ideal)) (Qr : Valuation Cert.ReferenceIdeal.τ Cert.ReferenceIdeal.sig (Elt Ideal))
    (hehat : (Wk (Proc.devRef .tc Cert.KernelIdeal.main_v54_0) : FVec Ideal Cert.KernelIdeal.S524288x64 .f32) = Qr (Proc.devRef .tc Cert.ReferenceIdeal.main_v65))
    (hold : (Wk (Proc.devRef .tc Cert.KernelIdeal.main_v3) : FVec Ideal Cert.KernelIdeal.S524288x64 .f32) = Qr (Proc.devRef .tc Cert.ReferenceIdeal.main_v9))
    (hg : (Wk (Proc.devRef .tc Cert.KernelIdeal.main_arg23) : FVec Ideal Cert.KernelIdeal.S3x64 .f32) = Qr (Proc.devRef .tc Cert.ReferenceIdeal.main_arg23))
    (hb : (Wk (Proc.devRef .tc Cert.KernelIdeal.main_arg24) : FVec Ideal Cert.KernelIdeal.S3x64 .f32) = Qr (Proc.devRef .tc Cert.ReferenceIdeal.main_arg24)) :
    Cert.KernelIdeal.Hand.G5_6 ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v54_0)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v86)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v87))
        ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v88)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v89)) ((StableHlo.after (Cert.KernelIdeal.Gen.hostOps5_2 (F := Ideal)) (StableHlo.after (Cert.KernelIdeal.Gen.hostOps5_1 (F := Ideal)) (StableHlo.after (Cert.KernelIdeal.Gen.hostOps5 (F := Ideal)) Wk))) (Proc.devRef .tc Cert.KernelIdeal.main_v3))
      = StableHlo.after (Cert.ReferenceIdeal.Hand.rops5 (F := Ideal)) Qr (Proc.devRef .tc Cert.ReferenceIdeal.main_v139) := by
  rw [G5_6_eq]; exact bne_loc_L0 Wk Qr hehat hold hg hb

/-- Layer 1, the batch norm of the node features. -/
theorem bnh_L1 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps8 (F := Ideal)) Wk (Proc.devRef .tc Cert.KernelIdeal.main_v151) : FVec Ideal Cert.KernelIdeal.S32768x64 .f32) = Qr (Proc.devRef .tc Cert.ReferenceIdeal.main_v219))
    (hold : (Wk (Proc.devRef .tc Cert.KernelIdeal.main_v77) : FVec Ideal Cert.KernelIdeal.S32768x64 .f32) = Qr (Proc.devRef .tc Cert.ReferenceIdeal.main_v114))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    Cert.KernelIdeal.Hand.G8_6 ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v151)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v160)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v161))
        ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v162)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v163)) ((StableHlo.after (Cert.KernelIdeal.Gen.hostOps8_2 (F := Ideal)) (StableHlo.after (Cert.KernelIdeal.Gen.hostOps8_1 (F := Ideal)) (StableHlo.after (Cert.KernelIdeal.Gen.hostOps8 (F := Ideal)) Wk))) (Proc.devRef .tc Cert.KernelIdeal.main_v77))
      = StableHlo.after (Cert.ReferenceIdeal.Hand.rops9 (F := Ideal)) Qr (Proc.devRef .tc Cert.ReferenceIdeal.main_v244) := by
  rw [G8_6_eq]; exact bnh_loc_L1 Wk Qr hnew hold hg hb

/-- Layer 1, the batch norm of the edge features. -/
theorem bne_L1 (Wk : Valuation Cert.KernelIdeal.τ Cert.KernelIdeal.sig (Elt Ideal)) (Qr : Valuation Cert.ReferenceIdeal.τ Cert.ReferenceIdeal.sig (Elt Ideal))
    (hehat : (Wk (Proc.devRef .tc Cert.KernelIdeal.main_v141_0) : FVec Ideal Cert.KernelIdeal.S524288x64 .f32) = Qr (Proc.devRef .tc Cert.ReferenceIdeal.main_v195))
    (hold : (Wk (Proc.devRef .tc Cert.KernelIdeal.main_v90) : FVec Ideal Cert.KernelIdeal.S524288x64 .f32) = Qr (Proc.devRef .tc Cert.ReferenceIdeal.main_v139))
    (hg : (Wk (Proc.devRef .tc Cert.KernelIdeal.main_arg23) : FVec Ideal Cert.KernelIdeal.S3x64 .f32) = Qr (Proc.devRef .tc Cert.ReferenceIdeal.main_arg23))
    (hb : (Wk (Proc.devRef .tc Cert.KernelIdeal.main_arg24) : FVec Ideal Cert.KernelIdeal.S3x64 .f32) = Qr (Proc.devRef .tc Cert.ReferenceIdeal.main_arg24)) :
    Cert.KernelIdeal.Hand.G9_6 ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v141_0)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v173)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v174))
        ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v175)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v176)) ((StableHlo.after (Cert.KernelIdeal.Gen.hostOps9_2 (F := Ideal)) (StableHlo.after (Cert.KernelIdeal.Gen.hostOps9_1 (F := Ideal)) (StableHlo.after (Cert.KernelIdeal.Gen.hostOps9 (F := Ideal)) Wk))) (Proc.devRef .tc Cert.KernelIdeal.main_v90))
      = StableHlo.after (Cert.ReferenceIdeal.Hand.rops10 (F := Ideal)) Qr (Proc.devRef .tc Cert.ReferenceIdeal.main_v269) := by
  rw [G9_6_eq]; exact bne_loc_L1 Wk Qr hehat hold hg hb

/-- Layer 2, the batch norm of the node features. -/
theorem bnh_L2 (Wk : Valuation Cert.KernelIdeal.τ Cert.KernelIdeal.sig (Elt Ideal)) (Qr : Valuation Cert.ReferenceIdeal.τ Cert.ReferenceIdeal.sig (Elt Ideal))
    (hnew : (StableHlo.after (Cert.KernelIdeal.Gen.hostOps12 (F := Ideal)) Wk (Proc.devRef .tc Cert.KernelIdeal.main_v238) : FVec Ideal Cert.KernelIdeal.S32768x64 .f32) = Qr (Proc.devRef .tc Cert.ReferenceIdeal.main_v349))
    (hold : (Wk (Proc.devRef .tc Cert.KernelIdeal.main_v164) : FVec Ideal Cert.KernelIdeal.S32768x64 .f32) = Qr (Proc.devRef .tc Cert.ReferenceIdeal.main_v244))
    (hg : (Wk (Proc.devRef .tc Cert.KernelIdeal.main_arg21) : FVec Ideal Cert.KernelIdeal.S3x64 .f32) = Qr (Proc.devRef .tc Cert.ReferenceIdeal.main_arg21))
    (hb : (Wk (Proc.devRef .tc Cert.KernelIdeal.main_arg22) : FVec Ideal Cert.KernelIdeal.S3x64 .f32) = Qr (Proc.devRef .tc Cert.ReferenceIdeal.main_arg22)) :
    Cert.KernelIdeal.Hand.G12_6 ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v238)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v247)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v248))
        ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v249)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v250)) ((StableHlo.after (Cert.KernelIdeal.Gen.hostOps12_2 (F := Ideal)) (StableHlo.after (Cert.KernelIdeal.Gen.hostOps12_1 (F := Ideal)) (StableHlo.after (Cert.KernelIdeal.Gen.hostOps12 (F := Ideal)) Wk))) (Proc.devRef .tc Cert.KernelIdeal.main_v164))
      = StableHlo.after (Cert.ReferenceIdeal.Hand.rops14 (F := Ideal)) Qr (Proc.devRef .tc Cert.ReferenceIdeal.main_v374) := by
  rw [G12_6_eq]; exact bnh_loc_L2 Wk Qr hnew hold hg hb

end Cert.Bridge

end
-- ==== Proof.BR.FinalL0.lean ====
import proofs.«142356_j74423193305351_1_alg».proof.Proof.BR.FinalBase
import proofs.«142356_j74423193305351_1_alg».proof.Proof.BR.Embed
import proofs.«142356_j74423193305351_1_alg».proof.Proof.BR.Linear0
import proofs.«142356_j74423193305351_1_alg».proof.Proof.BR.Edge0
import proofs.«142356_j74423193305351_1_alg».proof.Proof.BR.BnG

/-! # The chain of the steps: the two embeddings and layer 0

From the node features and the edge features the layer is entered with (`hh`, `he`: the kernel's arrays are the
reference's), each array the layer produces on the kernel's side is the reference's. -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The embeddings -/

/-- The node embedding: region 0's array is the reference's first node features. -/
theorem h0_eq (h : Agree m m' c) : (Cert.KernelIdeal.Hand.W2 m c) (Proc.devRef .tc Cert.KernelIdeal.main_v1) = (Q1 m' c) (Proc.devRef .tc Cert.ReferenceIdeal.main_v5) := by
  have key := embH (Cert.KernelIdeal.GenP.V0 m c) (Q0 m' c) ((agree_0 m m' c h).trans (Q0_arg m' c (r := Cert.ReferenceIdeal.main_arg0) (by decide)).symm) ((agree_7 m m' c h).trans (Q0_arg m' c (r := Cert.ReferenceIdeal.main_arg7) (by decide)).symm) ((agree_8 m m' c h).trans (Q0_arg m' c (r := Cert.ReferenceIdeal.main_arg8) (by decide)).symm)
  rw [Cert.KernelIdeal.Hand.W2_v1, W1_def m c, Q1_def m' c]
  exact key

/-- The edge embedding: region 1's array is the reference's first edge features. -/
theorem e0_eq (h : Agree m m' c) : (Cert.KernelIdeal.Hand.W4 m c) (Proc.devRef .tc Cert.KernelIdeal.main_v3) = (Q1 m' c) (Proc.devRef .tc Cert.ReferenceIdeal.main_v9) := by
  have key := embE (Cert.KernelIdeal.Hand.W2 m c) (Q0 m' c) ((Cert.KernelIdeal.Hand.W2_eq_launch_arg1 m c).trans ((agree_1 m m' c h).trans (Q0_arg m' c (r := Cert.ReferenceIdeal.main_arg1) (by decide)).symm)) ((Cert.KernelIdeal.Hand.W2_eq_launch_arg9 m c).trans ((agree_9 m m' c h).trans (Q0_arg m' c (r := Cert.ReferenceIdeal.main_arg9) (by decide)).symm)) ((Cert.KernelIdeal.Hand.W2_eq_launch_arg10 m c).trans ((agree_10 m m' c h).trans (Q0_arg m' c (r := Cert.ReferenceIdeal.main_arg10) (by decide)).symm))
  rw [Cert.KernelIdeal.Hand.W4_v3, W3_def m c, Q1_def m' c]
  exact key

/-! ## Layer 0 -/

/-- Layer 0's four linear maps of the node features: the four column blocks of region 2's array, as the kernel's
    next host stretch cuts them out, are the reference's four products. -/
theorem lin0 (h : Agree m m' c) (hh : (Cert.KernelIdeal.Hand.W2 m c) (Proc.devRef .tc Cert.KernelIdeal.main_v1) = (Q1 m' c) (Proc.devRef .tc Cert.ReferenceIdeal.main_v5)) :
    (Cert.KernelIdeal.Hand.W7 m c) (Proc.devRef .tc Cert.KernelIdeal.main_v24) = (Q2 m' c) (Proc.devRef .tc Cert.ReferenceIdeal.main_v17) ∧ (Cert.KernelIdeal.Hand.W7 m c) (Proc.devRef .tc Cert.KernelIdeal.main_v25) = (Q2 m' c) (Proc.devRef .tc Cert.ReferenceIdeal.main_v25)
    ∧ (Cert.KernelIdeal.Hand.W7 m c) (Proc.devRef .tc Cert.KernelIdeal.main_v26) = (Q2 m' c) (Proc.devRef .tc Cert.ReferenceIdeal.main_v33) ∧ (Cert.KernelIdeal.Hand.W7 m c) (Proc.devRef .tc Cert.KernelIdeal.main_v27) = (Q2 m' c) (Proc.devRef .tc Cert.ReferenceIdeal.main_v41) := by
  have key := linear0 (Cert.KernelIdeal.Hand.W4 m c) (Q1 m' c) ((Cert.KernelIdeal.Hand.W4_eq_W2_v1 m c).trans hh)
    ((Cert.KernelIdeal.Hand.W4_eq_launch_arg11 m c).trans ((agree_11 m m' c h).trans (Q1_arg m' c (r := Cert.ReferenceIdeal.main_arg11) (by decide)).symm))
    ((Cert.KernelIdeal.Hand.W4_eq_launch_arg12 m c).trans ((agree_12 m m' c h).trans (Q1_arg m' c (r := Cert.ReferenceIdeal.main_arg12) (by decide)).symm))
    ((Cert.KernelIdeal.Hand.W4_eq_launch_arg13 m c).trans ((agree_13 m m' c h).trans (Q1_arg m' c (r := Cert.ReferenceIdeal.main_arg13) (by decide)).symm))
    ((Cert.KernelIdeal.Hand.W4_eq_launch_arg14 m c).trans ((agree_14 m m' c h).trans (Q1_arg m' c (r := Cert.ReferenceIdeal.main_arg14) (by decide)).symm))
    ((Cert.KernelIdeal.Hand.W4_eq_launch_arg17 m c).trans ((agree_17 m m' c h).trans (Q1_arg m' c (r := Cert.ReferenceIdeal.main_arg17) (by decide)).symm))
    ((Cert.KernelIdeal.Hand.W4_eq_launch_arg18 m c).trans ((agree_18 m m' c h).trans (Q1_arg m' c (r := Cert.ReferenceIdeal.main_arg18) (by decide)).symm))
    ((Cert.KernelIdeal.Hand.W4_eq_launch_arg19 m c).trans ((agree_19 m m' c h).trans (Q1_arg m' c (r := Cert.ReferenceIdeal.main_arg19) (by decide)).symm))
    ((Cert.KernelIdeal.Hand.W4_eq_launch_arg20 m c).trans ((agree_20 m m' c h).trans (Q1_arg m' c (r := Cert.ReferenceIdeal.main_arg20) (by decide)).symm))
  refine ⟨?_, ?_, ?_, ?_⟩
  · rw [W7_def m c, hostOps3_v24, Cert.KernelIdeal.Hand.W6_v23, W5_def m c, Q2_def m' c]
    exact key.1
  · rw [W7_def m c, hostOps3_v25, Cert.KernelIdeal.Hand.W6_v23, W5_def m c, Q2_def m' c]
    exact key.2.1
  · rw [W7_def m c, hostOps3_v26, Cert.KernelIdeal.Hand.W6_v23, W5_def m c, Q2_def m' c]
    exact key.2.2.1
  · rw [W7_def m c, hostOps3_v27, Cert.KernelIdeal.Hand.W6_v23, W5_def m c, Q2_def m' c]
    exact key.2.2.2

/-- Layer 0's edge update: region 3's three arrays are the reference's pre-activation, gate and message. -/
theorem edge0 (h : Agree m m' c) (hh : (Cert.KernelIdeal.Hand.W2 m c) (Proc.devRef .tc Cert.KernelIdeal.main_v1) = (Q1 m' c) (Proc.devRef .tc Cert.ReferenceIdeal.main_v5)) (he : (Cert.KernelIdeal.Hand.W4 m c) (Proc.devRef .tc Cert.KernelIdeal.main_v3) = (Q1 m' c) (Proc.devRef .tc Cert.ReferenceIdeal.main_v9)) :
    (Cert.KernelIdeal.Hand.W8 m c) (Proc.devRef .tc Cert.KernelIdeal.main_v54_0) = (Q3 m' c) (Proc.devRef .tc Cert.ReferenceIdeal.main_v65) ∧ (Cert.KernelIdeal.Hand.W8 m c) (Proc.devRef .tc Cert.KernelIdeal.main_v54_1) = (Q3 m' c) (Proc.devRef .tc Cert.ReferenceIdeal.main_v71)
    ∧ (Cert.KernelIdeal.Hand.W8 m c) (Proc.devRef .tc Cert.KernelIdeal.main_v54_2) = (Q3 m' c) (Proc.devRef .tc Cert.ReferenceIdeal.main_v79) := by
  obtain ⟨lA, lB, lD, lE⟩ := lin0 m m' c h hh
  rw [W7_def m c, Q2_def m' c] at lB lD lE
  have key := edge_update_0 (Cert.KernelIdeal.Hand.W6 m c) (Q1 m' c)
    ((Cert.KernelIdeal.Hand.W6_eq_W4_v3 m c).trans he)
    ((Cert.KernelIdeal.Hand.W6_eq_launch_arg2 m c).trans ((agree_2 m m' c h).trans (Q1_arg m' c (r := Cert.ReferenceIdeal.main_arg2) (by decide)).symm))
    ((Cert.KernelIdeal.Hand.W6_eq_launch_arg3 m c).trans ((agree_3 m m' c h).trans (Q1_arg m' c (r := Cert.ReferenceIdeal.main_arg3) (by decide)).symm))
    ((Cert.KernelIdeal.Hand.W6_eq_launch_arg15 m c).trans ((agree_15 m m' c h).trans (Q1_arg m' c (r := Cert.ReferenceIdeal.main_arg15) (by decide)).symm))
    ((Cert.KernelIdeal.Hand.W6_eq_launch_arg16 m c).trans ((agree_16 m m' c h).trans (Q1_arg m' c (r := Cert.ReferenceIdeal.main_arg16) (by decide)).symm))
    lB lD lE
  refine ⟨?_, ?_, ?_⟩
  · rw [Cert.KernelIdeal.Hand.W8_v54_0, hand_G3_6, W7_def m c, Q3_def m' c]
    exact key.1
  · rw [Cert.KernelIdeal.Hand.W8_v54_1, hand_G3_7, W7_def m c, Q3_def m' c]
    exact key.2.1
  · rw [Cert.KernelIdeal.Hand.W8_v54_2, hand_G3_8, W7_def m c, Q3_def m' c]
    exact key.2.2

/-- Layer 0's aggregation of the messages at the destination nodes. -/
theorem agg0 (h : Agree m m' c) (hh : (Cert.KernelIdeal.Hand.W2 m c) (Proc.devRef .tc Cert.KernelIdeal.main_v1) = (Q1 m' c) (Proc.devRef .tc Cert.ReferenceIdeal.main_v5)) (he : (Cert.KernelIdeal.Hand.W4 m c) (Proc.devRef .tc Cert.KernelIdeal.main_v3) = (Q1 m' c) (Proc.devRef .tc Cert.ReferenceIdeal.main_v9)) :
    ((StableHlo.after (Cert.KernelIdeal.Gen.hostOps4 (F := Ideal)) (Cert.KernelIdeal.Hand.W8 m c)) (Proc.devRef .tc Cert.KernelIdeal.main_v64) : FVec Ideal Cert.KernelIdeal.S32768x64 .f32) = (Q4 m' c) (Proc.devRef .tc Cert.ReferenceIdeal.main_v89) := by
  obtain ⟨e0, e1, e2⟩ := edge0 m m' c h hh he
  obtain ⟨lA, -, -, -⟩ := lin0 m m' c h hh
  have key := agg_L0 (Cert.KernelIdeal.Hand.W8 m c) (Q3 m' c) e2 e1
    ((Cert.KernelIdeal.Hand.W8_eq_W7_v24 m c).trans (lA.trans (Q3_of m' c Cert.ReferenceIdeal.main_v17 (by decide +kernel)).symm))
    ((Cert.KernelIdeal.Hand.W8_eq_launch_arg3 m c).trans ((agree_3 m m' c h).trans (Q3_arg m' c (r := Cert.ReferenceIdeal.main_arg3) (by decide)).symm))
  rw [Q4_def m' c]
  exact key

/-- Layer 0's batch norm of the node features with its residual: region 4's array is the reference's next node
    features. -/
theorem hnext0 (h : Agree m m' c) (hh : (Cert.KernelIdeal.Hand.W2 m c) (Proc.devRef .tc Cert.KernelIdeal.main_v1) = (Q1 m' c) (Proc.devRef .tc Cert.ReferenceIdeal.main_v5)) (he : (Cert.KernelIdeal.Hand.W4 m c) (Proc.devRef .tc Cert.KernelIdeal.main_v3) = (Q1 m' c) (Proc.devRef .tc Cert.ReferenceIdeal.main_v9)) : (Cert.KernelIdeal.Hand.W12 m c) (Proc.devRef .tc Cert.KernelIdeal.main_v77) = (Q5 m' c) (Proc.devRef .tc Cert.ReferenceIdeal.main_v114) := by
  have key := bnh_L0 (Cert.KernelIdeal.Hand.W8 m c) (Q4 m' c) (agg0 m m' c h hh he)
    ((Cert.KernelIdeal.Hand.W8_eq_W2_v1 m c).trans (hh.trans ((Q4_of m' c Cert.ReferenceIdeal.main_v5 (by decide +kernel)).trans ((Q3_of m' c Cert.ReferenceIdeal.main_v5 (by decide +kernel)).trans (Q2_of m' c Cert.ReferenceIdeal.main_v5 (by decide +kernel)))).symm))
    ((Cert.KernelIdeal.Hand.W8_eq_launch_arg21 m c).trans ((agree_21 m m' c h).trans (Q4_arg m' c (r := Cert.ReferenceIdeal.main_arg21) (by decide)).symm))
    ((Cert.KernelIdeal.Hand.W8_eq_launch_arg22 m c).trans ((agree_22 m m' c h).trans (Q4_arg m' c (r := Cert.ReferenceIdeal.main_arg22) (by decide)).symm))
  rw [Cert.KernelIdeal.Hand.W12_v77, W11_def m c, Q5_def m' c]
  exact key

/-- Layer 0's batch norm of the edge features with its residual: region 5's array is the reference's next edge
    features. -/
theorem enext0 (h : Agree m m' c) (hh : (Cert.KernelIdeal.Hand.W2 m c) (Proc.devRef .tc Cert.KernelIdeal.main_v1) = (Q1 m' c) (Proc.devRef .tc Cert.ReferenceIdeal.main_v5)) (he : (Cert.KernelIdeal.Hand.W4 m c) (Proc.devRef .tc Cert.KernelIdeal.main_v3) = (Q1 m' c) (Proc.devRef .tc Cert.ReferenceIdeal.main_v9)) : (Cert.KernelIdeal.Hand.W16 m c) (Proc.devRef .tc Cert.KernelIdeal.main_v90) = (Q6 m' c) (Proc.devRef .tc Cert.ReferenceIdeal.main_v139) := by
  obtain ⟨e0, -, -⟩ := edge0 m m' c h hh he
  have key := bne_L0 (Cert.KernelIdeal.Hand.W12 m c) (Q5 m' c)
    ((Cert.KernelIdeal.Hand.W12_eq_W8_v54_0 m c).trans (e0.trans ((Q5_of m' c Cert.ReferenceIdeal.main_v65 (by decide +kernel)).trans (Q4_of m' c Cert.ReferenceIdeal.main_v65 (by decide +kernel))).symm))
    ((Cert.KernelIdeal.Hand.W12_eq_W4_v3 m c).trans (he.trans ((Q5_of m' c Cert.ReferenceIdeal.main_v9 (by decide +kernel)).trans ((Q4_of m' c Cert.ReferenceIdeal.main_v9 (by decide +kernel)).trans ((Q3_of m' c Cert.ReferenceIdeal.main_v9 (by decide +kernel)).trans (Q2_of m' c Cert.ReferenceIdeal.main_v9 (by decide +kernel))))).symm))
    ((Cert.KernelIdeal.Hand.W12_eq_launch_arg23 m c).trans ((agree_23 m m' c h).trans (Q5_arg m' c (r := Cert.ReferenceIdeal.main_arg23) (by decide)).symm))
    ((Cert.KernelIdeal.Hand.W12_eq_launch_arg24 m c).trans ((agree_24 m m' c h).trans (Q5_arg m' c (r := Cert.ReferenceIdeal.main_arg24) (by decide)).symm))
  rw [Cert.KernelIdeal.Hand.W16_v90, W15_def m c, Q6_def m' c]
  exact key

/-- Layer 0, from the agreement of the arguments: the node and the edge features it leaves are the reference's. -/
theorem layer0 (h : Agree m m' c) :
    (Cert.KernelIdeal.Hand.W12 m c) (Proc.devRef .tc Cert.KernelIdeal.main_v77) = (Q5 m' c) (Proc.devRef .tc Cert.ReferenceIdeal.main_v114) ∧ (Cert.KernelIdeal.Hand.W16 m c) (Proc.devRef .tc Cert.KernelIdeal.main_v90) = (Q6 m' c) (Proc.devRef .tc Cert.ReferenceIdeal.main_v139) :=
  ⟨hnext0 m m' c h (h0_eq m m' c h) (e0_eq m m' c h), enext0 m m' c h (h0_eq m m' c h) (e0_eq m m' c h)⟩

end Cert.Bridge
-- ==== Proof.BR.Linear1.lean ====
import proofs.«142356_j74423193305351_1_alg».proof.Proof.Gen.KernelIdeal.Launch
import proofs.«142356_j74423193305351_1_alg».proof.Proof.KI.V6
import proofs.«142356_j74423193305351_1_alg».proof.Proof.RI.Ops1
import proofs.«142356_j74423193305351_1_alg».proof.Proof.BR.LinCat
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo

/-! # Layer 1's linear maps: one product into 256 columns, cut into four, against the reference's four products -/

/-! ## What the region finds: h untouched, the four weights side by side, the four biases end to end as one row -/

theorem linear1_kx (Wk : Valuation Cert.KernelIdeal.τ Cert.KernelIdeal.sig (Elt Ideal)) :
    StableHlo.after (Cert.KernelIdeal.Gen.hostOps6 (F := Ideal)) Wk (Proc.devRef .tc Cert.KernelIdeal.main_v77) = Wk (Proc.devRef .tc Cert.KernelIdeal.main_v77) := by after_results
theorem linear1_kW (Wk : Valuation Cert.KernelIdeal.τ Cert.KernelIdeal.sig (Elt Ideal)) :
    (StableHlo.after (Cert.KernelIdeal.Gen.hostOps6 (F := Ideal)) Wk (Proc.devRef .tc Cert.KernelIdeal.main_v99) : Vec Ideal Cert.KernelIdeal.S64x256 .f32)
      = cat4 (wsl1 (Wk (Proc.devRef .tc Cert.KernelIdeal.main_arg11))) (wsl1 (Wk (Proc.devRef .tc Cert.KernelIdeal.main_arg13))) (wsl1 (Wk (Proc.devRef .tc Cert.KernelIdeal.main_arg17))) (wsl1 (Wk (Proc.devRef .tc Cert.KernelIdeal.main_arg19))) := by
  after_results; rfl
theorem linear1_kb (Wk : Valuation Cert.KernelIdeal.τ Cert.KernelIdeal.sig (Elt Ideal)) :
    (StableHlo.after (Cert.KernelIdeal.Gen.hostOps6 (F := Ideal)) Wk (Proc.devRef .tc Cert.KernelIdeal.main_v109) : Vec Ideal Cert.KernelIdeal.S1x256 .f32)
      = row4 (bsl1 (Wk (Proc.devRef .tc Cert.KernelIdeal.main_arg12))) (bsl1 (Wk (Proc.devRef .tc Cert.KernelIdeal.main_arg14))) (bsl1 (Wk (Proc.devRef .tc Cert.KernelIdeal.main_arg18))) (bsl1 (Wk (Proc.devRef .tc Cert.KernelIdeal.main_arg20))) := by
  after_results; rfl

/-! ## The reference's four products read back -/

/-- The reference's A h: the product of h with layer 1 of A's weights plus layer 1 of its bias. -/
theorem linear1_rA (Qr : Valuation Cert.ReferenceIdeal.τ Cert.ReferenceIdeal.sig (Elt Ideal)) :
    (StableHlo.after (Cert.ReferenceIdeal.Hand.rops6 (F := Ideal)) Qr (Proc.devRef .tc Cert.ReferenceIdeal.main_v147) : Vec Ideal Cert.ReferenceIdeal.S32768x64 .f32)
      = refLin (Qr (Proc.devRef .tc Cert.ReferenceIdeal.main_v114)) (wsl1 (Qr (Proc.devRef .tc Cert.ReferenceIdeal.main_arg11))) (bsl1 (Qr (Proc.devRef .tc Cert.ReferenceIdeal.main_arg12))) := by
  after_results_simp; rfl
/-- The reference's B h: the product of h with layer 1 of B's weights plus layer 1 of its bias. -/
theorem linear1_rB (Qr : Valuation Cert.ReferenceIdeal.τ Cert.ReferenceIdeal.sig (Elt Ideal)) :
    (StableHlo.after (Cert.ReferenceIdeal.Hand.rops6 (F := Ideal)) Qr (Proc.devRef .tc Cert.ReferenceIdeal.main_v155) : Vec Ideal Cert.ReferenceIdeal.S32768x64 .f32)
      = refLin (Qr (Proc.devRef .tc Cert.ReferenceIdeal.main_v114)) (wsl1 (Qr (Proc.devRef .tc Cert.ReferenceIdeal.main_arg13))) (bsl1 (Qr (Proc.devRef .tc Cert.ReferenceIdeal.main_arg14))) := by
  after_results_simp; rfl
/-- The reference's D h: the product of h with layer 1 of D's weights plus layer 1 of its bias. -/
theorem linear1_rD (Qr : Valuation Cert.ReferenceIdeal.τ Cert.ReferenceIdeal.sig (Elt Ideal)) :
    (StableHlo.after (Cert.ReferenceIdeal.Hand.rops6 (F := Ideal)) Qr (Proc.devRef .tc Cert.ReferenceIdeal.main_v163) : Vec Ideal Cert.ReferenceIdeal.S32768x64 .f32)
      = refLin (Qr (Proc.devRef .tc Cert.ReferenceIdeal.main_v114)) (wsl1 (Qr (Proc.devRef .tc Cert.ReferenceIdeal.main_arg17))) (bsl1 (Qr (Proc.devRef .tc Cert.ReferenceIdeal.main_arg18))) := by
  after_results_simp; rfl
/-- The reference's E h: the product of h with layer 1 of E's weights plus layer 1 of its bias. -/
theorem linear1_rE (Qr : Valuation Cert.ReferenceIdeal.τ Cert.ReferenceIdeal.sig (Elt Ideal)) :
    (StableHlo.after (Cert.ReferenceIdeal.Hand.rops6 (F := Ideal)) Qr (Proc.devRef .tc Cert.ReferenceIdeal.main_v171) : Vec Ideal Cert.ReferenceIdeal.S32768x64 .f32)
      = refLin (Qr (Proc.devRef .tc Cert.ReferenceIdeal.main_v114)) (wsl1 (Qr (Proc.devRef .tc Cert.ReferenceIdeal.main_arg19))) (bsl1 (Qr (Proc.devRef .tc Cert.ReferenceIdeal.main_arg20))) := by
  after_results_simp; rfl

/-! ## The step -/

/-- The four blocks of 64 columns of the region's array, from the valuation in which the weights and biases have been
    put side by side, are the reference's A h, B h, D h, E h. -/
theorem linear1 (Wk : Valuation Cert.KernelIdeal.τ Cert.KernelIdeal.sig (Elt Ideal)) (Qr : Valuation Cert.ReferenceIdeal.τ Cert.ReferenceIdeal.sig (Elt Ideal))
    (hh : Wk (Proc.devRef .tc Cert.KernelIdeal.main_v77) = Qr (Proc.devRef .tc Cert.ReferenceIdeal.main_v114))
    (h11 : Wk (Proc.devRef .tc Cert.KernelIdeal.main_arg11) = Qr (Proc.devRef .tc Cert.ReferenceIdeal.main_arg11))
    (h12 : Wk (Proc.devRef .tc Cert.KernelIdeal.main_arg12) = Qr (Proc.devRef .tc Cert.ReferenceIdeal.main_arg12))
    (h13 : Wk (Proc.devRef .tc Cert.KernelIdeal.main_arg13) = Qr (Proc.devRef .tc Cert.ReferenceIdeal.main_arg13))
    (h14 : Wk (Proc.devRef .tc Cert.KernelIdeal.main_arg14) = Qr (Proc.devRef .tc Cert.ReferenceIdeal.main_arg14))
    (h17 : Wk (Proc.devRef .tc Cert.KernelIdeal.main_arg17) = Qr (Proc.devRef .tc Cert.ReferenceIdeal.main_arg17))
    (h18 : Wk (Proc.devRef .tc Cert.KernelIdeal.main_arg18) = Qr (Proc.devRef .tc Cert.ReferenceIdeal.main_arg18))
    (h19 : Wk (Proc.devRef .tc Cert.KernelIdeal.main_arg19) = Qr (Proc.devRef .tc Cert.ReferenceIdeal.main_arg19))
    (h20 : Wk (Proc.devRef .tc Cert.KernelIdeal.main_arg20) = Qr (Proc.devRef .tc Cert.ReferenceIdeal.main_arg20)) :
    extractStridedSlice Cert.KernelIdeal.S32768x64 ![0, 0] (Cert.KernelIdeal.Hand.G6_3 (StableHlo.after (Cert.KernelIdeal.Gen.hostOps6 (F := Ideal)) Wk (Proc.devRef .tc Cert.KernelIdeal.main_v77))
        (StableHlo.after (Cert.KernelIdeal.Gen.hostOps6 (F := Ideal)) Wk (Proc.devRef .tc Cert.KernelIdeal.main_v99))
        (StableHlo.after (Cert.KernelIdeal.Gen.hostOps6 (F := Ideal)) Wk (Proc.devRef .tc Cert.KernelIdeal.main_v109))) Cert.KernelIdeal.Gen.slices_S32768x256_S32768x64_0_0
        = StableHlo.after (Cert.ReferenceIdeal.Hand.rops6 (F := Ideal)) Qr (Proc.devRef .tc Cert.ReferenceIdeal.main_v147)
    ∧ extractStridedSlice Cert.KernelIdeal.S32768x64 ![0, 64] (Cert.KernelIdeal.Hand.G6_3 (StableHlo.after (Cert.KernelIdeal.Gen.hostOps6 (F := Ideal)) Wk (Proc.devRef .tc Cert.KernelIdeal.main_v77))
        (StableHlo.after (Cert.KernelIdeal.Gen.hostOps6 (F := Ideal)) Wk (Proc.devRef .tc Cert.KernelIdeal.main_v99))
        (StableHlo.after (Cert.KernelIdeal.Gen.hostOps6 (F := Ideal)) Wk (Proc.devRef .tc Cert.KernelIdeal.main_v109))) Cert.KernelIdeal.Gen.slices_S32768x256_S32768x64_0_64
        = StableHlo.after (Cert.ReferenceIdeal.Hand.rops6 (F := Ideal)) Qr (Proc.devRef .tc Cert.ReferenceIdeal.main_v155)
    ∧ extractStridedSlice Cert.KernelIdeal.S32768x64 ![0, 128] (Cert.KernelIdeal.Hand.G6_3 (StableHlo.after (Cert.KernelIdeal.Gen.hostOps6 (F := Ideal)) Wk (Proc.devRef .tc Cert.KernelIdeal.main_v77))
        (StableHlo.after (Cert.KernelIdeal.Gen.hostOps6 (F := Ideal)) Wk (Proc.devRef .tc Cert.KernelIdeal.main_v99))
        (StableHlo.after (Cert.KernelIdeal.Gen.hostOps6 (F := Ideal)) Wk (Proc.devRef .tc Cert.KernelIdeal.main_v109))) Cert.KernelIdeal.Gen.slices_S32768x256_S32768x64_0_128
        = StableHlo.after (Cert.ReferenceIdeal.Hand.rops6 (F := Ideal)) Qr (Proc.devRef .tc Cert.ReferenceIdeal.main_v163)
    ∧ extractStridedSlice Cert.KernelIdeal.S32768x64 ![0, 192] (Cert.KernelIdeal.Hand.G6_3 (StableHlo.after (Cert.KernelIdeal.Gen.hostOps6 (F := Ideal)) Wk (Proc.devRef .tc Cert.KernelIdeal.main_v77))
        (StableHlo.after (Cert.KernelIdeal.Gen.hostOps6 (F := Ideal)) Wk (Proc.devRef .tc Cert.KernelIdeal.main_v99))
        (StableHlo.after (Cert.KernelIdeal.Gen.hostOps6 (F := Ideal)) Wk (Proc.devRef .tc Cert.KernelIdeal.main_v109))) Cert.KernelIdeal.Gen.slices_S32768x256_S32768x64_0_192
        = StableHlo.after (Cert.ReferenceIdeal.Hand.rops6 (F := Ideal)) Qr (Proc.devRef .tc Cert.ReferenceIdeal.main_v171) := by
  rw [linear1_kx, linear1_kW, linear1_kb, linear1_rA, linear1_rB, linear1_rD, linear1_rE, hh, h11, h12, h13, h14, h17, h18, h19, h20]
  exact linear_val _ _ _ _ _ _ _ _ _

/-! ## The four cuts read back from the host stretch after the region -/

/-- The first block of 64 columns, as the host stretch after the region cuts it out. -/
theorem hostOps7_v111 (W : Valuation Cert.KernelIdeal.τ Cert.KernelIdeal.sig (Elt Ideal)) :
    (StableHlo.after (Cert.KernelIdeal.Gen.hostOps7 (F := Ideal)) W (Proc.devRef .tc Cert.KernelIdeal.main_v111) : Vec Ideal Cert.KernelIdeal.S32768x64 .f32)
      = extractStridedSlice Cert.KernelIdeal.S32768x64 ![0, 0] (W (Proc.devRef .tc Cert.KernelIdeal.main_v110)) Cert.KernelIdeal.Gen.slices_S32768x256_S32768x64_0_0 := by
  after_results_simp
/-- The second block of 64 columns, as the host stretch after the region cuts it out. -/
theorem hostOps7_v112 (W : Valuation Cert.KernelIdeal.τ Cert.KernelIdeal.sig (Elt Ideal)) :
    (StableHlo.after (Cert.KernelIdeal.Gen.hostOps7 (F := Ideal)) W (Proc.devRef .tc Cert.KernelIdeal.main_v112) : Vec Ideal Cert.KernelIdeal.S32768x64 .f32)
      = extractStridedSlice Cert.KernelIdeal.S32768x64 ![0, 64] (W (Proc.devRef .tc Cert.KernelIdeal.main_v110)) Cert.KernelIdeal.Gen.slices_S32768x256_S32768x64_0_64 := by
  after_results_simp
/-- The third block of 64 columns, as the host stretch after the region cuts it out. -/
theorem hostOps7_v113 (W : Valuation Cert.KernelIdeal.τ Cert.KernelIdeal.sig (Elt Ideal)) :
    (StableHlo.after (Cert.KernelIdeal.Gen.hostOps7 (F := Ideal)) W (Proc.devRef .tc Cert.KernelIdeal.main_v113) : Vec Ideal Cert.KernelIdeal.S32768x64 .f32)
      = extractStridedSlice Cert.KernelIdeal.S32768x64 ![0, 128] (W (Proc.devRef .tc Cert.KernelIdeal.main_v110)) Cert.KernelIdeal.Gen.slices_S32768x256_S32768x64_0_128 := by
  after_results_simp
/-- The fourth block of 64 columns, as the host stretch after the region cuts it out. -/
theorem hostOps7_v114 (W : Valuation Cert.KernelIdeal.τ Cert.KernelIdeal.sig (Elt Ideal)) :
    (StableHlo.after (Cert.KernelIdeal.Gen.hostOps7 (F := Ideal)) W (Proc.devRef .tc Cert.KernelIdeal.main_v114) : Vec Ideal Cert.KernelIdeal.S32768x64 .f32)
      = extractStridedSlice Cert.KernelIdeal.S32768x64 ![0, 192] (W (Proc.devRef .tc Cert.KernelIdeal.main_v110)) Cert.KernelIdeal.Gen.slices_S32768x256_S32768x64_0_192 := by
  after_results_simp

end Cert.Bridge

end
-- ==== Proof.BR.Edge1.lean ====
import proofs.«142356_j74423193305351_1_alg».proof.Proof.Gen.KernelIdeal.Launch
import proofs.«142356_j74423193305351_1_alg».proof.Proof.Gen.ReferenceIdeal
import proofs.«142356_j74423193305351_1_alg».proof.Proof.RI.Ops1
import proofs.«142356_j74423193305351_1_alg».proof.Proof.BR.EdgeMath
import Idealize.ShloMosaic.Lib.StableHlo.Run

/-! # The edge update of layer 1: the kernel's region 7 against the reference's chunks 6 and 7

Both programs normalise the edges' source and destination indices, gather the rows of the node arrays `Dh`, `Eh`, `Bh`
at them, and take layer 1's edge weight matrix and bias out of the stacks of three. The kernel then runs its region on
these arrays; the reference goes on with host operations. This file reads each side's operations back to the same
terms over the entry buffers — the gathers and the slices are the same functions of equal operands and are never
opened — and closes with the three equations of the edge update's arrays (pre-activation, gate, message). -/

noncomputable section

namespace Cert.Bridge

open Idealize.ShloMosaic Idealize.ShloMosaic.StableHlo Idealize.ShloMosaic.ValueIdx Idealize.SL.Sem

/-! ## The kernel's host stretch before the region, read back -/

section K
open Cert.KernelIdeal Cert.KernelIdeal.Gen
variable {F : FTy → Type} [FloatOps F]

/-- Layer 1's edge weight matrix, out of the stack of three. -/
def cwOf1 (a : Vec F S3x64x64 .f32) : Vec F S64x64 .f32 :=
  shapeCast S64x64 (extractStridedSlice S1x64x64 ![1, 0, 0] a slices_S3x64x64_S1x64x64_1_0_0) shapeCasts_S1x64x64_S64x64

/-- Layer 1's edge bias, flat, out of the stack of three. -/
def cbOf1 (a : Vec F S3x64 .f32) : Vec F S64 .f32 :=
  shapeCast S64 (extractStridedSlice S1x64 ![1, 0] a slices_S3x64_S1x64_1_0) shapeCasts_S1x64_S64

variable (Wk : Valuation τ sig (Elt F))

/-- The stretch does not write the edge features. -/
theorem ek1_e : StableHlo.after (hostOps7 (F := F)) Wk (Proc.devRef .tc main_v90) = Wk (Proc.devRef .tc main_v90) := by
  after_results_simp
/-- The region's weight window is layer 1's matrix of the stacked argument. -/
theorem ek1_cw : (StableHlo.after (hostOps7 (F := F)) Wk (Proc.devRef .tc main_v137) : Vec F S64x64 .f32)
    = cwOf1 (Wk (Proc.devRef .tc main_arg15)) := by
  after_results_simp <;> rfl
/-- The region's bias window is layer 1's bias of the stacked argument, as one row. -/
theorem ek1_cb : (StableHlo.after (hostOps7 (F := F)) Wk (Proc.devRef .tc main_v140) : Vec F S1x64 .f32)
    = shapeCast S1x64 (cbOf1 (Wk (Proc.devRef .tc main_arg16))) shapeCasts_S64_S1x64 := by
  after_results_simp <;> rfl
/-- The three gathered windows: the rows of `Dh` at the sources, of `Eh` at the destinations, of `Bh` at the sources. -/
theorem ek1_d : (StableHlo.after (hostOps7 (F := F)) Wk (Proc.devRef .tc main_v121) : Vec F S524288x64 .f32)
    = rowGather (StableHlo.after (hostOps7 (F := F)) Wk (Proc.devRef .tc main_v113)) (Wk (Proc.devRef .tc main_arg2)) := by
  after_results_simp <;> rfl
theorem ek1_g : (StableHlo.after (hostOps7 (F := F)) Wk (Proc.devRef .tc main_v128) : Vec F S524288x64 .f32)
    = rowGather (StableHlo.after (hostOps7 (F := F)) Wk (Proc.devRef .tc main_v114)) (Wk (Proc.devRef .tc main_arg3)) := by
  after_results_simp <;> rfl
theorem ek1_u : (StableHlo.after (hostOps7 (F := F)) Wk (Proc.devRef .tc main_v135) : Vec F S524288x64 .f32)
    = rowGather (StableHlo.after (hostOps7 (F := F)) Wk (Proc.devRef .tc main_v112)) (Wk (Proc.devRef .tc main_arg2)) := by
  after_results_simp <;> rfl

end K

/-! ## The reference's two chunks, read back -/

section R
open Cert.ReferenceIdeal Cert.ReferenceIdeal.Gen Cert.ReferenceIdeal.Hand
variable {F : FTy → Type} [FloatOps F]
variable (Qr : Valuation τ sig (Elt F))

/-- The first chunk does not write the index arguments. -/
theorem er1_a2 : StableHlo.after (rops6 (F := F)) Qr (Proc.devRef .tc main_arg2) = Qr (Proc.devRef .tc main_arg2) := by
  after_results_simp
theorem er1_a3 : StableHlo.after (rops6 (F := F)) Qr (Proc.devRef .tc main_arg3) = Qr (Proc.devRef .tc main_arg3) := by
  after_results_simp

/-- The edge's linear layer as the reference computes it: the product with layer 1's matrix plus its bias laid along
    the edges. -/
theorem er1_ce : (StableHlo.after (rops6 (F := F)) Qr (Proc.devRef .tc main_v179) : Vec F S524288x64 .f32)
    = addf (Host.dotGeneral dot_S524288x64_S64x64_S524288x64_1_0_0_1_n_n none (Qr (Proc.devRef .tc main_v139)) (cwOf1 (Qr (Proc.devRef .tc main_arg15))))
        (broadcastInDim S524288x64 ![0, 1] bcast_S1x64_S524288x64_0_1 (broadcastInDim S1x64 ![1] bcast_S64_S1x64_1 (cbOf1 (Qr (Proc.devRef .tc main_arg16))))) := by
  after_results_simp <;> rfl

variable (Q1 : Valuation τ sig (Elt F))

/-- The pre-activation: the linear layer plus the rows of `Dh` at the sources, plus the rows of `Eh` at the
    destinations. -/
theorem er1_hat : (StableHlo.after (rops7 (F := F)) Q1 (Proc.devRef .tc main_v195) : Vec F S524288x64 .f32)
    = addf (addf (Q1 (Proc.devRef .tc main_v179)) (rowGather (Q1 (Proc.devRef .tc main_v163)) (Q1 (Proc.devRef .tc main_arg2))))
        (rowGather (Q1 (Proc.devRef .tc main_v171)) (Q1 (Proc.devRef .tc main_arg3))) := by
  after_results_simp <;> rfl
/-- The gate: one over one plus the exponential of the negated pre-activation. -/
theorem er1_gate : (StableHlo.after (rops7 (F := F)) Q1 (Proc.devRef .tc main_v201) : Vec F S524288x64 .f32)
    = Host.divf (broadcastInDim S524288x64 ![] bcast_S_S524288x64 (constant S_ .f32 0x3F800000#32))
        (addf (broadcastInDim S524288x64 ![] bcast_S_S524288x64 (constant S_ .f32 0x3F800000#32))
          (Host.exp (Host.negf (StableHlo.after (rops7 (F := F)) Q1 (Proc.devRef .tc main_v195))))) := by
  after_results_simp <;> rfl
/-- The message: the gate times the rows of `Bh` at the sources. -/
theorem er1_msg : (StableHlo.after (rops7 (F := F)) Q1 (Proc.devRef .tc main_v209) : Vec F S524288x64 .f32)
    = mulf (StableHlo.after (rops7 (F := F)) Q1 (Proc.devRef .tc main_v201))
        (rowGather (Q1 (Proc.devRef .tc main_v155)) (Q1 (Proc.devRef .tc main_arg2))) := by
  after_results_simp <;> rfl

end R

/-! ## The step -/

section Step

/-- The edge update of layer 1: from a kernel valuation `Wk` at the entry of the host stretch before region 7 and a
    reference valuation `Qr` at the entry of the reference's chunk 6, with the edge features, the edge indices, the
    stacked edge weights and biases equal on the two sides at entry, and the three node arrays `Bh`, `Dh`, `Eh` equal
    after the kernel's stretch and the reference's chunk 6: the region's three outputs, as functions of its input
    arrays after the stretch, are the reference's pre-activation, gate and message after chunk 7. -/
theorem edge_update_1
    (Wk : Valuation Cert.KernelIdeal.τ Cert.KernelIdeal.sig (Elt Ideal))
    (Qr : Valuation Cert.ReferenceIdeal.τ Cert.ReferenceIdeal.sig (Elt Ideal))
    (he : (Wk (Proc.devRef .tc Cert.KernelIdeal.main_v90) : FVec Ideal SEdge .f32) = Qr (Proc.devRef .tc Cert.ReferenceIdeal.main_v139))
    (h2 : (Wk (Proc.devRef .tc Cert.KernelIdeal.main_arg2) : IVec Cert.KernelIdeal.S524288 32) = Qr (Proc.devRef .tc Cert.ReferenceIdeal.main_arg2))
    (h3 : (Wk (Proc.devRef .tc Cert.KernelIdeal.main_arg3) : IVec Cert.KernelIdeal.S524288 32) = Qr (Proc.devRef .tc Cert.ReferenceIdeal.main_arg3))
    (h15 : (Wk (Proc.devRef .tc Cert.KernelIdeal.main_arg15) : FVec Ideal Cert.KernelIdeal.S3x64x64 .f32) = Qr (Proc.devRef .tc Cert.ReferenceIdeal.main_arg15))
    (h16 : (Wk (Proc.devRef .tc Cert.KernelIdeal.main_arg16) : FVec Ideal Cert.KernelIdeal.S3x64 .f32) = Qr (Proc.devRef .tc Cert.ReferenceIdeal.main_arg16))
    (hB : (StableHlo.after (Cert.KernelIdeal.Gen.hostOps7 (F := Ideal)) Wk (Proc.devRef .tc Cert.KernelIdeal.main_v112) : FVec Ideal Cert.KernelIdeal.S32768x64 .f32)
      = StableHlo.after (Cert.ReferenceIdeal.Hand.rops6 (F := Ideal)) Qr (Proc.devRef .tc Cert.ReferenceIdeal.main_v155))
    (hD : (StableHlo.after (Cert.KernelIdeal.Gen.hostOps7 (F := Ideal)) Wk (Proc.devRef .tc Cert.KernelIdeal.main_v113) : FVec Ideal Cert.KernelIdeal.S32768x64 .f32)
      = StableHlo.after (Cert.ReferenceIdeal.Hand.rops6 (F := Ideal)) Qr (Proc.devRef .tc Cert.ReferenceIdeal.main_v163))
    (hE : (StableHlo.after (Cert.KernelIdeal.Gen.hostOps7 (F := Ideal)) Wk (Proc.devRef .tc Cert.KernelIdeal.main_v114) : FVec Ideal Cert.KernelIdeal.S32768x64 .f32)
      = StableHlo.after (Cert.ReferenceIdeal.Hand.rops6 (F := Ideal)) Qr (Proc.devRef .tc Cert.ReferenceIdeal.main_v171)) :
    edgeHat (StableHlo.after (Cert.KernelIdeal.Gen.hostOps7 (F := Ideal)) Wk (Proc.devRef .tc Cert.KernelIdeal.main_v90))
        (StableHlo.after (Cert.KernelIdeal.Gen.hostOps7 (F := Ideal)) Wk (Proc.devRef .tc Cert.KernelIdeal.main_v137))
        (StableHlo.after (Cert.KernelIdeal.Gen.hostOps7 (F := Ideal)) Wk (Proc.devRef .tc Cert.KernelIdeal.main_v140))
        (StableHlo.after (Cert.KernelIdeal.Gen.hostOps7 (F := Ideal)) Wk (Proc.devRef .tc Cert.KernelIdeal.main_v121))
        (StableHlo.after (Cert.KernelIdeal.Gen.hostOps7 (F := Ideal)) Wk (Proc.devRef .tc Cert.KernelIdeal.main_v128))
      = StableHlo.after (Cert.ReferenceIdeal.Hand.rops7 (F := Ideal)) (StableHlo.after (Cert.ReferenceIdeal.Hand.rops6 (F := Ideal)) Qr) (Proc.devRef .tc Cert.ReferenceIdeal.main_v195)
    ∧ edgeGate (StableHlo.after (Cert.KernelIdeal.Gen.hostOps7 (F := Ideal)) Wk (Proc.devRef .tc Cert.KernelIdeal.main_v90))
        (StableHlo.after (Cert.KernelIdeal.Gen.hostOps7 (F := Ideal)) Wk (Proc.devRef .tc Cert.KernelIdeal.main_v137))
        (StableHlo.after (Cert.KernelIdeal.Gen.hostOps7 (F := Ideal)) Wk (Proc.devRef .tc Cert.KernelIdeal.main_v140))
        (StableHlo.after (Cert.KernelIdeal.Gen.hostOps7 (F := Ideal)) Wk (Proc.devRef .tc Cert.KernelIdeal.main_v121))
        (StableHlo.after (Cert.KernelIdeal.Gen.hostOps7 (F := Ideal)) Wk (Proc.devRef .tc Cert.KernelIdeal.main_v128))
      = StableHlo.after (Cert.ReferenceIdeal.Hand.rops7 (F := Ideal)) (StableHlo.after (Cert.ReferenceIdeal.Hand.rops6 (F := Ideal)) Qr) (Proc.devRef .tc Cert.ReferenceIdeal.main_v201)
    ∧ edgeMsg (StableHlo.after (Cert.KernelIdeal.Gen.hostOps7 (F := Ideal)) Wk (Proc.devRef .tc Cert.KernelIdeal.main_v90))
        (StableHlo.after (Cert.KernelIdeal.Gen.hostOps7 (F := Ideal)) Wk (Proc.devRef .tc Cert.KernelIdeal.main_v137))
        (StableHlo.after (Cert.KernelIdeal.Gen.hostOps7 (F := Ideal)) Wk (Proc.devRef .tc Cert.KernelIdeal.main_v140))
        (StableHlo.after (Cert.KernelIdeal.Gen.hostOps7 (F := Ideal)) Wk (Proc.devRef .tc Cert.KernelIdeal.main_v121))
        (StableHlo.after (Cert.KernelIdeal.Gen.hostOps7 (F := Ideal)) Wk (Proc.devRef .tc Cert.KernelIdeal.main_v128))
        (StableHlo.after (Cert.KernelIdeal.Gen.hostOps7 (F := Ideal)) Wk (Proc.devRef .tc Cert.KernelIdeal.main_v135))
      = StableHlo.after (Cert.ReferenceIdeal.Hand.rops7 (F := Ideal)) (StableHlo.after (Cert.ReferenceIdeal.Hand.rops6 (F := Ideal)) Qr) (Proc.devRef .tc Cert.ReferenceIdeal.main_v209) := by
  -- the region's five input arrays after the kernel's stretch, in the reference's terms
  have e0 := (ek1_e (F := Ideal) Wk).trans he
  have e1 : (StableHlo.after (Cert.KernelIdeal.Gen.hostOps7 (F := Ideal)) Wk (Proc.devRef .tc Cert.KernelIdeal.main_v137) : FVec Ideal SSq .f32)
      = cwOf1 (Qr (Proc.devRef .tc Cert.ReferenceIdeal.main_arg15)) := (ek1_cw (F := Ideal) Wk).trans (congrArg cwOf1 h15)
  have e2 : (StableHlo.after (Cert.KernelIdeal.Gen.hostOps7 (F := Ideal)) Wk (Proc.devRef .tc Cert.KernelIdeal.main_v140) : FVec Ideal SRow .f32)
      = shapeCast SRow (cbOf1 (Qr (Proc.devRef .tc Cert.ReferenceIdeal.main_arg16))) Cert.KernelIdeal.Gen.shapeCasts_S64_S1x64 :=
    (ek1_cb (F := Ideal) Wk).trans (congrArg (fun v => shapeCast SRow (cbOf1 v) Cert.KernelIdeal.Gen.shapeCasts_S64_S1x64) h16)
  have e3 : (StableHlo.after (Cert.KernelIdeal.Gen.hostOps7 (F := Ideal)) Wk (Proc.devRef .tc Cert.KernelIdeal.main_v121) : FVec Ideal SEdge .f32)
      = rowGather (StableHlo.after (Cert.ReferenceIdeal.Hand.rops6 (F := Ideal)) Qr (Proc.devRef .tc Cert.ReferenceIdeal.main_v163)) (Qr (Proc.devRef .tc Cert.ReferenceIdeal.main_arg2)) :=
    (ek1_d (F := Ideal) Wk).trans (congrArg₂ rowGather hD h2)
  have e4 : (StableHlo.after (Cert.KernelIdeal.Gen.hostOps7 (F := Ideal)) Wk (Proc.devRef .tc Cert.KernelIdeal.main_v128) : FVec Ideal SEdge .f32)
      = rowGather (StableHlo.after (Cert.ReferenceIdeal.Hand.rops6 (F := Ideal)) Qr (Proc.devRef .tc Cert.ReferenceIdeal.main_v171)) (Qr (Proc.devRef .tc Cert.ReferenceIdeal.main_arg3)) :=
    (ek1_g (F := Ideal) Wk).trans (congrArg₂ rowGather hE h3)
  have e5 : (StableHlo.after (Cert.KernelIdeal.Gen.hostOps7 (F := Ideal)) Wk (Proc.devRef .tc Cert.KernelIdeal.main_v135) : FVec Ideal SEdge .f32)
      = rowGather (StableHlo.after (Cert.ReferenceIdeal.Hand.rops6 (F := Ideal)) Qr (Proc.devRef .tc Cert.ReferenceIdeal.main_v155)) (Qr (Proc.devRef .tc Cert.ReferenceIdeal.main_arg2)) :=
    (ek1_u (F := Ideal) Wk).trans (congrArg₂ rowGather hB h2)
  -- the reference's three results over the same terms
  have q65 := er1_hat (F := Ideal) (StableHlo.after (Cert.ReferenceIdeal.Hand.rops6 (F := Ideal)) Qr)
  rw [er1_ce (F := Ideal) Qr, er1_a2 (F := Ideal) Qr, er1_a3 (F := Ideal) Qr] at q65
  have q71 := er1_gate (F := Ideal) (StableHlo.after (Cert.ReferenceIdeal.Hand.rops6 (F := Ideal)) Qr)
  have q79 := er1_msg (F := Ideal) (StableHlo.after (Cert.ReferenceIdeal.Hand.rops6 (F := Ideal)) Qr)
  rw [er1_a2 (F := Ideal) Qr] at q79
  rw [e0, e1, e2, e3, e4, e5]
  have hhat := (edgeHat_eq _ _ _ _ _ Cert.KernelIdeal.Gen.shapeCasts_S64_S1x64 Cert.ReferenceIdeal.Gen.bcast_S64_S1x64_1 Cert.ReferenceIdeal.Gen.bcast_S1x64_S524288x64_0_1).trans q65.symm
  have hgate := (edgeGate_eq _ _ _ _ _ _ Cert.ReferenceIdeal.Gen.bcast_S_S524288x64 hhat).trans q71.symm
  exact ⟨hhat, hgate, (edgeMsg_eq _ _ _ _ _ _ _ hgate).trans q79.symm⟩

end Step

end Cert.Bridge

end
-- ==== Proof.BR.FinalL1.lean ====
import proofs.«142356_j74423193305351_1_alg».proof.Proof.BR.FinalBase
import proofs.«142356_j74423193305351_1_alg».proof.Proof.BR.KStages
import proofs.«142356_j74423193305351_1_alg».proof.Proof.BR.RefStages
import proofs.«142356_j74423193305351_1_alg».proof.Proof.BR.RefArgs
import proofs.«142356_j74423193305351_1_alg».proof.Proof.BR.Linear1
import proofs.«142356_j74423193305351_1_alg».proof.Proof.BR.Edge1
import proofs.«142356_j74423193305351_1_alg».proof.Proof.BR.BnG

/-! # Layer 1 of the chain: from the previous layer's node and edge features to this layer's

The links of layer 1 — the four linear maps of the node features, the edge update, the aggregation, the batch norm
with residual of the node features and that of the edge features — each from the step lemma of its operation, the agreement of the arguments,
and the previous layer's two conclusions, taken here as hypotheses: the kernel's node and edge feature arrays after
the previous layer are the reference's. -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The stage valuations of this layer, one step unfolded; the edge region's functions under their two names -/

namespace L1

theorem W17_def : Cert.KernelIdeal.Hand.W17 m c = (StableHlo.after (Cert.KernelIdeal.Gen.hostOps6 (F := Ideal)) (Cert.KernelIdeal.Hand.W16 m c)) := rfl
theorem W19_def : Cert.KernelIdeal.Hand.W19 m c = (StableHlo.after (Cert.KernelIdeal.Gen.hostOps7 (F := Ideal)) (Cert.KernelIdeal.Hand.W18 m c)) := rfl
theorem W23_def : Cert.KernelIdeal.Hand.W23 m c = (StableHlo.after (Cert.KernelIdeal.Gen.hostOps8_2 (F := Ideal)) (StableHlo.after (Cert.KernelIdeal.Gen.hostOps8_1 (F := Ideal)) (StableHlo.after (Cert.KernelIdeal.Gen.hostOps8 (F := Ideal)) (Cert.KernelIdeal.Hand.W20 m c)))) := rfl
theorem W27_def : Cert.KernelIdeal.Hand.W27 m c = (StableHlo.after (Cert.KernelIdeal.Gen.hostOps9_2 (F := Ideal)) (StableHlo.after (Cert.KernelIdeal.Gen.hostOps9_1 (F := Ideal)) (StableHlo.after (Cert.KernelIdeal.Gen.hostOps9 (F := Ideal)) (Cert.KernelIdeal.Hand.W24 m c)))) := rfl
theorem Q7_def : Q7 m' c = (StableHlo.after (Cert.ReferenceIdeal.Hand.rops6 (F := Ideal)) (Q6 m' c)) := rfl
theorem Q8_def : Q8 m' c = (StableHlo.after (Cert.ReferenceIdeal.Hand.rops7 (F := Ideal)) (StableHlo.after (Cert.ReferenceIdeal.Hand.rops6 (F := Ideal)) (Q6 m' c))) := rfl
theorem Q9_def : Q9 m' c = (StableHlo.after (Cert.ReferenceIdeal.Hand.rops8 (F := Ideal)) (Q8 m' c)) := rfl
theorem Q10_def : Q10 m' c = (StableHlo.after (Cert.ReferenceIdeal.Hand.rops9 (F := Ideal)) (Q9 m' c)) := rfl
theorem Q11_def : Q11 m' c = (StableHlo.after (Cert.ReferenceIdeal.Hand.rops10 (F := Ideal)) (Q10 m' c)) := rfl
theorem hand_G7_6 : Cert.KernelIdeal.Hand.G7_6 = edgeHat := rfl
theorem hand_G7_7 : Cert.KernelIdeal.Hand.G7_7 = edgeGate := rfl
theorem hand_G7_8 : Cert.KernelIdeal.Hand.G7_8 = edgeMsg := rfl

end L1

/-! ## The links -/

/-- Layer 1's four linear maps of the node features: the four column blocks of region 6's array, as the kernel's
    next host stretch cuts them out, are the reference's four products. -/
theorem lin1 (h : Agree m m' c)
    (hH : (Cert.KernelIdeal.Hand.W12 m c) (Proc.devRef .tc Cert.KernelIdeal.main_v77) = (Q5 m' c) (Proc.devRef .tc Cert.ReferenceIdeal.main_v114)) :
    (Cert.KernelIdeal.Hand.W19 m c) (Proc.devRef .tc Cert.KernelIdeal.main_v111) = (Q7 m' c) (Proc.devRef .tc Cert.ReferenceIdeal.main_v147) ∧ (Cert.KernelIdeal.Hand.W19 m c) (Proc.devRef .tc Cert.KernelIdeal.main_v112) = (Q7 m' c) (Proc.devRef .tc Cert.ReferenceIdeal.main_v155)
    ∧ (Cert.KernelIdeal.Hand.W19 m c) (Proc.devRef .tc Cert.KernelIdeal.main_v113) = (Q7 m' c) (Proc.devRef .tc Cert.ReferenceIdeal.main_v163) ∧ (Cert.KernelIdeal.Hand.W19 m c) (Proc.devRef .tc Cert.KernelIdeal.main_v114) = (Q7 m' c) (Proc.devRef .tc Cert.ReferenceIdeal.main_v171) := by
  have key := linear1 (Cert.KernelIdeal.Hand.W16 m c) (Q6 m' c) ((Cert.KernelIdeal.Hand.W16_eq_W12_v77 m c).trans (hH.trans (Q6_of m' c Cert.ReferenceIdeal.main_v114 (by decide +kernel)).symm))
    ((Cert.KernelIdeal.Hand.W16_eq_launch_arg11 m c).trans ((agree_11 m m' c h).trans (Q6_arg m' c (r := Cert.ReferenceIdeal.main_arg11) (by decide)).symm))
    ((Cert.KernelIdeal.Hand.W16_eq_launch_arg12 m c).trans ((agree_12 m m' c h).trans (Q6_arg m' c (r := Cert.ReferenceIdeal.main_arg12) (by decide)).symm))
    ((Cert.KernelIdeal.Hand.W16_eq_launch_arg13 m c).trans ((agree_13 m m' c h).trans (Q6_arg m' c (r := Cert.ReferenceIdeal.main_arg13) (by decide)).symm))
    ((Cert.KernelIdeal.Hand.W16_eq_launch_arg14 m c).trans ((agree_14 m m' c h).trans (Q6_arg m' c (r := Cert.ReferenceIdeal.main_arg14) (by decide)).symm))
    ((Cert.KernelIdeal.Hand.W16_eq_launch_arg17 m c).trans ((agree_17 m m' c h).trans (Q6_arg m' c (r := Cert.ReferenceIdeal.main_arg17) (by decide)).symm))
    ((Cert.KernelIdeal.Hand.W16_eq_launch_arg18 m c).trans ((agree_18 m m' c h).trans (Q6_arg m' c (r := Cert.ReferenceIdeal.main_arg18) (by decide)).symm))
    ((Cert.KernelIdeal.Hand.W16_eq_launch_arg19 m c).trans ((agree_19 m m' c h).trans (Q6_arg m' c (r := Cert.ReferenceIdeal.main_arg19) (by decide)).symm))
    ((Cert.KernelIdeal.Hand.W16_eq_launch_arg20 m c).trans ((agree_20 m m' c h).trans (Q6_arg m' c (r := Cert.ReferenceIdeal.main_arg20) (by decide)).symm))
  refine ⟨?_, ?_, ?_, ?_⟩
  · rw [L1.W19_def m c, hostOps7_v111, Cert.KernelIdeal.Hand.W18_v110, L1.W17_def m c, L1.Q7_def m' c]
    exact key.1
  · rw [L1.W19_def m c, hostOps7_v112, Cert.KernelIdeal.Hand.W18_v110, L1.W17_def m c, L1.Q7_def m' c]
    exact key.2.1
  · rw [L1.W19_def m c, hostOps7_v113, Cert.KernelIdeal.Hand.W18_v110, L1.W17_def m c, L1.Q7_def m' c]
    exact key.2.2.1
  · rw [L1.W19_def m c, hostOps7_v114, Cert.KernelIdeal.Hand.W18_v110, L1.W17_def m c, L1.Q7_def m' c]
    exact key.2.2.2

/-- Layer 1's edge update: region 7's three arrays are the reference's pre-activation, gate and message. -/
theorem edge1 (h : Agree m m' c)
    (hH : (Cert.KernelIdeal.Hand.W12 m c) (Proc.devRef .tc Cert.KernelIdeal.main_v77) = (Q5 m' c) (Proc.devRef .tc Cert.ReferenceIdeal.main_v114))
    (hE : (Cert.KernelIdeal.Hand.W16 m c) (Proc.devRef .tc Cert.KernelIdeal.main_v90) = (Q6 m' c) (Proc.devRef .tc Cert.ReferenceIdeal.main_v139)) :
    (Cert.KernelIdeal.Hand.W20 m c) (Proc.devRef .tc Cert.KernelIdeal.main_v141_0) = (Q8 m' c) (Proc.devRef .tc Cert.ReferenceIdeal.main_v195) ∧ (Cert.KernelIdeal.Hand.W20 m c) (Proc.devRef .tc Cert.KernelIdeal.main_v141_1) = (Q8 m' c) (Proc.devRef .tc Cert.ReferenceIdeal.main_v201)
    ∧ (Cert.KernelIdeal.Hand.W20 m c) (Proc.devRef .tc Cert.KernelIdeal.main_v141_2) = (Q8 m' c) (Proc.devRef .tc Cert.ReferenceIdeal.main_v209) := by
  obtain ⟨lA, lB, lD, lE⟩ := lin1 m m' c h hH
  rw [L1.W19_def m c, L1.Q7_def m' c] at lB lD lE
  have key := edge_update_1 (Cert.KernelIdeal.Hand.W18 m c) (Q6 m' c)
    ((Cert.KernelIdeal.Hand.W18_eq_W16_v90 m c).trans hE)
    ((Cert.KernelIdeal.Hand.W18_eq_launch_arg2 m c).trans ((agree_2 m m' c h).trans (Q6_arg m' c (r := Cert.ReferenceIdeal.main_arg2) (by decide)).symm))
    ((Cert.KernelIdeal.Hand.W18_eq_launch_arg3 m c).trans ((agree_3 m m' c h).trans (Q6_arg m' c (r := Cert.ReferenceIdeal.main_arg3) (by decide)).symm))
    ((Cert.KernelIdeal.Hand.W18_eq_launch_arg15 m c).trans ((agree_15 m m' c h).trans (Q6_arg m' c (r := Cert.ReferenceIdeal.main_arg15) (by decide)).symm))
    ((Cert.KernelIdeal.Hand.W18_eq_launch_arg16 m c).trans ((agree_16 m m' c h).trans (Q6_arg m' c (r := Cert.ReferenceIdeal.main_arg16) (by decide)).symm))
    lB lD lE
  refine ⟨?_, ?_, ?_⟩
  · rw [Cert.KernelIdeal.Hand.W20_v141_0, L1.hand_G7_6, L1.W19_def m c, L1.Q8_def m' c]
    exact key.1
  · rw [Cert.KernelIdeal.Hand.W20_v141_1, L1.hand_G7_7, L1.W19_def m c, L1.Q8_def m' c]
    exact key.2.1
  · rw [Cert.KernelIdeal.Hand.W20_v141_2, L1.hand_G7_8, L1.W19_def m c, L1.Q8_def m' c]
    exact key.2.2

/-- Layer 1's aggregation of the messages at the destination nodes. -/
theorem agg1 (h : Agree m m' c)
    (hH : (Cert.KernelIdeal.Hand.W12 m c) (Proc.devRef .tc Cert.KernelIdeal.main_v77) = (Q5 m' c) (Proc.devRef .tc Cert.ReferenceIdeal.main_v114))
    (hE : (Cert.KernelIdeal.Hand.W16 m c) (Proc.devRef .tc Cert.KernelIdeal.main_v90) = (Q6 m' c) (Proc.devRef .tc Cert.ReferenceIdeal.main_v139)) :
    ((StableHlo.after (Cert.KernelIdeal.Gen.hostOps8 (F := Ideal)) (Cert.KernelIdeal.Hand.W20 m c)) (Proc.devRef .tc Cert.KernelIdeal.main_v151) : FVec Ideal Cert.KernelIdeal.S32768x64 .f32) = (Q9 m' c) (Proc.devRef .tc Cert.ReferenceIdeal.main_v219) := by
  obtain ⟨e0, e1, e2⟩ := edge1 m m' c h hH hE
  obtain ⟨lA, -, -, -⟩ := lin1 m m' c h hH
  have key := agg_L1 (Cert.KernelIdeal.Hand.W20 m c) (Q8 m' c) e2 e1
    ((Cert.KernelIdeal.Hand.W20_eq_W19_v111 m c).trans (lA.trans (Q8_of m' c Cert.ReferenceIdeal.main_v147 (by decide +kernel)).symm))
    ((Cert.KernelIdeal.Hand.W20_eq_launch_arg3 m c).trans ((agree_3 m m' c h).trans (Q8_arg m' c (r := Cert.ReferenceIdeal.main_arg3) (by decide)).symm))
  rw [L1.Q9_def m' c]
  exact key

/-- Layer 1's batch norm of the node features with its residual: region 8's array is the reference's next node
    features. -/
theorem h2_eq (h : Agree m m' c)
    (hH : (Cert.KernelIdeal.Hand.W12 m c) (Proc.devRef .tc Cert.KernelIdeal.main_v77) = (Q5 m' c) (Proc.devRef .tc Cert.ReferenceIdeal.main_v114))
    (hE : (Cert.KernelIdeal.Hand.W16 m c) (Proc.devRef .tc Cert.KernelIdeal.main_v90) = (Q6 m' c) (Proc.devRef .tc Cert.ReferenceIdeal.main_v139)) : (Cert.KernelIdeal.Hand.W24 m c) (Proc.devRef .tc Cert.KernelIdeal.main_v164) = (Q10 m' c) (Proc.devRef .tc Cert.ReferenceIdeal.main_v244) := by
  have key := bnh_L1 (Cert.KernelIdeal.Hand.W20 m c) (Q9 m' c) (agg1 m m' c h hH hE)
    ((Cert.KernelIdeal.Hand.W20_eq_W12_v77 m c).trans (hH.trans ((Q9_of m' c Cert.ReferenceIdeal.main_v114 (by decide +kernel)).trans ((Q8_of m' c Cert.ReferenceIdeal.main_v114 (by decide +kernel)).trans ((Q7_of m' c Cert.ReferenceIdeal.main_v114 (by decide +kernel)).trans (Q6_of m' c Cert.ReferenceIdeal.main_v114 (by decide +kernel))))).symm))
    ((Cert.KernelIdeal.Hand.W20_eq_launch_arg21 m c).trans ((agree_21 m m' c h).trans (Q9_arg m' c (r := Cert.ReferenceIdeal.main_arg21) (by decide)).symm))
    ((Cert.KernelIdeal.Hand.W20_eq_launch_arg22 m c).trans ((agree_22 m m' c h).trans (Q9_arg m' c (r := Cert.ReferenceIdeal.main_arg22) (by decide)).symm))
  rw [Cert.KernelIdeal.Hand.W24_v164, L1.W23_def m c, L1.Q10_def m' c]
  exact key

/-- Layer 1's batch norm of the edge features with its residual: region 9's array is the reference's next edge
    features. -/
theorem e2_eq (h : Agree m m' c)
    (hH : (Cert.KernelIdeal.Hand.W12 m c) (Proc.devRef .tc Cert.KernelIdeal.main_v77) = (Q5 m' c) (Proc.devRef .tc Cert.ReferenceIdeal.main_v114))
    (hE : (Cert.KernelIdeal.Hand.W16 m c) (Proc.devRef .tc Cert.KernelIdeal.main_v90) = (Q6 m' c) (Proc.devRef .tc Cert.ReferenceIdeal.main_v139)) : (Cert.KernelIdeal.Hand.W28 m c) (Proc.devRef .tc Cert.KernelIdeal.main_v177) = (Q11 m' c) (Proc.devRef .tc Cert.ReferenceIdeal.main_v269) := by
  obtain ⟨e0, -, -⟩ := edge1 m m' c h hH hE
  have key := bne_L1 (Cert.KernelIdeal.Hand.W24 m c) (Q10 m' c)
    ((Cert.KernelIdeal.Hand.W24_eq_W20_v141_0 m c).trans (e0.trans ((Q10_of m' c Cert.ReferenceIdeal.main_v195 (by decide +kernel)).trans (Q9_of m' c Cert.ReferenceIdeal.main_v195 (by decide +kernel))).symm))
    ((Cert.KernelIdeal.Hand.W24_eq_W16_v90 m c).trans (hE.trans ((Q10_of m' c Cert.ReferenceIdeal.main_v139 (by decide +kernel)).trans ((Q9_of m' c Cert.ReferenceIdeal.main_v139 (by decide +kernel)).trans ((Q8_of m' c Cert.ReferenceIdeal.main_v139 (by decide +kernel)).trans (Q7_of m' c Cert.ReferenceIdeal.main_v139 (by decide +kernel))))).symm))
    ((Cert.KernelIdeal.Hand.W24_eq_launch_arg23 m c).trans ((agree_23 m m' c h).trans (Q10_arg m' c (r := Cert.ReferenceIdeal.main_arg23) (by decide)).symm))
    ((Cert.KernelIdeal.Hand.W24_eq_launch_arg24 m c).trans ((agree_24 m m' c h).trans (Q10_arg m' c (r := Cert.ReferenceIdeal.main_arg24) (by decide)).symm))
  rw [Cert.KernelIdeal.Hand.W28_v177, L1.W27_def m c, L1.Q11_def m' c]
  exact key

/-- Layer 1: from layer 0's node and edge features to layer 1's. -/
theorem layer1 (h : Agree m m' c)
    (hH : (Cert.KernelIdeal.Hand.W12 m c) (Proc.devRef .tc Cert.KernelIdeal.main_v77) = (Q5 m' c) (Proc.devRef .tc Cert.ReferenceIdeal.main_v114))
    (hE : (Cert.KernelIdeal.Hand.W16 m c) (Proc.devRef .tc Cert.KernelIdeal.main_v90) = (Q6 m' c) (Proc.devRef .tc Cert.ReferenceIdeal.main_v139)) :
    (Cert.KernelIdeal.Hand.W24 m c) (Proc.devRef .tc Cert.KernelIdeal.main_v164) = (Q10 m' c) (Proc.devRef .tc Cert.ReferenceIdeal.main_v244)
    ∧ (Cert.KernelIdeal.Hand.W28 m c) (Proc.devRef .tc Cert.KernelIdeal.main_v177) = (Q11 m' c) (Proc.devRef .tc Cert.ReferenceIdeal.main_v269) :=
  ⟨h2_eq m m' c h hH hE, e2_eq m m' c h hH hE⟩

end Cert.Bridge

end
-- ==== Proof.BR.Linear2.lean ====
import proofs.«142356_j74423193305351_1_alg».proof.Proof.Gen.KernelIdeal.Launch
import proofs.«142356_j74423193305351_1_alg».proof.Proof.KI.V10
import proofs.«142356_j74423193305351_1_alg».proof.Proof.RI.Ops2
import proofs.«142356_j74423193305351_1_alg».proof.Proof.BR.LinCat
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo

/-! # Layer 2's linear maps: one product into 256 columns, cut into four, against the reference's four products -/

/-! ## What the region finds: h untouched, the four weights side by side, the four biases end to end as one row -/

theorem linear2_kx (Wk : Valuation Cert.KernelIdeal.τ Cert.KernelIdeal.sig (Elt Ideal)) :
    StableHlo.after (Cert.KernelIdeal.Gen.hostOps10 (F := Ideal)) Wk (Proc.devRef .tc Cert.KernelIdeal.main_v164) = Wk (Proc.devRef .tc Cert.KernelIdeal.main_v164) := by after_results
theorem linear2_kW (Wk : Valuation Cert.KernelIdeal.τ Cert.KernelIdeal.sig (Elt Ideal)) :
    (StableHlo.after (Cert.KernelIdeal.Gen.hostOps10 (F := Ideal)) Wk (Proc.devRef .tc Cert.KernelIdeal.main_v186) : Vec Ideal Cert.KernelIdeal.S64x256 .f32)
      = cat4 (wsl2 (Wk (Proc.devRef .tc Cert.KernelIdeal.main_arg11))) (wsl2 (Wk (Proc.devRef .tc Cert.KernelIdeal.main_arg13))) (wsl2 (Wk (Proc.devRef .tc Cert.KernelIdeal.main_arg17))) (wsl2 (Wk (Proc.devRef .tc Cert.KernelIdeal.main_arg19))) := by
  after_results; rfl
theorem linear2_kb (Wk : Valuation Cert.KernelIdeal.τ Cert.KernelIdeal.sig (Elt Ideal)) :
    (StableHlo.after (Cert.KernelIdeal.Gen.hostOps10 (F := Ideal)) Wk (Proc.devRef .tc Cert.KernelIdeal.main_v196) : Vec Ideal Cert.KernelIdeal.S1x256 .f32)
      = row4 (bsl2 (Wk (Proc.devRef .tc Cert.KernelIdeal.main_arg12))) (bsl2 (Wk (Proc.devRef .tc Cert.KernelIdeal.main_arg14))) (bsl2 (Wk (Proc.devRef .tc Cert.KernelIdeal.main_arg18))) (bsl2 (Wk (Proc.devRef .tc Cert.KernelIdeal.main_arg20))) := by
  after_results; rfl

/-! ## The reference's four products read back -/

/-- The reference's A h: the product of h with layer 2 of A's weights plus layer 2 of its bias. -/
theorem linear2_rA (Qr : Valuation Cert.ReferenceIdeal.τ Cert.ReferenceIdeal.sig (Elt Ideal)) :
    (StableHlo.after (Cert.ReferenceIdeal.Hand.rops11 (F := Ideal)) Qr (Proc.devRef .tc Cert.ReferenceIdeal.main_v277) : Vec Ideal Cert.ReferenceIdeal.S32768x64 .f32)
      = refLin (Qr (Proc.devRef .tc Cert.ReferenceIdeal.main_v244)) (wsl2 (Qr (Proc.devRef .tc Cert.ReferenceIdeal.main_arg11))) (bsl2 (Qr (Proc.devRef .tc Cert.ReferenceIdeal.main_arg12))) := by
  after_results_simp; rfl
/-- The reference's B h: the product of h with layer 2 of B's weights plus layer 2 of its bias. -/
theorem linear2_rB (Qr : Valuation Cert.ReferenceIdeal.τ Cert.ReferenceIdeal.sig (Elt Ideal)) :
    (StableHlo.after (Cert.ReferenceIdeal.Hand.rops11 (F := Ideal)) Qr (Proc.devRef .tc Cert.ReferenceIdeal.main_v285) : Vec Ideal Cert.ReferenceIdeal.S32768x64 .f32)
      = refLin (Qr (Proc.devRef .tc Cert.ReferenceIdeal.main_v244)) (wsl2 (Qr (Proc.devRef .tc Cert.ReferenceIdeal.main_arg13))) (bsl2 (Qr (Proc.devRef .tc Cert.ReferenceIdeal.main_arg14))) := by
  after_results_simp; rfl
/-- The reference's D h: the product of h with layer 2 of D's weights plus layer 2 of its bias. -/
theorem linear2_rD (Qr : Valuation Cert.ReferenceIdeal.τ Cert.ReferenceIdeal.sig (Elt Ideal)) :
    (StableHlo.after (Cert.ReferenceIdeal.Hand.rops11 (F := Ideal)) Qr (Proc.devRef .tc Cert.ReferenceIdeal.main_v293) : Vec Ideal Cert.ReferenceIdeal.S32768x64 .f32)
      = refLin (Qr (Proc.devRef .tc Cert.ReferenceIdeal.main_v244)) (wsl2 (Qr (Proc.devRef .tc Cert.ReferenceIdeal.main_arg17))) (bsl2 (Qr (Proc.devRef .tc Cert.ReferenceIdeal.main_arg18))) := by
  after_results_simp; rfl
/-- The reference's E h: the product of h with layer 2 of E's weights plus layer 2 of its bias. -/
theorem linear2_rE (Qr : Valuation Cert.ReferenceIdeal.τ Cert.ReferenceIdeal.sig (Elt Ideal)) :
    (StableHlo.after (Cert.ReferenceIdeal.Hand.rops11 (F := Ideal)) Qr (Proc.devRef .tc Cert.ReferenceIdeal.main_v301) : Vec Ideal Cert.ReferenceIdeal.S32768x64 .f32)
      = refLin (Qr (Proc.devRef .tc Cert.ReferenceIdeal.main_v244)) (wsl2 (Qr (Proc.devRef .tc Cert.ReferenceIdeal.main_arg19))) (bsl2 (Qr (Proc.devRef .tc Cert.ReferenceIdeal.main_arg20))) := by
  after_results_simp; rfl

/-! ## The step -/

/-- The four blocks of 64 columns of the region's array, from the valuation in which the weights and biases have been
    put side by side, are the reference's A h, B h, D h, E h. -/
theorem linear2 (Wk : Valuation Cert.KernelIdeal.τ Cert.KernelIdeal.sig (Elt Ideal)) (Qr : Valuation Cert.ReferenceIdeal.τ Cert.ReferenceIdeal.sig (Elt Ideal))
    (hh : Wk (Proc.devRef .tc Cert.KernelIdeal.main_v164) = Qr (Proc.devRef .tc Cert.ReferenceIdeal.main_v244))
    (h11 : Wk (Proc.devRef .tc Cert.KernelIdeal.main_arg11) = Qr (Proc.devRef .tc Cert.ReferenceIdeal.main_arg11))
    (h12 : Wk (Proc.devRef .tc Cert.KernelIdeal.main_arg12) = Qr (Proc.devRef .tc Cert.ReferenceIdeal.main_arg12))
    (h13 : Wk (Proc.devRef .tc Cert.KernelIdeal.main_arg13) = Qr (Proc.devRef .tc Cert.ReferenceIdeal.main_arg13))
    (h14 : Wk (Proc.devRef .tc Cert.KernelIdeal.main_arg14) = Qr (Proc.devRef .tc Cert.ReferenceIdeal.main_arg14))
    (h17 : Wk (Proc.devRef .tc Cert.KernelIdeal.main_arg17) = Qr (Proc.devRef .tc Cert.ReferenceIdeal.main_arg17))
    (h18 : Wk (Proc.devRef .tc Cert.KernelIdeal.main_arg18) = Qr (Proc.devRef .tc Cert.ReferenceIdeal.main_arg18))
    (h19 : Wk (Proc.devRef .tc Cert.KernelIdeal.main_arg19) = Qr (Proc.devRef .tc Cert.ReferenceIdeal.main_arg19))
    (h20 : Wk (Proc.devRef .tc Cert.KernelIdeal.main_arg20) = Qr (Proc.devRef .tc Cert.ReferenceIdeal.main_arg20)) :
    extractStridedSlice Cert.KernelIdeal.S32768x64 ![0, 0] (Cert.KernelIdeal.Hand.G10_3 (StableHlo.after (Cert.KernelIdeal.Gen.hostOps10 (F := Ideal)) Wk (Proc.devRef .tc Cert.KernelIdeal.main_v164))
        (StableHlo.after (Cert.KernelIdeal.Gen.hostOps10 (F := Ideal)) Wk (Proc.devRef .tc Cert.KernelIdeal.main_v186))
        (StableHlo.after (Cert.KernelIdeal.Gen.hostOps10 (F := Ideal)) Wk (Proc.devRef .tc Cert.KernelIdeal.main_v196))) Cert.KernelIdeal.Gen.slices_S32768x256_S32768x64_0_0
        = StableHlo.after (Cert.ReferenceIdeal.Hand.rops11 (F := Ideal)) Qr (Proc.devRef .tc Cert.ReferenceIdeal.main_v277)
    ∧ extractStridedSlice Cert.KernelIdeal.S32768x64 ![0, 64] (Cert.KernelIdeal.Hand.G10_3 (StableHlo.after (Cert.KernelIdeal.Gen.hostOps10 (F := Ideal)) Wk (Proc.devRef .tc Cert.KernelIdeal.main_v164))
        (StableHlo.after (Cert.KernelIdeal.Gen.hostOps10 (F := Ideal)) Wk (Proc.devRef .tc Cert.KernelIdeal.main_v186))
        (StableHlo.after (Cert.KernelIdeal.Gen.hostOps10 (F := Ideal)) Wk (Proc.devRef .tc Cert.KernelIdeal.main_v196))) Cert.KernelIdeal.Gen.slices_S32768x256_S32768x64_0_64
        = StableHlo.after (Cert.ReferenceIdeal.Hand.rops11 (F := Ideal)) Qr (Proc.devRef .tc Cert.ReferenceIdeal.main_v285)
    ∧ extractStridedSlice Cert.KernelIdeal.S32768x64 ![0, 128] (Cert.KernelIdeal.Hand.G10_3 (StableHlo.after (Cert.KernelIdeal.Gen.hostOps10 (F := Ideal)) Wk (Proc.devRef .tc Cert.KernelIdeal.main_v164))
        (StableHlo.after (Cert.KernelIdeal.Gen.hostOps10 (F := Ideal)) Wk (Proc.devRef .tc Cert.KernelIdeal.main_v186))
        (StableHlo.after (Cert.KernelIdeal.Gen.hostOps10 (F := Ideal)) Wk (Proc.devRef .tc Cert.KernelIdeal.main_v196))) Cert.KernelIdeal.Gen.slices_S32768x256_S32768x64_0_128
        = StableHlo.after (Cert.ReferenceIdeal.Hand.rops11 (F := Ideal)) Qr (Proc.devRef .tc Cert.ReferenceIdeal.main_v293)
    ∧ extractStridedSlice Cert.KernelIdeal.S32768x64 ![0, 192] (Cert.KernelIdeal.Hand.G10_3 (StableHlo.after (Cert.KernelIdeal.Gen.hostOps10 (F := Ideal)) Wk (Proc.devRef .tc Cert.KernelIdeal.main_v164))
        (StableHlo.after (Cert.KernelIdeal.Gen.hostOps10 (F := Ideal)) Wk (Proc.devRef .tc Cert.KernelIdeal.main_v186))
        (StableHlo.after (Cert.KernelIdeal.Gen.hostOps10 (F := Ideal)) Wk (Proc.devRef .tc Cert.KernelIdeal.main_v196))) Cert.KernelIdeal.Gen.slices_S32768x256_S32768x64_0_192
        = StableHlo.after (Cert.ReferenceIdeal.Hand.rops11 (F := Ideal)) Qr (Proc.devRef .tc Cert.ReferenceIdeal.main_v301) := by
  rw [linear2_kx, linear2_kW, linear2_kb, linear2_rA, linear2_rB, linear2_rD, linear2_rE, hh, h11, h12, h13, h14, h17, h18, h19, h20]
  exact linear_val _ _ _ _ _ _ _ _ _

/-! ## The four cuts read back from the host stretch after the region -/

/-- The first block of 64 columns, as the host stretch after the region cuts it out. -/
theorem hostOps11_v198 (W : Valuation Cert.KernelIdeal.τ Cert.KernelIdeal.sig (Elt Ideal)) :
    (StableHlo.after (Cert.KernelIdeal.Gen.hostOps11 (F := Ideal)) W (Proc.devRef .tc Cert.KernelIdeal.main_v198) : Vec Ideal Cert.KernelIdeal.S32768x64 .f32)
      = extractStridedSlice Cert.KernelIdeal.S32768x64 ![0, 0] (W (Proc.devRef .tc Cert.KernelIdeal.main_v197)) Cert.KernelIdeal.Gen.slices_S32768x256_S32768x64_0_0 := by
  after_results_simp
/-- The second block of 64 columns, as the host stretch after the region cuts it out. -/
theorem hostOps11_v199 (W : Valuation Cert.KernelIdeal.τ Cert.KernelIdeal.sig (Elt Ideal)) :
    (StableHlo.after (Cert.KernelIdeal.Gen.hostOps11 (F := Ideal)) W (Proc.devRef .tc Cert.KernelIdeal.main_v199) : Vec Ideal Cert.KernelIdeal.S32768x64 .f32)
      = extractStridedSlice Cert.KernelIdeal.S32768x64 ![0, 64] (W (Proc.devRef .tc Cert.KernelIdeal.main_v197)) Cert.KernelIdeal.Gen.slices_S32768x256_S32768x64_0_64 := by
  after_results_simp
/-- The third block of 64 columns, as the host stretch after the region cuts it out. -/
theorem hostOps11_v200 (W : Valuation Cert.KernelIdeal.τ Cert.KernelIdeal.sig (Elt Ideal)) :
    (StableHlo.after (Cert.KernelIdeal.Gen.hostOps11 (F := Ideal)) W (Proc.devRef .tc Cert.KernelIdeal.main_v200) : Vec Ideal Cert.KernelIdeal.S32768x64 .f32)
      = extractStridedSlice Cert.KernelIdeal.S32768x64 ![0, 128] (W (Proc.devRef .tc Cert.KernelIdeal.main_v197)) Cert.KernelIdeal.Gen.slices_S32768x256_S32768x64_0_128 := by
  after_results_simp
/-- The fourth block of 64 columns, as the host stretch after the region cuts it out. -/
theorem hostOps11_v201 (W : Valuation Cert.KernelIdeal.τ Cert.KernelIdeal.sig (Elt Ideal)) :
    (StableHlo.after (Cert.KernelIdeal.Gen.hostOps11 (F := Ideal)) W (Proc.devRef .tc Cert.KernelIdeal.main_v201) : Vec Ideal Cert.KernelIdeal.S32768x64 .f32)
      = extractStridedSlice Cert.KernelIdeal.S32768x64 ![0, 192] (W (Proc.devRef .tc Cert.KernelIdeal.main_v197)) Cert.KernelIdeal.Gen.slices_S32768x256_S32768x64_0_192 := by
  after_results_simp

end Cert.Bridge

end
-- ==== Proof.BR.Edge2.lean ====
import proofs.«142356_j74423193305351_1_alg».proof.Proof.Gen.KernelIdeal.Launch
import proofs.«142356_j74423193305351_1_alg».proof.Proof.Gen.ReferenceIdeal
import proofs.«142356_j74423193305351_1_alg».proof.Proof.RI.Ops2
import proofs.«142356_j74423193305351_1_alg».proof.Proof.BR.EdgeMath
import Idealize.ShloMosaic.Lib.StableHlo.Run

/-! # The edge update of layer 2: the kernel's region 11 against the reference's chunks 11 and 12

Both programs normalise the edges' source and destination indices, gather the rows of the node arrays `Dh`, `Eh`, `Bh`
at them, and take layer 2's edge weight matrix and bias out of the stacks of three. The kernel then runs its region on
these arrays; the reference goes on with host operations. This file reads each side's operations back to the same
terms over the entry buffers — the gathers and the slices are the same functions of equal operands and are never
opened — and closes with the three equations of the edge update's arrays (pre-activation, gate, message). -/

noncomputable section

namespace Cert.Bridge

open Idealize.ShloMosaic Idealize.ShloMosaic.StableHlo Idealize.ShloMosaic.ValueIdx Idealize.SL.Sem

/-! ## The kernel's host stretch before the region, read back -/

section K
open Cert.KernelIdeal Cert.KernelIdeal.Gen
variable {F : FTy → Type} [FloatOps F]

/-- Layer 2's edge weight matrix, out of the stack of three. -/
def cwOf2 (a : Vec F S3x64x64 .f32) : Vec F S64x64 .f32 :=
  shapeCast S64x64 (extractStridedSlice S1x64x64 ![2, 0, 0] a slices_S3x64x64_S1x64x64_2_0_0) shapeCasts_S1x64x64_S64x64

/-- Layer 2's edge bias, flat, out of the stack of three. -/
def cbOf2 (a : Vec F S3x64 .f32) : Vec F S64 .f32 :=
  shapeCast S64 (extractStridedSlice S1x64 ![2, 0] a slices_S3x64_S1x64_2_0) shapeCasts_S1x64_S64

variable (Wk : Valuation τ sig (Elt F))

/-- The stretch does not write the edge features. -/
theorem ek2_e : StableHlo.after (hostOps11 (F := F)) Wk (Proc.devRef .tc main_v177) = Wk (Proc.devRef .tc main_v177) := by
  after_results_simp
/-- The region's weight window is layer 2's matrix of the stacked argument. -/
theorem ek2_cw : (StableHlo.after (hostOps11 (F := F)) Wk (Proc.devRef .tc main_v224) : Vec F S64x64 .f32)
    = cwOf2 (Wk (Proc.devRef .tc main_arg15)) := by
  after_results_simp <;> rfl
/-- The region's bias window is layer 2's bias of the stacked argument, as one row. -/
theorem ek2_cb : (StableHlo.after (hostOps11 (F := F)) Wk (Proc.devRef .tc main_v227) : Vec F S1x64 .f32)
    = shapeCast S1x64 (cbOf2 (Wk (Proc.devRef .tc main_arg16))) shapeCasts_S64_S1x64 := by
  after_results_simp <;> rfl
/-- The three gathered windows: the rows of `Dh` at the sources, of `Eh` at the destinations, of `Bh` at the sources. -/
theorem ek2_d : (StableHlo.after (hostOps11 (F := F)) Wk (Proc.devRef .tc main_v208) : Vec F S524288x64 .f32)
    = rowGather (StableHlo.after (hostOps11 (F := F)) Wk (Proc.devRef .tc main_v200)) (Wk (Proc.devRef .tc main_arg2)) := by
  after_results_simp <;> rfl
theorem ek2_g : (StableHlo.after (hostOps11 (F := F)) Wk (Proc.devRef .tc main_v215) : Vec F S524288x64 .f32)
    = rowGather (StableHlo.after (hostOps11 (F := F)) Wk (Proc.devRef .tc main_v201)) (Wk (Proc.devRef .tc main_arg3)) := by
  after_results_simp <;> rfl
theorem ek2_u : (StableHlo.after (hostOps11 (F := F)) Wk (Proc.devRef .tc main_v222) : Vec F S524288x64 .f32)
    = rowGather (StableHlo.after (hostOps11 (F := F)) Wk (Proc.devRef .tc main_v199)) (Wk (Proc.devRef .tc main_arg2)) := by
  after_results_simp <;> rfl

end K

/-! ## The reference's two chunks, read back -/

section R
open Cert.ReferenceIdeal Cert.ReferenceIdeal.Gen Cert.ReferenceIdeal.Hand
variable {F : FTy → Type} [FloatOps F]
variable (Qr : Valuation τ sig (Elt F))

/-- The first chunk does not write the index arguments. -/
theorem er2_a2 : StableHlo.after (rops11 (F := F)) Qr (Proc.devRef .tc main_arg2) = Qr (Proc.devRef .tc main_arg2) := by
  after_results_simp
theorem er2_a3 : StableHlo.after (rops11 (F := F)) Qr (Proc.devRef .tc main_arg3) = Qr (Proc.devRef .tc main_arg3) := by
  after_results_simp

/-- The edge's linear layer as the reference computes it: the product with layer 2's matrix plus its bias laid along
    the edges. -/
theorem er2_ce : (StableHlo.after (rops11 (F := F)) Qr (Proc.devRef .tc main_v309) : Vec F S524288x64 .f32)
    = addf (Host.dotGeneral dot_S524288x64_S64x64_S524288x64_1_0_0_1_n_n none (Qr (Proc.devRef .tc main_v269)) (cwOf2 (Qr (Proc.devRef .tc main_arg15))))
        (broadcastInDim S524288x64 ![0, 1] bcast_S1x64_S524288x64_0_1 (broadcastInDim S1x64 ![1] bcast_S64_S1x64_1 (cbOf2 (Qr (Proc.devRef .tc main_arg16))))) := by
  after_results_simp <;> rfl

variable (Q1 : Valuation τ sig (Elt F))

/-- The pre-activation: the linear layer plus the rows of `Dh` at the sources, plus the rows of `Eh` at the
    destinations. -/
theorem er2_hat : (StableHlo.after (rops12 (F := F)) Q1 (Proc.devRef .tc main_v325) : Vec F S524288x64 .f32)
    = addf (addf (Q1 (Proc.devRef .tc main_v309)) (rowGather (Q1 (Proc.devRef .tc main_v293)) (Q1 (Proc.devRef .tc main_arg2))))
        (rowGather (Q1 (Proc.devRef .tc main_v301)) (Q1 (Proc.devRef .tc main_arg3))) := by
  after_results_simp <;> rfl
/-- The gate: one over one plus the exponential of the negated pre-activation. -/
theorem er2_gate : (StableHlo.after (rops12 (F := F)) Q1 (Proc.devRef .tc main_v331) : Vec F S524288x64 .f32)
    = Host.divf (broadcastInDim S524288x64 ![] bcast_S_S524288x64 (constant S_ .f32 0x3F800000#32))
        (addf (broadcastInDim S524288x64 ![] bcast_S_S524288x64 (constant S_ .f32 0x3F800000#32))
          (Host.exp (Host.negf (StableHlo.after (rops12 (F := F)) Q1 (Proc.devRef .tc main_v325))))) := by
  after_results_simp <;> rfl
/-- The message: the gate times the rows of `Bh` at the sources. -/
theorem er2_msg : (StableHlo.after (rops12 (F := F)) Q1 (Proc.devRef .tc main_v339) : Vec F S524288x64 .f32)
    = mulf (StableHlo.after (rops12 (F := F)) Q1 (Proc.devRef .tc main_v331))
        (rowGather (Q1 (Proc.devRef .tc main_v285)) (Q1 (Proc.devRef .tc main_arg2))) := by
  after_results_simp <;> rfl

end R

/-! ## The step -/

section Step

/-- The edge update of layer 2: from a kernel valuation `Wk` at the entry of the host stretch before region 11 and a
    reference valuation `Qr` at the entry of the reference's chunk 11, with the edge features, the edge indices, the
    stacked edge weights and biases equal on the two sides at entry, and the three node arrays `Bh`, `Dh`, `Eh` equal
    after the kernel's stretch and the reference's chunk 11: the region's three outputs, as functions of its input
    arrays after the stretch, are the reference's pre-activation, gate and message after chunk 12. -/
theorem edge_update_2
    (Wk : Valuation Cert.KernelIdeal.τ Cert.KernelIdeal.sig (Elt Ideal))
    (Qr : Valuation Cert.ReferenceIdeal.τ Cert.ReferenceIdeal.sig (Elt Ideal))
    (he : (Wk (Proc.devRef .tc Cert.KernelIdeal.main_v177) : FVec Ideal SEdge .f32) = Qr (Proc.devRef .tc Cert.ReferenceIdeal.main_v269))
    (h2 : (Wk (Proc.devRef .tc Cert.KernelIdeal.main_arg2) : IVec Cert.KernelIdeal.S524288 32) = Qr (Proc.devRef .tc Cert.ReferenceIdeal.main_arg2))
    (h3 : (Wk (Proc.devRef .tc Cert.KernelIdeal.main_arg3) : IVec Cert.KernelIdeal.S524288 32) = Qr (Proc.devRef .tc Cert.ReferenceIdeal.main_arg3))
    (h15 : (Wk (Proc.devRef .tc Cert.KernelIdeal.main_arg15) : FVec Ideal Cert.KernelIdeal.S3x64x64 .f32) = Qr (Proc.devRef .tc Cert.ReferenceIdeal.main_arg15))
    (h16 : (Wk (Proc.devRef .tc Cert.KernelIdeal.main_arg16) : FVec Ideal Cert.KernelIdeal.S3x64 .f32) = Qr (Proc.devRef .tc Cert.ReferenceIdeal.main_arg16))
    (hB : (StableHlo.after (Cert.KernelIdeal.Gen.hostOps11 (F := Ideal)) Wk (Proc.devRef .tc Cert.KernelIdeal.main_v199) : FVec Ideal Cert.KernelIdeal.S32768x64 .f32)
      = StableHlo.after (Cert.ReferenceIdeal.Hand.rops11 (F := Ideal)) Qr (Proc.devRef .tc Cert.ReferenceIdeal.main_v285))
    (hD : (StableHlo.after (Cert.KernelIdeal.Gen.hostOps11 (F := Ideal)) Wk (Proc.devRef .tc Cert.KernelIdeal.main_v200) : FVec Ideal Cert.KernelIdeal.S32768x64 .f32)
      = StableHlo.after (Cert.ReferenceIdeal.Hand.rops11 (F := Ideal)) Qr (Proc.devRef .tc Cert.ReferenceIdeal.main_v293))
    (hE : (StableHlo.after (Cert.KernelIdeal.Gen.hostOps11 (F := Ideal)) Wk (Proc.devRef .tc Cert.KernelIdeal.main_v201) : FVec Ideal Cert.KernelIdeal.S32768x64 .f32)
      = StableHlo.after (Cert.ReferenceIdeal.Hand.rops11 (F := Ideal)) Qr (Proc.devRef .tc Cert.ReferenceIdeal.main_v301)) :
    edgeHat (StableHlo.after (Cert.KernelIdeal.Gen.hostOps11 (F := Ideal)) Wk (Proc.devRef .tc Cert.KernelIdeal.main_v177))
        (StableHlo.after (Cert.KernelIdeal.Gen.hostOps11 (F := Ideal)) Wk (Proc.devRef .tc Cert.KernelIdeal.main_v224))
        (StableHlo.after (Cert.KernelIdeal.Gen.hostOps11 (F := Ideal)) Wk (Proc.devRef .tc Cert.KernelIdeal.main_v227))
        (StableHlo.after (Cert.KernelIdeal.Gen.hostOps11 (F := Ideal)) Wk (Proc.devRef .tc Cert.KernelIdeal.main_v208))
        (StableHlo.after (Cert.KernelIdeal.Gen.hostOps11 (F := Ideal)) Wk (Proc.devRef .tc Cert.KernelIdeal.main_v215))
      = StableHlo.after (Cert.ReferenceIdeal.Hand.rops12 (F := Ideal)) (StableHlo.after (Cert.ReferenceIdeal.Hand.rops11 (F := Ideal)) Qr) (Proc.devRef .tc Cert.ReferenceIdeal.main_v325)
    ∧ edgeGate (StableHlo.after (Cert.KernelIdeal.Gen.hostOps11 (F := Ideal)) Wk (Proc.devRef .tc Cert.KernelIdeal.main_v177))
        (StableHlo.after (Cert.KernelIdeal.Gen.hostOps11 (F := Ideal)) Wk (Proc.devRef .tc Cert.KernelIdeal.main_v224))
        (StableHlo.after (Cert.KernelIdeal.Gen.hostOps11 (F := Ideal)) Wk (Proc.devRef .tc Cert.KernelIdeal.main_v227))
        (StableHlo.after (Cert.KernelIdeal.Gen.hostOps11 (F := Ideal)) Wk (Proc.devRef .tc Cert.KernelIdeal.main_v208))
        (StableHlo.after (Cert.KernelIdeal.Gen.hostOps11 (F := Ideal)) Wk (Proc.devRef .tc Cert.KernelIdeal.main_v215))
      = StableHlo.after (Cert.ReferenceIdeal.Hand.rops12 (F := Ideal)) (StableHlo.after (Cert.ReferenceIdeal.Hand.rops11 (F := Ideal)) Qr) (Proc.devRef .tc Cert.ReferenceIdeal.main_v331)
    ∧ edgeMsg (StableHlo.after (Cert.KernelIdeal.Gen.hostOps11 (F := Ideal)) Wk (Proc.devRef .tc Cert.KernelIdeal.main_v177))
        (StableHlo.after (Cert.KernelIdeal.Gen.hostOps11 (F := Ideal)) Wk (Proc.devRef .tc Cert.KernelIdeal.main_v224))
        (StableHlo.after (Cert.KernelIdeal.Gen.hostOps11 (F := Ideal)) Wk (Proc.devRef .tc Cert.KernelIdeal.main_v227))
        (StableHlo.after (Cert.KernelIdeal.Gen.hostOps11 (F := Ideal)) Wk (Proc.devRef .tc Cert.KernelIdeal.main_v208))
        (StableHlo.after (Cert.KernelIdeal.Gen.hostOps11 (F := Ideal)) Wk (Proc.devRef .tc Cert.KernelIdeal.main_v215))
        (StableHlo.after (Cert.KernelIdeal.Gen.hostOps11 (F := Ideal)) Wk (Proc.devRef .tc Cert.KernelIdeal.main_v222))
      = StableHlo.after (Cert.ReferenceIdeal.Hand.rops12 (F := Ideal)) (StableHlo.after (Cert.ReferenceIdeal.Hand.rops11 (F := Ideal)) Qr) (Proc.devRef .tc Cert.ReferenceIdeal.main_v339) := by
  -- the region's five input arrays after the kernel's stretch, in the reference's terms
  have e0 := (ek2_e (F := Ideal) Wk).trans he
  have e1 : (StableHlo.after (Cert.KernelIdeal.Gen.hostOps11 (F := Ideal)) Wk (Proc.devRef .tc Cert.KernelIdeal.main_v224) : FVec Ideal SSq .f32)
      = cwOf2 (Qr (Proc.devRef .tc Cert.ReferenceIdeal.main_arg15)) := (ek2_cw (F := Ideal) Wk).trans (congrArg cwOf2 h15)
  have e2 : (StableHlo.after (Cert.KernelIdeal.Gen.hostOps11 (F := Ideal)) Wk (Proc.devRef .tc Cert.KernelIdeal.main_v227) : FVec Ideal SRow .f32)
      = shapeCast SRow (cbOf2 (Qr (Proc.devRef .tc Cert.ReferenceIdeal.main_arg16))) Cert.KernelIdeal.Gen.shapeCasts_S64_S1x64 :=
    (ek2_cb (F := Ideal) Wk).trans (congrArg (fun v => shapeCast SRow (cbOf2 v) Cert.KernelIdeal.Gen.shapeCasts_S64_S1x64) h16)
  have e3 : (StableHlo.after (Cert.KernelIdeal.Gen.hostOps11 (F := Ideal)) Wk (Proc.devRef .tc Cert.KernelIdeal.main_v208) : FVec Ideal SEdge .f32)
      = rowGather (StableHlo.after (Cert.ReferenceIdeal.Hand.rops11 (F := Ideal)) Qr (Proc.devRef .tc Cert.ReferenceIdeal.main_v293)) (Qr (Proc.devRef .tc Cert.ReferenceIdeal.main_arg2)) :=
    (ek2_d (F := Ideal) Wk).trans (congrArg₂ rowGather hD h2)
  have e4 : (StableHlo.after (Cert.KernelIdeal.Gen.hostOps11 (F := Ideal)) Wk (Proc.devRef .tc Cert.KernelIdeal.main_v215) : FVec Ideal SEdge .f32)
      = rowGather (StableHlo.after (Cert.ReferenceIdeal.Hand.rops11 (F := Ideal)) Qr (Proc.devRef .tc Cert.ReferenceIdeal.main_v301)) (Qr (Proc.devRef .tc Cert.ReferenceIdeal.main_arg3)) :=
    (ek2_g (F := Ideal) Wk).trans (congrArg₂ rowGather hE h3)
  have e5 : (StableHlo.after (Cert.KernelIdeal.Gen.hostOps11 (F := Ideal)) Wk (Proc.devRef .tc Cert.KernelIdeal.main_v222) : FVec Ideal SEdge .f32)
      = rowGather (StableHlo.after (Cert.ReferenceIdeal.Hand.rops11 (F := Ideal)) Qr (Proc.devRef .tc Cert.ReferenceIdeal.main_v285)) (Qr (Proc.devRef .tc Cert.ReferenceIdeal.main_arg2)) :=
    (ek2_u (F := Ideal) Wk).trans (congrArg₂ rowGather hB h2)
  -- the reference's three results over the same terms
  have q65 := er2_hat (F := Ideal) (StableHlo.after (Cert.ReferenceIdeal.Hand.rops11 (F := Ideal)) Qr)
  rw [er2_ce (F := Ideal) Qr, er2_a2 (F := Ideal) Qr, er2_a3 (F := Ideal) Qr] at q65
  have q71 := er2_gate (F := Ideal) (StableHlo.after (Cert.ReferenceIdeal.Hand.rops11 (F := Ideal)) Qr)
  have q79 := er2_msg (F := Ideal) (StableHlo.after (Cert.ReferenceIdeal.Hand.rops11 (F := Ideal)) Qr)
  rw [er2_a2 (F := Ideal) Qr] at q79
  rw [e0, e1, e2, e3, e4, e5]
  have hhat := (edgeHat_eq _ _ _ _ _ Cert.KernelIdeal.Gen.shapeCasts_S64_S1x64 Cert.ReferenceIdeal.Gen.bcast_S64_S1x64_1 Cert.ReferenceIdeal.Gen.bcast_S1x64_S524288x64_0_1).trans q65.symm
  have hgate := (edgeGate_eq _ _ _ _ _ _ Cert.ReferenceIdeal.Gen.bcast_S_S524288x64 hhat).trans q71.symm
  exact ⟨hhat, hgate, (edgeMsg_eq _ _ _ _ _ _ _ hgate).trans q79.symm⟩

end Step

end Cert.Bridge

end
-- ==== Proof.BR.FinalL2.lean ====
import proofs.«142356_j74423193305351_1_alg».proof.Proof.BR.FinalBase
import proofs.«142356_j74423193305351_1_alg».proof.Proof.BR.KStages
import proofs.«142356_j74423193305351_1_alg».proof.Proof.BR.RefStages
import proofs.«142356_j74423193305351_1_alg».proof.Proof.BR.RefArgs
import proofs.«142356_j74423193305351_1_alg».proof.Proof.BR.Linear2
import proofs.«142356_j74423193305351_1_alg».proof.Proof.BR.Edge2
import proofs.«142356_j74423193305351_1_alg».proof.Proof.BR.BnG

/-! # Layer 2 of the chain: from the previous layer's node and edge features to this layer's

The links of layer 2 — the four linear maps of the node features, the edge update, the aggregation, the batch norm
with residual of the node features — each from the step lemma of its operation, the agreement of the arguments,
and the previous layer's two conclusions, taken here as hypotheses: the kernel's node and edge feature arrays after
the previous layer are the reference's. -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The stage valuations of this layer, one step unfolded; the edge region's functions under their two names -/

namespace L2

theorem W29_def : Cert.KernelIdeal.Hand.W29 m c = (StableHlo.after (Cert.KernelIdeal.Gen.hostOps10 (F := Ideal)) (Cert.KernelIdeal.Hand.W28 m c)) := rfl
theorem W31_def : Cert.KernelIdeal.Hand.W31 m c = (StableHlo.after (Cert.KernelIdeal.Gen.hostOps11 (F := Ideal)) (Cert.KernelIdeal.Hand.W30 m c)) := rfl
theorem W35_def : Cert.KernelIdeal.Hand.W35 m c = (StableHlo.after (Cert.KernelIdeal.Gen.hostOps12_2 (F := Ideal)) (StableHlo.after (Cert.KernelIdeal.Gen.hostOps12_1 (F := Ideal)) (StableHlo.after (Cert.KernelIdeal.Gen.hostOps12 (F := Ideal)) (Cert.KernelIdeal.Hand.W32 m c)))) := rfl
theorem Q12_def : Q12 m' c = (StableHlo.after (Cert.ReferenceIdeal.Hand.rops11 (F := Ideal)) (Q11 m' c)) := rfl
theorem Q13_def : Q13 m' c = (StableHlo.after (Cert.ReferenceIdeal.Hand.rops12 (F := Ideal)) (StableHlo.after (Cert.ReferenceIdeal.Hand.rops11 (F := Ideal)) (Q11 m' c))) := rfl
theorem Q14_def : Q14 m' c = (StableHlo.after (Cert.ReferenceIdeal.Hand.rops13 (F := Ideal)) (Q13 m' c)) := rfl
theorem Q15_def : Q15 m' c = (StableHlo.after (Cert.ReferenceIdeal.Hand.rops14 (F := Ideal)) (Q14 m' c)) := rfl
theorem hand_G11_6 : Cert.KernelIdeal.Hand.G11_6 = edgeHat := rfl
theorem hand_G11_7 : Cert.KernelIdeal.Hand.G11_7 = edgeGate := rfl
theorem hand_G11_8 : Cert.KernelIdeal.Hand.G11_8 = edgeMsg := rfl

end L2

/-! ## The links -/

/-- Layer 2's four linear maps of the node features: the four column blocks of region 10's array, as the kernel's
    next host stretch cuts them out, are the reference's four products. -/
theorem lin2 (h : Agree m m' c)
    (hH : (Cert.KernelIdeal.Hand.W24 m c) (Proc.devRef .tc Cert.KernelIdeal.main_v164) = (Q10 m' c) (Proc.devRef .tc Cert.ReferenceIdeal.main_v244)) :
    (Cert.KernelIdeal.Hand.W31 m c) (Proc.devRef .tc Cert.KernelIdeal.main_v198) = (Q12 m' c) (Proc.devRef .tc Cert.ReferenceIdeal.main_v277) ∧ (Cert.KernelIdeal.Hand.W31 m c) (Proc.devRef .tc Cert.KernelIdeal.main_v199) = (Q12 m' c) (Proc.devRef .tc Cert.ReferenceIdeal.main_v285)
    ∧ (Cert.KernelIdeal.Hand.W31 m c) (Proc.devRef .tc Cert.KernelIdeal.main_v200) = (Q12 m' c) (Proc.devRef .tc Cert.ReferenceIdeal.main_v293) ∧ (Cert.KernelIdeal.Hand.W31 m c) (Proc.devRef .tc Cert.KernelIdeal.main_v201) = (Q12 m' c) (Proc.devRef .tc Cert.ReferenceIdeal.main_v301) := by
  have key := linear2 (Cert.KernelIdeal.Hand.W28 m c) (Q11 m' c) ((Cert.KernelIdeal.Hand.W28_eq_W24_v164 m c).trans (hH.trans (Q11_of m' c Cert.ReferenceIdeal.main_v244 (by decide +kernel)).symm))
    ((Cert.KernelIdeal.Hand.W28_eq_launch_arg11 m c).trans ((agree_11 m m' c h).trans (Q11_arg m' c (r := Cert.ReferenceIdeal.main_arg11) (by decide)).symm))
    ((Cert.KernelIdeal.Hand.W28_eq_launch_arg12 m c).trans ((agree_12 m m' c h).trans (Q11_arg m' c (r := Cert.ReferenceIdeal.main_arg12) (by decide)).symm))
    ((Cert.KernelIdeal.Hand.W28_eq_launch_arg13 m c).trans ((agree_13 m m' c h).trans (Q11_arg m' c (r := Cert.ReferenceIdeal.main_arg13) (by decide)).symm))
    ((Cert.KernelIdeal.Hand.W28_eq_launch_arg14 m c).trans ((agree_14 m m' c h).trans (Q11_arg m' c (r := Cert.ReferenceIdeal.main_arg14) (by decide)).symm))
    ((Cert.KernelIdeal.Hand.W28_eq_launch_arg17 m c).trans ((agree_17 m m' c h).trans (Q11_arg m' c (r := Cert.ReferenceIdeal.main_arg17) (by decide)).symm))
    ((Cert.KernelIdeal.Hand.W28_eq_launch_arg18 m c).trans ((agree_18 m m' c h).trans (Q11_arg m' c (r := Cert.ReferenceIdeal.main_arg18) (by decide)).symm))
    ((Cert.KernelIdeal.Hand.W28_eq_launch_arg19 m c).trans ((agree_19 m m' c h).trans (Q11_arg m' c (r := Cert.ReferenceIdeal.main_arg19) (by decide)).symm))
    ((Cert.KernelIdeal.Hand.W28_eq_launch_arg20 m c).trans ((agree_20 m m' c h).trans (Q11_arg m' c (r := Cert.ReferenceIdeal.main_arg20) (by decide)).symm))
  refine ⟨?_, ?_, ?_, ?_⟩
  · rw [L2.W31_def m c, hostOps11_v198, Cert.KernelIdeal.Hand.W30_v197, L2.W29_def m c, L2.Q12_def m' c]
    exact key.1
  · rw [L2.W31_def m c, hostOps11_v199, Cert.KernelIdeal.Hand.W30_v197, L2.W29_def m c, L2.Q12_def m' c]
    exact key.2.1
  · rw [L2.W31_def m c, hostOps11_v200, Cert.KernelIdeal.Hand.W30_v197, L2.W29_def m c, L2.Q12_def m' c]
    exact key.2.2.1
  · rw [L2.W31_def m c, hostOps11_v201, Cert.KernelIdeal.Hand.W30_v197, L2.W29_def m c, L2.Q12_def m' c]
    exact key.2.2.2

/-- Layer 2's edge update: region 11's three arrays are the reference's pre-activation, gate and message. -/
theorem edge2 (h : Agree m m' c)
    (hH : (Cert.KernelIdeal.Hand.W24 m c) (Proc.devRef .tc Cert.KernelIdeal.main_v164) = (Q10 m' c) (Proc.devRef .tc Cert.ReferenceIdeal.main_v244))
    (hE : (Cert.KernelIdeal.Hand.W28 m c) (Proc.devRef .tc Cert.KernelIdeal.main_v177) = (Q11 m' c) (Proc.devRef .tc Cert.ReferenceIdeal.main_v269)) :
    (Cert.KernelIdeal.Hand.W32 m c) (Proc.devRef .tc Cert.KernelIdeal.main_v228_0) = (Q13 m' c) (Proc.devRef .tc Cert.ReferenceIdeal.main_v325) ∧ (Cert.KernelIdeal.Hand.W32 m c) (Proc.devRef .tc Cert.KernelIdeal.main_v228_1) = (Q13 m' c) (Proc.devRef .tc Cert.ReferenceIdeal.main_v331)
    ∧ (Cert.KernelIdeal.Hand.W32 m c) (Proc.devRef .tc Cert.KernelIdeal.main_v228_2) = (Q13 m' c) (Proc.devRef .tc Cert.ReferenceIdeal.main_v339) := by
  obtain ⟨lA, lB, lD, lE⟩ := lin2 m m' c h hH
  rw [L2.W31_def m c, L2.Q12_def m' c] at lB lD lE
  have key := edge_update_2 (Cert.KernelIdeal.Hand.W30 m c) (Q11 m' c)
    ((Cert.KernelIdeal.Hand.W30_eq_W28_v177 m c).trans hE)
    ((Cert.KernelIdeal.Hand.W30_eq_launch_arg2 m c).trans ((agree_2 m m' c h).trans (Q11_arg m' c (r := Cert.ReferenceIdeal.main_arg2) (by decide)).symm))
    ((Cert.KernelIdeal.Hand.W30_eq_launch_arg3 m c).trans ((agree_3 m m' c h).trans (Q11_arg m' c (r := Cert.ReferenceIdeal.main_arg3) (by decide)).symm))
    ((Cert.KernelIdeal.Hand.W30_eq_launch_arg15 m c).trans ((agree_15 m m' c h).trans (Q11_arg m' c (r := Cert.ReferenceIdeal.main_arg15) (by decide)).symm))
    ((Cert.KernelIdeal.Hand.W30_eq_launch_arg16 m c).trans ((agree_16 m m' c h).trans (Q11_arg m' c (r := Cert.ReferenceIdeal.main_arg16) (by decide)).symm))
    lB lD lE
  refine ⟨?_, ?_, ?_⟩
  · rw [Cert.KernelIdeal.Hand.W32_v228_0, L2.hand_G11_6, L2.W31_def m c, L2.Q13_def m' c]
    exact key.1
  · rw [Cert.KernelIdeal.Hand.W32_v228_1, L2.hand_G11_7, L2.W31_def m c, L2.Q13_def m' c]
    exact key.2.1
  · rw [Cert.KernelIdeal.Hand.W32_v228_2, L2.hand_G11_8, L2.W31_def m c, L2.Q13_def m' c]
    exact key.2.2

/-- Layer 2's aggregation of the messages at the destination nodes. -/
theorem agg2 (h : Agree m m' c)
    (hH : (Cert.KernelIdeal.Hand.W24 m c) (Proc.devRef .tc Cert.KernelIdeal.main_v164) = (Q10 m' c) (Proc.devRef .tc Cert.ReferenceIdeal.main_v244))
    (hE : (Cert.KernelIdeal.Hand.W28 m c) (Proc.devRef .tc Cert.KernelIdeal.main_v177) = (Q11 m' c) (Proc.devRef .tc Cert.ReferenceIdeal.main_v269)) :
    ((StableHlo.after (Cert.KernelIdeal.Gen.hostOps12 (F := Ideal)) (Cert.KernelIdeal.Hand.W32 m c)) (Proc.devRef .tc Cert.KernelIdeal.main_v238) : FVec Ideal Cert.KernelIdeal.S32768x64 .f32) = (Q14 m' c) (Proc.devRef .tc Cert.ReferenceIdeal.main_v349) := by
  obtain ⟨e0, e1, e2⟩ := edge2 m m' c h hH hE
  obtain ⟨lA, -, -, -⟩ := lin2 m m' c h hH
  have key := agg_L2 (Cert.KernelIdeal.Hand.W32 m c) (Q13 m' c) e2 e1
    ((Cert.KernelIdeal.Hand.W32_eq_W31_v198 m c).trans (lA.trans (Q13_of m' c Cert.ReferenceIdeal.main_v277 (by decide +kernel)).symm))
    ((Cert.KernelIdeal.Hand.W32_eq_launch_arg3 m c).trans ((agree_3 m m' c h).trans (Q13_arg m' c (r := Cert.ReferenceIdeal.main_arg3) (by decide)).symm))
  rw [L2.Q14_def m' c]
  exact key

/-- Layer 2's batch norm of the node features with its residual: region 12's array is the reference's next node
    features. -/
theorem h3_eq (h : Agree m m' c)
    (hH : (Cert.KernelIdeal.Hand.W24 m c) (Proc.devRef .tc Cert.KernelIdeal.main_v164) = (Q10 m' c) (Proc.devRef .tc Cert.ReferenceIdeal.main_v244))
    (hE : (Cert.KernelIdeal.Hand.W28 m c) (Proc.devRef .tc Cert.KernelIdeal.main_v177) = (Q11 m' c) (Proc.devRef .tc Cert.ReferenceIdeal.main_v269)) : (Cert.KernelIdeal.Hand.W36 m c) (Proc.devRef .tc Cert.KernelIdeal.main_v251) = (Q15 m' c) (Proc.devRef .tc Cert.ReferenceIdeal.main_v374) := by
  have key := bnh_L2 (Cert.KernelIdeal.Hand.W32 m c) (Q14 m' c) (agg2 m m' c h hH hE)
    ((Cert.KernelIdeal.Hand.W32_eq_W24_v164 m c).trans (hH.trans ((Q14_of m' c Cert.ReferenceIdeal.main_v244 (by decide +kernel)).trans ((Q13_of m' c Cert.ReferenceIdeal.main_v244 (by decide +kernel)).trans ((Q12_of m' c Cert.ReferenceIdeal.main_v244 (by decide +kernel)).trans (Q11_of m' c Cert.ReferenceIdeal.main_v244 (by decide +kernel))))).symm))
    ((Cert.KernelIdeal.Hand.W32_eq_launch_arg21 m c).trans ((agree_21 m m' c h).trans (Q14_arg m' c (r := Cert.ReferenceIdeal.main_arg21) (by decide)).symm))
    ((Cert.KernelIdeal.Hand.W32_eq_launch_arg22 m c).trans ((agree_22 m m' c h).trans (Q14_arg m' c (r := Cert.ReferenceIdeal.main_arg22) (by decide)).symm))
  rw [Cert.KernelIdeal.Hand.W36_v251, L2.W35_def m c, L2.Q15_def m' c]
  exact key

/-- Layer 2: from layer 1's node and edge features to layer 2's node features. -/
theorem layer2 (h : Agree m m' c)
    (hH : (Cert.KernelIdeal.Hand.W24 m c) (Proc.devRef .tc Cert.KernelIdeal.main_v164) = (Q10 m' c) (Proc.devRef .tc Cert.ReferenceIdeal.main_v244))
    (hE : (Cert.KernelIdeal.Hand.W28 m c) (Proc.devRef .tc Cert.KernelIdeal.main_v177) = (Q11 m' c) (Proc.devRef .tc Cert.ReferenceIdeal.main_v269)) :
    (Cert.KernelIdeal.Hand.W36 m c) (Proc.devRef .tc Cert.KernelIdeal.main_v251) = (Q15 m' c) (Proc.devRef .tc Cert.ReferenceIdeal.main_v374) :=
  h3_eq m m' c h hH hE

end Cert.Bridge

end
-- ==== Proof.LibNary3.lean ====
/-
  A general lemma on straight-line StableHLO runs: the result of an `nary` operation over a LITERAL family of
  THREE references (a `stablehlo.concatenate` of three operands), with each operand's contents read at its own
  reference. The library states this for four references (`nary4_result`); this is the same statement for three.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- `nary` over a literal family of three references `![x, a, b]`: the result buffer holds `f` of the family
    `Fin.cons (F ↑x) (Fin.cons (F ↑a) (Fin.cons (F ↑b) _))` — each operand's contents at its OWN reference, in place
    of `fun k => F ↑(![x, a, b] k)` —, so that a rewriting pass can go on to the operands' own contents: under the
    binder `![x, a, b] k` is no literal reference and no result lemma applies to it. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.BR.Readout.lean ====
/-
  The graph readout, as both programs compute it from the final node features: the per-graph node counts (a
  scatter-add of ones by graph id), the per-graph feature sums (a scatter-add of the node features), the mean
  (sums divided by max(count, 1)), and the MLP's input: mean, state and action side by side along the feature axis.
  Kernel and reference apply the SAME host operations; the step is therefore carried as one function `readout` of
  the four arrays going in, never opened: each program's fold of its operations is that function of its own entry
  buffers, and equal entry buffers give equal results.
-/
import proofs.«142356_j74423193305351_1_alg».proof.Proof.Gen.KernelIdeal.Launch
import proofs.«142356_j74423193305351_1_alg».proof.Proof.Gen.ReferenceIdeal
import proofs.«142356_j74423193305351_1_alg».proof.Proof.RI.Ops3
import proofs.«142356_j74423193305351_1_alg».proof.Proof.LibNary3
import Idealize.ShloMosaic.Lib.StableHlo.Run
import Idealize.ShloMosaic.PureOps.Ideal.Laws

noncomputable section

namespace Cert.Bridge

open Idealize.ShloMosaic Idealize.ShloMosaic.TcCoe Idealize.ShloMosaic.StableHlo Idealize.SL.Sem

/-- The rewriting pass that reads one buffer after a literal list of host operations, with the three-reference
    `nary` result among its lemmas. -/
local macro "read_after" : tactic =>
  `(tactic| (simp only [after_cons, after_nil]
             repeat (first
               | rw [nullary_result] | rw [unary_result] | rw [binary_result] | rw [ternary_result]
               | rw [reshape_result] | rw [Cert.LibNary3.nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

section Generic

variable {F : FTy → Type} [FloatOps F]

open Cert.KernelIdeal Cert.KernelIdeal.Gen in
/-- The readout of node features `h` by graph ids `g`, with the state and action columns appended. -/
def readout (h : Vec F Cert.KernelIdeal.S32768x64 .f32) (g : Vec F Cert.KernelIdeal.S32768 .i32)
    (st : Vec F Cert.KernelIdeal.S256x16 .f32) (ac : Vec F Cert.KernelIdeal.S256x2 .f32) :
    Vec F Cert.KernelIdeal.S256x82 .f32 :=
  concatenate S256x82 1
    [⟨S256x64,
        Host.divf
          (Host.scatterAdd scatter_S256x64_S32768x1_S32768x64_1_0_0_1
            (broadcastInDim S256x64 ![] bcast_S_S256x64 (constant (F := F) S_ .f32 0x00000000#32))
            (broadcastInDim S32768x1 ![0] bcast_S32768_S32768x1_0 g) h)
          (broadcastInDim S256x64 ![0, 1] bcast_S256x1_S256x64_0_1
            (broadcastInDim S256x1 ![0] bcast_S256_S256x1_0
              (maximumf
                (Host.scatterAdd scatter_S256_S32768x1_S32768_n_0_0_1
                  (broadcastInDim S256 ![] bcast_S_S256 (constant (F := F) S_ .f32 0x00000000#32))
                  (broadcastInDim S32768x1 ![0] bcast_S32768_S32768x1_0 g)
                  (broadcastInDim S32768 ![] bcast_S_S32768 (constant (F := F) S_ .f32 0x3F800000#32)))
                (broadcastInDim S256 ![] bcast_S_S256 (constant (F := F) S_ .f32 0x3F800000#32)))))⟩,
      ⟨S256x16, st⟩, ⟨S256x2, ac⟩]
    concatenates_S256x64_S256x16_S256x2_S256x82_d1

set_option maxHeartbeats 4000000 in
/-- The kernel program's last host stretch leaves the MLP's input at `readout` of its entry buffers. -/
theorem kernel_readout (Wk : Valuation Cert.KernelIdeal.τ Cert.KernelIdeal.sig (Elt F)) :
    StableHlo.after (Cert.KernelIdeal.Gen.hostOps14 (F := F)) Wk (Proc.devRef .tc Cert.KernelIdeal.main_v277)
      = readout (Wk (Proc.devRef .tc Cert.KernelIdeal.main_v251)) (Wk (Proc.devRef .tc Cert.KernelIdeal.main_arg4))
          (Wk (Proc.devRef .tc Cert.KernelIdeal.main_arg5)) (Wk (Proc.devRef .tc Cert.KernelIdeal.main_arg6)) := by
  read_after
  rfl

set_option maxHeartbeats 4000000 in
/-- The reference's readout chunk leaves the MLP's input at `readout` of its entry buffers. -/
theorem reference_readout (Qr : Valuation Cert.ReferenceIdeal.τ Cert.ReferenceIdeal.sig (Elt F)) :
    StableHlo.after (Cert.ReferenceIdeal.Hand.rops16 (F := F)) Qr (Proc.devRef .tc Cert.ReferenceIdeal.main_v412)
      = readout (Qr (Proc.devRef .tc Cert.ReferenceIdeal.main_v374)) (Qr (Proc.devRef .tc Cert.ReferenceIdeal.main_arg4))
          (Qr (Proc.devRef .tc Cert.ReferenceIdeal.main_arg5)) (Qr (Proc.devRef .tc Cert.ReferenceIdeal.main_arg6)) := by
  read_after
  rfl

/-- STEP "readout", at any float values: equal final node features and equal graph ids, states and actions going in
    give equal MLP inputs coming out. -/
theorem step_readout_gen (Wk : Valuation Cert.KernelIdeal.τ Cert.KernelIdeal.sig (Elt F))
    (Qr : Valuation Cert.ReferenceIdeal.τ Cert.ReferenceIdeal.sig (Elt F))
    (hh : (Wk (Proc.devRef .tc Cert.KernelIdeal.main_v251) : Vec F Cert.KernelIdeal.S32768x64 .f32)
            = Qr (Proc.devRef .tc Cert.ReferenceIdeal.main_v374))
    (h4 : (Wk (Proc.devRef .tc Cert.KernelIdeal.main_arg4) : Vec F Cert.KernelIdeal.S32768 .i32)
            = Qr (Proc.devRef .tc Cert.ReferenceIdeal.main_arg4))
    (h5 : (Wk (Proc.devRef .tc Cert.KernelIdeal.main_arg5) : Vec F Cert.KernelIdeal.S256x16 .f32)
            = Qr (Proc.devRef .tc Cert.ReferenceIdeal.main_arg5))
    (h6 : (Wk (Proc.devRef .tc Cert.KernelIdeal.main_arg6) : Vec F Cert.KernelIdeal.S256x2 .f32)
            = Qr (Proc.devRef .tc Cert.ReferenceIdeal.main_arg6)) :
    (StableHlo.after (Cert.KernelIdeal.Gen.hostOps14 (F := F)) Wk (Proc.devRef .tc Cert.KernelIdeal.main_v277)
        : Vec F Cert.KernelIdeal.S256x82 .f32)
      = StableHlo.after (Cert.ReferenceIdeal.Hand.rops16 (F := F)) Qr (Proc.devRef .tc Cert.ReferenceIdeal.main_v412) := by
  rw [kernel_readout, reference_readout, hh, h4, h5, h6]

end Generic

/-- STEP "readout" at the extended reals. -/
theorem step_readout (Wk : Valuation Cert.KernelIdeal.τ Cert.KernelIdeal.sig (Elt Ideal))
    (Qr : Valuation Cert.ReferenceIdeal.τ Cert.ReferenceIdeal.sig (Elt Ideal))
    (hh : (Wk (Proc.devRef .tc Cert.KernelIdeal.main_v251) : Vec Ideal Cert.KernelIdeal.S32768x64 .f32)
            = Qr (Proc.devRef .tc Cert.ReferenceIdeal.main_v374))
    (h4 : (Wk (Proc.devRef .tc Cert.KernelIdeal.main_arg4) : Vec Ideal Cert.KernelIdeal.S32768 .i32)
            = Qr (Proc.devRef .tc Cert.ReferenceIdeal.main_arg4))
    (h5 : (Wk (Proc.devRef .tc Cert.KernelIdeal.main_arg5) : Vec Ideal Cert.KernelIdeal.S256x16 .f32)
            = Qr (Proc.devRef .tc Cert.ReferenceIdeal.main_arg5))
    (h6 : (Wk (Proc.devRef .tc Cert.KernelIdeal.main_arg6) : Vec Ideal Cert.KernelIdeal.S256x2 .f32)
            = Qr (Proc.devRef .tc Cert.ReferenceIdeal.main_arg6)) :
    (StableHlo.after (Cert.KernelIdeal.Gen.hostOps14 (F := Ideal)) Wk (Proc.devRef .tc Cert.KernelIdeal.main_v277)
        : Vec Ideal Cert.KernelIdeal.S256x82 .f32)
      = StableHlo.after (Cert.ReferenceIdeal.Hand.rops16 (F := Ideal)) Qr (Proc.devRef .tc Cert.ReferenceIdeal.main_v412) :=
  step_readout_gen Wk Qr hh h4 h5 h6

end Cert.Bridge

end
-- ==== Proof.BR.MlpHead.lean ====
/-
  The MLP head. The reference computes it by eighteen host operations: three products, each bias vector broadcast to
  one row and that row over the rows, two maxima with zero. Their fold is one function `mlpHost` of the seven arrays
  going in. At the extended reals that function is, index by index, the kernel region's value function `G14_7`: a
  product read at an index is the plain sum over the contracted coordinate, a bias read at `(r, j)` is its entry `j`
  (which is also what the kernel's one-row reshape of it reads at `(0, j)`), and the maximum with the zero constant is
  the maximum with `0`. The kernel reads its bias rows after its last host stretch, which reshapes arguments 26, 28
  and 30 and writes no argument.
-/
import proofs.«142356_j74423193305351_1_alg».proof.Proof.Gen.KernelIdeal.Launch
import proofs.«142356_j74423193305351_1_alg».proof.Proof.Gen.ReferenceIdeal
import proofs.«142356_j74423193305351_1_alg».proof.Proof.RI.Ops3
import proofs.«142356_j74423193305351_1_alg».proof.Proof.KI.RegionsP
import proofs.«142356_j74423193305351_1_alg».proof.Proof.KI.V14
import proofs.«142356_j74423193305351_1_alg».proof.Proof.LibNary3
import Idealize.ShloMosaic.Lib.StableHlo.Run
import Idealize.ShloMosaic.Lib.StackMember
import Idealize.ShloMosaic.Lib.KernelVsHost
import Idealize.ShloMosaic.Lib.IdealHost
import Idealize.ShloMosaic.Lib.ValueLayout
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.ShloMosaic.StableHlo Idealize.SL.Sem
open Idealize.ShloMosaic.ValueIdx
open Cert.KernelIdeal.Hand (H14_1 H14_2 G14_7)

/-- The rewriting pass that reads one buffer after a literal list of host operations. -/
local macro "read_after" : tactic =>
  `(tactic| (simp only [after_cons, after_nil]
             repeat (first
               | rw [nullary_result] | rw [unary_result] | rw [binary_result] | rw [ternary_result]
               | rw [reshape_result] | rw [Cert.LibNary3.nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-! ## The head as the reference's host operations compute it -/

section Generic

variable {F : FTy → Type} [FloatOps F]

open Cert.ReferenceIdeal Cert.ReferenceIdeal.Gen in
/-- The host's relu of a hidden layer: the maximum with the zero constant broadcast over the array. -/
def hostRelu (a : Vec F S256x256 .f32) : Vec F S256x256 .f32 :=
  maximumf a (broadcastInDim S256x256 ![] bcast_S_S256x256 (constant (F := F) S_ .f32 0x00000000#32))

open Cert.ReferenceIdeal Cert.ReferenceIdeal.Gen in
/-- The reference's head: two hidden layers, relu of (input · W + b), and the output layer (hidden · W₃ + b₃), as its
    eighteen host operations compose; each bias vector is broadcast to one row and that row over the rows. -/
def mlpHost (x : Vec F S256x82 .f32) (W1 : Vec F S82x256 .f32) (b1 : Vec F S256 .f32) (W2 : Vec F S256x256 .f32)
    (b2 : Vec F S256 .f32) (W3 : Vec F S256x1 .f32) (b3 : Vec F S1 .f32) : Vec F S256x1 .f32 :=
  addf
    (Host.dotGeneral dot_S256x256_S256x1_S256x1_1_0_0_1_n_n none
      (hostRelu
        (addf
          (Host.dotGeneral dot_S256x256_S256x256_S256x256_1_0_0_1_n_n none
            (hostRelu
              (addf (Host.dotGeneral dot_S256x82_S82x256_S256x256_1_0_0_1_n_n none x W1)
                (broadcastInDim S256x256 ![0, 1] bcast_S1x256_S256x256_0_1 (broadcastInDim S1x256 ![1] bcast_S256_S1x256_1 b1))))
            W2)
          (broadcastInDim S256x256 ![0, 1] bcast_S1x256_S256x256_0_1 (broadcastInDim S1x256 ![1] bcast_S256_S1x256_1 b2))))
      W3)
    (broadcastInDim S256x1 ![0, 1] bcast_S1x1_S256x1_0_1 (broadcastInDim S1x1 ![1] bcast_S1_S1x1_1 b3))

set_option maxHeartbeats 4000000 in
/-- The reference's last chunk leaves its result at `mlpHost` of its entry buffers. -/
theorem reference_mlp (Qr : Valuation Cert.ReferenceIdeal.τ Cert.ReferenceIdeal.sig (Elt F)) :
    StableHlo.after (Cert.ReferenceIdeal.Hand.rops17 (F := F)) Qr (Proc.devRef .tc Cert.ReferenceIdeal.main_v426)
      = mlpHost (Qr (Proc.devRef .tc Cert.ReferenceIdeal.main_v412)) (Qr (Proc.devRef .tc Cert.ReferenceIdeal.main_arg25))
          (Qr (Proc.devRef .tc Cert.ReferenceIdeal.main_arg26)) (Qr (Proc.devRef .tc Cert.ReferenceIdeal.main_arg27))
          (Qr (Proc.devRef .tc Cert.ReferenceIdeal.main_arg28)) (Qr (Proc.devRef .tc Cert.ReferenceIdeal.main_arg29))
          (Qr (Proc.devRef .tc Cert.ReferenceIdeal.main_arg30)) := by
  read_after
  rfl

end Generic

/-! ## Layout operations read at an index -/

/-- An `[n]` array broadcast to `[1, n]` along the second axis reads, at `(u, t)`, the operand at `t`. -/
theorem broadcastInDim_a_1a_apply {α : Type} {n : ℕ} (h : (⟨1, ![n]⟩ : Shape).BroadcastsInDim ⟨2, ![1, n]⟩ ![1])
    (y : (⟨1, ![n]⟩ : Shape).Idx → α) (u : Fin 1) (t : Fin n) :
    broadcastInDim ⟨2, ![1, n]⟩ ![1] h y (ix2 u t) = y (ix1 t) := by
  refine broadcastInDim_apply ![1] h y (ix2 u t) (ix1 t) ?_
  intro a
  fin_cases a
  show t.val = if n = 1 then 0 else t.val
  split_ifs with hn
  · have := t.isLt; omega
  · rfl

/-- A bias vector of `[n]`, as the reference broadcasts it (to one row, that row over the `m` rows), read at
    `(r, j)`, is its entry `j`: what its reshape to one row reads at `(0, j)`. -/
theorem hostBias_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (b : (⟨1, ![n]⟩ : Shape).Idx → α) (r : Fin m) (j : Fin n) :
    broadcastInDim ⟨2, ![m, n]⟩ ![0, 1] h2 (broadcastInDim ⟨2, ![1, n]⟩ ![1] h1 b) (ix2 r j)
      = shapeCast ⟨2, ![1, n]⟩ b hc (ix2 (0 : Fin 1) j) := by
  rw [broadcastInDim_oneRow_apply, broadcastInDim_a_1a_apply, shapeCast_a_1a_apply]

/-! ## The reference's head, index by index, at the extended reals -/

section AtIdeal

open Cert.ReferenceIdeal Cert.ReferenceIdeal.Gen

/-- The first product at `(r, j)`. -/
theorem dot1_apply (x : Vec Ideal S256x82 .f32) (W : Vec Ideal S82x256 .f32) (r j : Fin 256) :
    Host.dotGeneral (F := Ideal) (φ₁ := .f32) (φ₂ := .f32) dot_S256x82_S82x256_S256x256_1_0_0_1_n_n none x W (ix2 r j)
      = ∑ k : Fin 82, (x (ix2 r k) : EReal) * (W (ix2 k j) : EReal) :=
  StackMember.dotGeneral_plain_apply (m := 256) (n := 256) (k := 82) none x W r j

/-- The second product at `(r, j)`. -/
theorem dot2_apply (a : Vec Ideal S256x256 .f32) (W : Vec Ideal S256x256 .f32) (r j : Fin 256) :
    Host.dotGeneral (F := Ideal) (φ₁ := .f32) (φ₂ := .f32) dot_S256x256_S256x256_S256x256_1_0_0_1_n_n none a W (ix2 r j)
      = ∑ k : Fin 256, (a (ix2 r k) : EReal) * (W (ix2 k j) : EReal) :=
  StackMember.dotGeneral_plain_apply (m := 256) (n := 256) (k := 256) none a W r j

/-- The third product at `(r, c)`. -/
theorem dot3_apply (a : Vec Ideal S256x256 .f32) (W : Vec Ideal S256x1 .f32) (r : Fin 256) (c : Fin 1) :
    Host.dotGeneral (F := Ideal) (φ₁ := .f32) (φ₂ := .f32) dot_S256x256_S256x1_S256x1_1_0_0_1_n_n none a W (ix2 r c)
      = ∑ k : Fin 256, (a (ix2 r k) : EReal) * (W (ix2 k c) : EReal) :=
  StackMember.dotGeneral_plain_apply (m := 256) (n := 1) (k := 256) none a W r c

/-- The host's relu at `(r, j)`. -/
theorem hostRelu_apply (a : Vec Ideal S256x256 .f32) (r j : Fin 256) :
    hostRelu (F := Ideal) a (ix2 r j) = max (a (ix2 r j) : EReal) 0 := by
  unfold hostRelu
  rw [maximumf_apply, broadcastInDim_scalar_apply, constant_apply, Ideal.ofBits_zero_f32]

end AtIdeal

/-- The reference's head is the kernel region's value function of the same arrays, the three bias vectors reshaped
    to one row each: layer by layer, index by index. -/
theorem mlpHost_eq (x : Vec Ideal Cert.KernelIdeal.S256x82 .f32) (W1 : Vec Ideal Cert.KernelIdeal.S82x256 .f32)
    (b1 : Vec Ideal Cert.KernelIdeal.S256 .f32) (W2 : Vec Ideal Cert.KernelIdeal.S256x256 .f32)
    (b2 : Vec Ideal Cert.KernelIdeal.S256 .f32) (W3 : Vec Ideal Cert.KernelIdeal.S256x1 .f32)
    (b3 : Vec Ideal Cert.KernelIdeal.S1 .f32) :
    mlpHost (F := Ideal) x W1 b1 W2 b2 W3 b3
      = G14_7 x W1 (shapeCast Cert.KernelIdeal.S1x256 b1 Cert.KernelIdeal.Gen.shapeCasts_S256_S1x256) W2
          (shapeCast Cert.KernelIdeal.S1x256 b2 Cert.KernelIdeal.Gen.shapeCasts_S256_S1x256) W3
          (shapeCast Cert.KernelIdeal.S1x1 b3 Cert.KernelIdeal.Gen.shapeCasts_S1_S1x1) := by
  funext i
  obtain ⟨r, c, rfl⟩ : ∃ (r : Fin 256) (c : Fin 1), i = ix2 r c := ⟨i 0, i 1, eq_ix2 i⟩
  obtain rfl : c = 0 := Subsingleton.elim _ _
  have l1 : ∀ j : Fin 256,
      hostRelu (F := Ideal)
        (addf (Host.dotGeneral (F := Ideal) (φ₁ := .f32) (φ₂ := .f32) Cert.ReferenceIdeal.dot_S256x82_S82x256_S256x256_1_0_0_1_n_n none x W1)
          (broadcastInDim Cert.ReferenceIdeal.S256x256 ![0, 1] Cert.ReferenceIdeal.Gen.bcast_S1x256_S256x256_0_1
            (broadcastInDim Cert.ReferenceIdeal.S1x256 ![1] Cert.ReferenceIdeal.Gen.bcast_S256_S1x256_1 b1))) (ix2 r j)
        = H14_1 x W1 (shapeCast Cert.KernelIdeal.S1x256 b1 Cert.KernelIdeal.Gen.shapeCasts_S256_S1x256) r j := by
    intro j
    rw [hostRelu_apply, addf_apply, dot1_apply,
      hostBias_apply _ _ Cert.KernelIdeal.Gen.shapeCasts_S256_S1x256]
    rfl
  have l2 : ∀ j : Fin 256,
      hostRelu (F := Ideal)
        (addf
          (Host.dotGeneral (F := Ideal) (φ₁ := .f32) (φ₂ := .f32) Cert.ReferenceIdeal.dot_S256x256_S256x256_S256x256_1_0_0_1_n_n none
            (hostRelu (F := Ideal)
              (addf (Host.dotGeneral (F := Ideal) (φ₁ := .f32) (φ₂ := .f32) Cert.ReferenceIdeal.dot_S256x82_S82x256_S256x256_1_0_0_1_n_n none x W1)
                (broadcastInDim Cert.ReferenceIdeal.S256x256 ![0, 1] Cert.ReferenceIdeal.Gen.bcast_S1x256_S256x256_0_1
                  (broadcastInDim Cert.ReferenceIdeal.S1x256 ![1] Cert.ReferenceIdeal.Gen.bcast_S256_S1x256_1 b1))))
            W2)
          (broadcastInDim Cert.ReferenceIdeal.S256x256 ![0, 1] Cert.ReferenceIdeal.Gen.bcast_S1x256_S256x256_0_1
            (broadcastInDim Cert.ReferenceIdeal.S1x256 ![1] Cert.ReferenceIdeal.Gen.bcast_S256_S1x256_1 b2))) (ix2 r j)
        = H14_2 x W1 (shapeCast Cert.KernelIdeal.S1x256 b1 Cert.KernelIdeal.Gen.shapeCasts_S256_S1x256) W2
            (shapeCast Cert.KernelIdeal.S1x256 b2 Cert.KernelIdeal.Gen.shapeCasts_S256_S1x256) r j := by
    intro j
    rw [hostRelu_apply, addf_apply, dot2_apply,
      hostBias_apply _ _ Cert.KernelIdeal.Gen.shapeCasts_S256_S1x256]
    simp only [l1]
    rfl
  unfold mlpHost
  rw [addf_apply, dot3_apply]
  simp only [l2]
  rw [hostBias_apply _ _ Cert.KernelIdeal.Gen.shapeCasts_S1_S1x1]
  rfl

/-! ## The step -/

/-- STEP "MLP head", over plain arrays: the kernel region's value function of the MLP input, the weights and the bias
    vectors reshaped to one row each is what the reference's last chunk leaves, when the reference's entry buffers are
    those arrays. -/
theorem step_mlp_core (Qr : Valuation Cert.ReferenceIdeal.τ Cert.ReferenceIdeal.sig (Elt Ideal))
    (x : Vec Ideal Cert.KernelIdeal.S256x82 .f32) (W1 : Vec Ideal Cert.KernelIdeal.S82x256 .f32)
    (b1 : Vec Ideal Cert.KernelIdeal.S256 .f32) (W2 : Vec Ideal Cert.KernelIdeal.S256x256 .f32)
    (b2 : Vec Ideal Cert.KernelIdeal.S256 .f32) (W3 : Vec Ideal Cert.KernelIdeal.S256x1 .f32)
    (b3 : Vec Ideal Cert.KernelIdeal.S1 .f32)
    (hx : x = Qr (Proc.devRef .tc Cert.ReferenceIdeal.main_v412))
    (h25 : W1 = Qr (Proc.devRef .tc Cert.ReferenceIdeal.main_arg25))
    (h26 : b1 = Qr (Proc.devRef .tc Cert.ReferenceIdeal.main_arg26))
    (h27 : W2 = Qr (Proc.devRef .tc Cert.ReferenceIdeal.main_arg27))
    (h28 : b2 = Qr (Proc.devRef .tc Cert.ReferenceIdeal.main_arg28))
    (h29 : W3 = Qr (Proc.devRef .tc Cert.ReferenceIdeal.main_arg29))
    (h30 : b3 = Qr (Proc.devRef .tc Cert.ReferenceIdeal.main_arg30)) :
    G14_7 x W1 (shapeCast Cert.KernelIdeal.S1x256 b1 Cert.KernelIdeal.Gen.shapeCasts_S256_S1x256) W2
        (shapeCast Cert.KernelIdeal.S1x256 b2 Cert.KernelIdeal.Gen.shapeCasts_S256_S1x256) W3
        (shapeCast Cert.KernelIdeal.S1x1 b3 Cert.KernelIdeal.Gen.shapeCasts_S1_S1x1)
      = StableHlo.after (Cert.ReferenceIdeal.Hand.rops17 (F := Ideal)) Qr (Proc.devRef .tc Cert.ReferenceIdeal.main_v426) := by
  rw [reference_mlp, ← mlpHost_eq, hx, h25, h26, h27, h28, h29, h30]

set_option maxHeartbeats 4000000 in
/-- The kernel's last host stretch leaves the first bias row at the reshape of argument 26. -/
theorem kernel_b1 (Wk : Valuation Cert.KernelIdeal.τ Cert.KernelIdeal.sig (Elt Ideal)) :
    StableHlo.after (Cert.KernelIdeal.Gen.hostOps14 (F := Ideal)) Wk (Proc.devRef .tc Cert.KernelIdeal.main_v278)
      = shapeCast Cert.KernelIdeal.S1x256 (Wk (Proc.devRef .tc Cert.KernelIdeal.main_arg26))
          Cert.KernelIdeal.Gen.shapeCasts_S256_S1x256 := by
  read_after
  rfl

set_option maxHeartbeats 4000000 in
/-- The kernel's last host stretch leaves the second bias row at the reshape of argument 28. -/
theorem kernel_b2 (Wk : Valuation Cert.KernelIdeal.τ Cert.KernelIdeal.sig (Elt Ideal)) :
    StableHlo.after (Cert.KernelIdeal.Gen.hostOps14 (F := Ideal)) Wk (Proc.devRef .tc Cert.KernelIdeal.main_v279)
      = shapeCast Cert.KernelIdeal.S1x256 (Wk (Proc.devRef .tc Cert.KernelIdeal.main_arg28))
          Cert.KernelIdeal.Gen.shapeCasts_S256_S1x256 := by
  read_after
  rfl

set_option maxHeartbeats 4000000 in
/-- The kernel's last host stretch leaves the output bias at the reshape of argument 30. -/
theorem kernel_b3 (Wk : Valuation Cert.KernelIdeal.τ Cert.KernelIdeal.sig (Elt Ideal)) :
    StableHlo.after (Cert.KernelIdeal.Gen.hostOps14 (F := Ideal)) Wk (Proc.devRef .tc Cert.KernelIdeal.main_v280)
      = shapeCast Cert.KernelIdeal.S1x1 (Wk (Proc.devRef .tc Cert.KernelIdeal.main_arg30))
          Cert.KernelIdeal.Gen.shapeCasts_S1_S1x1 := by
  read_after
  rfl

/-- The kernel's last host stretch writes no argument: a weight array is after it as before it. -/
theorem kernel_arg_stays (Wk : Valuation Cert.KernelIdeal.τ Cert.KernelIdeal.sig (Elt Ideal)) (r : Ref Cert.KernelIdeal.sig .tc)
    (h : r ∉ Cert.KernelIdeal.GenP.hostOps14_W) :
    StableHlo.after (Cert.KernelIdeal.Gen.hostOps14 (F := Ideal)) Wk (Proc.devRef .tc r) = Wk (Proc.devRef .tc r) :=
  StableHlo.after_of_writes_sub _ Wk Cert.KernelIdeal.GenP.hostOps14_writes h

/-- STEP "MLP head": region 14's value function of its seven input arrays, read after the kernel's last host stretch,
    is what the reference's last chunk leaves in its result, when the MLP inputs agree and arguments 25 … 30 agree. -/
theorem step_mlp (Wk : Valuation Cert.KernelIdeal.τ Cert.KernelIdeal.sig (Elt Ideal))
    (Qr : Valuation Cert.ReferenceIdeal.τ Cert.ReferenceIdeal.sig (Elt Ideal))
    (hx : (StableHlo.after (Cert.KernelIdeal.Gen.hostOps14 (F := Ideal)) Wk (Proc.devRef .tc Cert.KernelIdeal.main_v277)
            : Vec Ideal Cert.KernelIdeal.S256x82 .f32) = Qr (Proc.devRef .tc Cert.ReferenceIdeal.main_v412))
    (h25 : (Wk (Proc.devRef .tc Cert.KernelIdeal.main_arg25) : Vec Ideal Cert.KernelIdeal.S82x256 .f32)
            = Qr (Proc.devRef .tc Cert.ReferenceIdeal.main_arg25))
    (h26 : (Wk (Proc.devRef .tc Cert.KernelIdeal.main_arg26) : Vec Ideal Cert.KernelIdeal.S256 .f32)
            = Qr (Proc.devRef .tc Cert.ReferenceIdeal.main_arg26))
    (h27 : (Wk (Proc.devRef .tc Cert.KernelIdeal.main_arg27) : Vec Ideal Cert.KernelIdeal.S256x256 .f32)
            = Qr (Proc.devRef .tc Cert.ReferenceIdeal.main_arg27))
    (h28 : (Wk (Proc.devRef .tc Cert.KernelIdeal.main_arg28) : Vec Ideal Cert.KernelIdeal.S256 .f32)
            = Qr (Proc.devRef .tc Cert.ReferenceIdeal.main_arg28))
    (h29 : (Wk (Proc.devRef .tc Cert.KernelIdeal.main_arg29) : Vec Ideal Cert.KernelIdeal.S256x1 .f32)
            = Qr (Proc.devRef .tc Cert.ReferenceIdeal.main_arg29))
    (h30 : (Wk (Proc.devRef .tc Cert.KernelIdeal.main_arg30) : Vec Ideal Cert.KernelIdeal.S1 .f32)
            = Qr (Proc.devRef .tc Cert.ReferenceIdeal.main_arg30)) :
    G14_7
        (StableHlo.after (Cert.KernelIdeal.Gen.hostOps14 (F := Ideal)) Wk (Proc.devRef .tc Cert.KernelIdeal.main_v277))
        (StableHlo.after (Cert.KernelIdeal.Gen.hostOps14 (F := Ideal)) Wk (Proc.devRef .tc Cert.KernelIdeal.main_arg25))
        (StableHlo.after (Cert.KernelIdeal.Gen.hostOps14 (F := Ideal)) Wk (Proc.devRef .tc Cert.KernelIdeal.main_v278))
        (StableHlo.after (Cert.KernelIdeal.Gen.hostOps14 (F := Ideal)) Wk (Proc.devRef .tc Cert.KernelIdeal.main_arg27))
        (StableHlo.after (Cert.KernelIdeal.Gen.hostOps14 (F := Ideal)) Wk (Proc.devRef .tc Cert.KernelIdeal.main_v279))
        (StableHlo.after (Cert.KernelIdeal.Gen.hostOps14 (F := Ideal)) Wk (Proc.devRef .tc Cert.KernelIdeal.main_arg29))
        (StableHlo.after (Cert.KernelIdeal.Gen.hostOps14 (F := Ideal)) Wk (Proc.devRef .tc Cert.KernelIdeal.main_v280))
      = StableHlo.after (Cert.ReferenceIdeal.Hand.rops17 (F := Ideal)) Qr (Proc.devRef .tc Cert.ReferenceIdeal.main_v426) := by
  rw [kernel_arg_stays Wk Cert.KernelIdeal.main_arg25 (by decide), kernel_arg_stays Wk Cert.KernelIdeal.main_arg27 (by decide),
    kernel_arg_stays Wk Cert.KernelIdeal.main_arg29 (by decide), kernel_b1, kernel_b2, kernel_b3]
  exact step_mlp_core Qr _ _ _ _ _ _ _ hx h25 h26 h27 h28 h29 h30

end Cert.Bridge

end
-- ==== Proof.BR.FinalEnd.lean ====
import proofs.«142356_j74423193305351_1_alg».proof.Proof.BR.FinalBase
import proofs.«142356_j74423193305351_1_alg».proof.Proof.BR.Readout
import proofs.«142356_j74423193305351_1_alg».proof.Proof.BR.MlpHead

/-! # The chain of the steps: the readout and the MLP head -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The readout: the kernel's last host stretch leaves the MLP's input at the reference's. -/
theorem x_eq (h : Agree m m' c) (hh : (Cert.KernelIdeal.Hand.W36 m c) (Proc.devRef .tc Cert.KernelIdeal.main_v251) = (Q15 m' c) (Proc.devRef .tc Cert.ReferenceIdeal.main_v374)) :
    ((StableHlo.after (Cert.KernelIdeal.Gen.hostOps14 (F := Ideal)) (Cert.KernelIdeal.Hand.W40 m c)) (Proc.devRef .tc Cert.KernelIdeal.main_v277) : Vec Ideal Cert.KernelIdeal.S256x82 .f32) = (Q17 m' c) (Proc.devRef .tc Cert.ReferenceIdeal.main_v412) := by
  have key := step_readout (Cert.KernelIdeal.Hand.W40 m c) (Q16 m' c)
    ((Cert.KernelIdeal.Hand.W40_eq_W36_v251 m c).trans (hh.trans (Q16_of m' c Cert.ReferenceIdeal.main_v374 (by decide +kernel)).symm))
    ((Cert.KernelIdeal.Hand.W40_eq_launch_arg4 m c).trans ((agree_4 m m' c h).trans (Q16_arg m' c (r := Cert.ReferenceIdeal.main_arg4) (by decide)).symm))
    ((Cert.KernelIdeal.Hand.W40_eq_launch_arg5 m c).trans ((agree_5 m m' c h).trans (Q16_arg m' c (r := Cert.ReferenceIdeal.main_arg5) (by decide)).symm))
    ((Cert.KernelIdeal.Hand.W40_eq_launch_arg6 m c).trans ((agree_6 m m' c h).trans (Q16_arg m' c (r := Cert.ReferenceIdeal.main_arg6) (by decide)).symm))
  rw [Q17_def m' c]
  exact key

/-- The MLP head: what the kernel's last region leaves in its output array is what the reference's run leaves in its
    result buffer. -/
theorem out_eq (h : Agree m m' c) (hh : (Cert.KernelIdeal.Hand.W36 m c) (Proc.devRef .tc Cert.KernelIdeal.main_v251) = (Q15 m' c) (Proc.devRef .tc Cert.ReferenceIdeal.main_v374)) : Cert.KernelIdeal.Hand.o42_main_v281 m c = (Q18 m' c) (Proc.devRef .tc Cert.ReferenceIdeal.main_v426) := by
  have key := step_mlp (Cert.KernelIdeal.Hand.W40 m c) (Q17 m' c) (x_eq m m' c h hh)
    ((Cert.KernelIdeal.Hand.W40_eq_launch_arg25 m c).trans ((agree_25 m m' c h).trans (Q17_arg m' c (r := Cert.ReferenceIdeal.main_arg25) (by decide)).symm))
    ((Cert.KernelIdeal.Hand.W40_eq_launch_arg26 m c).trans ((agree_26 m m' c h).trans (Q17_arg m' c (r := Cert.ReferenceIdeal.main_arg26) (by decide)).symm))
    ((Cert.KernelIdeal.Hand.W40_eq_launch_arg27 m c).trans ((agree_27 m m' c h).trans (Q17_arg m' c (r := Cert.ReferenceIdeal.main_arg27) (by decide)).symm))
    ((Cert.KernelIdeal.Hand.W40_eq_launch_arg28 m c).trans ((agree_28 m m' c h).trans (Q17_arg m' c (r := Cert.ReferenceIdeal.main_arg28) (by decide)).symm))
    ((Cert.KernelIdeal.Hand.W40_eq_launch_arg29 m c).trans ((agree_29 m m' c h).trans (Q17_arg m' c (r := Cert.ReferenceIdeal.main_arg29) (by decide)).symm))
    ((Cert.KernelIdeal.Hand.W40_eq_launch_arg30 m c).trans ((agree_30 m m' c h).trans (Q17_arg m' c (r := Cert.ReferenceIdeal.main_arg30) (by decide)).symm))
  have e : Cert.KernelIdeal.Hand.o42_main_v281 m c = (Cert.KernelIdeal.Hand.W42 m c) (Proc.devRef .tc Cert.KernelIdeal.main_v281) := by
    exact (Function.update_self (Proc.devRef .tc Cert.KernelIdeal.main_v281) (Cert.KernelIdeal.Hand.o42_main_v281 m c) (Cert.KernelIdeal.Hand.W41 m c)).symm
  rw [e, Cert.KernelIdeal.Hand.W42_v281, W41_def m c, Q18_def m' c]
  exact key

/-- The readout and the head, from the node features layer 2 leaves. -/
theorem tail (h : Agree m m' c) (hH : (Cert.KernelIdeal.Hand.W36 m c) (Proc.devRef .tc Cert.KernelIdeal.main_v251) = (Q15 m' c) (Proc.devRef .tc Cert.ReferenceIdeal.main_v374)) :
    Cert.KernelIdeal.Hand.o42_main_v281 m c = (Q18 m' c) (Proc.devRef .tc Cert.ReferenceIdeal.main_v426) :=
  out_eq m m' c h hH

end Cert.Bridge
-- ==== Proof.BR.Final.lean ====
import proofs.«142356_j74423193305351_1_alg».proof.Proof.BR.FinalL0
import proofs.«142356_j74423193305351_1_alg».proof.Proof.BR.FinalL1
import proofs.«142356_j74423193305351_1_alg».proof.Proof.BR.FinalL2
import proofs.«142356_j74423193305351_1_alg».proof.Proof.BR.FinalEnd

/-! # The kernel's result is the reference's: the links, chained -/

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- THE RESULT, from the agreement of the arguments: the embeddings, the three layers, the readout and the head. -/
theorem result_chain (h : Agree m m' c) : Cert.KernelIdeal.Hand.o42_main_v281 m c = (Q18 m' c) (Proc.devRef .tc Cert.ReferenceIdeal.main_v426) := by
  obtain ⟨h1, e1⟩ := layer0 m m' c h
  obtain ⟨h2, e2⟩ := layer1 m m' c h h1 e1
  exact tail m m' c h (layer2 m m' c h h2 e2)

/-- The same, from the hypothesis as the claim states it. -/
theorem result_eq
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.KernelIdeal.Hand.o42_main_v281 m c = (Q18 m' c) (Proc.devRef .tc Cert.ReferenceIdeal.main_v426) :=
  result_chain m m' c (Agree.of_conj m m' c hagree)

end Cert.Bridge
-- ==== Proof.lean ====
/- The proof of `Cert.Claim` (proofs.«142356_j74423193305351_1_alg».proof.Defs): a three-layer gated graph convolution with a mean readout and an
   MLP head — fifteen kernel launches among host operations — against the same network written in plain array operations.
   The three frames: each kernel program's from one segment record per launch (the body of each launch run once at a
   generic grid point, its windows' arrays split out of the unscoped buffers and put back), over the program's conditional
   frame; the reference's from its @main read as one list of host operations. `preserves` is trivial: the idealization
   rewrote nothing. The equivalence: both runs end with every buffer at a fold of the launch memory through the program's
   items; each launch's output array is one whole-array function of its input arrays (a tiled matrix product plus bias; the
   edge update with its sigmoid; batch normalisation, relu and residual; the MLP), and stage by stage these are the
   reference's arrays: a matrix product against four weight blocks side by side is the four products side by side, the
   sigmoid is 1 / (1 + exp (-x)) on the extended reals by definition, every other host stretch is the same operations on
   equal operands. -/
import proofs.«142356_j74423193305351_1_alg».proof.Defs
import proofs.«142356_j74423193305351_1_alg».proof.Proof.Gen.Kernel
import proofs.«142356_j74423193305351_1_alg».proof.Proof.Gen.KernelIdeal
import proofs.«142356_j74423193305351_1_alg».proof.Proof.Gen.ReferenceIdeal
import proofs.«142356_j74423193305351_1_alg».proof.Proof.Gen.Pre_finite_inputs
import proofs.«142356_j74423193305351_1_alg».proof.Proof.K.Run
import proofs.«142356_j74423193305351_1_alg».proof.Proof.KI.Run
import proofs.«142356_j74423193305351_1_alg».proof.Proof.RI.Run
import proofs.«142356_j74423193305351_1_alg».proof.Proof.BR.RefStages
import proofs.«142356_j74423193305351_1_alg».proof.Proof.BR.Final
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m g _ => Cert.Kernel.Hand.frame m g

/-- The same for the idealized kernel program. -/
theorem frame_ki : Cert.frame_KernelIdeal := fun m g _ => Cert.KernelIdeal.Hand.frame m g

/-- The reference: its @main is a list of host operations, none of which writes an argument. -/
theorem frame_ri : Cert.frame_ReferenceIdeal := fun m g _ => Cert.ReferenceIdeal.Hand.frame m g

/-- The idealization rewrote nothing. -/
theorem preserves : Cert.preserves_Kernel_KernelIdeal := trivial

/-- On the extended reals the kernel program's result array (the last launch's output) is the reference's result
    buffer after its last operation, from memories that agree on the arguments. -/
theorem algebraic : Cert.algebraic_KernelIdeal_ReferenceIdeal := by
  intro m g m' g' _ hagree
  refine ⟨fun c => Cert.KernelIdeal.Hand.o42_main_v281 m c, Cert.KernelIdeal.Hand.run_result (F := Ideal) m g, ?_⟩
  refine (θ_run Cert.ReferenceIdeal.defs _ _).mono (fun _ h c => ?_) (Cert.ReferenceIdeal.Hand.run (F := Ideal) m' g')
  exact ⟨(h c Cert.ReferenceIdeal.main_v426).trans
      ((congrFun (Cert.Bridge.Q18_eq m' c) _).symm.trans (Cert.Bridge.result_eq m m' c (hagree c)).symm),
     (h c Cert.ReferenceIdeal.main_arg0).trans (Cert.ReferenceIdeal.Hand.args_kept (StableHlo.launchContents m' c) (r := Cert.ReferenceIdeal.main_arg0) (by decide)),
     (h c Cert.ReferenceIdeal.main_arg1).trans (Cert.ReferenceIdeal.Hand.args_kept (StableHlo.launchContents m' c) (r := Cert.ReferenceIdeal.main_arg1) (by decide)),
     (h c Cert.ReferenceIdeal.main_arg2).trans (Cert.ReferenceIdeal.Hand.args_kept (StableHlo.launchContents m' c) (r := Cert.ReferenceIdeal.main_arg2) (by decide)),
     (h c Cert.ReferenceIdeal.main_arg3).trans (Cert.ReferenceIdeal.Hand.args_kept (StableHlo.launchContents m' c) (r := Cert.ReferenceIdeal.main_arg3) (by decide)),
     (h c Cert.ReferenceIdeal.main_arg4).trans (Cert.ReferenceIdeal.Hand.args_kept (StableHlo.launchContents m' c) (r := Cert.ReferenceIdeal.main_arg4) (by decide)),
     (h c Cert.ReferenceIdeal.main_arg5).trans (Cert.ReferenceIdeal.Hand.args_kept (StableHlo.launchContents m' c) (r := Cert.ReferenceIdeal.main_arg5) (by decide)),
     (h c Cert.ReferenceIdeal.main_arg6).trans (Cert.ReferenceIdeal.Hand.args_kept (StableHlo.launchContents m' c) (r := Cert.ReferenceIdeal.main_arg6) (by decide)),
     (h c Cert.ReferenceIdeal.main_arg7).trans (Cert.ReferenceIdeal.Hand.args_kept (StableHlo.launchContents m' c) (r := Cert.ReferenceIdeal.main_arg7) (by decide)),
     (h c Cert.ReferenceIdeal.main_arg8).trans (Cert.ReferenceIdeal.Hand.args_kept (StableHlo.launchContents m' c) (r := Cert.ReferenceIdeal.main_arg8) (by decide)),
     (h c Cert.ReferenceIdeal.main_arg9).trans (Cert.ReferenceIdeal.Hand.args_kept (StableHlo.launchContents m' c) (r := Cert.ReferenceIdeal.main_arg9) (by decide)),
     (h c Cert.ReferenceIdeal.main_arg10).trans (Cert.ReferenceIdeal.Hand.args_kept (StableHlo.launchContents m' c) (r := Cert.ReferenceIdeal.main_arg10) (by decide)),
     (h c Cert.ReferenceIdeal.main_arg11).trans (Cert.ReferenceIdeal.Hand.args_kept (StableHlo.launchContents m' c) (r := Cert.ReferenceIdeal.main_arg11) (by decide)),
     (h c Cert.ReferenceIdeal.main_arg12).trans (Cert.ReferenceIdeal.Hand.args_kept (StableHlo.launchContents m' c) (r := Cert.ReferenceIdeal.main_arg12) (by decide)),
     (h c Cert.ReferenceIdeal.main_arg13).trans (Cert.ReferenceIdeal.Hand.args_kept (StableHlo.launchContents m' c) (r := Cert.ReferenceIdeal.main_arg13) (by decide)),
     (h c Cert.ReferenceIdeal.main_arg14).trans (Cert.ReferenceIdeal.Hand.args_kept (StableHlo.launchContents m' c) (r := Cert.ReferenceIdeal.main_arg14) (by decide)),
     (h c Cert.ReferenceIdeal.main_arg15).trans (Cert.ReferenceIdeal.Hand.args_kept (StableHlo.launchContents m' c) (r := Cert.ReferenceIdeal.main_arg15) (by decide)),
     (h c Cert.ReferenceIdeal.main_arg16).trans (Cert.ReferenceIdeal.Hand.args_kept (StableHlo.launchContents m' c) (r := Cert.ReferenceIdeal.main_arg16) (by decide)),
     (h c Cert.ReferenceIdeal.main_arg17).trans (Cert.ReferenceIdeal.Hand.args_kept (StableHlo.launchContents m' c) (r := Cert.ReferenceIdeal.main_arg17) (by decide)),
     (h c Cert.ReferenceIdeal.main_arg18).trans (Cert.ReferenceIdeal.Hand.args_kept (StableHlo.launchContents m' c) (r := Cert.ReferenceIdeal.main_arg18) (by decide)),
     (h c Cert.ReferenceIdeal.main_arg19).trans (Cert.ReferenceIdeal.Hand.args_kept (StableHlo.launchContents m' c) (r := Cert.ReferenceIdeal.main_arg19) (by decide)),
     (h c Cert.ReferenceIdeal.main_arg20).trans (Cert.ReferenceIdeal.Hand.args_kept (StableHlo.launchContents m' c) (r := Cert.ReferenceIdeal.main_arg20) (by decide)),
     (h c Cert.ReferenceIdeal.main_arg21).trans (Cert.ReferenceIdeal.Hand.args_kept (StableHlo.launchContents m' c) (r := Cert.ReferenceIdeal.main_arg21) (by decide)),
     (h c Cert.ReferenceIdeal.main_arg22).trans (Cert.ReferenceIdeal.Hand.args_kept (StableHlo.launchContents m' c) (r := Cert.ReferenceIdeal.main_arg22) (by decide)),
     (h c Cert.ReferenceIdeal.main_arg23).trans (Cert.ReferenceIdeal.Hand.args_kept (StableHlo.launchContents m' c) (r := Cert.ReferenceIdeal.main_arg23) (by decide)),
     (h c Cert.ReferenceIdeal.main_arg24).trans (Cert.ReferenceIdeal.Hand.args_kept (StableHlo.launchContents m' c) (r := Cert.ReferenceIdeal.main_arg24) (by decide)),
     (h c Cert.ReferenceIdeal.main_arg25).trans (Cert.ReferenceIdeal.Hand.args_kept (StableHlo.launchContents m' c) (r := Cert.ReferenceIdeal.main_arg25) (by decide)),
     (h c Cert.ReferenceIdeal.main_arg26).trans (Cert.ReferenceIdeal.Hand.args_kept (StableHlo.launchContents m' c) (r := Cert.ReferenceIdeal.main_arg26) (by decide)),
     (h c Cert.ReferenceIdeal.main_arg27).trans (Cert.ReferenceIdeal.Hand.args_kept (StableHlo.launchContents m' c) (r := Cert.ReferenceIdeal.main_arg27) (by decide)),
     (h c Cert.ReferenceIdeal.main_arg28).trans (Cert.ReferenceIdeal.Hand.args_kept (StableHlo.launchContents m' c) (r := Cert.ReferenceIdeal.main_arg28) (by decide)),
     (h c Cert.ReferenceIdeal.main_arg29).trans (Cert.ReferenceIdeal.Hand.args_kept (StableHlo.launchContents m' c) (r := Cert.ReferenceIdeal.main_arg29) (by decide)),
     (h c Cert.ReferenceIdeal.main_arg30).trans (Cert.ReferenceIdeal.Hand.args_kept (StableHlo.launchContents m' c) (r := Cert.ReferenceIdeal.main_arg30) (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
